-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x20000 : Shape := ⟨2, ![2048, 20000]⟩
abbrev S1x20000 : Shape := ⟨2, ![1, 20000]⟩
abbrev S20000x256 : Shape := ⟨2, ![20000, 256]⟩
abbrev S2048x256 : Shape := ⟨2, ![2048, 256]⟩
abbrev S1x256 : Shape := ⟨2, ![1, 256]⟩
abbrev S768x1 : Shape := ⟨2, ![768, 1]⟩
abbrev S1x1 : Shape := ⟨2, ![1, 1]⟩
abbrev S256x256 : Shape := ⟨2, ![256, 256]⟩
abbrev S_ : Shape := ⟨0, ![]⟩

class Facts : Prop where
  bcast_S_S2048x20000 : S_.BroadcastsInDim S2048x20000 (![] : Fin 0 → Fin S2048x20000.rank)
  reducesTo_S2048x20000_S_d0_1 : S2048x20000.ReducesTo [0, 1] S_
  h_S_ : 0 < S_.numel
  bcast_S_S1x20000 : S_.BroadcastsInDim S1x20000 (![] : Fin 0 → Fin S1x20000.rank)
  reducesTo_S1x20000_S_d0_1 : S1x20000.ReducesTo [0, 1] S_
  bcast_S_S20000x256 : S_.BroadcastsInDim S20000x256 (![] : Fin 0 → Fin S20000x256.rank)
  reducesTo_S20000x256_S_d0_1 : S20000x256.ReducesTo [0, 1] S_
  bcast_S_S2048x256 : S_.BroadcastsInDim S2048x256 (![] : Fin 0 → Fin S2048x256.rank)
  reducesTo_S2048x256_S_d0_1 : S2048x256.ReducesTo [0, 1] S_
  bcast_S_S1x256 : S_.BroadcastsInDim S1x256 (![] : Fin 0 → Fin S1x256.rank)
  reducesTo_S1x256_S_d0_1 : S1x256.ReducesTo [0, 1] S_
  bcast_S_S768x1 : S_.BroadcastsInDim S768x1 (![] : Fin 0 → Fin S768x1.rank)
  reducesTo_S768x1_S_d0_1 : S768x1.ReducesTo [0, 1] S_
  bcast_S_S1x1 : S_.BroadcastsInDim S1x1 (![] : Fin 0 → Fin S1x1.rank)
  reducesTo_S1x1_S_d0_1 : S1x1.ReducesTo [0, 1] S_
  bcast_S_S256x256 : S_.BroadcastsInDim S256x256 (![] : Fin 0 → Fin S256x256.rank)
  reducesTo_S256x256_S_d0_1 : S256x256.ReducesTo [0, 1] S_

variable [Facts]

def fn_part4 {F : FTy → Type} [FloatOps F] (main_arg14 : FVec F S1x256 .f32) (main_arg15 : FVec F S1x256 .f32) (main_v63 : IVec S_ 1) (main_v67 : IVec S_ 1) : IVec S_ 1 :=
  let main_v68 : IVec S_ 1 := andi main_v63 main_v67
  let main_v69 : FVec F S1x256 .f32 := Host.absf main_arg14
  let main_cst_26 : FVec F S_ .f32 := constant S_ .f32 0x7F800000#32
  let main_v70 : FVec F S1x256 .f32 := broadcastInDim S1x256 ![] bcast_S_S1x256 main_cst_26
  let main_v71 : IVec S1x256 1 := cmpf .olt main_v69 main_v70
  let main_c_27 : IVec S_ 1 := constantI S_ 1 1#1
  let main_v72 : IVec S_ 1 := (fun x v => Host.reduce IntOp.andi x v reducesTo_S1x256_S_d0_1 h_S_) main_v71 main_c_27
  let main_v73 : IVec S_ 1 := andi main_v68 main_v72
  let main_v74 : FVec F S1x256 .f32 := Host.absf main_arg15
  let main_cst_28 : FVec F S_ .f32 := constant S_ .f32 0x7F800000#32
  let main_v75 : FVec F S1x256 .f32 := broadcastInDim S1x256 ![] bcast_S_S1x256 main_cst_28
  let main_v76 : IVec S1x256 1 := cmpf .olt main_v74 main_v75
  let main_c_29 : IVec S_ 1 := constantI S_ 1 1#1
  let main_v77 : IVec S_ 1 := (fun x v => Host.reduce IntOp.andi x v reducesTo_S1x256_S_d0_1 h_S_) main_v76 main_c_29
  let main_v78 : IVec S_ 1 := andi main_v73 main_v77
  main_v78

def fn_part3 {F : FTy → Type} [FloatOps F] (main_arg11 : FVec F S256x256 .f32) (main_arg12 : FVec F S256x256 .f32) (main_arg13 : FVec F S256x256 .f32) (main_arg14 : FVec F S1x256 .f32) (main_arg15 : FVec F S1x256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_v63 main_v67

def fn_part2 {F : FTy → Type} [FloatOps F] (main_arg7 : FVec F S256x256 .f32) (main_arg8 : FVec F S256x256 .f32) (main_arg9 : FVec F S256x256 .f32) (main_arg10 : FVec F S256x256 .f32) (main_arg11 : FVec F S256x256 .f32) (main_arg12 : FVec F S256x256 .f32) (main_arg13 : FVec F S256x256 .f32) (main_arg14 : FVec F S1x256 .f32) (main_arg15 : FVec F S1x256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_v48 main_v49 main_v50

def fn_part1 {F : FTy → Type} [FloatOps F] (main_arg4 : FVec F S1x256 .f32) (main_arg5 : FVec F S768x1 .f32) (main_arg6 : FVec F S1x1 .f32) (main_arg7 : FVec F S256x256 .f32) (main_arg8 : FVec F S256x256 .f32) (main_arg9 : FVec F S256x256 .f32) (main_arg10 : FVec F S256x256 .f32) (main_arg11 : FVec F S256x256 .f32) (main_arg12 : FVec F S256x256 .f32) (main_arg13 : FVec F S256x256 .f32) (main_arg14 : FVec F S1x256 .f32) (main_arg15 : FVec F S1x256 .f32) (main_v13 : IVec S_ 1) (main_v16 : IVec S2048x256 1) : IVec S_ 1 :=
  let main_c_5 : IVec S_ 1 := constantI S_ 1 1#1
  let main_v17 : IVec S_ 1 := (fun x v => Host.reduce IntOp.andi x v reducesTo_S2048x256_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S768x1 .f32 := Host.absf main_arg5
  let main_cst_8 : FVec F S_ .f32 := constant S_ .f32 0x7F800000#32
  let main_v25 : FVec F S768x1 .f32 := broadcastInDim S768x1 ![] bcast_S_S768x1 main_cst_8
  let main_v26 : IVec S768x1 1 := cmpf .olt main_v24 main_v25
  let main_c_9 : IVec S_ 1 := constantI S_ 1 1#1
  let main_v27 : IVec S_ 1 := (fun x v => Host.reduce IntOp.andi x v reducesTo_S768x1_S_d0_1 h_S_) main_v26 main_c_9
  let main_v28 : IVec S_ 1 := andi main_v23 main_v27
  let main_v29 : FVec F S1x1 .f32 := Host.absf main_arg6
  let main_cst_10 : FVec F S_ .f32 := constant S_ .f32 0x7F800000#32
  let main_v30 : FVec F S1x1 .f32 := broadcastInDim S1x1 ![] bcast_S_S1x1 main_cst_10
  let main_v31 : IVec S1x1 1 := cmpf .olt main_v29 main_v30
  let main_c_11 : IVec S_ 1 := constantI S_ 1 1#1
  let main_v32 : IVec S_ 1 := (fun x v => Host.reduce IntOp.andi x v reducesTo_S1x1_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S2048x20000 .f32) (main_arg1 : FVec F S1x20000 .f32) (main_arg2 : FVec F S20000x256 .f32) (main_arg3 : FVec F S2048x256 .f32) (main_arg4 : FVec F S1x256 .f32) (main_arg5 : FVec F S768x1 .f32) (main_arg6 : FVec F S1x1 .f32) (main_arg7 : FVec F S256x256 .f32) (main_arg8 : FVec F S256x256 .f32) (main_arg9 : FVec F S256x256 .f32) (main_arg10 : FVec F S256x256 .f32) (main_arg11 : FVec F S256x256 .f32) (main_arg12 : FVec F S256x256 .f32) (main_arg13 : FVec F S256x256 .f32) (main_arg14 : FVec F S1x256 .f32) (main_arg15 : FVec F S1x256 .f32) : IVec S_ 1 :=
  let main_v0 : FVec F S2048x20000 .f32 := Host.absf main_arg0
  let main_cst : FVec F S_ .f32 := constant S_ .f32 0x7F800000#32
  let main_v1 : FVec F S2048x20000 .f32 := broadcastInDim S2048x20000 ![] bcast_S_S2048x20000 main_cst
  let main_v2 : IVec S2048x20000 1 := cmpf .olt main_v0 main_v1
  let main_c : IVec S_ 1 := constantI S_ 1 1#1
  let main_v3 : IVec S_ 1 := (fun x v => Host.reduce IntOp.andi x v reducesTo_S2048x20000_S_d0_1 h_S_) main_v2 main_c
  let main_v4 : FVec F S1x20000 .f32 := Host.absf main_arg1
  let main_cst_0 : FVec F S_ .f32 := constant S_ .f32 0x7F800000#32
  let main_v5 : FVec F S1x20000 .f32 := broadcastInDim S1x20000 ![] bcast_S_S1x20000 main_cst_0
  let main_v6 : IVec S1x20000 1 := cmpf .olt main_v4 main_v5
  let main_c_1 : IVec S_ 1 := constantI S_ 1 1#1
  let main_v7 : IVec S_ 1 := (fun x v => Host.reduce IntOp.andi x v reducesTo_S1x20000_S_d0_1 h_S_) main_v6 main_c_1
  let main_v8 : IVec S_ 1 := andi main_v3 main_v7
  let main_v9 : FVec F S20000x256 .f32 := Host.absf main_arg2
  let main_cst_2 : FVec F S_ .f32 := constant S_ .f32 0x7F800000#32
  let main_v10 : FVec F S20000x256 .f32 := broadcastInDim S20000x256 ![] bcast_S_S20000x256 main_cst_2
  let main_v11 : IVec S20000x256 1 := cmpf .olt main_v9 main_v10
  let main_c_3 : IVec S_ 1 := constantI S_ 1 1#1
  let main_v12 : IVec S_ 1 := (fun x v => Host.reduce IntOp.andi x v reducesTo_S20000x256_S_d0_1 h_S_) main_v11 main_c_3
  let main_v13 : IVec S_ 1 := andi main_v8 main_v12
  let main_v14 : FVec F S2048x256 .f32 := Host.absf main_arg3
  let main_cst_4 : FVec F S_ .f32 := constant S_ .f32 0x7F800000#32
  let main_v15 : FVec F S2048x256 .f32 := broadcastInDim S2048x256 ![] bcast_S_S2048x256 main_cst_4
  let main_v16 : IVec S2048x256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S2048x20000 : Shape := ⟨2, ![2048, 20000]⟩
abbrev S1x20000 : Shape := ⟨2, ![1, 20000]⟩
abbrev S20000x256 : Shape := ⟨2, ![20000, 256]⟩
abbrev S2048x256 : Shape := ⟨2, ![2048, 256]⟩
abbrev S1x256 : Shape := ⟨2, ![1, 256]⟩
abbrev S768x1 : Shape := ⟨2, ![768, 1]⟩
abbrev S1x1 : Shape := ⟨2, ![1, 1]⟩
abbrev S256x256 : Shape := ⟨2, ![256, 256]⟩
abbrev S_ : Shape := ⟨0, ![]⟩
abbrev S2048x20480 : Shape := ⟨2, ![2048, 20480]⟩
abbrev S1x20480 : Shape := ⟨2, ![1, 20480]⟩
abbrev S20480x256 : Shape := ⟨2, ![20480, 256]⟩
abbrev S1024x2560 : Shape := ⟨2, ![1024, 2560]⟩
abbrev S2560x256 : Shape := ⟨2, ![2560, 256]⟩
abbrev S1024x256 : Shape := ⟨2, ![1024, 256]⟩
abbrev S1x2560 : Shape := ⟨2, ![1, 2560]⟩
abbrev S1x2048 : Shape := ⟨2, ![1, 2048]⟩
abbrev S1 : Shape := ⟨1, ![1]⟩
abbrev S2048x2048 : Shape := ⟨2, ![2048, 2048]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩
abbrev S256x1 : Shape := ⟨2, ![256, 1]⟩
abbrev S256x128 : Shape := ⟨2, ![256, 128]⟩
abbrev S2048x128 : Shape := ⟨2, ![2048, 128]⟩
abbrev S2048x1 : Shape := ⟨2, ![2048, 1]⟩

abbrev nBuf : Space → Nat
  | .hbm => 79
  | .vmem => 116
  | .smem => 0
  | _ => 0

abbrev bufTy : (tb : Table) → Fin (tcTables nBuf tb) → BufTy
  | .hbm, ⟨0, _⟩ => ⟨S2048x20000, .f32⟩
  | .hbm, ⟨1, _⟩ => ⟨S1x20000, .f32⟩
  | .hbm, ⟨2, _⟩ => ⟨S20000x256, .f32⟩
  | .hbm, ⟨3, _⟩ => ⟨S2048x256, .f32⟩
  | .hbm, ⟨4, _⟩ => ⟨S1x256, .f32⟩
  | .hbm, ⟨5, _⟩ => ⟨S768x1, .f32⟩
  | .hbm, ⟨6, _⟩ => ⟨S1x1, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S1x256, .f32⟩
  | .hbm, ⟨15, _⟩ => ⟨S1x256, .f32⟩
  | .hbm, ⟨16, _⟩ => ⟨S2048x20000, .bf16⟩
  | .hbm, ⟨17, _⟩ => ⟨S_, .i32⟩
  | .hbm, ⟨18, _⟩ => ⟨S_, .bf16⟩
  | .hbm, ⟨19, _⟩ => ⟨S2048x20480, .bf16⟩
  | .hbm, ⟨20, _⟩ => ⟨S1x20000, .bf16⟩
  | .hbm, ⟨21, _⟩ => ⟨S_, .i32⟩
  | .hbm, ⟨22, _⟩ => ⟨S_, .bf16⟩
  | .hbm, ⟨23, _⟩ => ⟨S1x20480, .bf16⟩
  | .hbm, ⟨24, _⟩ => ⟨S20000x256, .bf16⟩
  | .hbm, ⟨25, _⟩ => ⟨S_, .i32⟩
  | .hbm, ⟨26, _⟩ => ⟨S_, .bf16⟩
  | .hbm, ⟨27, _⟩ => ⟨S20480x256, .bf16⟩
  | .hbm, ⟨28, _⟩ => ⟨S2048x256, .bf16⟩
  | .hbm, ⟨29, _⟩ => ⟨S1x256, .bf16⟩
  | .hbm, ⟨30, _⟩ => ⟨S1x256, .bf16⟩
  | .hbm, ⟨31, _⟩ => ⟨S256x256, .bf16⟩
  | .hbm, ⟨32, _⟩ => ⟨S256x256, .bf16⟩
  | .hbm, ⟨33, _⟩ => ⟨S256x256, .bf16⟩
  | .hbm, ⟨34, _⟩ => ⟨S256x256, .bf16⟩
  | .hbm, ⟨35, _⟩ => ⟨S256x256, .bf16⟩
  | .hbm, ⟨36, _⟩ => ⟨S256x256, .bf16⟩
  | .hbm, ⟨37, _⟩ => ⟨S256x256, .bf16⟩
  | .hbm, ⟨38, _⟩ => ⟨S1x256, .bf16⟩
  | .hbm, ⟨39, _⟩ => ⟨S_, .bf16⟩
  | .hbm, ⟨40, _⟩ => ⟨S2048x2048, .bf16⟩
  | .hbm, ⟨41, _⟩ => ⟨S2048x2048, .i32⟩
  | .hbm, ⟨42, _⟩ => ⟨S_, .i32⟩
  | .hbm, ⟨43, _⟩ => ⟨S2048x2048, .i32⟩
  | .hbm, ⟨44, _⟩ => ⟨S2048x2048, .i32⟩
  | .hbm, ⟨45, _⟩ => ⟨S2048x2048, .i32⟩
  | .hbm, ⟨46, _⟩ => ⟨S2048x2048, .i1⟩
  | .hbm, ⟨47, _⟩ => ⟨S_, .bf16⟩
  | .hbm, ⟨48, _⟩ => ⟨S2048x2048, .bf16⟩
  | .hbm, ⟨49, _⟩ => ⟨S2048x2048, .bf16⟩
  | .hbm, ⟨50, _⟩ => ⟨S2048x256, .f32⟩
  | .hbm, ⟨51, _⟩ => ⟨S2048x256, .f32⟩
  | .hbm, ⟨52, _⟩ => ⟨S2048x256, .bf16⟩
  | .hbm, ⟨53, _⟩ => ⟨S2048x256, .bf16⟩
  | .hbm, ⟨54, _⟩ => ⟨S2048x256, .bf16⟩
  | .hbm, ⟨55, _⟩ => ⟨S2048x256, .f32⟩
  | .hbm, ⟨56, _⟩ => ⟨S2048x256, .bf16⟩
  | .hbm, ⟨57, _⟩ => ⟨S2048x256, .bf16⟩
  | .hbm, ⟨58, _⟩ => ⟨S2048x256, .bf16⟩
  | .hbm, ⟨59, _⟩ => ⟨S2048x256, .f32⟩
  | .hbm, ⟨60, _⟩ => ⟨S2048x256, .bf16⟩
  | .hbm, ⟨61, _⟩ => ⟨S2048x256, .bf16⟩
  | .hbm, ⟨62, _⟩ => ⟨S2048x256, .bf16⟩
  | .hbm, ⟨63, _⟩ => ⟨S2048x256, .f32⟩
  | .hbm, ⟨64, _⟩ => ⟨S2048x256, .bf16⟩
  | .hbm, ⟨65, _⟩ => ⟨S2048x256, .bf16⟩
  | .hbm, ⟨66, _⟩ => ⟨S2048x256, .bf16⟩
  | .hbm, ⟨67, _⟩ => ⟨S2048x256, .f32⟩
  | .hbm, ⟨68, _⟩ => ⟨S2048x256, .bf16⟩
  | .hbm, ⟨69, _⟩ => ⟨S2048x256, .bf16⟩
  | .hbm, ⟨70, _⟩ => ⟨S2048x256, .bf16⟩
  | .hbm, ⟨71, _⟩ => ⟨S2048x256, .f32⟩
  | .hbm, ⟨72, _⟩ => ⟨S768x1, .bf16⟩
  | .hbm, ⟨73, _⟩ => ⟨S256x1, .bf16⟩
  | .hbm, ⟨74, _⟩ => ⟨S_, .i32⟩
  | .hbm, ⟨75, _⟩ => ⟨S_, .bf16⟩
  | .hbm, ⟨76, _⟩ => ⟨S256x128, .bf16⟩
  | .hbm, ⟨77, _⟩ => ⟨S2048x128, .f32⟩
  | .hbm, ⟨78, _⟩ => ⟨S2048x1, .f32⟩
  | .local _ .vmem, ⟨0, _⟩ => ⟨S1024x2560, .bf16⟩
  | .local _ .vmem, ⟨1, _⟩ => ⟨S1024x2560, .bf16⟩
  | .local _ .vmem, ⟨2, _⟩ => ⟨S2560x256, .bf16⟩
  | .local _ .vmem, ⟨3, _⟩ => ⟨S2560x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | .local _ .vmem, ⟨7, _⟩ => ⟨S1x2560, .bf16⟩
  | .local _ .vmem, ⟨8, _⟩ => ⟨S1x2560, .bf16⟩
  | .local _ .vmem, ⟨9, _⟩ => ⟨S2560x256, .bf16⟩
  | .local _ .vmem, ⟨10, _⟩ => ⟨S2560x256, .bf16⟩
  | .local _ .vmem, ⟨11, _⟩ => ⟨S1x256, .bf16⟩
  | .local _ .vmem, ⟨12, _⟩ => ⟨S1x256, .f32⟩
  | .local _ .vmem, ⟨13, _⟩ => ⟨S2048x256, .bf16⟩
  | .local _ .vmem, ⟨14, _⟩ => ⟨S256x256, .bf16⟩
  | .local _ .vmem, ⟨15, _⟩ => ⟨S256x256, .bf16⟩
  | .local _ .vmem, ⟨16, _⟩ => ⟨S1x256, .bf16⟩
  | .local _ .vmem, ⟨17, _⟩ => ⟨S1x256, .bf16⟩
  | .local _ .vmem, ⟨18, _⟩ => ⟨S2048x256, .f32⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S2048x2048, .bf16⟩
  | .local _ .vmem, ⟨23, _⟩ => ⟨S2048x256, .bf16⟩
  | .local _ .vmem, ⟨24, _⟩ => ⟨S2048x256, .bf16⟩
  | .local _ .vmem, ⟨25, _⟩ => ⟨S2048x256, .bf16⟩
  | .local _ .vmem, ⟨26, _⟩ => ⟨S512x256, .bf16⟩
  | .local _ .vmem, ⟨27, _⟩ => ⟨S512x256, .bf16⟩
  | .local _ .vmem, ⟨28, _⟩ => ⟨S2048x256, .bf16⟩
  | .local _ .vmem, ⟨29, _⟩ => ⟨S2048x256, .bf16⟩
  | .local _ .vmem, ⟨30, _⟩ => ⟨S256x256, .bf16⟩
  | .local _ .vmem, ⟨31, _⟩ => ⟨S256x256, .bf16⟩
  | .local _ .vmem, ⟨32, _⟩ => ⟨S1x256, .f32⟩
  | .local _ .vmem, ⟨33, _⟩ => ⟨S1x256, .f32⟩
  | .local _ .vmem, ⟨34, _⟩ => ⟨S512x256, .f32⟩
  | .local _ .vmem, ⟨35, _⟩ => ⟨S512x256, .f32⟩
  | .local _ .vmem, ⟨36, _⟩ => ⟨S2048x256, .f32⟩
  | .local _ .vmem, ⟨37, _⟩ => ⟨S256x256, .bf16⟩
  | .local _ .vmem, ⟨38, _⟩ => ⟨S256x256, .bf16⟩
  | .local _ .vmem, ⟨39, _⟩ => ⟨S256x256, .bf16⟩
  | .local _ .vmem, ⟨40, _⟩ => ⟨S2048x2048, .bf16⟩
  | .local _ .vmem, ⟨41, _⟩ => ⟨S2048x256, .bf16⟩
  | .local _ .vmem, ⟨42, _⟩ => ⟨S2048x256, .bf16⟩
  | .local _ .vmem, ⟨43, _⟩ => ⟨S2048x256, .bf16⟩
  | .local _ .vmem, ⟨44, _⟩ => ⟨S512x256, .bf16⟩
  | .local _ .vmem, ⟨45, _⟩ => ⟨S512x256, .bf16⟩
  | .local _ .vmem, ⟨46, _⟩ => ⟨S2048x256, .bf16⟩
  | .local _ .vmem, ⟨47, _⟩ => ⟨S2048x256, .bf16⟩
  | .local _ .vmem, ⟨48, _⟩ => ⟨S256x256, .bf16⟩
  | .local _ .vmem, ⟨49, _⟩ => ⟨S256x256, .bf16⟩
  | .local _ .vmem, ⟨50, _⟩ => ⟨S1x256, .f32⟩
  | .local _ .vmem, ⟨51, _⟩ => ⟨S1x256, .f32⟩
  | .local _ .vmem, ⟨52, _⟩ => ⟨S512x256, .f32⟩
  | .local _ .vmem, ⟨53, _⟩ => ⟨S512x256, .f32⟩
  | .local _ .vmem, ⟨54, _⟩ => ⟨S2048x256, .f32⟩
  | .local _ .vmem, ⟨55, _⟩ => ⟨S256x256, .bf16⟩
  | .local _ .vmem, ⟨56, _⟩ => ⟨S256x256, .bf16⟩
  | .local _ .vmem, ⟨57, _⟩ => ⟨S256x256, .bf16⟩
  | .local _ .vmem, ⟨58, _⟩ => ⟨S2048x2048, .bf16⟩
  | .local _ .vmem, ⟨59, _⟩ => ⟨S2048x256, .bf16⟩
  | .local _ .vmem, ⟨60, _⟩ => ⟨S2048x256, .bf16⟩
  | .local _ .vmem, ⟨61, _⟩ => ⟨S2048x256, .bf16⟩
  | .local _ .vmem, ⟨62, _⟩ => ⟨S512x256, .bf16⟩
  | .local _ .vmem, ⟨63, _⟩ => ⟨S512x256, .bf16⟩
  | .local _ .vmem, ⟨64, _⟩ => ⟨S2048x256, .bf16⟩
  | .local _ .vmem, ⟨65, _⟩ => ⟨S2048x256, .bf16⟩
  | .local _ .vmem, ⟨66, _⟩ => ⟨S256x256, .bf16⟩
  | .local _ .vmem, ⟨67, _⟩ => ⟨S256x256, .bf16⟩
  | .local _ .vmem, ⟨68, _⟩ => ⟨S1x256, .f32⟩
  | .local _ .vmem, ⟨69, _⟩ => ⟨S1x256, .f32⟩
  | .local _ .vmem, ⟨70, _⟩ => ⟨S512x256, .f32⟩
  | .local _ .vmem, ⟨71, _⟩ => ⟨S512x256, .f32⟩
  | .local _ .vmem, ⟨72, _⟩ => ⟨S2048x256, .f32⟩
  | .local _ .vmem, ⟨73, _⟩ => ⟨S256x256, .bf16⟩
  | .local _ .vmem, ⟨74, _⟩ => ⟨S256x256, .bf16⟩
  | .local _ .vmem, ⟨75, _⟩ => ⟨S256x256, .bf16⟩
  | .local _ .vmem, ⟨76, _⟩ => ⟨S2048x2048, .bf16⟩
  | .local _ .vmem, ⟨77, _⟩ => ⟨S2048x256, .bf16⟩
  | .local _ .vmem, ⟨78, _⟩ => ⟨S2048x256, .bf16⟩
  | .local _ .vmem, ⟨79, _⟩ => ⟨S2048x256, .bf16⟩
  | .local _ .vmem, ⟨80, _⟩ => ⟨S512x256, .bf16⟩
  | .local _ .vmem, ⟨81, _⟩ => ⟨S512x256, .bf16⟩
  | .local _ .vmem, ⟨82, _⟩ => ⟨S2048x256, .bf16⟩
  | .local _ .vmem, ⟨83, _⟩ => ⟨S2048x256, .bf16⟩
  | .local _ .vmem, ⟨84, _⟩ => ⟨S256x256, .bf16⟩
  | .local _ .vmem, ⟨85, _⟩ => ⟨S256x256, .bf16⟩
  | .local _ .vmem, ⟨86, _⟩ => ⟨S1x256, .f32⟩
  | .local _ .vmem, ⟨87, _⟩ => ⟨S1x256, .f32⟩
  | .local _ .vmem, ⟨88, _⟩ => ⟨S512x256, .f32⟩
  | .local _ .vmem, ⟨89, _⟩ => ⟨S512x256, .f32⟩
  | .local _ .vmem, ⟨90, _⟩ => ⟨S2048x256, .f32⟩
  | .local _ .vmem, ⟨91, _⟩ => ⟨S256x256, .bf16⟩
  | .local _ .vmem, ⟨92, _⟩ => ⟨S256x256, .bf16⟩
  | .local _ .vmem, ⟨93, _⟩ => ⟨S256x256, .bf16⟩
  | .local _ .vmem, ⟨94, _⟩ => ⟨S2048x2048, .bf16⟩
  | .local _ .vmem, ⟨95, _⟩ => ⟨S2048x256, .bf16⟩
  | .local _ .vmem, ⟨96, _⟩ => ⟨S2048x256, .bf16⟩
  | .local _ .vmem, ⟨97, _⟩ => ⟨S2048x256, .bf16⟩
  | .local _ .vmem, ⟨98, _⟩ => ⟨S512x256, .bf16⟩
  | .local _ .vmem, ⟨99, _⟩ => ⟨S512x256, .bf16⟩
  | .local _ .vmem, ⟨100, _⟩ => ⟨S2048x256, .bf16⟩
  | .local _ .vmem, ⟨101, _⟩ => ⟨S2048x256, .bf16⟩
  | .local _ .vmem, ⟨102, _⟩ => ⟨S256x256, .bf16⟩
  | .local _ .vmem, ⟨103, _⟩ => ⟨S256x256, .bf16⟩
  | .local _ .vmem, ⟨104, _⟩ => ⟨S1x256, .f32⟩
  | .local _ .vmem, ⟨105, _⟩ => ⟨S1x256, .f32⟩
  | .local _ .vmem, ⟨106, _⟩ => ⟨S512x256, .f32⟩
  | .local _ .vmem, ⟨107, _⟩ => ⟨S512x256, .f32⟩
  | .local _ .vmem, ⟨108, _⟩ => ⟨S2048x256, .f32⟩
  | .local _ .vmem, ⟨109, _⟩ => ⟨S1x256, .bf16⟩
  | .local _ .vmem, ⟨110, _⟩ => ⟨S2048x256, .bf16⟩
  | .local _ .vmem, ⟨111, _⟩ => ⟨S1x256, .bf16⟩
  | .local _ .vmem, ⟨112, _⟩ => ⟨S768x1, .bf16⟩
  | .local _ .vmem, ⟨113, _⟩ => ⟨S1x1, .f32⟩
  | .local _ .vmem, ⟨114, _⟩ => ⟨S256x128, .bf16⟩
  | .local _ .vmem, ⟨115, _⟩ => ⟨S2048x128, .f32⟩
  | _, _ => ⟨S2048x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | _, _ => false

abbrev semScoped : Fin 0 → Bool
  | ⟨_, h⟩ => absurd h (Nat.not_lt_zero _)

abbrev dmaSemScoped : Fin 114 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | _ => false

abbrev sig : RefSig :=
  ofTc nBuf bufTy 0 114 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_call1_v0 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_call2_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_call3_v0 : Ref sig .tc := ⟨.hbm, 41, rfl⟩
abbrev main_call3_c : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_cst : Ref sig .tc := ⟨.hbm, 47, rfl⟩
abbrev main_call3_v5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21_0 : Ref sig .tc := ⟨.hbm, 52, rfl⟩
abbrev main_v21_1 : Ref sig .tc := ⟨.hbm, 53, rfl⟩
abbrev main_v21_2 : Ref sig .tc := ⟨.hbm, 54, rfl⟩
abbrev main_v22 : Ref sig .tc := ⟨.hbm, 55, rfl⟩
abbrev main_v23_0 : Ref sig .tc := ⟨.hbm, 56, rfl⟩
abbrev main_v23_1 : Ref sig .tc := ⟨.hbm, 57, rfl⟩
abbrev main_v23_2 : Ref sig .tc := ⟨.hbm, 58, rfl⟩
abbrev main_v24 : Ref sig .tc := ⟨.hbm, 59, rfl⟩
abbrev main_v25_0 : Ref sig .tc := ⟨.hbm, 60, rfl⟩
abbrev main_v25_1 : Ref sig .tc := ⟨.hbm, 61, rfl⟩
abbrev main_v25_2 : Ref sig .tc := ⟨.hbm, 62, rfl⟩
abbrev main_v26 : Ref sig .tc := ⟨.hbm, 63, rfl⟩
abbrev main_v27_0 : Ref sig .tc := ⟨.hbm, 64, rfl⟩
abbrev main_v27_1 : Ref sig .tc := ⟨.hbm, 65, rfl⟩
abbrev main_v27_2 : Ref sig .tc := ⟨.hbm, 66, rfl⟩
abbrev main_v28 : Ref sig .tc := ⟨.hbm, 67, rfl⟩
abbrev main_v29_0 : Ref sig .tc := ⟨.hbm, 68, rfl⟩
abbrev main_v29_1 : Ref sig .tc := ⟨.hbm, 69, rfl⟩
abbrev main_v29_2 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_c_2 : Ref sig .tc := ⟨.hbm, 74, rfl⟩
abbrev main_call4_v0 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg7_0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg5_0 : Ref sig .tc := ⟨.vmem, 32, rfl⟩
abbrev cc4_stg6_0 : Ref sig .tc := ⟨.vmem, 33, rfl⟩
abbrev cc4_stg7_0 : Ref sig .tc := ⟨.vmem, 34, rfl⟩
abbrev cc4_stg7_1 : Ref sig .tc := ⟨.vmem, 35, rfl⟩
abbrev cc5_stg0_0 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg7_0 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg5_0 : Ref sig .tc := ⟨.vmem, 50, rfl⟩
abbrev cc6_stg6_0 : Ref sig .tc := ⟨.vmem, 51, rfl⟩
abbrev cc6_stg7_0 : Ref sig .tc := ⟨.vmem, 52, rfl⟩
abbrev cc6_stg7_1 : Ref sig .tc := ⟨.vmem, 53, rfl⟩
abbrev cc7_stg0_0 : Ref sig .tc := ⟨.vmem, 54, rfl⟩
abbrev cc7_stg1_0 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg4_0 : Ref sig .tc := ⟨.vmem, 58, rfl⟩
abbrev cc7_stg5_0 : Ref sig .tc := ⟨.vmem, 59, rfl⟩
abbrev cc7_stg6_0 : Ref sig .tc := ⟨.vmem, 60, rfl⟩
abbrev cc7_stg7_0 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg2_0 : Ref sig .tc := ⟨.vmem, 65, rfl⟩
abbrev cc8_stg3_0 : Ref sig .tc := ⟨.vmem, 66, rfl⟩
abbrev cc8_stg4_0 : Ref sig .tc := ⟨.vmem, 67, rfl⟩
abbrev cc8_stg5_0 : Ref sig .tc := ⟨.vmem, 68, rfl⟩
abbrev cc8_stg6_0 : Ref sig .tc := ⟨.vmem, 69, rfl⟩
abbrev cc8_stg7_0 : Ref sig .tc := ⟨.vmem, 70, rfl⟩
abbrev cc8_stg7_1 : Ref sig .tc := ⟨.vmem, 71, rfl⟩
abbrev cc9_stg0_0 : Ref sig .tc := ⟨.vmem, 72, rfl⟩
abbrev cc9_stg1_0 : Ref sig .tc := ⟨.vmem, 73, rfl⟩
abbrev cc9_stg2_0 : Ref sig .tc := ⟨.vmem, 74, rfl⟩
abbrev cc9_stg3_0 : Ref sig .tc := ⟨.vmem, 75, rfl⟩
abbrev cc9_stg4_0 : Ref sig .tc := ⟨.vmem, 76, rfl⟩
abbrev cc9_stg5_0 : Ref sig .tc := ⟨.vmem, 77, rfl⟩
abbrev cc9_stg6_0 : Ref sig .tc := ⟨.vmem, 78, rfl⟩
abbrev cc9_stg7_0 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg2_0 : Ref sig .tc := ⟨.vmem, 83, rfl⟩
abbrev cc10_stg3_0 : Ref sig .tc := ⟨.vmem, 84, rfl⟩
abbrev cc10_stg4_0 : Ref sig .tc := ⟨.vmem, 85, rfl⟩
abbrev cc10_stg5_0 : Ref sig .tc := ⟨.vmem, 86, rfl⟩
abbrev cc10_stg6_0 : Ref sig .tc := ⟨.vmem, 87, rfl⟩
abbrev cc10_stg7_0 : Ref sig .tc := ⟨.vmem, 88, rfl⟩
abbrev cc10_stg7_1 : Ref sig .tc := ⟨.vmem, 89, rfl⟩
abbrev cc11_stg0_0 : Ref sig .tc := ⟨.vmem, 90, rfl⟩
abbrev cc11_stg1_0 : Ref sig .tc := ⟨.vmem, 91, rfl⟩
abbrev cc11_stg2_0 : Ref sig .tc := ⟨.vmem, 92, rfl⟩
abbrev cc11_stg3_0 : Ref sig .tc := ⟨.vmem, 93, rfl⟩
abbrev cc11_stg4_0 : Ref sig .tc := ⟨.vmem, 94, rfl⟩
abbrev cc11_stg5_0 : Ref sig .tc := ⟨.vmem, 95, rfl⟩
abbrev cc11_stg6_0 : Ref sig .tc := ⟨.vmem, 96, rfl⟩
abbrev cc11_stg7_0 : Ref sig .tc := ⟨.vmem, 97, rfl⟩
abbrev cc12_stg0_0 : Ref sig .tc := ⟨.vmem, 98, rfl⟩
abbrev cc12_stg0_1 : Ref sig .tc := ⟨.vmem, 99, rfl⟩
abbrev cc12_stg1_0 : Ref sig .tc := ⟨.vmem, 100, rfl⟩
abbrev cc12_stg2_0 : Ref sig .tc := ⟨.vmem, 101, rfl⟩
abbrev cc12_stg3_0 : Ref sig .tc := ⟨.vmem, 102, rfl⟩
abbrev cc12_stg4_0 : Ref sig .tc := ⟨.vmem, 103, rfl⟩
abbrev cc12_stg5_0 : Ref sig .tc := ⟨.vmem, 104, rfl⟩
abbrev cc12_stg6_0 : Ref sig .tc := ⟨.vmem, 105, rfl⟩
abbrev cc12_stg7_0 : Ref sig .tc := ⟨.vmem, 106, rfl⟩
abbrev cc12_stg7_1 : Ref sig .tc := ⟨.vmem, 107, rfl⟩
abbrev cc13_stg0_0 : Ref sig .tc := ⟨.vmem, 108, rfl⟩
abbrev cc13_stg1_0 : Ref sig .tc := ⟨.vmem, 109, rfl⟩
abbrev cc13_stg2_0 : Ref sig .tc := ⟨.vmem, 110, rfl⟩
abbrev cc13_stg3_0 : Ref sig .tc := ⟨.vmem, 111, rfl⟩
abbrev cc13_stg4_0 : Ref sig .tc := ⟨.vmem, 112, rfl⟩
abbrev cc13_stg5_0 : Ref sig .tc := ⟨.vmem, 113, rfl⟩
abbrev cc13_stg6_0 : Ref sig .tc := ⟨.vmem, 114, rfl⟩
abbrev cc13_stg7_0 : Ref sig .tc := ⟨.vmem, 115, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15
abbrev cc3_sem0_0 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21
abbrev cc3_sem6_0 : DmaSem sig := 22
abbrev cc3_sem7_0 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem4_0 : DmaSem sig := 29
abbrev cc4_sem5_0 : DmaSem sig := 30
abbrev cc4_sem6_0 : DmaSem sig := 31
abbrev cc4_sem7_0 : DmaSem sig := 32
abbrev cc4_sem7_1 : DmaSem sig := 33
abbrev cc5_sem0_0 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem7_0 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem6_0 : DmaSem sig := 49
abbrev cc6_sem7_0 : DmaSem sig := 50
abbrev cc6_sem7_1 : DmaSem sig := 51
abbrev cc7_sem0_0 : DmaSem sig := 52
abbrev cc7_sem1_0 : DmaSem sig := 53
abbrev cc7_sem2_0 : DmaSem sig := 54
abbrev cc7_sem3_0 : DmaSem sig := 55
abbrev cc7_sem4_0 : DmaSem sig := 56
abbrev cc7_sem5_0 : DmaSem sig := 57
abbrev cc7_sem6_0 : DmaSem sig := 58
abbrev cc7_sem7_0 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem3_0 : DmaSem sig := 64
abbrev cc8_sem4_0 : DmaSem sig := 65
abbrev cc8_sem5_0 : DmaSem sig := 66
abbrev cc8_sem6_0 : DmaSem sig := 67
abbrev cc8_sem7_0 : DmaSem sig := 68
abbrev cc8_sem7_1 : DmaSem sig := 69
abbrev cc9_sem0_0 : DmaSem sig := 70
abbrev cc9_sem1_0 : DmaSem sig := 71
abbrev cc9_sem2_0 : DmaSem sig := 72
abbrev cc9_sem3_0 : DmaSem sig := 73
abbrev cc9_sem4_0 : DmaSem sig := 74
abbrev cc9_sem5_0 : DmaSem sig := 75
abbrev cc9_sem6_0 : DmaSem sig := 76
abbrev cc9_sem7_0 : DmaSem sig := 77
abbrev cc10_sem0_0 : DmaSem sig := 78
abbrev cc10_sem0_1 : DmaSem sig := 79
abbrev cc10_sem1_0 : DmaSem sig := 80
abbrev cc10_sem2_0 : DmaSem sig := 81
abbrev cc10_sem3_0 : DmaSem sig := 82
abbrev cc10_sem4_0 : DmaSem sig := 83
abbrev cc10_sem5_0 : DmaSem sig := 84
abbrev cc10_sem6_0 : DmaSem sig := 85
abbrev cc10_sem7_0 : DmaSem sig := 86
abbrev cc10_sem7_1 : DmaSem sig := 87
abbrev cc11_sem0_0 : DmaSem sig := 88
abbrev cc11_sem1_0 : DmaSem sig := 89
abbrev cc11_sem2_0 : DmaSem sig := 90
abbrev cc11_sem3_0 : DmaSem sig := 91
abbrev cc11_sem4_0 : DmaSem sig := 92
abbrev cc11_sem5_0 : DmaSem sig := 93
abbrev cc11_sem6_0 : DmaSem sig := 94
abbrev cc11_sem7_0 : DmaSem sig := 95
abbrev cc12_sem0_0 : DmaSem sig := 96
abbrev cc12_sem0_1 : DmaSem sig := 97
abbrev cc12_sem1_0 : DmaSem sig := 98
abbrev cc12_sem2_0 : DmaSem sig := 99
abbrev cc12_sem3_0 : DmaSem sig := 100
abbrev cc12_sem4_0 : DmaSem sig := 101
abbrev cc12_sem5_0 : DmaSem sig := 102
abbrev cc12_sem6_0 : DmaSem sig := 103
abbrev cc12_sem7_0 : DmaSem sig := 104
abbrev cc12_sem7_1 : DmaSem sig := 105
abbrev cc13_sem0_0 : DmaSem sig := 106
abbrev cc13_sem1_0 : DmaSem sig := 107
abbrev cc13_sem2_0 : DmaSem sig := 108
abbrev cc13_sem3_0 : DmaSem sig := 109
abbrev cc13_sem4_0 : DmaSem sig := 110
abbrev cc13_sem5_0 : DmaSem sig := 111
abbrev cc13_sem6_0 : DmaSem sig := 112
abbrev cc13_sem7_0 : DmaSem sig := 113

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2560x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2560x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2048x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2048x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S256x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2048x2048 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S2048x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S2048x256 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S2048x256 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S2048x256 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S512x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S2048x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S256x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256x256 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x256 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S2048x2048 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S2048x256 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S2048x256 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S2048x256 .bf16 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2048x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S2048x256 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x256 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x256 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S512x256 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S2048x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S256x256 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S256x256 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x256 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S2048x2048 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S2048x256 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S2048x256 .bf16 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S2048x256 .bf16 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x256 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S2048x256 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S2048x256 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x256 .bf16 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S256x256 .bf16 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x256 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x256 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S512x256 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S2048x256 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S256x256 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S256x256 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S256x256 .bf16 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S2048x2048 .bf16 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S2048x256 .bf16 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S2048x256 .bf16 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S2048x256 .bf16 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S512x256 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S2048x256 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S2048x256 .bf16 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S256x256 .bf16 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S256x256 .bf16 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x256 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x256 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S512x256 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 1 → Memref sig .tc .vmem S2048x256 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false]

abbrev stage11_1 : Fin 1 → Memref sig .tc .vmem S256x256 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S256x256 .bf16 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S256x256 .bf16 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S2048x2048 .bf16 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S2048x256 .bf16 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S2048x256 .bf16 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S2048x256 .bf16 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev grid12 : Pipeline.Grid := ⟨1, ![4], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S512x256 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S2048x256 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S2048x256 .bf16 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S256x256 .bf16 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S256x256 .bf16 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x256 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x256 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 2 → Memref sig .tc .vmem S512x256 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

abbrev grid13 : Pipeline.Grid := ⟨1, ![1], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 1 → Memref sig .tc .vmem S2048x256 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![false]

abbrev stage13_1 : Fin 1 → Memref sig .tc .vmem S1x256 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S2048x256 .bf16 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x256 .bf16 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S768x1 .bf16 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x1 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S256x128 .bf16 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 1 → Memref sig .tc .vmem S2048x128 .f32 := fun | 0 => Memref.whole cc13_stg7_0 | ⟨_ + 1, h⟩ => absurd h (Nat.not_lt.2 (Nat.le_add_left _ _))
abbrev sem13_7 : Fin 1 → DmaSem sig := fun | 0 => cc13_sem7_0 | ⟨_ + 1, h⟩ => absurd h (Nat.not_lt.2 (Nat.le_add_left _ _))
abbrev reads13_7 : Fin grid13.rank → Bool := ![false]

class Facts₀ : Prop where
  bitsLt_bf16_f32 : FTy.bits .bf16 < FTy.bits .f32
  pads_S2048x20000_S2048x20480_000_04800 : S2048x20000.Pads (![0, 0] : Fin 2 → Nat) ![0, 480] ![0, 0] S2048x20480
  h_S_ : 0 < S_.numel
  pads_S1x20000_S1x20480_000_04800 : S1x20000.Pads (![0, 0] : Fin 2 → Nat) ![0, 480] ![0, 0] S1x20480
  pads_S20000x256_S20480x256_04800_000 : S20000x256.Pads (![0, 0] : Fin 2 → Nat) ![480, 0] ![0, 0] S20480x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2560_S1024x2560_0_0 : ∀ a, (![0, 0] : Fin 2 → Nat) a + S1024x2560.size a ≤ S1024x2560.size a
  h_S1024x2560 : 0 < S1024x2560.numel
  shapeCasts_S1024x2560_S1024x2560 : S1024x2560.ShapeCasts S1024x2560
  inb_S2560x256_S2560x256_0_0 : ∀ a, (![0, 0] : Fin 2 → Nat) a + S2560x256.size a ≤ S2560x256.size a
  h_S2560x256 : 0 < S2560x256.numel
  shapeCasts_S2560x256_S2560x256 : S2560x256.ShapeCasts S2560x256
  packedbf16_S1024x256_S1024x256_0_0 : (Rect.unit (s := S1024x256) ![0, 0] S1024x256.size inb_S1024x256_S1024x256_0_0).PackedRows (EltTy.packing .bf16)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  packedbf16_S1x256_S1x256_0_0 : (Rect.unit (s := S1x256) ![0, 0] S1x256.size inb_S1x256_S1x256_0_0).PackedRows (EltTy.packing .bf16)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S1x2048_S1 : S1x2048.Reduces [1] S1
  shapeCasts_S1_S1x1 : S1.ShapeCasts S1x1
  broadcasts_S1x1_S1x2048 : S1x1.Broadcasts S1x2048
  bcast_S_S2048x2048 : S_.BroadcastsInDim S2048x2048 (![] : Fin 0 → Fin S2048x2048.rank)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S2048x256_S2048x256_0_0 : (Rect.unit (s := S2048x256) ![0, 0] S2048x256.size inb_S2048x256_S2048x256_0_0).PackedRows (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x2048_S512 : S512x2048.Reduces [1] S512
  shapeCasts_S512_S512x1 : S512.ShapeCasts S512x1
  broadcasts_S512x1_S512x2048 : S512x1.Broadcasts S512x2048
  broadcasts_S1x256_S512x256 : S1x256.Broadcasts S512x256
  transposes_S1x256_S256x1_1_0 : S1x256.Transposes [1, 0] S256x1
  pads_S256x1_S256x128_000_01270 : S256x1.Pads (![0, 0] : Fin 2 → Nat) ![0, 127] ![0, 0] S256x128
  inb_S768x1_S768x1_0_0 : ∀ a, (![0, 0] : Fin 2 → Nat) a + S768x1.size a ≤ S768x1.size a
  h_S768x1 : 0 < S768x1.numel
  shapeCasts_S768x1_S768x1 : S768x1.ShapeCasts S768x1
  slices_S768x1_o0_0_S256x1 : S768x1.Slices ![0, 0] S256x1
  slices_S768x1_o256_0_S256x1 : S768x1.Slices ![256, 0] S256x1
  slices_S768x1_o512_0_S256x1 : S768x1.Slices ![512, 0] S256x1
  inb_S1x1_S1x1_0_0 : ∀ a, (![0, 0] : Fin 2 → Nat) a + S1x1.size a ≤ S1x1.size a
  h_S1x1 : 0 < S1x1.numel
  broadcasts_S1x1_S2048x1 : S1x1.Broadcasts S2048x1
  broadcasts_S1x256_S2048x256 : S1x256.Broadcasts S2048x256
  broadcasts_S2048x1_S2048x256 : S2048x1.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  slices_S2048x128_S2048x1_0_0 : S2048x128.Slices ![0, 0] S2048x1
  dot_S1024x2560_S2560x256_S1024x256_1_0_0_1_n_n_wf : DotDims.WF S1024x2560 S2560x256 S1024x256 [1] [0] [0] [1] [] []
  dot_S1x2560_S2560x256_S1x256_1_0_0_1_n_n_wf : DotDims.WF S1x2560 S2560x256 S1x256 [1] [0] [0] [1] [] []
  dot_S2048x256_S256x256_S2048x256_1_0_0_1_n_n_wf : DotDims.WF S2048x256 S256x256 S2048x256 [1] [0] [0] [1] [] []
  dot_S1x256_S2048x256_S1x2048_1_1_0_0_n_n_wf : DotDims.WF S1x256 S2048x256 S1x2048 [1] [1] [0] [0] [] []
  dot_S1x2048_S2048x256_S1x256_1_0_0_1_n_n_wf : DotDims.WF S1x2048 S2048x256 S1x256 [1] [0] [0] [1] [] []
  dot_S2048x2048_S2048x256_S2048x256_1_0_0_1_n_n_wf : DotDims.WF S2048x2048 S2048x256 S2048x256 [1] [0] [0] [1] [] []
  dot_S512x256_S2048x256_S512x2048_1_1_0_0_n_n_wf : DotDims.WF S512x256 S2048x256 S512x2048 [1] [1] [0] [0] [] []
  dot_S512x2048_S2048x256_S512x256_1_0_0_1_n_n_wf : DotDims.WF S512x2048 S2048x256 S512x256 [1] [0] [0] [1] [] []
  dot_S512x256_S256x256_S512x256_1_0_0_1_n_n_wf : DotDims.WF S512x256 S256x256 S512x256 [1] [0] [0] [1] [] []
  dot_S1x256_S256x1_S1x1_1_0_0_1_n_n_wf : DotDims.WF S1x256 S256x1 S1x1 [1] [0] [0] [1] [] []
  dot_S2048x256_S256x1_S2048x1_1_0_0_1_n_n_wf : DotDims.WF S2048x256 S256x1 S2048x1 [1] [0] [0] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2560.size a ≤ S2048x20480.size a
  hwx0_0 : ∀ i : grid0.Coords, EltTy.bits .bf16 = 32 ∨ (Rect.block (s := S2048x20480) S1024x2560.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x256.size a ≤ S20480x256.size a
  hwx0_1 : ∀ i : grid0.Coords, EltTy.bits .bf16 = 32 ∨ (Rect.block (s := S20480x256) S2560x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S2048x256.size a
  hwx0_2 : ∀ i : grid0.Coords, EltTy.bits .bf16 = 32 ∨ (Rect.block (s := S2048x256) S1024x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2560.size a ≤ S1x20480.size a
  hwx1_0 : ∀ i : grid1.Coords, EltTy.bits .bf16 = 32 ∨ (Rect.block (s := S1x20480) S1x2560.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x256.size a ≤ S20480x256.size a
  hwx1_1 : ∀ i : grid1.Coords, EltTy.bits .bf16 = 32 ∨ (Rect.block (s := S20480x256) S2560x256.size (cc1_transform_1 i) (hinb1_1 i)).WholeWords (EltTy.packing .bf16)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .bf16 = 32 ∨ (Rect.block (s := S1x256) S1x256.size (cc1_transform_2 i) (hinb1_2 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S2048x256.size a
  hwx2_0 : ∀ i : grid2.Coords, EltTy.bits .bf16 = 32 ∨ (Rect.block (s := S2048x256) S2048x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .bf16 = 32 ∨ (Rect.block (s := S1x256) S1x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .bf16 = 32 ∨ (Rect.block (s := S1x256) S1x256.size (cc2_transform_4 i) (hinb2_4 i)).WholeWords (EltTy.packing .bf16)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S2048x256.size a
  hwx3_0 : ∀ i : grid3.Coords, EltTy.bits .f32 = 32 ∨ (Rect.block (s := S2048x256) S2048x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .bf16 = 32 ∨ (Rect.block (s := S256x256) S256x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .bf16 = 32 ∨ (Rect.block (s := S256x256) S256x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .bf16 = 32 ∨ (Rect.block (s := S256x256) S256x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2048x2048.size a ≤ S2048x2048.size a
  hwx3_4 : ∀ i : grid3.Coords, EltTy.bits .bf16 = 32 ∨ (Rect.block (s := S2048x2048) S2048x2048.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S2048x256.size a ≤ S2048x256.size a
  hwx3_5 : ∀ i : grid3.Coords, EltTy.bits .bf16 = 32 ∨ (Rect.block (s := S2048x256) S2048x256.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S2048x256.size a ≤ S2048x256.size a
  hwx3_6 : ∀ i : grid3.Coords, EltTy.bits .bf16 = 32 ∨ (Rect.block (s := S2048x256) S2048x256.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S2048x256.size a ≤ S2048x256.size a
  hwx3_7 : ∀ i : grid3.Coords, EltTy.bits .bf16 = 32 ∨ (Rect.block (s := S2048x256) S2048x256.size (cc3_transform_7 i) (hinb3_7 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x256.size a ≤ S2048x256.size a
  hwx4_0 : ∀ i : grid4.Coords, EltTy.bits .bf16 = 32 ∨ (Rect.block (s := S2048x256) S512x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x256.size a ≤ S2048x256.size a
  hwx4_1 : ∀ i : grid4.Coords, EltTy.bits .bf16 = 32 ∨ (Rect.block (s := S2048x256) S2048x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2048x256.size a ≤ S2048x256.size a
  hwx4_2 : ∀ i : grid4.Coords, EltTy.bits .bf16 = 32 ∨ (Rect.block (s := S2048x256) S2048x256.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .bf16 = 32 ∨ (Rect.block (s := S256x256) S256x256.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .bf16 = 32 ∨ (Rect.block (s := S256x256) S256x256.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S512x256.size a ≤ S2048x256.size a
  hwx4_7 : ∀ i : grid4.Coords, EltTy.bits .f32 = 32 ∨ (Rect.block (s := S2048x256) S512x256.size (cc4_transform_7 i) (hinb4_7 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S2048x256.size a ≤ S2048x256.size a
  hwx5_0 : ∀ i : grid5.Coords, EltTy.bits .f32 = 32 ∨ (Rect.block (s := S2048x256) S2048x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .bf16 = 32 ∨ (Rect.block (s := S256x256) S256x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .bf16 = 32 ∨ (Rect.block (s := S256x256) S256x256.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .bf16 = 32 ∨ (Rect.block (s := S256x256) S256x256.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S2048x2048.size a ≤ S2048x2048.size a
  hwx5_4 : ∀ i : grid5.Coords, EltTy.bits .bf16 = 32 ∨ (Rect.block (s := S2048x2048) S2048x2048.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S2048x256.size a ≤ S2048x256.size a
  hwx5_5 : ∀ i : grid5.Coords, EltTy.bits .bf16 = 32 ∨ (Rect.block (s := S2048x256) S2048x256.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S2048x256.size a ≤ S2048x256.size a
  hwx5_6 : ∀ i : grid5.Coords, EltTy.bits .bf16 = 32 ∨ (Rect.block (s := S2048x256) S2048x256.size (cc5_transform_6 i) (hinb5_6 i)).WholeWords (EltTy.packing .bf16)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S2048x256.size a ≤ S2048x256.size a
  hwx5_7 : ∀ i : grid5.Coords, EltTy.bits .bf16 = 32 ∨ (Rect.block (s := S2048x256) S2048x256.size (cc5_transform_7 i) (hinb5_7 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x256.size a ≤ S2048x256.size a
  hwx6_0 : ∀ i : grid6.Coords, EltTy.bits .bf16 = 32 ∨ (Rect.block (s := S2048x256) S512x256.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2048x256.size a ≤ S2048x256.size a
  hwx6_1 : ∀ i : grid6.Coords, EltTy.bits .bf16 = 32 ∨ (Rect.block (s := S2048x256) S2048x256.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S2048x256.size a ≤ S2048x256.size a
  hwx6_2 : ∀ i : grid6.Coords, EltTy.bits .bf16 = 32 ∨ (Rect.block (s := S2048x256) S2048x256.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .bf16 = 32 ∨ (Rect.block (s := S256x256) S256x256.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x256.size a ≤ S256x256.size a
  hwx6_4 : ∀ i : grid6.Coords, EltTy.bits .bf16 = 32 ∨ (Rect.block (s := S256x256) S256x256.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S512x256.size a ≤ S2048x256.size a
  hwx6_7 : ∀ i : grid6.Coords, EltTy.bits .f32 = 32 ∨ (Rect.block (s := S2048x256) S512x256.size (cc6_transform_7 i) (hinb6_7 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S2048x256.size a ≤ S2048x256.size a
  hwx7_0 : ∀ i : grid7.Coords, EltTy.bits .f32 = 32 ∨ (Rect.block (s := S2048x256) S2048x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x256.size a ≤ S256x256.size a
  hwx7_1 : ∀ i : grid7.Coords, EltTy.bits .bf16 = 32 ∨ (Rect.block (s := S256x256) S256x256.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x256.size a ≤ S256x256.size a
  hwx7_2 : ∀ i : grid7.Coords, EltTy.bits .bf16 = 32 ∨ (Rect.block (s := S256x256) S256x256.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x256.size a ≤ S256x256.size a
  hwx7_3 : ∀ i : grid7.Coords, EltTy.bits .bf16 = 32 ∨ (Rect.block (s := S256x256) S256x256.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S2048x2048.size a ≤ S2048x2048.size a
  hwx7_4 : ∀ i : grid7.Coords, EltTy.bits .bf16 = 32 ∨ (Rect.block (s := S2048x2048) S2048x2048.size (cc7_transform_4 i) (hinb7_4 i)).WholeWords (EltTy.packing .bf16)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S2048x256.size a ≤ S2048x256.size a
  hwx7_5 : ∀ i : grid7.Coords, EltTy.bits .bf16 = 32 ∨ (Rect.block (s := S2048x256) S2048x256.size (cc7_transform_5 i) (hinb7_5 i)).WholeWords (EltTy.packing .bf16)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S2048x256.size a ≤ S2048x256.size a
  hwx7_6 : ∀ i : grid7.Coords, EltTy.bits .bf16 = 32 ∨ (Rect.block (s := S2048x256) S2048x256.size (cc7_transform_6 i) (hinb7_6 i)).WholeWords (EltTy.packing .bf16)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S2048x256.size a ≤ S2048x256.size a
  hwx7_7 : ∀ i : grid7.Coords, EltTy.bits .bf16 = 32 ∨ (Rect.block (s := S2048x256) S2048x256.size (cc7_transform_7 i) (hinb7_7 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x256.size a ≤ S2048x256.size a
  hwx8_0 : ∀ i : grid8.Coords, EltTy.bits .bf16 = 32 ∨ (Rect.block (s := S2048x256) S512x256.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S2048x256.size a ≤ S2048x256.size a
  hwx8_1 : ∀ i : grid8.Coords, EltTy.bits .bf16 = 32 ∨ (Rect.block (s := S2048x256) S2048x256.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S2048x256.size a ≤ S2048x256.size a
  hwx8_2 : ∀ i : grid8.Coords, EltTy.bits .bf16 = 32 ∨ (Rect.block (s := S2048x256) S2048x256.size (cc8_transform_2 i) (hinb8_2 i)).WholeWords (EltTy.packing .bf16)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x256.size a ≤ S256x256.size a
  hwx8_3 : ∀ i : grid8.Coords, EltTy.bits .bf16 = 32 ∨ (Rect.block (s := S256x256) S256x256.size (cc8_transform_3 i) (hinb8_3 i)).WholeWords (EltTy.packing .bf16)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S256x256.size a ≤ S256x256.size a
  hwx8_4 : ∀ i : grid8.Coords, EltTy.bits .bf16 = 32 ∨ (Rect.block (s := S256x256) S256x256.size (cc8_transform_4 i) (hinb8_4 i)).WholeWords (EltTy.packing .bf16)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x256.size a ≤ S1x256.size a
  hwx8_5 : ∀ i : grid8.Coords, EltTy.bits .f32 = 32 ∨ (Rect.block (s := S1x256) S1x256.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x256.size a ≤ S1x256.size a
  hwx8_6 : ∀ i : grid8.Coords, EltTy.bits .f32 = 32 ∨ (Rect.block (s := S1x256) S1x256.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S512x256.size a ≤ S2048x256.size a
  hwx8_7 : ∀ i : grid8.Coords, EltTy.bits .f32 = 32 ∨ (Rect.block (s := S2048x256) S512x256.size (cc8_transform_7 i) (hinb8_7 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S2048x256.size a ≤ S2048x256.size a
  hwx9_0 : ∀ i : grid9.Coords, EltTy.bits .f32 = 32 ∨ (Rect.block (s := S2048x256) S2048x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x256.size a ≤ S256x256.size a
  hwx9_1 : ∀ i : grid9.Coords, EltTy.bits .bf16 = 32 ∨ (Rect.block (s := S256x256) S256x256.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S256x256.size a ≤ S256x256.size a
  hwx9_2 : ∀ i : grid9.Coords, EltTy.bits .bf16 = 32 ∨ (Rect.block (s := S256x256) S256x256.size (cc9_transform_2 i) (hinb9_2 i)).WholeWords (EltTy.packing .bf16)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S256x256.size a ≤ S256x256.size a
  hwx9_3 : ∀ i : grid9.Coords, EltTy.bits .bf16 = 32 ∨ (Rect.block (s := S256x256) S256x256.size (cc9_transform_3 i) (hinb9_3 i)).WholeWords (EltTy.packing .bf16)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S2048x2048.size a ≤ S2048x2048.size a
  hwx9_4 : ∀ i : grid9.Coords, EltTy.bits .bf16 = 32 ∨ (Rect.block (s := S2048x2048) S2048x2048.size (cc9_transform_4 i) (hinb9_4 i)).WholeWords (EltTy.packing .bf16)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S2048x256.size a ≤ S2048x256.size a
  hwx9_5 : ∀ i : grid9.Coords, EltTy.bits .bf16 = 32 ∨ (Rect.block (s := S2048x256) S2048x256.size (cc9_transform_5 i) (hinb9_5 i)).WholeWords (EltTy.packing .bf16)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S2048x256.size a ≤ S2048x256.size a
  hwx9_6 : ∀ i : grid9.Coords, EltTy.bits .bf16 = 32 ∨ (Rect.block (s := S2048x256) S2048x256.size (cc9_transform_6 i) (hinb9_6 i)).WholeWords (EltTy.packing .bf16)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S2048x256.size a ≤ S2048x256.size a
  hwx9_7 : ∀ i : grid9.Coords, EltTy.bits .bf16 = 32 ∨ (Rect.block (s := S2048x256) S2048x256.size (cc9_transform_7 i) (hinb9_7 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S512x256.size a ≤ S2048x256.size a
  hwx10_0 : ∀ i : grid10.Coords, EltTy.bits .bf16 = 32 ∨ (Rect.block (s := S2048x256) S512x256.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S2048x256.size a ≤ S2048x256.size a
  hwx10_1 : ∀ i : grid10.Coords, EltTy.bits .bf16 = 32 ∨ (Rect.block (s := S2048x256) S2048x256.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S2048x256.size a ≤ S2048x256.size a
  hwx10_2 : ∀ i : grid10.Coords, EltTy.bits .bf16 = 32 ∨ (Rect.block (s := S2048x256) S2048x256.size (cc10_transform_2 i) (hinb10_2 i)).WholeWords (EltTy.packing .bf16)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S256x256.size a ≤ S256x256.size a
  hwx10_3 : ∀ i : grid10.Coords, EltTy.bits .bf16 = 32 ∨ (Rect.block (s := S256x256) S256x256.size (cc10_transform_3 i) (hinb10_3 i)).WholeWords (EltTy.packing .bf16)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S256x256.size a ≤ S256x256.size a
  hwx10_4 : ∀ i : grid10.Coords, EltTy.bits .bf16 = 32 ∨ (Rect.block (s := S256x256) S256x256.size (cc10_transform_4 i) (hinb10_4 i)).WholeWords (EltTy.packing .bf16)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x256.size a ≤ S1x256.size a
  hwx10_5 : ∀ i : grid10.Coords, EltTy.bits .f32 = 32 ∨ (Rect.block (s := S1x256) S1x256.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x256.size a ≤ S1x256.size a
  hwx10_6 : ∀ i : grid10.Coords, EltTy.bits .f32 = 32 ∨ (Rect.block (s := S1x256) S1x256.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S512x256.size a ≤ S2048x256.size a
  hwx10_7 : ∀ i : grid10.Coords, EltTy.bits .f32 = 32 ∨ (Rect.block (s := S2048x256) S512x256.size (cc10_transform_7 i) (hinb10_7 i)).WholeWords (EltTy.packing .f32)
  hrank11 : 0 < grid11.rank
  hstage11_0 : ∀ j, (stage11_0 j).IsWhole
  nbuf11_0 : grid11.bufCount reads11_0 true = 1
  hreads11_0 : ∀ i i' : grid11.Coords, (∀ a, reads11_0 a = true → i a = i' a) → cc11_transform_0 i = cc11_transform_0 i'
  hinb11_0 : ∀ (i : grid11.Coords) a, (cc11_transform_0 i a + 1) * S2048x256.size a ≤ S2048x256.size a
  hwx11_0 : ∀ i : grid11.Coords, EltTy.bits .f32 = 32 ∨ (Rect.block (s := S2048x256) S2048x256.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S256x256.size a ≤ S256x256.size a
  hwx11_1 : ∀ i : grid11.Coords, EltTy.bits .bf16 = 32 ∨ (Rect.block (s := S256x256) S256x256.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S256x256.size a ≤ S256x256.size a
  hwx11_2 : ∀ i : grid11.Coords, EltTy.bits .bf16 = 32 ∨ (Rect.block (s := S256x256) S256x256.size (cc11_transform_2 i) (hinb11_2 i)).WholeWords (EltTy.packing .bf16)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S256x256.size a ≤ S256x256.size a
  hwx11_3 : ∀ i : grid11.Coords, EltTy.bits .bf16 = 32 ∨ (Rect.block (s := S256x256) S256x256.size (cc11_transform_3 i) (hinb11_3 i)).WholeWords (EltTy.packing .bf16)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S2048x2048.size a ≤ S2048x2048.size a
  hwx11_4 : ∀ i : grid11.Coords, EltTy.bits .bf16 = 32 ∨ (Rect.block (s := S2048x2048) S2048x2048.size (cc11_transform_4 i) (hinb11_4 i)).WholeWords (EltTy.packing .bf16)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S2048x256.size a ≤ S2048x256.size a
  hwx11_5 : ∀ i : grid11.Coords, EltTy.bits .bf16 = 32 ∨ (Rect.block (s := S2048x256) S2048x256.size (cc11_transform_5 i) (hinb11_5 i)).WholeWords (EltTy.packing .bf16)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S2048x256.size a ≤ S2048x256.size a
  hwx11_6 : ∀ i : grid11.Coords, EltTy.bits .bf16 = 32 ∨ (Rect.block (s := S2048x256) S2048x256.size (cc11_transform_6 i) (hinb11_6 i)).WholeWords (EltTy.packing .bf16)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S2048x256.size a ≤ S2048x256.size a
  hwx11_7 : ∀ i : grid11.Coords, EltTy.bits .bf16 = 32 ∨ (Rect.block (s := S2048x256) S2048x256.size (cc11_transform_7 i) (hinb11_7 i)).WholeWords (EltTy.packing .bf16)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S512x256.size a ≤ S2048x256.size a
  hwx12_0 : ∀ i : grid12.Coords, EltTy.bits .bf16 = 32 ∨ (Rect.block (s := S2048x256) S512x256.size (cc12_transform_0 i) (hinb12_0 i)).WholeWords (EltTy.packing .bf16)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S2048x256.size a ≤ S2048x256.size a
  hwx12_1 : ∀ i : grid12.Coords, EltTy.bits .bf16 = 32 ∨ (Rect.block (s := S2048x256) S2048x256.size (cc12_transform_1 i) (hinb12_1 i)).WholeWords (EltTy.packing .bf16)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S2048x256.size a ≤ S2048x256.size a
  hwx12_2 : ∀ i : grid12.Coords, EltTy.bits .bf16 = 32 ∨ (Rect.block (s := S2048x256) S2048x256.size (cc12_transform_2 i) (hinb12_2 i)).WholeWords (EltTy.packing .bf16)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S256x256.size a ≤ S256x256.size a
  hwx12_3 : ∀ i : grid12.Coords, EltTy.bits .bf16 = 32 ∨ (Rect.block (s := S256x256) S256x256.size (cc12_transform_3 i) (hinb12_3 i)).WholeWords (EltTy.packing .bf16)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S256x256.size a ≤ S256x256.size a
  hwx12_4 : ∀ i : grid12.Coords, EltTy.bits .bf16 = 32 ∨ (Rect.block (s := S256x256) S256x256.size (cc12_transform_4 i) (hinb12_4 i)).WholeWords (EltTy.packing .bf16)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x256.size a ≤ S1x256.size a
  hwx12_5 : ∀ i : grid12.Coords, EltTy.bits .f32 = 32 ∨ (Rect.block (s := S1x256) S1x256.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x256.size a ≤ S1x256.size a
  hwx12_6 : ∀ i : grid12.Coords, EltTy.bits .f32 = 32 ∨ (Rect.block (s := S1x256) S1x256.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S512x256.size a ≤ S2048x256.size a
  hwx12_7 : ∀ i : grid12.Coords, EltTy.bits .f32 = 32 ∨ (Rect.block (s := S2048x256) S512x256.size (cc12_transform_7 i) (hinb12_7 i)).WholeWords (EltTy.packing .f32)
  hrank13 : 0 < grid13.rank
  hstage13_0 : ∀ j, (stage13_0 j).IsWhole
  nbuf13_0 : grid13.bufCount reads13_0 true = 1
  hreads13_0 : ∀ i i' : grid13.Coords, (∀ a, reads13_0 a = true → i a = i' a) → cc13_transform_0 i = cc13_transform_0 i'
  hinb13_0 : ∀ (i : grid13.Coords) a, (cc13_transform_0 i a + 1) * S2048x256.size a ≤ S2048x256.size a
  hwx13_0 : ∀ i : grid13.Coords, EltTy.bits .f32 = 32 ∨ (Rect.block (s := S2048x256) S2048x256.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x256.size a ≤ S1x256.size a
  hwx13_1 : ∀ i : grid13.Coords, EltTy.bits .bf16 = 32 ∨ (Rect.block (s := S1x256) S1x256.size (cc13_transform_1 i) (hinb13_1 i)).WholeWords (EltTy.packing .bf16)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S2048x256.size a ≤ S2048x256.size a
  hwx13_2 : ∀ i : grid13.Coords, EltTy.bits .bf16 = 32 ∨ (Rect.block (s := S2048x256) S2048x256.size (cc13_transform_2 i) (hinb13_2 i)).WholeWords (EltTy.packing .bf16)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x256.size a ≤ S1x256.size a
  hwx13_3 : ∀ i : grid13.Coords, EltTy.bits .bf16 = 32 ∨ (Rect.block (s := S1x256) S1x256.size (cc13_transform_3 i) (hinb13_3 i)).WholeWords (EltTy.packing .bf16)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S768x1.size a ≤ S768x1.size a
  hwx13_4 : ∀ i : grid13.Coords, EltTy.bits .bf16 = 32 ∨ (Rect.block (s := S768x1) S768x1.size (cc13_transform_4 i) (hinb13_4 i)).WholeWords (EltTy.packing .bf16)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x1.size a ≤ S1x1.size a
  hwx13_5 : ∀ i : grid13.Coords, EltTy.bits .f32 = 32 ∨ (Rect.block (s := S1x1) S1x1.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S256x128.size a ≤ S256x128.size a
  hwx13_6 : ∀ i : grid13.Coords, EltTy.bits .bf16 = 32 ∨ (Rect.block (s := S256x128) S256x128.size (cc13_transform_6 i) (hinb13_6 i)).WholeWords (EltTy.packing .bf16)
  hstage13_7 : ∀ j, (stage13_7 j).IsWhole
  nbuf13_7 : grid13.bufCount reads13_7 true = 1
  hreads13_7 : ∀ i i' : grid13.Coords, (∀ a, reads13_7 a = true → i a = i' a) → cc13_transform_7 i = cc13_transform_7 i'
  hinb13_7 : ∀ (i : grid13.Coords) a, (cc13_transform_7 i a + 1) * S2048x128.size a ≤ S2048x128.size a
  hwx13_7 : ∀ i : grid13.Coords, EltTy.bits .f32 = 32 ∨ (Rect.block (s := S2048x128) S2048x128.size (cc13_transform_7 i) (hinb13_7 i)).WholeWords (EltTy.packing .f32)

variable [Facts₀]

def dot_S1024x2560_S2560x256_S1024x256_1_0_0_1_n_n : DotDims S1024x2560 S2560x256 S1024x256 where
  lhsContracting := [1]
  rhsContracting := [0]
  lhsNonContracting := [0]
  rhsNonContracting := [1]
  lhsBatch := []
  rhsBatch := []
  wf := dot_S1024x2560_S2560x256_S1024x256_1_0_0_1_n_n_wf
def dot_S1x2560_S2560x256_S1x256_1_0_0_1_n_n : DotDims S1x2560 S2560x256 S1x256 where
  lhsContracting := [1]
  rhsContracting := [0]
  lhsNonContracting := [0]
  rhsNonContracting := [1]
  lhsBatch := []
  rhsBatch := []
  wf := dot_S1x2560_S2560x256_S1x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1x256_S2048x256_S1x2048_1_1_0_0_n_n : DotDims S1x256 S2048x256 S1x2048 where
  lhsContracting := [1]
  rhsContracting := [1]
  lhsNonContracting := [0]
  rhsNonContracting := [0]
  lhsBatch := []
  rhsBatch := []
  wf := dot_S1x256_S2048x256_S1x2048_1_1_0_0_n_n_wf
def dot_S1x2048_S2048x256_S1x256_1_0_0_1_n_n : DotDims S1x2048 S2048x256 S1x256 where
  lhsContracting := [1]
  rhsContracting := [0]
  lhsNonContracting := [0]
  rhsNonContracting := [1]
  lhsBatch := []
  rhsBatch := []
  wf := dot_S1x2048_S2048x256_S1x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_v1) S1024x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2560x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1x2560.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2560x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x256.size cc1_transform_2 reads1_2 true false 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S2048x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v9) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S1x256.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v20) S2048x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v11) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v12) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v18) S2048x2048.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v21_0) S2048x256.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v21_1) S2048x256.size cc3_transform_6 reads3_6 true true 1 stage3_6 sem3_6
    hrank3 hreads3_6 hinb3_6 nbuf3_6 (Memref.isWhole_whole _) hwx3_6 hstage3_6

abbrev win3_7 : Pipeline.Window sig grid3 :=
  Pipeline.Window.ofSpec (Memref.whole main_v21_2) S2048x256.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v21_0) S512x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21_1) S2048x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v21_2) S2048x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v14) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v15) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg14) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg15) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v22) S512x256.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v22) S2048x256.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v11) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v12) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v13) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v18) S2048x2048.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v23_0) S2048x256.size cc5_transform_5 reads5_5 true true 1 stage5_5 sem5_5
    hrank5 hreads5_5 hinb5_5 nbuf5_5 (Memref.isWhole_whole _) hwx5_5 hstage5_5

abbrev win5_6 : Pipeline.Window sig grid5 :=
  Pipeline.Window.ofSpec (Memref.whole main_v23_1) S2048x256.size cc5_transform_6 reads5_6 true true 1 stage5_6 sem5_6
    hrank5 hreads5_6 hinb5_6 nbuf5_6 (Memref.isWhole_whole _) hwx5_6 hstage5_6

abbrev win5_7 : Pipeline.Window sig grid5 :=
  Pipeline.Window.ofSpec (Memref.whole main_v23_2) S2048x256.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v23_0) S512x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v23_1) S2048x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v23_2) S2048x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v14) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v15) S256x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg14) S1x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg15) S1x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v24) S512x256.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v24) S2048x256.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v11) S256x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v12) S256x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v13) S256x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v18) S2048x2048.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v25_0) S2048x256.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v25_1) S2048x256.size cc7_transform_6 reads7_6 true true 1 stage7_6 sem7_6
    hrank7 hreads7_6 hinb7_6 nbuf7_6 (Memref.isWhole_whole _) hwx7_6 hstage7_6

abbrev win7_7 : Pipeline.Window sig grid7 :=
  Pipeline.Window.ofSpec (Memref.whole main_v25_2) S2048x256.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v25_0) S512x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v25_1) S2048x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v25_2) S2048x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v14) S256x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v15) S256x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg14) S1x256.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_arg15) S1x256.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v26) S512x256.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v26) S2048x256.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v11) S256x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v12) S256x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v13) S256x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v18) S2048x2048.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v27_0) S2048x256.size cc9_transform_5 reads9_5 true true 1 stage9_5 sem9_5
    hrank9 hreads9_5 hinb9_5 nbuf9_5 (Memref.isWhole_whole _) hwx9_5 hstage9_5

abbrev win9_6 : Pipeline.Window sig grid9 :=
  Pipeline.Window.ofSpec (Memref.whole main_v27_1) S2048x256.size cc9_transform_6 reads9_6 true true 1 stage9_6 sem9_6
    hrank9 hreads9_6 hinb9_6 nbuf9_6 (Memref.isWhole_whole _) hwx9_6 hstage9_6

abbrev win9_7 : Pipeline.Window sig grid9 :=
  Pipeline.Window.ofSpec (Memref.whole main_v27_2) S2048x256.size cc9_transform_7 reads9_7 true true 1 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v27_0) S512x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v27_1) S2048x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v27_2) S2048x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v14) S256x256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v15) S256x256.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_arg14) S1x256.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_arg15) S1x256.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v28) S512x256.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v28) S2048x256.size cc11_transform_0 reads11_0 false true 1 stage11_0 sem11_0
    hrank11 hreads11_0 hinb11_0 nbuf11_0 (Memref.isWhole_whole _) hwx11_0 hstage11_0

abbrev win11_1 : Pipeline.Window sig grid11 :=
  Pipeline.Window.ofSpec (Memref.whole main_v11) S256x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v12) S256x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v13) S256x256.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v18) S2048x2048.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v29_0) S2048x256.size cc11_transform_5 reads11_5 true true 1 stage11_5 sem11_5
    hrank11 hreads11_5 hinb11_5 nbuf11_5 (Memref.isWhole_whole _) hwx11_5 hstage11_5

abbrev win11_6 : Pipeline.Window sig grid11 :=
  Pipeline.Window.ofSpec (Memref.whole main_v29_1) S2048x256.size cc11_transform_6 reads11_6 true true 1 stage11_6 sem11_6
    hrank11 hreads11_6 hinb11_6 nbuf11_6 (Memref.isWhole_whole _) hwx11_6 hstage11_6

abbrev win11_7 : Pipeline.Window sig grid11 :=
  Pipeline.Window.ofSpec (Memref.whole main_v29_2) S2048x256.size cc11_transform_7 reads11_7 true true 1 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

abbrev win12_0 : Pipeline.Window sig grid12 :=
  Pipeline.Window.ofSpec (Memref.whole main_v29_0) S512x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v29_1) S2048x256.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v29_2) S2048x256.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v14) S256x256.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v15) S256x256.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_arg14) S1x256.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_arg15) S1x256.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v30) S512x256.size cc12_transform_7 reads12_7 true false 2 stage12_7 sem12_7
    hrank12 hreads12_7 hinb12_7 nbuf12_7 (Memref.isWhole_whole _) hwx12_7 hstage12_7

abbrev win12 : Fin 8 → Pipeline.Window sig grid12 := fun | 0 => win12_0 | 1 => win12_1 | 2 => win12_2 | 3 => win12_3 | 4 => win12_4 | 5 => win12_5 | 6 => win12_6 | 7 => win12_7 | ⟨_ + 8, h⟩ => absurd h (Nat.not_lt.2 (Nat.le_add_left _ _))
abbrev spec12 : Fin 8 → Pipeline.WinSpec sig grid12.rank := fun w => (win12 w).toWinSpec

abbrev win13_0 : Pipeline.Window sig grid13 :=
  Pipeline.Window.ofSpec (Memref.whole main_v30) S2048x256.size cc13_transform_0 reads13_0 false true 1 stage13_0 sem13_0
    hrank13 hreads13_0 hinb13_0 nbuf13_0 (Memref.isWhole_whole _) hwx13_0 hstage13_0

abbrev win13_1 : Pipeline.Window sig grid13 :=
  Pipeline.Window.ofSpec (Memref.whole main_v16) S1x256.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v6) S2048x256.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v7) S1x256.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v31) S768x1.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_arg6) S1x1.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v33) S256x128.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v34) S2048x128.size cc13_transform_7 reads13_7 true true 1 stage13_7 sem13_7
    hrank13 hreads13_7 hinb13_7 nbuf13_7 (Memref.isWhole_whole _) hwx13_7 hstage13_7

abbrev win13 : Fin 8 → Pipeline.Window sig grid13 := fun | 0 => win13_0 | 1 => win13_1 | 2 => win13_2 | 3 => win13_3 | 4 => win13_4 | 5 => win13_5 | 6 => win13_6 | 7 => win13_7 | ⟨_ + 8, h⟩ => absurd h (Nat.not_lt.2 (Nat.le_add_left _ _))
abbrev spec13 : Fin 8 → Pipeline.WinSpec sig grid13.rank := fun w => (win13 w).toWinSpec

class Facts : Prop extends Facts₀ where

variable [Facts]
-- ==== ReferenceIdeal.lean ====
abbrev S2048x20000 : Shape := ⟨2, ![2048, 20000]⟩
abbrev S1x20000 : Shape := ⟨2, ![1, 20000]⟩
abbrev S20000x256 : Shape := ⟨2, ![20000, 256]⟩
abbrev S2048x256 : Shape := ⟨2, ![2048, 256]⟩
abbrev S1x256 : Shape := ⟨2, ![1, 256]⟩
abbrev S768x1 : Shape := ⟨2, ![768, 1]⟩
abbrev S1x1 : Shape := ⟨2, ![1, 1]⟩
abbrev S256x256 : Shape := ⟨2, ![256, 256]⟩
abbrev S_ : Shape := ⟨0, ![]⟩
abbrev S2048x2048 : Shape := ⟨2, ![2048, 2048]⟩
abbrev S256x2048 : Shape := ⟨2, ![256, 2048]⟩
abbrev S1x2048 : Shape := ⟨2, ![1, 2048]⟩
abbrev S1 : Shape := ⟨1, ![1]⟩
abbrev S2048 : Shape := ⟨1, ![2048]⟩
abbrev S2048x1 : Shape := ⟨2, ![2048, 1]⟩
abbrev S2048x768 : Shape := ⟨2, ![2048, 768]⟩
abbrev S256x1 : Shape := ⟨2, ![256, 1]⟩

abbrev nBuf : Space → Nat
  | .hbm => 238
  | .vmem => 0
  | .smem => 0
  | _ => 0

abbrev hbmTy0_0 (i : Nat) : BufTy := match i % 128 with
  | 0 => ⟨S2048x20000, .f32⟩
  | 1 => ⟨S1x20000, .f32⟩
  | 2 => ⟨S20000x256, .f32⟩
  | 3 => ⟨S2048x256, .f32⟩
  | 4 => ⟨S1x256, .f32⟩
  | 5 => ⟨S768x1, .f32⟩
  | 6 => ⟨S1x1, .f32⟩
  | 7 => ⟨S256x256, .f32⟩
  | 8 => ⟨S256x256, .f32⟩
  | 9 => ⟨S256x256, .f32⟩
  | 10 => ⟨S256x256, .f32⟩
  | 11 => ⟨S256x256, .f32⟩
  | 12 => ⟨S256x256, .f32⟩
  | 13 => ⟨S256x256, .f32⟩
  | 14 => ⟨S1x256, .f32⟩
  | 15 => ⟨S1x256, .f32⟩
  | 16 => ⟨S_, .f32⟩
  | 17 => ⟨S2048x2048, .f32⟩
  | 18 => ⟨S2048x2048, .i32⟩
  | 19 => ⟨S_, .i32⟩
  | 20 => ⟨S2048x2048, .i32⟩
  | 21 => ⟨S2048x2048, .i32⟩
  | 22 => ⟨S2048x2048, .i32⟩
  | 23 => ⟨S2048x2048, .i1⟩
  | 24 => ⟨S_, .f32⟩
  | 25 => ⟨S2048x2048, .f32⟩
  | 26 => ⟨S2048x2048, .f32⟩
  | 27 => ⟨S2048x256, .f32⟩
  | 28 => ⟨S2048x256, .f32⟩
  | 29 => ⟨S256x2048, .f32⟩
  | 30 => ⟨S1x2048, .f32⟩
  | 31 => ⟨S_, .f32⟩
  | 32 => ⟨S1, .f32⟩
  | 33 => ⟨S_, .f32⟩
  | 34 => ⟨S1, .f32⟩
  | 35 => ⟨S1, .f32⟩
  | 36 => ⟨S1x1, .f32⟩
  | 37 => ⟨S1x2048, .f32⟩
  | 38 => ⟨S1x2048, .f32⟩
  | 39 => ⟨S1x2048, .f32⟩
  | 40 => ⟨S_, .f32⟩
  | 41 => ⟨S1, .f32⟩
  | 42 => ⟨S1x1, .f32⟩
  | 43 => ⟨S1x2048, .f32⟩
  | 44 => ⟨S1x2048, .f32⟩
  | 45 => ⟨S2048x256, .f32⟩
  | 46 => ⟨S1x256, .f32⟩
  | 47 => ⟨S2048x256, .f32⟩
  | 48 => ⟨S2048x256, .f32⟩
  | 49 => ⟨S2048x256, .f32⟩
  | 50 => ⟨S2048x256, .f32⟩
  | 51 => ⟨S2048x256, .f32⟩
  | 52 => ⟨S256x2048, .f32⟩
  | 53 => ⟨S2048x2048, .f32⟩
  | 54 => ⟨S_, .f32⟩
  | 55 => ⟨S2048x2048, .f32⟩
  | 56 => ⟨S2048x2048, .f32⟩
  | 57 => ⟨S_, .f32⟩
  | 58 => ⟨S2048, .f32⟩
  | 59 => ⟨S_, .f32⟩
  | 60 => ⟨S2048, .f32⟩
  | 61 => ⟨S2048, .f32⟩
  | 62 => ⟨S2048x1, .f32⟩
  | 63 => ⟨S2048x2048, .f32⟩
  | 64 => ⟨S2048x2048, .f32⟩
  | 65 => ⟨S2048x2048, .f32⟩
  | 66 => ⟨S_, .f32⟩
  | 67 => ⟨S2048, .f32⟩
  | 68 => ⟨S2048x1, .f32⟩
  | 69 => ⟨S2048x2048, .f32⟩
  | 70 => ⟨S2048x2048, .f32⟩
  | 71 => ⟨S2048x2048, .f32⟩
  | 72 => ⟨S2048x256, .f32⟩
  | 73 => ⟨S2048x256, .f32⟩
  | 74 => ⟨S2048x256, .f32⟩
  | 75 => ⟨S2048x256, .f32⟩
  | 76 => ⟨S_, .f32⟩
  | 77 => ⟨S2048x256, .f32⟩
  | 78 => ⟨S2048x256, .f32⟩
  | 79 => ⟨S2048x256, .f32⟩
  | 80 => ⟨S2048x256, .f32⟩
  | 81 => ⟨S2048x256, .f32⟩
  | 82 => ⟨S2048x256, .f32⟩
  | 83 => ⟨S2048x256, .f32⟩
  | 84 => ⟨S2048x256, .f32⟩
  | 85 => ⟨S256x2048, .f32⟩
  | 86 => ⟨S2048x2048, .f32⟩
  | 87 => ⟨S_, .f32⟩
  | 88 => ⟨S2048x2048, .f32⟩
  | 89 => ⟨S2048x2048, .f32⟩
  | 90 => ⟨S_, .f32⟩
  | 91 => ⟨S2048, .f32⟩
  | 92 => ⟨S_, .f32⟩
  | 93 => ⟨S2048, .f32⟩
  | 94 => ⟨S2048, .f32⟩
  | 95 => ⟨S2048x1, .f32⟩
  | 96 => ⟨S2048x2048, .f32⟩
  | 97 => ⟨S2048x2048, .f32⟩
  | 98 => ⟨S2048x2048, .f32⟩
  | 99 => ⟨S_, .f32⟩
  | 100 => ⟨S2048, .f32⟩
  | 101 => ⟨S2048x1, .f32⟩
  | 102 => ⟨S2048x2048, .f32⟩
  | 103 => ⟨S2048x2048, .f32⟩
  | 104 => ⟨S2048x2048, .f32⟩
  | 105 => ⟨S2048x256, .f32⟩
  | 106 => ⟨S2048x256, .f32⟩
  | 107 => ⟨S2048x256, .f32⟩
  | 108 => ⟨S2048x256, .f32⟩
  | 109 => ⟨S_, .f32⟩
  | 110 => ⟨S2048x256, .f32⟩
  | 111 => ⟨S2048x256, .f32⟩
  | 112 => ⟨S2048x256, .f32⟩
  | 113 => ⟨S2048x256, .f32⟩
  | 114 => ⟨S2048x256, .f32⟩
  | 115 => ⟨S2048x256, .f32⟩
  | 116 => ⟨S2048x256, .f32⟩
  | 117 => ⟨S2048x256, .f32⟩
  | 118 => ⟨S256x2048, .f32⟩
  | 119 => ⟨S2048x2048, .f32⟩
  | 120 => ⟨S_, .f32⟩
  | 121 => ⟨S2048x2048, .f32⟩
  | 122 => ⟨S2048x2048, .f32⟩
  | 123 => ⟨S_, .f32⟩
  | 124 => ⟨S2048, .f32⟩
  | 125 => ⟨S_, .f32⟩
  | 126 => ⟨S2048, .f32⟩
  | 127 => ⟨S2048, .f32⟩
  | _ => ⟨S2048x20000, .f32⟩

abbrev hbmTy0_1 (i : Nat) : BufTy := match i % 128 with
  | 0 => ⟨S2048x1, .f32⟩
  | 1 => ⟨S2048x2048, .f32⟩
  | 2 => ⟨S2048x2048, .f32⟩
  | 3 => ⟨S2048x2048, .f32⟩
  | 4 => ⟨S_, .f32⟩
  | 5 => ⟨S2048, .f32⟩
  | 6 => ⟨S2048x1, .f32⟩
  | 7 => ⟨S2048x2048, .f32⟩
  | 8 => ⟨S2048x2048, .f32⟩
  | 9 => ⟨S2048x2048, .f32⟩
  | 10 => ⟨S2048x256, .f32⟩
  | 11 => ⟨S2048x256, .f32⟩
  | 12 => ⟨S2048x256, .f32⟩
  | 13 => ⟨S2048x256, .f32⟩
  | 14 => ⟨S_, .f32⟩
  | 15 => ⟨S2048x256, .f32⟩
  | 16 => ⟨S2048x256, .f32⟩
  | 17 => ⟨S2048x256, .f32⟩
  | 18 => ⟨S2048x256, .f32⟩
  | 19 => ⟨S2048x256, .f32⟩
  | 20 => ⟨S2048x256, .f32⟩
  | 21 => ⟨S2048x256, .f32⟩
  | 22 => ⟨S2048x256, .f32⟩
  | 23 => ⟨S256x2048, .f32⟩
  | 24 => ⟨S2048x2048, .f32⟩
  | 25 => ⟨S_, .f32⟩
  | 26 => ⟨S2048x2048, .f32⟩
  | 27 => ⟨S2048x2048, .f32⟩
  | 28 => ⟨S_, .f32⟩
  | 29 => ⟨S2048, .f32⟩
  | 30 => ⟨S_, .f32⟩
  | 31 => ⟨S2048, .f32⟩
  | 32 => ⟨S2048, .f32⟩
  | 33 => ⟨S2048x1, .f32⟩
  | 34 => ⟨S2048x2048, .f32⟩
  | 35 => ⟨S2048x2048, .f32⟩
  | 36 => ⟨S2048x2048, .f32⟩
  | 37 => ⟨S_, .f32⟩
  | 38 => ⟨S2048, .f32⟩
  | 39 => ⟨S2048x1, .f32⟩
  | 40 => ⟨S2048x2048, .f32⟩
  | 41 => ⟨S2048x2048, .f32⟩
  | 42 => ⟨S2048x2048, .f32⟩
  | 43 => ⟨S2048x256, .f32⟩
  | 44 => ⟨S2048x256, .f32⟩
  | 45 => ⟨S2048x256, .f32⟩
  | 46 => ⟨S2048x256, .f32⟩
  | 47 => ⟨S_, .f32⟩
  | 48 => ⟨S2048x256, .f32⟩
  | 49 => ⟨S2048x256, .f32⟩
  | 50 => ⟨S2048x256, .f32⟩
  | 51 => ⟨S2048x256, .f32⟩
  | 52 => ⟨S2048x256, .f32⟩
  | 53 => ⟨S2048x256, .f32⟩
  | 54 => ⟨S2048x256, .f32⟩
  | 55 => ⟨S2048x256, .f32⟩
  | 56 => ⟨S256x2048, .f32⟩
  | 57 => ⟨S2048x2048, .f32⟩
  | 58 => ⟨S_, .f32⟩
  | 59 => ⟨S2048x2048, .f32⟩
  | 60 => ⟨S2048x2048, .f32⟩
  | 61 => ⟨S_, .f32⟩
  | 62 => ⟨S2048, .f32⟩
  | 63 => ⟨S_, .f32⟩
  | 64 => ⟨S2048, .f32⟩
  | 65 => ⟨S2048, .f32⟩
  | 66 => ⟨S2048x1, .f32⟩
  | 67 => ⟨S2048x2048, .f32⟩
  | 68 => ⟨S2048x2048, .f32⟩
  | 69 => ⟨S2048x2048, .f32⟩
  | 70 => ⟨S_, .f32⟩
  | 71 => ⟨S2048, .f32⟩
  | 72 => ⟨S2048x1, .f32⟩
  | 73 => ⟨S2048x2048, .f32⟩
  | 74 => ⟨S2048x2048, .f32⟩
  | 75 => ⟨S2048x2048, .f32⟩
  | 76 => ⟨S2048x256, .f32⟩
  | 77 => ⟨S2048x256, .f32⟩
  | 78 => ⟨S2048x256, .f32⟩
  | 79 => ⟨S2048x256, .f32⟩
  | 80 => ⟨S_, .f32⟩
  | 81 => ⟨S2048x256, .f32⟩
  | 82 => ⟨S2048x256, .f32⟩
  | 83 => ⟨S2048x256, .f32⟩
  | 84 => ⟨S2048x256, .f32⟩
  | 85 => ⟨S2048x256, .f32⟩
  | 86 => ⟨S1x256, .f32⟩
  | 87 => ⟨S2048x256, .f32⟩
  | 88 => ⟨S2048x768, .f32⟩
  | 89 => ⟨S2048x1, .f32⟩
  | 90 => ⟨S2048x1, .f32⟩
  | 91 => ⟨S2048x1, .f32⟩
  | 92 => ⟨S2048x1, .f32⟩
  | 93 => ⟨S2048x1, .f32⟩
  | 94 => ⟨S_, .f32⟩
  | 95 => ⟨S2048x1, .f32⟩
  | 96 => ⟨S2048x1, .f32⟩
  | 97 => ⟨S_, .f32⟩
  | 98 => ⟨S2048x1, .f32⟩
  | 99 => ⟨S2048x1, .f32⟩
  | 100 => ⟨S2048x256, .f32⟩
  | 101 => ⟨S2048x256, .f32⟩
  | 102 => ⟨S_, .f32⟩
  | 103 => ⟨S2048x1, .f32⟩
  | 104 => ⟨S2048x1, .f32⟩
  | 105 => ⟨S2048x256, .f32⟩
  | 106 => ⟨S2048x256, .f32⟩
  | 107 => ⟨S2048x256, .f32⟩
  | 108 => ⟨S256x1, .f32⟩
  | 109 => ⟨S2048x1, .f32⟩
  | _ => ⟨S2048x20000, .f32⟩

abbrev hbmTy (i : Nat) : BufTy := match i / 128 with
  | 0 => hbmTy0_0 i
  | 1 => hbmTy0_1 i
  | _ => ⟨S2048x20000, .f32⟩

abbrev bufTy : (tb : Table) → Fin (tcTables nBuf tb) → BufTy
  | .hbm, ⟨i, _⟩ => hbmTy i
  | _, _ => ⟨S2048x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_cst : Ref sig .tc := ⟨.hbm, 24, rfl⟩
abbrev main_call0_v5 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst_0 : Ref sig .tc := ⟨.hbm, 31, rfl⟩
abbrev main_v6 : Ref sig .tc := ⟨.hbm, 32, rfl⟩
abbrev main_cst_1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_3 : Ref sig .tc := ⟨.hbm, 54, rfl⟩
abbrev main_v26 : Ref sig .tc := ⟨.hbm, 55, rfl⟩
abbrev main_v27 : Ref sig .tc := ⟨.hbm, 56, rfl⟩
abbrev main_cst_4 : Ref sig .tc := ⟨.hbm, 57, rfl⟩
abbrev main_v28 : Ref sig .tc := ⟨.hbm, 58, rfl⟩
abbrev main_cst_5 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_6 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_call1_cst : Ref sig .tc := ⟨.hbm, 76, rfl⟩
abbrev main_call1_v0 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_7 : Ref sig .tc := ⟨.hbm, 87, rfl⟩
abbrev main_v53 : Ref sig .tc := ⟨.hbm, 88, rfl⟩
abbrev main_v54 : Ref sig .tc := ⟨.hbm, 89, rfl⟩
abbrev main_cst_8 : Ref sig .tc := ⟨.hbm, 90, rfl⟩
abbrev main_v55 : Ref sig .tc := ⟨.hbm, 91, rfl⟩
abbrev main_cst_9 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_10 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_call2_cst : Ref sig .tc := ⟨.hbm, 109, rfl⟩
abbrev main_call2_v0 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_11 : Ref sig .tc := ⟨.hbm, 120, rfl⟩
abbrev main_v80 : Ref sig .tc := ⟨.hbm, 121, rfl⟩
abbrev main_v81 : Ref sig .tc := ⟨.hbm, 122, rfl⟩
abbrev main_cst_12 : Ref sig .tc := ⟨.hbm, 123, rfl⟩
abbrev main_v82 : Ref sig .tc := ⟨.hbm, 124, rfl⟩
abbrev main_cst_13 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_14 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_call3_cst : Ref sig .tc := ⟨.hbm, 142, rfl⟩
abbrev main_call3_v0 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_15 : Ref sig .tc := ⟨.hbm, 153, rfl⟩
abbrev main_v107 : Ref sig .tc := ⟨.hbm, 154, rfl⟩
abbrev main_v108 : Ref sig .tc := ⟨.hbm, 155, rfl⟩
abbrev main_cst_16 : Ref sig .tc := ⟨.hbm, 156, rfl⟩
abbrev main_v109 : Ref sig .tc := ⟨.hbm, 157, rfl⟩
abbrev main_cst_17 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_18 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_call4_cst : Ref sig .tc := ⟨.hbm, 175, rfl⟩
abbrev main_call4_v0 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_cst_19 : Ref sig .tc := ⟨.hbm, 186, rfl⟩
abbrev main_v134 : Ref sig .tc := ⟨.hbm, 187, rfl⟩
abbrev main_v135 : Ref sig .tc := ⟨.hbm, 188, rfl⟩
abbrev main_cst_20 : Ref sig .tc := ⟨.hbm, 189, rfl⟩
abbrev main_v136 : Ref sig .tc := ⟨.hbm, 190, rfl⟩
abbrev main_cst_21 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_cst_22 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_call5_cst : Ref sig .tc := ⟨.hbm, 208, rfl⟩
abbrev main_call5_v0 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_cst_23 : Ref sig .tc := ⟨.hbm, 222, rfl⟩
abbrev main_v164 : Ref sig .tc := ⟨.hbm, 223, rfl⟩
abbrev main_v165 : Ref sig .tc := ⟨.hbm, 224, rfl⟩
abbrev main_cst_24 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_cst_25 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  transposes_S2048x256_S256x2048_1_0 : S2048x256.Transposes [1, 0] S256x2048
  reducesTo_S1x2048_S1_d1 : S1x2048.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x2048_0_1 : S1x1.BroadcastsInDim S1x2048 (![0, 1] : Fin 2 → Fin S1x2048.rank)
  bcast_S1x256_S2048x256_0_1 : S1x256.BroadcastsInDim S2048x256 (![0, 1] : Fin 2 → Fin S2048x256.rank)
  reducesTo_S2048x2048_S2048_d1 : S2048x2048.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S_S2048x256 : S_.BroadcastsInDim S2048x256 (![] : Fin 0 → Fin S2048x256.rank)
  concatenates_S2048x256_S2048x256_S2048x256_S2048x768_d1 : Shape.Concatenates [S2048x256, S2048x256, S2048x256] S2048x768 1
  bcast_S1x1_S2048x1_0_1 : S1x1.BroadcastsInDim S2048x1 (![0, 1] : Fin 2 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  transposes_S1x256_S256x1_1_0 : S1x256.Transposes [1, 0] S256x1
  dot_S2048x20000_S20000x256_S2048x256_1_0_0_1_n_n_wf : DotDims.WF S2048x20000 S20000x256 S2048x256 [1] [0] [0] [1] [] []
  dot_S2048x256_S256x256_S2048x256_1_0_0_1_n_n_wf : DotDims.WF S2048x256 S256x256 S2048x256 [1] [0] [0] [1] [] []
  dot_S1x256_S256x2048_S1x2048_1_0_0_1_n_n_wf : DotDims.WF S1x256 S256x2048 S1x2048 [1] [0] [0] [1] [] []
  dot_S1x2048_S2048x256_S1x256_1_0_0_1_n_n_wf : DotDims.WF S1x2048 S2048x256 S1x256 [1] [0] [0] [1] [] []
  dot_S2048x256_S256x2048_S2048x2048_1_0_0_1_n_n_wf : DotDims.WF S2048x256 S256x2048 S2048x2048 [1] [0] [0] [1] [] []
  dot_S2048x2048_S2048x2048_S2048x2048_1_0_0_1_n_n_wf : DotDims.WF S2048x2048 S2048x2048 S2048x2048 [1] [0] [0] [1] [] []
  dot_S2048x2048_S2048x256_S2048x256_1_0_0_1_n_n_wf : DotDims.WF S2048x2048 S2048x256 S2048x256 [1] [0] [0] [1] [] []
  dot_S1x20000_S20000x256_S1x256_1_0_0_1_n_n_wf : DotDims.WF S1x20000 S20000x256 S1x256 [1] [0] [0] [1] [] []
  dot_S2048x768_S768x1_S2048x1_1_0_0_1_n_n_wf : DotDims.WF S2048x768 S768x1 S2048x1 [1] [0] [0] [1] [] []
  dot_S2048x256_S256x1_S2048x1_1_0_0_1_n_n_wf : DotDims.WF S2048x256 S256x1 S2048x1 [1] [0] [0] [1] [] []

variable [Facts₀]

def dot_S2048x20000_S20000x256_S2048x256_1_0_0_1_n_n : DotDims S2048x20000 S20000x256 S2048x256 where
  lhsContracting := [1]
  rhsContracting := [0]
  lhsNonContracting := [0]
  rhsNonContracting := [1]
  lhsBatch := []
  rhsBatch := []
  wf := dot_S2048x20000_S20000x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1x256_S256x2048_S1x2048_1_0_0_1_n_n : DotDims S1x256 S256x2048 S1x2048 where
  lhsContracting := [1]
  rhsContracting := [0]
  lhsNonContracting := [0]
  rhsNonContracting := [1]
  lhsBatch := []
  rhsBatch := []
  wf := dot_S1x256_S256x2048_S1x2048_1_0_0_1_n_n_wf
def dot_S1x2048_S2048x256_S1x256_1_0_0_1_n_n : DotDims S1x2048 S2048x256 S1x256 where
  lhsContracting := [1]
  rhsContracting := [0]
  lhsNonContracting := [0]
  rhsNonContracting := [1]
  lhsBatch := []
  rhsBatch := []
  wf := dot_S1x2048_S2048x256_S1x256_1_0_0_1_n_n_wf
def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S1x20000_S20000x256_S1x256_1_0_0_1_n_n : DotDims S1x20000 S20000x256 S1x256 where
  lhsContracting := [1]
  rhsContracting := [0]
  lhsNonContracting := [0]
  rhsNonContracting := [1]
  lhsBatch := []
  rhsBatch := []
  wf := dot_S1x20000_S20000x256_S1x256_1_0_0_1_n_n_wf
def dot_S2048x768_S768x1_S2048x1_1_0_0_1_n_n : DotDims S2048x768 S768x1 S2048x1 where
  lhsContracting := [1]
  rhsContracting := [0]
  lhsNonContracting := [0]
  rhsNonContracting := [1]
  lhsBatch := []
  rhsBatch := []
  wf := dot_S2048x768_S768x1_S2048x1_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

class Facts : Prop extends Facts₀ where

variable [Facts]
-- ==== Proof.KB.Reg0.lean ====
import proofs.«104406_j63058709840319_2_alg».proof.Proof.Gen.Kernel.Launch
import proofs.«104406_j63058709840319_2_alg».proof.Proof.Gen.Kernel.Skeleton
import proofs.«104406_j63058709840319_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! Region 0: the K-blocked matrix product. The grid is 2×8; point `t` works on row tile `t / 8` at step
`k = t % 8`. A scratch accumulator is zeroed at `k = 0`, the product of the point's two input blocks is added to it at
every point, and its rounding to bf16 is stored into the output window's buffer at every point; the pipeline writes
that buffer back only at `k = 7`, when the accumulator holds the whole sum over `k`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each whole buffer through the unit rectangle at zero offsets -/

abbrev r0_lhs : Rect S1024x2560 := Rect.unit (s := S1024x2560) ![0, 0] S1024x2560.size inb_S1024x2560_S1024x2560_0_0
abbrev r0_rhs : Rect S2560x256 := Rect.unit (s := S2560x256) ![0, 0] S2560x256.size inb_S2560x256_S2560x256_0_0
abbrev r0_acc : Rect S1024x256 := Rect.unit (s := S1024x256) ![0, 0] S1024x256.size inb_S1024x256_S1024x256_0_0

/-! ## What the body leaves -/

/-- The accumulator after the body at a point with `k = 0`: zeroed, then the product of the two input blocks added. -/
def acc0_first (x0 : Vec F S1024x2560 .bf16) (x1 : Vec F S2560x256 .bf16) : Vec F S1024x256 .f32 :=
  k0_pay2 (k0_pay1 (F := F)) x0 x1

/-- The accumulator after the body at a point with `k ≠ 0`: the product of the two input blocks added to what the
    point before left (`s`). -/
def acc0_next (s : Vec F S1024x256 .f32) (x0 : Vec F S1024x2560 .bf16) (x1 : Vec F S2560x256 .bf16) : Vec F S1024x256 .f32 :=
  k0_pay2 s x0 x1

/-- Window 2's staging buffer after the body, from the accumulator the body leaves (`s`): its one store, of the
    accumulator rounded to bf16. -/
def out0_2 (s : Vec F S1024x256 .f32) : Vec F S1024x256 .bf16 :=
  k0_pay3 s

/-- A store through the whole-buffer rectangle covers the buffer, whatever was stored before it. -/
theorem cover0_acc {e : EltTy} (p0 : r0_acc.shape.Idx → Elt F e) (L : List (View.Piece (Elt F) S1024x256 e)) (y : S1024x256.Idx) :
    ∃ pc ∈ ((⟨r0_acc, p0⟩ : View.Piece (Elt F) S1024x256 e) :: L), y ∈ pc.1.set :=
  ⟨_, List.Mem.head _, View.mem_set_unit_zero (by funext a; fin_cases a <;> rfl) inb_S1024x256_S1024x256_0_0 y⟩

/-- The zero offsets, as the rectangles spell them. -/
theorem zeroOff0 : (![0, 0] : Fin 2 → ℕ) = fun _ => 0 := by funext a; fin_cases a <;> rfl

/-- A load through the whole-buffer rectangle after a store through it reads that store's payload, whatever was
    stored before. -/
theorem readCov_last0 {S : Shape} {e : EltTy} {sg : RefSig} {κ : Kind} {sp : Space} (v : View sg κ sp S e)
    {off : Fin S.rank → ℕ} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩),
    View.canon_cons_unit_zero h, View.ld_unit_zero h]

/-- A load through the whole-buffer rectangle reads the buffer's contents, at any shape. -/
theorem readAt_whole0 {S : Shape} {e : EltTy} {sg : RefSig} {κ : Kind} {sp : Space} (v : View sg κ sp S e)
    {off : Fin S.rank → ℕ} (h : off = fun _ => 0) (inb : ∀ a, off a + S.size a ≤ S.size a) (f : v.ty.Contents (Elt F)) :
    v.readAt (Elt F) (Rect.unit off S.size inb).toLoadRect f = v.read (Elt F) f :=
  View.ld_unit_zero h inb (v.read (Elt F) f)

/-! ## The body's branch condition -/

/-- The condition of the body's `scf.if` (`k0_h1`), from the grid coordinates: `k = 0`. -/
abbrev cond0 (i : grid0.Coords) : Prop :=
  (Scalar.cmpi .ne (Scalar.extui (Scalar.cmpi .eq (BitVec.ofNat 32 (i 1).val) 0#32)) 0#32) = 1#1
/-- It holds at the points ≡ 0 (mod 8). -/
theorem hcond0 : ∀ t : Fin cfg0.N, cond0 (grid0.coords t) ↔ t.val % 8 = 0 :=
  (by decide +kernel : ∀ t : Fin grid0.N, cond0 (grid0.coords t) ↔ t.val % 8 = 0)

/-! ## The body's triple, in its two cases -/

set_option maxHeartbeats 4000000 in
/-- At `k = 0`: on whole memrefs, the inputs' at read contents, the output's and the accumulator's at anything, the body
    runs to the continuation holding the inputs' as they were, the accumulator at `acc0_first` of the inputs and the
    output's buffer at its rounding. -/
theorem sound_kernel0_first (c : Dev nD) (E : Set ℕ) (i : grid0.Coords)
    (arg2 : Memref sig .tc .vmem S1024x2560 .bf16) (harg2 : arg2.IsWhole) (arg3 : Memref sig .tc .vmem S2560x256 .bf16) (harg3 : arg3.IsWhole)
    (arg4 : Memref sig .tc .vmem S1024x256 .bf16) (harg4 : arg4.IsWhole) (arg5 : Memref sig .tc .vmem S1024x256 .f32) (harg5 : arg5.IsWhole)
    (hc : cond0 i) (x0 : Vec F S1024x2560 .bf16) (x1 : Vec F S2560x256 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out0_2 (acc0_first x0 x1)) ∗ owns (c : Thread nD τ) arg5 fullShare (acc0_first x0 x1)) -∗ K ⟨⟩))
      ⊢ wp frame (wpE (defs₀ (F := F)) Variants.none c none) E (cc0__matmul_reduce_kernel i arg2 harg2 arg3 harg3 arg4 harg4 arg5 harg5) K := by
  simp only [cc0__matmul_reduce_kernel_eq_skeleton]; unfold cc0__matmul_reduce_kernel_skel
  unfold owns
  iintro ⟨⟨%f0, %hf0, H0⟩, ⟨%f1, %hf1, H1⟩, ⟨%d2, %f2, -, H2⟩, ⟨%d3, %f3, -, H3⟩, Hk⟩
  subst hf0; subst hf1
  -- a load through the whole-buffer rectangle reads the buffer's contents
  have e0 := readAt_whole0 arg2.view zeroOff0 inb_S1024x2560_S1024x2560_0_0 f0
  have e1 := readAt_whole0 arg3.view zeroOff0 inb_S2560x256_S2560x256_0_0 f1
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_acc _ _)).trans ?_
    refine (View.canon_unit_zero (S := S1024x256) zeroOff0 _ _).trans ?_
    unfold out0_2 acc0_first
    unfold sound_kernel0_first.sl.v13 sound_kernel0_first.sl.H3_2 sound_kernel0_first.sl.v3 sound_kernel0_first.sl.H3_1
    rw [readCov_last0 (S := S1024x256) _ zeroOff0, readCov_last0 (S := S1024x256) _ zeroOff0]
  iexists _; isplitr
  swap; · iexact H3
  ipureintro
  unfold acc0_first
  unfold sound_kernel0_first.sl.H3_2 sound_kernel0_first.sl.v3 sound_kernel0_first.sl.H3_1
  refine (View.read_writes_eq_canon _ _ _ (cover0_acc _ _)).trans ?_
  refine (View.canon_cons_unit_zero (S := S1024x256) zeroOff0 _ _ _).trans ?_
  rw [readCov_last0 (S := S1024x256) _ zeroOff0]

set_option maxHeartbeats 4000000 in
/-- At `k ≠ 0`: the same from the accumulator at read contents `s`, which it leaves at `acc0_next s` of the inputs. -/
theorem sound_kernel0_next (c : Dev nD) (E : Set ℕ) (i : grid0.Coords)
    (arg2 : Memref sig .tc .vmem S1024x2560 .bf16) (harg2 : arg2.IsWhole) (arg3 : Memref sig .tc .vmem S2560x256 .bf16) (harg3 : arg3.IsWhole)
    (arg4 : Memref sig .tc .vmem S1024x256 .bf16) (harg4 : arg4.IsWhole) (arg5 : Memref sig .tc .vmem S1024x256 .f32) (harg5 : arg5.IsWhole)
    (hc : ¬cond0 i) (x0 : Vec F S1024x2560 .bf16) (x1 : Vec F S2560x256 .bf16) (s : Vec F S1024x256 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (out0_2 (acc0_next s x0 x1)) ∗ owns (c : Thread nD τ) arg5 fullShare (acc0_next s x0 x1)) -∗ K ⟨⟩))
      ⊢ wp frame (wpE (defs₀ (F := F)) Variants.none c none) E (cc0__matmul_reduce_kernel i arg2 harg2 arg3 harg3 arg4 harg4 arg5 harg5) K := by
  simp only [cc0__matmul_reduce_kernel_eq_skeleton]; unfold cc0__matmul_reduce_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  -- a load through the whole-buffer rectangle reads the buffer's contents
  have e0 := readAt_whole0 arg2.view zeroOff0 inb_S1024x2560_S1024x2560_0_0 f0
  have e1 := readAt_whole0 arg3.view zeroOff0 inb_S2560x256_S2560x256_0_0 f1
  have e3 := readAt_whole0 arg5.view zeroOff0 inb_S1024x256_S1024x256_0_0 f3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_acc _ _)).trans ?_
    refine (View.canon_unit_zero (S := S1024x256) zeroOff0 _ _).trans ?_
    unfold out0_2 acc0_next
    unfold sound_kernel0_next.sl.v13 sound_kernel0_next.sl.H3_1
    rw [readCov_last0 (S := S1024x256) _ zeroOff0]
  iexists _; isplitr
  swap; · iexact H3
  ipureintro
  unfold acc0_next
  unfold sound_kernel0_next.sl.H3_1
  refine (View.read_writes_eq_canon _ _ _ (cover0_acc _ _)).trans ?_
  exact View.canon_unit_zero (S := S1024x256) zeroOff0 _ _

/-! ## What the output buffer and the accumulator hold after each point -/

/-- After the body at position `n`: (output window 2's staging buffer, the accumulator). At `k = 0` the accumulator
    restarts from zero; otherwise it continues from what position `n - 1` left. -/
def outsAt0 (c : Dev nD) : (n : ℕ) → n < cfg0.N → Vec F S1024x256 .bf16 × Vec F S1024x256 .f32
  | 0, hn => (out0_2 (acc0_first (iblk0 V c 0 ⟨0, hn⟩) (iblk0 V c 1 ⟨0, hn⟩)), acc0_first (iblk0 V c 0 ⟨0, hn⟩) (iblk0 V c 1 ⟨0, hn⟩))
  | n + 1, hn =>
    if h0 : (n + 1) % 8 = 0 then
      (out0_2 (acc0_first (iblk0 V c 0 ⟨n + 1, hn⟩) (iblk0 V c 1 ⟨n + 1, hn⟩)), acc0_first (iblk0 V c 0 ⟨n + 1, hn⟩) (iblk0 V c 1 ⟨n + 1, hn⟩))
    else
      (out0_2 (acc0_next (outsAt0 c n (Nat.lt_of_succ_lt hn)).2 (iblk0 V c 0 ⟨n + 1, hn⟩) (iblk0 V c 1 ⟨n + 1, hn⟩)),
        acc0_next (outsAt0 c n (Nat.lt_of_succ_lt hn)).2 (iblk0 V c 0 ⟨n + 1, hn⟩) (iblk0 V c 1 ⟨n + 1, hn⟩))

/-- `outsAt0` at a point with `k = 0`. -/
theorem outsAt0_first (c : Dev nD) (t : Fin cfg0.N) (h0 : t.val % 8 = 0) :
    outsAt0 V c t.val t.isLt = (out0_2 (acc0_first (iblk0 V c 0 t) (iblk0 V c 1 t)), acc0_first (iblk0 V c 0 t) (iblk0 V c 1 t)) := by
  obtain ⟨n, hn⟩ := t
  cases n with
  | zero => exact rfl
  | succ n => exact (dif_pos h0).trans rfl

/-- `outsAt0` at a point with `k ≠ 0`: over what the point before left. -/
theorem outsAt0_next (c : Dev nD) (t : Fin cfg0.N) (h0 : ¬t.val % 8 = 0) :
    outsAt0 V c t.val t.isLt =
      (out0_2 (acc0_next (outsAt0 V c (t.val - 1) (Nat.lt_of_le_of_lt (Nat.sub_le _ _) t.isLt)).2 (iblk0 V c 0 t) (iblk0 V c 1 t)),
        acc0_next (outsAt0 V c (t.val - 1) (Nat.lt_of_le_of_lt (Nat.sub_le _ _) t.isLt)).2 (iblk0 V c 0 t) (iblk0 V c 1 t)) := by
  obtain ⟨n, hn⟩ := t
  cases n with
  | zero => exact (by exfalso; (try dsimp only at h0); exact absurd (Nat.zero_mod _) h0)
  | succ n => exact (dif_neg h0).trans rfl

/-! ## The region invariant -/

/-- The accumulator as a memref: a whole scoped buffer of the kernel's own. -/
abbrev scM0 : Memref sig .tc .vmem S1024x256 .f32 := Memref.whole cc0_scratch0

/-- The invariant before position `n`: before the first point the class's (every scoped buffer that is no staging buffer
    at anything, the generator register at some state); afterwards the same with the accumulator at what the point before
    left in it. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

/-- The class's invariant with the accumulator split off the scoped rest. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the launch hands the region is the invariant before the first point. -/
theorem Phi_first0 (c : Dev nD) : (dat0 V c).Φ 0 = Pipeline.ΦA spec0 c := by
  rw [show (dat0 V c).Φ 0 = PhiS0 V c 0 (Nat.zero_le _) from rfl, PhiS0_zero V c 0 _ rfl]

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hrest⟩, Hg⟩
  isplitl [HS Hrest]
  · isplitl [HS]
    · iexists _; iexact HS
    iexact Hrest
  iexact Hg

/-- The same after the last point. -/
theorem Phi_last0 (c : Dev nD) : (dat0 V c).Φ (Fin.last cfg0.N) ⊢ Pipeline.ΦA spec0 c :=
  Phi_out0 V c _ (by rw [Fin.val_last]; have : cfg0.N = 16 := N_0; omega)

/-! ## The body obligation -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 4000000 in
/-- The body at any point. The inputs' memrefs hold their blocks; the output's buffer holds something (the body
    overwrites all of it). At `k = 0` the accumulator may hold anything (the class's invariant at the first point, what
    the point before left otherwise) and the body leaves it at `acc0_first`; at `k ≠ 0` the invariant hands it over at
    what the point before left and takes it back at `acc0_next` of that. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, PhiS0_castSucc V c t]
  rw [after0_0, after0_1, after0_2]
  have hN : t.val < 16 := lt_of_lt_of_eq t.isLt (show cfg0.N = 16 from N_0)
  by_cases h0 : t.val % 8 = 0
  · rw [outsAt0_first V c t h0]
    by_cases hz : t.val = 0
    · rw [PhiS0_zero V c _ _ hz, PhiA0_eq]
      iintro ⟨⟨⟨HS, Hrest⟩, Hg⟩, Ho, ⟨%d0, H0⟩, ⟨%d1, H1⟩, ⟨%d2, H2⟩⟩
      iapply (sound_kernel0_first c Set.univ (grid0.coords t) _ _ _ _ _ _ _ _ ((hcond0 t).mpr h0) (iblk0 V c 0 t) (iblk0 V c 1 t) _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [PhiS0_pos V c _ _ hz]
      iintro ⟨⟨⟨HS, Hrest⟩, Hg⟩, Ho, ⟨%d0, H0⟩, ⟨%d1, H1⟩, ⟨%d2, H2⟩⟩
      iapply (sound_kernel0_first c Set.univ (grid0.coords t) _ _ _ _ _ _ _ _ ((hcond0 t).mpr h0) (iblk0 V c 0 t) (iblk0 V c 1 t) _)
      isplitl [H0]; · iexact H0
      isplitl [H1]; · iexact H1
      isplitl [H2]; · iexists _; iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
  · have hz : t.val ≠ 0 := fun h => h0 (by rw [h])
    rw [outsAt0_next V c t h0, PhiS0_pos V c _ _ hz]
    iintro ⟨⟨⟨HS, Hrest⟩, Hg⟩, Ho, ⟨%d0, H0⟩, ⟨%d1, H1⟩, ⟨%d2, H2⟩⟩
    iapply (sound_kernel0_next c Set.univ (grid0.coords t) _ _ _ _ _ _ _ _ (fun h => h0 ((hcond0 t).mp h)) (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
import proofs.«104406_j63058709840319_2_alg».proof.Proof.Gen.Kernel.Launch
import proofs.«104406_j63058709840319_2_alg».proof.Proof.Gen.Kernel.Skeleton
import proofs.«104406_j63058709840319_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! Region 1: the K-blocked matrix product. The grid is 1×8; point `t` works on row tile `t / 8` at step
`k = t % 8`. A scratch accumulator is zeroed at `k = 0`, the product of the point's two input blocks is added to it at
every point, and its rounding to bf16 is stored into the output window's buffer at every point; the pipeline writes
that buffer back only at `k = 7`, when the accumulator holds the whole sum over `k`. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each whole buffer through the unit rectangle at zero offsets -/

abbrev r1_lhs : Rect S1x2560 := Rect.unit (s := S1x2560) ![0, 0] S1x2560.size inb_S1x2560_S1x2560_0_0
abbrev r1_rhs : Rect S2560x256 := Rect.unit (s := S2560x256) ![0, 0] S2560x256.size inb_S2560x256_S2560x256_0_0
abbrev r1_acc : Rect S1x256 := Rect.unit (s := S1x256) ![0, 0] S1x256.size inb_S1x256_S1x256_0_0

/-! ## What the body leaves -/

/-- The accumulator after the body at a point with `k = 0`: zeroed, then the product of the two input blocks added. -/
def acc1_first (x0 : Vec F S1x2560 .bf16) (x1 : Vec F S2560x256 .bf16) : Vec F S1x256 .f32 :=
  k1_pay2 (k1_pay1 (F := F)) x0 x1

/-- The accumulator after the body at a point with `k ≠ 0`: the product of the two input blocks added to what the
    point before left (`s`). -/
def acc1_next (s : Vec F S1x256 .f32) (x0 : Vec F S1x2560 .bf16) (x1 : Vec F S2560x256 .bf16) : Vec F S1x256 .f32 :=
  k1_pay2 s x0 x1

/-- Window 2's staging buffer after the body, from the accumulator the body leaves (`s`): its one store, of the
    accumulator rounded to bf16. -/
def out1_2 (s : Vec F S1x256 .f32) : Vec F S1x256 .bf16 :=
  k1_pay3 s

/-- A store through the whole-buffer rectangle covers the buffer, whatever was stored before it. -/
theorem cover1_acc {e : EltTy} (p0 : r1_acc.shape.Idx → Elt F e) (L : List (View.Piece (Elt F) S1x256 e)) (y : S1x256.Idx) :
    ∃ pc ∈ ((⟨r1_acc, p0⟩ : View.Piece (Elt F) S1x256 e) :: L), y ∈ pc.1.set :=
  ⟨_, List.Mem.head _, View.mem_set_unit_zero (by funext a; fin_cases a <;> rfl) inb_S1x256_S1x256_0_0 y⟩

/-- The zero offsets, as the rectangles spell them. -/
theorem zeroOff1 : (![0, 0] : Fin 2 → ℕ) = fun _ => 0 := by funext a; fin_cases a <;> rfl

/-- A load through the whole-buffer rectangle after a store through it reads that store's payload, whatever was
    stored before. -/
theorem readCov_last1 {S : Shape} {e : EltTy} {sg : RefSig} {κ : Kind} {sp : Space} (v : View sg κ sp S e)
    {off : Fin S.rank → ℕ} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩),
    View.canon_cons_unit_zero h, View.ld_unit_zero h]

/-- A load through the whole-buffer rectangle reads the buffer's contents, at any shape. -/
theorem readAt_whole1 {S : Shape} {e : EltTy} {sg : RefSig} {κ : Kind} {sp : Space} (v : View sg κ sp S e)
    {off : Fin S.rank → ℕ} (h : off = fun _ => 0) (inb : ∀ a, off a + S.size a ≤ S.size a) (f : v.ty.Contents (Elt F)) :
    v.readAt (Elt F) (Rect.unit off S.size inb).toLoadRect f = v.read (Elt F) f :=
  View.ld_unit_zero h inb (v.read (Elt F) f)

/-! ## The body's branch condition -/

/-- The condition of the body's `scf.if` (`k1_h1`), from the grid coordinates: `k = 0`. -/
abbrev cond1 (i : grid1.Coords) : Prop :=
  (Scalar.cmpi .ne (Scalar.extui (Scalar.cmpi .eq (BitVec.ofNat 32 (i 1).val) 0#32)) 0#32) = 1#1
/-- It holds at the points ≡ 0 (mod 8). -/
theorem hcond1 : ∀ t : Fin cfg1.N, cond1 (grid1.coords t) ↔ t.val % 8 = 0 :=
  (by decide +kernel : ∀ t : Fin grid1.N, cond1 (grid1.coords t) ↔ t.val % 8 = 0)

/-! ## The body's triple, in its two cases -/

set_option maxHeartbeats 4000000 in
/-- At `k = 0`: on whole memrefs, the inputs' at read contents, the output's and the accumulator's at anything, the body
    runs to the continuation holding the inputs' as they were, the accumulator at `acc1_first` of the inputs and the
    output's buffer at its rounding. -/
theorem sound_kernel1_first (c : Dev nD) (E : Set ℕ) (i : grid1.Coords)
    (arg2 : Memref sig .tc .vmem S1x2560 .bf16) (harg2 : arg2.IsWhole) (arg3 : Memref sig .tc .vmem S2560x256 .bf16) (harg3 : arg3.IsWhole)
    (arg4 : Memref sig .tc .vmem S1x256 .bf16) (harg4 : arg4.IsWhole) (arg5 : Memref sig .tc .vmem S1x256 .f32) (harg5 : arg5.IsWhole)
    (hc : cond1 i) (x0 : Vec F S1x2560 .bf16) (x1 : Vec F S2560x256 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out1_2 (acc1_first x0 x1)) ∗ owns (c : Thread nD τ) arg5 fullShare (acc1_first x0 x1)) -∗ K ⟨⟩))
      ⊢ wp frame (wpE (defs₀ (F := F)) Variants.none c none) E (cc1__matmul_reduce_kernel i arg2 harg2 arg3 harg3 arg4 harg4 arg5 harg5) K := by
  simp only [cc1__matmul_reduce_kernel_eq_skeleton]; unfold cc1__matmul_reduce_kernel_skel
  unfold owns
  iintro ⟨⟨%f0, %hf0, H0⟩, ⟨%f1, %hf1, H1⟩, ⟨%d2, %f2, -, H2⟩, ⟨%d3, %f3, -, H3⟩, Hk⟩
  subst hf0; subst hf1
  -- a load through the whole-buffer rectangle reads the buffer's contents
  have e0 := readAt_whole1 arg2.view zeroOff1 inb_S1x2560_S1x2560_0_0 f0
  have e1 := readAt_whole1 arg3.view zeroOff1 inb_S2560x256_S2560x256_0_0 f1
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover1_acc _ _)).trans ?_
    refine (View.canon_unit_zero (S := S1x256) zeroOff1 _ _).trans ?_
    unfold out1_2 acc1_first
    unfold sound_kernel1_first.sl.v13 sound_kernel1_first.sl.H3_2 sound_kernel1_first.sl.v3 sound_kernel1_first.sl.H3_1
    rw [readCov_last1 (S := S1x256) _ zeroOff1, readCov_last1 (S := S1x256) _ zeroOff1]
  iexists _; isplitr
  swap; · iexact H3
  ipureintro
  unfold acc1_first
  unfold sound_kernel1_first.sl.H3_2 sound_kernel1_first.sl.v3 sound_kernel1_first.sl.H3_1
  refine (View.read_writes_eq_canon _ _ _ (cover1_acc _ _)).trans ?_
  refine (View.canon_cons_unit_zero (S := S1x256) zeroOff1 _ _ _).trans ?_
  rw [readCov_last1 (S := S1x256) _ zeroOff1]

set_option maxHeartbeats 4000000 in
/-- At `k ≠ 0`: the same from the accumulator at read contents `s`, which it leaves at `acc1_next s` of the inputs. -/
theorem sound_kernel1_next (c : Dev nD) (E : Set ℕ) (i : grid1.Coords)
    (arg2 : Memref sig .tc .vmem S1x2560 .bf16) (harg2 : arg2.IsWhole) (arg3 : Memref sig .tc .vmem S2560x256 .bf16) (harg3 : arg3.IsWhole)
    (arg4 : Memref sig .tc .vmem S1x256 .bf16) (harg4 : arg4.IsWhole) (arg5 : Memref sig .tc .vmem S1x256 .f32) (harg5 : arg5.IsWhole)
    (hc : ¬cond1 i) (x0 : Vec F S1x2560 .bf16) (x1 : Vec F S2560x256 .bf16) (s : Vec F S1x256 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (out1_2 (acc1_next s x0 x1)) ∗ owns (c : Thread nD τ) arg5 fullShare (acc1_next s x0 x1)) -∗ K ⟨⟩))
      ⊢ wp frame (wpE (defs₀ (F := F)) Variants.none c none) E (cc1__matmul_reduce_kernel i arg2 harg2 arg3 harg3 arg4 harg4 arg5 harg5) K := by
  simp only [cc1__matmul_reduce_kernel_eq_skeleton]; unfold cc1__matmul_reduce_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  -- a load through the whole-buffer rectangle reads the buffer's contents
  have e0 := readAt_whole1 arg2.view zeroOff1 inb_S1x2560_S1x2560_0_0 f0
  have e1 := readAt_whole1 arg3.view zeroOff1 inb_S2560x256_S2560x256_0_0 f1
  have e3 := readAt_whole1 arg5.view zeroOff1 inb_S1x256_S1x256_0_0 f3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover1_acc _ _)).trans ?_
    refine (View.canon_unit_zero (S := S1x256) zeroOff1 _ _).trans ?_
    unfold out1_2 acc1_next
    unfold sound_kernel1_next.sl.v13 sound_kernel1_next.sl.H3_1
    rw [readCov_last1 (S := S1x256) _ zeroOff1]
  iexists _; isplitr
  swap; · iexact H3
  ipureintro
  unfold acc1_next
  unfold sound_kernel1_next.sl.H3_1
  refine (View.read_writes_eq_canon _ _ _ (cover1_acc _ _)).trans ?_
  exact View.canon_unit_zero (S := S1x256) zeroOff1 _ _

/-! ## What the output buffer and the accumulator hold after each point -/

/-- After the body at position `n`: (output window 2's staging buffer, the accumulator). At `k = 0` the accumulator
    restarts from zero; otherwise it continues from what position `n - 1` left. -/
def outsAt1 (c : Dev nD) : (n : ℕ) → n < cfg1.N → Vec F S1x256 .bf16 × Vec F S1x256 .f32
  | 0, hn => (out1_2 (acc1_first (iblk1 V c 0 ⟨0, hn⟩) (iblk1 V c 1 ⟨0, hn⟩)), acc1_first (iblk1 V c 0 ⟨0, hn⟩) (iblk1 V c 1 ⟨0, hn⟩))
  | n + 1, hn =>
    if h0 : (n + 1) % 8 = 0 then
      (out1_2 (acc1_first (iblk1 V c 0 ⟨n + 1, hn⟩) (iblk1 V c 1 ⟨n + 1, hn⟩)), acc1_first (iblk1 V c 0 ⟨n + 1, hn⟩) (iblk1 V c 1 ⟨n + 1, hn⟩))
    else
      (out1_2 (acc1_next (outsAt1 c n (Nat.lt_of_succ_lt hn)).2 (iblk1 V c 0 ⟨n + 1, hn⟩) (iblk1 V c 1 ⟨n + 1, hn⟩)),
        acc1_next (outsAt1 c n (Nat.lt_of_succ_lt hn)).2 (iblk1 V c 0 ⟨n + 1, hn⟩) (iblk1 V c 1 ⟨n + 1, hn⟩))

/-- `outsAt1` at a point with `k = 0`. -/
theorem outsAt1_first (c : Dev nD) (t : Fin cfg1.N) (h0 : t.val % 8 = 0) :
    outsAt1 V c t.val t.isLt = (out1_2 (acc1_first (iblk1 V c 0 t) (iblk1 V c 1 t)), acc1_first (iblk1 V c 0 t) (iblk1 V c 1 t)) := by
  obtain ⟨n, hn⟩ := t
  cases n with
  | zero => exact rfl
  | succ n => exact (dif_pos h0).trans rfl

/-- `outsAt1` at a point with `k ≠ 0`: over what the point before left. -/
theorem outsAt1_next (c : Dev nD) (t : Fin cfg1.N) (h0 : ¬t.val % 8 = 0) :
    outsAt1 V c t.val t.isLt =
      (out1_2 (acc1_next (outsAt1 V c (t.val - 1) (Nat.lt_of_le_of_lt (Nat.sub_le _ _) t.isLt)).2 (iblk1 V c 0 t) (iblk1 V c 1 t)),
        acc1_next (outsAt1 V c (t.val - 1) (Nat.lt_of_le_of_lt (Nat.sub_le _ _) t.isLt)).2 (iblk1 V c 0 t) (iblk1 V c 1 t)) := by
  obtain ⟨n, hn⟩ := t
  cases n with
  | zero => exact (by exfalso; (try dsimp only at h0); exact absurd (Nat.zero_mod _) h0)
  | succ n => exact (dif_neg h0).trans rfl

/-! ## The region invariant -/

/-- The accumulator as a memref: a whole scoped buffer of the kernel's own. -/
abbrev scM1 : Memref sig .tc .vmem S1x256 .f32 := Memref.whole cc1_scratch0

/-- The invariant before position `n`: before the first point the class's (every scoped buffer that is no staging buffer
    at anything, the generator register at some state); afterwards the same with the accumulator at what the point before
    left in it. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r))

/-- The class's invariant with the accumulator split off the scoped rest. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem Phi_first1 (c : Dev nD) : (dat1 V c).Φ 0 = Pipeline.ΦA spec1 c := by
  rw [show (dat1 V c).Φ 0 = PhiS1 V c 0 (Nat.zero_le _) from rfl, PhiS1_zero V c 0 _ rfl]

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hrest⟩, Hg⟩
  isplitl [HS Hrest]
  · isplitl [HS]
    · iexists _; iexact HS
    iexact Hrest
  iexact Hg

/-- The same after the last point. -/
theorem Phi_last1 (c : Dev nD) : (dat1 V c).Φ (Fin.last cfg1.N) ⊢ Pipeline.ΦA spec1 c :=
  Phi_out1 V c _ (by rw [Fin.val_last]; have : cfg1.N = 8 := N_1; omega)

/-! ## The body obligation -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 4000000 in
/-- The body at any point. The inputs' memrefs hold their blocks; the output's buffer holds something (the body
    overwrites all of it). At `k = 0` the accumulator may hold anything (the class's invariant at the first point, what
    the point before left otherwise) and the body leaves it at `acc1_first`; at `k ≠ 0` the invariant hands it over at
    what the point before left and takes it back at `acc1_next` of that. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [after1_0, after1_1, after1_2]
  have hN : t.val < 8 := lt_of_lt_of_eq t.isLt (show cfg1.N = 8 from N_1)
  by_cases h0 : t.val % 8 = 0
  · rw [outsAt1_first V c t h0]
    by_cases hz : t.val = 0
    · rw [PhiS1_zero V c _ _ hz, PhiA1_eq]
      iintro ⟨⟨⟨HS, Hrest⟩, Hg⟩, Ho, ⟨%d0, H0⟩, ⟨%d1, H1⟩, ⟨%d2, H2⟩⟩
      iapply (sound_kernel1_first c Set.univ (grid1.coords t) _ _ _ _ _ _ _ _ ((hcond1 t).mpr h0) (iblk1 V c 0 t) (iblk1 V c 1 t) _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [PhiS1_pos V c _ _ hz]
      iintro ⟨⟨⟨HS, Hrest⟩, Hg⟩, Ho, ⟨%d0, H0⟩, ⟨%d1, H1⟩, ⟨%d2, H2⟩⟩
      iapply (sound_kernel1_first c Set.univ (grid1.coords t) _ _ _ _ _ _ _ _ ((hcond1 t).mpr h0) (iblk1 V c 0 t) (iblk1 V c 1 t) _)
      isplitl [H0]; · iexact H0
      isplitl [H1]; · iexact H1
      isplitl [H2]; · iexists _; iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
  · have hz : t.val ≠ 0 := fun h => h0 (by rw [h])
    rw [outsAt1_next V c t h0, PhiS1_pos V c _ _ hz]
    iintro ⟨⟨⟨HS, Hrest⟩, Hg⟩, Ho, ⟨%d0, H0⟩, ⟨%d1, H1⟩, ⟨%d2, H2⟩⟩
    iapply (sound_kernel1_next c Set.univ (grid1.coords t) _ _ _ _ _ _ _ _ (fun h => h0 ((hcond1 t).mp h)) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
/- Region 2 (the global-attention call, one grid point): its class-A half at a parameter `V`, the buffer
   contents when the region is entered. Each window's block at the point, what the body leaves in the output
   window's buffer, the body's triple, the proof data and the body obligation, for any float model `F`. -/
import proofs.«104406_j63058709840319_2_alg».proof.Proof.Gen.Kernel.Launch
import proofs.«104406_j63058709840319_2_alg».proof.Proof.Gen.Kernel.Skeleton
import proofs.«104406_j63058709840319_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not, for any proof data
    whose array is `V`'s and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev r2_0 : Rect S2048x256 := Rect.unit (s := S2048x256) ![0, 0] S2048x256.size inb_S2048x256_S2048x256_0_0
abbrev r2_1 : Rect S256x256 := Rect.unit (s := S256x256) ![0, 0] S256x256.size inb_S256x256_S256x256_0_0
abbrev r2_2 : Rect S1x256 := Rect.unit (s := S1x256) ![0, 0] S1x256.size inb_S1x256_S1x256_0_0

/-! ## What the body leaves in the output window's buffer -/

/-- Window 4's buffer after the body, from the input windows' blocks: its one store, of the attention row
    computed from the four blocks read. -/
def out2_4 (x0 : Vec F S2048x256 .bf16) (x1 : Vec F S256x256 .bf16) (x2 : Vec F S256x256 .bf16) (x3 : Vec F S1x256 .bf16) : Vec F S1x256 .bf16 :=
  View.canon [⟨r2_2, k2_pay1 (View.ld x0 r2_0) (View.ld x1 r2_1) (View.ld x2 r2_1) (View.ld x3 r2_2)⟩]

/-- The store is of the whole buffer, so it covers it. -/
theorem cover2_4 (p0 : Vec F S1x256 .bf16) (y : S1x256.Idx) :
    ∃ pc ∈ ([⟨r2_2, p0⟩] : List (View.Piece (Elt F) S1x256 .bf16)), y ∈ pc.1.set :=
  View.cover_of_tiled [⟨r2_2, p0⟩] S1x256.size (by rfl) y

/-! ## The body's triple -/

set_option maxHeartbeats 1000000 in
/-- The body on whole buffers, the inputs' at contents `xW` and the output's at anything, runs to the continuation
    holding the inputs' as they were and the output's at `out2_4` of the inputs'. The output buffer is read once
    before the store; the value read is not used. -/
theorem sound_kernel2 (c : Dev nD) (E : Set ℕ) (i : grid2.Coords)
    (arg1 : Memref sig .tc .vmem S2048x256 .bf16) (harg1 : arg1.IsWhole) (arg2 : Memref sig .tc .vmem S256x256 .bf16) (harg2 : arg2.IsWhole)
    (arg3 : Memref sig .tc .vmem S256x256 .bf16) (harg3 : arg3.IsWhole) (arg4 : Memref sig .tc .vmem S1x256 .bf16) (harg4 : arg4.IsWhole)
    (arg5 : Memref sig .tc .vmem S1x256 .bf16) (harg5 : arg5.IsWhole)
    (x0 : Vec F S2048x256 .bf16) (x1 : Vec F S256x256 .bf16) (x2 : Vec F S256x256 .bf16) (x3 : Vec F S1x256 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__global_attn_kernel i arg1 harg1 arg2 harg2 arg3 harg3 arg4 harg4 arg5 harg5) K := by
  simp only [cc2__global_attn_kernel_eq_skeleton]; unfold cc2__global_attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of the region's pipeline on core `c`: the arrays as the region finds them; after the body each
    input's buffer at its block and the output's at `out2_4` of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- The invariant is the same at every point: the class's. -/
theorem Phi_first2 (c : Dev nD) : (dat2 V c).Φ 0 = Pipeline.ΦA spec2 c := rfl
theorem Phi_last2 (c : Dev nD) : (dat2 V c).Φ (Fin.last cfg2.N) ⊢ Pipeline.ΦA spec2 c := by
  rw [show (dat2 V c).Φ (Fin.last cfg2.N) = Pipeline.ΦA spec2 c from rfl]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.KB.Reg3.lean ====
/- Region 3 of @main (the projection kernel `cc3__proj_kernel`, one grid point, five input windows and three
   output windows), at a parameter `V`: the contents of the core's buffers when the region is entered. Each output
   window's buffer after the body is the one whole-buffer store of a product of the truncated input block with a
   weight block (window 7: of the adjacency block with such a product), as the skeleton's payloads state them. -/
import proofs.«104406_j63058709840319_2_alg».proof.Proof.Gen.Kernel.Launch
import proofs.«104406_j63058709840319_2_alg».proof.Proof.Gen.Kernel.Skeleton
import proofs.«104406_j63058709840319_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point, for any proof data whose array is `V`'s
    and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current buffer holds its block at every point, for any proof data whose array is `V`'s
    and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current buffer holds its block at every point, for any proof data whose array is `V`'s
    and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current buffer holds its block at every point, for any proof data whose array is `V`'s
    and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current buffer holds its block at every point, for any proof data whose array is `V`'s
    and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is a whole buffer -/

abbrev r3_0 : Rect S2048x256 := Rect.unit (s := S2048x256) ![0, 0] S2048x256.size inb_S2048x256_S2048x256_0_0
abbrev r3_1 : Rect S256x256 := Rect.unit (s := S256x256) ![0, 0] S256x256.size inb_S256x256_S256x256_0_0
abbrev r3_2 : Rect S2048x2048 := Rect.unit (s := S2048x2048) ![0, 0] S2048x2048.size inb_S2048x2048_S2048x2048_0_0

/-! ## What the body leaves in each output window's buffer -/

/-- Window 5's buffer after the body, from the input windows' blocks: its one store, of the whole buffer. -/
def out3_5 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r3_0, k3_pay2 (View.ld x0 r3_0) (View.ld x1 r3_1)⟩]

/-- The one store covers the buffer. -/
theorem cover3_5 (p0 : Vec F S2048x256 .bf16) (y : S2048x256.Idx) :
    ∃ pc ∈ ([⟨r3_0, p0⟩] : List (View.Piece (Elt F) S2048x256 .bf16)), y ∈ pc.1.set :=
  View.cover_of_tiled [⟨r3_0, p0⟩] S2048x256.size (by rfl) y

/-- Window 6's buffer after the body, from the input windows' blocks: its one store, of the whole buffer. -/
def out3_6 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r3_0, k3_pay3 (View.ld x0 r3_0) (View.ld x2 r3_1)⟩]

/-- The one store covers the buffer. -/
theorem cover3_6 (p0 : Vec F S2048x256 .bf16) (y : S2048x256.Idx) :
    ∃ pc ∈ ([⟨r3_0, p0⟩] : List (View.Piece (Elt F) S2048x256 .bf16)), y ∈ pc.1.set :=
  View.cover_of_tiled [⟨r3_0, p0⟩] S2048x256.size (by rfl) y

/-- Window 7's buffer after the body, from the input windows' blocks: its one store, of the whole buffer. -/
def out3_7 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r3_0, k3_pay4 (View.ld x0 r3_0) (View.ld x3 r3_1) (View.ld x4 r3_2)⟩]

/-- The one store covers the buffer. -/
theorem cover3_7 (p0 : Vec F S2048x256 .bf16) (y : S2048x256.Idx) :
    ∃ pc ∈ ([⟨r3_0, p0⟩] : List (View.Piece (Elt F) S2048x256 .bf16)), y ∈ pc.1.set :=
  View.cover_of_tiled [⟨r3_0, p0⟩] S2048x256.size (by rfl) y

/-! ## The body's triple -/

set_option maxHeartbeats 4000000 in
/-- The kernel body on whole buffers, the inputs' at contents `xW` and the outputs' at anything, runs to the
    continuation holding the inputs' as they were and each output's at `out3_W` of the inputs' (each output buffer is
    read once before it is overwritten; the value read is not used). -/
theorem sound_kernel3 (c : Dev nD) (E : Set ℕ) (i : grid3.Coords) (arg1 : Memref sig .tc .vmem S2048x256 .f32) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S2048x2048 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole)
    (x0 : Vec F S2048x256 .f32) (x1 : Vec F S256x256 .bf16) (x2 : Vec F S256x256 .bf16) (x3 : Vec F S256x256 .bf16) (x4 : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4) ∗ owns (c : Thread nD τ) arg7 fullShare (out3_6 x0 x1 x2 x3 x4) ∗ owns (c : Thread nD τ) arg8 fullShare (out3_7 x0 x1 x2 x3 x4)) -∗ K ⟨⟩))
      ⊢ wp frame (wpE (defs₀ (F := F)) Variants.none c none) E (cc3__proj_kernel i arg1 harg1 arg2 harg2 arg3 harg3 arg4 harg4 arg5 harg5 arg6 harg6 arg7 harg7 arg8 harg8) K := by
  simp only [cc3__proj_kernel_eq_skeleton]; unfold cc3__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _)
  isplitl [H6]
  · iexists _; isplitr
    swap; · iexact H6
    ipureintro
    exact View.read_writes_eq_canon _ _ _ (cover3_6 _)
  iexists _; isplitr
  swap; · iexact H7
  ipureintro
  exact View.read_writes_eq_canon _ _ _ (cover3_7 _)

/-! ## The pipeline's proof data -/

/-- The proof data of pipeline 3 on core `c`: the arrays as the region finds them (`V`); after the body at point `t`
    each input's buffer at its block and each output's at `out3_W` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (iblk3 V c 0 t) (iblk3 V c 1 t) (iblk3 V c 2 t) (iblk3 V c 3 t) (iblk3 V c 4 t)
    | ⟨7, _⟩ => out3_7 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) := by dsimp only [dat3]

/-- The invariant at the first boundary and at the last is the class's. -/
theorem Phi_first3 (c : Dev nD) : (dat3 V c).Φ 0 = Pipeline.ΦA spec3 c := rfl
theorem Phi_last3 (c : Dev nD) : (dat3 V c).Φ (Fin.last cfg3.N) ⊢ Pipeline.ΦA spec3 c := by
  rw [show (dat3 V c).Φ (Fin.last cfg3.N) = Pipeline.ΦA spec3 c from rfl]

/-- Each input's current buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so `sound_kernel3` applies; the invariant and the
    core's tallies pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Reg4.lean ====
import proofs.«104406_j63058709840319_2_alg».proof.Proof.Gen.Kernel.Launch
import proofs.«104406_j63058709840319_2_alg».proof.Proof.Gen.Kernel.Skeleton
import proofs.«104406_j63058709840319_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The attention-and-feed-forward call over four row tiles of 512, at a parameter `V`: the buffer contents the
    call finds. Seven inputs, of which only the row tile of the first moves with the point; one output, the row
    tile the body stores, written back at every point. -/

-- membership in a rectangle of 512 × 256 and 2048 × 256 coordinates recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place: where the window is not fetched its block
    index has not moved, so the block of the point before is this point's. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s and whose body leaves the block in place: where the window is not fetched its block
    index has not moved, so the block of the point before is this point's. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s and whose body leaves the block in place: where the window is not fetched its block
    index has not moved, so the block of the point before is this point's. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s and whose body leaves the block in place: where the window is not fetched its block
    index has not moved, so the block of the point before is this point's. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s and whose body leaves the block in place: where the window is not fetched its block
    index has not moved, so the block of the point before is this point's. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s and whose body leaves the block in place: where the window is not fetched its block
    index has not moved, so the block of the point before is this point's. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for any proof
    data whose array is `V`'s and whose body leaves the block in place: where the window is not fetched its block
    index has not moved, so the block of the point before is this point's. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each whole staging buffer, one rectangle per shape -/

abbrev r4_0 : Rect S512x256 := Rect.unit (s := S512x256) ![0, 0] S512x256.size inb_S512x256_S512x256_0_0
abbrev r4_1 : Rect S2048x256 := Rect.unit (s := S2048x256) ![0, 0] S2048x256.size inb_S2048x256_S2048x256_0_0
abbrev r4_2 : Rect S256x256 := Rect.unit (s := S256x256) ![0, 0] S256x256.size inb_S256x256_S256x256_0_0
abbrev r4_3 : Rect S1x256 := Rect.unit (s := S1x256) ![0, 0] S1x256.size inb_S1x256_S1x256_0_0

/-! ## What the body leaves in the output window's buffer -/

/-- The output's staging buffer after the body, from the input windows' blocks: its one store, of the row tile
    `relu(softmax(q kᵀ / 16) v W₁ + b₁) W₂ + b₂` (the second bias `x6` added last; the first bias is `x5`, the
    second weight `x4`). -/
def out4_7 (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) : Vec F S512x256 .f32 :=
  View.canon [⟨r4_0, k4_pay1 (k4_pay2 (View.ld x0 r4_0) (View.ld x1 r4_1) (View.ld x2 r4_1) (View.ld x3 r4_2) (View.ld x5 r4_3) (View.ld x4 r4_2)) (View.ld x6 r4_3)⟩]

/-- The store tiles the buffer, so it covers it. -/
theorem cover4_7 (p0 : Vec F S512x256 .f32) (y : S512x256.Idx) :
    ∃ pc ∈ ([⟨r4_0, p0⟩] : List (View.Piece (Elt F) S512x256 .f32)), y ∈ pc.1.set :=
  View.cover_of_tiled [⟨r4_0, p0⟩] S512x256.size (by rfl) y

/-! ## The body's triple -/

set_option maxHeartbeats 1000000 in
/-- The body on whole staging memrefs, the inputs' at read contents `xW` and the output's at anything, runs to the
    continuation holding the inputs' as they were and the output's at `out4_7` of the inputs'. -/
theorem sound_kernel4 (c : Dev nD) (E : Set ℕ) (i : grid4.Coords) (arg0 : Memref sig .tc .vmem S512x256 .bf16) (harg0 : arg0.IsWhole) (arg1 : Memref sig .tc .vmem S2048x256 .bf16) (harg1 : arg1.IsWhole) (arg2 : Memref sig .tc .vmem S2048x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole)
    (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out4_7 x0 x1 x2 x3 x4 x5 x6)) -∗ K ⟨⟩))
      ⊢ wp frame (wpE (defs₀ (F := F)) Variants.none c none) E (cc4__attn_ffn_kernel i arg0 harg0 arg1 harg1 arg2 harg2 arg3 harg3 arg4 harg4 arg5 harg5 arg6 harg6 arg7 harg7) K := by
  simp only [cc4__attn_ffn_kernel_eq_skeleton]; unfold cc4__attn_ffn_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The proof data -/

/-- The proof data on core `c`: the arrays as the call finds them (`V`); after the body at point `t` each input's
    buffer at its block and the output's at `out4_7` of the input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- The invariant at the first point and at the last is the scoped rest and the generator register. -/
theorem Phi_first4 (c : Dev nD) : (dat4 V c).Φ 0 = Pipeline.ΦA spec4 c := by dsimp only [dat4]
theorem Phi_last4 (c : Dev nD) : (dat4 V c).Φ (Fin.last cfg4.N) ⊢ Pipeline.ΦA spec4 c := by
  rw [show (dat4 V c).Φ (Fin.last cfg4.N) = Pipeline.ΦA spec4 c from rfl]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at any point: the inputs' memrefs hold their blocks, so `sound_kernel4` applies; the invariant and the
    core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.KB.Reg5.lean ====
/- Region 5 of @main (the projection kernel `cc5__proj_kernel`, one grid point, five input windows and three
   output windows), at a parameter `V`: the contents of the core's buffers when the region is entered. Each output
   window's buffer after the body is the one whole-buffer store of a product of the truncated input block with a
   weight block (window 7: of the adjacency block with such a product), as the skeleton's payloads state them. -/
import proofs.«104406_j63058709840319_2_alg».proof.Proof.Gen.Kernel.Launch
import proofs.«104406_j63058709840319_2_alg».proof.Proof.Gen.Kernel.Skeleton
import proofs.«104406_j63058709840319_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current buffer holds its block at every point, for any proof data whose array is `V`'s
    and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current buffer holds its block at every point, for any proof data whose array is `V`'s
    and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current buffer holds its block at every point, for any proof data whose array is `V`'s
    and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current buffer holds its block at every point, for any proof data whose array is `V`'s
    and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current buffer holds its block at every point, for any proof data whose array is `V`'s
    and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is a whole buffer -/

abbrev r5_0 : Rect S2048x256 := Rect.unit (s := S2048x256) ![0, 0] S2048x256.size inb_S2048x256_S2048x256_0_0
abbrev r5_1 : Rect S256x256 := Rect.unit (s := S256x256) ![0, 0] S256x256.size inb_S256x256_S256x256_0_0
abbrev r5_2 : Rect S2048x2048 := Rect.unit (s := S2048x2048) ![0, 0] S2048x2048.size inb_S2048x2048_S2048x2048_0_0

/-! ## What the body leaves in each output window's buffer -/

/-- Window 5's buffer after the body, from the input windows' blocks: its one store, of the whole buffer. -/
def out5_5 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r5_0, k5_pay2 (View.ld x0 r5_0) (View.ld x1 r5_1)⟩]

/-- The one store covers the buffer. -/
theorem cover5_5 (p0 : Vec F S2048x256 .bf16) (y : S2048x256.Idx) :
    ∃ pc ∈ ([⟨r5_0, p0⟩] : List (View.Piece (Elt F) S2048x256 .bf16)), y ∈ pc.1.set :=
  View.cover_of_tiled [⟨r5_0, p0⟩] S2048x256.size (by rfl) y

/-- Window 6's buffer after the body, from the input windows' blocks: its one store, of the whole buffer. -/
def out5_6 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r5_0, k5_pay3 (View.ld x0 r5_0) (View.ld x2 r5_1)⟩]

/-- The one store covers the buffer. -/
theorem cover5_6 (p0 : Vec F S2048x256 .bf16) (y : S2048x256.Idx) :
    ∃ pc ∈ ([⟨r5_0, p0⟩] : List (View.Piece (Elt F) S2048x256 .bf16)), y ∈ pc.1.set :=
  View.cover_of_tiled [⟨r5_0, p0⟩] S2048x256.size (by rfl) y

/-- Window 7's buffer after the body, from the input windows' blocks: its one store, of the whole buffer. -/
def out5_7 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r5_0, k5_pay4 (View.ld x0 r5_0) (View.ld x3 r5_1) (View.ld x4 r5_2)⟩]

/-- The one store covers the buffer. -/
theorem cover5_7 (p0 : Vec F S2048x256 .bf16) (y : S2048x256.Idx) :
    ∃ pc ∈ ([⟨r5_0, p0⟩] : List (View.Piece (Elt F) S2048x256 .bf16)), y ∈ pc.1.set :=
  View.cover_of_tiled [⟨r5_0, p0⟩] S2048x256.size (by rfl) y

/-! ## The body's triple -/

set_option maxHeartbeats 4000000 in
/-- The kernel body on whole buffers, the inputs' at contents `xW` and the outputs' at anything, runs to the
    continuation holding the inputs' as they were and each output's at `out5_W` of the inputs' (each output buffer is
    read once before it is overwritten; the value read is not used). -/
theorem sound_kernel5 (c : Dev nD) (E : Set ℕ) (i : grid5.Coords) (arg1 : Memref sig .tc .vmem S2048x256 .f32) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S2048x2048 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole)
    (x0 : Vec F S2048x256 .f32) (x1 : Vec F S256x256 .bf16) (x2 : Vec F S256x256 .bf16) (x3 : Vec F S256x256 .bf16) (x4 : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4) ∗ owns (c : Thread nD τ) arg7 fullShare (out5_6 x0 x1 x2 x3 x4) ∗ owns (c : Thread nD τ) arg8 fullShare (out5_7 x0 x1 x2 x3 x4)) -∗ K ⟨⟩))
      ⊢ wp frame (wpE (defs₀ (F := F)) Variants.none c none) E (cc5__proj_kernel i arg1 harg1 arg2 harg2 arg3 harg3 arg4 harg4 arg5 harg5 arg6 harg6 arg7 harg7 arg8 harg8) K := by
  simp only [cc5__proj_kernel_eq_skeleton]; unfold cc5__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover5_5 _)
  isplitl [H6]
  · iexists _; isplitr
    swap; · iexact H6
    ipureintro
    exact View.read_writes_eq_canon _ _ _ (cover5_6 _)
  iexists _; isplitr
  swap; · iexact H7
  ipureintro
  exact View.read_writes_eq_canon _ _ _ (cover5_7 _)

/-! ## The pipeline's proof data -/

/-- The proof data of pipeline 5 on core `c`: the arrays as the region finds them (`V`); after the body at point `t`
    each input's buffer at its block and each output's at `out5_W` of the input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
    | ⟨6, _⟩ => out5_6 (iblk5 V c 0 t) (iblk5 V c 1 t) (iblk5 V c 2 t) (iblk5 V c 3 t) (iblk5 V c 4 t)
    | ⟨7, _⟩ => out5_7 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) := by dsimp only [dat5]

/-- The invariant at the first boundary and at the last is the class's. -/
theorem Phi_first5 (c : Dev nD) : (dat5 V c).Φ 0 = Pipeline.ΦA spec5 c := rfl
theorem Phi_last5 (c : Dev nD) : (dat5 V c).Φ (Fin.last cfg5.N) ⊢ Pipeline.ΦA spec5 c := by
  rw [show (dat5 V c).Φ (Fin.last cfg5.N) = Pipeline.ΦA spec5 c from rfl]

/-- Each input's current buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' buffers hold their blocks, so `sound_kernel5` applies; the invariant and the
    core's tallies pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Reg6.lean ====
import proofs.«104406_j63058709840319_2_alg».proof.Proof.Gen.Kernel.Launch
import proofs.«104406_j63058709840319_2_alg».proof.Proof.Gen.Kernel.Skeleton
import proofs.«104406_j63058709840319_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The attention-and-feed-forward call over four row tiles of 512, at a parameter `V`: the buffer contents the
    call finds. Seven inputs, of which only the row tile of the first moves with the point; one output, the row
    tile the body stores, written back at every point. -/

-- membership in a rectangle of 512 × 256 and 2048 × 256 coordinates recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place: where the window is not fetched its block
    index has not moved, so the block of the point before is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s and whose body leaves the block in place: where the window is not fetched its block
    index has not moved, so the block of the point before is this point's. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s and whose body leaves the block in place: where the window is not fetched its block
    index has not moved, so the block of the point before is this point's. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s and whose body leaves the block in place: where the window is not fetched its block
    index has not moved, so the block of the point before is this point's. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s and whose body leaves the block in place: where the window is not fetched its block
    index has not moved, so the block of the point before is this point's. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not, for any proof
    data whose array is `V`'s and whose body leaves the block in place: where the window is not fetched its block
    index has not moved, so the block of the point before is this point's. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not, for any proof
    data whose array is `V`'s and whose body leaves the block in place: where the window is not fetched its block
    index has not moved, so the block of the point before is this point's. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each whole staging buffer, one rectangle per shape -/

abbrev r6_0 : Rect S512x256 := Rect.unit (s := S512x256) ![0, 0] S512x256.size inb_S512x256_S512x256_0_0
abbrev r6_1 : Rect S2048x256 := Rect.unit (s := S2048x256) ![0, 0] S2048x256.size inb_S2048x256_S2048x256_0_0
abbrev r6_2 : Rect S256x256 := Rect.unit (s := S256x256) ![0, 0] S256x256.size inb_S256x256_S256x256_0_0
abbrev r6_3 : Rect S1x256 := Rect.unit (s := S1x256) ![0, 0] S1x256.size inb_S1x256_S1x256_0_0

/-! ## What the body leaves in the output window's buffer -/

/-- The output's staging buffer after the body, from the input windows' blocks: its one store, of the row tile
    `relu(softmax(q kᵀ / 16) v W₁ + b₁) W₂ + b₂` (the second bias `x6` added last; the first bias is `x5`, the
    second weight `x4`). -/
def out6_7 (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) : Vec F S512x256 .f32 :=
  View.canon [⟨r6_0, k6_pay1 (k6_pay2 (View.ld x0 r6_0) (View.ld x1 r6_1) (View.ld x2 r6_1) (View.ld x3 r6_2) (View.ld x5 r6_3) (View.ld x4 r6_2)) (View.ld x6 r6_3)⟩]

/-- The store tiles the buffer, so it covers it. -/
theorem cover6_7 (p0 : Vec F S512x256 .f32) (y : S512x256.Idx) :
    ∃ pc ∈ ([⟨r6_0, p0⟩] : List (View.Piece (Elt F) S512x256 .f32)), y ∈ pc.1.set :=
  View.cover_of_tiled [⟨r6_0, p0⟩] S512x256.size (by rfl) y

/-! ## The body's triple -/

set_option maxHeartbeats 1000000 in
/-- The body on whole staging memrefs, the inputs' at read contents `xW` and the output's at anything, runs to the
    continuation holding the inputs' as they were and the output's at `out6_7` of the inputs'. -/
theorem sound_kernel6 (c : Dev nD) (E : Set ℕ) (i : grid6.Coords) (arg0 : Memref sig .tc .vmem S512x256 .bf16) (harg0 : arg0.IsWhole) (arg1 : Memref sig .tc .vmem S2048x256 .bf16) (harg1 : arg1.IsWhole) (arg2 : Memref sig .tc .vmem S2048x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole)
    (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out6_7 x0 x1 x2 x3 x4 x5 x6)) -∗ K ⟨⟩))
      ⊢ wp frame (wpE (defs₀ (F := F)) Variants.none c none) E (cc6__attn_ffn_kernel i arg0 harg0 arg1 harg1 arg2 harg2 arg3 harg3 arg4 harg4 arg5 harg5 arg6 harg6 arg7 harg7) K := by
  simp only [cc6__attn_ffn_kernel_eq_skeleton]; unfold cc6__attn_ffn_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The proof data -/

/-- The proof data on core `c`: the arrays as the call finds them (`V`); after the body at point `t` each input's
    buffer at its block and the output's at `out6_7` of the input blocks; the invariant the scoped rest and the
    generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

/-- The proof data's arrays are the entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

/-- The invariant at the first point and at the last is the scoped rest and the generator register. -/
theorem Phi_first6 (c : Dev nD) : (dat6 V c).Φ 0 = Pipeline.ΦA spec6 c := by dsimp only [dat6]
theorem Phi_last6 (c : Dev nD) : (dat6 V c).Φ (Fin.last cfg6.N) ⊢ Pipeline.ΦA spec6 c := by
  rw [show (dat6 V c).Φ (Fin.last cfg6.N) = Pipeline.ΦA spec6 c from rfl]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks, so `sound_kernel6` applies; the invariant and the
    core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.KB.Reg7.lean ====
/- Region 7 of @main (the projection kernel `cc7__proj_kernel`, one grid point, five input windows and three
   output windows), at a parameter `V`: the contents of the core's buffers when the region is entered. Each output
   window's buffer after the body is the one whole-buffer store of a product of the truncated input block with a
   weight block (window 7: of the adjacency block with such a product), as the skeleton's payloads state them. -/
import proofs.«104406_j63058709840319_2_alg».proof.Proof.Gen.Kernel.Launch
import proofs.«104406_j63058709840319_2_alg».proof.Proof.Gen.Kernel.Skeleton
import proofs.«104406_j63058709840319_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current buffer holds its block at every point, for any proof data whose array is `V`'s
    and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current buffer holds its block at every point, for any proof data whose array is `V`'s
    and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current buffer holds its block at every point, for any proof data whose array is `V`'s
    and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current buffer holds its block at every point, for any proof data whose array is `V`'s
    and whose body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current buffer holds its block at every point, for any proof data whose array is `V`'s
    and whose body leaves the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each is a whole buffer -/

abbrev r7_0 : Rect S2048x256 := Rect.unit (s := S2048x256) ![0, 0] S2048x256.size inb_S2048x256_S2048x256_0_0
abbrev r7_1 : Rect S256x256 := Rect.unit (s := S256x256) ![0, 0] S256x256.size inb_S256x256_S256x256_0_0
abbrev r7_2 : Rect S2048x2048 := Rect.unit (s := S2048x2048) ![0, 0] S2048x2048.size inb_S2048x2048_S2048x2048_0_0

/-! ## What the body leaves in each output window's buffer -/

/-- Window 5's buffer after the body, from the input windows' blocks: its one store, of the whole buffer. -/
def out7_5 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r7_0, k7_pay2 (View.ld x0 r7_0) (View.ld x1 r7_1)⟩]

/-- The one store covers the buffer. -/
theorem cover7_5 (p0 : Vec F S2048x256 .bf16) (y : S2048x256.Idx) :
    ∃ pc ∈ ([⟨r7_0, p0⟩] : List (View.Piece (Elt F) S2048x256 .bf16)), y ∈ pc.1.set :=
  View.cover_of_tiled [⟨r7_0, p0⟩] S2048x256.size (by rfl) y

/-- Window 6's buffer after the body, from the input windows' blocks: its one store, of the whole buffer. -/
def out7_6 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r7_0, k7_pay3 (View.ld x0 r7_0) (View.ld x2 r7_1)⟩]

/-- The one store covers the buffer. -/
theorem cover7_6 (p0 : Vec F S2048x256 .bf16) (y : S2048x256.Idx) :
    ∃ pc ∈ ([⟨r7_0, p0⟩] : List (View.Piece (Elt F) S2048x256 .bf16)), y ∈ pc.1.set :=
  View.cover_of_tiled [⟨r7_0, p0⟩] S2048x256.size (by rfl) y

/-- Window 7's buffer after the body, from the input windows' blocks: its one store, of the whole buffer. -/
def out7_7 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r7_0, k7_pay4 (View.ld x0 r7_0) (View.ld x3 r7_1) (View.ld x4 r7_2)⟩]

/-- The one store covers the buffer. -/
theorem cover7_7 (p0 : Vec F S2048x256 .bf16) (y : S2048x256.Idx) :
    ∃ pc ∈ ([⟨r7_0, p0⟩] : List (View.Piece (Elt F) S2048x256 .bf16)), y ∈ pc.1.set :=
  View.cover_of_tiled [⟨r7_0, p0⟩] S2048x256.size (by rfl) y

/-! ## The body's triple -/

set_option maxHeartbeats 4000000 in
/-- The kernel body on whole buffers, the inputs' at contents `xW` and the outputs' at anything, runs to the
    continuation holding the inputs' as they were and each output's at `out7_W` of the inputs' (each output buffer is
    read once before it is overwritten; the value read is not used). -/
theorem sound_kernel7 (c : Dev nD) (E : Set ℕ) (i : grid7.Coords) (arg1 : Memref sig .tc .vmem S2048x256 .f32) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S2048x2048 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole)
    (x0 : Vec F S2048x256 .f32) (x1 : Vec F S256x256 .bf16) (x2 : Vec F S256x256 .bf16) (x3 : Vec F S256x256 .bf16) (x4 : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4) ∗ owns (c : Thread nD τ) arg7 fullShare (out7_6 x0 x1 x2 x3 x4) ∗ owns (c : Thread nD τ) arg8 fullShare (out7_7 x0 x1 x2 x3 x4)) -∗ K ⟨⟩))
      ⊢ wp frame (wpE (defs₀ (F := F)) Variants.none c none) E (cc7__proj_kernel i arg1 harg1 arg2 harg2 arg3 harg3 arg4 harg4 arg5 harg5 arg6 harg6 arg7 harg7 arg8 harg8) K := by
  simp only [cc7__proj_kernel_eq_skeleton]; unfold cc7__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover7_5 _)
  isplitl [H6]
  · iexists _; isplitr
    swap; · iexact H6
    ipureintro
    exact View.read_writes_eq_canon _ _ _ (cover7_6 _)
  iexists _; isplitr
  swap; · iexact H7
  ipureintro
  exact View.read_writes_eq_canon _ _ _ (cover7_7 _)

/-! ## The pipeline's proof data -/

/-- The proof data of pipeline 7 on core `c`: the arrays as the region finds them (`V`); after the body at point `t`
    each input's buffer at its block and each output's at `out7_W` of the input blocks; the invariant is the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
    | ⟨6, _⟩ => out7_6 (iblk7 V c 0 t) (iblk7 V c 1 t) (iblk7 V c 2 t) (iblk7 V c 3 t) (iblk7 V c 4 t)
    | ⟨7, _⟩ => out7_7 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) := by dsimp only [dat7]

/-- The invariant at the first boundary and at the last is the class's. -/
theorem Phi_first7 (c : Dev nD) : (dat7 V c).Φ 0 = Pipeline.ΦA spec7 c := rfl
theorem Phi_last7 (c : Dev nD) : (dat7 V c).Φ (Fin.last cfg7.N) ⊢ Pipeline.ΦA spec7 c := by
  rw [show (dat7 V c).Φ (Fin.last cfg7.N) = Pipeline.ΦA spec7 c from rfl]

/-- Each input's current buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' buffers hold their blocks, so `sound_kernel7` applies; the invariant and the
    core's tallies pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KB.Reg8.lean ====
import proofs.«104406_j63058709840319_2_alg».proof.Proof.Gen.Kernel.Launch
import proofs.«104406_j63058709840319_2_alg».proof.Proof.Gen.Kernel.Skeleton
import proofs.«104406_j63058709840319_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The attention-and-feed-forward call over four row tiles of 512, at a parameter `V`: the buffer contents the
    call finds. Seven inputs, of which only the row tile of the first moves with the point; one output, the row
    tile the body stores, written back at every point. -/

-- membership in a rectangle of 512 × 256 and 2048 × 256 coordinates recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s and whose body leaves the block in place: where the window is not fetched its block
    index has not moved, so the block of the point before is this point's. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s and whose body leaves the block in place: where the window is not fetched its block
    index has not moved, so the block of the point before is this point's. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is `V`'s and whose body leaves the block in place: where the window is not fetched its block
    index has not moved, so the block of the point before is this point's. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof
    data whose array is `V`'s and whose body leaves the block in place: where the window is not fetched its block
    index has not moved, so the block of the point before is this point's. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof
    data whose array is `V`'s and whose body leaves the block in place: where the window is not fetched its block
    index has not moved, so the block of the point before is this point's. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, fetched there or not, for any proof
    data whose array is `V`'s and whose body leaves the block in place: where the window is not fetched its block
    index has not moved, so the block of the point before is this point's. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's current staging buffer holds its block at every point, fetched there or not, for any proof
    data whose array is `V`'s and whose body leaves the block in place: where the window is not fetched its block
    index has not moved, so the block of the point before is this point's. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each whole staging buffer, one rectangle per shape -/

abbrev r8_0 : Rect S512x256 := Rect.unit (s := S512x256) ![0, 0] S512x256.size inb_S512x256_S512x256_0_0
abbrev r8_1 : Rect S2048x256 := Rect.unit (s := S2048x256) ![0, 0] S2048x256.size inb_S2048x256_S2048x256_0_0
abbrev r8_2 : Rect S256x256 := Rect.unit (s := S256x256) ![0, 0] S256x256.size inb_S256x256_S256x256_0_0
abbrev r8_3 : Rect S1x256 := Rect.unit (s := S1x256) ![0, 0] S1x256.size inb_S1x256_S1x256_0_0

/-! ## What the body leaves in the output window's buffer -/

/-- The output's staging buffer after the body, from the input windows' blocks: its one store, of the row tile
    `relu(softmax(q kᵀ / 16) v W₁ + b₁) W₂ + b₂` (the second bias `x6` added last; the first bias is `x5`, the
    second weight `x4`). -/
def out8_7 (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) : Vec F S512x256 .f32 :=
  View.canon [⟨r8_0, k8_pay1 (k8_pay2 (View.ld x0 r8_0) (View.ld x1 r8_1) (View.ld x2 r8_1) (View.ld x3 r8_2) (View.ld x5 r8_3) (View.ld x4 r8_2)) (View.ld x6 r8_3)⟩]

/-- The store tiles the buffer, so it covers it. -/
theorem cover8_7 (p0 : Vec F S512x256 .f32) (y : S512x256.Idx) :
    ∃ pc ∈ ([⟨r8_0, p0⟩] : List (View.Piece (Elt F) S512x256 .f32)), y ∈ pc.1.set :=
  View.cover_of_tiled [⟨r8_0, p0⟩] S512x256.size (by rfl) y

/-! ## The body's triple -/

set_option maxHeartbeats 1000000 in
/-- The body on whole staging memrefs, the inputs' at read contents `xW` and the output's at anything, runs to the
    continuation holding the inputs' as they were and the output's at `out8_7` of the inputs'. -/
theorem sound_kernel8 (c : Dev nD) (E : Set ℕ) (i : grid8.Coords) (arg0 : Memref sig .tc .vmem S512x256 .bf16) (harg0 : arg0.IsWhole) (arg1 : Memref sig .tc .vmem S2048x256 .bf16) (harg1 : arg1.IsWhole) (arg2 : Memref sig .tc .vmem S2048x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole)
    (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out8_7 x0 x1 x2 x3 x4 x5 x6)) -∗ K ⟨⟩))
      ⊢ wp frame (wpE (defs₀ (F := F)) Variants.none c none) E (cc8__attn_ffn_kernel i arg0 harg0 arg1 harg1 arg2 harg2 arg3 harg3 arg4 harg4 arg5 harg5 arg6 harg6 arg7 harg7) K := by
  simp only [cc8__attn_ffn_kernel_eq_skeleton]; unfold cc8__attn_ffn_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover8_7 _)

/-! ## The proof data -/

/-- The proof data on core `c`: the arrays as the call finds them (`V`); after the body at point `t` each input's
    buffer at its block and the output's at `out8_7` of the input blocks; the invariant the scoped rest and the
    generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out8_7 (iblk8 V c 0 t) (iblk8 V c 1 t) (iblk8 V c 2 t) (iblk8 V c 3 t) (iblk8 V c 4 t) (iblk8 V c 5 t) (iblk8 V c 6 t)
  Φ _ := Pipeline.ΦA spec8 c
  q _ := fullShare
  owed _ := 0

/-- The proof data's arrays are the entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = out8_7 (iblk8 V c 0 t) (iblk8 V c 1 t) (iblk8 V c 2 t) (iblk8 V c 3 t) (iblk8 V c 4 t) (iblk8 V c 5 t) (iblk8 V c 6 t) := by dsimp only [dat8]

/-- The invariant at the first point and at the last is the scoped rest and the generator register. -/
theorem Phi_first8 (c : Dev nD) : (dat8 V c).Φ 0 = Pipeline.ΦA spec8 c := by dsimp only [dat8]
theorem Phi_last8 (c : Dev nD) : (dat8 V c).Φ (Fin.last cfg8.N) ⊢ Pipeline.ΦA spec8 c := by
  rw [show (dat8 V c).Φ (Fin.last cfg8.N) = Pipeline.ΦA spec8 c from rfl]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t))

/-- The body at any point: the inputs' memrefs hold their blocks, so `sound_kernel8` applies; the invariant and the
    core's debt pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel8 c Set.univ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand
-- ==== Proof.KB.Reg9.lean ====
/- Region 9 of @main (the projection kernel `cc9__proj_kernel`, one grid point, five input windows and three
   output windows), at a parameter `V`: the contents of the core's buffers when the region is entered. Each output
   window's buffer after the body is the one whole-buffer store of a product of the truncated input block with a
   weight block (window 7: of the adjacency block with such a product), as the skeleton's payloads state them. -/
import proofs.«104406_j63058709840319_2_alg».proof.Proof.Gen.Kernel.Launch
import proofs.«104406_j63058709840319_2_alg».proof.Proof.Gen.Kernel.Skeleton
import proofs.«104406_j63058709840319_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current buffer holds its block at every point, for any proof data whose array is `V`'s
    and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1's current buffer holds its block at every point, for any proof data whose array is `V`'s
    and whose body leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2's current buffer holds its block at every point, for any proof data whose array is `V`'s
    and whose body leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- Input window 3's current buffer holds its block at every point, for any proof data whose array is `V`'s
    and whose body leaves the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- Input window 4's current buffer holds its block at every point, for any proof data whose array is `V`'s
    and whose body leaves the block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each is a whole buffer -/

abbrev r9_0 : Rect S2048x256 := Rect.unit (s := S2048x256) ![0, 0] S2048x256.size inb_S2048x256_S2048x256_0_0
abbrev r9_1 : Rect S256x256 := Rect.unit (s := S256x256) ![0, 0] S256x256.size inb_S256x256_S256x256_0_0
abbrev r9_2 : Rect S2048x2048 := Rect.unit (s := S2048x2048) ![0, 0] S2048x2048.size inb_S2048x2048_S2048x2048_0_0

/-! ## What the body leaves in each output window's buffer -/

/-- Window 5's buffer after the body, from the input windows' blocks: its one store, of the whole buffer. -/
def out9_5 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r9_0, k9_pay2 (View.ld x0 r9_0) (View.ld x1 r9_1)⟩]

/-- The one store covers the buffer. -/
theorem cover9_5 (p0 : Vec F S2048x256 .bf16) (y : S2048x256.Idx) :
    ∃ pc ∈ ([⟨r9_0, p0⟩] : List (View.Piece (Elt F) S2048x256 .bf16)), y ∈ pc.1.set :=
  View.cover_of_tiled [⟨r9_0, p0⟩] S2048x256.size (by rfl) y

/-- Window 6's buffer after the body, from the input windows' blocks: its one store, of the whole buffer. -/
def out9_6 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r9_0, k9_pay3 (View.ld x0 r9_0) (View.ld x2 r9_1)⟩]

/-- The one store covers the buffer. -/
theorem cover9_6 (p0 : Vec F S2048x256 .bf16) (y : S2048x256.Idx) :
    ∃ pc ∈ ([⟨r9_0, p0⟩] : List (View.Piece (Elt F) S2048x256 .bf16)), y ∈ pc.1.set :=
  View.cover_of_tiled [⟨r9_0, p0⟩] S2048x256.size (by rfl) y

/-- Window 7's buffer after the body, from the input windows' blocks: its one store, of the whole buffer. -/
def out9_7 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r9_0, k9_pay4 (View.ld x0 r9_0) (View.ld x3 r9_1) (View.ld x4 r9_2)⟩]

/-- The one store covers the buffer. -/
theorem cover9_7 (p0 : Vec F S2048x256 .bf16) (y : S2048x256.Idx) :
    ∃ pc ∈ ([⟨r9_0, p0⟩] : List (View.Piece (Elt F) S2048x256 .bf16)), y ∈ pc.1.set :=
  View.cover_of_tiled [⟨r9_0, p0⟩] S2048x256.size (by rfl) y

/-! ## The body's triple -/

set_option maxHeartbeats 4000000 in
/-- The kernel body on whole buffers, the inputs' at contents `xW` and the outputs' at anything, runs to the
    continuation holding the inputs' as they were and each output's at `out9_W` of the inputs' (each output buffer is
    read once before it is overwritten; the value read is not used). -/
theorem sound_kernel9 (c : Dev nD) (E : Set ℕ) (i : grid9.Coords) (arg1 : Memref sig .tc .vmem S2048x256 .f32) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S2048x2048 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole)
    (x0 : Vec F S2048x256 .f32) (x1 : Vec F S256x256 .bf16) (x2 : Vec F S256x256 .bf16) (x3 : Vec F S256x256 .bf16) (x4 : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4) ∗ owns (c : Thread nD τ) arg7 fullShare (out9_6 x0 x1 x2 x3 x4) ∗ owns (c : Thread nD τ) arg8 fullShare (out9_7 x0 x1 x2 x3 x4)) -∗ K ⟨⟩))
      ⊢ wp frame (wpE (defs₀ (F := F)) Variants.none c none) E (cc9__proj_kernel i arg1 harg1 arg2 harg2 arg3 harg3 arg4 harg4 arg5 harg5 arg6 harg6 arg7 harg7 arg8 harg8) K := by
  simp only [cc9__proj_kernel_eq_skeleton]; unfold cc9__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover9_5 _)
  isplitl [H6]
  · iexists _; isplitr
    swap; · iexact H6
    ipureintro
    exact View.read_writes_eq_canon _ _ _ (cover9_6 _)
  iexists _; isplitr
  swap; · iexact H7
  ipureintro
  exact View.read_writes_eq_canon _ _ _ (cover9_7 _)

/-! ## The pipeline's proof data -/

/-- The proof data of pipeline 9 on core `c`: the arrays as the region finds them (`V`); after the body at point `t`
    each input's buffer at its block and each output's at `out9_W` of the input blocks; the invariant is the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
    | ⟨6, _⟩ => out9_6 (iblk9 V c 0 t) (iblk9 V c 1 t) (iblk9 V c 2 t) (iblk9 V c 3 t) (iblk9 V c 4 t)
    | ⟨7, _⟩ => out9_7 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]
theorem after9_6 (c : Dev nD) (t : Fin cfg9.N) : (dat9 V c).after 6 t = out9_6 (iblk9 V c 0 t) (iblk9 V c 1 t) (iblk9 V c 2 t) (iblk9 V c 3 t) (iblk9 V c 4 t) := by dsimp only [dat9]
theorem after9_7 (c : Dev nD) (t : Fin cfg9.N) : (dat9 V c).after 7 t = out9_7 (iblk9 V c 0 t) (iblk9 V c 1 t) (iblk9 V c 2 t) (iblk9 V c 3 t) (iblk9 V c 4 t) := by dsimp only [dat9]

/-- The invariant at the first boundary and at the last is the class's. -/
theorem Phi_first9 (c : Dev nD) : (dat9 V c).Φ 0 = Pipeline.ΦA spec9 c := rfl
theorem Phi_last9 (c : Dev nD) : (dat9 V c).Φ (Fin.last cfg9.N) ⊢ Pipeline.ΦA spec9 c := by
  rw [show (dat9 V c).Φ (Fin.last cfg9.N) = Pipeline.ΦA spec9 c from rfl]

/-- Each input's current buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

/-- The body at any point: the inputs' buffers hold their blocks, so `sound_kernel9` applies; the invariant and the
    core's tallies pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel9 c Set.univ _ _ _ _ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.KB.Reg10.lean ====
import proofs.«104406_j63058709840319_2_alg».proof.Proof.Gen.Kernel.Launch
import proofs.«104406_j63058709840319_2_alg».proof.Proof.Gen.Kernel.Skeleton
import proofs.«104406_j63058709840319_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The attention-and-feed-forward call over four row tiles of 512, at a parameter `V`: the buffer contents the
    call finds. Seven inputs, of which only the row tile of the first moves with the point; one output, the row
    tile the body stores, written back at every point. -/

-- membership in a rectangle of 512 × 256 and 2048 × 256 coordinates recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is `V`'s and whose body leaves the block in place: where the window is not fetched its block
    index has not moved, so the block of the point before is this point's. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof
    data whose array is `V`'s and whose body leaves the block in place: where the window is not fetched its block
    index has not moved, so the block of the point before is this point's. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof
    data whose array is `V`'s and whose body leaves the block in place: where the window is not fetched its block
    index has not moved, so the block of the point before is this point's. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof
    data whose array is `V`'s and whose body leaves the block in place: where the window is not fetched its block
    index has not moved, so the block of the point before is this point's. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof
    data whose array is `V`'s and whose body leaves the block in place: where the window is not fetched its block
    index has not moved, so the block of the point before is this point's. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's current staging buffer holds its block at every point, fetched there or not, for any proof
    data whose array is `V`'s and whose body leaves the block in place: where the window is not fetched its block
    index has not moved, so the block of the point before is this point's. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- Input window 6's current staging buffer holds its block at every point, fetched there or not, for any proof
    data whose array is `V`'s and whose body leaves the block in place: where the window is not fetched its block
    index has not moved, so the block of the point before is this point's. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each whole staging buffer, one rectangle per shape -/

abbrev r10_0 : Rect S512x256 := Rect.unit (s := S512x256) ![0, 0] S512x256.size inb_S512x256_S512x256_0_0
abbrev r10_1 : Rect S2048x256 := Rect.unit (s := S2048x256) ![0, 0] S2048x256.size inb_S2048x256_S2048x256_0_0
abbrev r10_2 : Rect S256x256 := Rect.unit (s := S256x256) ![0, 0] S256x256.size inb_S256x256_S256x256_0_0
abbrev r10_3 : Rect S1x256 := Rect.unit (s := S1x256) ![0, 0] S1x256.size inb_S1x256_S1x256_0_0

/-! ## What the body leaves in the output window's buffer -/

/-- The output's staging buffer after the body, from the input windows' blocks: its one store, of the row tile
    `relu(softmax(q kᵀ / 16) v W₁ + b₁) W₂ + b₂` (the second bias `x6` added last; the first bias is `x5`, the
    second weight `x4`). -/
def out10_7 (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) : Vec F S512x256 .f32 :=
  View.canon [⟨r10_0, k10_pay1 (k10_pay2 (View.ld x0 r10_0) (View.ld x1 r10_1) (View.ld x2 r10_1) (View.ld x3 r10_2) (View.ld x5 r10_3) (View.ld x4 r10_2)) (View.ld x6 r10_3)⟩]

/-- The store tiles the buffer, so it covers it. -/
theorem cover10_7 (p0 : Vec F S512x256 .f32) (y : S512x256.Idx) :
    ∃ pc ∈ ([⟨r10_0, p0⟩] : List (View.Piece (Elt F) S512x256 .f32)), y ∈ pc.1.set :=
  View.cover_of_tiled [⟨r10_0, p0⟩] S512x256.size (by rfl) y

/-! ## The body's triple -/

set_option maxHeartbeats 1000000 in
/-- The body on whole staging memrefs, the inputs' at read contents `xW` and the output's at anything, runs to the
    continuation holding the inputs' as they were and the output's at `out10_7` of the inputs'. -/
theorem sound_kernel10 (c : Dev nD) (E : Set ℕ) (i : grid10.Coords) (arg0 : Memref sig .tc .vmem S512x256 .bf16) (harg0 : arg0.IsWhole) (arg1 : Memref sig .tc .vmem S2048x256 .bf16) (harg1 : arg1.IsWhole) (arg2 : Memref sig .tc .vmem S2048x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole)
    (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out10_7 x0 x1 x2 x3 x4 x5 x6)) -∗ K ⟨⟩))
      ⊢ wp frame (wpE (defs₀ (F := F)) Variants.none c none) E (cc10__attn_ffn_kernel i arg0 harg0 arg1 harg1 arg2 harg2 arg3 harg3 arg4 harg4 arg5 harg5 arg6 harg6 arg7 harg7) K := by
  simp only [cc10__attn_ffn_kernel_eq_skeleton]; unfold cc10__attn_ffn_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover10_7 _)

/-! ## The proof data -/

/-- The proof data on core `c`: the arrays as the call finds them (`V`); after the body at point `t` each input's
    buffer at its block and the output's at `out10_7` of the input blocks; the invariant the scoped rest and the
    generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out10_7 (iblk10 V c 0 t) (iblk10 V c 1 t) (iblk10 V c 2 t) (iblk10 V c 3 t) (iblk10 V c 4 t) (iblk10 V c 5 t) (iblk10 V c 6 t)
  Φ _ := Pipeline.ΦA spec10 c
  q _ := fullShare
  owed _ := 0

/-- The proof data's arrays are the entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = out10_7 (iblk10 V c 0 t) (iblk10 V c 1 t) (iblk10 V c 2 t) (iblk10 V c 3 t) (iblk10 V c 4 t) (iblk10 V c 5 t) (iblk10 V c 6 t) := by dsimp only [dat10]

/-- The invariant at the first point and at the last is the scoped rest and the generator register. -/
theorem Phi_first10 (c : Dev nD) : (dat10 V c).Φ 0 = Pipeline.ΦA spec10 c := by dsimp only [dat10]
theorem Phi_last10 (c : Dev nD) : (dat10 V c).Φ (Fin.last cfg10.N) ⊢ Pipeline.ΦA spec10 c := by
  rw [show (dat10 V c).Φ (Fin.last cfg10.N) = Pipeline.ΦA spec10 c from rfl]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t))

/-- The body at any point: the inputs' memrefs hold their blocks, so `sound_kernel10` applies; the invariant and the
    core's debt pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel10 c Set.univ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand
-- ==== Proof.KB.Reg11.lean ====
/- Region 11 of @main (the projection kernel `cc11__proj_kernel`, one grid point, five input windows and three
   output windows), at a parameter `V`: the contents of the core's buffers when the region is entered. Each output
   window's buffer after the body is the one whole-buffer store of a product of the truncated input block with a
   weight block (window 7: of the adjacency block with such a product), as the skeleton's payloads state them. -/
import proofs.«104406_j63058709840319_2_alg».proof.Proof.Gen.Kernel.Launch
import proofs.«104406_j63058709840319_2_alg».proof.Proof.Gen.Kernel.Skeleton
import proofs.«104406_j63058709840319_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current buffer holds its block at every point, for any proof data whose array is `V`'s
    and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current buffer holds its block at every point, for any proof data whose array is `V`'s
    and whose body leaves the block in place. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current buffer holds its block at every point, for any proof data whose array is `V`'s
    and whose body leaves the block in place. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3's current buffer holds its block at every point, for any proof data whose array is `V`'s
    and whose body leaves the block in place. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4's current buffer holds its block at every point, for any proof data whose array is `V`'s
    and whose body leaves the block in place. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each is a whole buffer -/

abbrev r11_0 : Rect S2048x256 := Rect.unit (s := S2048x256) ![0, 0] S2048x256.size inb_S2048x256_S2048x256_0_0
abbrev r11_1 : Rect S256x256 := Rect.unit (s := S256x256) ![0, 0] S256x256.size inb_S256x256_S256x256_0_0
abbrev r11_2 : Rect S2048x2048 := Rect.unit (s := S2048x2048) ![0, 0] S2048x2048.size inb_S2048x2048_S2048x2048_0_0

/-! ## What the body leaves in each output window's buffer -/

/-- Window 5's buffer after the body, from the input windows' blocks: its one store, of the whole buffer. -/
def out11_5 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r11_0, k11_pay2 (View.ld x0 r11_0) (View.ld x1 r11_1)⟩]

/-- The one store covers the buffer. -/
theorem cover11_5 (p0 : Vec F S2048x256 .bf16) (y : S2048x256.Idx) :
    ∃ pc ∈ ([⟨r11_0, p0⟩] : List (View.Piece (Elt F) S2048x256 .bf16)), y ∈ pc.1.set :=
  View.cover_of_tiled [⟨r11_0, p0⟩] S2048x256.size (by rfl) y

/-- Window 6's buffer after the body, from the input windows' blocks: its one store, of the whole buffer. -/
def out11_6 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r11_0, k11_pay3 (View.ld x0 r11_0) (View.ld x2 r11_1)⟩]

/-- The one store covers the buffer. -/
theorem cover11_6 (p0 : Vec F S2048x256 .bf16) (y : S2048x256.Idx) :
    ∃ pc ∈ ([⟨r11_0, p0⟩] : List (View.Piece (Elt F) S2048x256 .bf16)), y ∈ pc.1.set :=
  View.cover_of_tiled [⟨r11_0, p0⟩] S2048x256.size (by rfl) y

/-- Window 7's buffer after the body, from the input windows' blocks: its one store, of the whole buffer. -/
def out11_7 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r11_0, k11_pay4 (View.ld x0 r11_0) (View.ld x3 r11_1) (View.ld x4 r11_2)⟩]

/-- The one store covers the buffer. -/
theorem cover11_7 (p0 : Vec F S2048x256 .bf16) (y : S2048x256.Idx) :
    ∃ pc ∈ ([⟨r11_0, p0⟩] : List (View.Piece (Elt F) S2048x256 .bf16)), y ∈ pc.1.set :=
  View.cover_of_tiled [⟨r11_0, p0⟩] S2048x256.size (by rfl) y

/-! ## The body's triple -/

set_option maxHeartbeats 4000000 in
/-- The kernel body on whole buffers, the inputs' at contents `xW` and the outputs' at anything, runs to the
    continuation holding the inputs' as they were and each output's at `out11_W` of the inputs' (each output buffer is
    read once before it is overwritten; the value read is not used). -/
theorem sound_kernel11 (c : Dev nD) (E : Set ℕ) (i : grid11.Coords) (arg1 : Memref sig .tc .vmem S2048x256 .f32) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S2048x2048 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole)
    (x0 : Vec F S2048x256 .f32) (x1 : Vec F S256x256 .bf16) (x2 : Vec F S256x256 .bf16) (x3 : Vec F S256x256 .bf16) (x4 : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out11_5 x0 x1 x2 x3 x4) ∗ owns (c : Thread nD τ) arg7 fullShare (out11_6 x0 x1 x2 x3 x4) ∗ owns (c : Thread nD τ) arg8 fullShare (out11_7 x0 x1 x2 x3 x4)) -∗ K ⟨⟩))
      ⊢ wp frame (wpE (defs₀ (F := F)) Variants.none c none) E (cc11__proj_kernel i arg1 harg1 arg2 harg2 arg3 harg3 arg4 harg4 arg5 harg5 arg6 harg6 arg7 harg7 arg8 harg8) K := by
  simp only [cc11__proj_kernel_eq_skeleton]; unfold cc11__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover11_5 _)
  isplitl [H6]
  · iexists _; isplitr
    swap; · iexact H6
    ipureintro
    exact View.read_writes_eq_canon _ _ _ (cover11_6 _)
  iexists _; isplitr
  swap; · iexact H7
  ipureintro
  exact View.read_writes_eq_canon _ _ _ (cover11_7 _)

/-! ## The pipeline's proof data -/

/-- The proof data of pipeline 11 on core `c`: the arrays as the region finds them (`V`); after the body at point `t`
    each input's buffer at its block and each output's at `out11_W` of the input blocks; the invariant is the scoped
    rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
    | ⟨6, _⟩ => out11_6 (iblk11 V c 0 t) (iblk11 V c 1 t) (iblk11 V c 2 t) (iblk11 V c 3 t) (iblk11 V c 4 t)
    | ⟨7, _⟩ => out11_7 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) := by dsimp only [dat11]
theorem after11_7 (c : Dev nD) (t : Fin cfg11.N) : (dat11 V c).after 7 t = out11_7 (iblk11 V c 0 t) (iblk11 V c 1 t) (iblk11 V c 2 t) (iblk11 V c 3 t) (iblk11 V c 4 t) := by dsimp only [dat11]

/-- The invariant at the first boundary and at the last is the class's. -/
theorem Phi_first11 (c : Dev nD) : (dat11 V c).Φ 0 = Pipeline.ΦA spec11 c := rfl
theorem Phi_last11 (c : Dev nD) : (dat11 V c).Φ (Fin.last cfg11.N) ⊢ Pipeline.ΦA spec11 c := by
  rw [show (dat11 V c).Φ (Fin.last cfg11.N) = Pipeline.ΦA spec11 c from rfl]

/-- Each input's current buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d))
    ∗ (∃ d, owns (c : Thread nD τ) (st11_7 t) fullShare ((dat11 V c).before 7 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t)
    ∗ owns (c : Thread nD τ) (st11_7 t) fullShare ((dat11 V c).after 7 t))

/-- The body at any point: the inputs' buffers hold their blocks, so `sound_kernel11` applies; the invariant and the
    core's tallies pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel11 c Set.univ _ _ _ _ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.KB.Reg12.lean ====
import proofs.«104406_j63058709840319_2_alg».proof.Proof.Gen.Kernel.Launch
import proofs.«104406_j63058709840319_2_alg».proof.Proof.Gen.Kernel.Skeleton
import proofs.«104406_j63058709840319_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The attention-and-feed-forward call over four row tiles of 512, at a parameter `V`: the buffer contents the
    call finds. Seven inputs, of which only the row tile of the first moves with the point; one output, the row
    tile the body stores, written back at every point. -/

-- membership in a rectangle of 512 × 256 and 2048 × 256 coordinates recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for any proof
    data whose array is `V`'s and whose body leaves the block in place: where the window is not fetched its block
    index has not moved, so the block of the point before is this point's. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not, for any proof
    data whose array is `V`'s and whose body leaves the block in place: where the window is not fetched its block
    index has not moved, so the block of the point before is this point's. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not, for any proof
    data whose array is `V`'s and whose body leaves the block in place: where the window is not fetched its block
    index has not moved, so the block of the point before is this point's. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's current staging buffer holds its block at every point, fetched there or not, for any proof
    data whose array is `V`'s and whose body leaves the block in place: where the window is not fetched its block
    index has not moved, so the block of the point before is this point's. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's current staging buffer holds its block at every point, fetched there or not, for any proof
    data whose array is `V`'s and whose body leaves the block in place: where the window is not fetched its block
    index has not moved, so the block of the point before is this point's. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- Input window 5's current staging buffer holds its block at every point, fetched there or not, for any proof
    data whose array is `V`'s and whose body leaves the block in place: where the window is not fetched its block
    index has not moved, so the block of the point before is this point's. -/
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

/-- Input window 6's current staging buffer holds its block at every point, fetched there or not, for any proof
    data whose array is `V`'s and whose body leaves the block in place: where the window is not fetched its block
    index has not moved, so the block of the point before is this point's. -/
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each whole staging buffer, one rectangle per shape -/

abbrev r12_0 : Rect S512x256 := Rect.unit (s := S512x256) ![0, 0] S512x256.size inb_S512x256_S512x256_0_0
abbrev r12_1 : Rect S2048x256 := Rect.unit (s := S2048x256) ![0, 0] S2048x256.size inb_S2048x256_S2048x256_0_0
abbrev r12_2 : Rect S256x256 := Rect.unit (s := S256x256) ![0, 0] S256x256.size inb_S256x256_S256x256_0_0
abbrev r12_3 : Rect S1x256 := Rect.unit (s := S1x256) ![0, 0] S1x256.size inb_S1x256_S1x256_0_0

/-! ## What the body leaves in the output window's buffer -/

/-- The output's staging buffer after the body, from the input windows' blocks: its one store, of the row tile
    `relu(softmax(q kᵀ / 16) v W₁ + b₁) W₂ + b₂` (the second bias `x6` added last; the first bias is `x5`, the
    second weight `x4`). -/
def out12_7 (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) : Vec F S512x256 .f32 :=
  View.canon [⟨r12_0, k12_pay1 (k12_pay2 (View.ld x0 r12_0) (View.ld x1 r12_1) (View.ld x2 r12_1) (View.ld x3 r12_2) (View.ld x5 r12_3) (View.ld x4 r12_2)) (View.ld x6 r12_3)⟩]

/-- The store tiles the buffer, so it covers it. -/
theorem cover12_7 (p0 : Vec F S512x256 .f32) (y : S512x256.Idx) :
    ∃ pc ∈ ([⟨r12_0, p0⟩] : List (View.Piece (Elt F) S512x256 .f32)), y ∈ pc.1.set :=
  View.cover_of_tiled [⟨r12_0, p0⟩] S512x256.size (by rfl) y

/-! ## The body's triple -/

set_option maxHeartbeats 1000000 in
/-- The body on whole staging memrefs, the inputs' at read contents `xW` and the output's at anything, runs to the
    continuation holding the inputs' as they were and the output's at `out12_7` of the inputs'. -/
theorem sound_kernel12 (c : Dev nD) (E : Set ℕ) (i : grid12.Coords) (arg0 : Memref sig .tc .vmem S512x256 .bf16) (harg0 : arg0.IsWhole) (arg1 : Memref sig .tc .vmem S2048x256 .bf16) (harg1 : arg1.IsWhole) (arg2 : Memref sig .tc .vmem S2048x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole)
    (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out12_7 x0 x1 x2 x3 x4 x5 x6)) -∗ K ⟨⟩))
      ⊢ wp frame (wpE (defs₀ (F := F)) Variants.none c none) E (cc12__attn_ffn_kernel i arg0 harg0 arg1 harg1 arg2 harg2 arg3 harg3 arg4 harg4 arg5 harg5 arg6 harg6 arg7 harg7) K := by
  simp only [cc12__attn_ffn_kernel_eq_skeleton]; unfold cc12__attn_ffn_kernel_skel
  simp only [k12_part1_eq_skeleton]; unfold k12_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover12_7 _)

/-! ## The proof data -/

/-- The proof data on core `c`: the arrays as the call finds them (`V`); after the body at point `t` each input's
    buffer at its block and the output's at `out12_7` of the input blocks; the invariant the scoped rest and the
    generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out12_7 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

/-- The proof data's arrays are the entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = out12_7 (iblk12 V c 0 t) (iblk12 V c 1 t) (iblk12 V c 2 t) (iblk12 V c 3 t) (iblk12 V c 4 t) (iblk12 V c 5 t) (iblk12 V c 6 t) := by dsimp only [dat12]

/-- The invariant at the first point and at the last is the scoped rest and the generator register. -/
theorem Phi_first12 (c : Dev nD) : (dat12 V c).Φ 0 = Pipeline.ΦA spec12 c := by dsimp only [dat12]
theorem Phi_last12 (c : Dev nD) : (dat12 V c).Φ (Fin.last cfg12.N) ⊢ Pipeline.ΦA spec12 c := by
  rw [show (dat12 V c).Φ (Fin.last cfg12.N) = Pipeline.ΦA spec12 c from rfl]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t))

/-- The body at any point: the inputs' memrefs hold their blocks, so `sound_kernel12` applies; the invariant and the
    core's debt pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel12 c Set.univ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand
-- ==== Proof.KB.Reg13.lean ====
/- Region 13 (the gating call) at a parameter `V`, the buffer contents when the region is entered: each window's
   block at the single grid point, what the body leaves in the output window's buffer, the body's triple, the
   pipeline's proof data and the body obligation. Generic in the float model. -/
import proofs.«104406_j63058709840319_2_alg».proof.Proof.Gen.Kernel.Launch
import proofs.«104406_j63058709840319_2_alg».proof.Proof.Gen.Kernel.Skeleton
import proofs.«104406_j63058709840319_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region13
-- the buffer contents when the region is entered
variable (V : (c : Dev nD) → (b : Ref sig .tc) → Buf (Elt F) ((c : Thread nD τ).loc b))

/-! ## The windows' blocks -/

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, for any proof data whose array is
    `V`'s and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, for any proof data whose array is
    `V`'s and whose body leaves the block in place. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, for any proof data whose array is
    `V`'s and whose body leaves the block in place. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, for any proof data whose array is
    `V`'s and whose body leaves the block in place. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's current staging buffer holds its block at every point, for any proof data whose array is
    `V`'s and whose body leaves the block in place. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Input window 5's current staging buffer holds its block at every point, for any proof data whose array is
    `V`'s and whose body leaves the block in place. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-- Input window 6's current staging buffer holds its block at every point, for any proof data whose array is
    `V`'s and whose body leaves the block in place. -/
theorem before13_6_of {c : Dev nD} (dat : Dat τ (Elt F) Unit ℕ (UR sig nD τ) ℕ cfg13 c) (hA : dat.A 6 = V c (Pipeline.arrRef spec13 6))
    (hafter : ∀ t, dat.after 6 t = iblk13 V c 6 t) (t : Fin cfg13.N) (d) : dat.before 6 t d = iblk13 V c 6 t :=
  (dat.before_in_eq_fetched 6 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: every load and the store take a whole buffer -/

abbrev r13_a : Rect S2048x256 := Rect.unit (s := S2048x256) ![0, 0] S2048x256.size inb_S2048x256_S2048x256_0_0
abbrev r13_b : Rect S1x256 := Rect.unit (s := S1x256) ![0, 0] S1x256.size inb_S1x256_S1x256_0_0
abbrev r13_c : Rect S768x1 := Rect.unit (s := S768x1) ![0, 0] S768x1.size inb_S768x1_S768x1_0_0
abbrev r13_d : Rect S1x1 := Rect.unit (s := S1x1) ![0, 0] S1x1.size inb_S1x1_S1x1_0_0
abbrev r13_e : Rect S256x128 := Rect.unit (s := S256x128) ![0, 0] S256x128.size inb_S256x128_S256x128_0_0
abbrev r13_o : Rect S2048x128 := Rect.unit (s := S2048x128) ![0, 0] S2048x128.size inb_S2048x128_S2048x128_0_0

/-! ## What the body leaves in the output window's buffer -/

/-- Window 7's staging buffer after the body, from the input windows' blocks: its one store, of the gated mixture
    times the padded candidate column, over the whole buffer. -/
def out13_7 (x0 : Vec F S2048x256 .f32) (x1 : Vec F S1x256 .bf16) (x2 : Vec F S2048x256 .bf16) (x3 : Vec F S1x256 .bf16) (x4 : Vec F S768x1 .bf16) (x5 : Vec F S1x1 .f32) (x6 : Vec F S256x128 .bf16) : Vec F S2048x128 .f32 :=
  View.canon [⟨r13_o, k13_pay1 (View.ld x0 r13_a) (View.ld x1 r13_b) (View.ld x2 r13_a) (View.ld x3 r13_b) (View.ld x4 r13_c) (View.ld x5 r13_d) (View.ld x6 r13_e)⟩]

/-- The one store is of the whole buffer, so it covers it. -/
theorem cover13_7 (p0 : Vec F S2048x128 .f32) (y : S2048x128.Idx) :
    ∃ pc ∈ ([⟨r13_o, p0⟩] : List (View.Piece (Elt F) S2048x128 .f32)), y ∈ pc.1.set :=
  View.cover_of_tiled [⟨r13_o, p0⟩] S2048x128.size (by rfl) y

/-! ## The body's triple -/

set_option maxHeartbeats 4000000 in
/-- The kernel body on whole staging memrefs, the inputs' at read contents and the output's at anything, runs to the
    continuation holding the inputs' as they were and the output's at `out13_7` of the inputs'. The body also reads the
    output buffer before its store; the value read is not used. -/
theorem sound_kernel13 (c : Dev nD) (E : Set ℕ) (i : grid13.Coords) (arg1 : Memref sig .tc .vmem S2048x256 .f32) (harg1 : arg1.IsWhole) (arg2 : Memref sig .tc .vmem S1x256 .bf16) (harg2 : arg2.IsWhole) (arg3 : Memref sig .tc .vmem S2048x256 .bf16) (harg3 : arg3.IsWhole) (arg4 : Memref sig .tc .vmem S1x256 .bf16) (harg4 : arg4.IsWhole) (arg5 : Memref sig .tc .vmem S768x1 .bf16) (harg5 : arg5.IsWhole) (arg6 : Memref sig .tc .vmem S1x1 .f32) (harg6 : arg6.IsWhole) (arg7 : Memref sig .tc .vmem S256x128 .bf16) (harg7 : arg7.IsWhole) (arg8 : Memref sig .tc .vmem S2048x128 .f32) (harg8 : arg8.IsWhole)
    (x0 : Vec F S2048x256 .f32) (x1 : Vec F S1x256 .bf16) (x2 : Vec F S2048x256 .bf16) (x3 : Vec F S1x256 .bf16) (x4 : Vec F S768x1 .bf16) (x5 : Vec F S1x1 .f32) (x6 : Vec F S256x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out13_7 x0 x1 x2 x3 x4 x5 x6)) -∗ K ⟨⟩))
      ⊢ wp frame (wpE (defs₀ (F := F)) Variants.none c none) E (cc13__gating_kernel i arg1 harg1 arg2 harg2 arg3 harg3 arg4 harg4 arg5 harg5 arg6 harg6 arg7 harg7 arg8 harg8) K := by
  simp only [cc13__gating_kernel_eq_skeleton]; unfold cc13__gating_kernel_skel
  simp only [k13_part1_eq_skeleton]; unfold k13_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover13_7 _)

/-! ## The pipeline's proof data -/

/-- The proof data of pipeline 13 on core `c`: the arrays as the region finds them; after the body each input's
    buffer at its block and the output's at `out13_7` of the input blocks; the invariant the scoped rest and the
    generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => iblk13 V c 6 t
    | ⟨7, _⟩ => out13_7 (iblk13 V c 0 t) (iblk13 V c 1 t) (iblk13 V c 2 t) (iblk13 V c 3 t) (iblk13 V c 4 t) (iblk13 V c 5 t) (iblk13 V c 6 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = iblk13 V c 6 t := by dsimp only [dat13]
theorem after13_7 (c : Dev nD) (t : Fin cfg13.N) : (dat13 V c).after 7 t = out13_7 (iblk13 V c 0 t) (iblk13 V c 1 t) (iblk13 V c 2 t) (iblk13 V c 3 t) (iblk13 V c 4 t) (iblk13 V c 5 t) (iblk13 V c 6 t) := by dsimp only [dat13]

/-- The invariant at the first and at the last point is the class's. -/
theorem Phi_first13 (c : Dev nD) : (dat13 V c).Φ 0 = Pipeline.ΦA spec13 c := rfl
theorem Phi_last13 (c : Dev nD) : (dat13 V c).Φ (Fin.last cfg13.N) ⊢ Pipeline.ΦA spec13 c := by
  show Pipeline.ΦA spec13 c ⊢ Pipeline.ΦA spec13 c
  exact BI.Entails.refl _

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d
theorem before13_6 (c : Dev nD) (t : Fin cfg13.N) (d) : (dat13 V c).before 6 t d = iblk13 V c 6 t :=
  before13_6_of V (dat13 V c) (A_eq13 V c 6) (after13_6 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d))
    ∗ (∃ d, owns (c : Thread nD τ) (st13_7 t) fullShare ((dat13 V c).before 7 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t)
    ∗ owns (c : Thread nD τ) (st13_7 t) fullShare ((dat13 V c).after 7 t))

set_option maxHeartbeats 1000000 in
/-- The body at any point: the inputs' memrefs hold their blocks, so `sound_kernel13` applies; the invariant and the
    core's `owes` pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5, before13_6]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6, after13_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel13 c Set.univ _ _ _ _ _ _ _ _ _ _ _ _ _ _ _ _ _ (iblk13 V c 0 t) (iblk13 V c 1 t) (iblk13 V c 2 t) (iblk13 V c 3 t) (iblk13 V c 4 t) (iblk13 V c 5 t) (iblk13 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation13 (c : Dev nD) : BodyObligation (dat13 (F := F) V c) (defs₀ (F := F)) Variants.none () Set.univ := fun t => by
  rw [bigSep_W13, bigSep_W13]
  exact sound_body13 V c t

end Region13

end Cert.Kernel.Hand

end
-- ==== Proof.KB.Pdats.lean ====
/- The buffer contents between the program's items, as closed definitions, and the pipelines' proof data at them,
   for any float model F. The generated valuations Gen.V0 … Gen.V27 are written over unknown contents outs
   that the kernel regions leave; here those contents are given region by region, each over the valuation the
   regions before it produce, so that nothing refers to itself: region K leaves in its output arrays what its
   pipeline's proof data fold there (Dat.arrAt … N) from the contents it is entered at. Then the proof data
   family, and per region the two facts that put its arrays back among the unscoped buffers: every array of the
   region ends at the exit valuation's value, and every other buffer is as at entry. -/
import proofs.«104406_j63058709840319_2_alg».proof.Proof.Gen.Kernel.Regions
import proofs.«104406_j63058709840319_2_alg».proof.Proof.KB.Reg0
import proofs.«104406_j63058709840319_2_alg».proof.Proof.KB.Reg1
import proofs.«104406_j63058709840319_2_alg».proof.Proof.KB.Reg2
import proofs.«104406_j63058709840319_2_alg».proof.Proof.KB.Reg3
import proofs.«104406_j63058709840319_2_alg».proof.Proof.KB.Reg4
import proofs.«104406_j63058709840319_2_alg».proof.Proof.KB.Reg5
import proofs.«104406_j63058709840319_2_alg».proof.Proof.KB.Reg6
import proofs.«104406_j63058709840319_2_alg».proof.Proof.KB.Reg7
import proofs.«104406_j63058709840319_2_alg».proof.Proof.KB.Reg8
import proofs.«104406_j63058709840319_2_alg».proof.Proof.KB.Reg9
import proofs.«104406_j63058709840319_2_alg».proof.Proof.KB.Reg10
import proofs.«104406_j63058709840319_2_alg».proof.Proof.KB.Reg11
import proofs.«104406_j63058709840319_2_alg».proof.Proof.KB.Reg12
import proofs.«104406_j63058709840319_2_alg».proof.Proof.KB.Reg13

-- decided memberships among the program's references recurse past the default depth
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each region leaves, by stages -/

/-- Before any region has run: the launch contents (read nowhere by the valuations; a total answer). -/
def outsTo0 : Outs (F := F) := fun _ r c => m ((c : Thread nD τ).loc r)

/-- What region 0 leaves: its arrays at what its pipeline folds there from the contents it is entered at
    (Gen.V6), every other buffer as entered. Read at main_v6. -/
def o7 : (r : Ref sig .tc) → (c : Dev nD) → Buf (Elt F) ((c : Thread nD τ).loc r) := fun r c =>
  Pipeline.withArrays spec0 c (Gen.V6 m c) (fun w => (dat0 (fun c b => Gen.V6 m c b) c).arrAt w cfg0.N) (Proc.devRef .tc r)
/-- The contents left by the regions up to region 0. -/
def outsTo1 : Outs (F := F) := fun J => match J with | 7 => o7 m | _ => outsTo0 m J

/-- What region 1 leaves: its arrays at what its pipeline folds there from the contents it is entered at
    (Gen.V7), every other buffer as entered. Read at main_v7. -/
def o8 : (r : Ref sig .tc) → (c : Dev nD) → Buf (Elt F) ((c : Thread nD τ).loc r) := fun r c =>
  Pipeline.withArrays spec1 c (Gen.V7 m (outsTo1 m) c) (fun w => (dat1 (fun c b => Gen.V7 m (outsTo1 m) c b) c).arrAt w cfg1.N) (Proc.devRef .tc r)
/-- The contents left by the regions up to region 1. -/
def outsTo2 : Outs (F := F) := fun J => match J with | 8 => o8 m | _ => outsTo1 m J

/-- What region 2 leaves: its arrays at what its pipeline folds there from the contents it is entered at
    (Gen.V9), every other buffer as entered. Read at main_v16. -/
def o10 : (r : Ref sig .tc) → (c : Dev nD) → Buf (Elt F) ((c : Thread nD τ).loc r) := fun r c =>
  Pipeline.withArrays spec2 c (Gen.V9 m (outsTo2 m) c) (fun w => (dat2 (fun c b => Gen.V9 m (outsTo2 m) c b) c).arrAt w cfg2.N) (Proc.devRef .tc r)
/-- The contents left by the regions up to region 2. -/
def outsTo3 : Outs (F := F) := fun J => match J with | 10 => o10 m | _ => outsTo2 m J

/-- What region 3 leaves: its arrays at what its pipeline folds there from the contents it is entered at
    (Gen.V13), every other buffer as entered. Read at main_v21_0, main_v21_1, main_v21_2. -/
def o14 : (r : Ref sig .tc) → (c : Dev nD) → Buf (Elt F) ((c : Thread nD τ).loc r) := fun r c =>
  Pipeline.withArrays spec3 c (Gen.V13 m (outsTo3 m) c) (fun w => (dat3 (fun c b => Gen.V13 m (outsTo3 m) c b) c).arrAt w cfg3.N) (Proc.devRef .tc r)
/-- The contents left by the regions up to region 3. -/
def outsTo4 : Outs (F := F) := fun J => match J with | 14 => o14 m | _ => outsTo3 m J

/-- What region 4 leaves: its arrays at what its pipeline folds there from the contents it is entered at
    (Gen.V14), every other buffer as entered. Read at main_v22. -/
def o15 : (r : Ref sig .tc) → (c : Dev nD) → Buf (Elt F) ((c : Thread nD τ).loc r) := fun r c =>
  Pipeline.withArrays spec4 c (Gen.V14 m (outsTo4 m) c) (fun w => (dat4 (fun c b => Gen.V14 m (outsTo4 m) c b) c).arrAt w cfg4.N) (Proc.devRef .tc r)
/-- The contents left by the regions up to region 4. -/
def outsTo5 : Outs (F := F) := fun J => match J with | 15 => o15 m | _ => outsTo4 m J

/-- What region 5 leaves: its arrays at what its pipeline folds there from the contents it is entered at
    (Gen.V15), every other buffer as entered. Read at main_v23_0, main_v23_1, main_v23_2. -/
def o16 : (r : Ref sig .tc) → (c : Dev nD) → Buf (Elt F) ((c : Thread nD τ).loc r) := fun r c =>
  Pipeline.withArrays spec5 c (Gen.V15 m (outsTo5 m) c) (fun w => (dat5 (fun c b => Gen.V15 m (outsTo5 m) c b) c).arrAt w cfg5.N) (Proc.devRef .tc r)
/-- The contents left by the regions up to region 5. -/
def outsTo6 : Outs (F := F) := fun J => match J with | 16 => o16 m | _ => outsTo5 m J

/-- What region 6 leaves: its arrays at what its pipeline folds there from the contents it is entered at
    (Gen.V16), every other buffer as entered. Read at main_v24. -/
def o17 : (r : Ref sig .tc) → (c : Dev nD) → Buf (Elt F) ((c : Thread nD τ).loc r) := fun r c =>
  Pipeline.withArrays spec6 c (Gen.V16 m (outsTo6 m) c) (fun w => (dat6 (fun c b => Gen.V16 m (outsTo6 m) c b) c).arrAt w cfg6.N) (Proc.devRef .tc r)
/-- The contents left by the regions up to region 6. -/
def outsTo7 : Outs (F := F) := fun J => match J with | 17 => o17 m | _ => outsTo6 m J

/-- What region 7 leaves: its arrays at what its pipeline folds there from the contents it is entered at
    (Gen.V17), every other buffer as entered. Read at main_v25_0, main_v25_1, main_v25_2. -/
def o18 : (r : Ref sig .tc) → (c : Dev nD) → Buf (Elt F) ((c : Thread nD τ).loc r) := fun r c =>
  Pipeline.withArrays spec7 c (Gen.V17 m (outsTo7 m) c) (fun w => (dat7 (fun c b => Gen.V17 m (outsTo7 m) c b) c).arrAt w cfg7.N) (Proc.devRef .tc r)
/-- The contents left by the regions up to region 7. -/
def outsTo8 : Outs (F := F) := fun J => match J with | 18 => o18 m | _ => outsTo7 m J

/-- What region 8 leaves: its arrays at what its pipeline folds there from the contents it is entered at
    (Gen.V18), every other buffer as entered. Read at main_v26. -/
def o19 : (r : Ref sig .tc) → (c : Dev nD) → Buf (Elt F) ((c : Thread nD τ).loc r) := fun r c =>
  Pipeline.withArrays spec8 c (Gen.V18 m (outsTo8 m) c) (fun w => (dat8 (fun c b => Gen.V18 m (outsTo8 m) c b) c).arrAt w cfg8.N) (Proc.devRef .tc r)
/-- The contents left by the regions up to region 8. -/
def outsTo9 : Outs (F := F) := fun J => match J with | 19 => o19 m | _ => outsTo8 m J

/-- What region 9 leaves: its arrays at what its pipeline folds there from the contents it is entered at
    (Gen.V19), every other buffer as entered. Read at main_v27_0, main_v27_1, main_v27_2. -/
def o20 : (r : Ref sig .tc) → (c : Dev nD) → Buf (Elt F) ((c : Thread nD τ).loc r) := fun r c =>
  Pipeline.withArrays spec9 c (Gen.V19 m (outsTo9 m) c) (fun w => (dat9 (fun c b => Gen.V19 m (outsTo9 m) c b) c).arrAt w cfg9.N) (Proc.devRef .tc r)
/-- The contents left by the regions up to region 9. -/
def outsTo10 : Outs (F := F) := fun J => match J with | 20 => o20 m | _ => outsTo9 m J

/-- What region 10 leaves: its arrays at what its pipeline folds there from the contents it is entered at
    (Gen.V20), every other buffer as entered. Read at main_v28. -/
def o21 : (r : Ref sig .tc) → (c : Dev nD) → Buf (Elt F) ((c : Thread nD τ).loc r) := fun r c =>
  Pipeline.withArrays spec10 c (Gen.V20 m (outsTo10 m) c) (fun w => (dat10 (fun c b => Gen.V20 m (outsTo10 m) c b) c).arrAt w cfg10.N) (Proc.devRef .tc r)
/-- The contents left by the regions up to region 10. -/
def outsTo11 : Outs (F := F) := fun J => match J with | 21 => o21 m | _ => outsTo10 m J

/-- What region 11 leaves: its arrays at what its pipeline folds there from the contents it is entered at
    (Gen.V21), every other buffer as entered. Read at main_v29_0, main_v29_1, main_v29_2. -/
def o22 : (r : Ref sig .tc) → (c : Dev nD) → Buf (Elt F) ((c : Thread nD τ).loc r) := fun r c =>
  Pipeline.withArrays spec11 c (Gen.V21 m (outsTo11 m) c) (fun w => (dat11 (fun c b => Gen.V21 m (outsTo11 m) c b) c).arrAt w cfg11.N) (Proc.devRef .tc r)
/-- The contents left by the regions up to region 11. -/
def outsTo12 : Outs (F := F) := fun J => match J with | 22 => o22 m | _ => outsTo11 m J

/-- What region 12 leaves: its arrays at what its pipeline folds there from the contents it is entered at
    (Gen.V22), every other buffer as entered. Read at main_v30. -/
def o23 : (r : Ref sig .tc) → (c : Dev nD) → Buf (Elt F) ((c : Thread nD τ).loc r) := fun r c =>
  Pipeline.withArrays spec12 c (Gen.V22 m (outsTo12 m) c) (fun w => (dat12 (fun c b => Gen.V22 m (outsTo12 m) c b) c).arrAt w cfg12.N) (Proc.devRef .tc r)
/-- The contents left by the regions up to region 12. -/
def outsTo13 : Outs (F := F) := fun J => match J with | 23 => o23 m | _ => outsTo12 m J

/-- What region 13 leaves: its arrays at what its pipeline folds there from the contents it is entered at
    (Gen.V25), every other buffer as entered. Read at main_v34. -/
def o26 : (r : Ref sig .tc) → (c : Dev nD) → Buf (Elt F) ((c : Thread nD τ).loc r) := fun r c =>
  Pipeline.withArrays spec13 c (Gen.V25 m (outsTo13 m) c) (fun w => (dat13 (fun c b => Gen.V25 m (outsTo13 m) c b) c).arrAt w cfg13.N) (Proc.devRef .tc r)
/-- The contents left by the regions up to region 13. -/
def outsTo14 : Outs (F := F) := fun J => match J with | 26 => o26 m | _ => outsTo13 m J

/-- THE CONTENTS THE REGIONS LEAVE: outs m J is what item J−1, a kernel region, leaves (read by the generated
    valuations only at that region's output arrays); the launch contents at every other index. -/
def outs : Outs (F := F) := fun J => match J with
  | 7 => o7 m
  | 8 => o8 m
  | 10 => o10 m
  | 14 => o14 m
  | 15 => o15 m
  | 16 => o16 m
  | 17 => o17 m
  | 18 => o18 m
  | 19 => o19 m
  | 20 => o20 m
  | 21 => o21 m
  | 22 => o22 m
  | 23 => o23 m
  | 26 => o26 m
  | _ => fun r c => m ((c : Thread nD τ).loc r)

/-! ## The regions' entry and exit contents -/

/-- Region 0 is entered at Gen.V6 and left at Gen.V7, both over outs m. -/
abbrev Vin0 (c : Dev nD) (b : Ref sig .tc) : Buf (Elt F) ((c : Thread nD τ).loc b) := Gen.V6 m c b
abbrev Vout0 (c : Dev nD) (b : Ref sig .tc) : Buf (Elt F) ((c : Thread nD τ).loc b) := Gen.V7 m (outs m) c b
/-- Region 1 is entered at Gen.V7 and left at Gen.V8, both over outs m. -/
abbrev Vin1 (c : Dev nD) (b : Ref sig .tc) : Buf (Elt F) ((c : Thread nD τ).loc b) := Gen.V7 m (outs m) c b
abbrev Vout1 (c : Dev nD) (b : Ref sig .tc) : Buf (Elt F) ((c : Thread nD τ).loc b) := Gen.V8 m (outs m) c b
/-- Region 2 is entered at Gen.V9 and left at Gen.V10, both over outs m. -/
abbrev Vin2 (c : Dev nD) (b : Ref sig .tc) : Buf (Elt F) ((c : Thread nD τ).loc b) := Gen.V9 m (outs m) c b
abbrev Vout2 (c : Dev nD) (b : Ref sig .tc) : Buf (Elt F) ((c : Thread nD τ).loc b) := Gen.V10 m (outs m) c b
/-- Region 3 is entered at Gen.V13 and left at Gen.V14, both over outs m. -/
abbrev Vin3 (c : Dev nD) (b : Ref sig .tc) : Buf (Elt F) ((c : Thread nD τ).loc b) := Gen.V13 m (outs m) c b
abbrev Vout3 (c : Dev nD) (b : Ref sig .tc) : Buf (Elt F) ((c : Thread nD τ).loc b) := Gen.V14 m (outs m) c b
/-- Region 4 is entered at Gen.V14 and left at Gen.V15, both over outs m. -/
abbrev Vin4 (c : Dev nD) (b : Ref sig .tc) : Buf (Elt F) ((c : Thread nD τ).loc b) := Gen.V14 m (outs m) c b
abbrev Vout4 (c : Dev nD) (b : Ref sig .tc) : Buf (Elt F) ((c : Thread nD τ).loc b) := Gen.V15 m (outs m) c b
/-- Region 5 is entered at Gen.V15 and left at Gen.V16, both over outs m. -/
abbrev Vin5 (c : Dev nD) (b : Ref sig .tc) : Buf (Elt F) ((c : Thread nD τ).loc b) := Gen.V15 m (outs m) c b
abbrev Vout5 (c : Dev nD) (b : Ref sig .tc) : Buf (Elt F) ((c : Thread nD τ).loc b) := Gen.V16 m (outs m) c b
/-- Region 6 is entered at Gen.V16 and left at Gen.V17, both over outs m. -/
abbrev Vin6 (c : Dev nD) (b : Ref sig .tc) : Buf (Elt F) ((c : Thread nD τ).loc b) := Gen.V16 m (outs m) c b
abbrev Vout6 (c : Dev nD) (b : Ref sig .tc) : Buf (Elt F) ((c : Thread nD τ).loc b) := Gen.V17 m (outs m) c b
/-- Region 7 is entered at Gen.V17 and left at Gen.V18, both over outs m. -/
abbrev Vin7 (c : Dev nD) (b : Ref sig .tc) : Buf (Elt F) ((c : Thread nD τ).loc b) := Gen.V17 m (outs m) c b
abbrev Vout7 (c : Dev nD) (b : Ref sig .tc) : Buf (Elt F) ((c : Thread nD τ).loc b) := Gen.V18 m (outs m) c b
/-- Region 8 is entered at Gen.V18 and left at Gen.V19, both over outs m. -/
abbrev Vin8 (c : Dev nD) (b : Ref sig .tc) : Buf (Elt F) ((c : Thread nD τ).loc b) := Gen.V18 m (outs m) c b
abbrev Vout8 (c : Dev nD) (b : Ref sig .tc) : Buf (Elt F) ((c : Thread nD τ).loc b) := Gen.V19 m (outs m) c b
/-- Region 9 is entered at Gen.V19 and left at Gen.V20, both over outs m. -/
abbrev Vin9 (c : Dev nD) (b : Ref sig .tc) : Buf (Elt F) ((c : Thread nD τ).loc b) := Gen.V19 m (outs m) c b
abbrev Vout9 (c : Dev nD) (b : Ref sig .tc) : Buf (Elt F) ((c : Thread nD τ).loc b) := Gen.V20 m (outs m) c b
/-- Region 10 is entered at Gen.V20 and left at Gen.V21, both over outs m. -/
abbrev Vin10 (c : Dev nD) (b : Ref sig .tc) : Buf (Elt F) ((c : Thread nD τ).loc b) := Gen.V20 m (outs m) c b
abbrev Vout10 (c : Dev nD) (b : Ref sig .tc) : Buf (Elt F) ((c : Thread nD τ).loc b) := Gen.V21 m (outs m) c b
/-- Region 11 is entered at Gen.V21 and left at Gen.V22, both over outs m. -/
abbrev Vin11 (c : Dev nD) (b : Ref sig .tc) : Buf (Elt F) ((c : Thread nD τ).loc b) := Gen.V21 m (outs m) c b
abbrev Vout11 (c : Dev nD) (b : Ref sig .tc) : Buf (Elt F) ((c : Thread nD τ).loc b) := Gen.V22 m (outs m) c b
/-- Region 12 is entered at Gen.V22 and left at Gen.V23, both over outs m. -/
abbrev Vin12 (c : Dev nD) (b : Ref sig .tc) : Buf (Elt F) ((c : Thread nD τ).loc b) := Gen.V22 m (outs m) c b
abbrev Vout12 (c : Dev nD) (b : Ref sig .tc) : Buf (Elt F) ((c : Thread nD τ).loc b) := Gen.V23 m (outs m) c b
/-- Region 13 is entered at Gen.V25 and left at Gen.V26, both over outs m. -/
abbrev Vin13 (c : Dev nD) (b : Ref sig .tc) : Buf (Elt F) ((c : Thread nD τ).loc b) := Gen.V25 m (outs m) c b
abbrev Vout13 (c : Dev nD) (b : Ref sig .tc) : Buf (Elt F) ((c : Thread nD τ).loc b) := Gen.V26 m (outs m) c b

/-- The stage a region's leavings were defined over agrees with outs m at every index its entry valuation reads
    (the indices of the regions before it), so the two entry contents are the same: unfold both valuations down to
    the launch's host stretches; they differ only in which of the two names the earlier regions' leavings, and at
    those indices both reduce to the same o<J> m. -/
theorem stage1 (c : Dev nD) : Gen.V7 m (outsTo1 m) c = Gen.V7 m (outs m) c := by
  simp only [Gen.V7] <;> rfl
theorem sfun1 : (fun (c : Dev nD) (b : Ref sig .tc) => Gen.V7 m (outsTo1 m) c b) = Vin1 m :=
  funext fun c => funext fun b => by rw [stage1 m c]
theorem stage2 (c : Dev nD) : Gen.V9 m (outsTo2 m) c = Gen.V9 m (outs m) c := by
  simp only [Gen.V7, Gen.V8, Gen.V9] <;> rfl
theorem sfun2 : (fun (c : Dev nD) (b : Ref sig .tc) => Gen.V9 m (outsTo2 m) c b) = Vin2 m :=
  funext fun c => funext fun b => by rw [stage2 m c]
theorem stage3 (c : Dev nD) : Gen.V13 m (outsTo3 m) c = Gen.V13 m (outs m) c := by
  simp only [Gen.V7, Gen.V8, Gen.V9, Gen.V10, Gen.V11, Gen.V12, Gen.V13] <;> rfl
theorem sfun3 : (fun (c : Dev nD) (b : Ref sig .tc) => Gen.V13 m (outsTo3 m) c b) = Vin3 m :=
  funext fun c => funext fun b => by rw [stage3 m c]
theorem stage4 (c : Dev nD) : Gen.V14 m (outsTo4 m) c = Gen.V14 m (outs m) c := by
  simp only [Gen.V7, Gen.V8, Gen.V9, Gen.V10, Gen.V11, Gen.V12, Gen.V13, Gen.V14] <;> rfl
theorem sfun4 : (fun (c : Dev nD) (b : Ref sig .tc) => Gen.V14 m (outsTo4 m) c b) = Vin4 m :=
  funext fun c => funext fun b => by rw [stage4 m c]
theorem stage5 (c : Dev nD) : Gen.V15 m (outsTo5 m) c = Gen.V15 m (outs m) c := by
  simp only [Gen.V7, Gen.V8, Gen.V9, Gen.V10, Gen.V11, Gen.V12, Gen.V13, Gen.V14, Gen.V15] <;> rfl
theorem sfun5 : (fun (c : Dev nD) (b : Ref sig .tc) => Gen.V15 m (outsTo5 m) c b) = Vin5 m :=
  funext fun c => funext fun b => by rw [stage5 m c]
theorem stage6 (c : Dev nD) : Gen.V16 m (outsTo6 m) c = Gen.V16 m (outs m) c := by
  simp only [Gen.V7, Gen.V8, Gen.V9, Gen.V10, Gen.V11, Gen.V12, Gen.V13, Gen.V14, Gen.V15, Gen.V16] <;> rfl
theorem sfun6 : (fun (c : Dev nD) (b : Ref sig .tc) => Gen.V16 m (outsTo6 m) c b) = Vin6 m :=
  funext fun c => funext fun b => by rw [stage6 m c]
theorem stage7 (c : Dev nD) : Gen.V17 m (outsTo7 m) c = Gen.V17 m (outs m) c := by
  simp only [Gen.V7, Gen.V8, Gen.V9, Gen.V10, Gen.V11, Gen.V12, Gen.V13, Gen.V14, Gen.V15, Gen.V16, Gen.V17] <;> rfl
theorem sfun7 : (fun (c : Dev nD) (b : Ref sig .tc) => Gen.V17 m (outsTo7 m) c b) = Vin7 m :=
  funext fun c => funext fun b => by rw [stage7 m c]
theorem stage8 (c : Dev nD) : Gen.V18 m (outsTo8 m) c = Gen.V18 m (outs m) c := by
  simp only [Gen.V7, Gen.V8, Gen.V9, Gen.V10, Gen.V11, Gen.V12, Gen.V13, Gen.V14, Gen.V15, Gen.V16, Gen.V17, Gen.V18] <;> rfl
theorem sfun8 : (fun (c : Dev nD) (b : Ref sig .tc) => Gen.V18 m (outsTo8 m) c b) = Vin8 m :=
  funext fun c => funext fun b => by rw [stage8 m c]
theorem stage9 (c : Dev nD) : Gen.V19 m (outsTo9 m) c = Gen.V19 m (outs m) c := by
  simp only [Gen.V7, Gen.V8, Gen.V9, Gen.V10, Gen.V11, Gen.V12, Gen.V13, Gen.V14, Gen.V15, Gen.V16, Gen.V17, Gen.V18, Gen.V19] <;> rfl
theorem sfun9 : (fun (c : Dev nD) (b : Ref sig .tc) => Gen.V19 m (outsTo9 m) c b) = Vin9 m :=
  funext fun c => funext fun b => by rw [stage9 m c]
theorem stage10 (c : Dev nD) : Gen.V20 m (outsTo10 m) c = Gen.V20 m (outs m) c := by
  simp only [Gen.V7, Gen.V8, Gen.V9, Gen.V10, Gen.V11, Gen.V12, Gen.V13, Gen.V14, Gen.V15, Gen.V16, Gen.V17, Gen.V18, Gen.V19, Gen.V20] <;> rfl
theorem sfun10 : (fun (c : Dev nD) (b : Ref sig .tc) => Gen.V20 m (outsTo10 m) c b) = Vin10 m :=
  funext fun c => funext fun b => by rw [stage10 m c]
theorem stage11 (c : Dev nD) : Gen.V21 m (outsTo11 m) c = Gen.V21 m (outs m) c := by
  simp only [Gen.V7, Gen.V8, Gen.V9, Gen.V10, Gen.V11, Gen.V12, Gen.V13, Gen.V14, Gen.V15, Gen.V16, Gen.V17, Gen.V18, Gen.V19, Gen.V20, Gen.V21] <;> rfl
theorem sfun11 : (fun (c : Dev nD) (b : Ref sig .tc) => Gen.V21 m (outsTo11 m) c b) = Vin11 m :=
  funext fun c => funext fun b => by rw [stage11 m c]
theorem stage12 (c : Dev nD) : Gen.V22 m (outsTo12 m) c = Gen.V22 m (outs m) c := by
  simp only [Gen.V7, Gen.V8, Gen.V9, Gen.V10, Gen.V11, Gen.V12, Gen.V13, Gen.V14, Gen.V15, Gen.V16, Gen.V17, Gen.V18, Gen.V19, Gen.V20, Gen.V21, Gen.V22] <;> rfl
theorem sfun12 : (fun (c : Dev nD) (b : Ref sig .tc) => Gen.V22 m (outsTo12 m) c b) = Vin12 m :=
  funext fun c => funext fun b => by rw [stage12 m c]
theorem stage13 (c : Dev nD) : Gen.V25 m (outsTo13 m) c = Gen.V25 m (outs m) c := by
  simp only [Gen.V7, Gen.V8, Gen.V9, Gen.V10, Gen.V11, Gen.V12, Gen.V13, Gen.V14, Gen.V15, Gen.V16, Gen.V17, Gen.V18, Gen.V19, Gen.V20, Gen.V21, Gen.V22, Gen.V23, Gen.V24, Gen.V25] <;> rfl
theorem sfun13 : (fun (c : Dev nD) (b : Ref sig .tc) => Gen.V25 m (outsTo13 m) c b) = Vin13 m :=
  funext fun c => funext fun b => by rw [stage13 m c]

/-! ## The proof data family and what rides beside the buffers -/

/-- Every pipeline's proof data, each at its region's entry contents: a literal match, so that at a numeral it
    reduces to that region's data. -/
def pdats : (p : Fin 14) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c
  | ⟨6, _⟩ => fun c => dat6 (Vin6 m) c
  | ⟨7, _⟩ => fun c => dat7 (Vin7 m) c
  | ⟨8, _⟩ => fun c => dat8 (Vin8 m) c
  | ⟨9, _⟩ => fun c => dat9 (Vin9 m) c
  | ⟨10, _⟩ => fun c => dat10 (Vin10 m) c
  | ⟨11, _⟩ => fun c => dat11 (Vin11 m) c
  | ⟨12, _⟩ => fun c => dat12 (Vin12 m) c
  | ⟨13, _⟩ => fun c => dat13 (Vin13 m) c

/-- No variant. -/
abbrev 𝒱₀ : Variants := Variants.none
/-- No core owes another anything: no pair of a semaphore and an index carries a level. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)

/-! ## Each region's arrays at its exit, and the buffers it leaves alone -/

/-- At region 0's exit main_v6 holds what its pipeline folds in window 2. -/
theorem Vout0_2 (c : Dev nD) : Vout0 m c main_v6 = (dat0 (Vin0 m) c).arrAt 2 cfg0.N := by
  have e : Vout0 m c main_v6 = o7 m main_v6 c := by
    show Gen.V7 m (outs m) c main_v6 = _
    simp only [Gen.V7, Function.update_self] <;> rfl
  rw [e]
  exact Pipeline.withArrays_arr spec0 launch0.win.arr_inj c _ _ 2
set_option maxHeartbeats 1000000 in
/-- At region 0's exit each of its arrays holds what the pipeline leaves there: an input as entered (no item of
    the region writes it), an output its folded write-backs. (One case per window, each input's reference named so that
    its difference from the outputs' is decided on the names.) -/
theorem hF0 (c : Dev nD) (w : Fin cfg0.W) : (pdats m 0 c).arrAt w cfg0.N = Vout0 m c (Pipeline.arrRef spec0 w) := by
  have hin : ∀ w : Fin cfg0.W, (cfg0.win w).isOut = false → Pipeline.arrRef spec0 w ∉ ([main_v6] : List (Ref sig .tc)) →
      (dat0 (Vin0 m) c).arrAt w cfg0.N = Vout0 m c (Pipeline.arrRef spec0 w) := fun w h hn =>
    ((dat0 (Vin0 m) c).arrAt_in w h _).trans ((A_eq0 (Vin0 m) c w).trans (Gen.V7_of m (outs m) c _ hn).symm)
  revert w
  show ∀ w : Fin 3, (dat0 (Vin0 m) c).arrAt w cfg0.N = Vout0 m c (Pipeline.arrRef spec0 w)
  exact fun
    | 0 => hin 0 rfl (show (main_v1 : Ref sig .tc) ∉ ([main_v6] : List (Ref sig .tc)) from by decide)
    | 1 => hin 1 rfl (show (main_v5 : Ref sig .tc) ∉ ([main_v6] : List (Ref sig .tc)) from by decide)
    | 2 => (Vout0_2 m c).symm
    | ⟨_ + 3, h⟩ => absurd h (Nat.not_lt.2 (Nat.le_add_left _ _))
/-- Every buffer that is no array of region 0 is at its exit as at its entry. -/
theorem hrest0 (c : Dev nD) : ∀ b, b ∉ Finset.univ.image (Pipeline.arrRef spec0) → Vout0 m c b = Vin0 m c b :=
  fun b hb => Gen.V7_of m (outs m) c b fun h => by
    simp only [List.mem_cons, List.not_mem_nil, or_false] at h
    rcases h with rfl
    · exact hb (Finset.mem_image.mpr ⟨2, Finset.mem_univ _, rfl⟩)

/-- At region 1's exit main_v7 holds what its pipeline folds in window 2. -/
theorem Vout1_2 (c : Dev nD) : Vout1 m c main_v7 = (dat1 (Vin1 m) c).arrAt 2 cfg1.N := by
  have e : Vout1 m c main_v7 = o8 m main_v7 c := by
    show Gen.V8 m (outs m) c main_v7 = _
    simp only [Gen.V8, Function.update_self] <;> rfl
  rw [e, ← sfun1 m]
  exact Pipeline.withArrays_arr spec1 launch1.win.arr_inj c _ _ 2
set_option maxHeartbeats 1000000 in
/-- At region 1's exit each of its arrays holds what the pipeline leaves there: an input as entered (no item of
    the region writes it), an output its folded write-backs. (One case per window, each input's reference named so that
    its difference from the outputs' is decided on the names.) -/
theorem hF1 (c : Dev nD) (w : Fin cfg1.W) : (pdats m 1 c).arrAt w cfg1.N = Vout1 m c (Pipeline.arrRef spec1 w) := by
  have hin : ∀ w : Fin cfg1.W, (cfg1.win w).isOut = false → Pipeline.arrRef spec1 w ∉ ([main_v7] : List (Ref sig .tc)) →
      (dat1 (Vin1 m) c).arrAt w cfg1.N = Vout1 m c (Pipeline.arrRef spec1 w) := fun w h hn =>
    ((dat1 (Vin1 m) c).arrAt_in w h _).trans ((A_eq1 (Vin1 m) c w).trans (Gen.V8_of m (outs m) c _ hn).symm)
  revert w
  show ∀ w : Fin 3, (dat1 (Vin1 m) c).arrAt w cfg1.N = Vout1 m c (Pipeline.arrRef spec1 w)
  exact fun
    | 0 => hin 0 rfl (show (main_v3 : Ref sig .tc) ∉ ([main_v7] : List (Ref sig .tc)) from by decide)
    | 1 => hin 1 rfl (show (main_v5 : Ref sig .tc) ∉ ([main_v7] : List (Ref sig .tc)) from by decide)
    | 2 => (Vout1_2 m c).symm
    | ⟨_ + 3, h⟩ => absurd h (Nat.not_lt.2 (Nat.le_add_left _ _))
/-- Every buffer that is no array of region 1 is at its exit as at its entry. -/
theorem hrest1 (c : Dev nD) : ∀ b, b ∉ Finset.univ.image (Pipeline.arrRef spec1) → Vout1 m c b = Vin1 m c b :=
  fun b hb => Gen.V8_of m (outs m) c b fun h => by
    simp only [List.mem_cons, List.not_mem_nil, or_false] at h
    rcases h with rfl
    · exact hb (Finset.mem_image.mpr ⟨2, Finset.mem_univ _, rfl⟩)

/-- At region 2's exit main_v16 holds what its pipeline folds in window 4. -/
theorem Vout2_4 (c : Dev nD) : Vout2 m c main_v16 = (dat2 (Vin2 m) c).arrAt 4 cfg2.N := by
  have e : Vout2 m c main_v16 = o10 m main_v16 c := by
    show Gen.V10 m (outs m) c main_v16 = _
    simp only [Gen.V10, Function.update_self] <;> rfl
  rw [e, ← sfun2 m]
  exact Pipeline.withArrays_arr spec2 launch2.win.arr_inj c _ _ 4
set_option maxHeartbeats 1000000 in
/-- At region 2's exit each of its arrays holds what the pipeline leaves there: an input as entered (no item of
    the region writes it), an output its folded write-backs. (One case per window, each input's reference named so that
    its difference from the outputs' is decided on the names.) -/
theorem hF2 (c : Dev nD) (w : Fin cfg2.W) : (pdats m 2 c).arrAt w cfg2.N = Vout2 m c (Pipeline.arrRef spec2 w) := by
  have hin : ∀ w : Fin cfg2.W, (cfg2.win w).isOut = false → Pipeline.arrRef spec2 w ∉ ([main_v16] : List (Ref sig .tc)) →
      (dat2 (Vin2 m) c).arrAt w cfg2.N = Vout2 m c (Pipeline.arrRef spec2 w) := fun w h hn =>
    ((dat2 (Vin2 m) c).arrAt_in w h _).trans ((A_eq2 (Vin2 m) c w).trans (Gen.V10_of m (outs m) c _ hn).symm)
  revert w
  show ∀ w : Fin 5, (dat2 (Vin2 m) c).arrAt w cfg2.N = Vout2 m c (Pipeline.arrRef spec2 w)
  exact fun
    | 0 => hin 0 rfl (show (main_v6 : Ref sig .tc) ∉ ([main_v16] : List (Ref sig .tc)) from by decide)
    | 1 => hin 1 rfl (show (main_v9 : Ref sig .tc) ∉ ([main_v16] : List (Ref sig .tc)) from by decide)
    | 2 => hin 2 rfl (show (main_v10 : Ref sig .tc) ∉ ([main_v16] : List (Ref sig .tc)) from by decide)
    | 3 => hin 3 rfl (show (main_v8 : Ref sig .tc) ∉ ([main_v16] : List (Ref sig .tc)) from by decide)
    | 4 => (Vout2_4 m c).symm
    | ⟨_ + 5, h⟩ => absurd h (Nat.not_lt.2 (Nat.le_add_left _ _))
/-- Every buffer that is no array of region 2 is at its exit as at its entry. -/
theorem hrest2 (c : Dev nD) : ∀ b, b ∉ Finset.univ.image (Pipeline.arrRef spec2) → Vout2 m c b = Vin2 m c b :=
  fun b hb => Gen.V10_of m (outs m) c b fun h => by
    simp only [List.mem_cons, List.not_mem_nil, or_false] at h
    rcases h with rfl
    · exact hb (Finset.mem_image.mpr ⟨4, Finset.mem_univ _, rfl⟩)

/-- At region 3's exit main_v21_0 holds what its pipeline folds in window 5. -/
theorem Vout3_5 (c : Dev nD) : Vout3 m c main_v21_0 = (dat3 (Vin3 m) c).arrAt 5 cfg3.N := by
  have e : Vout3 m c main_v21_0 = o14 m main_v21_0 c := by
    show Gen.V14 m (outs m) c main_v21_0 = _
    simp only [Gen.V14, Function.update_of_ne (StableHlo.devRef_ne_of_ne (by decide) : (Proc.devRef .tc main_v21_0 : DevRef τ sig) ≠ Proc.devRef .tc main_v21_2), Function.update_of_ne (StableHlo.devRef_ne_of_ne (by decide) : (Proc.devRef .tc main_v21_0 : DevRef τ sig) ≠ Proc.devRef .tc main_v21_1), Function.update_self] <;> rfl
  rw [e, ← sfun3 m]
  exact Pipeline.withArrays_arr spec3 launch3.win.arr_inj c _ _ 5
/-- At region 3's exit main_v21_1 holds what its pipeline folds in window 6. -/
theorem Vout3_6 (c : Dev nD) : Vout3 m c main_v21_1 = (dat3 (Vin3 m) c).arrAt 6 cfg3.N := by
  have e : Vout3 m c main_v21_1 = o14 m main_v21_1 c := by
    show Gen.V14 m (outs m) c main_v21_1 = _
    simp only [Gen.V14, Function.update_of_ne (StableHlo.devRef_ne_of_ne (by decide) : (Proc.devRef .tc main_v21_1 : DevRef τ sig) ≠ Proc.devRef .tc main_v21_2), Function.update_self] <;> rfl
  rw [e, ← sfun3 m]
  exact Pipeline.withArrays_arr spec3 launch3.win.arr_inj c _ _ 6
/-- At region 3's exit main_v21_2 holds what its pipeline folds in window 7. -/
theorem Vout3_7 (c : Dev nD) : Vout3 m c main_v21_2 = (dat3 (Vin3 m) c).arrAt 7 cfg3.N := by
  have e : Vout3 m c main_v21_2 = o14 m main_v21_2 c := by
    show Gen.V14 m (outs m) c main_v21_2 = _
    simp only [Gen.V14, Function.update_self] <;> rfl
  rw [e, ← sfun3 m]
  exact Pipeline.withArrays_arr spec3 launch3.win.arr_inj c _ _ 7
set_option maxHeartbeats 1000000 in
/-- At region 3's exit each of its arrays holds what the pipeline leaves there: an input as entered (no item of
    the region writes it), an output its folded write-backs. (One case per window, each input's reference named so that
    its difference from the outputs' is decided on the names.) -/
theorem hF3 (c : Dev nD) (w : Fin cfg3.W) : (pdats m 3 c).arrAt w cfg3.N = Vout3 m c (Pipeline.arrRef spec3 w) := by
  have hin : ∀ w : Fin cfg3.W, (cfg3.win w).isOut = false → Pipeline.arrRef spec3 w ∉ ([main_v21_0, main_v21_1, main_v21_2] : List (Ref sig .tc)) →
      (dat3 (Vin3 m) c).arrAt w cfg3.N = Vout3 m c (Pipeline.arrRef spec3 w) := fun w h hn =>
    ((dat3 (Vin3 m) c).arrAt_in w h _).trans ((A_eq3 (Vin3 m) c w).trans (Gen.V14_of m (outs m) c _ hn).symm)
  revert w
  show ∀ w : Fin 8, (dat3 (Vin3 m) c).arrAt w cfg3.N = Vout3 m c (Pipeline.arrRef spec3 w)
  exact fun
    | 0 => hin 0 rfl (show (main_v20 : Ref sig .tc) ∉ ([main_v21_0, main_v21_1, main_v21_2] : List (Ref sig .tc)) from by decide)
    | 1 => hin 1 rfl (show (main_v11 : Ref sig .tc) ∉ ([main_v21_0, main_v21_1, main_v21_2] : List (Ref sig .tc)) from by decide)
    | 2 => hin 2 rfl (show (main_v12 : Ref sig .tc) ∉ ([main_v21_0, main_v21_1, main_v21_2] : List (Ref sig .tc)) from by decide)
    | 3 => hin 3 rfl (show (main_v13 : Ref sig .tc) ∉ ([main_v21_0, main_v21_1, main_v21_2] : List (Ref sig .tc)) from by decide)
    | 4 => hin 4 rfl (show (main_v18 : Ref sig .tc) ∉ ([main_v21_0, main_v21_1, main_v21_2] : List (Ref sig .tc)) from by decide)
    | 5 => (Vout3_5 m c).symm
    | 6 => (Vout3_6 m c).symm
    | 7 => (Vout3_7 m c).symm
    | ⟨_ + 8, h⟩ => absurd h (Nat.not_lt.2 (Nat.le_add_left _ _))
/-- Every buffer that is no array of region 3 is at its exit as at its entry. -/
theorem hrest3 (c : Dev nD) : ∀ b, b ∉ Finset.univ.image (Pipeline.arrRef spec3) → Vout3 m c b = Vin3 m c b :=
  fun b hb => Gen.V14_of m (outs m) c b fun h => by
    simp only [List.mem_cons, List.not_mem_nil, or_false] at h
    rcases h with rfl | rfl | rfl
    · exact hb (Finset.mem_image.mpr ⟨5, Finset.mem_univ _, rfl⟩)
    · exact hb (Finset.mem_image.mpr ⟨6, Finset.mem_univ _, rfl⟩)
    · exact hb (Finset.mem_image.mpr ⟨7, Finset.mem_univ _, rfl⟩)

/-- At region 4's exit main_v22 holds what its pipeline folds in window 7. -/
theorem Vout4_7 (c : Dev nD) : Vout4 m c main_v22 = (dat4 (Vin4 m) c).arrAt 7 cfg4.N := by
  have e : Vout4 m c main_v22 = o15 m main_v22 c := by
    show Gen.V15 m (outs m) c main_v22 = _
    simp only [Gen.V15, Function.update_self] <;> rfl
  rw [e, ← sfun4 m]
  exact Pipeline.withArrays_arr spec4 launch4.win.arr_inj c _ _ 7
set_option maxHeartbeats 1000000 in
/-- At region 4's exit each of its arrays holds what the pipeline leaves there: an input as entered (no item of
    the region writes it), an output its folded write-backs. (One case per window, each input's reference named so that
    its difference from the outputs' is decided on the names.) -/
theorem hF4 (c : Dev nD) (w : Fin cfg4.W) : (pdats m 4 c).arrAt w cfg4.N = Vout4 m c (Pipeline.arrRef spec4 w) := by
  have hin : ∀ w : Fin cfg4.W, (cfg4.win w).isOut = false → Pipeline.arrRef spec4 w ∉ ([main_v22] : List (Ref sig .tc)) →
      (dat4 (Vin4 m) c).arrAt w cfg4.N = Vout4 m c (Pipeline.arrRef spec4 w) := fun w h hn =>
    ((dat4 (Vin4 m) c).arrAt_in w h _).trans ((A_eq4 (Vin4 m) c w).trans (Gen.V15_of m (outs m) c _ hn).symm)
  revert w
  show ∀ w : Fin 8, (dat4 (Vin4 m) c).arrAt w cfg4.N = Vout4 m c (Pipeline.arrRef spec4 w)
  exact fun
    | 0 => hin 0 rfl (show (main_v21_0 : Ref sig .tc) ∉ ([main_v22] : List (Ref sig .tc)) from by decide)
    | 1 => hin 1 rfl (show (main_v21_1 : Ref sig .tc) ∉ ([main_v22] : List (Ref sig .tc)) from by decide)
    | 2 => hin 2 rfl (show (main_v21_2 : Ref sig .tc) ∉ ([main_v22] : List (Ref sig .tc)) from by decide)
    | 3 => hin 3 rfl (show (main_v14 : Ref sig .tc) ∉ ([main_v22] : List (Ref sig .tc)) from by decide)
    | 4 => hin 4 rfl (show (main_v15 : Ref sig .tc) ∉ ([main_v22] : List (Ref sig .tc)) from by decide)
    | 5 => hin 5 rfl (show (main_arg14 : Ref sig .tc) ∉ ([main_v22] : List (Ref sig .tc)) from by decide)
    | 6 => hin 6 rfl (show (main_arg15 : Ref sig .tc) ∉ ([main_v22] : List (Ref sig .tc)) from by decide)
    | 7 => (Vout4_7 m c).symm
    | ⟨_ + 8, h⟩ => absurd h (Nat.not_lt.2 (Nat.le_add_left _ _))
/-- Every buffer that is no array of region 4 is at its exit as at its entry. -/
theorem hrest4 (c : Dev nD) : ∀ b, b ∉ Finset.univ.image (Pipeline.arrRef spec4) → Vout4 m c b = Vin4 m c b :=
  fun b hb => Gen.V15_of m (outs m) c b fun h => by
    simp only [List.mem_cons, List.not_mem_nil, or_false] at h
    rcases h with rfl
    · exact hb (Finset.mem_image.mpr ⟨7, Finset.mem_univ _, rfl⟩)

/-- At region 5's exit main_v23_0 holds what its pipeline folds in window 5. -/
theorem Vout5_5 (c : Dev nD) : Vout5 m c main_v23_0 = (dat5 (Vin5 m) c).arrAt 5 cfg5.N := by
  have e : Vout5 m c main_v23_0 = o16 m main_v23_0 c := by
    show Gen.V16 m (outs m) c main_v23_0 = _
    simp only [Gen.V16, Function.update_of_ne (StableHlo.devRef_ne_of_ne (by decide) : (Proc.devRef .tc main_v23_0 : DevRef τ sig) ≠ Proc.devRef .tc main_v23_2), Function.update_of_ne (StableHlo.devRef_ne_of_ne (by decide) : (Proc.devRef .tc main_v23_0 : DevRef τ sig) ≠ Proc.devRef .tc main_v23_1), Function.update_self] <;> rfl
  rw [e, ← sfun5 m]
  exact Pipeline.withArrays_arr spec5 launch5.win.arr_inj c _ _ 5
/-- At region 5's exit main_v23_1 holds what its pipeline folds in window 6. -/
theorem Vout5_6 (c : Dev nD) : Vout5 m c main_v23_1 = (dat5 (Vin5 m) c).arrAt 6 cfg5.N := by
  have e : Vout5 m c main_v23_1 = o16 m main_v23_1 c := by
    show Gen.V16 m (outs m) c main_v23_1 = _
    simp only [Gen.V16, Function.update_of_ne (StableHlo.devRef_ne_of_ne (by decide) : (Proc.devRef .tc main_v23_1 : DevRef τ sig) ≠ Proc.devRef .tc main_v23_2), Function.update_self] <;> rfl
  rw [e, ← sfun5 m]
  exact Pipeline.withArrays_arr spec5 launch5.win.arr_inj c _ _ 6
/-- At region 5's exit main_v23_2 holds what its pipeline folds in window 7. -/
theorem Vout5_7 (c : Dev nD) : Vout5 m c main_v23_2 = (dat5 (Vin5 m) c).arrAt 7 cfg5.N := by
  have e : Vout5 m c main_v23_2 = o16 m main_v23_2 c := by
    show Gen.V16 m (outs m) c main_v23_2 = _
    simp only [Gen.V16, Function.update_self] <;> rfl
  rw [e, ← sfun5 m]
  exact Pipeline.withArrays_arr spec5 launch5.win.arr_inj c _ _ 7
set_option maxHeartbeats 1000000 in
/-- At region 5's exit each of its arrays holds what the pipeline leaves there: an input as entered (no item of
    the region writes it), an output its folded write-backs. (One case per window, each input's reference named so that
    its difference from the outputs' is decided on the names.) -/
theorem hF5 (c : Dev nD) (w : Fin cfg5.W) : (pdats m 5 c).arrAt w cfg5.N = Vout5 m c (Pipeline.arrRef spec5 w) := by
  have hin : ∀ w : Fin cfg5.W, (cfg5.win w).isOut = false → Pipeline.arrRef spec5 w ∉ ([main_v23_0, main_v23_1, main_v23_2] : List (Ref sig .tc)) →
      (dat5 (Vin5 m) c).arrAt w cfg5.N = Vout5 m c (Pipeline.arrRef spec5 w) := fun w h hn =>
    ((dat5 (Vin5 m) c).arrAt_in w h _).trans ((A_eq5 (Vin5 m) c w).trans (Gen.V16_of m (outs m) c _ hn).symm)
  revert w
  show ∀ w : Fin 8, (dat5 (Vin5 m) c).arrAt w cfg5.N = Vout5 m c (Pipeline.arrRef spec5 w)
  exact fun
    | 0 => hin 0 rfl (show (main_v22 : Ref sig .tc) ∉ ([main_v23_0, main_v23_1, main_v23_2] : List (Ref sig .tc)) from by decide)
    | 1 => hin 1 rfl (show (main_v11 : Ref sig .tc) ∉ ([main_v23_0, main_v23_1, main_v23_2] : List (Ref sig .tc)) from by decide)
    | 2 => hin 2 rfl (show (main_v12 : Ref sig .tc) ∉ ([main_v23_0, main_v23_1, main_v23_2] : List (Ref sig .tc)) from by decide)
    | 3 => hin 3 rfl (show (main_v13 : Ref sig .tc) ∉ ([main_v23_0, main_v23_1, main_v23_2] : List (Ref sig .tc)) from by decide)
    | 4 => hin 4 rfl (show (main_v18 : Ref sig .tc) ∉ ([main_v23_0, main_v23_1, main_v23_2] : List (Ref sig .tc)) from by decide)
    | 5 => (Vout5_5 m c).symm
    | 6 => (Vout5_6 m c).symm
    | 7 => (Vout5_7 m c).symm
    | ⟨_ + 8, h⟩ => absurd h (Nat.not_lt.2 (Nat.le_add_left _ _))
/-- Every buffer that is no array of region 5 is at its exit as at its entry. -/
theorem hrest5 (c : Dev nD) : ∀ b, b ∉ Finset.univ.image (Pipeline.arrRef spec5) → Vout5 m c b = Vin5 m c b :=
  fun b hb => Gen.V16_of m (outs m) c b fun h => by
    simp only [List.mem_cons, List.not_mem_nil, or_false] at h
    rcases h with rfl | rfl | rfl
    · exact hb (Finset.mem_image.mpr ⟨5, Finset.mem_univ _, rfl⟩)
    · exact hb (Finset.mem_image.mpr ⟨6, Finset.mem_univ _, rfl⟩)
    · exact hb (Finset.mem_image.mpr ⟨7, Finset.mem_univ _, rfl⟩)

/-- At region 6's exit main_v24 holds what its pipeline folds in window 7. -/
theorem Vout6_7 (c : Dev nD) : Vout6 m c main_v24 = (dat6 (Vin6 m) c).arrAt 7 cfg6.N := by
  have e : Vout6 m c main_v24 = o17 m main_v24 c := by
    show Gen.V17 m (outs m) c main_v24 = _
    simp only [Gen.V17, Function.update_self] <;> rfl
  rw [e, ← sfun6 m]
  exact Pipeline.withArrays_arr spec6 launch6.win.arr_inj c _ _ 7
set_option maxHeartbeats 1000000 in
/-- At region 6's exit each of its arrays holds what the pipeline leaves there: an input as entered (no item of
    the region writes it), an output its folded write-backs. (One case per window, each input's reference named so that
    its difference from the outputs' is decided on the names.) -/
theorem hF6 (c : Dev nD) (w : Fin cfg6.W) : (pdats m 6 c).arrAt w cfg6.N = Vout6 m c (Pipeline.arrRef spec6 w) := by
  have hin : ∀ w : Fin cfg6.W, (cfg6.win w).isOut = false → Pipeline.arrRef spec6 w ∉ ([main_v24] : List (Ref sig .tc)) →
      (dat6 (Vin6 m) c).arrAt w cfg6.N = Vout6 m c (Pipeline.arrRef spec6 w) := fun w h hn =>
    ((dat6 (Vin6 m) c).arrAt_in w h _).trans ((A_eq6 (Vin6 m) c w).trans (Gen.V17_of m (outs m) c _ hn).symm)
  revert w
  show ∀ w : Fin 8, (dat6 (Vin6 m) c).arrAt w cfg6.N = Vout6 m c (Pipeline.arrRef spec6 w)
  exact fun
    | 0 => hin 0 rfl (show (main_v23_0 : Ref sig .tc) ∉ ([main_v24] : List (Ref sig .tc)) from by decide)
    | 1 => hin 1 rfl (show (main_v23_1 : Ref sig .tc) ∉ ([main_v24] : List (Ref sig .tc)) from by decide)
    | 2 => hin 2 rfl (show (main_v23_2 : Ref sig .tc) ∉ ([main_v24] : List (Ref sig .tc)) from by decide)
    | 3 => hin 3 rfl (show (main_v14 : Ref sig .tc) ∉ ([main_v24] : List (Ref sig .tc)) from by decide)
    | 4 => hin 4 rfl (show (main_v15 : Ref sig .tc) ∉ ([main_v24] : List (Ref sig .tc)) from by decide)
    | 5 => hin 5 rfl (show (main_arg14 : Ref sig .tc) ∉ ([main_v24] : List (Ref sig .tc)) from by decide)
    | 6 => hin 6 rfl (show (main_arg15 : Ref sig .tc) ∉ ([main_v24] : List (Ref sig .tc)) from by decide)
    | 7 => (Vout6_7 m c).symm
    | ⟨_ + 8, h⟩ => absurd h (Nat.not_lt.2 (Nat.le_add_left _ _))
/-- Every buffer that is no array of region 6 is at its exit as at its entry. -/
theorem hrest6 (c : Dev nD) : ∀ b, b ∉ Finset.univ.image (Pipeline.arrRef spec6) → Vout6 m c b = Vin6 m c b :=
  fun b hb => Gen.V17_of m (outs m) c b fun h => by
    simp only [List.mem_cons, List.not_mem_nil, or_false] at h
    rcases h with rfl
    · exact hb (Finset.mem_image.mpr ⟨7, Finset.mem_univ _, rfl⟩)

/-- At region 7's exit main_v25_0 holds what its pipeline folds in window 5. -/
theorem Vout7_5 (c : Dev nD) : Vout7 m c main_v25_0 = (dat7 (Vin7 m) c).arrAt 5 cfg7.N := by
  have e : Vout7 m c main_v25_0 = o18 m main_v25_0 c := by
    show Gen.V18 m (outs m) c main_v25_0 = _
    simp only [Gen.V18, Function.update_of_ne (StableHlo.devRef_ne_of_ne (by decide) : (Proc.devRef .tc main_v25_0 : DevRef τ sig) ≠ Proc.devRef .tc main_v25_2), Function.update_of_ne (StableHlo.devRef_ne_of_ne (by decide) : (Proc.devRef .tc main_v25_0 : DevRef τ sig) ≠ Proc.devRef .tc main_v25_1), Function.update_self] <;> rfl
  rw [e, ← sfun7 m]
  exact Pipeline.withArrays_arr spec7 launch7.win.arr_inj c _ _ 5
/-- At region 7's exit main_v25_1 holds what its pipeline folds in window 6. -/
theorem Vout7_6 (c : Dev nD) : Vout7 m c main_v25_1 = (dat7 (Vin7 m) c).arrAt 6 cfg7.N := by
  have e : Vout7 m c main_v25_1 = o18 m main_v25_1 c := by
    show Gen.V18 m (outs m) c main_v25_1 = _
    simp only [Gen.V18, Function.update_of_ne (StableHlo.devRef_ne_of_ne (by decide) : (Proc.devRef .tc main_v25_1 : DevRef τ sig) ≠ Proc.devRef .tc main_v25_2), Function.update_self] <;> rfl
  rw [e, ← sfun7 m]
  exact Pipeline.withArrays_arr spec7 launch7.win.arr_inj c _ _ 6
/-- At region 7's exit main_v25_2 holds what its pipeline folds in window 7. -/
theorem Vout7_7 (c : Dev nD) : Vout7 m c main_v25_2 = (dat7 (Vin7 m) c).arrAt 7 cfg7.N := by
  have e : Vout7 m c main_v25_2 = o18 m main_v25_2 c := by
    show Gen.V18 m (outs m) c main_v25_2 = _
    simp only [Gen.V18, Function.update_self] <;> rfl
  rw [e, ← sfun7 m]
  exact Pipeline.withArrays_arr spec7 launch7.win.arr_inj c _ _ 7
set_option maxHeartbeats 1000000 in
/-- At region 7's exit each of its arrays holds what the pipeline leaves there: an input as entered (no item of
    the region writes it), an output its folded write-backs. (One case per window, each input's reference named so that
    its difference from the outputs' is decided on the names.) -/
theorem hF7 (c : Dev nD) (w : Fin cfg7.W) : (pdats m 7 c).arrAt w cfg7.N = Vout7 m c (Pipeline.arrRef spec7 w) := by
  have hin : ∀ w : Fin cfg7.W, (cfg7.win w).isOut = false → Pipeline.arrRef spec7 w ∉ ([main_v25_0, main_v25_1, main_v25_2] : List (Ref sig .tc)) →
      (dat7 (Vin7 m) c).arrAt w cfg7.N = Vout7 m c (Pipeline.arrRef spec7 w) := fun w h hn =>
    ((dat7 (Vin7 m) c).arrAt_in w h _).trans ((A_eq7 (Vin7 m) c w).trans (Gen.V18_of m (outs m) c _ hn).symm)
  revert w
  show ∀ w : Fin 8, (dat7 (Vin7 m) c).arrAt w cfg7.N = Vout7 m c (Pipeline.arrRef spec7 w)
  exact fun
    | 0 => hin 0 rfl (show (main_v24 : Ref sig .tc) ∉ ([main_v25_0, main_v25_1, main_v25_2] : List (Ref sig .tc)) from by decide)
    | 1 => hin 1 rfl (show (main_v11 : Ref sig .tc) ∉ ([main_v25_0, main_v25_1, main_v25_2] : List (Ref sig .tc)) from by decide)
    | 2 => hin 2 rfl (show (main_v12 : Ref sig .tc) ∉ ([main_v25_0, main_v25_1, main_v25_2] : List (Ref sig .tc)) from by decide)
    | 3 => hin 3 rfl (show (main_v13 : Ref sig .tc) ∉ ([main_v25_0, main_v25_1, main_v25_2] : List (Ref sig .tc)) from by decide)
    | 4 => hin 4 rfl (show (main_v18 : Ref sig .tc) ∉ ([main_v25_0, main_v25_1, main_v25_2] : List (Ref sig .tc)) from by decide)
    | 5 => (Vout7_5 m c).symm
    | 6 => (Vout7_6 m c).symm
    | 7 => (Vout7_7 m c).symm
    | ⟨_ + 8, h⟩ => absurd h (Nat.not_lt.2 (Nat.le_add_left _ _))
/-- Every buffer that is no array of region 7 is at its exit as at its entry. -/
theorem hrest7 (c : Dev nD) : ∀ b, b ∉ Finset.univ.image (Pipeline.arrRef spec7) → Vout7 m c b = Vin7 m c b :=
  fun b hb => Gen.V18_of m (outs m) c b fun h => by
    simp only [List.mem_cons, List.not_mem_nil, or_false] at h
    rcases h with rfl | rfl | rfl
    · exact hb (Finset.mem_image.mpr ⟨5, Finset.mem_univ _, rfl⟩)
    · exact hb (Finset.mem_image.mpr ⟨6, Finset.mem_univ _, rfl⟩)
    · exact hb (Finset.mem_image.mpr ⟨7, Finset.mem_univ _, rfl⟩)

/-- At region 8's exit main_v26 holds what its pipeline folds in window 7. -/
theorem Vout8_7 (c : Dev nD) : Vout8 m c main_v26 = (dat8 (Vin8 m) c).arrAt 7 cfg8.N := by
  have e : Vout8 m c main_v26 = o19 m main_v26 c := by
    show Gen.V19 m (outs m) c main_v26 = _
    simp only [Gen.V19, Function.update_self] <;> rfl
  rw [e, ← sfun8 m]
  exact Pipeline.withArrays_arr spec8 launch8.win.arr_inj c _ _ 7
set_option maxHeartbeats 1000000 in
/-- At region 8's exit each of its arrays holds what the pipeline leaves there: an input as entered (no item of
    the region writes it), an output its folded write-backs. (One case per window, each input's reference named so that
    its difference from the outputs' is decided on the names.) -/
theorem hF8 (c : Dev nD) (w : Fin cfg8.W) : (pdats m 8 c).arrAt w cfg8.N = Vout8 m c (Pipeline.arrRef spec8 w) := by
  have hin : ∀ w : Fin cfg8.W, (cfg8.win w).isOut = false → Pipeline.arrRef spec8 w ∉ ([main_v26] : List (Ref sig .tc)) →
      (dat8 (Vin8 m) c).arrAt w cfg8.N = Vout8 m c (Pipeline.arrRef spec8 w) := fun w h hn =>
    ((dat8 (Vin8 m) c).arrAt_in w h _).trans ((A_eq8 (Vin8 m) c w).trans (Gen.V19_of m (outs m) c _ hn).symm)
  revert w
  show ∀ w : Fin 8, (dat8 (Vin8 m) c).arrAt w cfg8.N = Vout8 m c (Pipeline.arrRef spec8 w)
  exact fun
    | 0 => hin 0 rfl (show (main_v25_0 : Ref sig .tc) ∉ ([main_v26] : List (Ref sig .tc)) from by decide)
    | 1 => hin 1 rfl (show (main_v25_1 : Ref sig .tc) ∉ ([main_v26] : List (Ref sig .tc)) from by decide)
    | 2 => hin 2 rfl (show (main_v25_2 : Ref sig .tc) ∉ ([main_v26] : List (Ref sig .tc)) from by decide)
    | 3 => hin 3 rfl (show (main_v14 : Ref sig .tc) ∉ ([main_v26] : List (Ref sig .tc)) from by decide)
    | 4 => hin 4 rfl (show (main_v15 : Ref sig .tc) ∉ ([main_v26] : List (Ref sig .tc)) from by decide)
    | 5 => hin 5 rfl (show (main_arg14 : Ref sig .tc) ∉ ([main_v26] : List (Ref sig .tc)) from by decide)
    | 6 => hin 6 rfl (show (main_arg15 : Ref sig .tc) ∉ ([main_v26] : List (Ref sig .tc)) from by decide)
    | 7 => (Vout8_7 m c).symm
    | ⟨_ + 8, h⟩ => absurd h (Nat.not_lt.2 (Nat.le_add_left _ _))
/-- Every buffer that is no array of region 8 is at its exit as at its entry. -/
theorem hrest8 (c : Dev nD) : ∀ b, b ∉ Finset.univ.image (Pipeline.arrRef spec8) → Vout8 m c b = Vin8 m c b :=
  fun b hb => Gen.V19_of m (outs m) c b fun h => by
    simp only [List.mem_cons, List.not_mem_nil, or_false] at h
    rcases h with rfl
    · exact hb (Finset.mem_image.mpr ⟨7, Finset.mem_univ _, rfl⟩)

/-- At region 9's exit main_v27_0 holds what its pipeline folds in window 5. -/
theorem Vout9_5 (c : Dev nD) : Vout9 m c main_v27_0 = (dat9 (Vin9 m) c).arrAt 5 cfg9.N := by
  have e : Vout9 m c main_v27_0 = o20 m main_v27_0 c := by
    show Gen.V20 m (outs m) c main_v27_0 = _
    simp only [Gen.V20, Function.update_of_ne (StableHlo.devRef_ne_of_ne (by decide) : (Proc.devRef .tc main_v27_0 : DevRef τ sig) ≠ Proc.devRef .tc main_v27_2), Function.update_of_ne (StableHlo.devRef_ne_of_ne (by decide) : (Proc.devRef .tc main_v27_0 : DevRef τ sig) ≠ Proc.devRef .tc main_v27_1), Function.update_self] <;> rfl
  rw [e, ← sfun9 m]
  exact Pipeline.withArrays_arr spec9 launch9.win.arr_inj c _ _ 5
/-- At region 9's exit main_v27_1 holds what its pipeline folds in window 6. -/
theorem Vout9_6 (c : Dev nD) : Vout9 m c main_v27_1 = (dat9 (Vin9 m) c).arrAt 6 cfg9.N := by
  have e : Vout9 m c main_v27_1 = o20 m main_v27_1 c := by
    show Gen.V20 m (outs m) c main_v27_1 = _
    simp only [Gen.V20, Function.update_of_ne (StableHlo.devRef_ne_of_ne (by decide) : (Proc.devRef .tc main_v27_1 : DevRef τ sig) ≠ Proc.devRef .tc main_v27_2), Function.update_self] <;> rfl
  rw [e, ← sfun9 m]
  exact Pipeline.withArrays_arr spec9 launch9.win.arr_inj c _ _ 6
/-- At region 9's exit main_v27_2 holds what its pipeline folds in window 7. -/
theorem Vout9_7 (c : Dev nD) : Vout9 m c main_v27_2 = (dat9 (Vin9 m) c).arrAt 7 cfg9.N := by
  have e : Vout9 m c main_v27_2 = o20 m main_v27_2 c := by
    show Gen.V20 m (outs m) c main_v27_2 = _
    simp only [Gen.V20, Function.update_self] <;> rfl
  rw [e, ← sfun9 m]
  exact Pipeline.withArrays_arr spec9 launch9.win.arr_inj c _ _ 7
set_option maxHeartbeats 1000000 in
/-- At region 9's exit each of its arrays holds what the pipeline leaves there: an input as entered (no item of
    the region writes it), an output its folded write-backs. (One case per window, each input's reference named so that
    its difference from the outputs' is decided on the names.) -/
theorem hF9 (c : Dev nD) (w : Fin cfg9.W) : (pdats m 9 c).arrAt w cfg9.N = Vout9 m c (Pipeline.arrRef spec9 w) := by
  have hin : ∀ w : Fin cfg9.W, (cfg9.win w).isOut = false → Pipeline.arrRef spec9 w ∉ ([main_v27_0, main_v27_1, main_v27_2] : List (Ref sig .tc)) →
      (dat9 (Vin9 m) c).arrAt w cfg9.N = Vout9 m c (Pipeline.arrRef spec9 w) := fun w h hn =>
    ((dat9 (Vin9 m) c).arrAt_in w h _).trans ((A_eq9 (Vin9 m) c w).trans (Gen.V20_of m (outs m) c _ hn).symm)
  revert w
  show ∀ w : Fin 8, (dat9 (Vin9 m) c).arrAt w cfg9.N = Vout9 m c (Pipeline.arrRef spec9 w)
  exact fun
    | 0 => hin 0 rfl (show (main_v26 : Ref sig .tc) ∉ ([main_v27_0, main_v27_1, main_v27_2] : List (Ref sig .tc)) from by decide)
    | 1 => hin 1 rfl (show (main_v11 : Ref sig .tc) ∉ ([main_v27_0, main_v27_1, main_v27_2] : List (Ref sig .tc)) from by decide)
    | 2 => hin 2 rfl (show (main_v12 : Ref sig .tc) ∉ ([main_v27_0, main_v27_1, main_v27_2] : List (Ref sig .tc)) from by decide)
    | 3 => hin 3 rfl (show (main_v13 : Ref sig .tc) ∉ ([main_v27_0, main_v27_1, main_v27_2] : List (Ref sig .tc)) from by decide)
    | 4 => hin 4 rfl (show (main_v18 : Ref sig .tc) ∉ ([main_v27_0, main_v27_1, main_v27_2] : List (Ref sig .tc)) from by decide)
    | 5 => (Vout9_5 m c).symm
    | 6 => (Vout9_6 m c).symm
    | 7 => (Vout9_7 m c).symm
    | ⟨_ + 8, h⟩ => absurd h (Nat.not_lt.2 (Nat.le_add_left _ _))
/-- Every buffer that is no array of region 9 is at its exit as at its entry. -/
theorem hrest9 (c : Dev nD) : ∀ b, b ∉ Finset.univ.image (Pipeline.arrRef spec9) → Vout9 m c b = Vin9 m c b :=
  fun b hb => Gen.V20_of m (outs m) c b fun h => by
    simp only [List.mem_cons, List.not_mem_nil, or_false] at h
    rcases h with rfl | rfl | rfl
    · exact hb (Finset.mem_image.mpr ⟨5, Finset.mem_univ _, rfl⟩)
    · exact hb (Finset.mem_image.mpr ⟨6, Finset.mem_univ _, rfl⟩)
    · exact hb (Finset.mem_image.mpr ⟨7, Finset.mem_univ _, rfl⟩)

/-- At region 10's exit main_v28 holds what its pipeline folds in window 7. -/
theorem Vout10_7 (c : Dev nD) : Vout10 m c main_v28 = (dat10 (Vin10 m) c).arrAt 7 cfg10.N := by
  have e : Vout10 m c main_v28 = o21 m main_v28 c := by
    show Gen.V21 m (outs m) c main_v28 = _
    simp only [Gen.V21, Function.update_self] <;> rfl
  rw [e, ← sfun10 m]
  exact Pipeline.withArrays_arr spec10 launch10.win.arr_inj c _ _ 7
set_option maxHeartbeats 1000000 in
/-- At region 10's exit each of its arrays holds what the pipeline leaves there: an input as entered (no item of
    the region writes it), an output its folded write-backs. (One case per window, each input's reference named so that
    its difference from the outputs' is decided on the names.) -/
theorem hF10 (c : Dev nD) (w : Fin cfg10.W) : (pdats m 10 c).arrAt w cfg10.N = Vout10 m c (Pipeline.arrRef spec10 w) := by
  have hin : ∀ w : Fin cfg10.W, (cfg10.win w).isOut = false → Pipeline.arrRef spec10 w ∉ ([main_v28] : List (Ref sig .tc)) →
      (dat10 (Vin10 m) c).arrAt w cfg10.N = Vout10 m c (Pipeline.arrRef spec10 w) := fun w h hn =>
    ((dat10 (Vin10 m) c).arrAt_in w h _).trans ((A_eq10 (Vin10 m) c w).trans (Gen.V21_of m (outs m) c _ hn).symm)
  revert w
  show ∀ w : Fin 8, (dat10 (Vin10 m) c).arrAt w cfg10.N = Vout10 m c (Pipeline.arrRef spec10 w)
  exact fun
    | 0 => hin 0 rfl (show (main_v27_0 : Ref sig .tc) ∉ ([main_v28] : List (Ref sig .tc)) from by decide)
    | 1 => hin 1 rfl (show (main_v27_1 : Ref sig .tc) ∉ ([main_v28] : List (Ref sig .tc)) from by decide)
    | 2 => hin 2 rfl (show (main_v27_2 : Ref sig .tc) ∉ ([main_v28] : List (Ref sig .tc)) from by decide)
    | 3 => hin 3 rfl (show (main_v14 : Ref sig .tc) ∉ ([main_v28] : List (Ref sig .tc)) from by decide)
    | 4 => hin 4 rfl (show (main_v15 : Ref sig .tc) ∉ ([main_v28] : List (Ref sig .tc)) from by decide)
    | 5 => hin 5 rfl (show (main_arg14 : Ref sig .tc) ∉ ([main_v28] : List (Ref sig .tc)) from by decide)
    | 6 => hin 6 rfl (show (main_arg15 : Ref sig .tc) ∉ ([main_v28] : List (Ref sig .tc)) from by decide)
    | 7 => (Vout10_7 m c).symm
    | ⟨_ + 8, h⟩ => absurd h (Nat.not_lt.2 (Nat.le_add_left _ _))
/-- Every buffer that is no array of region 10 is at its exit as at its entry. -/
theorem hrest10 (c : Dev nD) : ∀ b, b ∉ Finset.univ.image (Pipeline.arrRef spec10) → Vout10 m c b = Vin10 m c b :=
  fun b hb => Gen.V21_of m (outs m) c b fun h => by
    simp only [List.mem_cons, List.not_mem_nil, or_false] at h
    rcases h with rfl
    · exact hb (Finset.mem_image.mpr ⟨7, Finset.mem_univ _, rfl⟩)

/-- At region 11's exit main_v29_0 holds what its pipeline folds in window 5. -/
theorem Vout11_5 (c : Dev nD) : Vout11 m c main_v29_0 = (dat11 (Vin11 m) c).arrAt 5 cfg11.N := by
  have e : Vout11 m c main_v29_0 = o22 m main_v29_0 c := by
    show Gen.V22 m (outs m) c main_v29_0 = _
    simp only [Gen.V22, Function.update_of_ne (StableHlo.devRef_ne_of_ne (by decide) : (Proc.devRef .tc main_v29_0 : DevRef τ sig) ≠ Proc.devRef .tc main_v29_2), Function.update_of_ne (StableHlo.devRef_ne_of_ne (by decide) : (Proc.devRef .tc main_v29_0 : DevRef τ sig) ≠ Proc.devRef .tc main_v29_1), Function.update_self] <;> rfl
  rw [e, ← sfun11 m]
  exact Pipeline.withArrays_arr spec11 launch11.win.arr_inj c _ _ 5
/-- At region 11's exit main_v29_1 holds what its pipeline folds in window 6. -/
theorem Vout11_6 (c : Dev nD) : Vout11 m c main_v29_1 = (dat11 (Vin11 m) c).arrAt 6 cfg11.N := by
  have e : Vout11 m c main_v29_1 = o22 m main_v29_1 c := by
    show Gen.V22 m (outs m) c main_v29_1 = _
    simp only [Gen.V22, Function.update_of_ne (StableHlo.devRef_ne_of_ne (by decide) : (Proc.devRef .tc main_v29_1 : DevRef τ sig) ≠ Proc.devRef .tc main_v29_2), Function.update_self] <;> rfl
  rw [e, ← sfun11 m]
  exact Pipeline.withArrays_arr spec11 launch11.win.arr_inj c _ _ 6
/-- At region 11's exit main_v29_2 holds what its pipeline folds in window 7. -/
theorem Vout11_7 (c : Dev nD) : Vout11 m c main_v29_2 = (dat11 (Vin11 m) c).arrAt 7 cfg11.N := by
  have e : Vout11 m c main_v29_2 = o22 m main_v29_2 c := by
    show Gen.V22 m (outs m) c main_v29_2 = _
    simp only [Gen.V22, Function.update_self] <;> rfl
  rw [e, ← sfun11 m]
  exact Pipeline.withArrays_arr spec11 launch11.win.arr_inj c _ _ 7
set_option maxHeartbeats 1000000 in
/-- At region 11's exit each of its arrays holds what the pipeline leaves there: an input as entered (no item of
    the region writes it), an output its folded write-backs. (One case per window, each input's reference named so that
    its difference from the outputs' is decided on the names.) -/
theorem hF11 (c : Dev nD) (w : Fin cfg11.W) : (pdats m 11 c).arrAt w cfg11.N = Vout11 m c (Pipeline.arrRef spec11 w) := by
  have hin : ∀ w : Fin cfg11.W, (cfg11.win w).isOut = false → Pipeline.arrRef spec11 w ∉ ([main_v29_0, main_v29_1, main_v29_2] : List (Ref sig .tc)) →
      (dat11 (Vin11 m) c).arrAt w cfg11.N = Vout11 m c (Pipeline.arrRef spec11 w) := fun w h hn =>
    ((dat11 (Vin11 m) c).arrAt_in w h _).trans ((A_eq11 (Vin11 m) c w).trans (Gen.V22_of m (outs m) c _ hn).symm)
  revert w
  show ∀ w : Fin 8, (dat11 (Vin11 m) c).arrAt w cfg11.N = Vout11 m c (Pipeline.arrRef spec11 w)
  exact fun
    | 0 => hin 0 rfl (show (main_v28 : Ref sig .tc) ∉ ([main_v29_0, main_v29_1, main_v29_2] : List (Ref sig .tc)) from by decide)
    | 1 => hin 1 rfl (show (main_v11 : Ref sig .tc) ∉ ([main_v29_0, main_v29_1, main_v29_2] : List (Ref sig .tc)) from by decide)
    | 2 => hin 2 rfl (show (main_v12 : Ref sig .tc) ∉ ([main_v29_0, main_v29_1, main_v29_2] : List (Ref sig .tc)) from by decide)
    | 3 => hin 3 rfl (show (main_v13 : Ref sig .tc) ∉ ([main_v29_0, main_v29_1, main_v29_2] : List (Ref sig .tc)) from by decide)
    | 4 => hin 4 rfl (show (main_v18 : Ref sig .tc) ∉ ([main_v29_0, main_v29_1, main_v29_2] : List (Ref sig .tc)) from by decide)
    | 5 => (Vout11_5 m c).symm
    | 6 => (Vout11_6 m c).symm
    | 7 => (Vout11_7 m c).symm
    | ⟨_ + 8, h⟩ => absurd h (Nat.not_lt.2 (Nat.le_add_left _ _))
/-- Every buffer that is no array of region 11 is at its exit as at its entry. -/
theorem hrest11 (c : Dev nD) : ∀ b, b ∉ Finset.univ.image (Pipeline.arrRef spec11) → Vout11 m c b = Vin11 m c b :=
  fun b hb => Gen.V22_of m (outs m) c b fun h => by
    simp only [List.mem_cons, List.not_mem_nil, or_false] at h
    rcases h with rfl | rfl | rfl
    · exact hb (Finset.mem_image.mpr ⟨5, Finset.mem_univ _, rfl⟩)
    · exact hb (Finset.mem_image.mpr ⟨6, Finset.mem_univ _, rfl⟩)
    · exact hb (Finset.mem_image.mpr ⟨7, Finset.mem_univ _, rfl⟩)

/-- At region 12's exit main_v30 holds what its pipeline folds in window 7. -/
theorem Vout12_7 (c : Dev nD) : Vout12 m c main_v30 = (dat12 (Vin12 m) c).arrAt 7 cfg12.N := by
  have e : Vout12 m c main_v30 = o23 m main_v30 c := by
    show Gen.V23 m (outs m) c main_v30 = _
    simp only [Gen.V23, Function.update_self] <;> rfl
  rw [e, ← sfun12 m]
  exact Pipeline.withArrays_arr spec12 launch12.win.arr_inj c _ _ 7
set_option maxHeartbeats 1000000 in
/-- At region 12's exit each of its arrays holds what the pipeline leaves there: an input as entered (no item of
    the region writes it), an output its folded write-backs. (One case per window, each input's reference named so that
    its difference from the outputs' is decided on the names.) -/
theorem hF12 (c : Dev nD) (w : Fin cfg12.W) : (pdats m 12 c).arrAt w cfg12.N = Vout12 m c (Pipeline.arrRef spec12 w) := by
  have hin : ∀ w : Fin cfg12.W, (cfg12.win w).isOut = false → Pipeline.arrRef spec12 w ∉ ([main_v30] : List (Ref sig .tc)) →
      (dat12 (Vin12 m) c).arrAt w cfg12.N = Vout12 m c (Pipeline.arrRef spec12 w) := fun w h hn =>
    ((dat12 (Vin12 m) c).arrAt_in w h _).trans ((A_eq12 (Vin12 m) c w).trans (Gen.V23_of m (outs m) c _ hn).symm)
  revert w
  show ∀ w : Fin 8, (dat12 (Vin12 m) c).arrAt w cfg12.N = Vout12 m c (Pipeline.arrRef spec12 w)
  exact fun
    | 0 => hin 0 rfl (show (main_v29_0 : Ref sig .tc) ∉ ([main_v30] : List (Ref sig .tc)) from by decide)
    | 1 => hin 1 rfl (show (main_v29_1 : Ref sig .tc) ∉ ([main_v30] : List (Ref sig .tc)) from by decide)
    | 2 => hin 2 rfl (show (main_v29_2 : Ref sig .tc) ∉ ([main_v30] : List (Ref sig .tc)) from by decide)
    | 3 => hin 3 rfl (show (main_v14 : Ref sig .tc) ∉ ([main_v30] : List (Ref sig .tc)) from by decide)
    | 4 => hin 4 rfl (show (main_v15 : Ref sig .tc) ∉ ([main_v30] : List (Ref sig .tc)) from by decide)
    | 5 => hin 5 rfl (show (main_arg14 : Ref sig .tc) ∉ ([main_v30] : List (Ref sig .tc)) from by decide)
    | 6 => hin 6 rfl (show (main_arg15 : Ref sig .tc) ∉ ([main_v30] : List (Ref sig .tc)) from by decide)
    | 7 => (Vout12_7 m c).symm
    | ⟨_ + 8, h⟩ => absurd h (Nat.not_lt.2 (Nat.le_add_left _ _))
/-- Every buffer that is no array of region 12 is at its exit as at its entry. -/
theorem hrest12 (c : Dev nD) : ∀ b, b ∉ Finset.univ.image (Pipeline.arrRef spec12) → Vout12 m c b = Vin12 m c b :=
  fun b hb => Gen.V23_of m (outs m) c b fun h => by
    simp only [List.mem_cons, List.not_mem_nil, or_false] at h
    rcases h with rfl
    · exact hb (Finset.mem_image.mpr ⟨7, Finset.mem_univ _, rfl⟩)

/-- At region 13's exit main_v34 holds what its pipeline folds in window 7. -/
theorem Vout13_7 (c : Dev nD) : Vout13 m c main_v34 = (dat13 (Vin13 m) c).arrAt 7 cfg13.N := by
  have e : Vout13 m c main_v34 = o26 m main_v34 c := by
    show Gen.V26 m (outs m) c main_v34 = _
    simp only [Gen.V26, Function.update_self] <;> rfl
  rw [e, ← sfun13 m]
  exact Pipeline.withArrays_arr spec13 launch13.win.arr_inj c _ _ 7
set_option maxHeartbeats 1000000 in
/-- At region 13's exit each of its arrays holds what the pipeline leaves there: an input as entered (no item of
    the region writes it), an output its folded write-backs. (One case per window, each input's reference named so that
    its difference from the outputs' is decided on the names.) -/
theorem hF13 (c : Dev nD) (w : Fin cfg13.W) : (pdats m 13 c).arrAt w cfg13.N = Vout13 m c (Pipeline.arrRef spec13 w) := by
  have hin : ∀ w : Fin cfg13.W, (cfg13.win w).isOut = false → Pipeline.arrRef spec13 w ∉ ([main_v34] : List (Ref sig .tc)) →
      (dat13 (Vin13 m) c).arrAt w cfg13.N = Vout13 m c (Pipeline.arrRef spec13 w) := fun w h hn =>
    ((dat13 (Vin13 m) c).arrAt_in w h _).trans ((A_eq13 (Vin13 m) c w).trans (Gen.V26_of m (outs m) c _ hn).symm)
  revert w
  show ∀ w : Fin 8, (dat13 (Vin13 m) c).arrAt w cfg13.N = Vout13 m c (Pipeline.arrRef spec13 w)
  exact fun
    | 0 => hin 0 rfl (show (main_v30 : Ref sig .tc) ∉ ([main_v34] : List (Ref sig .tc)) from by decide)
    | 1 => hin 1 rfl (show (main_v16 : Ref sig .tc) ∉ ([main_v34] : List (Ref sig .tc)) from by decide)
    | 2 => hin 2 rfl (show (main_v6 : Ref sig .tc) ∉ ([main_v34] : List (Ref sig .tc)) from by decide)
    | 3 => hin 3 rfl (show (main_v7 : Ref sig .tc) ∉ ([main_v34] : List (Ref sig .tc)) from by decide)
    | 4 => hin 4 rfl (show (main_v31 : Ref sig .tc) ∉ ([main_v34] : List (Ref sig .tc)) from by decide)
    | 5 => hin 5 rfl (show (main_arg6 : Ref sig .tc) ∉ ([main_v34] : List (Ref sig .tc)) from by decide)
    | 6 => hin 6 rfl (show (main_v33 : Ref sig .tc) ∉ ([main_v34] : List (Ref sig .tc)) from by decide)
    | 7 => (Vout13_7 m c).symm
    | ⟨_ + 8, h⟩ => absurd h (Nat.not_lt.2 (Nat.le_add_left _ _))
/-- Every buffer that is no array of region 13 is at its exit as at its entry. -/
theorem hrest13 (c : Dev nD) : ∀ b, b ∉ Finset.univ.image (Pipeline.arrRef spec13) → Vout13 m c b = Vin13 m c b :=
  fun b hb => Gen.V26_of m (outs m) c b fun h => by
    simp only [List.mem_cons, List.not_mem_nil, or_false] at h
    rcases h with rfl
    · exact hb (Finset.mem_image.mpr ⟨7, Finset.mem_univ _, rfl⟩)

end Cert.Kernel.Hand

end
-- ==== Proof.KB.Seg0.lean ====
/- Region 0 (the blocked matrix-product call E = S·M, sequence matrix times table) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 0 over the thread state: entered from every unscoped buffer at `Gen.V6`, left at `Gen.V7`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V6 m c) ∗ R c)
  post c := iprop(StableHlo.held (c : Thread nD τ) (Pipeline.ucRefs τ sig) (Gen.V7 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun w => A_eq0 (Vin0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi_first0 (Vin0 m) c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi_last0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 0 is the one its record is entered from, -/
theorem hpre0 (c : Dev nD) : iprop(StableHlo.held (c : Thread nD τ) (Pipeline.ucRefs τ sig) (Gen.V6 m c) ∗ R c) ⊢ (reg0 m).pre c := .rfl
/-- and the one it leaves is the thread state after it. -/
theorem hpost0 (c : Dev nD) : (reg0 m).post c ⊢ iprop(StableHlo.held (c : Thread nD τ) (Pipeline.ucRefs τ sig) (Gen.V7 m (outs m) c) ∗ R c) := .rfl

end Cert.Kernel.Hand

end
-- ==== Proof.KB.Seg1.lean ====
/- Region 1 (the blocked matrix-product call m = cand·M, candidate row times table) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 1 over the thread state: entered from every unscoped buffer at `Gen.V7`, left at `Gen.V8`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun w => A_eq1 (Vin1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi_first1 (Vin1 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi_last1 (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 1 is the one its record is entered from, -/
theorem hpre1 (c : Dev nD) : iprop(StableHlo.held (c : Thread nD τ) (Pipeline.ucRefs τ sig) (Gen.V7 m (outs m) c) ∗ R c) ⊢ (reg1 m).pre c := .rfl
/-- and the one it leaves is the thread state after it. -/
theorem hpost1 (c : Dev nD) : (reg1 m).post c ⊢ iprop(StableHlo.held (c : Thread nD τ) (Pipeline.ucRefs τ sig) (Gen.V8 m (outs m) c) ∗ R c) := .rfl

end Cert.Kernel.Hand

end
-- ==== Proof.KB.Seg2.lean ====
/- Region 2 (the global-attention call) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 2 over the thread state: entered from every unscoped buffer at `Gen.V9`, left at `Gen.V10`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ L lv 2 fun _ _ => rfl
  pre c := iprop(StableHlo.held (c : Thread nD τ) (Pipeline.ucRefs τ sig) (Gen.V9 m (outs m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vin2 m c) fun w => A_eq2 (Vin2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Phi_first2 (Vin2 m) c]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from Phi_last2 (Vin2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin2 m c) (Vout2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 2 is the one its record is entered from, -/
theorem hpre2 (c : Dev nD) : iprop(StableHlo.held (c : Thread nD τ) (Pipeline.ucRefs τ sig) (Gen.V9 m (outs m) c) ∗ R c) ⊢ (reg2 m).pre c := .rfl
/-- and the one it leaves is the thread state after it. -/
theorem hpost2 (c : Dev nD) : (reg2 m).post c ⊢ iprop(StableHlo.held (c : Thread nD τ) (Pipeline.ucRefs τ sig) (Gen.V10 m (outs m) c) ∗ R c) := .rfl

end Cert.Kernel.Hand

end
-- ==== Proof.KB.Seg3.lean ====
/- Region 3 (the projection call of round 1) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 3 over the thread state: entered from every unscoped buffer at `Gen.V13`, left at `Gen.V14`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin3 m) c).loose
  hwaits := Pipeline.hwaits_of_owed_zero _ _ _ _ L lv 3 fun _ _ => rfl
  pre c := iprop(StableHlo.held (c : Thread nD τ) (Pipeline.ucRefs τ sig) (Gen.V13 m (outs m) c) ∗ R c)
  post c := iprop(StableHlo.held (c : Thread nD τ) (Pipeline.ucRefs τ sig) (Gen.V14 m (outs m) c) ∗ R c)
  X c := iprop(∃ r, prngReg c r)
  Y c := iprop(∃ r, prngReg c r)
  Z c := Pipeline.unscopedRest (Ix := Unit) (Name := ℕ) (U := UR sig nD τ) (Lvl := ℕ) spec3 c (Vin3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vin3 m c) fun w => A_eq3 (Vin3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi_first3 (Vin3 m) c]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from Phi_last3 (Vin3 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vin3 m c) (Vout3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 3 is the one its record is entered from, -/
theorem hpre3 (c : Dev nD) : iprop(StableHlo.held (c : Thread nD τ) (Pipeline.ucRefs τ sig) (Gen.V13 m (outs m) c) ∗ R c) ⊢ (reg3 m).pre c := .rfl
/-- and the one it leaves is the thread state after it. -/
theorem hpost3 (c : Dev nD) : (reg3 m).post c ⊢ iprop(StableHlo.held (c : Thread nD τ) (Pipeline.ucRefs τ sig) (Gen.V14 m (outs m) c) ∗ R c) := .rfl

end Cert.Kernel.Hand

end
-- ==== Proof.KB.Seg4.lean ====
/- Region 4 (the attention and feed-forward call of round 1) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 4 over the thread state: entered from every unscoped buffer at `Gen.V14`, left at `Gen.V15`. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vin4 m) c).loose
  hwaits := Pipeline.hwaits_of_owed_zero _ _ _ _ L lv 4 fun _ _ => rfl
  pre c := iprop(StableHlo.held (c : Thread nD τ) (Pipeline.ucRefs τ sig) (Gen.V14 m (outs m) c) ∗ R c)
  post c := iprop(StableHlo.held (c : Thread nD τ) (Pipeline.ucRefs τ sig) (Gen.V15 m (outs m) c) ∗ R c)
  X c := iprop(∃ r, prngReg c r)
  Y c := iprop(∃ r, prngReg c r)
  Z c := Pipeline.unscopedRest (Ix := Unit) (Name := ℕ) (U := UR sig nD τ) (Lvl := ℕ) spec4 c (Vin4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vin4 m c) fun w => A_eq4 (Vin4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from Phi_first4 (Vin4 m) c]; unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from Phi_last4 (Vin4 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vin4 m c) (Vout4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 4 is the one its record is entered from, -/
theorem hpre4 (c : Dev nD) : iprop(StableHlo.held (c : Thread nD τ) (Pipeline.ucRefs τ sig) (Gen.V14 m (outs m) c) ∗ R c) ⊢ (reg4 m).pre c := .rfl
/-- and the one it leaves is the thread state after it. -/
theorem hpost4 (c : Dev nD) : (reg4 m).post c ⊢ iprop(StableHlo.held (c : Thread nD τ) (Pipeline.ucRefs τ sig) (Gen.V15 m (outs m) c) ∗ R c) := .rfl

end Cert.Kernel.Hand

end
-- ==== Proof.KB.Seg5.lean ====
/- Region 5 (the projection call of round 2) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 5 over the thread state: entered from every unscoped buffer at `Gen.V15`, left at `Gen.V16`. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vin5 m) c).loose
  hwaits := Pipeline.hwaits_of_owed_zero _ _ _ _ L lv 5 fun _ _ => rfl
  pre c := iprop(StableHlo.held (c : Thread nD τ) (Pipeline.ucRefs τ sig) (Gen.V15 m (outs m) c) ∗ R c)
  post c := iprop(StableHlo.held (c : Thread nD τ) (Pipeline.ucRefs τ sig) (Gen.V16 m (outs m) c) ∗ R c)
  X c := iprop(∃ r, prngReg c r)
  Y c := iprop(∃ r, prngReg c r)
  Z c := Pipeline.unscopedRest (Ix := Unit) (Name := ℕ) (U := UR sig nD τ) (Lvl := ℕ) spec5 c (Vin5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vin5 m c) fun w => A_eq5 (Vin5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from Phi_first5 (Vin5 m) c]; unfold Pipeline.ΦA
    iintro ⟨Hp, -, Hr⟩
    isplitl [Hr]; · iexact Hr
    iexact Hp
  hout c := by
    rw [Pipeline.ownSems0_none]
    refine (show (pdats m 5 c).Φ (Fin.last _) ⊢ Pipeline.ΦA spec5 c from Phi_last5 (Vin5 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vin5 m c) (Vout5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 5 is the one its record is entered from, -/
theorem hpre5 (c : Dev nD) : iprop(StableHlo.held (c : Thread nD τ) (Pipeline.ucRefs τ sig) (Gen.V15 m (outs m) c) ∗ R c) ⊢ (reg5 m).pre c := .rfl
/-- and the one it leaves is the thread state after it. -/
theorem hpost5 (c : Dev nD) : (reg5 m).post c ⊢ iprop(StableHlo.held (c : Thread nD τ) (Pipeline.ucRefs τ sig) (Gen.V16 m (outs m) c) ∗ R c) := .rfl

end Cert.Kernel.Hand

end
-- ==== Proof.KB.Seg6.lean ====
/- Region 6 (the attention and feed-forward call of round 2) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 6 over the thread state: entered from every unscoped buffer at `Gen.V16`, left at `Gen.V17`. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vin6 m) c).loose
  hwaits := Pipeline.hwaits_of_owed_zero _ _ _ _ L lv 6 fun _ _ => rfl
  pre c := iprop(StableHlo.held (c : Thread nD τ) (Pipeline.ucRefs τ sig) (Gen.V16 m (outs m) c) ∗ R c)
  post c := iprop(StableHlo.held (c : Thread nD τ) (Pipeline.ucRefs τ sig) (Gen.V17 m (outs m) c) ∗ R c)
  X c := iprop(∃ r, prngReg c r)
  Y c := iprop(∃ r, prngReg c r)
  Z c := Pipeline.unscopedRest (Ix := Unit) (Name := ℕ) (U := UR sig nD τ) (Lvl := ℕ) spec6 c (Vin6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Vin6 m c) fun w => A_eq6 (Vin6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from Phi_first6 (Vin6 m) c]; unfold Pipeline.ΦA
    iintro ⟨Hp, -, Hr⟩
    isplitl [Hr]; · iexact Hr
    iexact Hp
  hout c := by
    rw [Pipeline.ownSems0_none]
    refine (show (pdats m 6 c).Φ (Fin.last _) ⊢ Pipeline.ΦA spec6 c from Phi_last6 (Vin6 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Vin6 m c) (Vout6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 6 is the one its record is entered from, -/
theorem hpre6 (c : Dev nD) : iprop(StableHlo.held (c : Thread nD τ) (Pipeline.ucRefs τ sig) (Gen.V16 m (outs m) c) ∗ R c) ⊢ (reg6 m).pre c := .rfl
/-- and the one it leaves is the thread state after it. -/
theorem hpost6 (c : Dev nD) : (reg6 m).post c ⊢ iprop(StableHlo.held (c : Thread nD τ) (Pipeline.ucRefs τ sig) (Gen.V17 m (outs m) c) ∗ R c) := .rfl

end Cert.Kernel.Hand

end
-- ==== Proof.KB.Seg7.lean ====
/- Region 7 (the projection call of round 3) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 7 over the thread state: entered from every unscoped buffer at `Gen.V17`, left at `Gen.V18`. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vin7 m) c).loose
  hwaits := Pipeline.hwaits_of_owed_zero _ _ _ _ L lv 7 fun _ _ => rfl
  pre c := iprop(StableHlo.held (c : Thread nD τ) (Pipeline.ucRefs τ sig) (Gen.V17 m (outs m) c) ∗ R c)
  post c := iprop(StableHlo.held (c : Thread nD τ) (Pipeline.ucRefs τ sig) (Gen.V18 m (outs m) c) ∗ R c)
  X c := iprop(∃ r, prngReg c r)
  Y c := iprop(∃ r, prngReg c r)
  Z c := Pipeline.unscopedRest (Ix := Unit) (Name := ℕ) (U := UR sig nD τ) (Lvl := ℕ) spec7 c (Vin7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Vin7 m c) fun w => A_eq7 (Vin7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from Phi_first7 (Vin7 m) c]; unfold Pipeline.ΦA
    iintro ⟨Hp, -, Hr⟩
    isplitl [Hr]; · iexact Hr
    iexact Hp
  hout c := by
    rw [Pipeline.ownSems0_none]
    refine (show (pdats m 7 c).Φ (Fin.last _) ⊢ Pipeline.ΦA spec7 c from Phi_last7 (Vin7 m) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Vin7 m c) (Vout7 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 7 is the one its record is entered from, -/
theorem hpre7 (c : Dev nD) : iprop(StableHlo.held (c : Thread nD τ) (Pipeline.ucRefs τ sig) (Gen.V17 m (outs m) c) ∗ R c) ⊢ (reg7 m).pre c := .rfl
/-- and the one it leaves is the thread state after it. -/
theorem hpost7 (c : Dev nD) : (reg7 m).post c ⊢ iprop(StableHlo.held (c : Thread nD τ) (Pipeline.ucRefs τ sig) (Gen.V18 m (outs m) c) ∗ R c) := .rfl

end Cert.Kernel.Hand

end
-- ==== Proof.KB.Seg8.lean ====
/- Region 8 (the attention and feed-forward call of round 3) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 8 over the thread state: entered from every unscoped buffer at `Gen.V18`, left at `Gen.V19`. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vin8 m) c).loose
  hwaits := Pipeline.hwaits_of_owed_zero _ _ _ _ L lv 8 fun _ _ => rfl
  pre c := iprop(StableHlo.held (c : Thread nD τ) (Pipeline.ucRefs τ sig) (Gen.V18 m (outs m) c) ∗ R c)
  post c := iprop(StableHlo.held (c : Thread nD τ) (Pipeline.ucRefs τ sig) (Gen.V19 m (outs m) c) ∗ R c)
  X c := iprop(∃ r, prngReg c r)
  Y c := iprop(∃ r, prngReg c r)
  Z c := Pipeline.unscopedRest (Ix := Unit) (Name := ℕ) (U := UR sig nD τ) (Lvl := ℕ) spec8 c (Vin8 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Vin8 m c) fun w => A_eq8 (Vin8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from Phi_first8 (Vin8 m) c]; unfold Pipeline.ΦA
    iintro ⟨Hp, -, Hr⟩
    isplitl [Hr]; · iexact Hr
    iexact Hp
  hout c := by
    rw [Pipeline.ownSems0_none]
    refine (show (pdats m 8 c).Φ (Fin.last _) ⊢ Pipeline.ΦA spec8 c from Phi_last8 (Vin8 m) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Vin8 m c) (Vout8 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 8 is the one its record is entered from, -/
theorem hpre8 (c : Dev nD) : iprop(StableHlo.held (c : Thread nD τ) (Pipeline.ucRefs τ sig) (Gen.V18 m (outs m) c) ∗ R c) ⊢ (reg8 m).pre c := .rfl
/-- and the one it leaves is the thread state after it. -/
theorem hpost8 (c : Dev nD) : (reg8 m).post c ⊢ iprop(StableHlo.held (c : Thread nD τ) (Pipeline.ucRefs τ sig) (Gen.V19 m (outs m) c) ∗ R c) := .rfl

end Cert.Kernel.Hand

end
-- ==== Proof.KB.Seg9.lean ====
/- Region 9 (the projection call of round 4) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 9 over the thread state: entered from every unscoped buffer at `Gen.V19`, left at `Gen.V20`. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vin9 m) c).loose
  hwaits := Pipeline.hwaits_of_owed_zero _ _ _ _ L lv 9 fun _ _ => rfl
  pre c := iprop(StableHlo.held (c : Thread nD τ) (Pipeline.ucRefs τ sig) (Gen.V19 m (outs m) c) ∗ R c)
  post c := iprop(StableHlo.held (c : Thread nD τ) (Pipeline.ucRefs τ sig) (Gen.V20 m (outs m) c) ∗ R c)
  X c := iprop(∃ r, prngReg c r)
  Y c := iprop(∃ r, prngReg c r)
  Z c := Pipeline.unscopedRest (Ix := Unit) (Name := ℕ) (U := UR sig nD τ) (Lvl := ℕ) spec9 c (Vin9 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Vin9 m c) fun w => A_eq9 (Vin9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from Phi_first9 (Vin9 m) c]; unfold Pipeline.ΦA
    iintro ⟨Hp, -, Hr⟩
    isplitl [Hr]; · iexact Hr
    iexact Hp
  hout c := by
    rw [Pipeline.ownSems0_none]
    refine (show (pdats m 9 c).Φ (Fin.last _) ⊢ Pipeline.ΦA spec9 c from Phi_last9 (Vin9 m) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Vin9 m c) (Vout9 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 9 is the one its record is entered from, -/
theorem hpre9 (c : Dev nD) : iprop(StableHlo.held (c : Thread nD τ) (Pipeline.ucRefs τ sig) (Gen.V19 m (outs m) c) ∗ R c) ⊢ (reg9 m).pre c := .rfl
/-- and the one it leaves is the thread state after it. -/
theorem hpost9 (c : Dev nD) : (reg9 m).post c ⊢ iprop(StableHlo.held (c : Thread nD τ) (Pipeline.ucRefs τ sig) (Gen.V20 m (outs m) c) ∗ R c) := .rfl

end Cert.Kernel.Hand

end
-- ==== Proof.KB.Seg10.lean ====
/- Region 10 (the attention and feed-forward call of round 4) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 10 over the thread state: entered from every unscoped buffer at `Gen.V20`, left at `Gen.V21`. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vin10 m) c).loose
  hwaits := Pipeline.hwaits_of_owed_zero _ _ _ _ L lv 10 fun _ _ => rfl
  pre c := iprop(StableHlo.held (c : Thread nD τ) (Pipeline.ucRefs τ sig) (Gen.V20 m (outs m) c) ∗ R c)
  post c := iprop(StableHlo.held (c : Thread nD τ) (Pipeline.ucRefs τ sig) (Gen.V21 m (outs m) c) ∗ R c)
  X c := iprop(∃ r, prngReg c r)
  Y c := iprop(∃ r, prngReg c r)
  Z c := Pipeline.unscopedRest (Ix := Unit) (Name := ℕ) (U := UR sig nD τ) (Lvl := ℕ) spec10 c (Vin10 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (Vin10 m c) fun w => A_eq10 (Vin10 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from Phi_first10 (Vin10 m) c]; unfold Pipeline.ΦA
    iintro ⟨Hp, -, Hr⟩
    isplitl [Hr]; · iexact Hr
    iexact Hp
  hout c := by
    rw [Pipeline.ownSems0_none]
    refine (show (pdats m 10 c).Φ (Fin.last _) ⊢ Pipeline.ΦA spec10 c from Phi_last10 (Vin10 m) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (Vin10 m c) (Vout10 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 10 is the one its record is entered from, -/
theorem hpre10 (c : Dev nD) : iprop(StableHlo.held (c : Thread nD τ) (Pipeline.ucRefs τ sig) (Gen.V20 m (outs m) c) ∗ R c) ⊢ (reg10 m).pre c := .rfl
/-- and the one it leaves is the thread state after it. -/
theorem hpost10 (c : Dev nD) : (reg10 m).post c ⊢ iprop(StableHlo.held (c : Thread nD τ) (Pipeline.ucRefs τ sig) (Gen.V21 m (outs m) c) ∗ R c) := .rfl

end Cert.Kernel.Hand

end
-- ==== Proof.KB.Seg11.lean ====
/- Region 11 (the projection call of round 5) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 11 over the thread state: entered from every unscoped buffer at `Gen.V21`, left at `Gen.V22`. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vin11 m) c).loose
  hwaits := Pipeline.hwaits_of_owed_zero _ _ _ _ L lv 11 fun _ _ => rfl
  pre c := iprop(StableHlo.held (c : Thread nD τ) (Pipeline.ucRefs τ sig) (Gen.V21 m (outs m) c) ∗ R c)
  post c := iprop(StableHlo.held (c : Thread nD τ) (Pipeline.ucRefs τ sig) (Gen.V22 m (outs m) c) ∗ R c)
  X c := iprop(∃ r, prngReg c r)
  Y c := iprop(∃ r, prngReg c r)
  Z c := Pipeline.unscopedRest (Ix := Unit) (Name := ℕ) (U := UR sig nD τ) (Lvl := ℕ) spec11 c (Vin11 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (Vin11 m c) fun w => A_eq11 (Vin11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from Phi_first11 (Vin11 m) c]; unfold Pipeline.ΦA
    iintro ⟨Hp, -, Hr⟩
    isplitl [Hr]; · iexact Hr
    iexact Hp
  hout c := by
    rw [Pipeline.ownSems0_none]
    refine (show (pdats m 11 c).Φ (Fin.last _) ⊢ Pipeline.ΦA spec11 c from Phi_last11 (Vin11 m) c).trans ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (Vin11 m c) (Vout11 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 11 is the one its record is entered from, -/
theorem hpre11 (c : Dev nD) : iprop(StableHlo.held (c : Thread nD τ) (Pipeline.ucRefs τ sig) (Gen.V21 m (outs m) c) ∗ R c) ⊢ (reg11 m).pre c := .rfl
/-- and the one it leaves is the thread state after it. -/
theorem hpost11 (c : Dev nD) : (reg11 m).post c ⊢ iprop(StableHlo.held (c : Thread nD τ) (Pipeline.ucRefs τ sig) (Gen.V22 m (outs m) c) ∗ R c) := .rfl

end Cert.Kernel.Hand

end
-- ==== Proof.KB.Seg12.lean ====
/- Region 12 (the attention and feed-forward call of round 5) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 12 over the thread state: entered from every unscoped buffer at `Gen.V22`, left at `Gen.V23`. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (Vin12 m) c).loose
  hwaits := Pipeline.hwaits_of_owed_zero _ _ _ _ L lv 12 fun _ _ => rfl
  pre c := iprop(StableHlo.held (c : Thread nD τ) (Pipeline.ucRefs τ sig) (Gen.V22 m (outs m) c) ∗ R c)
  post c := iprop(StableHlo.held (c : Thread nD τ) (Pipeline.ucRefs τ sig) (Gen.V23 m (outs m) c) ∗ R c)
  X c := iprop(∃ r, prngReg c r)
  Y c := iprop(∃ r, prngReg c r)
  Z c := Pipeline.unscopedRest (Ix := Unit) (Name := ℕ) (U := UR sig nD τ) (Lvl := ℕ) spec12 c (Vin12 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (Vin12 m c) fun w => A_eq12 (Vin12 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from Phi_first12 (Vin12 m) c]; unfold Pipeline.ΦA
    iintro ⟨Hp, -, Hr⟩
    isplitl [Hr]; · iexact Hr
    iexact Hp
  hout c := by
    rw [Pipeline.ownSems0_none]
    refine (show (pdats m 12 c).Φ (Fin.last _) ⊢ Pipeline.ΦA spec12 c from Phi_last12 (Vin12 m) c).trans ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (Vin12 m c) (Vout12 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 12 is the one its record is entered from, -/
theorem hpre12 (c : Dev nD) : iprop(StableHlo.held (c : Thread nD τ) (Pipeline.ucRefs τ sig) (Gen.V22 m (outs m) c) ∗ R c) ⊢ (reg12 m).pre c := .rfl
/-- and the one it leaves is the thread state after it. -/
theorem hpost12 (c : Dev nD) : (reg12 m).post c ⊢ iprop(StableHlo.held (c : Thread nD τ) (Pipeline.ucRefs τ sig) (Gen.V23 m (outs m) c) ∗ R c) := .rfl

end Cert.Kernel.Hand

end
-- ==== Proof.KB.Seg13.lean ====
/- Region 13 (the gating call) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KB.Pdats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 13 over the thread state: entered from every unscoped buffer at `Gen.V25`, left at `Gen.V26`. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (Vin13 m) c).loose
  hwaits := Pipeline.hwaits_of_owed_zero _ _ _ _ L lv 13 fun _ _ => rfl
  pre c := iprop(StableHlo.held (c : Thread nD τ) (Pipeline.ucRefs τ sig) (Gen.V25 m (outs m) c) ∗ R c)
  post c := iprop(StableHlo.held (c : Thread nD τ) (Pipeline.ucRefs τ sig) (Gen.V26 m (outs m) c) ∗ R c)
  X c := iprop(∃ r, prngReg c r)
  Y c := iprop(∃ r, prngReg c r)
  Z c := Pipeline.unscopedRest (Ix := Unit) (Name := ℕ) (U := UR sig nD τ) (Lvl := ℕ) spec13 c (Vin13 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (Vin13 m c) fun w => A_eq13 (Vin13 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from Phi_first13 (Vin13 m) c]; unfold Pipeline.ΦA
    iintro ⟨Hp, -, Hr⟩
    isplitl [Hr]; · iexact Hr
    iexact Hp
  hout c := by
    rw [Pipeline.ownSems0_none]
    refine (show (pdats m 13 c).Φ (Fin.last _) ⊢ Pipeline.ΦA spec13 c from Phi_last13 (Vin13 m) c).trans ?_
    unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (Vin13 m c) (Vout13 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 13 is the one its record is entered from, -/
theorem hpre13 (c : Dev nD) : iprop(StableHlo.held (c : Thread nD τ) (Pipeline.ucRefs τ sig) (Gen.V25 m (outs m) c) ∗ R c) ⊢ (reg13 m).pre c := .rfl
/-- and the one it leaves is the thread state after it. -/
theorem hpost13 (c : Dev nD) : (reg13 m).post c ⊢ iprop(StableHlo.held (c : Thread nD τ) (Pipeline.ucRefs τ sig) (Gen.V26 m (outs m) c) ∗ R c) := .rfl

end Cert.Kernel.Hand

end
-- ==== Proof.KB.Run.lean ====
/- The run of the whole program, for any float model `F`: the conditional run (given, per kernel region, a segment
   record entered from the buffer contents before it and left at the contents after it) at the unit index type, the
   rounds algebra, no launch dues and no ghost resources, where a core holds between two items, beside its unscoped
   buffers, only its generator register at some state and the fact that it owes nothing; then the run itself, at the
   regions' records and the contents they leave, and the frame post read off it. -/
import proofs.«104406_j63058709840319_2_alg».proof.Proof.KB.RunCond
import proofs.«104406_j63058709840319_2_alg».proof.Proof.KB.Pdats
import proofs.«104406_j63058709840319_2_alg».proof.Proof.KB.Seg0
import proofs.«104406_j63058709840319_2_alg».proof.Proof.KB.Seg1
import proofs.«104406_j63058709840319_2_alg».proof.Proof.KB.Seg2
import proofs.«104406_j63058709840319_2_alg».proof.Proof.KB.Seg3
import proofs.«104406_j63058709840319_2_alg».proof.Proof.KB.Seg4
import proofs.«104406_j63058709840319_2_alg».proof.Proof.KB.Seg5
import proofs.«104406_j63058709840319_2_alg».proof.Proof.KB.Seg6
import proofs.«104406_j63058709840319_2_alg».proof.Proof.KB.Seg7
import proofs.«104406_j63058709840319_2_alg».proof.Proof.KB.Seg8
import proofs.«104406_j63058709840319_2_alg».proof.Proof.KB.Seg9
import proofs.«104406_j63058709840319_2_alg».proof.Proof.KB.Seg10
import proofs.«104406_j63058709840319_2_alg».proof.Proof.KB.Seg11
import proofs.«104406_j63058709840319_2_alg».proof.Proof.KB.Seg12
import proofs.«104406_j63058709840319_2_alg».proof.Proof.KB.Seg13

-- decided memberships among the program's references recurse past the default depth
set_option maxRecDepth 1292

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The instance: nothing owed, no ghost resources -/

/-- No variant. -/
abbrev 𝒱r : Variants := Variants.none
/-- No pair of a semaphore and an index carries a level. -/
abbrev Lr : GSem nD τ sig → Finset Unit := fun _ => ∅
/-- The level assignment (never read: `Lr` is empty). -/
abbrev lvr : GSem nD τ sig → Unit → ℕ := fun _ _ => 0

/-- What core `c` holds between two items beside its unscoped buffers: its generator register at some state, and
    nothing owed. -/
abbrev runRest (c : Dev nD) : sProp 𝕄 :=
  iprop((∃ r, prngReg c r) ∗ ∃ W, owes (c : Thread nD τ) (0 : CellTallies nD τ sig Unit) W)

/-- The run from the regions' records: the conditional run at the unit index type and the rounds algebra, with no
    launch dues, no ghost resources, and `runRest` between any two items. The launch element is the pipelines' own; the
    launch deals each core its generator register and an empty debt, which is the first rest state; the last rest state
    owes nothing by its second half. -/
theorem run_main_of (ρ : Dev nD → PrngReg) (outs : Outs (F := F))
    (pdats : (p : Fin 14) → (c : Dev nD) → Dat τ (Elt F) Unit ℕ (UR sig nD τ) ℕ (cfgs p) c)
    (R0 : RegionSeg (pcfgs (F := F)) adm pdats () defs₀ 𝒱r Lr lvr 0)
    (hpre0 : ∀ c : Dev nD, iprop(StableHlo.held (c : Thread nD τ) (Pipeline.ucRefs τ sig) (V6 m c) ∗ runRest c) ⊢ R0.pre c)
    (hpost0 : ∀ c : Dev nD, R0.post c ⊢ iprop(StableHlo.held (c : Thread nD τ) (Pipeline.ucRefs τ sig) (V7 m outs c) ∗ runRest c))
    (R1 : RegionSeg (pcfgs (F := F)) adm pdats () defs₀ 𝒱r Lr lvr 1)
    (hpre1 : ∀ c : Dev nD, iprop(StableHlo.held (c : Thread nD τ) (Pipeline.ucRefs τ sig) (V7 m outs c) ∗ runRest c) ⊢ R1.pre c)
    (hpost1 : ∀ c : Dev nD, R1.post c ⊢ iprop(StableHlo.held (c : Thread nD τ) (Pipeline.ucRefs τ sig) (V8 m outs c) ∗ runRest c))
    (R2 : RegionSeg (pcfgs (F := F)) adm pdats () defs₀ 𝒱r Lr lvr 2)
    (hpre2 : ∀ c : Dev nD, iprop(StableHlo.held (c : Thread nD τ) (Pipeline.ucRefs τ sig) (V9 m outs c) ∗ runRest c) ⊢ R2.pre c)
    (hpost2 : ∀ c : Dev nD, R2.post c ⊢ iprop(StableHlo.held (c : Thread nD τ) (Pipeline.ucRefs τ sig) (V10 m outs c) ∗ runRest c))
    (R3 : RegionSeg (pcfgs (F := F)) adm pdats () defs₀ 𝒱r Lr lvr 3)
    (hpre3 : ∀ c : Dev nD, iprop(StableHlo.held (c : Thread nD τ) (Pipeline.ucRefs τ sig) (V13 m outs c) ∗ runRest c) ⊢ R3.pre c)
    (hpost3 : ∀ c : Dev nD, R3.post c ⊢ iprop(StableHlo.held (c : Thread nD τ) (Pipeline.ucRefs τ sig) (V14 m outs c) ∗ runRest c))
    (R4 : RegionSeg (pcfgs (F := F)) adm pdats () defs₀ 𝒱r Lr lvr 4)
    (hpre4 : ∀ c : Dev nD, iprop(StableHlo.held (c : Thread nD τ) (Pipeline.ucRefs τ sig) (V14 m outs c) ∗ runRest c) ⊢ R4.pre c)
    (hpost4 : ∀ c : Dev nD, R4.post c ⊢ iprop(StableHlo.held (c : Thread nD τ) (Pipeline.ucRefs τ sig) (V15 m outs c) ∗ runRest c))
    (R5 : RegionSeg (pcfgs (F := F)) adm pdats () defs₀ 𝒱r Lr lvr 5)
    (hpre5 : ∀ c : Dev nD, iprop(StableHlo.held (c : Thread nD τ) (Pipeline.ucRefs τ sig) (V15 m outs c) ∗ runRest c) ⊢ R5.pre c)
    (hpost5 : ∀ c : Dev nD, R5.post c ⊢ iprop(StableHlo.held (c : Thread nD τ) (Pipeline.ucRefs τ sig) (V16 m outs c) ∗ runRest c))
    (R6 : RegionSeg (pcfgs (F := F)) adm pdats () defs₀ 𝒱r Lr lvr 6)
    (hpre6 : ∀ c : Dev nD, iprop(StableHlo.held (c : Thread nD τ) (Pipeline.ucRefs τ sig) (V16 m outs c) ∗ runRest c) ⊢ R6.pre c)
    (hpost6 : ∀ c : Dev nD, R6.post c ⊢ iprop(StableHlo.held (c : Thread nD τ) (Pipeline.ucRefs τ sig) (V17 m outs c) ∗ runRest c))
    (R7 : RegionSeg (pcfgs (F := F)) adm pdats () defs₀ 𝒱r Lr lvr 7)
    (hpre7 : ∀ c : Dev nD, iprop(StableHlo.held (c : Thread nD τ) (Pipeline.ucRefs τ sig) (V17 m outs c) ∗ runRest c) ⊢ R7.pre c)
    (hpost7 : ∀ c : Dev nD, R7.post c ⊢ iprop(StableHlo.held (c : Thread nD τ) (Pipeline.ucRefs τ sig) (V18 m outs c) ∗ runRest c))
    (R8 : RegionSeg (pcfgs (F := F)) adm pdats () defs₀ 𝒱r Lr lvr 8)
    (hpre8 : ∀ c : Dev nD, iprop(StableHlo.held (c : Thread nD τ) (Pipeline.ucRefs τ sig) (V18 m outs c) ∗ runRest c) ⊢ R8.pre c)
    (hpost8 : ∀ c : Dev nD, R8.post c ⊢ iprop(StableHlo.held (c : Thread nD τ) (Pipeline.ucRefs τ sig) (V19 m outs c) ∗ runRest c))
    (R9 : RegionSeg (pcfgs (F := F)) adm pdats () defs₀ 𝒱r Lr lvr 9)
    (hpre9 : ∀ c : Dev nD, iprop(StableHlo.held (c : Thread nD τ) (Pipeline.ucRefs τ sig) (V19 m outs c) ∗ runRest c) ⊢ R9.pre c)
    (hpost9 : ∀ c : Dev nD, R9.post c ⊢ iprop(StableHlo.held (c : Thread nD τ) (Pipeline.ucRefs τ sig) (V20 m outs c) ∗ runRest c))
    (R10 : RegionSeg (pcfgs (F := F)) adm pdats () defs₀ 𝒱r Lr lvr 10)
    (hpre10 : ∀ c : Dev nD, iprop(StableHlo.held (c : Thread nD τ) (Pipeline.ucRefs τ sig) (V20 m outs c) ∗ runRest c) ⊢ R10.pre c)
    (hpost10 : ∀ c : Dev nD, R10.post c ⊢ iprop(StableHlo.held (c : Thread nD τ) (Pipeline.ucRefs τ sig) (V21 m outs c) ∗ runRest c))
    (R11 : RegionSeg (pcfgs (F := F)) adm pdats () defs₀ 𝒱r Lr lvr 11)
    (hpre11 : ∀ c : Dev nD, iprop(StableHlo.held (c : Thread nD τ) (Pipeline.ucRefs τ sig) (V21 m outs c) ∗ runRest c) ⊢ R11.pre c)
    (hpost11 : ∀ c : Dev nD, R11.post c ⊢ iprop(StableHlo.held (c : Thread nD τ) (Pipeline.ucRefs τ sig) (V22 m outs c) ∗ runRest c))
    (R12 : RegionSeg (pcfgs (F := F)) adm pdats () defs₀ 𝒱r Lr lvr 12)
    (hpre12 : ∀ c : Dev nD, iprop(StableHlo.held (c : Thread nD τ) (Pipeline.ucRefs τ sig) (V22 m outs c) ∗ runRest c) ⊢ R12.pre c)
    (hpost12 : ∀ c : Dev nD, R12.post c ⊢ iprop(StableHlo.held (c : Thread nD τ) (Pipeline.ucRefs τ sig) (V23 m outs c) ∗ runRest c))
    (R13 : RegionSeg (pcfgs (F := F)) adm pdats () defs₀ 𝒱r Lr lvr 13)
    (hpre13 : ∀ c : Dev nD, iprop(StableHlo.held (c : Thread nD τ) (Pipeline.ucRefs τ sig) (V25 m outs c) ∗ runRest c) ⊢ R13.pre c)
    (hpost13 : ∀ c : Dev nD, R13.post c ⊢ iprop(StableHlo.held (c : Thread nD τ) (Pipeline.ucRefs τ sig) (V26 m outs c) ∗ runRest c)) :
    θ_run defs (onTc (τ := τ) (main (F := F))) ⟨m, fun _ => 0, ρ⟩ (fun r => ∀ c : Dev nD,
      r.2.mem ((c.tc : Thread nD τ).loc main_v35) = V27 m outs c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_cond m (Ix := Unit) (U := UR sig nD τ) (Lvl := ℕ) emb₁ () 𝒱r Lr lvr (fun _ _ => rfl) ρ outs pdats
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => runRest)
    (hE0 := by
      refine Pipeline.initEach Lr lvr fun c => ?_
      iintro ⟨⟨-, HO, -, Hp, -⟩, -⟩
      imodintro
      isplitl [Hp]; · iexists _; iexact Hp
      iexists ∅; iexact HO)
    (hE14 := fun c => by
      iintro ⟨-, HO⟩
      iexact HO)
    R0 hpre0 hpost0 R1 hpre1 hpost1 R2 hpre2 hpost2 R3 hpre3 hpost3 R4 hpre4 hpost4 R5 hpre5 hpost5 R6 hpre6 hpost6 R7 hpre7 hpost7 R8 hpre8 hpost8 R9 hpre9 hpost9 R10 hpre10 hpost10 R11 hpre11 hpost11 R12 hpre12 hpost12 R13 hpre13 hpost13

/-- THE RUN: from any memory `m` with zero counters, every weakly fair execution of the program terminates; the result
    buffer `main_v35` ends holding what the last valuation gives it over the contents the regions leave (`outs m`), and
    every argument array ends as launched. The regions' records are entered and left exactly at the buffer contents
    between the items, beside the generator register and nothing owed. -/
theorem run_main (ρ : Dev nD → PrngReg) :
    θ_run defs (onTc (τ := τ) (main (F := F))) ⟨m, fun _ => 0, ρ⟩ (fun r => ∀ c : Dev nD,
      r.2.mem ((c.tc : Thread nD τ).loc main_v35) = V27 m (outs m) c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_main_of m ρ (outs m) (pdats m)
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)
    (reg7 m) (hpre7 m) (hpost7 m)
    (reg8 m) (hpre8 m) (hpost8 m)
    (reg9 m) (hpre9 m) (hpost9 m)
    (reg10 m) (hpre10 m) (hpost10 m)
    (reg11 m) (hpre11 m) (hpost11 m)
    (reg12 m) (hpre12 m) (hpost12 m)
    (reg13 m) (hpre13 m) (hpost13 m)

/-- The frame post from the run: drop the result's conjunct. -/
theorem frame_of_run (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run_main m ρ)

end Cert.Kernel.Hand

end
-- ==== Proof.KI.Reg0.lean ====
import proofs.«104406_j63058709840319_2_alg».proof.Proof.Gen.KernelIdeal.Launch
import proofs.«104406_j63058709840319_2_alg».proof.Proof.Gen.KernelIdeal.Skeleton
import proofs.«104406_j63058709840319_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! Region 0: the K-blocked matrix product. The grid is 2×8; point `t` works on row tile `t / 8` at step
`k = t % 8`. A scratch accumulator is zeroed at `k = 0`, the product of the point's two input blocks is added to it at
every point, and its rounding to bf16 is stored into the output window's buffer at every point; the pipeline writes
that buffer back only at `k = 7`, when the accumulator holds the whole sum over `k`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each whole buffer through the unit rectangle at zero offsets -/

abbrev r0_lhs : Rect S1024x2560 := Rect.unit (s := S1024x2560) ![0, 0] S1024x2560.size inb_S1024x2560_S1024x2560_0_0
abbrev r0_rhs : Rect S2560x256 := Rect.unit (s := S2560x256) ![0, 0] S2560x256.size inb_S2560x256_S2560x256_0_0
abbrev r0_acc : Rect S1024x256 := Rect.unit (s := S1024x256) ![0, 0] S1024x256.size inb_S1024x256_S1024x256_0_0

/-! ## What the body leaves -/

/-- The accumulator after the body at a point with `k = 0`: zeroed, then the product of the two input blocks added. -/
def acc0_first (x0 : Vec F S1024x2560 .bf16) (x1 : Vec F S2560x256 .bf16) : Vec F S1024x256 .f32 :=
  k0_pay2 (k0_pay1 (F := F)) x0 x1

/-- The accumulator after the body at a point with `k ≠ 0`: the product of the two input blocks added to what the
    point before left (`s`). -/
def acc0_next (s : Vec F S1024x256 .f32) (x0 : Vec F S1024x2560 .bf16) (x1 : Vec F S2560x256 .bf16) : Vec F S1024x256 .f32 :=
  k0_pay2 s x0 x1

/-- Window 2's staging buffer after the body, from the accumulator the body leaves (`s`): its one store, of the
    accumulator rounded to bf16. -/
def out0_2 (s : Vec F S1024x256 .f32) : Vec F S1024x256 .bf16 :=
  k0_pay3 s

/-- A store through the whole-buffer rectangle covers the buffer, whatever was stored before it. -/
theorem cover0_acc {e : EltTy} (p0 : r0_acc.shape.Idx → Elt F e) (L : List (View.Piece (Elt F) S1024x256 e)) (y : S1024x256.Idx) :
    ∃ pc ∈ ((⟨r0_acc, p0⟩ : View.Piece (Elt F) S1024x256 e) :: L), y ∈ pc.1.set :=
  ⟨_, List.Mem.head _, View.mem_set_unit_zero (by funext a; fin_cases a <;> rfl) inb_S1024x256_S1024x256_0_0 y⟩

/-- The zero offsets, as the rectangles spell them. -/
theorem zeroOff0 : (![0, 0] : Fin 2 → ℕ) = fun _ => 0 := by funext a; fin_cases a <;> rfl

/-- A load through the whole-buffer rectangle after a store through it reads that store's payload, whatever was
    stored before. -/
theorem readCov_last0 {S : Shape} {e : EltTy} {sg : RefSig} {κ : Kind} {sp : Space} (v : View sg κ sp S e)
    {off : Fin S.rank → ℕ} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩),
    View.canon_cons_unit_zero h, View.ld_unit_zero h]

/-- A load through the whole-buffer rectangle reads the buffer's contents, at any shape. -/
theorem readAt_whole0 {S : Shape} {e : EltTy} {sg : RefSig} {κ : Kind} {sp : Space} (v : View sg κ sp S e)
    {off : Fin S.rank → ℕ} (h : off = fun _ => 0) (inb : ∀ a, off a + S.size a ≤ S.size a) (f : v.ty.Contents (Elt F)) :
    v.readAt (Elt F) (Rect.unit off S.size inb).toLoadRect f = v.read (Elt F) f :=
  View.ld_unit_zero h inb (v.read (Elt F) f)

/-! ## The body's branch condition -/

/-- The condition of the body's `scf.if` (`k0_h1`), from the grid coordinates: `k = 0`. -/
abbrev cond0 (i : grid0.Coords) : Prop :=
  (Scalar.cmpi .ne (Scalar.extui (Scalar.cmpi .eq (BitVec.ofNat 32 (i 1).val) 0#32)) 0#32) = 1#1
/-- It holds at the points ≡ 0 (mod 8). -/
theorem hcond0 : ∀ t : Fin cfg0.N, cond0 (grid0.coords t) ↔ t.val % 8 = 0 :=
  (by decide +kernel : ∀ t : Fin grid0.N, cond0 (grid0.coords t) ↔ t.val % 8 = 0)

/-! ## The body's triple, in its two cases -/

set_option maxHeartbeats 4000000 in
/-- At `k = 0`: on whole memrefs, the inputs' at read contents, the output's and the accumulator's at anything, the body
    runs to the continuation holding the inputs' as they were, the accumulator at `acc0_first` of the inputs and the
    output's buffer at its rounding. -/
theorem sound_kernel0_first (c : Dev nD) (E : Set ℕ) (i : grid0.Coords)
    (arg2 : Memref sig .tc .vmem S1024x2560 .bf16) (harg2 : arg2.IsWhole) (arg3 : Memref sig .tc .vmem S2560x256 .bf16) (harg3 : arg3.IsWhole)
    (arg4 : Memref sig .tc .vmem S1024x256 .bf16) (harg4 : arg4.IsWhole) (arg5 : Memref sig .tc .vmem S1024x256 .f32) (harg5 : arg5.IsWhole)
    (hc : cond0 i) (x0 : Vec F S1024x2560 .bf16) (x1 : Vec F S2560x256 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out0_2 (acc0_first x0 x1)) ∗ owns (c : Thread nD τ) arg5 fullShare (acc0_first x0 x1)) -∗ K ⟨⟩))
      ⊢ wp frame (wpE (defs₀ (F := F)) Variants.none c none) E (cc0__matmul_reduce_kernel i arg2 harg2 arg3 harg3 arg4 harg4 arg5 harg5) K := by
  simp only [cc0__matmul_reduce_kernel_eq_skeleton]; unfold cc0__matmul_reduce_kernel_skel
  unfold owns
  iintro ⟨⟨%f0, %hf0, H0⟩, ⟨%f1, %hf1, H1⟩, ⟨%d2, %f2, -, H2⟩, ⟨%d3, %f3, -, H3⟩, Hk⟩
  subst hf0; subst hf1
  -- a load through the whole-buffer rectangle reads the buffer's contents
  have e0 := readAt_whole0 arg2.view zeroOff0 inb_S1024x2560_S1024x2560_0_0 f0
  have e1 := readAt_whole0 arg3.view zeroOff0 inb_S2560x256_S2560x256_0_0 f1
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_acc _ _)).trans ?_
    refine (View.canon_unit_zero (S := S1024x256) zeroOff0 _ _).trans ?_
    unfold out0_2 acc0_first
    unfold sound_kernel0_first.sl.v13 sound_kernel0_first.sl.H3_2 sound_kernel0_first.sl.v3 sound_kernel0_first.sl.H3_1
    rw [readCov_last0 (S := S1024x256) _ zeroOff0, readCov_last0 (S := S1024x256) _ zeroOff0]
  iexists _; isplitr
  swap; · iexact H3
  ipureintro
  unfold acc0_first
  unfold sound_kernel0_first.sl.H3_2 sound_kernel0_first.sl.v3 sound_kernel0_first.sl.H3_1
  refine (View.read_writes_eq_canon _ _ _ (cover0_acc _ _)).trans ?_
  refine (View.canon_cons_unit_zero (S := S1024x256) zeroOff0 _ _ _).trans ?_
  rw [readCov_last0 (S := S1024x256) _ zeroOff0]

set_option maxHeartbeats 4000000 in
/-- At `k ≠ 0`: the same from the accumulator at read contents `s`, which it leaves at `acc0_next s` of the inputs. -/
theorem sound_kernel0_next (c : Dev nD) (E : Set ℕ) (i : grid0.Coords)
    (arg2 : Memref sig .tc .vmem S1024x2560 .bf16) (harg2 : arg2.IsWhole) (arg3 : Memref sig .tc .vmem S2560x256 .bf16) (harg3 : arg3.IsWhole)
    (arg4 : Memref sig .tc .vmem S1024x256 .bf16) (harg4 : arg4.IsWhole) (arg5 : Memref sig .tc .vmem S1024x256 .f32) (harg5 : arg5.IsWhole)
    (hc : ¬cond0 i) (x0 : Vec F S1024x2560 .bf16) (x1 : Vec F S2560x256 .bf16) (s : Vec F S1024x256 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (out0_2 (acc0_next s x0 x1)) ∗ owns (c : Thread nD τ) arg5 fullShare (acc0_next s x0 x1)) -∗ K ⟨⟩))
      ⊢ wp frame (wpE (defs₀ (F := F)) Variants.none c none) E (cc0__matmul_reduce_kernel i arg2 harg2 arg3 harg3 arg4 harg4 arg5 harg5) K := by
  simp only [cc0__matmul_reduce_kernel_eq_skeleton]; unfold cc0__matmul_reduce_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  -- a load through the whole-buffer rectangle reads the buffer's contents
  have e0 := readAt_whole0 arg2.view zeroOff0 inb_S1024x2560_S1024x2560_0_0 f0
  have e1 := readAt_whole0 arg3.view zeroOff0 inb_S2560x256_S2560x256_0_0 f1
  have e3 := readAt_whole0 arg5.view zeroOff0 inb_S1024x256_S1024x256_0_0 f3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_acc _ _)).trans ?_
    refine (View.canon_unit_zero (S := S1024x256) zeroOff0 _ _).trans ?_
    unfold out0_2 acc0_next
    unfold sound_kernel0_next.sl.v13 sound_kernel0_next.sl.H3_1
    rw [readCov_last0 (S := S1024x256) _ zeroOff0]
  iexists _; isplitr
  swap; · iexact H3
  ipureintro
  unfold acc0_next
  unfold sound_kernel0_next.sl.H3_1
  refine (View.read_writes_eq_canon _ _ _ (cover0_acc _ _)).trans ?_
  exact View.canon_unit_zero (S := S1024x256) zeroOff0 _ _

/-! ## What the output buffer and the accumulator hold after each point -/

/-- After the body at position `n`: (output window 2's staging buffer, the accumulator). At `k = 0` the accumulator
    restarts from zero; otherwise it continues from what position `n - 1` left. -/
def outsAt0 (c : Dev nD) : (n : ℕ) → n < cfg0.N → Vec F S1024x256 .bf16 × Vec F S1024x256 .f32
  | 0, hn => (out0_2 (acc0_first (iblk0 V c 0 ⟨0, hn⟩) (iblk0 V c 1 ⟨0, hn⟩)), acc0_first (iblk0 V c 0 ⟨0, hn⟩) (iblk0 V c 1 ⟨0, hn⟩))
  | n + 1, hn =>
    if h0 : (n + 1) % 8 = 0 then
      (out0_2 (acc0_first (iblk0 V c 0 ⟨n + 1, hn⟩) (iblk0 V c 1 ⟨n + 1, hn⟩)), acc0_first (iblk0 V c 0 ⟨n + 1, hn⟩) (iblk0 V c 1 ⟨n + 1, hn⟩))
    else
      (out0_2 (acc0_next (outsAt0 c n (Nat.lt_of_succ_lt hn)).2 (iblk0 V c 0 ⟨n + 1, hn⟩) (iblk0 V c 1 ⟨n + 1, hn⟩)),
        acc0_next (outsAt0 c n (Nat.lt_of_succ_lt hn)).2 (iblk0 V c 0 ⟨n + 1, hn⟩) (iblk0 V c 1 ⟨n + 1, hn⟩))

/-- `outsAt0` at a point with `k = 0`. -/
theorem outsAt0_first (c : Dev nD) (t : Fin cfg0.N) (h0 : t.val % 8 = 0) :
    outsAt0 V c t.val t.isLt = (out0_2 (acc0_first (iblk0 V c 0 t) (iblk0 V c 1 t)), acc0_first (iblk0 V c 0 t) (iblk0 V c 1 t)) := by
  obtain ⟨n, hn⟩ := t
  cases n with
  | zero => exact rfl
  | succ n => exact (dif_pos h0).trans rfl

/-- `outsAt0` at a point with `k ≠ 0`: over what the point before left. -/
theorem outsAt0_next (c : Dev nD) (t : Fin cfg0.N) (h0 : ¬t.val % 8 = 0) :
    outsAt0 V c t.val t.isLt =
      (out0_2 (acc0_next (outsAt0 V c (t.val - 1) (Nat.lt_of_le_of_lt (Nat.sub_le _ _) t.isLt)).2 (iblk0 V c 0 t) (iblk0 V c 1 t)),
        acc0_next (outsAt0 V c (t.val - 1) (Nat.lt_of_le_of_lt (Nat.sub_le _ _) t.isLt)).2 (iblk0 V c 0 t) (iblk0 V c 1 t)) := by
  obtain ⟨n, hn⟩ := t
  cases n with
  | zero => exact (by exfalso; (try dsimp only at h0); exact absurd (Nat.zero_mod _) h0)
  | succ n => exact (dif_neg h0).trans rfl

/-! ## The region invariant -/

/-- The accumulator as a memref: a whole scoped buffer of the kernel's own. -/
abbrev scM0 : Memref sig .tc .vmem S1024x256 .f32 := Memref.whole cc0_scratch0

/-- The invariant before position `n`: before the first point the class's (every scoped buffer that is no staging buffer
    at anything, the generator register at some state); afterwards the same with the accumulator at what the point before
    left in it. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

/-- The class's invariant with the accumulator split off the scoped rest. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the launch hands the region is the invariant before the first point. -/
theorem Phi_first0 (c : Dev nD) : (dat0 V c).Φ 0 = Pipeline.ΦA spec0 c := by
  rw [show (dat0 V c).Φ 0 = PhiS0 V c 0 (Nat.zero_le _) from rfl, PhiS0_zero V c 0 _ rfl]

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hrest⟩, Hg⟩
  isplitl [HS Hrest]
  · isplitl [HS]
    · iexists _; iexact HS
    iexact Hrest
  iexact Hg

/-- The same after the last point. -/
theorem Phi_last0 (c : Dev nD) : (dat0 V c).Φ (Fin.last cfg0.N) ⊢ Pipeline.ΦA spec0 c :=
  Phi_out0 V c _ (by rw [Fin.val_last]; have : cfg0.N = 16 := N_0; omega)

/-! ## The body obligation -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 4000000 in
/-- The body at any point. The inputs' memrefs hold their blocks; the output's buffer holds something (the body
    overwrites all of it). At `k = 0` the accumulator may hold anything (the class's invariant at the first point, what
    the point before left otherwise) and the body leaves it at `acc0_first`; at `k ≠ 0` the invariant hands it over at
    what the point before left and takes it back at `acc0_next` of that. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, PhiS0_castSucc V c t]
  rw [after0_0, after0_1, after0_2]
  have hN : t.val < 16 := lt_of_lt_of_eq t.isLt (show cfg0.N = 16 from N_0)
  by_cases h0 : t.val % 8 = 0
  · rw [outsAt0_first V c t h0]
    by_cases hz : t.val = 0
    · rw [PhiS0_zero V c _ _ hz, PhiA0_eq]
      iintro ⟨⟨⟨HS, Hrest⟩, Hg⟩, Ho, ⟨%d0, H0⟩, ⟨%d1, H1⟩, ⟨%d2, H2⟩⟩
      iapply (sound_kernel0_first c Set.univ (grid0.coords t) _ _ _ _ _ _ _ _ ((hcond0 t).mpr h0) (iblk0 V c 0 t) (iblk0 V c 1 t) _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [PhiS0_pos V c _ _ hz]
      iintro ⟨⟨⟨HS, Hrest⟩, Hg⟩, Ho, ⟨%d0, H0⟩, ⟨%d1, H1⟩, ⟨%d2, H2⟩⟩
      iapply (sound_kernel0_first c Set.univ (grid0.coords t) _ _ _ _ _ _ _ _ ((hcond0 t).mpr h0) (iblk0 V c 0 t) (iblk0 V c 1 t) _)
      isplitl [H0]; · iexact H0
      isplitl [H1]; · iexact H1
      isplitl [H2]; · iexists _; iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
  · have hz : t.val ≠ 0 := fun h => h0 (by rw [h])
    rw [outsAt0_next V c t h0, PhiS0_pos V c _ _ hz]
    iintro ⟨⟨⟨HS, Hrest⟩, Hg⟩, Ho, ⟨%d0, H0⟩, ⟨%d1, H1⟩, ⟨%d2, H2⟩⟩
    iapply (sound_kernel0_next c Set.univ (grid0.coords t) _ _ _ _ _ _ _ _ (fun h => h0 ((hcond0 t).mp h)) (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«104406_j63058709840319_2_alg».proof.Proof.Gen.KernelIdeal.Launch
import proofs.«104406_j63058709840319_2_alg».proof.Proof.Gen.KernelIdeal.Skeleton
import proofs.«104406_j63058709840319_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! Region 1: the K-blocked matrix product. The grid is 1×8; point `t` works on row tile `t / 8` at step
`k = t % 8`. A scratch accumulator is zeroed at `k = 0`, the product of the point's two input blocks is added to it at
every point, and its rounding to bf16 is stored into the output window's buffer at every point; the pipeline writes
that buffer back only at `k = 7`, when the accumulator holds the whole sum over `k`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each whole buffer through the unit rectangle at zero offsets -/

abbrev r1_lhs : Rect S1x2560 := Rect.unit (s := S1x2560) ![0, 0] S1x2560.size inb_S1x2560_S1x2560_0_0
abbrev r1_rhs : Rect S2560x256 := Rect.unit (s := S2560x256) ![0, 0] S2560x256.size inb_S2560x256_S2560x256_0_0
abbrev r1_acc : Rect S1x256 := Rect.unit (s := S1x256) ![0, 0] S1x256.size inb_S1x256_S1x256_0_0

/-! ## What the body leaves -/

/-- The accumulator after the body at a point with `k = 0`: zeroed, then the product of the two input blocks added. -/
def acc1_first (x0 : Vec F S1x2560 .bf16) (x1 : Vec F S2560x256 .bf16) : Vec F S1x256 .f32 :=
  k1_pay2 (k1_pay1 (F := F)) x0 x1

/-- The accumulator after the body at a point with `k ≠ 0`: the product of the two input blocks added to what the
    point before left (`s`). -/
def acc1_next (s : Vec F S1x256 .f32) (x0 : Vec F S1x2560 .bf16) (x1 : Vec F S2560x256 .bf16) : Vec F S1x256 .f32 :=
  k1_pay2 s x0 x1

/-- Window 2's staging buffer after the body, from the accumulator the body leaves (`s`): its one store, of the
    accumulator rounded to bf16. -/
def out1_2 (s : Vec F S1x256 .f32) : Vec F S1x256 .bf16 :=
  k1_pay3 s

/-- A store through the whole-buffer rectangle covers the buffer, whatever was stored before it. -/
theorem cover1_acc {e : EltTy} (p0 : r1_acc.shape.Idx → Elt F e) (L : List (View.Piece (Elt F) S1x256 e)) (y : S1x256.Idx) :
    ∃ pc ∈ ((⟨r1_acc, p0⟩ : View.Piece (Elt F) S1x256 e) :: L), y ∈ pc.1.set :=
  ⟨_, List.Mem.head _, View.mem_set_unit_zero (by funext a; fin_cases a <;> rfl) inb_S1x256_S1x256_0_0 y⟩

/-- The zero offsets, as the rectangles spell them. -/
theorem zeroOff1 : (![0, 0] : Fin 2 → ℕ) = fun _ => 0 := by funext a; fin_cases a <;> rfl

/-- A load through the whole-buffer rectangle after a store through it reads that store's payload, whatever was
    stored before. -/
theorem readCov_last1 {S : Shape} {e : EltTy} {sg : RefSig} {κ : Kind} {sp : Space} (v : View sg κ sp S e)
    {off : Fin S.rank → ℕ} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩),
    View.canon_cons_unit_zero h, View.ld_unit_zero h]

/-- A load through the whole-buffer rectangle reads the buffer's contents, at any shape. -/
theorem readAt_whole1 {S : Shape} {e : EltTy} {sg : RefSig} {κ : Kind} {sp : Space} (v : View sg κ sp S e)
    {off : Fin S.rank → ℕ} (h : off = fun _ => 0) (inb : ∀ a, off a + S.size a ≤ S.size a) (f : v.ty.Contents (Elt F)) :
    v.readAt (Elt F) (Rect.unit off S.size inb).toLoadRect f = v.read (Elt F) f :=
  View.ld_unit_zero h inb (v.read (Elt F) f)

/-! ## The body's branch condition -/

/-- The condition of the body's `scf.if` (`k1_h1`), from the grid coordinates: `k = 0`. -/
abbrev cond1 (i : grid1.Coords) : Prop :=
  (Scalar.cmpi .ne (Scalar.extui (Scalar.cmpi .eq (BitVec.ofNat 32 (i 1).val) 0#32)) 0#32) = 1#1
/-- It holds at the points ≡ 0 (mod 8). -/
theorem hcond1 : ∀ t : Fin cfg1.N, cond1 (grid1.coords t) ↔ t.val % 8 = 0 :=
  (by decide +kernel : ∀ t : Fin grid1.N, cond1 (grid1.coords t) ↔ t.val % 8 = 0)

/-! ## The body's triple, in its two cases -/

set_option maxHeartbeats 4000000 in
/-- At `k = 0`: on whole memrefs, the inputs' at read contents, the output's and the accumulator's at anything, the body
    runs to the continuation holding the inputs' as they were, the accumulator at `acc1_first` of the inputs and the
    output's buffer at its rounding. -/
theorem sound_kernel1_first (c : Dev nD) (E : Set ℕ) (i : grid1.Coords)
    (arg2 : Memref sig .tc .vmem S1x2560 .bf16) (harg2 : arg2.IsWhole) (arg3 : Memref sig .tc .vmem S2560x256 .bf16) (harg3 : arg3.IsWhole)
    (arg4 : Memref sig .tc .vmem S1x256 .bf16) (harg4 : arg4.IsWhole) (arg5 : Memref sig .tc .vmem S1x256 .f32) (harg5 : arg5.IsWhole)
    (hc : cond1 i) (x0 : Vec F S1x2560 .bf16) (x1 : Vec F S2560x256 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out1_2 (acc1_first x0 x1)) ∗ owns (c : Thread nD τ) arg5 fullShare (acc1_first x0 x1)) -∗ K ⟨⟩))
      ⊢ wp frame (wpE (defs₀ (F := F)) Variants.none c none) E (cc1__matmul_reduce_kernel i arg2 harg2 arg3 harg3 arg4 harg4 arg5 harg5) K := by
  simp only [cc1__matmul_reduce_kernel_eq_skeleton]; unfold cc1__matmul_reduce_kernel_skel
  unfold owns
  iintro ⟨⟨%f0, %hf0, H0⟩, ⟨%f1, %hf1, H1⟩, ⟨%d2, %f2, -, H2⟩, ⟨%d3, %f3, -, H3⟩, Hk⟩
  subst hf0; subst hf1
  -- a load through the whole-buffer rectangle reads the buffer's contents
  have e0 := readAt_whole1 arg2.view zeroOff1 inb_S1x2560_S1x2560_0_0 f0
  have e1 := readAt_whole1 arg3.view zeroOff1 inb_S2560x256_S2560x256_0_0 f1
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover1_acc _ _)).trans ?_
    refine (View.canon_unit_zero (S := S1x256) zeroOff1 _ _).trans ?_
    unfold out1_2 acc1_first
    unfold sound_kernel1_first.sl.v13 sound_kernel1_first.sl.H3_2 sound_kernel1_first.sl.v3 sound_kernel1_first.sl.H3_1
    rw [readCov_last1 (S := S1x256) _ zeroOff1, readCov_last1 (S := S1x256) _ zeroOff1]
  iexists _; isplitr
  swap; · iexact H3
  ipureintro
  unfold acc1_first
  unfold sound_kernel1_first.sl.H3_2 sound_kernel1_first.sl.v3 sound_kernel1_first.sl.H3_1
  refine (View.read_writes_eq_canon _ _ _ (cover1_acc _ _)).trans ?_
  refine (View.canon_cons_unit_zero (S := S1x256) zeroOff1 _ _ _).trans ?_
  rw [readCov_last1 (S := S1x256) _ zeroOff1]

set_option maxHeartbeats 4000000 in
/-- At `k ≠ 0`: the same from the accumulator at read contents `s`, which it leaves at `acc1_next s` of the inputs. -/
theorem sound_kernel1_next (c : Dev nD) (E : Set ℕ) (i : grid1.Coords)
    (arg2 : Memref sig .tc .vmem S1x2560 .bf16) (harg2 : arg2.IsWhole) (arg3 : Memref sig .tc .vmem S2560x256 .bf16) (harg3 : arg3.IsWhole)
    (arg4 : Memref sig .tc .vmem S1x256 .bf16) (harg4 : arg4.IsWhole) (arg5 : Memref sig .tc .vmem S1x256 .f32) (harg5 : arg5.IsWhole)
    (hc : ¬cond1 i) (x0 : Vec F S1x2560 .bf16) (x1 : Vec F S2560x256 .bf16) (s : Vec F S1x256 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (out1_2 (acc1_next s x0 x1)) ∗ owns (c : Thread nD τ) arg5 fullShare (acc1_next s x0 x1)) -∗ K ⟨⟩))
      ⊢ wp frame (wpE (defs₀ (F := F)) Variants.none c none) E (cc1__matmul_reduce_kernel i arg2 harg2 arg3 harg3 arg4 harg4 arg5 harg5) K := by
  simp only [cc1__matmul_reduce_kernel_eq_skeleton]; unfold cc1__matmul_reduce_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  -- a load through the whole-buffer rectangle reads the buffer's contents
  have e0 := readAt_whole1 arg2.view zeroOff1 inb_S1x2560_S1x2560_0_0 f0
  have e1 := readAt_whole1 arg3.view zeroOff1 inb_S2560x256_S2560x256_0_0 f1
  have e3 := readAt_whole1 arg5.view zeroOff1 inb_S1x256_S1x256_0_0 f3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover1_acc _ _)).trans ?_
    refine (View.canon_unit_zero (S := S1x256) zeroOff1 _ _).trans ?_
    unfold out1_2 acc1_next
    unfold sound_kernel1_next.sl.v13 sound_kernel1_next.sl.H3_1
    rw [readCov_last1 (S := S1x256) _ zeroOff1]
  iexists _; isplitr
  swap; · iexact H3
  ipureintro
  unfold acc1_next
  unfold sound_kernel1_next.sl.H3_1
  refine (View.read_writes_eq_canon _ _ _ (cover1_acc _ _)).trans ?_
  exact View.canon_unit_zero (S := S1x256) zeroOff1 _ _

/-! ## What the output buffer and the accumulator hold after each point -/

/-- After the body at position `n`: (output window 2's staging buffer, the accumulator). At `k = 0` the accumulator
    restarts from zero; otherwise it continues from what position `n - 1` left. -/
def outsAt1 (c : Dev nD) : (n : ℕ) → n < cfg1.N → Vec F S1x256 .bf16 × Vec F S1x256 .f32
  | 0, hn => (out1_2 (acc1_first (iblk1 V c 0 ⟨0, hn⟩) (iblk1 V c 1 ⟨0, hn⟩)), acc1_first (iblk1 V c 0 ⟨0, hn⟩) (iblk1 V c 1 ⟨0, hn⟩))
  | n + 1, hn =>
    if h0 : (n + 1) % 8 = 0 then
      (out1_2 (acc1_first (iblk1 V c 0 ⟨n + 1, hn⟩) (iblk1 V c 1 ⟨n + 1, hn⟩)), acc1_first (iblk1 V c 0 ⟨n + 1, hn⟩) (iblk1 V c 1 ⟨n + 1, hn⟩))
    else
      (out1_2 (acc1_next (outsAt1 c n (Nat.lt_of_succ_lt hn)).2 (iblk1 V c 0 ⟨n + 1, hn⟩) (iblk1 V c 1 ⟨n + 1, hn⟩)),
        acc1_next (outsAt1 c n (Nat.lt_of_succ_lt hn)).2 (iblk1 V c 0 ⟨n + 1, hn⟩) (iblk1 V c 1 ⟨n + 1, hn⟩))

/-- `outsAt1` at a point with `k = 0`. -/
theorem outsAt1_first (c : Dev nD) (t : Fin cfg1.N) (h0 : t.val % 8 = 0) :
    outsAt1 V c t.val t.isLt = (out1_2 (acc1_first (iblk1 V c 0 t) (iblk1 V c 1 t)), acc1_first (iblk1 V c 0 t) (iblk1 V c 1 t)) := by
  obtain ⟨n, hn⟩ := t
  cases n with
  | zero => exact rfl
  | succ n => exact (dif_pos h0).trans rfl

/-- `outsAt1` at a point with `k ≠ 0`: over what the point before left. -/
theorem outsAt1_next (c : Dev nD) (t : Fin cfg1.N) (h0 : ¬t.val % 8 = 0) :
    outsAt1 V c t.val t.isLt =
      (out1_2 (acc1_next (outsAt1 V c (t.val - 1) (Nat.lt_of_le_of_lt (Nat.sub_le _ _) t.isLt)).2 (iblk1 V c 0 t) (iblk1 V c 1 t)),
        acc1_next (outsAt1 V c (t.val - 1) (Nat.lt_of_le_of_lt (Nat.sub_le _ _) t.isLt)).2 (iblk1 V c 0 t) (iblk1 V c 1 t)) := by
  obtain ⟨n, hn⟩ := t
  cases n with
  | zero => exact (by exfalso; (try dsimp only at h0); exact absurd (Nat.zero_mod _) h0)
  | succ n => exact (dif_neg h0).trans rfl

/-! ## The region invariant -/

/-- The accumulator as a memref: a whole scoped buffer of the kernel's own. -/
abbrev scM1 : Memref sig .tc .vmem S1x256 .f32 := Memref.whole cc1_scratch0

/-- The invariant before position `n`: before the first point the class's (every scoped buffer that is no staging buffer
    at anything, the generator register at some state); afterwards the same with the accumulator at what the point before
    left in it. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r))

/-- The class's invariant with the accumulator split off the scoped rest. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem Phi_first1 (c : Dev nD) : (dat1 V c).Φ 0 = Pipeline.ΦA spec1 c := by
  rw [show (dat1 V c).Φ 0 = PhiS1 V c 0 (Nat.zero_le _) from rfl, PhiS1_zero V c 0 _ rfl]

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hrest⟩, Hg⟩
  isplitl [HS Hrest]
  · isplitl [HS]
    · iexists _; iexact HS
    iexact Hrest
  iexact Hg

/-- The same after the last point. -/
theorem Phi_last1 (c : Dev nD) : (dat1 V c).Φ (Fin.last cfg1.N) ⊢ Pipeline.ΦA spec1 c :=
  Phi_out1 V c _ (by rw [Fin.val_last]; have : cfg1.N = 8 := N_1; omega)

/-! ## The body obligation -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 4000000 in
/-- The body at any point. The inputs' memrefs hold their blocks; the output's buffer holds something (the body
    overwrites all of it). At `k = 0` the accumulator may hold anything (the class's invariant at the first point, what
    the point before left otherwise) and the body leaves it at `acc1_first`; at `k ≠ 0` the invariant hands it over at
    what the point before left and takes it back at `acc1_next` of that. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [after1_0, after1_1, after1_2]
  have hN : t.val < 8 := lt_of_lt_of_eq t.isLt (show cfg1.N = 8 from N_1)
  by_cases h0 : t.val % 8 = 0
  · rw [outsAt1_first V c t h0]
    by_cases hz : t.val = 0
    · rw [PhiS1_zero V c _ _ hz, PhiA1_eq]
      iintro ⟨⟨⟨HS, Hrest⟩, Hg⟩, Ho, ⟨%d0, H0⟩, ⟨%d1, H1⟩, ⟨%d2, H2⟩⟩
      iapply (sound_kernel1_first c Set.univ (grid1.coords t) _ _ _ _ _ _ _ _ ((hcond1 t).mpr h0) (iblk1 V c 0 t) (iblk1 V c 1 t) _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · rw [PhiS1_pos V c _ _ hz]
      iintro ⟨⟨⟨HS, Hrest⟩, Hg⟩, Ho, ⟨%d0, H0⟩, ⟨%d1, H1⟩, ⟨%d2, H2⟩⟩
      iapply (sound_kernel1_first c Set.univ (grid1.coords t) _ _ _ _ _ _ _ _ ((hcond1 t).mpr h0) (iblk1 V c 0 t) (iblk1 V c 1 t) _)
      isplitl [H0]; · iexact H0
      isplitl [H1]; · iexact H1
      isplitl [H2]; · iexists _; iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
  · have hz : t.val ≠ 0 := fun h => h0 (by rw [h])
    rw [outsAt1_next V c t h0, PhiS1_pos V c _ _ hz]
    iintro ⟨⟨⟨HS, Hrest⟩, Hg⟩, Ho, ⟨%d0, H0⟩, ⟨%d1, H1⟩, ⟨%d2, H2⟩⟩
    iapply (sound_kernel1_next c Set.univ (grid1.coords t) _ _ _ _ _ _ _ _ (fun h => h0 ((hcond1 t).mp h)) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/- Region 2 (the global-attention call, one grid point): its class-A half at a parameter `V`, the buffer
   contents when the region is entered. Each window's block at the point, what the body leaves in the output
   window's buffer, the body's triple, the proof data and the body obligation, for any float model `F`. -/
import proofs.«104406_j63058709840319_2_alg».proof.Proof.Gen.KernelIdeal.Launch
import proofs.«104406_j63058709840319_2_alg».proof.Proof.Gen.KernelIdeal.Skeleton
import proofs.«104406_j63058709840319_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not, for any proof data
    whose array is `V`'s and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev r2_0 : Rect S2048x256 := Rect.unit (s := S2048x256) ![0, 0] S2048x256.size inb_S2048x256_S2048x256_0_0
abbrev r2_1 : Rect S256x256 := Rect.unit (s := S256x256) ![0, 0] S256x256.size inb_S256x256_S256x256_0_0
abbrev r2_2 : Rect S1x256 := Rect.unit (s := S1x256) ![0, 0] S1x256.size inb_S1x256_S1x256_0_0

/-! ## What the body leaves in the output window's buffer -/

/-- Window 4's buffer after the body, from the input windows' blocks: its one store, of the attention row
    computed from the four blocks read. -/
def out2_4 (x0 : Vec F S2048x256 .bf16) (x1 : Vec F S256x256 .bf16) (x2 : Vec F S256x256 .bf16) (x3 : Vec F S1x256 .bf16) : Vec F S1x256 .bf16 :=
  View.canon [⟨r2_2, k2_pay1 (View.ld x0 r2_0) (View.ld x1 r2_1) (View.ld x2 r2_1) (View.ld x3 r2_2)⟩]

/-- The store is of the whole buffer, so it covers it. -/
theorem cover2_4 (p0 : Vec F S1x256 .bf16) (y : S1x256.Idx) :
    ∃ pc ∈ ([⟨r2_2, p0⟩] : List (View.Piece (Elt F) S1x256 .bf16)), y ∈ pc.1.set :=
  View.cover_of_tiled [⟨r2_2, p0⟩] S1x256.size (by rfl) y

/-! ## The body's triple -/

set_option maxHeartbeats 1000000 in
/-- The body on whole buffers, the inputs' at contents `xW` and the output's at anything, runs to the continuation
    holding the inputs' as they were and the output's at `out2_4` of the inputs'. The output buffer is read once
    before the store; the value read is not used. -/
theorem sound_kernel2 (c : Dev nD) (E : Set ℕ) (i : grid2.Coords)
    (arg1 : Memref sig .tc .vmem S2048x256 .bf16) (harg1 : arg1.IsWhole) (arg2 : Memref sig .tc .vmem S256x256 .bf16) (harg2 : arg2.IsWhole)
    (arg3 : Memref sig .tc .vmem S256x256 .bf16) (harg3 : arg3.IsWhole) (arg4 : Memref sig .tc .vmem S1x256 .bf16) (harg4 : arg4.IsWhole)
    (arg5 : Memref sig .tc .vmem S1x256 .bf16) (harg5 : arg5.IsWhole)
    (x0 : Vec F S2048x256 .bf16) (x1 : Vec F S256x256 .bf16) (x2 : Vec F S256x256 .bf16) (x3 : Vec F S1x256 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__global_attn_kernel i arg1 harg1 arg2 harg2 arg3 harg3 arg4 harg4 arg5 harg5) K := by
  simp only [cc2__global_attn_kernel_eq_skeleton]; unfold cc2__global_attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of the region's pipeline on core `c`: the arrays as the region finds them; after the body each
    input's buffer at its block and the output's at `out2_4` of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- The invariant is the same at every point: the class's. -/
theorem Phi_first2 (c : Dev nD) : (dat2 V c).Φ 0 = Pipeline.ΦA spec2 c := rfl
theorem Phi_last2 (c : Dev nD) : (dat2 V c).Φ (Fin.last cfg2.N) ⊢ Pipeline.ΦA spec2 c := by
  rw [show (dat2 V c).Φ (Fin.last cfg2.N) = Pipeline.ΦA spec2 c from rfl]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.Reg3.lean ====
/- Region 3 of @main (the projection kernel `cc3__proj_kernel`, one grid point, five input windows and three
   output windows), at a parameter `V`: the contents of the core's buffers when the region is entered. Each output
   window's buffer after the body is the one whole-buffer store of a product of the truncated input block with a
   weight block (window 7: of the adjacency block with such a product), as the skeleton's payloads state them. -/
import proofs.«104406_j63058709840319_2_alg».proof.Proof.Gen.KernelIdeal.Launch
import proofs.«104406_j63058709840319_2_alg».proof.Proof.Gen.KernelIdeal.Skeleton
import proofs.«104406_j63058709840319_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point, for any proof data whose array is `V`'s
    and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current buffer holds its block at every point, for any proof data whose array is `V`'s
    and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current buffer holds its block at every point, for any proof data whose array is `V`'s
    and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current buffer holds its block at every point, for any proof data whose array is `V`'s
    and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current buffer holds its block at every point, for any proof data whose array is `V`'s
    and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is a whole buffer -/

abbrev r3_0 : Rect S2048x256 := Rect.unit (s := S2048x256) ![0, 0] S2048x256.size inb_S2048x256_S2048x256_0_0
abbrev r3_1 : Rect S256x256 := Rect.unit (s := S256x256) ![0, 0] S256x256.size inb_S256x256_S256x256_0_0
abbrev r3_2 : Rect S2048x2048 := Rect.unit (s := S2048x2048) ![0, 0] S2048x2048.size inb_S2048x2048_S2048x2048_0_0

/-! ## What the body leaves in each output window's buffer -/

/-- Window 5's buffer after the body, from the input windows' blocks: its one store, of the whole buffer. -/
def out3_5 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r3_0, k3_pay2 (View.ld x0 r3_0) (View.ld x1 r3_1)⟩]

/-- The one store covers the buffer. -/
theorem cover3_5 (p0 : Vec F S2048x256 .bf16) (y : S2048x256.Idx) :
    ∃ pc ∈ ([⟨r3_0, p0⟩] : List (View.Piece (Elt F) S2048x256 .bf16)), y ∈ pc.1.set :=
  View.cover_of_tiled [⟨r3_0, p0⟩] S2048x256.size (by rfl) y

/-- Window 6's buffer after the body, from the input windows' blocks: its one store, of the whole buffer. -/
def out3_6 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r3_0, k3_pay3 (View.ld x0 r3_0) (View.ld x2 r3_1)⟩]

/-- The one store covers the buffer. -/
theorem cover3_6 (p0 : Vec F S2048x256 .bf16) (y : S2048x256.Idx) :
    ∃ pc ∈ ([⟨r3_0, p0⟩] : List (View.Piece (Elt F) S2048x256 .bf16)), y ∈ pc.1.set :=
  View.cover_of_tiled [⟨r3_0, p0⟩] S2048x256.size (by rfl) y

/-- Window 7's buffer after the body, from the input windows' blocks: its one store, of the whole buffer. -/
def out3_7 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r3_0, k3_pay4 (View.ld x0 r3_0) (View.ld x3 r3_1) (View.ld x4 r3_2)⟩]

/-- The one store covers the buffer. -/
theorem cover3_7 (p0 : Vec F S2048x256 .bf16) (y : S2048x256.Idx) :
    ∃ pc ∈ ([⟨r3_0, p0⟩] : List (View.Piece (Elt F) S2048x256 .bf16)), y ∈ pc.1.set :=
  View.cover_of_tiled [⟨r3_0, p0⟩] S2048x256.size (by rfl) y

/-! ## The body's triple -/

set_option maxHeartbeats 4000000 in
/-- The kernel body on whole buffers, the inputs' at contents `xW` and the outputs' at anything, runs to the
    continuation holding the inputs' as they were and each output's at `out3_W` of the inputs' (each output buffer is
    read once before it is overwritten; the value read is not used). -/
theorem sound_kernel3 (c : Dev nD) (E : Set ℕ) (i : grid3.Coords) (arg1 : Memref sig .tc .vmem S2048x256 .f32) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S2048x2048 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole)
    (x0 : Vec F S2048x256 .f32) (x1 : Vec F S256x256 .bf16) (x2 : Vec F S256x256 .bf16) (x3 : Vec F S256x256 .bf16) (x4 : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4) ∗ owns (c : Thread nD τ) arg7 fullShare (out3_6 x0 x1 x2 x3 x4) ∗ owns (c : Thread nD τ) arg8 fullShare (out3_7 x0 x1 x2 x3 x4)) -∗ K ⟨⟩))
      ⊢ wp frame (wpE (defs₀ (F := F)) Variants.none c none) E (cc3__proj_kernel i arg1 harg1 arg2 harg2 arg3 harg3 arg4 harg4 arg5 harg5 arg6 harg6 arg7 harg7 arg8 harg8) K := by
  simp only [cc3__proj_kernel_eq_skeleton]; unfold cc3__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover3_5 _)
  isplitl [H6]
  · iexists _; isplitr
    swap; · iexact H6
    ipureintro
    exact View.read_writes_eq_canon _ _ _ (cover3_6 _)
  iexists _; isplitr
  swap; · iexact H7
  ipureintro
  exact View.read_writes_eq_canon _ _ _ (cover3_7 _)

/-! ## The pipeline's proof data -/

/-- The proof data of pipeline 3 on core `c`: the arrays as the region finds them (`V`); after the body at point `t`
    each input's buffer at its block and each output's at `out3_W` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
    | ⟨6, _⟩ => out3_6 (iblk3 V c 0 t) (iblk3 V c 1 t) (iblk3 V c 2 t) (iblk3 V c 3 t) (iblk3 V c 4 t)
    | ⟨7, _⟩ => out3_7 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) := by dsimp only [dat3]

/-- The invariant at the first boundary and at the last is the class's. -/
theorem Phi_first3 (c : Dev nD) : (dat3 V c).Φ 0 = Pipeline.ΦA spec3 c := rfl
theorem Phi_last3 (c : Dev nD) : (dat3 V c).Φ (Fin.last cfg3.N) ⊢ Pipeline.ΦA spec3 c := by
  rw [show (dat3 V c).Φ (Fin.last cfg3.N) = Pipeline.ΦA spec3 c from rfl]

/-- Each input's current buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so `sound_kernel3` applies; the invariant and the
    core's tallies pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«104406_j63058709840319_2_alg».proof.Proof.Gen.KernelIdeal.Launch
import proofs.«104406_j63058709840319_2_alg».proof.Proof.Gen.KernelIdeal.Skeleton
import proofs.«104406_j63058709840319_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The attention-and-feed-forward call over four row tiles of 512, at a parameter `V`: the buffer contents the
    call finds. Seven inputs, of which only the row tile of the first moves with the point; one output, the row
    tile the body stores, written back at every point. -/

-- membership in a rectangle of 512 × 256 and 2048 × 256 coordinates recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place: where the window is not fetched its block
    index has not moved, so the block of the point before is this point's. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s and whose body leaves the block in place: where the window is not fetched its block
    index has not moved, so the block of the point before is this point's. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s and whose body leaves the block in place: where the window is not fetched its block
    index has not moved, so the block of the point before is this point's. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s and whose body leaves the block in place: where the window is not fetched its block
    index has not moved, so the block of the point before is this point's. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s and whose body leaves the block in place: where the window is not fetched its block
    index has not moved, so the block of the point before is this point's. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s and whose body leaves the block in place: where the window is not fetched its block
    index has not moved, so the block of the point before is this point's. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for any proof
    data whose array is `V`'s and whose body leaves the block in place: where the window is not fetched its block
    index has not moved, so the block of the point before is this point's. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each whole staging buffer, one rectangle per shape -/

abbrev r4_0 : Rect S512x256 := Rect.unit (s := S512x256) ![0, 0] S512x256.size inb_S512x256_S512x256_0_0
abbrev r4_1 : Rect S2048x256 := Rect.unit (s := S2048x256) ![0, 0] S2048x256.size inb_S2048x256_S2048x256_0_0
abbrev r4_2 : Rect S256x256 := Rect.unit (s := S256x256) ![0, 0] S256x256.size inb_S256x256_S256x256_0_0
abbrev r4_3 : Rect S1x256 := Rect.unit (s := S1x256) ![0, 0] S1x256.size inb_S1x256_S1x256_0_0

/-! ## What the body leaves in the output window's buffer -/

/-- The output's staging buffer after the body, from the input windows' blocks: its one store, of the row tile
    `relu(softmax(q kᵀ / 16) v W₁ + b₁) W₂ + b₂` (the second bias `x6` added last; the first bias is `x5`, the
    second weight `x4`). -/
def out4_7 (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) : Vec F S512x256 .f32 :=
  View.canon [⟨r4_0, k4_pay1 (k4_pay2 (View.ld x0 r4_0) (View.ld x1 r4_1) (View.ld x2 r4_1) (View.ld x3 r4_2) (View.ld x5 r4_3) (View.ld x4 r4_2)) (View.ld x6 r4_3)⟩]

/-- The store tiles the buffer, so it covers it. -/
theorem cover4_7 (p0 : Vec F S512x256 .f32) (y : S512x256.Idx) :
    ∃ pc ∈ ([⟨r4_0, p0⟩] : List (View.Piece (Elt F) S512x256 .f32)), y ∈ pc.1.set :=
  View.cover_of_tiled [⟨r4_0, p0⟩] S512x256.size (by rfl) y

/-! ## The body's triple -/

set_option maxHeartbeats 1000000 in
/-- The body on whole staging memrefs, the inputs' at read contents `xW` and the output's at anything, runs to the
    continuation holding the inputs' as they were and the output's at `out4_7` of the inputs'. -/
theorem sound_kernel4 (c : Dev nD) (E : Set ℕ) (i : grid4.Coords) (arg0 : Memref sig .tc .vmem S512x256 .bf16) (harg0 : arg0.IsWhole) (arg1 : Memref sig .tc .vmem S2048x256 .bf16) (harg1 : arg1.IsWhole) (arg2 : Memref sig .tc .vmem S2048x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole)
    (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out4_7 x0 x1 x2 x3 x4 x5 x6)) -∗ K ⟨⟩))
      ⊢ wp frame (wpE (defs₀ (F := F)) Variants.none c none) E (cc4__attn_ffn_kernel i arg0 harg0 arg1 harg1 arg2 harg2 arg3 harg3 arg4 harg4 arg5 harg5 arg6 harg6 arg7 harg7) K := by
  simp only [cc4__attn_ffn_kernel_eq_skeleton]; unfold cc4__attn_ffn_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The proof data -/

/-- The proof data on core `c`: the arrays as the call finds them (`V`); after the body at point `t` each input's
    buffer at its block and the output's at `out4_7` of the input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

/-- The invariant at the first point and at the last is the scoped rest and the generator register. -/
theorem Phi_first4 (c : Dev nD) : (dat4 V c).Φ 0 = Pipeline.ΦA spec4 c := by dsimp only [dat4]
theorem Phi_last4 (c : Dev nD) : (dat4 V c).Φ (Fin.last cfg4.N) ⊢ Pipeline.ΦA spec4 c := by
  rw [show (dat4 V c).Φ (Fin.last cfg4.N) = Pipeline.ΦA spec4 c from rfl]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at any point: the inputs' memrefs hold their blocks, so `sound_kernel4` applies; the invariant and the
    core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.Reg5.lean ====
/- Region 5 of @main (the projection kernel `cc5__proj_kernel`, one grid point, five input windows and three
   output windows), at a parameter `V`: the contents of the core's buffers when the region is entered. Each output
   window's buffer after the body is the one whole-buffer store of a product of the truncated input block with a
   weight block (window 7: of the adjacency block with such a product), as the skeleton's payloads state them. -/
import proofs.«104406_j63058709840319_2_alg».proof.Proof.Gen.KernelIdeal.Launch
import proofs.«104406_j63058709840319_2_alg».proof.Proof.Gen.KernelIdeal.Skeleton
import proofs.«104406_j63058709840319_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current buffer holds its block at every point, for any proof data whose array is `V`'s
    and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current buffer holds its block at every point, for any proof data whose array is `V`'s
    and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current buffer holds its block at every point, for any proof data whose array is `V`'s
    and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current buffer holds its block at every point, for any proof data whose array is `V`'s
    and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current buffer holds its block at every point, for any proof data whose array is `V`'s
    and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is a whole buffer -/

abbrev r5_0 : Rect S2048x256 := Rect.unit (s := S2048x256) ![0, 0] S2048x256.size inb_S2048x256_S2048x256_0_0
abbrev r5_1 : Rect S256x256 := Rect.unit (s := S256x256) ![0, 0] S256x256.size inb_S256x256_S256x256_0_0
abbrev r5_2 : Rect S2048x2048 := Rect.unit (s := S2048x2048) ![0, 0] S2048x2048.size inb_S2048x2048_S2048x2048_0_0

/-! ## What the body leaves in each output window's buffer -/

/-- Window 5's buffer after the body, from the input windows' blocks: its one store, of the whole buffer. -/
def out5_5 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r5_0, k5_pay2 (View.ld x0 r5_0) (View.ld x1 r5_1)⟩]

/-- The one store covers the buffer. -/
theorem cover5_5 (p0 : Vec F S2048x256 .bf16) (y : S2048x256.Idx) :
    ∃ pc ∈ ([⟨r5_0, p0⟩] : List (View.Piece (Elt F) S2048x256 .bf16)), y ∈ pc.1.set :=
  View.cover_of_tiled [⟨r5_0, p0⟩] S2048x256.size (by rfl) y

/-- Window 6's buffer after the body, from the input windows' blocks: its one store, of the whole buffer. -/
def out5_6 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r5_0, k5_pay3 (View.ld x0 r5_0) (View.ld x2 r5_1)⟩]

/-- The one store covers the buffer. -/
theorem cover5_6 (p0 : Vec F S2048x256 .bf16) (y : S2048x256.Idx) :
    ∃ pc ∈ ([⟨r5_0, p0⟩] : List (View.Piece (Elt F) S2048x256 .bf16)), y ∈ pc.1.set :=
  View.cover_of_tiled [⟨r5_0, p0⟩] S2048x256.size (by rfl) y

/-- Window 7's buffer after the body, from the input windows' blocks: its one store, of the whole buffer. -/
def out5_7 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r5_0, k5_pay4 (View.ld x0 r5_0) (View.ld x3 r5_1) (View.ld x4 r5_2)⟩]

/-- The one store covers the buffer. -/
theorem cover5_7 (p0 : Vec F S2048x256 .bf16) (y : S2048x256.Idx) :
    ∃ pc ∈ ([⟨r5_0, p0⟩] : List (View.Piece (Elt F) S2048x256 .bf16)), y ∈ pc.1.set :=
  View.cover_of_tiled [⟨r5_0, p0⟩] S2048x256.size (by rfl) y

/-! ## The body's triple -/

set_option maxHeartbeats 4000000 in
/-- The kernel body on whole buffers, the inputs' at contents `xW` and the outputs' at anything, runs to the
    continuation holding the inputs' as they were and each output's at `out5_W` of the inputs' (each output buffer is
    read once before it is overwritten; the value read is not used). -/
theorem sound_kernel5 (c : Dev nD) (E : Set ℕ) (i : grid5.Coords) (arg1 : Memref sig .tc .vmem S2048x256 .f32) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S2048x2048 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole)
    (x0 : Vec F S2048x256 .f32) (x1 : Vec F S256x256 .bf16) (x2 : Vec F S256x256 .bf16) (x3 : Vec F S256x256 .bf16) (x4 : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4) ∗ owns (c : Thread nD τ) arg7 fullShare (out5_6 x0 x1 x2 x3 x4) ∗ owns (c : Thread nD τ) arg8 fullShare (out5_7 x0 x1 x2 x3 x4)) -∗ K ⟨⟩))
      ⊢ wp frame (wpE (defs₀ (F := F)) Variants.none c none) E (cc5__proj_kernel i arg1 harg1 arg2 harg2 arg3 harg3 arg4 harg4 arg5 harg5 arg6 harg6 arg7 harg7 arg8 harg8) K := by
  simp only [cc5__proj_kernel_eq_skeleton]; unfold cc5__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover5_5 _)
  isplitl [H6]
  · iexists _; isplitr
    swap; · iexact H6
    ipureintro
    exact View.read_writes_eq_canon _ _ _ (cover5_6 _)
  iexists _; isplitr
  swap; · iexact H7
  ipureintro
  exact View.read_writes_eq_canon _ _ _ (cover5_7 _)

/-! ## The pipeline's proof data -/

/-- The proof data of pipeline 5 on core `c`: the arrays as the region finds them (`V`); after the body at point `t`
    each input's buffer at its block and each output's at `out5_W` of the input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
    | ⟨6, _⟩ => out5_6 (iblk5 V c 0 t) (iblk5 V c 1 t) (iblk5 V c 2 t) (iblk5 V c 3 t) (iblk5 V c 4 t)
    | ⟨7, _⟩ => out5_7 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) := by dsimp only [dat5]

/-- The invariant at the first boundary and at the last is the class's. -/
theorem Phi_first5 (c : Dev nD) : (dat5 V c).Φ 0 = Pipeline.ΦA spec5 c := rfl
theorem Phi_last5 (c : Dev nD) : (dat5 V c).Φ (Fin.last cfg5.N) ⊢ Pipeline.ΦA spec5 c := by
  rw [show (dat5 V c).Φ (Fin.last cfg5.N) = Pipeline.ΦA spec5 c from rfl]

/-- Each input's current buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' buffers hold their blocks, so `sound_kernel5` applies; the invariant and the
    core's tallies pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
import proofs.«104406_j63058709840319_2_alg».proof.Proof.Gen.KernelIdeal.Launch
import proofs.«104406_j63058709840319_2_alg».proof.Proof.Gen.KernelIdeal.Skeleton
import proofs.«104406_j63058709840319_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The attention-and-feed-forward call over four row tiles of 512, at a parameter `V`: the buffer contents the
    call finds. Seven inputs, of which only the row tile of the first moves with the point; one output, the row
    tile the body stores, written back at every point. -/

-- membership in a rectangle of 512 × 256 and 2048 × 256 coordinates recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place: where the window is not fetched its block
    index has not moved, so the block of the point before is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s and whose body leaves the block in place: where the window is not fetched its block
    index has not moved, so the block of the point before is this point's. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s and whose body leaves the block in place: where the window is not fetched its block
    index has not moved, so the block of the point before is this point's. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s and whose body leaves the block in place: where the window is not fetched its block
    index has not moved, so the block of the point before is this point's. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s and whose body leaves the block in place: where the window is not fetched its block
    index has not moved, so the block of the point before is this point's. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not, for any proof
    data whose array is `V`'s and whose body leaves the block in place: where the window is not fetched its block
    index has not moved, so the block of the point before is this point's. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not, for any proof
    data whose array is `V`'s and whose body leaves the block in place: where the window is not fetched its block
    index has not moved, so the block of the point before is this point's. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each whole staging buffer, one rectangle per shape -/

abbrev r6_0 : Rect S512x256 := Rect.unit (s := S512x256) ![0, 0] S512x256.size inb_S512x256_S512x256_0_0
abbrev r6_1 : Rect S2048x256 := Rect.unit (s := S2048x256) ![0, 0] S2048x256.size inb_S2048x256_S2048x256_0_0
abbrev r6_2 : Rect S256x256 := Rect.unit (s := S256x256) ![0, 0] S256x256.size inb_S256x256_S256x256_0_0
abbrev r6_3 : Rect S1x256 := Rect.unit (s := S1x256) ![0, 0] S1x256.size inb_S1x256_S1x256_0_0

/-! ## What the body leaves in the output window's buffer -/

/-- The output's staging buffer after the body, from the input windows' blocks: its one store, of the row tile
    `relu(softmax(q kᵀ / 16) v W₁ + b₁) W₂ + b₂` (the second bias `x6` added last; the first bias is `x5`, the
    second weight `x4`). -/
def out6_7 (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) : Vec F S512x256 .f32 :=
  View.canon [⟨r6_0, k6_pay1 (k6_pay2 (View.ld x0 r6_0) (View.ld x1 r6_1) (View.ld x2 r6_1) (View.ld x3 r6_2) (View.ld x5 r6_3) (View.ld x4 r6_2)) (View.ld x6 r6_3)⟩]

/-- The store tiles the buffer, so it covers it. -/
theorem cover6_7 (p0 : Vec F S512x256 .f32) (y : S512x256.Idx) :
    ∃ pc ∈ ([⟨r6_0, p0⟩] : List (View.Piece (Elt F) S512x256 .f32)), y ∈ pc.1.set :=
  View.cover_of_tiled [⟨r6_0, p0⟩] S512x256.size (by rfl) y

/-! ## The body's triple -/

set_option maxHeartbeats 1000000 in
/-- The body on whole staging memrefs, the inputs' at read contents `xW` and the output's at anything, runs to the
    continuation holding the inputs' as they were and the output's at `out6_7` of the inputs'. -/
theorem sound_kernel6 (c : Dev nD) (E : Set ℕ) (i : grid6.Coords) (arg0 : Memref sig .tc .vmem S512x256 .bf16) (harg0 : arg0.IsWhole) (arg1 : Memref sig .tc .vmem S2048x256 .bf16) (harg1 : arg1.IsWhole) (arg2 : Memref sig .tc .vmem S2048x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole)
    (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out6_7 x0 x1 x2 x3 x4 x5 x6)) -∗ K ⟨⟩))
      ⊢ wp frame (wpE (defs₀ (F := F)) Variants.none c none) E (cc6__attn_ffn_kernel i arg0 harg0 arg1 harg1 arg2 harg2 arg3 harg3 arg4 harg4 arg5 harg5 arg6 harg6 arg7 harg7) K := by
  simp only [cc6__attn_ffn_kernel_eq_skeleton]; unfold cc6__attn_ffn_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The proof data -/

/-- The proof data on core `c`: the arrays as the call finds them (`V`); after the body at point `t` each input's
    buffer at its block and the output's at `out6_7` of the input blocks; the invariant the scoped rest and the
    generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

/-- The proof data's arrays are the entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

/-- The invariant at the first point and at the last is the scoped rest and the generator register. -/
theorem Phi_first6 (c : Dev nD) : (dat6 V c).Φ 0 = Pipeline.ΦA spec6 c := by dsimp only [dat6]
theorem Phi_last6 (c : Dev nD) : (dat6 V c).Φ (Fin.last cfg6.N) ⊢ Pipeline.ΦA spec6 c := by
  rw [show (dat6 V c).Φ (Fin.last cfg6.N) = Pipeline.ΦA spec6 c from rfl]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks, so `sound_kernel6` applies; the invariant and the
    core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.Reg7.lean ====
/- Region 7 of @main (the projection kernel `cc7__proj_kernel`, one grid point, five input windows and three
   output windows), at a parameter `V`: the contents of the core's buffers when the region is entered. Each output
   window's buffer after the body is the one whole-buffer store of a product of the truncated input block with a
   weight block (window 7: of the adjacency block with such a product), as the skeleton's payloads state them. -/
import proofs.«104406_j63058709840319_2_alg».proof.Proof.Gen.KernelIdeal.Launch
import proofs.«104406_j63058709840319_2_alg».proof.Proof.Gen.KernelIdeal.Skeleton
import proofs.«104406_j63058709840319_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current buffer holds its block at every point, for any proof data whose array is `V`'s
    and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current buffer holds its block at every point, for any proof data whose array is `V`'s
    and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current buffer holds its block at every point, for any proof data whose array is `V`'s
    and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current buffer holds its block at every point, for any proof data whose array is `V`'s
    and whose body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current buffer holds its block at every point, for any proof data whose array is `V`'s
    and whose body leaves the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each is a whole buffer -/

abbrev r7_0 : Rect S2048x256 := Rect.unit (s := S2048x256) ![0, 0] S2048x256.size inb_S2048x256_S2048x256_0_0
abbrev r7_1 : Rect S256x256 := Rect.unit (s := S256x256) ![0, 0] S256x256.size inb_S256x256_S256x256_0_0
abbrev r7_2 : Rect S2048x2048 := Rect.unit (s := S2048x2048) ![0, 0] S2048x2048.size inb_S2048x2048_S2048x2048_0_0

/-! ## What the body leaves in each output window's buffer -/

/-- Window 5's buffer after the body, from the input windows' blocks: its one store, of the whole buffer. -/
def out7_5 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r7_0, k7_pay2 (View.ld x0 r7_0) (View.ld x1 r7_1)⟩]

/-- The one store covers the buffer. -/
theorem cover7_5 (p0 : Vec F S2048x256 .bf16) (y : S2048x256.Idx) :
    ∃ pc ∈ ([⟨r7_0, p0⟩] : List (View.Piece (Elt F) S2048x256 .bf16)), y ∈ pc.1.set :=
  View.cover_of_tiled [⟨r7_0, p0⟩] S2048x256.size (by rfl) y

/-- Window 6's buffer after the body, from the input windows' blocks: its one store, of the whole buffer. -/
def out7_6 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r7_0, k7_pay3 (View.ld x0 r7_0) (View.ld x2 r7_1)⟩]

/-- The one store covers the buffer. -/
theorem cover7_6 (p0 : Vec F S2048x256 .bf16) (y : S2048x256.Idx) :
    ∃ pc ∈ ([⟨r7_0, p0⟩] : List (View.Piece (Elt F) S2048x256 .bf16)), y ∈ pc.1.set :=
  View.cover_of_tiled [⟨r7_0, p0⟩] S2048x256.size (by rfl) y

/-- Window 7's buffer after the body, from the input windows' blocks: its one store, of the whole buffer. -/
def out7_7 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r7_0, k7_pay4 (View.ld x0 r7_0) (View.ld x3 r7_1) (View.ld x4 r7_2)⟩]

/-- The one store covers the buffer. -/
theorem cover7_7 (p0 : Vec F S2048x256 .bf16) (y : S2048x256.Idx) :
    ∃ pc ∈ ([⟨r7_0, p0⟩] : List (View.Piece (Elt F) S2048x256 .bf16)), y ∈ pc.1.set :=
  View.cover_of_tiled [⟨r7_0, p0⟩] S2048x256.size (by rfl) y

/-! ## The body's triple -/

set_option maxHeartbeats 4000000 in
/-- The kernel body on whole buffers, the inputs' at contents `xW` and the outputs' at anything, runs to the
    continuation holding the inputs' as they were and each output's at `out7_W` of the inputs' (each output buffer is
    read once before it is overwritten; the value read is not used). -/
theorem sound_kernel7 (c : Dev nD) (E : Set ℕ) (i : grid7.Coords) (arg1 : Memref sig .tc .vmem S2048x256 .f32) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S2048x2048 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole)
    (x0 : Vec F S2048x256 .f32) (x1 : Vec F S256x256 .bf16) (x2 : Vec F S256x256 .bf16) (x3 : Vec F S256x256 .bf16) (x4 : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4) ∗ owns (c : Thread nD τ) arg7 fullShare (out7_6 x0 x1 x2 x3 x4) ∗ owns (c : Thread nD τ) arg8 fullShare (out7_7 x0 x1 x2 x3 x4)) -∗ K ⟨⟩))
      ⊢ wp frame (wpE (defs₀ (F := F)) Variants.none c none) E (cc7__proj_kernel i arg1 harg1 arg2 harg2 arg3 harg3 arg4 harg4 arg5 harg5 arg6 harg6 arg7 harg7 arg8 harg8) K := by
  simp only [cc7__proj_kernel_eq_skeleton]; unfold cc7__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover7_5 _)
  isplitl [H6]
  · iexists _; isplitr
    swap; · iexact H6
    ipureintro
    exact View.read_writes_eq_canon _ _ _ (cover7_6 _)
  iexists _; isplitr
  swap; · iexact H7
  ipureintro
  exact View.read_writes_eq_canon _ _ _ (cover7_7 _)

/-! ## The pipeline's proof data -/

/-- The proof data of pipeline 7 on core `c`: the arrays as the region finds them (`V`); after the body at point `t`
    each input's buffer at its block and each output's at `out7_W` of the input blocks; the invariant is the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
    | ⟨6, _⟩ => out7_6 (iblk7 V c 0 t) (iblk7 V c 1 t) (iblk7 V c 2 t) (iblk7 V c 3 t) (iblk7 V c 4 t)
    | ⟨7, _⟩ => out7_7 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) := by dsimp only [dat7]

/-- The invariant at the first boundary and at the last is the class's. -/
theorem Phi_first7 (c : Dev nD) : (dat7 V c).Φ 0 = Pipeline.ΦA spec7 c := rfl
theorem Phi_last7 (c : Dev nD) : (dat7 V c).Φ (Fin.last cfg7.N) ⊢ Pipeline.ΦA spec7 c := by
  rw [show (dat7 V c).Φ (Fin.last cfg7.N) = Pipeline.ΦA spec7 c from rfl]

/-- Each input's current buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' buffers hold their blocks, so `sound_kernel7` applies; the invariant and the
    core's tallies pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Reg8.lean ====
import proofs.«104406_j63058709840319_2_alg».proof.Proof.Gen.KernelIdeal.Launch
import proofs.«104406_j63058709840319_2_alg».proof.Proof.Gen.KernelIdeal.Skeleton
import proofs.«104406_j63058709840319_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The attention-and-feed-forward call over four row tiles of 512, at a parameter `V`: the buffer contents the
    call finds. Seven inputs, of which only the row tile of the first moves with the point; one output, the row
    tile the body stores, written back at every point. -/

-- membership in a rectangle of 512 × 256 and 2048 × 256 coordinates recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s and whose body leaves the block in place: where the window is not fetched its block
    index has not moved, so the block of the point before is this point's. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s and whose body leaves the block in place: where the window is not fetched its block
    index has not moved, so the block of the point before is this point's. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is `V`'s and whose body leaves the block in place: where the window is not fetched its block
    index has not moved, so the block of the point before is this point's. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof
    data whose array is `V`'s and whose body leaves the block in place: where the window is not fetched its block
    index has not moved, so the block of the point before is this point's. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof
    data whose array is `V`'s and whose body leaves the block in place: where the window is not fetched its block
    index has not moved, so the block of the point before is this point's. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, fetched there or not, for any proof
    data whose array is `V`'s and whose body leaves the block in place: where the window is not fetched its block
    index has not moved, so the block of the point before is this point's. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's current staging buffer holds its block at every point, fetched there or not, for any proof
    data whose array is `V`'s and whose body leaves the block in place: where the window is not fetched its block
    index has not moved, so the block of the point before is this point's. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each whole staging buffer, one rectangle per shape -/

abbrev r8_0 : Rect S512x256 := Rect.unit (s := S512x256) ![0, 0] S512x256.size inb_S512x256_S512x256_0_0
abbrev r8_1 : Rect S2048x256 := Rect.unit (s := S2048x256) ![0, 0] S2048x256.size inb_S2048x256_S2048x256_0_0
abbrev r8_2 : Rect S256x256 := Rect.unit (s := S256x256) ![0, 0] S256x256.size inb_S256x256_S256x256_0_0
abbrev r8_3 : Rect S1x256 := Rect.unit (s := S1x256) ![0, 0] S1x256.size inb_S1x256_S1x256_0_0

/-! ## What the body leaves in the output window's buffer -/

/-- The output's staging buffer after the body, from the input windows' blocks: its one store, of the row tile
    `relu(softmax(q kᵀ / 16) v W₁ + b₁) W₂ + b₂` (the second bias `x6` added last; the first bias is `x5`, the
    second weight `x4`). -/
def out8_7 (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) : Vec F S512x256 .f32 :=
  View.canon [⟨r8_0, k8_pay1 (k8_pay2 (View.ld x0 r8_0) (View.ld x1 r8_1) (View.ld x2 r8_1) (View.ld x3 r8_2) (View.ld x5 r8_3) (View.ld x4 r8_2)) (View.ld x6 r8_3)⟩]

/-- The store tiles the buffer, so it covers it. -/
theorem cover8_7 (p0 : Vec F S512x256 .f32) (y : S512x256.Idx) :
    ∃ pc ∈ ([⟨r8_0, p0⟩] : List (View.Piece (Elt F) S512x256 .f32)), y ∈ pc.1.set :=
  View.cover_of_tiled [⟨r8_0, p0⟩] S512x256.size (by rfl) y

/-! ## The body's triple -/

set_option maxHeartbeats 1000000 in
/-- The body on whole staging memrefs, the inputs' at read contents `xW` and the output's at anything, runs to the
    continuation holding the inputs' as they were and the output's at `out8_7` of the inputs'. -/
theorem sound_kernel8 (c : Dev nD) (E : Set ℕ) (i : grid8.Coords) (arg0 : Memref sig .tc .vmem S512x256 .bf16) (harg0 : arg0.IsWhole) (arg1 : Memref sig .tc .vmem S2048x256 .bf16) (harg1 : arg1.IsWhole) (arg2 : Memref sig .tc .vmem S2048x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole)
    (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out8_7 x0 x1 x2 x3 x4 x5 x6)) -∗ K ⟨⟩))
      ⊢ wp frame (wpE (defs₀ (F := F)) Variants.none c none) E (cc8__attn_ffn_kernel i arg0 harg0 arg1 harg1 arg2 harg2 arg3 harg3 arg4 harg4 arg5 harg5 arg6 harg6 arg7 harg7) K := by
  simp only [cc8__attn_ffn_kernel_eq_skeleton]; unfold cc8__attn_ffn_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover8_7 _)

/-! ## The proof data -/

/-- The proof data on core `c`: the arrays as the call finds them (`V`); after the body at point `t` each input's
    buffer at its block and the output's at `out8_7` of the input blocks; the invariant the scoped rest and the
    generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out8_7 (iblk8 V c 0 t) (iblk8 V c 1 t) (iblk8 V c 2 t) (iblk8 V c 3 t) (iblk8 V c 4 t) (iblk8 V c 5 t) (iblk8 V c 6 t)
  Φ _ := Pipeline.ΦA spec8 c
  q _ := fullShare
  owed _ := 0

/-- The proof data's arrays are the entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = out8_7 (iblk8 V c 0 t) (iblk8 V c 1 t) (iblk8 V c 2 t) (iblk8 V c 3 t) (iblk8 V c 4 t) (iblk8 V c 5 t) (iblk8 V c 6 t) := by dsimp only [dat8]

/-- The invariant at the first point and at the last is the scoped rest and the generator register. -/
theorem Phi_first8 (c : Dev nD) : (dat8 V c).Φ 0 = Pipeline.ΦA spec8 c := by dsimp only [dat8]
theorem Phi_last8 (c : Dev nD) : (dat8 V c).Φ (Fin.last cfg8.N) ⊢ Pipeline.ΦA spec8 c := by
  rw [show (dat8 V c).Φ (Fin.last cfg8.N) = Pipeline.ΦA spec8 c from rfl]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t))

/-- The body at any point: the inputs' memrefs hold their blocks, so `sound_kernel8` applies; the invariant and the
    core's debt pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel8 c Set.univ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand
-- ==== Proof.KI.Reg9.lean ====
/- Region 9 of @main (the projection kernel `cc9__proj_kernel`, one grid point, five input windows and three
   output windows), at a parameter `V`: the contents of the core's buffers when the region is entered. Each output
   window's buffer after the body is the one whole-buffer store of a product of the truncated input block with a
   weight block (window 7: of the adjacency block with such a product), as the skeleton's payloads state them. -/
import proofs.«104406_j63058709840319_2_alg».proof.Proof.Gen.KernelIdeal.Launch
import proofs.«104406_j63058709840319_2_alg».proof.Proof.Gen.KernelIdeal.Skeleton
import proofs.«104406_j63058709840319_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current buffer holds its block at every point, for any proof data whose array is `V`'s
    and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1's current buffer holds its block at every point, for any proof data whose array is `V`'s
    and whose body leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2's current buffer holds its block at every point, for any proof data whose array is `V`'s
    and whose body leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- Input window 3's current buffer holds its block at every point, for any proof data whose array is `V`'s
    and whose body leaves the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- Input window 4's current buffer holds its block at every point, for any proof data whose array is `V`'s
    and whose body leaves the block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each is a whole buffer -/

abbrev r9_0 : Rect S2048x256 := Rect.unit (s := S2048x256) ![0, 0] S2048x256.size inb_S2048x256_S2048x256_0_0
abbrev r9_1 : Rect S256x256 := Rect.unit (s := S256x256) ![0, 0] S256x256.size inb_S256x256_S256x256_0_0
abbrev r9_2 : Rect S2048x2048 := Rect.unit (s := S2048x2048) ![0, 0] S2048x2048.size inb_S2048x2048_S2048x2048_0_0

/-! ## What the body leaves in each output window's buffer -/

/-- Window 5's buffer after the body, from the input windows' blocks: its one store, of the whole buffer. -/
def out9_5 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r9_0, k9_pay2 (View.ld x0 r9_0) (View.ld x1 r9_1)⟩]

/-- The one store covers the buffer. -/
theorem cover9_5 (p0 : Vec F S2048x256 .bf16) (y : S2048x256.Idx) :
    ∃ pc ∈ ([⟨r9_0, p0⟩] : List (View.Piece (Elt F) S2048x256 .bf16)), y ∈ pc.1.set :=
  View.cover_of_tiled [⟨r9_0, p0⟩] S2048x256.size (by rfl) y

/-- Window 6's buffer after the body, from the input windows' blocks: its one store, of the whole buffer. -/
def out9_6 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r9_0, k9_pay3 (View.ld x0 r9_0) (View.ld x2 r9_1)⟩]

/-- The one store covers the buffer. -/
theorem cover9_6 (p0 : Vec F S2048x256 .bf16) (y : S2048x256.Idx) :
    ∃ pc ∈ ([⟨r9_0, p0⟩] : List (View.Piece (Elt F) S2048x256 .bf16)), y ∈ pc.1.set :=
  View.cover_of_tiled [⟨r9_0, p0⟩] S2048x256.size (by rfl) y

/-- Window 7's buffer after the body, from the input windows' blocks: its one store, of the whole buffer. -/
def out9_7 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r9_0, k9_pay4 (View.ld x0 r9_0) (View.ld x3 r9_1) (View.ld x4 r9_2)⟩]

/-- The one store covers the buffer. -/
theorem cover9_7 (p0 : Vec F S2048x256 .bf16) (y : S2048x256.Idx) :
    ∃ pc ∈ ([⟨r9_0, p0⟩] : List (View.Piece (Elt F) S2048x256 .bf16)), y ∈ pc.1.set :=
  View.cover_of_tiled [⟨r9_0, p0⟩] S2048x256.size (by rfl) y

/-! ## The body's triple -/

set_option maxHeartbeats 4000000 in
/-- The kernel body on whole buffers, the inputs' at contents `xW` and the outputs' at anything, runs to the
    continuation holding the inputs' as they were and each output's at `out9_W` of the inputs' (each output buffer is
    read once before it is overwritten; the value read is not used). -/
theorem sound_kernel9 (c : Dev nD) (E : Set ℕ) (i : grid9.Coords) (arg1 : Memref sig .tc .vmem S2048x256 .f32) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S2048x2048 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole)
    (x0 : Vec F S2048x256 .f32) (x1 : Vec F S256x256 .bf16) (x2 : Vec F S256x256 .bf16) (x3 : Vec F S256x256 .bf16) (x4 : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4) ∗ owns (c : Thread nD τ) arg7 fullShare (out9_6 x0 x1 x2 x3 x4) ∗ owns (c : Thread nD τ) arg8 fullShare (out9_7 x0 x1 x2 x3 x4)) -∗ K ⟨⟩))
      ⊢ wp frame (wpE (defs₀ (F := F)) Variants.none c none) E (cc9__proj_kernel i arg1 harg1 arg2 harg2 arg3 harg3 arg4 harg4 arg5 harg5 arg6 harg6 arg7 harg7 arg8 harg8) K := by
  simp only [cc9__proj_kernel_eq_skeleton]; unfold cc9__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover9_5 _)
  isplitl [H6]
  · iexists _; isplitr
    swap; · iexact H6
    ipureintro
    exact View.read_writes_eq_canon _ _ _ (cover9_6 _)
  iexists _; isplitr
  swap; · iexact H7
  ipureintro
  exact View.read_writes_eq_canon _ _ _ (cover9_7 _)

/-! ## The pipeline's proof data -/

/-- The proof data of pipeline 9 on core `c`: the arrays as the region finds them (`V`); after the body at point `t`
    each input's buffer at its block and each output's at `out9_W` of the input blocks; the invariant is the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
    | ⟨6, _⟩ => out9_6 (iblk9 V c 0 t) (iblk9 V c 1 t) (iblk9 V c 2 t) (iblk9 V c 3 t) (iblk9 V c 4 t)
    | ⟨7, _⟩ => out9_7 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]
theorem after9_6 (c : Dev nD) (t : Fin cfg9.N) : (dat9 V c).after 6 t = out9_6 (iblk9 V c 0 t) (iblk9 V c 1 t) (iblk9 V c 2 t) (iblk9 V c 3 t) (iblk9 V c 4 t) := by dsimp only [dat9]
theorem after9_7 (c : Dev nD) (t : Fin cfg9.N) : (dat9 V c).after 7 t = out9_7 (iblk9 V c 0 t) (iblk9 V c 1 t) (iblk9 V c 2 t) (iblk9 V c 3 t) (iblk9 V c 4 t) := by dsimp only [dat9]

/-- The invariant at the first boundary and at the last is the class's. -/
theorem Phi_first9 (c : Dev nD) : (dat9 V c).Φ 0 = Pipeline.ΦA spec9 c := rfl
theorem Phi_last9 (c : Dev nD) : (dat9 V c).Φ (Fin.last cfg9.N) ⊢ Pipeline.ΦA spec9 c := by
  rw [show (dat9 V c).Φ (Fin.last cfg9.N) = Pipeline.ΦA spec9 c from rfl]

/-- Each input's current buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t))

/-- The body at any point: the inputs' buffers hold their blocks, so `sound_kernel9` applies; the invariant and the
    core's tallies pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel9 c Set.univ _ _ _ _ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Reg10.lean ====
import proofs.«104406_j63058709840319_2_alg».proof.Proof.Gen.KernelIdeal.Launch
import proofs.«104406_j63058709840319_2_alg».proof.Proof.Gen.KernelIdeal.Skeleton
import proofs.«104406_j63058709840319_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The attention-and-feed-forward call over four row tiles of 512, at a parameter `V`: the buffer contents the
    call finds. Seven inputs, of which only the row tile of the first moves with the point; one output, the row
    tile the body stores, written back at every point. -/

-- membership in a rectangle of 512 × 256 and 2048 × 256 coordinates recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is `V`'s and whose body leaves the block in place: where the window is not fetched its block
    index has not moved, so the block of the point before is this point's. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof
    data whose array is `V`'s and whose body leaves the block in place: where the window is not fetched its block
    index has not moved, so the block of the point before is this point's. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof
    data whose array is `V`'s and whose body leaves the block in place: where the window is not fetched its block
    index has not moved, so the block of the point before is this point's. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof
    data whose array is `V`'s and whose body leaves the block in place: where the window is not fetched its block
    index has not moved, so the block of the point before is this point's. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof
    data whose array is `V`'s and whose body leaves the block in place: where the window is not fetched its block
    index has not moved, so the block of the point before is this point's. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's current staging buffer holds its block at every point, fetched there or not, for any proof
    data whose array is `V`'s and whose body leaves the block in place: where the window is not fetched its block
    index has not moved, so the block of the point before is this point's. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- Input window 6's current staging buffer holds its block at every point, fetched there or not, for any proof
    data whose array is `V`'s and whose body leaves the block in place: where the window is not fetched its block
    index has not moved, so the block of the point before is this point's. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each whole staging buffer, one rectangle per shape -/

abbrev r10_0 : Rect S512x256 := Rect.unit (s := S512x256) ![0, 0] S512x256.size inb_S512x256_S512x256_0_0
abbrev r10_1 : Rect S2048x256 := Rect.unit (s := S2048x256) ![0, 0] S2048x256.size inb_S2048x256_S2048x256_0_0
abbrev r10_2 : Rect S256x256 := Rect.unit (s := S256x256) ![0, 0] S256x256.size inb_S256x256_S256x256_0_0
abbrev r10_3 : Rect S1x256 := Rect.unit (s := S1x256) ![0, 0] S1x256.size inb_S1x256_S1x256_0_0

/-! ## What the body leaves in the output window's buffer -/

/-- The output's staging buffer after the body, from the input windows' blocks: its one store, of the row tile
    `relu(softmax(q kᵀ / 16) v W₁ + b₁) W₂ + b₂` (the second bias `x6` added last; the first bias is `x5`, the
    second weight `x4`). -/
def out10_7 (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) : Vec F S512x256 .f32 :=
  View.canon [⟨r10_0, k10_pay1 (k10_pay2 (View.ld x0 r10_0) (View.ld x1 r10_1) (View.ld x2 r10_1) (View.ld x3 r10_2) (View.ld x5 r10_3) (View.ld x4 r10_2)) (View.ld x6 r10_3)⟩]

/-- The store tiles the buffer, so it covers it. -/
theorem cover10_7 (p0 : Vec F S512x256 .f32) (y : S512x256.Idx) :
    ∃ pc ∈ ([⟨r10_0, p0⟩] : List (View.Piece (Elt F) S512x256 .f32)), y ∈ pc.1.set :=
  View.cover_of_tiled [⟨r10_0, p0⟩] S512x256.size (by rfl) y

/-! ## The body's triple -/

set_option maxHeartbeats 1000000 in
/-- The body on whole staging memrefs, the inputs' at read contents `xW` and the output's at anything, runs to the
    continuation holding the inputs' as they were and the output's at `out10_7` of the inputs'. -/
theorem sound_kernel10 (c : Dev nD) (E : Set ℕ) (i : grid10.Coords) (arg0 : Memref sig .tc .vmem S512x256 .bf16) (harg0 : arg0.IsWhole) (arg1 : Memref sig .tc .vmem S2048x256 .bf16) (harg1 : arg1.IsWhole) (arg2 : Memref sig .tc .vmem S2048x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole)
    (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out10_7 x0 x1 x2 x3 x4 x5 x6)) -∗ K ⟨⟩))
      ⊢ wp frame (wpE (defs₀ (F := F)) Variants.none c none) E (cc10__attn_ffn_kernel i arg0 harg0 arg1 harg1 arg2 harg2 arg3 harg3 arg4 harg4 arg5 harg5 arg6 harg6 arg7 harg7) K := by
  simp only [cc10__attn_ffn_kernel_eq_skeleton]; unfold cc10__attn_ffn_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover10_7 _)

/-! ## The proof data -/

/-- The proof data on core `c`: the arrays as the call finds them (`V`); after the body at point `t` each input's
    buffer at its block and the output's at `out10_7` of the input blocks; the invariant the scoped rest and the
    generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out10_7 (iblk10 V c 0 t) (iblk10 V c 1 t) (iblk10 V c 2 t) (iblk10 V c 3 t) (iblk10 V c 4 t) (iblk10 V c 5 t) (iblk10 V c 6 t)
  Φ _ := Pipeline.ΦA spec10 c
  q _ := fullShare
  owed _ := 0

/-- The proof data's arrays are the entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = out10_7 (iblk10 V c 0 t) (iblk10 V c 1 t) (iblk10 V c 2 t) (iblk10 V c 3 t) (iblk10 V c 4 t) (iblk10 V c 5 t) (iblk10 V c 6 t) := by dsimp only [dat10]

/-- The invariant at the first point and at the last is the scoped rest and the generator register. -/
theorem Phi_first10 (c : Dev nD) : (dat10 V c).Φ 0 = Pipeline.ΦA spec10 c := by dsimp only [dat10]
theorem Phi_last10 (c : Dev nD) : (dat10 V c).Φ (Fin.last cfg10.N) ⊢ Pipeline.ΦA spec10 c := by
  rw [show (dat10 V c).Φ (Fin.last cfg10.N) = Pipeline.ΦA spec10 c from rfl]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t))

/-- The body at any point: the inputs' memrefs hold their blocks, so `sound_kernel10` applies; the invariant and the
    core's debt pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel10 c Set.univ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand
-- ==== Proof.KI.Reg11.lean ====
/- Region 11 of @main (the projection kernel `cc11__proj_kernel`, one grid point, five input windows and three
   output windows), at a parameter `V`: the contents of the core's buffers when the region is entered. Each output
   window's buffer after the body is the one whole-buffer store of a product of the truncated input block with a
   weight block (window 7: of the adjacency block with such a product), as the skeleton's payloads state them. -/
import proofs.«104406_j63058709840319_2_alg».proof.Proof.Gen.KernelIdeal.Launch
import proofs.«104406_j63058709840319_2_alg».proof.Proof.Gen.KernelIdeal.Skeleton
import proofs.«104406_j63058709840319_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current buffer holds its block at every point, for any proof data whose array is `V`'s
    and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current buffer holds its block at every point, for any proof data whose array is `V`'s
    and whose body leaves the block in place. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current buffer holds its block at every point, for any proof data whose array is `V`'s
    and whose body leaves the block in place. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3's current buffer holds its block at every point, for any proof data whose array is `V`'s
    and whose body leaves the block in place. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4's current buffer holds its block at every point, for any proof data whose array is `V`'s
    and whose body leaves the block in place. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each is a whole buffer -/

abbrev r11_0 : Rect S2048x256 := Rect.unit (s := S2048x256) ![0, 0] S2048x256.size inb_S2048x256_S2048x256_0_0
abbrev r11_1 : Rect S256x256 := Rect.unit (s := S256x256) ![0, 0] S256x256.size inb_S256x256_S256x256_0_0
abbrev r11_2 : Rect S2048x2048 := Rect.unit (s := S2048x2048) ![0, 0] S2048x2048.size inb_S2048x2048_S2048x2048_0_0

/-! ## What the body leaves in each output window's buffer -/

/-- Window 5's buffer after the body, from the input windows' blocks: its one store, of the whole buffer. -/
def out11_5 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r11_0, k11_pay2 (View.ld x0 r11_0) (View.ld x1 r11_1)⟩]

/-- The one store covers the buffer. -/
theorem cover11_5 (p0 : Vec F S2048x256 .bf16) (y : S2048x256.Idx) :
    ∃ pc ∈ ([⟨r11_0, p0⟩] : List (View.Piece (Elt F) S2048x256 .bf16)), y ∈ pc.1.set :=
  View.cover_of_tiled [⟨r11_0, p0⟩] S2048x256.size (by rfl) y

/-- Window 6's buffer after the body, from the input windows' blocks: its one store, of the whole buffer. -/
def out11_6 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r11_0, k11_pay3 (View.ld x0 r11_0) (View.ld x2 r11_1)⟩]

/-- The one store covers the buffer. -/
theorem cover11_6 (p0 : Vec F S2048x256 .bf16) (y : S2048x256.Idx) :
    ∃ pc ∈ ([⟨r11_0, p0⟩] : List (View.Piece (Elt F) S2048x256 .bf16)), y ∈ pc.1.set :=
  View.cover_of_tiled [⟨r11_0, p0⟩] S2048x256.size (by rfl) y

/-- Window 7's buffer after the body, from the input windows' blocks: its one store, of the whole buffer. -/
def out11_7 (x0 : Vec F S2048x256 .f32) (x1 : Vec F S256x256 .bf16) (x2 : Vec F S256x256 .bf16) (x3 : Vec F S256x256 .bf16) (x4 : Vec F S2048x2048 .bf16) : Vec F S2048x256 .bf16 :=
  View.canon [⟨r11_0, k11_pay4 (View.ld x0 r11_0) (View.ld x3 r11_1) (View.ld x4 r11_2)⟩]

/-- The one store covers the buffer. -/
theorem cover11_7 (p0 : Vec F S2048x256 .bf16) (y : S2048x256.Idx) :
    ∃ pc ∈ ([⟨r11_0, p0⟩] : List (View.Piece (Elt F) S2048x256 .bf16)), y ∈ pc.1.set :=
  View.cover_of_tiled [⟨r11_0, p0⟩] S2048x256.size (by rfl) y

/-! ## The body's triple -/

set_option maxHeartbeats 4000000 in
/-- The kernel body on whole buffers, the inputs' at contents `xW` and the outputs' at anything, runs to the
    continuation holding the inputs' as they were and each output's at `out11_W` of the inputs' (each output buffer is
    read once before it is overwritten; the value read is not used). -/
theorem sound_kernel11 (c : Dev nD) (E : Set ℕ) (i : grid11.Coords) (arg1 : Memref sig .tc .vmem S2048x256 .f32) (harg1 : arg1.IsWhole) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S2048x2048 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole)
    (x0 : Vec F S2048x256 .f32) (x1 : Vec F S256x256 .bf16) (x2 : Vec F S256x256 .bf16) (x3 : Vec F S256x256 .bf16) (x4 : Vec F S2048x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out11_5 x0 x1 x2 x3 x4) ∗ owns (c : Thread nD τ) arg7 fullShare (out11_6 x0 x1 x2 x3 x4) ∗ owns (c : Thread nD τ) arg8 fullShare (out11_7 x0 x1 x2 x3 x4)) -∗ K ⟨⟩))
      ⊢ wp frame (wpE (defs₀ (F := F)) Variants.none c none) E (cc11__proj_kernel i arg1 harg1 arg2 harg2 arg3 harg3 arg4 harg4 arg5 harg5 arg6 harg6 arg7 harg7 arg8 harg8) K := by
  simp only [cc11__proj_kernel_eq_skeleton]; unfold cc11__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover11_5 _)
  isplitl [H6]
  · iexists _; isplitr
    swap; · iexact H6
    ipureintro
    exact View.read_writes_eq_canon _ _ _ (cover11_6 _)
  iexists _; isplitr
  swap; · iexact H7
  ipureintro
  exact View.read_writes_eq_canon _ _ _ (cover11_7 _)

/-! ## The pipeline's proof data -/

/-- The proof data of pipeline 11 on core `c`: the arrays as the region finds them (`V`); after the body at point `t`
    each input's buffer at its block and each output's at `out11_W` of the input blocks; the invariant is the scoped
    rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
    | ⟨6, _⟩ => out11_6 (iblk11 V c 0 t) (iblk11 V c 1 t) (iblk11 V c 2 t) (iblk11 V c 3 t) (iblk11 V c 4 t)
    | ⟨7, _⟩ => out11_7 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) := by dsimp only [dat11]
theorem after11_7 (c : Dev nD) (t : Fin cfg11.N) : (dat11 V c).after 7 t = out11_7 (iblk11 V c 0 t) (iblk11 V c 1 t) (iblk11 V c 2 t) (iblk11 V c 3 t) (iblk11 V c 4 t) := by dsimp only [dat11]

/-- The invariant at the first boundary and at the last is the class's. -/
theorem Phi_first11 (c : Dev nD) : (dat11 V c).Φ 0 = Pipeline.ΦA spec11 c := rfl
theorem Phi_last11 (c : Dev nD) : (dat11 V c).Φ (Fin.last cfg11.N) ⊢ Pipeline.ΦA spec11 c := by
  rw [show (dat11 V c).Φ (Fin.last cfg11.N) = Pipeline.ΦA spec11 c from rfl]

/-- Each input's current buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d))
    ∗ (∃ d, owns (c : Thread nD τ) (st11_7 t) fullShare ((dat11 V c).before 7 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t)
    ∗ owns (c : Thread nD τ) (st11_7 t) fullShare ((dat11 V c).after 7 t))

/-- The body at any point: the inputs' buffers hold their blocks, so `sound_kernel11` applies; the invariant and the
    core's tallies pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel11 c Set.univ _ _ _ _ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.Reg12.lean ====
import proofs.«104406_j63058709840319_2_alg».proof.Proof.Gen.KernelIdeal.Launch
import proofs.«104406_j63058709840319_2_alg».proof.Proof.Gen.KernelIdeal.Skeleton
import proofs.«104406_j63058709840319_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The attention-and-feed-forward call over four row tiles of 512, at a parameter `V`: the buffer contents the
    call finds. Seven inputs, of which only the row tile of the first moves with the point; one output, the row
    tile the body stores, written back at every point. -/

-- membership in a rectangle of 512 × 256 and 2048 × 256 coordinates recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for any proof
    data whose array is `V`'s and whose body leaves the block in place: where the window is not fetched its block
    index has not moved, so the block of the point before is this point's. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not, for any proof
    data whose array is `V`'s and whose body leaves the block in place: where the window is not fetched its block
    index has not moved, so the block of the point before is this point's. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not, for any proof
    data whose array is `V`'s and whose body leaves the block in place: where the window is not fetched its block
    index has not moved, so the block of the point before is this point's. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's current staging buffer holds its block at every point, fetched there or not, for any proof
    data whose array is `V`'s and whose body leaves the block in place: where the window is not fetched its block
    index has not moved, so the block of the point before is this point's. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's current staging buffer holds its block at every point, fetched there or not, for any proof
    data whose array is `V`'s and whose body leaves the block in place: where the window is not fetched its block
    index has not moved, so the block of the point before is this point's. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- Input window 5's current staging buffer holds its block at every point, fetched there or not, for any proof
    data whose array is `V`'s and whose body leaves the block in place: where the window is not fetched its block
    index has not moved, so the block of the point before is this point's. -/
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

/-- Input window 6's current staging buffer holds its block at every point, fetched there or not, for any proof
    data whose array is `V`'s and whose body leaves the block in place: where the window is not fetched its block
    index has not moved, so the block of the point before is this point's. -/
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each whole staging buffer, one rectangle per shape -/

abbrev r12_0 : Rect S512x256 := Rect.unit (s := S512x256) ![0, 0] S512x256.size inb_S512x256_S512x256_0_0
abbrev r12_1 : Rect S2048x256 := Rect.unit (s := S2048x256) ![0, 0] S2048x256.size inb_S2048x256_S2048x256_0_0
abbrev r12_2 : Rect S256x256 := Rect.unit (s := S256x256) ![0, 0] S256x256.size inb_S256x256_S256x256_0_0
abbrev r12_3 : Rect S1x256 := Rect.unit (s := S1x256) ![0, 0] S1x256.size inb_S1x256_S1x256_0_0

/-! ## What the body leaves in the output window's buffer -/

/-- The output's staging buffer after the body, from the input windows' blocks: its one store, of the row tile
    `relu(softmax(q kᵀ / 16) v W₁ + b₁) W₂ + b₂` (the second bias `x6` added last; the first bias is `x5`, the
    second weight `x4`). -/
def out12_7 (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) : Vec F S512x256 .f32 :=
  View.canon [⟨r12_0, k12_pay1 (k12_pay2 (View.ld x0 r12_0) (View.ld x1 r12_1) (View.ld x2 r12_1) (View.ld x3 r12_2) (View.ld x5 r12_3) (View.ld x4 r12_2)) (View.ld x6 r12_3)⟩]

/-- The store tiles the buffer, so it covers it. -/
theorem cover12_7 (p0 : Vec F S512x256 .f32) (y : S512x256.Idx) :
    ∃ pc ∈ ([⟨r12_0, p0⟩] : List (View.Piece (Elt F) S512x256 .f32)), y ∈ pc.1.set :=
  View.cover_of_tiled [⟨r12_0, p0⟩] S512x256.size (by rfl) y

/-! ## The body's triple -/

set_option maxHeartbeats 1000000 in
/-- The body on whole staging memrefs, the inputs' at read contents `xW` and the output's at anything, runs to the
    continuation holding the inputs' as they were and the output's at `out12_7` of the inputs'. -/
theorem sound_kernel12 (c : Dev nD) (E : Set ℕ) (i : grid12.Coords) (arg0 : Memref sig .tc .vmem S512x256 .bf16) (harg0 : arg0.IsWhole) (arg1 : Memref sig .tc .vmem S2048x256 .bf16) (harg1 : arg1.IsWhole) (arg2 : Memref sig .tc .vmem S2048x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole)
    (x0 : Vec F S512x256 .bf16) (x1 : Vec F S2048x256 .bf16) (x2 : Vec F S2048x256 .bf16) (x3 : Vec F S256x256 .bf16) (x4 : Vec F S256x256 .bf16) (x5 : Vec F S1x256 .f32) (x6 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out12_7 x0 x1 x2 x3 x4 x5 x6)) -∗ K ⟨⟩))
      ⊢ wp frame (wpE (defs₀ (F := F)) Variants.none c none) E (cc12__attn_ffn_kernel i arg0 harg0 arg1 harg1 arg2 harg2 arg3 harg3 arg4 harg4 arg5 harg5 arg6 harg6 arg7 harg7) K := by
  simp only [cc12__attn_ffn_kernel_eq_skeleton]; unfold cc12__attn_ffn_kernel_skel
  simp only [k12_part1_eq_skeleton]; unfold k12_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover12_7 _)

/-! ## The proof data -/

/-- The proof data on core `c`: the arrays as the call finds them (`V`); after the body at point `t` each input's
    buffer at its block and the output's at `out12_7` of the input blocks; the invariant the scoped rest and the
    generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out12_7 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

/-- The proof data's arrays are the entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = out12_7 (iblk12 V c 0 t) (iblk12 V c 1 t) (iblk12 V c 2 t) (iblk12 V c 3 t) (iblk12 V c 4 t) (iblk12 V c 5 t) (iblk12 V c 6 t) := by dsimp only [dat12]

/-- The invariant at the first point and at the last is the scoped rest and the generator register. -/
theorem Phi_first12 (c : Dev nD) : (dat12 V c).Φ 0 = Pipeline.ΦA spec12 c := by dsimp only [dat12]
theorem Phi_last12 (c : Dev nD) : (dat12 V c).Φ (Fin.last cfg12.N) ⊢ Pipeline.ΦA spec12 c := by
  rw [show (dat12 V c).Φ (Fin.last cfg12.N) = Pipeline.ΦA spec12 c from rfl]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t))

/-- The body at any point: the inputs' memrefs hold their blocks, so `sound_kernel12` applies; the invariant and the
    core's debt pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel12 c Set.univ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand
-- ==== Proof.KI.Reg13.lean ====
/- Region 13 (the gating call) at a parameter `V`, the buffer contents when the region is entered: each window's
   block at the single grid point, what the body leaves in the output window's buffer, the body's triple, the
   pipeline's proof data and the body obligation. Generic in the float model. -/
import proofs.«104406_j63058709840319_2_alg».proof.Proof.Gen.KernelIdeal.Launch
import proofs.«104406_j63058709840319_2_alg».proof.Proof.Gen.KernelIdeal.Skeleton
import proofs.«104406_j63058709840319_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region13
-- the buffer contents when the region is entered
variable (V : (c : Dev nD) → (b : Ref sig .tc) → Buf (Elt F) ((c : Thread nD τ).loc b))

/-! ## The windows' blocks -/

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, for any proof data whose array is
    `V`'s and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, for any proof data whose array is
    `V`'s and whose body leaves the block in place. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, for any proof data whose array is
    `V`'s and whose body leaves the block in place. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, for any proof data whose array is
    `V`'s and whose body leaves the block in place. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's current staging buffer holds its block at every point, for any proof data whose array is
    `V`'s and whose body leaves the block in place. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Input window 5's current staging buffer holds its block at every point, for any proof data whose array is
    `V`'s and whose body leaves the block in place. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-- Input window 6's current staging buffer holds its block at every point, for any proof data whose array is
    `V`'s and whose body leaves the block in place. -/
theorem before13_6_of {c : Dev nD} (dat : Dat τ (Elt F) Unit ℕ (UR sig nD τ) ℕ cfg13 c) (hA : dat.A 6 = V c (Pipeline.arrRef spec13 6))
    (hafter : ∀ t, dat.after 6 t = iblk13 V c 6 t) (t : Fin cfg13.N) (d) : dat.before 6 t d = iblk13 V c 6 t :=
  (dat.before_in_eq_fetched 6 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: every load and the store take a whole buffer -/

abbrev r13_a : Rect S2048x256 := Rect.unit (s := S2048x256) ![0, 0] S2048x256.size inb_S2048x256_S2048x256_0_0
abbrev r13_b : Rect S1x256 := Rect.unit (s := S1x256) ![0, 0] S1x256.size inb_S1x256_S1x256_0_0
abbrev r13_c : Rect S768x1 := Rect.unit (s := S768x1) ![0, 0] S768x1.size inb_S768x1_S768x1_0_0
abbrev r13_d : Rect S1x1 := Rect.unit (s := S1x1) ![0, 0] S1x1.size inb_S1x1_S1x1_0_0
abbrev r13_e : Rect S256x128 := Rect.unit (s := S256x128) ![0, 0] S256x128.size inb_S256x128_S256x128_0_0
abbrev r13_o : Rect S2048x128 := Rect.unit (s := S2048x128) ![0, 0] S2048x128.size inb_S2048x128_S2048x128_0_0

/-! ## What the body leaves in the output window's buffer -/

/-- Window 7's staging buffer after the body, from the input windows' blocks: its one store, of the gated mixture
    times the padded candidate column, over the whole buffer. -/
def out13_7 (x0 : Vec F S2048x256 .f32) (x1 : Vec F S1x256 .bf16) (x2 : Vec F S2048x256 .bf16) (x3 : Vec F S1x256 .bf16) (x4 : Vec F S768x1 .bf16) (x5 : Vec F S1x1 .f32) (x6 : Vec F S256x128 .bf16) : Vec F S2048x128 .f32 :=
  View.canon [⟨r13_o, k13_pay1 (View.ld x0 r13_a) (View.ld x1 r13_b) (View.ld x2 r13_a) (View.ld x3 r13_b) (View.ld x4 r13_c) (View.ld x5 r13_d) (View.ld x6 r13_e)⟩]

/-- The one store is of the whole buffer, so it covers it. -/
theorem cover13_7 (p0 : Vec F S2048x128 .f32) (y : S2048x128.Idx) :
    ∃ pc ∈ ([⟨r13_o, p0⟩] : List (View.Piece (Elt F) S2048x128 .f32)), y ∈ pc.1.set :=
  View.cover_of_tiled [⟨r13_o, p0⟩] S2048x128.size (by rfl) y

/-! ## The body's triple -/

set_option maxHeartbeats 4000000 in
/-- The kernel body on whole staging memrefs, the inputs' at read contents and the output's at anything, runs to the
    continuation holding the inputs' as they were and the output's at `out13_7` of the inputs'. The body also reads the
    output buffer before its store; the value read is not used. -/
theorem sound_kernel13 (c : Dev nD) (E : Set ℕ) (i : grid13.Coords) (arg1 : Memref sig .tc .vmem S2048x256 .f32) (harg1 : arg1.IsWhole) (arg2 : Memref sig .tc .vmem S1x256 .bf16) (harg2 : arg2.IsWhole) (arg3 : Memref sig .tc .vmem S2048x256 .bf16) (harg3 : arg3.IsWhole) (arg4 : Memref sig .tc .vmem S1x256 .bf16) (harg4 : arg4.IsWhole) (arg5 : Memref sig .tc .vmem S768x1 .bf16) (harg5 : arg5.IsWhole) (arg6 : Memref sig .tc .vmem S1x1 .f32) (harg6 : arg6.IsWhole) (arg7 : Memref sig .tc .vmem S256x128 .bf16) (harg7 : arg7.IsWhole) (arg8 : Memref sig .tc .vmem S2048x128 .f32) (harg8 : arg8.IsWhole)
    (x0 : Vec F S2048x256 .f32) (x1 : Vec F S1x256 .bf16) (x2 : Vec F S2048x256 .bf16) (x3 : Vec F S1x256 .bf16) (x4 : Vec F S768x1 .bf16) (x5 : Vec F S1x1 .f32) (x6 : Vec F S256x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out13_7 x0 x1 x2 x3 x4 x5 x6)) -∗ K ⟨⟩))
      ⊢ wp frame (wpE (defs₀ (F := F)) Variants.none c none) E (cc13__gating_kernel i arg1 harg1 arg2 harg2 arg3 harg3 arg4 harg4 arg5 harg5 arg6 harg6 arg7 harg7 arg8 harg8) K := by
  simp only [cc13__gating_kernel_eq_skeleton]; unfold cc13__gating_kernel_skel
  simp only [k13_part1_eq_skeleton]; unfold k13_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover13_7 _)

/-! ## The pipeline's proof data -/

/-- The proof data of pipeline 13 on core `c`: the arrays as the region finds them; after the body each input's
    buffer at its block and the output's at `out13_7` of the input blocks; the invariant the scoped rest and the
    generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => iblk13 V c 6 t
    | ⟨7, _⟩ => out13_7 (iblk13 V c 0 t) (iblk13 V c 1 t) (iblk13 V c 2 t) (iblk13 V c 3 t) (iblk13 V c 4 t) (iblk13 V c 5 t) (iblk13 V c 6 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = iblk13 V c 6 t := by dsimp only [dat13]
theorem after13_7 (c : Dev nD) (t : Fin cfg13.N) : (dat13 V c).after 7 t = out13_7 (iblk13 V c 0 t) (iblk13 V c 1 t) (iblk13 V c 2 t) (iblk13 V c 3 t) (iblk13 V c 4 t) (iblk13 V c 5 t) (iblk13 V c 6 t) := by dsimp only [dat13]

/-- The invariant at the first and at the last point is the class's. -/
theorem Phi_first13 (c : Dev nD) : (dat13 V c).Φ 0 = Pipeline.ΦA spec13 c := rfl
theorem Phi_last13 (c : Dev nD) : (dat13 V c).Φ (Fin.last cfg13.N) ⊢ Pipeline.ΦA spec13 c := by
  show Pipeline.ΦA spec13 c ⊢ Pipeline.ΦA spec13 c
  exact BI.Entails.refl _

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d
theorem before13_6 (c : Dev nD) (t : Fin cfg13.N) (d) : (dat13 V c).before 6 t d = iblk13 V c 6 t :=
  before13_6_of V (dat13 V c) (A_eq13 V c 6) (after13_6 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d))
    ∗ (∃ d, owns (c : Thread nD τ) (st13_7 t) fullShare ((dat13 V c).before 7 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t)
    ∗ owns (c : Thread nD τ) (st13_7 t) fullShare ((dat13 V c).after 7 t))

set_option maxHeartbeats 1000000 in
/-- The body at any point: the inputs' memrefs hold their blocks, so `sound_kernel13` applies; the invariant and the
    core's `owes` pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5, before13_6]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6, after13_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel13 c Set.univ _ _ _ _ _ _ _ _ _ _ _ _ _ _ _ _ _ (iblk13 V c 0 t) (iblk13 V c 1 t) (iblk13 V c 2 t) (iblk13 V c 3 t) (iblk13 V c 4 t) (iblk13 V c 5 t) (iblk13 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation13 (c : Dev nD) : BodyObligation (dat13 (F := F) V c) (defs₀ (F := F)) Variants.none () Set.univ := fun t => by
  rw [bigSep_W13, bigSep_W13]
  exact sound_body13 V c t

end Region13

end Cert.KernelIdeal.Hand

end
-- ==== Proof.KI.Pdats.lean ====
/- The buffer contents between the program's items, as closed definitions, and the pipelines' proof data at them,
   for any float model F. The generated valuations Gen.V0 … Gen.V27 are written over unknown contents outs
   that the kernel regions leave; here those contents are given region by region, each over the valuation the
   regions before it produce, so that nothing refers to itself: region K leaves in its output arrays what its
   pipeline's proof data fold there (Dat.arrAt … N) from the contents it is entered at. Then the proof data
   family, and per region the two facts that put its arrays back among the unscoped buffers: every array of the
   region ends at the exit valuation's value, and every other buffer is as at entry. -/
import proofs.«104406_j63058709840319_2_alg».proof.Proof.Gen.KernelIdeal.Regions
import proofs.«104406_j63058709840319_2_alg».proof.Proof.KI.Reg0
import proofs.«104406_j63058709840319_2_alg».proof.Proof.KI.Reg1
import proofs.«104406_j63058709840319_2_alg».proof.Proof.KI.Reg2
import proofs.«104406_j63058709840319_2_alg».proof.Proof.KI.Reg3
import proofs.«104406_j63058709840319_2_alg».proof.Proof.KI.Reg4
import proofs.«104406_j63058709840319_2_alg».proof.Proof.KI.Reg5
import proofs.«104406_j63058709840319_2_alg».proof.Proof.KI.Reg6
import proofs.«104406_j63058709840319_2_alg».proof.Proof.KI.Reg7
import proofs.«104406_j63058709840319_2_alg».proof.Proof.KI.Reg8
import proofs.«104406_j63058709840319_2_alg».proof.Proof.KI.Reg9
import proofs.«104406_j63058709840319_2_alg».proof.Proof.KI.Reg10
import proofs.«104406_j63058709840319_2_alg».proof.Proof.KI.Reg11
import proofs.«104406_j63058709840319_2_alg».proof.Proof.KI.Reg12
import proofs.«104406_j63058709840319_2_alg».proof.Proof.KI.Reg13

-- decided memberships among the program's references recurse past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each region leaves, by stages -/

/-- Before any region has run: the launch contents (read nowhere by the valuations; a total answer). -/
def outsTo0 : Outs (F := F) := fun _ r c => m ((c : Thread nD τ).loc r)

/-- What region 0 leaves: its arrays at what its pipeline folds there from the contents it is entered at
    (Gen.V6), every other buffer as entered. Read at main_v6. -/
def o7 : (r : Ref sig .tc) → (c : Dev nD) → Buf (Elt F) ((c : Thread nD τ).loc r) := fun r c =>
  Pipeline.withArrays spec0 c (Gen.V6 m c) (fun w => (dat0 (fun c b => Gen.V6 m c b) c).arrAt w cfg0.N) (Proc.devRef .tc r)
/-- The contents left by the regions up to region 0. -/
def outsTo1 : Outs (F := F) := fun J => match J with | 7 => o7 m | _ => outsTo0 m J

/-- What region 1 leaves: its arrays at what its pipeline folds there from the contents it is entered at
    (Gen.V7), every other buffer as entered. Read at main_v7. -/
def o8 : (r : Ref sig .tc) → (c : Dev nD) → Buf (Elt F) ((c : Thread nD τ).loc r) := fun r c =>
  Pipeline.withArrays spec1 c (Gen.V7 m (outsTo1 m) c) (fun w => (dat1 (fun c b => Gen.V7 m (outsTo1 m) c b) c).arrAt w cfg1.N) (Proc.devRef .tc r)
/-- The contents left by the regions up to region 1. -/
def outsTo2 : Outs (F := F) := fun J => match J with | 8 => o8 m | _ => outsTo1 m J

/-- What region 2 leaves: its arrays at what its pipeline folds there from the contents it is entered at
    (Gen.V9), every other buffer as entered. Read at main_v16. -/
def o10 : (r : Ref sig .tc) → (c : Dev nD) → Buf (Elt F) ((c : Thread nD τ).loc r) := fun r c =>
  Pipeline.withArrays spec2 c (Gen.V9 m (outsTo2 m) c) (fun w => (dat2 (fun c b => Gen.V9 m (outsTo2 m) c b) c).arrAt w cfg2.N) (Proc.devRef .tc r)
/-- The contents left by the regions up to region 2. -/
def outsTo3 : Outs (F := F) := fun J => match J with | 10 => o10 m | _ => outsTo2 m J

/-- What region 3 leaves: its arrays at what its pipeline folds there from the contents it is entered at
    (Gen.V13), every other buffer as entered. Read at main_v21_0, main_v21_1, main_v21_2. -/
def o14 : (r : Ref sig .tc) → (c : Dev nD) → Buf (Elt F) ((c : Thread nD τ).loc r) := fun r c =>
  Pipeline.withArrays spec3 c (Gen.V13 m (outsTo3 m) c) (fun w => (dat3 (fun c b => Gen.V13 m (outsTo3 m) c b) c).arrAt w cfg3.N) (Proc.devRef .tc r)
/-- The contents left by the regions up to region 3. -/
def outsTo4 : Outs (F := F) := fun J => match J with | 14 => o14 m | _ => outsTo3 m J

/-- What region 4 leaves: its arrays at what its pipeline folds there from the contents it is entered at
    (Gen.V14), every other buffer as entered. Read at main_v22. -/
def o15 : (r : Ref sig .tc) → (c : Dev nD) → Buf (Elt F) ((c : Thread nD τ).loc r) := fun r c =>
  Pipeline.withArrays spec4 c (Gen.V14 m (outsTo4 m) c) (fun w => (dat4 (fun c b => Gen.V14 m (outsTo4 m) c b) c).arrAt w cfg4.N) (Proc.devRef .tc r)
/-- The contents left by the regions up to region 4. -/
def outsTo5 : Outs (F := F) := fun J => match J with | 15 => o15 m | _ => outsTo4 m J

/-- What region 5 leaves: its arrays at what its pipeline folds there from the contents it is entered at
    (Gen.V15), every other buffer as entered. Read at main_v23_0, main_v23_1, main_v23_2. -/
def o16 : (r : Ref sig .tc) → (c : Dev nD) → Buf (Elt F) ((c : Thread nD τ).loc r) := fun r c =>
  Pipeline.withArrays spec5 c (Gen.V15 m (outsTo5 m) c) (fun w => (dat5 (fun c b => Gen.V15 m (outsTo5 m) c b) c).arrAt w cfg5.N) (Proc.devRef .tc r)
/-- The contents left by the regions up to region 5. -/
def outsTo6 : Outs (F := F) := fun J => match J with | 16 => o16 m | _ => outsTo5 m J

/-- What region 6 leaves: its arrays at what its pipeline folds there from the contents it is entered at
    (Gen.V16), every other buffer as entered. Read at main_v24. -/
def o17 : (r : Ref sig .tc) → (c : Dev nD) → Buf (Elt F) ((c : Thread nD τ).loc r) := fun r c =>
  Pipeline.withArrays spec6 c (Gen.V16 m (outsTo6 m) c) (fun w => (dat6 (fun c b => Gen.V16 m (outsTo6 m) c b) c).arrAt w cfg6.N) (Proc.devRef .tc r)
/-- The contents left by the regions up to region 6. -/
def outsTo7 : Outs (F := F) := fun J => match J with | 17 => o17 m | _ => outsTo6 m J

/-- What region 7 leaves: its arrays at what its pipeline folds there from the contents it is entered at
    (Gen.V17), every other buffer as entered. Read at main_v25_0, main_v25_1, main_v25_2. -/
def o18 : (r : Ref sig .tc) → (c : Dev nD) → Buf (Elt F) ((c : Thread nD τ).loc r) := fun r c =>
  Pipeline.withArrays spec7 c (Gen.V17 m (outsTo7 m) c) (fun w => (dat7 (fun c b => Gen.V17 m (outsTo7 m) c b) c).arrAt w cfg7.N) (Proc.devRef .tc r)
/-- The contents left by the regions up to region 7. -/
def outsTo8 : Outs (F := F) := fun J => match J with | 18 => o18 m | _ => outsTo7 m J

/-- What region 8 leaves: its arrays at what its pipeline folds there from the contents it is entered at
    (Gen.V18), every other buffer as entered. Read at main_v26. -/
def o19 : (r : Ref sig .tc) → (c : Dev nD) → Buf (Elt F) ((c : Thread nD τ).loc r) := fun r c =>
  Pipeline.withArrays spec8 c (Gen.V18 m (outsTo8 m) c) (fun w => (dat8 (fun c b => Gen.V18 m (outsTo8 m) c b) c).arrAt w cfg8.N) (Proc.devRef .tc r)
/-- The contents left by the regions up to region 8. -/
def outsTo9 : Outs (F := F) := fun J => match J with | 19 => o19 m | _ => outsTo8 m J

/-- What region 9 leaves: its arrays at what its pipeline folds there from the contents it is entered at
    (Gen.V19), every other buffer as entered. Read at main_v27_0, main_v27_1, main_v27_2. -/
def o20 : (r : Ref sig .tc) → (c : Dev nD) → Buf (Elt F) ((c : Thread nD τ).loc r) := fun r c =>
  Pipeline.withArrays spec9 c (Gen.V19 m (outsTo9 m) c) (fun w => (dat9 (fun c b => Gen.V19 m (outsTo9 m) c b) c).arrAt w cfg9.N) (Proc.devRef .tc r)
/-- The contents left by the regions up to region 9. -/
def outsTo10 : Outs (F := F) := fun J => match J with | 20 => o20 m | _ => outsTo9 m J

/-- What region 10 leaves: its arrays at what its pipeline folds there from the contents it is entered at
    (Gen.V20), every other buffer as entered. Read at main_v28. -/
def o21 : (r : Ref sig .tc) → (c : Dev nD) → Buf (Elt F) ((c : Thread nD τ).loc r) := fun r c =>
  Pipeline.withArrays spec10 c (Gen.V20 m (outsTo10 m) c) (fun w => (dat10 (fun c b => Gen.V20 m (outsTo10 m) c b) c).arrAt w cfg10.N) (Proc.devRef .tc r)
/-- The contents left by the regions up to region 10. -/
def outsTo11 : Outs (F := F) := fun J => match J with | 21 => o21 m | _ => outsTo10 m J

/-- What region 11 leaves: its arrays at what its pipeline folds there from the contents it is entered at
    (Gen.V21), every other buffer as entered. Read at main_v29_0, main_v29_1, main_v29_2. -/
def o22 : (r : Ref sig .tc) → (c : Dev nD) → Buf (Elt F) ((c : Thread nD τ).loc r) := fun r c =>
  Pipeline.withArrays spec11 c (Gen.V21 m (outsTo11 m) c) (fun w => (dat11 (fun c b => Gen.V21 m (outsTo11 m) c b) c).arrAt w cfg11.N) (Proc.devRef .tc r)
/-- The contents left by the regions up to region 11. -/
def outsTo12 : Outs (F := F) := fun J => match J with | 22 => o22 m | _ => outsTo11 m J

/-- What region 12 leaves: its arrays at what its pipeline folds there from the contents it is entered at
    (Gen.V22), every other buffer as entered. Read at main_v30. -/
def o23 : (r : Ref sig .tc) → (c : Dev nD) → Buf (Elt F) ((c : Thread nD τ).loc r) := fun r c =>
  Pipeline.withArrays spec12 c (Gen.V22 m (outsTo12 m) c) (fun w => (dat12 (fun c b => Gen.V22 m (outsTo12 m) c b) c).arrAt w cfg12.N) (Proc.devRef .tc r)
/-- The contents left by the regions up to region 12. -/
def outsTo13 : Outs (F := F) := fun J => match J with | 23 => o23 m | _ => outsTo12 m J

/-- What region 13 leaves: its arrays at what its pipeline folds there from the contents it is entered at
    (Gen.V25), every other buffer as entered. Read at main_v34. -/
def o26 : (r : Ref sig .tc) → (c : Dev nD) → Buf (Elt F) ((c : Thread nD τ).loc r) := fun r c =>
  Pipeline.withArrays spec13 c (Gen.V25 m (outsTo13 m) c) (fun w => (dat13 (fun c b => Gen.V25 m (outsTo13 m) c b) c).arrAt w cfg13.N) (Proc.devRef .tc r)
/-- The contents left by the regions up to region 13. -/
def outsTo14 : Outs (F := F) := fun J => match J with | 26 => o26 m | _ => outsTo13 m J

/-- THE CONTENTS THE REGIONS LEAVE: outs m J is what item J−1, a kernel region, leaves (read by the generated
    valuations only at that region's output arrays); the launch contents at every other index. -/
def outs : Outs (F := F) := fun J => match J with
  | 7 => o7 m
  | 8 => o8 m
  | 10 => o10 m
  | 14 => o14 m
  | 15 => o15 m
  | 16 => o16 m
  | 17 => o17 m
  | 18 => o18 m
  | 19 => o19 m
  | 20 => o20 m
  | 21 => o21 m
  | 22 => o22 m
  | 23 => o23 m
  | 26 => o26 m
  | _ => fun r c => m ((c : Thread nD τ).loc r)

/-! ## The regions' entry and exit contents -/

/-- Region 0 is entered at Gen.V6 and left at Gen.V7, both over outs m. -/
abbrev Vin0 (c : Dev nD) (b : Ref sig .tc) : Buf (Elt F) ((c : Thread nD τ).loc b) := Gen.V6 m c b
abbrev Vout0 (c : Dev nD) (b : Ref sig .tc) : Buf (Elt F) ((c : Thread nD τ).loc b) := Gen.V7 m (outs m) c b
/-- Region 1 is entered at Gen.V7 and left at Gen.V8, both over outs m. -/
abbrev Vin1 (c : Dev nD) (b : Ref sig .tc) : Buf (Elt F) ((c : Thread nD τ).loc b) := Gen.V7 m (outs m) c b
abbrev Vout1 (c : Dev nD) (b : Ref sig .tc) : Buf (Elt F) ((c : Thread nD τ).loc b) := Gen.V8 m (outs m) c b
/-- Region 2 is entered at Gen.V9 and left at Gen.V10, both over outs m. -/
abbrev Vin2 (c : Dev nD) (b : Ref sig .tc) : Buf (Elt F) ((c : Thread nD τ).loc b) := Gen.V9 m (outs m) c b
abbrev Vout2 (c : Dev nD) (b : Ref sig .tc) : Buf (Elt F) ((c : Thread nD τ).loc b) := Gen.V10 m (outs m) c b
/-- Region 3 is entered at Gen.V13 and left at Gen.V14, both over outs m. -/
abbrev Vin3 (c : Dev nD) (b : Ref sig .tc) : Buf (Elt F) ((c : Thread nD τ).loc b) := Gen.V13 m (outs m) c b
abbrev Vout3 (c : Dev nD) (b : Ref sig .tc) : Buf (Elt F) ((c : Thread nD τ).loc b) := Gen.V14 m (outs m) c b
/-- Region 4 is entered at Gen.V14 and left at Gen.V15, both over outs m. -/
abbrev Vin4 (c : Dev nD) (b : Ref sig .tc) : Buf (Elt F) ((c : Thread nD τ).loc b) := Gen.V14 m (outs m) c b
abbrev Vout4 (c : Dev nD) (b : Ref sig .tc) : Buf (Elt F) ((c : Thread nD τ).loc b) := Gen.V15 m (outs m) c b
/-- Region 5 is entered at Gen.V15 and left at Gen.V16, both over outs m. -/
abbrev Vin5 (c : Dev nD) (b : Ref sig .tc) : Buf (Elt F) ((c : Thread nD τ).loc b) := Gen.V15 m (outs m) c b
abbrev Vout5 (c : Dev nD) (b : Ref sig .tc) : Buf (Elt F) ((c : Thread nD τ).loc b) := Gen.V16 m (outs m) c b
/-- Region 6 is entered at Gen.V16 and left at Gen.V17, both over outs m. -/
abbrev Vin6 (c : Dev nD) (b : Ref sig .tc) : Buf (Elt F) ((c : Thread nD τ).loc b) := Gen.V16 m (outs m) c b
abbrev Vout6 (c : Dev nD) (b : Ref sig .tc) : Buf (Elt F) ((c : Thread nD τ).loc b) := Gen.V17 m (outs m) c b
/-- Region 7 is entered at Gen.V17 and left at Gen.V18, both over outs m. -/
abbrev Vin7 (c : Dev nD) (b : Ref sig .tc) : Buf (Elt F) ((c : Thread nD τ).loc b) := Gen.V17 m (outs m) c b
abbrev Vout7 (c : Dev nD) (b : Ref sig .tc) : Buf (Elt F) ((c : Thread nD τ).loc b) := Gen.V18 m (outs m) c b
/-- Region 8 is entered at Gen.V18 and left at Gen.V19, both over outs m. -/
abbrev Vin8 (c : Dev nD) (b : Ref sig .tc) : Buf (Elt F) ((c : Thread nD τ).loc b) := Gen.V18 m (outs m) c b
abbrev Vout8 (c : Dev nD) (b : Ref sig .tc) : Buf (Elt F) ((c : Thread nD τ).loc b) := Gen.V19 m (outs m) c b
/-- Region 9 is entered at Gen.V19 and left at Gen.V20, both over outs m. -/
abbrev Vin9 (c : Dev nD) (b : Ref sig .tc) : Buf (Elt F) ((c : Thread nD τ).loc b) := Gen.V19 m (outs m) c b
abbrev Vout9 (c : Dev nD) (b : Ref sig .tc) : Buf (Elt F) ((c : Thread nD τ).loc b) := Gen.V20 m (outs m) c b
/-- Region 10 is entered at Gen.V20 and left at Gen.V21, both over outs m. -/
abbrev Vin10 (c : Dev nD) (b : Ref sig .tc) : Buf (Elt F) ((c : Thread nD τ).loc b) := Gen.V20 m (outs m) c b
abbrev Vout10 (c : Dev nD) (b : Ref sig .tc) : Buf (Elt F) ((c : Thread nD τ).loc b) := Gen.V21 m (outs m) c b
/-- Region 11 is entered at Gen.V21 and left at Gen.V22, both over outs m. -/
abbrev Vin11 (c : Dev nD) (b : Ref sig .tc) : Buf (Elt F) ((c : Thread nD τ).loc b) := Gen.V21 m (outs m) c b
abbrev Vout11 (c : Dev nD) (b : Ref sig .tc) : Buf (Elt F) ((c : Thread nD τ).loc b) := Gen.V22 m (outs m) c b
/-- Region 12 is entered at Gen.V22 and left at Gen.V23, both over outs m. -/
abbrev Vin12 (c : Dev nD) (b : Ref sig .tc) : Buf (Elt F) ((c : Thread nD τ).loc b) := Gen.V22 m (outs m) c b
abbrev Vout12 (c : Dev nD) (b : Ref sig .tc) : Buf (Elt F) ((c : Thread nD τ).loc b) := Gen.V23 m (outs m) c b
/-- Region 13 is entered at Gen.V25 and left at Gen.V26, both over outs m. -/
abbrev Vin13 (c : Dev nD) (b : Ref sig .tc) : Buf (Elt F) ((c : Thread nD τ).loc b) := Gen.V25 m (outs m) c b
abbrev Vout13 (c : Dev nD) (b : Ref sig .tc) : Buf (Elt F) ((c : Thread nD τ).loc b) := Gen.V26 m (outs m) c b

/-- The stage a region's leavings were defined over agrees with outs m at every index its entry valuation reads
    (the indices of the regions before it), so the two entry contents are the same: unfold both valuations down to
    the launch's host stretches; they differ only in which of the two names the earlier regions' leavings, and at
    those indices both reduce to the same o<J> m. -/
theorem stage1 (c : Dev nD) : Gen.V7 m (outsTo1 m) c = Gen.V7 m (outs m) c := by
  simp only [Gen.V7] <;> rfl
theorem sfun1 : (fun (c : Dev nD) (b : Ref sig .tc) => Gen.V7 m (outsTo1 m) c b) = Vin1 m :=
  funext fun c => funext fun b => by rw [stage1 m c]
theorem stage2 (c : Dev nD) : Gen.V9 m (outsTo2 m) c = Gen.V9 m (outs m) c := by
  simp only [Gen.V7, Gen.V8, Gen.V9] <;> rfl
theorem sfun2 : (fun (c : Dev nD) (b : Ref sig .tc) => Gen.V9 m (outsTo2 m) c b) = Vin2 m :=
  funext fun c => funext fun b => by rw [stage2 m c]
theorem stage3 (c : Dev nD) : Gen.V13 m (outsTo3 m) c = Gen.V13 m (outs m) c := by
  simp only [Gen.V7, Gen.V8, Gen.V9, Gen.V10, Gen.V11, Gen.V12, Gen.V13] <;> rfl
theorem sfun3 : (fun (c : Dev nD) (b : Ref sig .tc) => Gen.V13 m (outsTo3 m) c b) = Vin3 m :=
  funext fun c => funext fun b => by rw [stage3 m c]
theorem stage4 (c : Dev nD) : Gen.V14 m (outsTo4 m) c = Gen.V14 m (outs m) c := by
  simp only [Gen.V7, Gen.V8, Gen.V9, Gen.V10, Gen.V11, Gen.V12, Gen.V13, Gen.V14] <;> rfl
theorem sfun4 : (fun (c : Dev nD) (b : Ref sig .tc) => Gen.V14 m (outsTo4 m) c b) = Vin4 m :=
  funext fun c => funext fun b => by rw [stage4 m c]
theorem stage5 (c : Dev nD) : Gen.V15 m (outsTo5 m) c = Gen.V15 m (outs m) c := by
  simp only [Gen.V7, Gen.V8, Gen.V9, Gen.V10, Gen.V11, Gen.V12, Gen.V13, Gen.V14, Gen.V15] <;> rfl
theorem sfun5 : (fun (c : Dev nD) (b : Ref sig .tc) => Gen.V15 m (outsTo5 m) c b) = Vin5 m :=
  funext fun c => funext fun b => by rw [stage5 m c]
theorem stage6 (c : Dev nD) : Gen.V16 m (outsTo6 m) c = Gen.V16 m (outs m) c := by
  simp only [Gen.V7, Gen.V8, Gen.V9, Gen.V10, Gen.V11, Gen.V12, Gen.V13, Gen.V14, Gen.V15, Gen.V16] <;> rfl
theorem sfun6 : (fun (c : Dev nD) (b : Ref sig .tc) => Gen.V16 m (outsTo6 m) c b) = Vin6 m :=
  funext fun c => funext fun b => by rw [stage6 m c]
theorem stage7 (c : Dev nD) : Gen.V17 m (outsTo7 m) c = Gen.V17 m (outs m) c := by
  simp only [Gen.V7, Gen.V8, Gen.V9, Gen.V10, Gen.V11, Gen.V12, Gen.V13, Gen.V14, Gen.V15, Gen.V16, Gen.V17] <;> rfl
theorem sfun7 : (fun (c : Dev nD) (b : Ref sig .tc) => Gen.V17 m (outsTo7 m) c b) = Vin7 m :=
  funext fun c => funext fun b => by rw [stage7 m c]
theorem stage8 (c : Dev nD) : Gen.V18 m (outsTo8 m) c = Gen.V18 m (outs m) c := by
  simp only [Gen.V7, Gen.V8, Gen.V9, Gen.V10, Gen.V11, Gen.V12, Gen.V13, Gen.V14, Gen.V15, Gen.V16, Gen.V17, Gen.V18] <;> rfl
theorem sfun8 : (fun (c : Dev nD) (b : Ref sig .tc) => Gen.V18 m (outsTo8 m) c b) = Vin8 m :=
  funext fun c => funext fun b => by rw [stage8 m c]
theorem stage9 (c : Dev nD) : Gen.V19 m (outsTo9 m) c = Gen.V19 m (outs m) c := by
  simp only [Gen.V7, Gen.V8, Gen.V9, Gen.V10, Gen.V11, Gen.V12, Gen.V13, Gen.V14, Gen.V15, Gen.V16, Gen.V17, Gen.V18, Gen.V19] <;> rfl
theorem sfun9 : (fun (c : Dev nD) (b : Ref sig .tc) => Gen.V19 m (outsTo9 m) c b) = Vin9 m :=
  funext fun c => funext fun b => by rw [stage9 m c]
theorem stage10 (c : Dev nD) : Gen.V20 m (outsTo10 m) c = Gen.V20 m (outs m) c := by
  simp only [Gen.V7, Gen.V8, Gen.V9, Gen.V10, Gen.V11, Gen.V12, Gen.V13, Gen.V14, Gen.V15, Gen.V16, Gen.V17, Gen.V18, Gen.V19, Gen.V20] <;> rfl
theorem sfun10 : (fun (c : Dev nD) (b : Ref sig .tc) => Gen.V20 m (outsTo10 m) c b) = Vin10 m :=
  funext fun c => funext fun b => by rw [stage10 m c]
theorem stage11 (c : Dev nD) : Gen.V21 m (outsTo11 m) c = Gen.V21 m (outs m) c := by
  simp only [Gen.V7, Gen.V8, Gen.V9, Gen.V10, Gen.V11, Gen.V12, Gen.V13, Gen.V14, Gen.V15, Gen.V16, Gen.V17, Gen.V18, Gen.V19, Gen.V20, Gen.V21] <;> rfl
theorem sfun11 : (fun (c : Dev nD) (b : Ref sig .tc) => Gen.V21 m (outsTo11 m) c b) = Vin11 m :=
  funext fun c => funext fun b => by rw [stage11 m c]
theorem stage12 (c : Dev nD) : Gen.V22 m (outsTo12 m) c = Gen.V22 m (outs m) c := by
  simp only [Gen.V7, Gen.V8, Gen.V9, Gen.V10, Gen.V11, Gen.V12, Gen.V13, Gen.V14, Gen.V15, Gen.V16, Gen.V17, Gen.V18, Gen.V19, Gen.V20, Gen.V21, Gen.V22] <;> rfl
theorem sfun12 : (fun (c : Dev nD) (b : Ref sig .tc) => Gen.V22 m (outsTo12 m) c b) = Vin12 m :=
  funext fun c => funext fun b => by rw [stage12 m c]
theorem stage13 (c : Dev nD) : Gen.V25 m (outsTo13 m) c = Gen.V25 m (outs m) c := by
  simp only [Gen.V7, Gen.V8, Gen.V9, Gen.V10, Gen.V11, Gen.V12, Gen.V13, Gen.V14, Gen.V15, Gen.V16, Gen.V17, Gen.V18, Gen.V19, Gen.V20, Gen.V21, Gen.V22, Gen.V23, Gen.V24, Gen.V25] <;> rfl
theorem sfun13 : (fun (c : Dev nD) (b : Ref sig .tc) => Gen.V25 m (outsTo13 m) c b) = Vin13 m :=
  funext fun c => funext fun b => by rw [stage13 m c]

/-! ## The proof data family and what rides beside the buffers -/

/-- Every pipeline's proof data, each at its region's entry contents: a literal match, so that at a numeral it
    reduces to that region's data. -/
def pdats : (p : Fin 14) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c
  | ⟨6, _⟩ => fun c => dat6 (Vin6 m) c
  | ⟨7, _⟩ => fun c => dat7 (Vin7 m) c
  | ⟨8, _⟩ => fun c => dat8 (Vin8 m) c
  | ⟨9, _⟩ => fun c => dat9 (Vin9 m) c
  | ⟨10, _⟩ => fun c => dat10 (Vin10 m) c
  | ⟨11, _⟩ => fun c => dat11 (Vin11 m) c
  | ⟨12, _⟩ => fun c => dat12 (Vin12 m) c
  | ⟨13, _⟩ => fun c => dat13 (Vin13 m) c

/-- No variant. -/
abbrev 𝒱₀ : Variants := Variants.none
/-- No core owes another anything: no pair of a semaphore and an index carries a level. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)

/-! ## Each region's arrays at its exit, and the buffers it leaves alone -/

/-- At region 0's exit main_v6 holds what its pipeline folds in window 2. -/
theorem Vout0_2 (c : Dev nD) : Vout0 m c main_v6 = (dat0 (Vin0 m) c).arrAt 2 cfg0.N := by
  have e : Vout0 m c main_v6 = o7 m main_v6 c := by
    show Gen.V7 m (outs m) c main_v6 = _
    simp only [Gen.V7, Function.update_self] <;> rfl
  rw [e]
  exact Pipeline.withArrays_arr spec0 launch0.win.arr_inj c _ _ 2
set_option maxHeartbeats 1000000 in
/-- At region 0's exit each of its arrays holds what the pipeline leaves there: an input as entered (no item of
    the region writes it), an output its folded write-backs. (One case per window, each input's reference named so that
    its difference from the outputs' is decided on the names.) -/
theorem hF0 (c : Dev nD) (w : Fin cfg0.W) : (pdats m 0 c).arrAt w cfg0.N = Vout0 m c (Pipeline.arrRef spec0 w) := by
  have hin : ∀ w : Fin cfg0.W, (cfg0.win w).isOut = false → Pipeline.arrRef spec0 w ∉ ([main_v6] : List (Ref sig .tc)) →
      (dat0 (Vin0 m) c).arrAt w cfg0.N = Vout0 m c (Pipeline.arrRef spec0 w) := fun w h hn =>
    ((dat0 (Vin0 m) c).arrAt_in w h _).trans ((A_eq0 (Vin0 m) c w).trans (Gen.V7_of m (outs m) c _ hn).symm)
  revert w
  show ∀ w : Fin 3, (dat0 (Vin0 m) c).arrAt w cfg0.N = Vout0 m c (Pipeline.arrRef spec0 w)
  exact fun
    | 0 => hin 0 rfl (show (main_v1 : Ref sig .tc) ∉ ([main_v6] : List (Ref sig .tc)) from by decide)
    | 1 => hin 1 rfl (show (main_v5 : Ref sig .tc) ∉ ([main_v6] : List (Ref sig .tc)) from by decide)
    | 2 => (Vout0_2 m c).symm
    | ⟨_ + 3, h⟩ => absurd h (Nat.not_lt.2 (Nat.le_add_left _ _))
/-- Every buffer that is no array of region 0 is at its exit as at its entry. -/
theorem hrest0 (c : Dev nD) : ∀ b, b ∉ Finset.univ.image (Pipeline.arrRef spec0) → Vout0 m c b = Vin0 m c b :=
  fun b hb => Gen.V7_of m (outs m) c b fun h => by
    simp only [List.mem_cons, List.not_mem_nil, or_false] at h
    rcases h with rfl
    · exact hb (Finset.mem_image.mpr ⟨2, Finset.mem_univ _, rfl⟩)

/-- At region 1's exit main_v7 holds what its pipeline folds in window 2. -/
theorem Vout1_2 (c : Dev nD) : Vout1 m c main_v7 = (dat1 (Vin1 m) c).arrAt 2 cfg1.N := by
  have e : Vout1 m c main_v7 = o8 m main_v7 c := by
    show Gen.V8 m (outs m) c main_v7 = _
    simp only [Gen.V8, Function.update_self] <;> rfl
  rw [e, ← sfun1 m]
  exact Pipeline.withArrays_arr spec1 launch1.win.arr_inj c _ _ 2
set_option maxHeartbeats 1000000 in
/-- At region 1's exit each of its arrays holds what the pipeline leaves there: an input as entered (no item of
    the region writes it), an output its folded write-backs. (One case per window, each input's reference named so that
    its difference from the outputs' is decided on the names.) -/
theorem hF1 (c : Dev nD) (w : Fin cfg1.W) : (pdats m 1 c).arrAt w cfg1.N = Vout1 m c (Pipeline.arrRef spec1 w) := by
  have hin : ∀ w : Fin cfg1.W, (cfg1.win w).isOut = false → Pipeline.arrRef spec1 w ∉ ([main_v7] : List (Ref sig .tc)) →
      (dat1 (Vin1 m) c).arrAt w cfg1.N = Vout1 m c (Pipeline.arrRef spec1 w) := fun w h hn =>
    ((dat1 (Vin1 m) c).arrAt_in w h _).trans ((A_eq1 (Vin1 m) c w).trans (Gen.V8_of m (outs m) c _ hn).symm)
  revert w
  show ∀ w : Fin 3, (dat1 (Vin1 m) c).arrAt w cfg1.N = Vout1 m c (Pipeline.arrRef spec1 w)
  exact fun
    | 0 => hin 0 rfl (show (main_v3 : Ref sig .tc) ∉ ([main_v7] : List (Ref sig .tc)) from by decide)
    | 1 => hin 1 rfl (show (main_v5 : Ref sig .tc) ∉ ([main_v7] : List (Ref sig .tc)) from by decide)
    | 2 => (Vout1_2 m c).symm
    | ⟨_ + 3, h⟩ => absurd h (Nat.not_lt.2 (Nat.le_add_left _ _))
/-- Every buffer that is no array of region 1 is at its exit as at its entry. -/
theorem hrest1 (c : Dev nD) : ∀ b, b ∉ Finset.univ.image (Pipeline.arrRef spec1) → Vout1 m c b = Vin1 m c b :=
  fun b hb => Gen.V8_of m (outs m) c b fun h => by
    simp only [List.mem_cons, List.not_mem_nil, or_false] at h
    rcases h with rfl
    · exact hb (Finset.mem_image.mpr ⟨2, Finset.mem_univ _, rfl⟩)

/-- At region 2's exit main_v16 holds what its pipeline folds in window 4. -/
theorem Vout2_4 (c : Dev nD) : Vout2 m c main_v16 = (dat2 (Vin2 m) c).arrAt 4 cfg2.N := by
  have e : Vout2 m c main_v16 = o10 m main_v16 c := by
    show Gen.V10 m (outs m) c main_v16 = _
    simp only [Gen.V10, Function.update_self] <;> rfl
  rw [e, ← sfun2 m]
  exact Pipeline.withArrays_arr spec2 launch2.win.arr_inj c _ _ 4
set_option maxHeartbeats 1000000 in
/-- At region 2's exit each of its arrays holds what the pipeline leaves there: an input as entered (no item of
    the region writes it), an output its folded write-backs. (One case per window, each input's reference named so that
    its difference from the outputs' is decided on the names.) -/
theorem hF2 (c : Dev nD) (w : Fin cfg2.W) : (pdats m 2 c).arrAt w cfg2.N = Vout2 m c (Pipeline.arrRef spec2 w) := by
  have hin : ∀ w : Fin cfg2.W, (cfg2.win w).isOut = false → Pipeline.arrRef spec2 w ∉ ([main_v16] : List (Ref sig .tc)) →
      (dat2 (Vin2 m) c).arrAt w cfg2.N = Vout2 m c (Pipeline.arrRef spec2 w) := fun w h hn =>
    ((dat2 (Vin2 m) c).arrAt_in w h _).trans ((A_eq2 (Vin2 m) c w).trans (Gen.V10_of m (outs m) c _ hn).symm)
  revert w
  show ∀ w : Fin 5, (dat2 (Vin2 m) c).arrAt w cfg2.N = Vout2 m c (Pipeline.arrRef spec2 w)
  exact fun
    | 0 => hin 0 rfl (show (main_v6 : Ref sig .tc) ∉ ([main_v16] : List (Ref sig .tc)) from by decide)
    | 1 => hin 1 rfl (show (main_v9 : Ref sig .tc) ∉ ([main_v16] : List (Ref sig .tc)) from by decide)
    | 2 => hin 2 rfl (show (main_v10 : Ref sig .tc) ∉ ([main_v16] : List (Ref sig .tc)) from by decide)
    | 3 => hin 3 rfl (show (main_v8 : Ref sig .tc) ∉ ([main_v16] : List (Ref sig .tc)) from by decide)
    | 4 => (Vout2_4 m c).symm
    | ⟨_ + 5, h⟩ => absurd h (Nat.not_lt.2 (Nat.le_add_left _ _))
/-- Every buffer that is no array of region 2 is at its exit as at its entry. -/
theorem hrest2 (c : Dev nD) : ∀ b, b ∉ Finset.univ.image (Pipeline.arrRef spec2) → Vout2 m c b = Vin2 m c b :=
  fun b hb => Gen.V10_of m (outs m) c b fun h => by
    simp only [List.mem_cons, List.not_mem_nil, or_false] at h
    rcases h with rfl
    · exact hb (Finset.mem_image.mpr ⟨4, Finset.mem_univ _, rfl⟩)

/-- At region 3's exit main_v21_0 holds what its pipeline folds in window 5. -/
theorem Vout3_5 (c : Dev nD) : Vout3 m c main_v21_0 = (dat3 (Vin3 m) c).arrAt 5 cfg3.N := by
  have e : Vout3 m c main_v21_0 = o14 m main_v21_0 c := by
    show Gen.V14 m (outs m) c main_v21_0 = _
    simp only [Gen.V14, Function.update_of_ne (StableHlo.devRef_ne_of_ne (by decide) : (Proc.devRef .tc main_v21_0 : DevRef τ sig) ≠ Proc.devRef .tc main_v21_2), Function.update_of_ne (StableHlo.devRef_ne_of_ne (by decide) : (Proc.devRef .tc main_v21_0 : DevRef τ sig) ≠ Proc.devRef .tc main_v21_1), Function.update_self] <;> rfl
  rw [e, ← sfun3 m]
  exact Pipeline.withArrays_arr spec3 launch3.win.arr_inj c _ _ 5
/-- At region 3's exit main_v21_1 holds what its pipeline folds in window 6. -/
theorem Vout3_6 (c : Dev nD) : Vout3 m c main_v21_1 = (dat3 (Vin3 m) c).arrAt 6 cfg3.N := by
  have e : Vout3 m c main_v21_1 = o14 m main_v21_1 c := by
    show Gen.V14 m (outs m) c main_v21_1 = _
    simp only [Gen.V14, Function.update_of_ne (StableHlo.devRef_ne_of_ne (by decide) : (Proc.devRef .tc main_v21_1 : DevRef τ sig) ≠ Proc.devRef .tc main_v21_2), Function.update_self] <;> rfl
  rw [e, ← sfun3 m]
  exact Pipeline.withArrays_arr spec3 launch3.win.arr_inj c _ _ 6
/-- At region 3's exit main_v21_2 holds what its pipeline folds in window 7. -/
theorem Vout3_7 (c : Dev nD) : Vout3 m c main_v21_2 = (dat3 (Vin3 m) c).arrAt 7 cfg3.N := by
  have e : Vout3 m c main_v21_2 = o14 m main_v21_2 c := by
    show Gen.V14 m (outs m) c main_v21_2 = _
    simp only [Gen.V14, Function.update_self] <;> rfl
  rw [e, ← sfun3 m]
  exact Pipeline.withArrays_arr spec3 launch3.win.arr_inj c _ _ 7
set_option maxHeartbeats 1000000 in
/-- At region 3's exit each of its arrays holds what the pipeline leaves there: an input as entered (no item of
    the region writes it), an output its folded write-backs. (One case per window, each input's reference named so that
    its difference from the outputs' is decided on the names.) -/
theorem hF3 (c : Dev nD) (w : Fin cfg3.W) : (pdats m 3 c).arrAt w cfg3.N = Vout3 m c (Pipeline.arrRef spec3 w) := by
  have hin : ∀ w : Fin cfg3.W, (cfg3.win w).isOut = false → Pipeline.arrRef spec3 w ∉ ([main_v21_0, main_v21_1, main_v21_2] : List (Ref sig .tc)) →
      (dat3 (Vin3 m) c).arrAt w cfg3.N = Vout3 m c (Pipeline.arrRef spec3 w) := fun w h hn =>
    ((dat3 (Vin3 m) c).arrAt_in w h _).trans ((A_eq3 (Vin3 m) c w).trans (Gen.V14_of m (outs m) c _ hn).symm)
  revert w
  show ∀ w : Fin 8, (dat3 (Vin3 m) c).arrAt w cfg3.N = Vout3 m c (Pipeline.arrRef spec3 w)
  exact fun
    | 0 => hin 0 rfl (show (main_v20 : Ref sig .tc) ∉ ([main_v21_0, main_v21_1, main_v21_2] : List (Ref sig .tc)) from by decide)
    | 1 => hin 1 rfl (show (main_v11 : Ref sig .tc) ∉ ([main_v21_0, main_v21_1, main_v21_2] : List (Ref sig .tc)) from by decide)
    | 2 => hin 2 rfl (show (main_v12 : Ref sig .tc) ∉ ([main_v21_0, main_v21_1, main_v21_2] : List (Ref sig .tc)) from by decide)
    | 3 => hin 3 rfl (show (main_v13 : Ref sig .tc) ∉ ([main_v21_0, main_v21_1, main_v21_2] : List (Ref sig .tc)) from by decide)
    | 4 => hin 4 rfl (show (main_v18 : Ref sig .tc) ∉ ([main_v21_0, main_v21_1, main_v21_2] : List (Ref sig .tc)) from by decide)
    | 5 => (Vout3_5 m c).symm
    | 6 => (Vout3_6 m c).symm
    | 7 => (Vout3_7 m c).symm
    | ⟨_ + 8, h⟩ => absurd h (Nat.not_lt.2 (Nat.le_add_left _ _))
/-- Every buffer that is no array of region 3 is at its exit as at its entry. -/
theorem hrest3 (c : Dev nD) : ∀ b, b ∉ Finset.univ.image (Pipeline.arrRef spec3) → Vout3 m c b = Vin3 m c b :=
  fun b hb => Gen.V14_of m (outs m) c b fun h => by
    simp only [List.mem_cons, List.not_mem_nil, or_false] at h
    rcases h with rfl | rfl | rfl
    · exact hb (Finset.mem_image.mpr ⟨5, Finset.mem_univ _, rfl⟩)
    · exact hb (Finset.mem_image.mpr ⟨6, Finset.mem_univ _, rfl⟩)
    · exact hb (Finset.mem_image.mpr ⟨7, Finset.mem_univ _, rfl⟩)

/-- At region 4's exit main_v22 holds what its pipeline folds in window 7. -/
theorem Vout4_7 (c : Dev nD) : Vout4 m c main_v22 = (dat4 (Vin4 m) c).arrAt 7 cfg4.N := by
  have e : Vout4 m c main_v22 = o15 m main_v22 c := by
    show Gen.V15 m (outs m) c main_v22 = _
    simp only [Gen.V15, Function.update_self] <;> rfl
  rw [e, ← sfun4 m]
  exact Pipeline.withArrays_arr spec4 launch4.win.arr_inj c _ _ 7
set_option maxHeartbeats 1000000 in
/-- At region 4's exit each of its arrays holds what the pipeline leaves there: an input as entered (no item of
    the region writes it), an output its folded write-backs. (One case per window, each input's reference named so that
    its difference from the outputs' is decided on the names.) -/
theorem hF4 (c : Dev nD) (w : Fin cfg4.W) : (pdats m 4 c).arrAt w cfg4.N = Vout4 m c (Pipeline.arrRef spec4 w) := by
  have hin : ∀ w : Fin cfg4.W, (cfg4.win w).isOut = false → Pipeline.arrRef spec4 w ∉ ([main_v22] : List (Ref sig .tc)) →
      (dat4 (Vin4 m) c).arrAt w cfg4.N = Vout4 m c (Pipeline.arrRef spec4 w) := fun w h hn =>
    ((dat4 (Vin4 m) c).arrAt_in w h _).trans ((A_eq4 (Vin4 m) c w).trans (Gen.V15_of m (outs m) c _ hn).symm)
  revert w
  show ∀ w : Fin 8, (dat4 (Vin4 m) c).arrAt w cfg4.N = Vout4 m c (Pipeline.arrRef spec4 w)
  exact fun
    | 0 => hin 0 rfl (show (main_v21_0 : Ref sig .tc) ∉ ([main_v22] : List (Ref sig .tc)) from by decide)
    | 1 => hin 1 rfl (show (main_v21_1 : Ref sig .tc) ∉ ([main_v22] : List (Ref sig .tc)) from by decide)
    | 2 => hin 2 rfl (show (main_v21_2 : Ref sig .tc) ∉ ([main_v22] : List (Ref sig .tc)) from by decide)
    | 3 => hin 3 rfl (show (main_v14 : Ref sig .tc) ∉ ([main_v22] : List (Ref sig .tc)) from by decide)
    | 4 => hin 4 rfl (show (main_v15 : Ref sig .tc) ∉ ([main_v22] : List (Ref sig .tc)) from by decide)
    | 5 => hin 5 rfl (show (main_arg14 : Ref sig .tc) ∉ ([main_v22] : List (Ref sig .tc)) from by decide)
    | 6 => hin 6 rfl (show (main_arg15 : Ref sig .tc) ∉ ([main_v22] : List (Ref sig .tc)) from by decide)
    | 7 => (Vout4_7 m c).symm
    | ⟨_ + 8, h⟩ => absurd h (Nat.not_lt.2 (Nat.le_add_left _ _))
/-- Every buffer that is no array of region 4 is at its exit as at its entry. -/
theorem hrest4 (c : Dev nD) : ∀ b, b ∉ Finset.univ.image (Pipeline.arrRef spec4) → Vout4 m c b = Vin4 m c b :=
  fun b hb => Gen.V15_of m (outs m) c b fun h => by
    simp only [List.mem_cons, List.not_mem_nil, or_false] at h
    rcases h with rfl
    · exact hb (Finset.mem_image.mpr ⟨7, Finset.mem_univ _, rfl⟩)

/-- At region 5's exit main_v23_0 holds what its pipeline folds in window 5. -/
theorem Vout5_5 (c : Dev nD) : Vout5 m c main_v23_0 = (dat5 (Vin5 m) c).arrAt 5 cfg5.N := by
  have e : Vout5 m c main_v23_0 = o16 m main_v23_0 c := by
    show Gen.V16 m (outs m) c main_v23_0 = _
    simp only [Gen.V16, Function.update_of_ne (StableHlo.devRef_ne_of_ne (by decide) : (Proc.devRef .tc main_v23_0 : DevRef τ sig) ≠ Proc.devRef .tc main_v23_2), Function.update_of_ne (StableHlo.devRef_ne_of_ne (by decide) : (Proc.devRef .tc main_v23_0 : DevRef τ sig) ≠ Proc.devRef .tc main_v23_1), Function.update_self] <;> rfl
  rw [e, ← sfun5 m]
  exact Pipeline.withArrays_arr spec5 launch5.win.arr_inj c _ _ 5
/-- At region 5's exit main_v23_1 holds what its pipeline folds in window 6. -/
theorem Vout5_6 (c : Dev nD) : Vout5 m c main_v23_1 = (dat5 (Vin5 m) c).arrAt 6 cfg5.N := by
  have e : Vout5 m c main_v23_1 = o16 m main_v23_1 c := by
    show Gen.V16 m (outs m) c main_v23_1 = _
    simp only [Gen.V16, Function.update_of_ne (StableHlo.devRef_ne_of_ne (by decide) : (Proc.devRef .tc main_v23_1 : DevRef τ sig) ≠ Proc.devRef .tc main_v23_2), Function.update_self] <;> rfl
  rw [e, ← sfun5 m]
  exact Pipeline.withArrays_arr spec5 launch5.win.arr_inj c _ _ 6
/-- At region 5's exit main_v23_2 holds what its pipeline folds in window 7. -/
theorem Vout5_7 (c : Dev nD) : Vout5 m c main_v23_2 = (dat5 (Vin5 m) c).arrAt 7 cfg5.N := by
  have e : Vout5 m c main_v23_2 = o16 m main_v23_2 c := by
    show Gen.V16 m (outs m) c main_v23_2 = _
    simp only [Gen.V16, Function.update_self] <;> rfl
  rw [e, ← sfun5 m]
  exact Pipeline.withArrays_arr spec5 launch5.win.arr_inj c _ _ 7
set_option maxHeartbeats 1000000 in
/-- At region 5's exit each of its arrays holds what the pipeline leaves there: an input as entered (no item of
    the region writes it), an output its folded write-backs. (One case per window, each input's reference named so that
    its difference from the outputs' is decided on the names.) -/
theorem hF5 (c : Dev nD) (w : Fin cfg5.W) : (pdats m 5 c).arrAt w cfg5.N = Vout5 m c (Pipeline.arrRef spec5 w) := by
  have hin : ∀ w : Fin cfg5.W, (cfg5.win w).isOut = false → Pipeline.arrRef spec5 w ∉ ([main_v23_0, main_v23_1, main_v23_2] : List (Ref sig .tc)) →
      (dat5 (Vin5 m) c).arrAt w cfg5.N = Vout5 m c (Pipeline.arrRef spec5 w) := fun w h hn =>
    ((dat5 (Vin5 m) c).arrAt_in w h _).trans ((A_eq5 (Vin5 m) c w).trans (Gen.V16_of m (outs m) c _ hn).symm)
  revert w
  show ∀ w : Fin 8, (dat5 (Vin5 m) c).arrAt w cfg5.N = Vout5 m c (Pipeline.arrRef spec5 w)
  exact fun
    | 0 => hin 0 rfl (show (main_v22 : Ref sig .tc) ∉ ([main_v23_0, main_v23_1, main_v23_2] : List (Ref sig .tc)) from by decide)
    | 1 => hin 1 rfl (show (main_v11 : Ref sig .tc) ∉ ([main_v23_0, main_v23_1, main_v23_2] : List (Ref sig .tc)) from by decide)
    | 2 => hin 2 rfl (show (main_v12 : Ref sig .tc) ∉ ([main_v23_0, main_v23_1, main_v23_2] : List (Ref sig .tc)) from by decide)
    | 3 => hin 3 rfl (show (main_v13 : Ref sig .tc) ∉ ([main_v23_0, main_v23_1, main_v23_2] : List (Ref sig .tc)) from by decide)
    | 4 => hin 4 rfl (show (main_v18 : Ref sig .tc) ∉ ([main_v23_0, main_v23_1, main_v23_2] : List (Ref sig .tc)) from by decide)
    | 5 => (Vout5_5 m c).symm
    | 6 => (Vout5_6 m c).symm
    | 7 => (Vout5_7 m c).symm
    | ⟨_ + 8, h⟩ => absurd h (Nat.not_lt.2 (Nat.le_add_left _ _))
/-- Every buffer that is no array of region 5 is at its exit as at its entry. -/
theorem hrest5 (c : Dev nD) : ∀ b, b ∉ Finset.univ.image (Pipeline.arrRef spec5) → Vout5 m c b = Vin5 m c b :=
  fun b hb => Gen.V16_of m (outs m) c b fun h => by
    simp only [List.mem_cons, List.not_mem_nil, or_false] at h
    rcases h with rfl | rfl | rfl
    · exact hb (Finset.mem_image.mpr ⟨5, Finset.mem_univ _, rfl⟩)
    · exact hb (Finset.mem_image.mpr ⟨6, Finset.mem_univ _, rfl⟩)
    · exact hb (Finset.mem_image.mpr ⟨7, Finset.mem_univ _, rfl⟩)

/-- At region 6's exit main_v24 holds what its pipeline folds in window 7. -/
theorem Vout6_7 (c : Dev nD) : Vout6 m c main_v24 = (dat6 (Vin6 m) c).arrAt 7 cfg6.N := by
  have e : Vout6 m c main_v24 = o17 m main_v24 c := by
    show Gen.V17 m (outs m) c main_v24 = _
    simp only [Gen.V17, Function.update_self] <;> rfl
  rw [e, ← sfun6 m]
  exact Pipeline.withArrays_arr spec6 launch6.win.arr_inj c _ _ 7
set_option maxHeartbeats 1000000 in
/-- At region 6's exit each of its arrays holds what the pipeline leaves there: an input as entered (no item of
    the region writes it), an output its folded write-backs. (One case per window, each input's reference named so that
    its difference from the outputs' is decided on the names.) -/
theorem hF6 (c : Dev nD) (w : Fin cfg6.W) : (pdats m 6 c).arrAt w cfg6.N = Vout6 m c (Pipeline.arrRef spec6 w) := by
  have hin : ∀ w : Fin cfg6.W, (cfg6.win w).isOut = false → Pipeline.arrRef spec6 w ∉ ([main_v24] : List (Ref sig .tc)) →
      (dat6 (Vin6 m) c).arrAt w cfg6.N = Vout6 m c (Pipeline.arrRef spec6 w) := fun w h hn =>
    ((dat6 (Vin6 m) c).arrAt_in w h _).trans ((A_eq6 (Vin6 m) c w).trans (Gen.V17_of m (outs m) c _ hn).symm)
  revert w
  show ∀ w : Fin 8, (dat6 (Vin6 m) c).arrAt w cfg6.N = Vout6 m c (Pipeline.arrRef spec6 w)
  exact fun
    | 0 => hin 0 rfl (show (main_v23_0 : Ref sig .tc) ∉ ([main_v24] : List (Ref sig .tc)) from by decide)
    | 1 => hin 1 rfl (show (main_v23_1 : Ref sig .tc) ∉ ([main_v24] : List (Ref sig .tc)) from by decide)
    | 2 => hin 2 rfl (show (main_v23_2 : Ref sig .tc) ∉ ([main_v24] : List (Ref sig .tc)) from by decide)
    | 3 => hin 3 rfl (show (main_v14 : Ref sig .tc) ∉ ([main_v24] : List (Ref sig .tc)) from by decide)
    | 4 => hin 4 rfl (show (main_v15 : Ref sig .tc) ∉ ([main_v24] : List (Ref sig .tc)) from by decide)
    | 5 => hin 5 rfl (show (main_arg14 : Ref sig .tc) ∉ ([main_v24] : List (Ref sig .tc)) from by decide)
    | 6 => hin 6 rfl (show (main_arg15 : Ref sig .tc) ∉ ([main_v24] : List (Ref sig .tc)) from by decide)
    | 7 => (Vout6_7 m c).symm
    | ⟨_ + 8, h⟩ => absurd h (Nat.not_lt.2 (Nat.le_add_left _ _))
/-- Every buffer that is no array of region 6 is at its exit as at its entry. -/
theorem hrest6 (c : Dev nD) : ∀ b, b ∉ Finset.univ.image (Pipeline.arrRef spec6) → Vout6 m c b = Vin6 m c b :=
  fun b hb => Gen.V17_of m (outs m) c b fun h => by
    simp only [List.mem_cons, List.not_mem_nil, or_false] at h
    rcases h with rfl
    · exact hb (Finset.mem_image.mpr ⟨7, Finset.mem_univ _, rfl⟩)

/-- At region 7's exit main_v25_0 holds what its pipeline folds in window 5. -/
theorem Vout7_5 (c : Dev nD) : Vout7 m c main_v25_0 = (dat7 (Vin7 m) c).arrAt 5 cfg7.N := by
  have e : Vout7 m c main_v25_0 = o18 m main_v25_0 c := by
    show Gen.V18 m (outs m) c main_v25_0 = _
    simp only [Gen.V18, Function.update_of_ne (StableHlo.devRef_ne_of_ne (by decide) : (Proc.devRef .tc main_v25_0 : DevRef τ sig) ≠ Proc.devRef .tc main_v25_2), Function.update_of_ne (StableHlo.devRef_ne_of_ne (by decide) : (Proc.devRef .tc main_v25_0 : DevRef τ sig) ≠ Proc.devRef .tc main_v25_1), Function.update_self] <;> rfl
  rw [e, ← sfun7 m]
  exact Pipeline.withArrays_arr spec7 launch7.win.arr_inj c _ _ 5
/-- At region 7's exit main_v25_1 holds what its pipeline folds in window 6. -/
theorem Vout7_6 (c : Dev nD) : Vout7 m c main_v25_1 = (dat7 (Vin7 m) c).arrAt 6 cfg7.N := by
  have e : Vout7 m c main_v25_1 = o18 m main_v25_1 c := by
    show Gen.V18 m (outs m) c main_v25_1 = _
    simp only [Gen.V18, Function.update_of_ne (StableHlo.devRef_ne_of_ne (by decide) : (Proc.devRef .tc main_v25_1 : DevRef τ sig) ≠ Proc.devRef .tc main_v25_2), Function.update_self] <;> rfl
  rw [e, ← sfun7 m]
  exact Pipeline.withArrays_arr spec7 launch7.win.arr_inj c _ _ 6
/-- At region 7's exit main_v25_2 holds what its pipeline folds in window 7. -/
theorem Vout7_7 (c : Dev nD) : Vout7 m c main_v25_2 = (dat7 (Vin7 m) c).arrAt 7 cfg7.N := by
  have e : Vout7 m c main_v25_2 = o18 m main_v25_2 c := by
    show Gen.V18 m (outs m) c main_v25_2 = _
    simp only [Gen.V18, Function.update_self] <;> rfl
  rw [e, ← sfun7 m]
  exact Pipeline.withArrays_arr spec7 launch7.win.arr_inj c _ _ 7
set_option maxHeartbeats 1000000 in
/-- At region 7's exit each of its arrays holds what the pipeline leaves there: an input as entered (no item of
    the region writes it), an output its folded write-backs. (One case per window, each input's reference named so that
    its difference from the outputs' is decided on the names.) -/
theorem hF7 (c : Dev nD) (w : Fin cfg7.W) : (pdats m 7 c).arrAt w cfg7.N = Vout7 m c (Pipeline.arrRef spec7 w) := by
  have hin : ∀ w : Fin cfg7.W, (cfg7.win w).isOut = false → Pipeline.arrRef spec7 w ∉ ([main_v25_0, main_v25_1, main_v25_2] : List (Ref sig .tc)) →
      (dat7 (Vin7 m) c).arrAt w cfg7.N = Vout7 m c (Pipeline.arrRef spec7 w) := fun w h hn =>
    ((dat7 (Vin7 m) c).arrAt_in w h _).trans ((A_eq7 (Vin7 m) c w).trans (Gen.V18_of m (outs m) c _ hn).symm)
  revert w
  show ∀ w : Fin 8, (dat7 (Vin7 m) c).arrAt w cfg7.N = Vout7 m c (Pipeline.arrRef spec7 w)
  exact fun
    | 0 => hin 0 rfl (show (main_v24 : Ref sig .tc) ∉ ([main_v25_0, main_v25_1, main_v25_2] : List (Ref sig .tc)) from by decide)
    | 1 => hin 1 rfl (show (main_v11 : Ref sig .tc) ∉ ([main_v25_0, main_v25_1, main_v25_2] : List (Ref sig .tc)) from by decide)
    | 2 => hin 2 rfl (show (main_v12 : Ref sig .tc) ∉ ([main_v25_0, main_v25_1, main_v25_2] : List (Ref sig .tc)) from by decide)
    | 3 => hin 3 rfl (show (main_v13 : Ref sig .tc) ∉ ([main_v25_0, main_v25_1, main_v25_2] : List (Ref sig .tc)) from by decide)
    | 4 => hin 4 rfl (show (main_v18 : Ref sig .tc) ∉ ([main_v25_0, main_v25_1, main_v25_2] : List (Ref sig .tc)) from by decide)
    | 5 => (Vout7_5 m c).symm
    | 6 => (Vout7_6 m c).symm
    | 7 => (Vout7_7 m c).symm
    | ⟨_ + 8, h⟩ => absurd h (Nat.not_lt.2 (Nat.le_add_left _ _))
/-- Every buffer that is no array of region 7 is at its exit as at its entry. -/
theorem hrest7 (c : Dev nD) : ∀ b, b ∉ Finset.univ.image (Pipeline.arrRef spec7) → Vout7 m c b = Vin7 m c b :=
  fun b hb => Gen.V18_of m (outs m) c b fun h => by
    simp only [List.mem_cons, List.not_mem_nil, or_false] at h
    rcases h with rfl | rfl | rfl
    · exact hb (Finset.mem_image.mpr ⟨5, Finset.mem_univ _, rfl⟩)
    · exact hb (Finset.mem_image.mpr ⟨6, Finset.mem_univ _, rfl⟩)
    · exact hb (Finset.mem_image.mpr ⟨7, Finset.mem_univ _, rfl⟩)

/-- At region 8's exit main_v26 holds what its pipeline folds in window 7. -/
theorem Vout8_7 (c : Dev nD) : Vout8 m c main_v26 = (dat8 (Vin8 m) c).arrAt 7 cfg8.N := by
  have e : Vout8 m c main_v26 = o19 m main_v26 c := by
    show Gen.V19 m (outs m) c main_v26 = _
    simp only [Gen.V19, Function.update_self] <;> rfl
  rw [e, ← sfun8 m]
  exact Pipeline.withArrays_arr spec8 launch8.win.arr_inj c _ _ 7
set_option maxHeartbeats 1000000 in
/-- At region 8's exit each of its arrays holds what the pipeline leaves there: an input as entered (no item of
    the region writes it), an output its folded write-backs. (One case per window, each input's reference named so that
    its difference from the outputs' is decided on the names.) -/
theorem hF8 (c : Dev nD) (w : Fin cfg8.W) : (pdats m 8 c).arrAt w cfg8.N = Vout8 m c (Pipeline.arrRef spec8 w) := by
  have hin : ∀ w : Fin cfg8.W, (cfg8.win w).isOut = false → Pipeline.arrRef spec8 w ∉ ([main_v26] : List (Ref sig .tc)) →
      (dat8 (Vin8 m) c).arrAt w cfg8.N = Vout8 m c (Pipeline.arrRef spec8 w) := fun w h hn =>
    ((dat8 (Vin8 m) c).arrAt_in w h _).trans ((A_eq8 (Vin8 m) c w).trans (Gen.V19_of m (outs m) c _ hn).symm)
  revert w
  show ∀ w : Fin 8, (dat8 (Vin8 m) c).arrAt w cfg8.N = Vout8 m c (Pipeline.arrRef spec8 w)
  exact fun
    | 0 => hin 0 rfl (show (main_v25_0 : Ref sig .tc) ∉ ([main_v26] : List (Ref sig .tc)) from by decide)
    | 1 => hin 1 rfl (show (main_v25_1 : Ref sig .tc) ∉ ([main_v26] : List (Ref sig .tc)) from by decide)
    | 2 => hin 2 rfl (show (main_v25_2 : Ref sig .tc) ∉ ([main_v26] : List (Ref sig .tc)) from by decide)
    | 3 => hin 3 rfl (show (main_v14 : Ref sig .tc) ∉ ([main_v26] : List (Ref sig .tc)) from by decide)
    | 4 => hin 4 rfl (show (main_v15 : Ref sig .tc) ∉ ([main_v26] : List (Ref sig .tc)) from by decide)
    | 5 => hin 5 rfl (show (main_arg14 : Ref sig .tc) ∉ ([main_v26] : List (Ref sig .tc)) from by decide)
    | 6 => hin 6 rfl (show (main_arg15 : Ref sig .tc) ∉ ([main_v26] : List (Ref sig .tc)) from by decide)
    | 7 => (Vout8_7 m c).symm
    | ⟨_ + 8, h⟩ => absurd h (Nat.not_lt.2 (Nat.le_add_left _ _))
/-- Every buffer that is no array of region 8 is at its exit as at its entry. -/
theorem hrest8 (c : Dev nD) : ∀ b, b ∉ Finset.univ.image (Pipeline.arrRef spec8) → Vout8 m c b = Vin8 m c b :=
  fun b hb => Gen.V19_of m (outs m) c b fun h => by
    simp only [List.mem_cons, List.not_mem_nil, or_false] at h
    rcases h with rfl
    · exact hb (Finset.mem_image.mpr ⟨7, Finset.mem_univ _, rfl⟩)

/-- At region 9's exit main_v27_0 holds what its pipeline folds in window 5. -/
theorem Vout9_5 (c : Dev nD) : Vout9 m c main_v27_0 = (dat9 (Vin9 m) c).arrAt 5 cfg9.N := by
  have e : Vout9 m c main_v27_0 = o20 m main_v27_0 c := by
    show Gen.V20 m (outs m) c main_v27_0 = _
    simp only [Gen.V20, Function.update_of_ne (StableHlo.devRef_ne_of_ne (by decide) : (Proc.devRef .tc main_v27_0 : DevRef τ sig) ≠ Proc.devRef .tc main_v27_2), Function.update_of_ne (StableHlo.devRef_ne_of_ne (by decide) : (Proc.devRef .tc main_v27_0 : DevRef τ sig) ≠ Proc.devRef .tc main_v27_1), Function.update_self] <;> rfl
  rw [e, ← sfun9 m]
  exact Pipeline.withArrays_arr spec9 launch9.win.arr_inj c _ _ 5
/-- At region 9's exit main_v27_1 holds what its pipeline folds in window 6. -/
theorem Vout9_6 (c : Dev nD) : Vout9 m c main_v27_1 = (dat9 (Vin9 m) c).arrAt 6 cfg9.N := by
  have e : Vout9 m c main_v27_1 = o20 m main_v27_1 c := by
    show Gen.V20 m (outs m) c main_v27_1 = _
    simp only [Gen.V20, Function.update_of_ne (StableHlo.devRef_ne_of_ne (by decide) : (Proc.devRef .tc main_v27_1 : DevRef τ sig) ≠ Proc.devRef .tc main_v27_2), Function.update_self] <;> rfl
  rw [e, ← sfun9 m]
  exact Pipeline.withArrays_arr spec9 launch9.win.arr_inj c _ _ 6
/-- At region 9's exit main_v27_2 holds what its pipeline folds in window 7. -/
theorem Vout9_7 (c : Dev nD) : Vout9 m c main_v27_2 = (dat9 (Vin9 m) c).arrAt 7 cfg9.N := by
  have e : Vout9 m c main_v27_2 = o20 m main_v27_2 c := by
    show Gen.V20 m (outs m) c main_v27_2 = _
    simp only [Gen.V20, Function.update_self] <;> rfl
  rw [e, ← sfun9 m]
  exact Pipeline.withArrays_arr spec9 launch9.win.arr_inj c _ _ 7
set_option maxHeartbeats 1000000 in
/-- At region 9's exit each of its arrays holds what the pipeline leaves there: an input as entered (no item of
    the region writes it), an output its folded write-backs. (One case per window, each input's reference named so that
    its difference from the outputs' is decided on the names.) -/
theorem hF9 (c : Dev nD) (w : Fin cfg9.W) : (pdats m 9 c).arrAt w cfg9.N = Vout9 m c (Pipeline.arrRef spec9 w) := by
  have hin : ∀ w : Fin cfg9.W, (cfg9.win w).isOut = false → Pipeline.arrRef spec9 w ∉ ([main_v27_0, main_v27_1, main_v27_2] : List (Ref sig .tc)) →
      (dat9 (Vin9 m) c).arrAt w cfg9.N = Vout9 m c (Pipeline.arrRef spec9 w) := fun w h hn =>
    ((dat9 (Vin9 m) c).arrAt_in w h _).trans ((A_eq9 (Vin9 m) c w).trans (Gen.V20_of m (outs m) c _ hn).symm)
  revert w
  show ∀ w : Fin 8, (dat9 (Vin9 m) c).arrAt w cfg9.N = Vout9 m c (Pipeline.arrRef spec9 w)
  exact fun
    | 0 => hin 0 rfl (show (main_v26 : Ref sig .tc) ∉ ([main_v27_0, main_v27_1, main_v27_2] : List (Ref sig .tc)) from by decide)
    | 1 => hin 1 rfl (show (main_v11 : Ref sig .tc) ∉ ([main_v27_0, main_v27_1, main_v27_2] : List (Ref sig .tc)) from by decide)
    | 2 => hin 2 rfl (show (main_v12 : Ref sig .tc) ∉ ([main_v27_0, main_v27_1, main_v27_2] : List (Ref sig .tc)) from by decide)
    | 3 => hin 3 rfl (show (main_v13 : Ref sig .tc) ∉ ([main_v27_0, main_v27_1, main_v27_2] : List (Ref sig .tc)) from by decide)
    | 4 => hin 4 rfl (show (main_v18 : Ref sig .tc) ∉ ([main_v27_0, main_v27_1, main_v27_2] : List (Ref sig .tc)) from by decide)
    | 5 => (Vout9_5 m c).symm
    | 6 => (Vout9_6 m c).symm
    | 7 => (Vout9_7 m c).symm
    | ⟨_ + 8, h⟩ => absurd h (Nat.not_lt.2 (Nat.le_add_left _ _))
/-- Every buffer that is no array of region 9 is at its exit as at its entry. -/
theorem hrest9 (c : Dev nD) : ∀ b, b ∉ Finset.univ.image (Pipeline.arrRef spec9) → Vout9 m c b = Vin9 m c b :=
  fun b hb => Gen.V20_of m (outs m) c b fun h => by
    simp only [List.mem_cons, List.not_mem_nil, or_false] at h
    rcases h with rfl | rfl | rfl
    · exact hb (Finset.mem_image.mpr ⟨5, Finset.mem_univ _, rfl⟩)
    · exact hb (Finset.mem_image.mpr ⟨6, Finset.mem_univ _, rfl⟩)
    · exact hb (Finset.mem_image.mpr ⟨7, Finset.mem_univ _, rfl⟩)

/-- At region 10's exit main_v28 holds what its pipeline folds in window 7. -/
theorem Vout10_7 (c : Dev nD) : Vout10 m c main_v28 = (dat10 (Vin10 m) c).arrAt 7 cfg10.N := by
  have e : Vout10 m c main_v28 = o21 m main_v28 c := by
    show Gen.V21 m (outs m) c main_v28 = _
    simp only [Gen.V21, Function.update_self] <;> rfl
  rw [e, ← sfun10 m]
  exact Pipeline.withArrays_arr spec10 launch10.win.arr_inj c _ _ 7
set_option maxHeartbeats 1000000 in
/-- At region 10's exit each of its arrays holds what the pipeline leaves there: an input as entered (no item of
    the region writes it), an output its folded write-backs. (One case per window, each input's reference named so that
    its difference from the outputs' is decided on the names.) -/
theorem hF10 (c : Dev nD) (w : Fin cfg10.W) : (pdats m 10 c).arrAt w cfg10.N = Vout10 m c (Pipeline.arrRef spec10 w) := by
  have hin : ∀ w : Fin cfg10.W, (cfg10.win w).isOut = false → Pipeline.arrRef spec10 w ∉ ([main_v28] : List (Ref sig .tc)) →
      (dat10 (Vin10 m) c).arrAt w cfg10.N = Vout10 m c (Pipeline.arrRef spec10 w) := fun w h hn =>
    ((dat10 (Vin10 m) c).arrAt_in w h _).trans ((A_eq10 (Vin10 m) c w).trans (Gen.V21_of m (outs m) c _ hn).symm)
  revert w
  show ∀ w : Fin 8, (dat10 (Vin10 m) c).arrAt w cfg10.N = Vout10 m c (Pipeline.arrRef spec10 w)
  exact fun
    | 0 => hin 0 rfl (show (main_v27_0 : Ref sig .tc) ∉ ([main_v28] : List (Ref sig .tc)) from by decide)
    | 1 => hin 1 rfl (show (main_v27_1 : Ref sig .tc) ∉ ([main_v28] : List (Ref sig .tc)) from by decide)
    | 2 => hin 2 rfl (show (main_v27_2 : Ref sig .tc) ∉ ([main_v28] : List (Ref sig .tc)) from by decide)
    | 3 => hin 3 rfl (show (main_v14 : Ref sig .tc) ∉ ([main_v28] : List (Ref sig .tc)) from by decide)
    | 4 => hin 4 rfl (show (main_v15 : Ref sig .tc) ∉ ([main_v28] : List (Ref sig .tc)) from by decide)
    | 5 => hin 5 rfl (show (main_arg14 : Ref sig .tc) ∉ ([main_v28] : List (Ref sig .tc)) from by decide)
    | 6 => hin 6 rfl (show (main_arg15 : Ref sig .tc) ∉ ([main_v28] : List (Ref sig .tc)) from by decide)
    | 7 => (Vout10_7 m c).symm
    | ⟨_ + 8, h⟩ => absurd h (Nat.not_lt.2 (Nat.le_add_left _ _))
/-- Every buffer that is no array of region 10 is at its exit as at its entry. -/
theorem hrest10 (c : Dev nD) : ∀ b, b ∉ Finset.univ.image (Pipeline.arrRef spec10) → Vout10 m c b = Vin10 m c b :=
  fun b hb => Gen.V21_of m (outs m) c b fun h => by
    simp only [List.mem_cons, List.not_mem_nil, or_false] at h
    rcases h with rfl
    · exact hb (Finset.mem_image.mpr ⟨7, Finset.mem_univ _, rfl⟩)

/-- At region 11's exit main_v29_0 holds what its pipeline folds in window 5. -/
theorem Vout11_5 (c : Dev nD) : Vout11 m c main_v29_0 = (dat11 (Vin11 m) c).arrAt 5 cfg11.N := by
  have e : Vout11 m c main_v29_0 = o22 m main_v29_0 c := by
    show Gen.V22 m (outs m) c main_v29_0 = _
    simp only [Gen.V22, Function.update_of_ne (StableHlo.devRef_ne_of_ne (by decide) : (Proc.devRef .tc main_v29_0 : DevRef τ sig) ≠ Proc.devRef .tc main_v29_2), Function.update_of_ne (StableHlo.devRef_ne_of_ne (by decide) : (Proc.devRef .tc main_v29_0 : DevRef τ sig) ≠ Proc.devRef .tc main_v29_1), Function.update_self] <;> rfl
  rw [e, ← sfun11 m]
  exact Pipeline.withArrays_arr spec11 launch11.win.arr_inj c _ _ 5
/-- At region 11's exit main_v29_1 holds what its pipeline folds in window 6. -/
theorem Vout11_6 (c : Dev nD) : Vout11 m c main_v29_1 = (dat11 (Vin11 m) c).arrAt 6 cfg11.N := by
  have e : Vout11 m c main_v29_1 = o22 m main_v29_1 c := by
    show Gen.V22 m (outs m) c main_v29_1 = _
    simp only [Gen.V22, Function.update_of_ne (StableHlo.devRef_ne_of_ne (by decide) : (Proc.devRef .tc main_v29_1 : DevRef τ sig) ≠ Proc.devRef .tc main_v29_2), Function.update_self] <;> rfl
  rw [e, ← sfun11 m]
  exact Pipeline.withArrays_arr spec11 launch11.win.arr_inj c _ _ 6
/-- At region 11's exit main_v29_2 holds what its pipeline folds in window 7. -/
theorem Vout11_7 (c : Dev nD) : Vout11 m c main_v29_2 = (dat11 (Vin11 m) c).arrAt 7 cfg11.N := by
  have e : Vout11 m c main_v29_2 = o22 m main_v29_2 c := by
    show Gen.V22 m (outs m) c main_v29_2 = _
    simp only [Gen.V22, Function.update_self] <;> rfl
  rw [e, ← sfun11 m]
  exact Pipeline.withArrays_arr spec11 launch11.win.arr_inj c _ _ 7
set_option maxHeartbeats 1000000 in
/-- At region 11's exit each of its arrays holds what the pipeline leaves there: an input as entered (no item of
    the region writes it), an output its folded write-backs. (One case per window, each input's reference named so that
    its difference from the outputs' is decided on the names.) -/
theorem hF11 (c : Dev nD) (w : Fin cfg11.W) : (pdats m 11 c).arrAt w cfg11.N = Vout11 m c (Pipeline.arrRef spec11 w) := by
  have hin : ∀ w : Fin cfg11.W, (cfg11.win w).isOut = false → Pipeline.arrRef spec11 w ∉ ([main_v29_0, main_v29_1, main_v29_2] : List (Ref sig .tc)) →
      (dat11 (Vin11 m) c).arrAt w cfg11.N = Vout11 m c (Pipeline.arrRef spec11 w) := fun w h hn =>
    ((dat11 (Vin11 m) c).arrAt_in w h _).trans ((A_eq11 (Vin11 m) c w).trans (Gen.V22_of m (outs m) c _ hn).symm)
  revert w
  show ∀ w : Fin 8, (dat11 (Vin11 m) c).arrAt w cfg11.N = Vout11 m c (Pipeline.arrRef spec11 w)
  exact fun
    | 0 => hin 0 rfl (show (main_v28 : Ref sig .tc) ∉ ([main_v29_0, main_v29_1, main_v29_2] : List (Ref sig .tc)) from by decide)
    | 1 => hin 1 rfl (show (main_v11 : Ref sig .tc) ∉ ([main_v29_0, main_v29_1, main_v29_2] : List (Ref sig .tc)) from by decide)
    | 2 => hin 2 rfl (show (main_v12 : Ref sig .tc) ∉ ([main_v29_0, main_v29_1, main_v29_2] : List (Ref sig .tc)) from by decide)
    | 3 => hin 3 rfl (show (main_v13 : Ref sig .tc) ∉ ([main_v29_0, main_v29_1, main_v29_2] : List (Ref sig .tc)) from by decide)
    | 4 => hin 4 rfl (show (main_v18 : Ref sig .tc) ∉ ([main_v29_0, main_v29_1, main_v29_2] : List (Ref sig .tc)) from by decide)
    | 5 => (Vout11_5 m c).symm
    | 6 => (Vout11_6 m c).symm
    | 7 => (Vout11_7 m c).symm
    | ⟨_ + 8, h⟩ => absurd h (Nat.not_lt.2 (Nat.le_add_left _ _))
/-- Every buffer that is no array of region 11 is at its exit as at its entry. -/
theorem hrest11 (c : Dev nD) : ∀ b, b ∉ Finset.univ.image (Pipeline.arrRef spec11) → Vout11 m c b = Vin11 m c b :=
  fun b hb => Gen.V22_of m (outs m) c b fun h => by
    simp only [List.mem_cons, List.not_mem_nil, or_false] at h
    rcases h with rfl | rfl | rfl
    · exact hb (Finset.mem_image.mpr ⟨5, Finset.mem_univ _, rfl⟩)
    · exact hb (Finset.mem_image.mpr ⟨6, Finset.mem_univ _, rfl⟩)
    · exact hb (Finset.mem_image.mpr ⟨7, Finset.mem_univ _, rfl⟩)

/-- At region 12's exit main_v30 holds what its pipeline folds in window 7. -/
theorem Vout12_7 (c : Dev nD) : Vout12 m c main_v30 = (dat12 (Vin12 m) c).arrAt 7 cfg12.N := by
  have e : Vout12 m c main_v30 = o23 m main_v30 c := by
    show Gen.V23 m (outs m) c main_v30 = _
    simp only [Gen.V23, Function.update_self] <;> rfl
  rw [e, ← sfun12 m]
  exact Pipeline.withArrays_arr spec12 launch12.win.arr_inj c _ _ 7
set_option maxHeartbeats 1000000 in
/-- At region 12's exit each of its arrays holds what the pipeline leaves there: an input as entered (no item of
    the region writes it), an output its folded write-backs. (One case per window, each input's reference named so that
    its difference from the outputs' is decided on the names.) -/
theorem hF12 (c : Dev nD) (w : Fin cfg12.W) : (pdats m 12 c).arrAt w cfg12.N = Vout12 m c (Pipeline.arrRef spec12 w) := by
  have hin : ∀ w : Fin cfg12.W, (cfg12.win w).isOut = false → Pipeline.arrRef spec12 w ∉ ([main_v30] : List (Ref sig .tc)) →
      (dat12 (Vin12 m) c).arrAt w cfg12.N = Vout12 m c (Pipeline.arrRef spec12 w) := fun w h hn =>
    ((dat12 (Vin12 m) c).arrAt_in w h _).trans ((A_eq12 (Vin12 m) c w).trans (Gen.V23_of m (outs m) c _ hn).symm)
  revert w
  show ∀ w : Fin 8, (dat12 (Vin12 m) c).arrAt w cfg12.N = Vout12 m c (Pipeline.arrRef spec12 w)
  exact fun
    | 0 => hin 0 rfl (show (main_v29_0 : Ref sig .tc) ∉ ([main_v30] : List (Ref sig .tc)) from by decide)
    | 1 => hin 1 rfl (show (main_v29_1 : Ref sig .tc) ∉ ([main_v30] : List (Ref sig .tc)) from by decide)
    | 2 => hin 2 rfl (show (main_v29_2 : Ref sig .tc) ∉ ([main_v30] : List (Ref sig .tc)) from by decide)
    | 3 => hin 3 rfl (show (main_v14 : Ref sig .tc) ∉ ([main_v30] : List (Ref sig .tc)) from by decide)
    | 4 => hin 4 rfl (show (main_v15 : Ref sig .tc) ∉ ([main_v30] : List (Ref sig .tc)) from by decide)
    | 5 => hin 5 rfl (show (main_arg14 : Ref sig .tc) ∉ ([main_v30] : List (Ref sig .tc)) from by decide)
    | 6 => hin 6 rfl (show (main_arg15 : Ref sig .tc) ∉ ([main_v30] : List (Ref sig .tc)) from by decide)
    | 7 => (Vout12_7 m c).symm
    | ⟨_ + 8, h⟩ => absurd h (Nat.not_lt.2 (Nat.le_add_left _ _))
/-- Every buffer that is no array of region 12 is at its exit as at its entry. -/
theorem hrest12 (c : Dev nD) : ∀ b, b ∉ Finset.univ.image (Pipeline.arrRef spec12) → Vout12 m c b = Vin12 m c b :=
  fun b hb => Gen.V23_of m (outs m) c b fun h => by
    simp only [List.mem_cons, List.not_mem_nil, or_false] at h
    rcases h with rfl
    · exact hb (Finset.mem_image.mpr ⟨7, Finset.mem_univ _, rfl⟩)

/-- At region 13's exit main_v34 holds what its pipeline folds in window 7. -/
theorem Vout13_7 (c : Dev nD) : Vout13 m c main_v34 = (dat13 (Vin13 m) c).arrAt 7 cfg13.N := by
  have e : Vout13 m c main_v34 = o26 m main_v34 c := by
    show Gen.V26 m (outs m) c main_v34 = _
    simp only [Gen.V26, Function.update_self] <;> rfl
  rw [e, ← sfun13 m]
  exact Pipeline.withArrays_arr spec13 launch13.win.arr_inj c _ _ 7
set_option maxHeartbeats 1000000 in
/-- At region 13's exit each of its arrays holds what the pipeline leaves there: an input as entered (no item of
    the region writes it), an output its folded write-backs. (One case per window, each input's reference named so that
    its difference from the outputs' is decided on the names.) -/
theorem hF13 (c : Dev nD) (w : Fin cfg13.W) : (pdats m 13 c).arrAt w cfg13.N = Vout13 m c (Pipeline.arrRef spec13 w) := by
  have hin : ∀ w : Fin cfg13.W, (cfg13.win w).isOut = false → Pipeline.arrRef spec13 w ∉ ([main_v34] : List (Ref sig .tc)) →
      (dat13 (Vin13 m) c).arrAt w cfg13.N = Vout13 m c (Pipeline.arrRef spec13 w) := fun w h hn =>
    ((dat13 (Vin13 m) c).arrAt_in w h _).trans ((A_eq13 (Vin13 m) c w).trans (Gen.V26_of m (outs m) c _ hn).symm)
  revert w
  show ∀ w : Fin 8, (dat13 (Vin13 m) c).arrAt w cfg13.N = Vout13 m c (Pipeline.arrRef spec13 w)
  exact fun
    | 0 => hin 0 rfl (show (main_v30 : Ref sig .tc) ∉ ([main_v34] : List (Ref sig .tc)) from by decide)
    | 1 => hin 1 rfl (show (main_v16 : Ref sig .tc) ∉ ([main_v34] : List (Ref sig .tc)) from by decide)
    | 2 => hin 2 rfl (show (main_v6 : Ref sig .tc) ∉ ([main_v34] : List (Ref sig .tc)) from by decide)
    | 3 => hin 3 rfl (show (main_v7 : Ref sig .tc) ∉ ([main_v34] : List (Ref sig .tc)) from by decide)
    | 4 => hin 4 rfl (show (main_v31 : Ref sig .tc) ∉ ([main_v34] : List (Ref sig .tc)) from by decide)
    | 5 => hin 5 rfl (show (main_arg6 : Ref sig .tc) ∉ ([main_v34] : List (Ref sig .tc)) from by decide)
    | 6 => hin 6 rfl (show (main_v33 : Ref sig .tc) ∉ ([main_v34] : List (Ref sig .tc)) from by decide)
    | 7 => (Vout13_7 m c).symm
    | ⟨_ + 8, h⟩ => absurd h (Nat.not_lt.2 (Nat.le_add_left _ _))
/-- Every buffer that is no array of region 13 is at its exit as at its entry. -/
theorem hrest13 (c : Dev nD) : ∀ b, b ∉ Finset.univ.image (Pipeline.arrRef spec13) → Vout13 m c b = Vin13 m c b :=
  fun b hb => Gen.V26_of m (outs m) c b fun h => by
    simp only [List.mem_cons, List.not_mem_nil, or_false] at h
    rcases h with rfl
    · exact hb (Finset.mem_image.mpr ⟨7, Finset.mem_univ _, rfl⟩)

end Cert.KernelIdeal.Hand

end
-- ==== Proof.KI.Seg0.lean ====
/- Region 0 (the blocked matrix-product call E = S·M, sequence matrix times table) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 0 over the thread state: entered from every unscoped buffer at `Gen.V6`, left at `Gen.V7`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V6 m c) ∗ R c)
  post c := iprop(StableHlo.held (c : Thread nD τ) (Pipeline.ucRefs τ sig) (Gen.V7 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun w => A_eq0 (Vin0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi_first0 (Vin0 m) c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi_last0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 0 is the one its record is entered from, -/
theorem hpre0 (c : Dev nD) : iprop(StableHlo.held (c : Thread nD τ) (Pipeline.ucRefs τ sig) (Gen.V6 m c) ∗ R c) ⊢ (reg0 m).pre c := .rfl
/-- and the one it leaves is the thread state after it. -/
theorem hpost0 (c : Dev nD) : (reg0 m).post c ⊢ iprop(StableHlo.held (c : Thread nD τ) (Pipeline.ucRefs τ sig) (Gen.V7 m (outs m) c) ∗ R c) := .rfl

end Cert.KernelIdeal.Hand

end
-- ==== Proof.KI.Seg1.lean ====
/- Region 1 (the blocked matrix-product call m = cand·M, candidate row times table) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 1 over the thread state: entered from every unscoped buffer at `Gen.V7`, left at `Gen.V8`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun w => A_eq1 (Vin1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi_first1 (Vin1 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi_last1 (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 1 is the one its record is entered from, -/
theorem hpre1 (c : Dev nD) : iprop(StableHlo.held (c : Thread nD τ) (Pipeline.ucRefs τ sig) (Gen.V7 m (outs m) c) ∗ R c) ⊢ (reg1 m).pre c := .rfl
/-- and the one it leaves is the thread state after it. -/
theorem hpost1 (c : Dev nD) : (reg1 m).post c ⊢ iprop(StableHlo.held (c : Thread nD τ) (Pipeline.ucRefs τ sig) (Gen.V8 m (outs m) c) ∗ R c) := .rfl

end Cert.KernelIdeal.Hand

end
-- ==== Proof.KI.Seg2.lean ====
/- Region 2 (the global-attention call) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 2 over the thread state: entered from every unscoped buffer at `Gen.V9`, left at `Gen.V10`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ L lv 2 fun _ _ => rfl
  pre c := iprop(StableHlo.held (c : Thread nD τ) (Pipeline.ucRefs τ sig) (Gen.V9 m (outs m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vin2 m c) fun w => A_eq2 (Vin2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Phi_first2 (Vin2 m) c]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from Phi_last2 (Vin2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin2 m c) (Vout2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 2 is the one its record is entered from, -/
theorem hpre2 (c : Dev nD) : iprop(StableHlo.held (c : Thread nD τ) (Pipeline.ucRefs τ sig) (Gen.V9 m (outs m) c) ∗ R c) ⊢ (reg2 m).pre c := .rfl
/-- and the one it leaves is the thread state after it. -/
theorem hpost2 (c : Dev nD) : (reg2 m).post c ⊢ iprop(StableHlo.held (c : Thread nD τ) (Pipeline.ucRefs τ sig) (Gen.V10 m (outs m) c) ∗ R c) := .rfl

end Cert.KernelIdeal.Hand

end
-- ==== Proof.KI.Seg3.lean ====
/- Region 3 (the projection call of round 1) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 3 over the thread state: entered from every unscoped buffer at `Gen.V13`, left at `Gen.V14`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin3 m) c).loose
  hwaits := Pipeline.hwaits_of_owed_zero _ _ _ _ L lv 3 fun _ _ => rfl
  pre c := iprop(StableHlo.held (c : Thread nD τ) (Pipeline.ucRefs τ sig) (Gen.V13 m (outs m) c) ∗ R c)
  post c := iprop(StableHlo.held (c : Thread nD τ) (Pipeline.ucRefs τ sig) (Gen.V14 m (outs m) c) ∗ R c)
  X c := iprop(∃ r, prngReg c r)
  Y c := iprop(∃ r, prngReg c r)
  Z c := Pipeline.unscopedRest (Ix := Unit) (Name := ℕ) (U := UR sig nD τ) (Lvl := ℕ) spec3 c (Vin3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vin3 m c) fun w => A_eq3 (Vin3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi_first3 (Vin3 m) c]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from Phi_last3 (Vin3 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vin3 m c) (Vout3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 3 is the one its record is entered from, -/
theorem hpre3 (c : Dev nD) : iprop(StableHlo.held (c : Thread nD τ) (Pipeline.ucRefs τ sig) (Gen.V13 m (outs m) c) ∗ R c) ⊢ (reg3 m).pre c := .rfl
/-- and the one it leaves is the thread state after it. -/
theorem hpost3 (c : Dev nD) : (reg3 m).post c ⊢ iprop(StableHlo.held (c : Thread nD τ) (Pipeline.ucRefs τ sig) (Gen.V14 m (outs m) c) ∗ R c) := .rfl

end Cert.KernelIdeal.Hand

end
-- ==== Proof.KI.Seg4.lean ====
/- Region 4 (the attention and feed-forward call of round 1) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 4 over the thread state: entered from every unscoped buffer at `Gen.V14`, left at `Gen.V15`. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vin4 m) c).loose
  hwaits := Pipeline.hwaits_of_owed_zero _ _ _ _ L lv 4 fun _ _ => rfl
  pre c := iprop(StableHlo.held (c : Thread nD τ) (Pipeline.ucRefs τ sig) (Gen.V14 m (outs m) c) ∗ R c)
  post c := iprop(StableHlo.held (c : Thread nD τ) (Pipeline.ucRefs τ sig) (Gen.V15 m (outs m) c) ∗ R c)
  X c := iprop(∃ r, prngReg c r)
  Y c := iprop(∃ r, prngReg c r)
  Z c := Pipeline.unscopedRest (Ix := Unit) (Name := ℕ) (U := UR sig nD τ) (Lvl := ℕ) spec4 c (Vin4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vin4 m c) fun w => A_eq4 (Vin4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from Phi_first4 (Vin4 m) c]; unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from Phi_last4 (Vin4 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vin4 m c) (Vout4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 4 is the one its record is entered from, -/
theorem hpre4 (c : Dev nD) : iprop(StableHlo.held (c : Thread nD τ) (Pipeline.ucRefs τ sig) (Gen.V14 m (outs m) c) ∗ R c) ⊢ (reg4 m).pre c := .rfl
/-- and the one it leaves is the thread state after it. -/
theorem hpost4 (c : Dev nD) : (reg4 m).post c ⊢ iprop(StableHlo.held (c : Thread nD τ) (Pipeline.ucRefs τ sig) (Gen.V15 m (outs m) c) ∗ R c) := .rfl

end Cert.KernelIdeal.Hand

end
-- ==== Proof.KI.Seg5.lean ====
/- Region 5 (the projection call of round 2) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 5 over the thread state: entered from every unscoped buffer at `Gen.V15`, left at `Gen.V16`. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vin5 m) c).loose
  hwaits := Pipeline.hwaits_of_owed_zero _ _ _ _ L lv 5 fun _ _ => rfl
  pre c := iprop(StableHlo.held (c : Thread nD τ) (Pipeline.ucRefs τ sig) (Gen.V15 m (outs m) c) ∗ R c)
  post c := iprop(StableHlo.held (c : Thread nD τ) (Pipeline.ucRefs τ sig) (Gen.V16 m (outs m) c) ∗ R c)
  X c := iprop(∃ r, prngReg c r)
  Y c := iprop(∃ r, prngReg c r)
  Z c := Pipeline.unscopedRest (Ix := Unit) (Name := ℕ) (U := UR sig nD τ) (Lvl := ℕ) spec5 c (Vin5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vin5 m c) fun w => A_eq5 (Vin5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from Phi_first5 (Vin5 m) c]; unfold Pipeline.ΦA
    iintro ⟨Hp, -, Hr⟩
    isplitl [Hr]; · iexact Hr
    iexact Hp
  hout c := by
    rw [Pipeline.ownSems0_none]
    refine (show (pdats m 5 c).Φ (Fin.last _) ⊢ Pipeline.ΦA spec5 c from Phi_last5 (Vin5 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vin5 m c) (Vout5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 5 is the one its record is entered from, -/
theorem hpre5 (c : Dev nD) : iprop(StableHlo.held (c : Thread nD τ) (Pipeline.ucRefs τ sig) (Gen.V15 m (outs m) c) ∗ R c) ⊢ (reg5 m).pre c := .rfl
/-- and the one it leaves is the thread state after it. -/
theorem hpost5 (c : Dev nD) : (reg5 m).post c ⊢ iprop(StableHlo.held (c : Thread nD τ) (Pipeline.ucRefs τ sig) (Gen.V16 m (outs m) c) ∗ R c) := .rfl

end Cert.KernelIdeal.Hand

end
-- ==== Proof.KI.Seg6.lean ====
/- Region 6 (the attention and feed-forward call of round 2) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 6 over the thread state: entered from every unscoped buffer at `Gen.V16`, left at `Gen.V17`. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vin6 m) c).loose
  hwaits := Pipeline.hwaits_of_owed_zero _ _ _ _ L lv 6 fun _ _ => rfl
  pre c := iprop(StableHlo.held (c : Thread nD τ) (Pipeline.ucRefs τ sig) (Gen.V16 m (outs m) c) ∗ R c)
  post c := iprop(StableHlo.held (c : Thread nD τ) (Pipeline.ucRefs τ sig) (Gen.V17 m (outs m) c) ∗ R c)
  X c := iprop(∃ r, prngReg c r)
  Y c := iprop(∃ r, prngReg c r)
  Z c := Pipeline.unscopedRest (Ix := Unit) (Name := ℕ) (U := UR sig nD τ) (Lvl := ℕ) spec6 c (Vin6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Vin6 m c) fun w => A_eq6 (Vin6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from Phi_first6 (Vin6 m) c]; unfold Pipeline.ΦA
    iintro ⟨Hp, -, Hr⟩
    isplitl [Hr]; · iexact Hr
    iexact Hp
  hout c := by
    rw [Pipeline.ownSems0_none]
    refine (show (pdats m 6 c).Φ (Fin.last _) ⊢ Pipeline.ΦA spec6 c from Phi_last6 (Vin6 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Vin6 m c) (Vout6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 6 is the one its record is entered from, -/
theorem hpre6 (c : Dev nD) : iprop(StableHlo.held (c : Thread nD τ) (Pipeline.ucRefs τ sig) (Gen.V16 m (outs m) c) ∗ R c) ⊢ (reg6 m).pre c := .rfl
/-- and the one it leaves is the thread state after it. -/
theorem hpost6 (c : Dev nD) : (reg6 m).post c ⊢ iprop(StableHlo.held (c : Thread nD τ) (Pipeline.ucRefs τ sig) (Gen.V17 m (outs m) c) ∗ R c) := .rfl

end Cert.KernelIdeal.Hand

end
-- ==== Proof.KI.Seg7.lean ====
/- Region 7 (the projection call of round 3) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 7 over the thread state: entered from every unscoped buffer at `Gen.V17`, left at `Gen.V18`. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vin7 m) c).loose
  hwaits := Pipeline.hwaits_of_owed_zero _ _ _ _ L lv 7 fun _ _ => rfl
  pre c := iprop(StableHlo.held (c : Thread nD τ) (Pipeline.ucRefs τ sig) (Gen.V17 m (outs m) c) ∗ R c)
  post c := iprop(StableHlo.held (c : Thread nD τ) (Pipeline.ucRefs τ sig) (Gen.V18 m (outs m) c) ∗ R c)
  X c := iprop(∃ r, prngReg c r)
  Y c := iprop(∃ r, prngReg c r)
  Z c := Pipeline.unscopedRest (Ix := Unit) (Name := ℕ) (U := UR sig nD τ) (Lvl := ℕ) spec7 c (Vin7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Vin7 m c) fun w => A_eq7 (Vin7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from Phi_first7 (Vin7 m) c]; unfold Pipeline.ΦA
    iintro ⟨Hp, -, Hr⟩
    isplitl [Hr]; · iexact Hr
    iexact Hp
  hout c := by
    rw [Pipeline.ownSems0_none]
    refine (show (pdats m 7 c).Φ (Fin.last _) ⊢ Pipeline.ΦA spec7 c from Phi_last7 (Vin7 m) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Vin7 m c) (Vout7 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 7 is the one its record is entered from, -/
theorem hpre7 (c : Dev nD) : iprop(StableHlo.held (c : Thread nD τ) (Pipeline.ucRefs τ sig) (Gen.V17 m (outs m) c) ∗ R c) ⊢ (reg7 m).pre c := .rfl
/-- and the one it leaves is the thread state after it. -/
theorem hpost7 (c : Dev nD) : (reg7 m).post c ⊢ iprop(StableHlo.held (c : Thread nD τ) (Pipeline.ucRefs τ sig) (Gen.V18 m (outs m) c) ∗ R c) := .rfl

end Cert.KernelIdeal.Hand

end
-- ==== Proof.KI.Seg8.lean ====
/- Region 8 (the attention and feed-forward call of round 3) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 8 over the thread state: entered from every unscoped buffer at `Gen.V18`, left at `Gen.V19`. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vin8 m) c).loose
  hwaits := Pipeline.hwaits_of_owed_zero _ _ _ _ L lv 8 fun _ _ => rfl
  pre c := iprop(StableHlo.held (c : Thread nD τ) (Pipeline.ucRefs τ sig) (Gen.V18 m (outs m) c) ∗ R c)
  post c := iprop(StableHlo.held (c : Thread nD τ) (Pipeline.ucRefs τ sig) (Gen.V19 m (outs m) c) ∗ R c)
  X c := iprop(∃ r, prngReg c r)
  Y c := iprop(∃ r, prngReg c r)
  Z c := Pipeline.unscopedRest (Ix := Unit) (Name := ℕ) (U := UR sig nD τ) (Lvl := ℕ) spec8 c (Vin8 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Vin8 m c) fun w => A_eq8 (Vin8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from Phi_first8 (Vin8 m) c]; unfold Pipeline.ΦA
    iintro ⟨Hp, -, Hr⟩
    isplitl [Hr]; · iexact Hr
    iexact Hp
  hout c := by
    rw [Pipeline.ownSems0_none]
    refine (show (pdats m 8 c).Φ (Fin.last _) ⊢ Pipeline.ΦA spec8 c from Phi_last8 (Vin8 m) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Vin8 m c) (Vout8 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 8 is the one its record is entered from, -/
theorem hpre8 (c : Dev nD) : iprop(StableHlo.held (c : Thread nD τ) (Pipeline.ucRefs τ sig) (Gen.V18 m (outs m) c) ∗ R c) ⊢ (reg8 m).pre c := .rfl
/-- and the one it leaves is the thread state after it. -/
theorem hpost8 (c : Dev nD) : (reg8 m).post c ⊢ iprop(StableHlo.held (c : Thread nD τ) (Pipeline.ucRefs τ sig) (Gen.V19 m (outs m) c) ∗ R c) := .rfl

end Cert.KernelIdeal.Hand

end
-- ==== Proof.KI.Seg9.lean ====
/- Region 9 (the projection call of round 4) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 9 over the thread state: entered from every unscoped buffer at `Gen.V19`, left at `Gen.V20`. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vin9 m) c).loose
  hwaits := Pipeline.hwaits_of_owed_zero _ _ _ _ L lv 9 fun _ _ => rfl
  pre c := iprop(StableHlo.held (c : Thread nD τ) (Pipeline.ucRefs τ sig) (Gen.V19 m (outs m) c) ∗ R c)
  post c := iprop(StableHlo.held (c : Thread nD τ) (Pipeline.ucRefs τ sig) (Gen.V20 m (outs m) c) ∗ R c)
  X c := iprop(∃ r, prngReg c r)
  Y c := iprop(∃ r, prngReg c r)
  Z c := Pipeline.unscopedRest (Ix := Unit) (Name := ℕ) (U := UR sig nD τ) (Lvl := ℕ) spec9 c (Vin9 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Vin9 m c) fun w => A_eq9 (Vin9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from Phi_first9 (Vin9 m) c]; unfold Pipeline.ΦA
    iintro ⟨Hp, -, Hr⟩
    isplitl [Hr]; · iexact Hr
    iexact Hp
  hout c := by
    rw [Pipeline.ownSems0_none]
    refine (show (pdats m 9 c).Φ (Fin.last _) ⊢ Pipeline.ΦA spec9 c from Phi_last9 (Vin9 m) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Vin9 m c) (Vout9 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 9 is the one its record is entered from, -/
theorem hpre9 (c : Dev nD) : iprop(StableHlo.held (c : Thread nD τ) (Pipeline.ucRefs τ sig) (Gen.V19 m (outs m) c) ∗ R c) ⊢ (reg9 m).pre c := .rfl
/-- and the one it leaves is the thread state after it. -/
theorem hpost9 (c : Dev nD) : (reg9 m).post c ⊢ iprop(StableHlo.held (c : Thread nD τ) (Pipeline.ucRefs τ sig) (Gen.V20 m (outs m) c) ∗ R c) := .rfl

end Cert.KernelIdeal.Hand

end
-- ==== Proof.KI.Seg10.lean ====
/- Region 10 (the attention and feed-forward call of round 4) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 10 over the thread state: entered from every unscoped buffer at `Gen.V20`, left at `Gen.V21`. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vin10 m) c).loose
  hwaits := Pipeline.hwaits_of_owed_zero _ _ _ _ L lv 10 fun _ _ => rfl
  pre c := iprop(StableHlo.held (c : Thread nD τ) (Pipeline.ucRefs τ sig) (Gen.V20 m (outs m) c) ∗ R c)
  post c := iprop(StableHlo.held (c : Thread nD τ) (Pipeline.ucRefs τ sig) (Gen.V21 m (outs m) c) ∗ R c)
  X c := iprop(∃ r, prngReg c r)
  Y c := iprop(∃ r, prngReg c r)
  Z c := Pipeline.unscopedRest (Ix := Unit) (Name := ℕ) (U := UR sig nD τ) (Lvl := ℕ) spec10 c (Vin10 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (Vin10 m c) fun w => A_eq10 (Vin10 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from Phi_first10 (Vin10 m) c]; unfold Pipeline.ΦA
    iintro ⟨Hp, -, Hr⟩
    isplitl [Hr]; · iexact Hr
    iexact Hp
  hout c := by
    rw [Pipeline.ownSems0_none]
    refine (show (pdats m 10 c).Φ (Fin.last _) ⊢ Pipeline.ΦA spec10 c from Phi_last10 (Vin10 m) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (Vin10 m c) (Vout10 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 10 is the one its record is entered from, -/
theorem hpre10 (c : Dev nD) : iprop(StableHlo.held (c : Thread nD τ) (Pipeline.ucRefs τ sig) (Gen.V20 m (outs m) c) ∗ R c) ⊢ (reg10 m).pre c := .rfl
/-- and the one it leaves is the thread state after it. -/
theorem hpost10 (c : Dev nD) : (reg10 m).post c ⊢ iprop(StableHlo.held (c : Thread nD τ) (Pipeline.ucRefs τ sig) (Gen.V21 m (outs m) c) ∗ R c) := .rfl

end Cert.KernelIdeal.Hand

end
-- ==== Proof.KI.Seg11.lean ====
/- Region 11 (the projection call of round 5) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 11 over the thread state: entered from every unscoped buffer at `Gen.V21`, left at `Gen.V22`. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vin11 m) c).loose
  hwaits := Pipeline.hwaits_of_owed_zero _ _ _ _ L lv 11 fun _ _ => rfl
  pre c := iprop(StableHlo.held (c : Thread nD τ) (Pipeline.ucRefs τ sig) (Gen.V21 m (outs m) c) ∗ R c)
  post c := iprop(StableHlo.held (c : Thread nD τ) (Pipeline.ucRefs τ sig) (Gen.V22 m (outs m) c) ∗ R c)
  X c := iprop(∃ r, prngReg c r)
  Y c := iprop(∃ r, prngReg c r)
  Z c := Pipeline.unscopedRest (Ix := Unit) (Name := ℕ) (U := UR sig nD τ) (Lvl := ℕ) spec11 c (Vin11 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (Vin11 m c) fun w => A_eq11 (Vin11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from Phi_first11 (Vin11 m) c]; unfold Pipeline.ΦA
    iintro ⟨Hp, -, Hr⟩
    isplitl [Hr]; · iexact Hr
    iexact Hp
  hout c := by
    rw [Pipeline.ownSems0_none]
    refine (show (pdats m 11 c).Φ (Fin.last _) ⊢ Pipeline.ΦA spec11 c from Phi_last11 (Vin11 m) c).trans ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (Vin11 m c) (Vout11 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 11 is the one its record is entered from, -/
theorem hpre11 (c : Dev nD) : iprop(StableHlo.held (c : Thread nD τ) (Pipeline.ucRefs τ sig) (Gen.V21 m (outs m) c) ∗ R c) ⊢ (reg11 m).pre c := .rfl
/-- and the one it leaves is the thread state after it. -/
theorem hpost11 (c : Dev nD) : (reg11 m).post c ⊢ iprop(StableHlo.held (c : Thread nD τ) (Pipeline.ucRefs τ sig) (Gen.V22 m (outs m) c) ∗ R c) := .rfl

end Cert.KernelIdeal.Hand

end
-- ==== Proof.KI.Seg12.lean ====
/- Region 12 (the attention and feed-forward call of round 5) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 12 over the thread state: entered from every unscoped buffer at `Gen.V22`, left at `Gen.V23`. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (Vin12 m) c).loose
  hwaits := Pipeline.hwaits_of_owed_zero _ _ _ _ L lv 12 fun _ _ => rfl
  pre c := iprop(StableHlo.held (c : Thread nD τ) (Pipeline.ucRefs τ sig) (Gen.V22 m (outs m) c) ∗ R c)
  post c := iprop(StableHlo.held (c : Thread nD τ) (Pipeline.ucRefs τ sig) (Gen.V23 m (outs m) c) ∗ R c)
  X c := iprop(∃ r, prngReg c r)
  Y c := iprop(∃ r, prngReg c r)
  Z c := Pipeline.unscopedRest (Ix := Unit) (Name := ℕ) (U := UR sig nD τ) (Lvl := ℕ) spec12 c (Vin12 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (Vin12 m c) fun w => A_eq12 (Vin12 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from Phi_first12 (Vin12 m) c]; unfold Pipeline.ΦA
    iintro ⟨Hp, -, Hr⟩
    isplitl [Hr]; · iexact Hr
    iexact Hp
  hout c := by
    rw [Pipeline.ownSems0_none]
    refine (show (pdats m 12 c).Φ (Fin.last _) ⊢ Pipeline.ΦA spec12 c from Phi_last12 (Vin12 m) c).trans ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (Vin12 m c) (Vout12 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 12 is the one its record is entered from, -/
theorem hpre12 (c : Dev nD) : iprop(StableHlo.held (c : Thread nD τ) (Pipeline.ucRefs τ sig) (Gen.V22 m (outs m) c) ∗ R c) ⊢ (reg12 m).pre c := .rfl
/-- and the one it leaves is the thread state after it. -/
theorem hpost12 (c : Dev nD) : (reg12 m).post c ⊢ iprop(StableHlo.held (c : Thread nD τ) (Pipeline.ucRefs τ sig) (Gen.V23 m (outs m) c) ∗ R c) := .rfl

end Cert.KernelIdeal.Hand

end
-- ==== Proof.KI.Seg13.lean ====
/- Region 13 (the gating call) as a segment of the program, for any float model `F`: entered from every
   unscoped buffer at the contents before it, left at the contents after it, beside the core's generator register
   and nothing owed. Its arrays are split out of the unscoped buffers at entry and put back at exit; the generator
   register goes into the pipeline's invariant and comes back; the kernel has no semaphore of its own. -/
import proofs.«104406_j63058709840319_2_alg».proof.Proof.KI.Pdats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may
-- unfold plain definitions in a metavariable's type
set_option backward.isDefEq.respectTransparency.types false in
/-- REGION 13 over the thread state: entered from every unscoped buffer at `Gen.V25`, left at `Gen.V26`. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (Vin13 m) c).loose
  hwaits := Pipeline.hwaits_of_owed_zero _ _ _ _ L lv 13 fun _ _ => rfl
  pre c := iprop(StableHlo.held (c : Thread nD τ) (Pipeline.ucRefs τ sig) (Gen.V25 m (outs m) c) ∗ R c)
  post c := iprop(StableHlo.held (c : Thread nD τ) (Pipeline.ucRefs τ sig) (Gen.V26 m (outs m) c) ∗ R c)
  X c := iprop(∃ r, prngReg c r)
  Y c := iprop(∃ r, prngReg c r)
  Z c := Pipeline.unscopedRest (Ix := Unit) (Name := ℕ) (U := UR sig nD τ) (Lvl := ℕ) spec13 c (Vin13 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (Vin13 m c) fun w => A_eq13 (Vin13 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from Phi_first13 (Vin13 m) c]; unfold Pipeline.ΦA
    iintro ⟨Hp, -, Hr⟩
    isplitl [Hr]; · iexact Hr
    iexact Hp
  hout c := by
    rw [Pipeline.ownSems0_none]
    refine (show (pdats m 13 c).Φ (Fin.last _) ⊢ Pipeline.ΦA spec13 c from Phi_last13 (Vin13 m) c).trans ?_
    unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (Vin13 m c) (Vout13 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The thread state before region 13 is the one its record is entered from, -/
theorem hpre13 (c : Dev nD) : iprop(StableHlo.held (c : Thread nD τ) (Pipeline.ucRefs τ sig) (Gen.V25 m (outs m) c) ∗ R c) ⊢ (reg13 m).pre c := .rfl
/-- and the one it leaves is the thread state after it. -/
theorem hpost13 (c : Dev nD) : (reg13 m).post c ⊢ iprop(StableHlo.held (c : Thread nD τ) (Pipeline.ucRefs τ sig) (Gen.V26 m (outs m) c) ∗ R c) := .rfl

end Cert.KernelIdeal.Hand

end
-- ==== Proof.KI.Run.lean ====
/- The run of the whole program, for any float model `F`: the conditional run (given, per kernel region, a segment
   record entered from the buffer contents before it and left at the contents after it) at the unit index type, the
   rounds algebra, no launch dues and no ghost resources, where a core holds between two items, beside its unscoped
   buffers, only its generator register at some state and the fact that it owes nothing; then the run itself, at the
   regions' records and the contents they leave, and the frame post read off it. -/
import proofs.«104406_j63058709840319_2_alg».proof.Proof.KI.RunCond
import proofs.«104406_j63058709840319_2_alg».proof.Proof.KI.Pdats
import proofs.«104406_j63058709840319_2_alg».proof.Proof.KI.Seg0
import proofs.«104406_j63058709840319_2_alg».proof.Proof.KI.Seg1
import proofs.«104406_j63058709840319_2_alg».proof.Proof.KI.Seg2
import proofs.«104406_j63058709840319_2_alg».proof.Proof.KI.Seg3
import proofs.«104406_j63058709840319_2_alg».proof.Proof.KI.Seg4
import proofs.«104406_j63058709840319_2_alg».proof.Proof.KI.Seg5
import proofs.«104406_j63058709840319_2_alg».proof.Proof.KI.Seg6
import proofs.«104406_j63058709840319_2_alg».proof.Proof.KI.Seg7
import proofs.«104406_j63058709840319_2_alg».proof.Proof.KI.Seg8
import proofs.«104406_j63058709840319_2_alg».proof.Proof.KI.Seg9
import proofs.«104406_j63058709840319_2_alg».proof.Proof.KI.Seg10
import proofs.«104406_j63058709840319_2_alg».proof.Proof.KI.Seg11
import proofs.«104406_j63058709840319_2_alg».proof.Proof.KI.Seg12
import proofs.«104406_j63058709840319_2_alg».proof.Proof.KI.Seg13

-- decided memberships among the program's references recurse past the default depth
set_option maxRecDepth 1292

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The instance: nothing owed, no ghost resources -/

/-- No variant. -/
abbrev 𝒱r : Variants := Variants.none
/-- No pair of a semaphore and an index carries a level. -/
abbrev Lr : GSem nD τ sig → Finset Unit := fun _ => ∅
/-- The level assignment (never read: `Lr` is empty). -/
abbrev lvr : GSem nD τ sig → Unit → ℕ := fun _ _ => 0

/-- What core `c` holds between two items beside its unscoped buffers: its generator register at some state, and
    nothing owed. -/
abbrev runRest (c : Dev nD) : sProp 𝕄 :=
  iprop((∃ r, prngReg c r) ∗ ∃ W, owes (c : Thread nD τ) (0 : CellTallies nD τ sig Unit) W)

/-- The run from the regions' records: the conditional run at the unit index type and the rounds algebra, with no
    launch dues, no ghost resources, and `runRest` between any two items. The launch element is the pipelines' own; the
    launch deals each core its generator register and an empty debt, which is the first rest state; the last rest state
    owes nothing by its second half. -/
theorem run_main_of (ρ : Dev nD → PrngReg) (outs : Outs (F := F))
    (pdats : (p : Fin 14) → (c : Dev nD) → Dat τ (Elt F) Unit ℕ (UR sig nD τ) ℕ (cfgs p) c)
    (R0 : RegionSeg (pcfgs (F := F)) adm pdats () defs₀ 𝒱r Lr lvr 0)
    (hpre0 : ∀ c : Dev nD, iprop(StableHlo.held (c : Thread nD τ) (Pipeline.ucRefs τ sig) (V6 m c) ∗ runRest c) ⊢ R0.pre c)
    (hpost0 : ∀ c : Dev nD, R0.post c ⊢ iprop(StableHlo.held (c : Thread nD τ) (Pipeline.ucRefs τ sig) (V7 m outs c) ∗ runRest c))
    (R1 : RegionSeg (pcfgs (F := F)) adm pdats () defs₀ 𝒱r Lr lvr 1)
    (hpre1 : ∀ c : Dev nD, iprop(StableHlo.held (c : Thread nD τ) (Pipeline.ucRefs τ sig) (V7 m outs c) ∗ runRest c) ⊢ R1.pre c)
    (hpost1 : ∀ c : Dev nD, R1.post c ⊢ iprop(StableHlo.held (c : Thread nD τ) (Pipeline.ucRefs τ sig) (V8 m outs c) ∗ runRest c))
    (R2 : RegionSeg (pcfgs (F := F)) adm pdats () defs₀ 𝒱r Lr lvr 2)
    (hpre2 : ∀ c : Dev nD, iprop(StableHlo.held (c : Thread nD τ) (Pipeline.ucRefs τ sig) (V9 m outs c) ∗ runRest c) ⊢ R2.pre c)
    (hpost2 : ∀ c : Dev nD, R2.post c ⊢ iprop(StableHlo.held (c : Thread nD τ) (Pipeline.ucRefs τ sig) (V10 m outs c) ∗ runRest c))
    (R3 : RegionSeg (pcfgs (F := F)) adm pdats () defs₀ 𝒱r Lr lvr 3)
    (hpre3 : ∀ c : Dev nD, iprop(StableHlo.held (c : Thread nD τ) (Pipeline.ucRefs τ sig) (V13 m outs c) ∗ runRest c) ⊢ R3.pre c)
    (hpost3 : ∀ c : Dev nD, R3.post c ⊢ iprop(StableHlo.held (c : Thread nD τ) (Pipeline.ucRefs τ sig) (V14 m outs c) ∗ runRest c))
    (R4 : RegionSeg (pcfgs (F := F)) adm pdats () defs₀ 𝒱r Lr lvr 4)
    (hpre4 : ∀ c : Dev nD, iprop(StableHlo.held (c : Thread nD τ) (Pipeline.ucRefs τ sig) (V14 m outs c) ∗ runRest c) ⊢ R4.pre c)
    (hpost4 : ∀ c : Dev nD, R4.post c ⊢ iprop(StableHlo.held (c : Thread nD τ) (Pipeline.ucRefs τ sig) (V15 m outs c) ∗ runRest c))
    (R5 : RegionSeg (pcfgs (F := F)) adm pdats () defs₀ 𝒱r Lr lvr 5)
    (hpre5 : ∀ c : Dev nD, iprop(StableHlo.held (c : Thread nD τ) (Pipeline.ucRefs τ sig) (V15 m outs c) ∗ runRest c) ⊢ R5.pre c)
    (hpost5 : ∀ c : Dev nD, R5.post c ⊢ iprop(StableHlo.held (c : Thread nD τ) (Pipeline.ucRefs τ sig) (V16 m outs c) ∗ runRest c))
    (R6 : RegionSeg (pcfgs (F := F)) adm pdats () defs₀ 𝒱r Lr lvr 6)
    (hpre6 : ∀ c : Dev nD, iprop(StableHlo.held (c : Thread nD τ) (Pipeline.ucRefs τ sig) (V16 m outs c) ∗ runRest c) ⊢ R6.pre c)
    (hpost6 : ∀ c : Dev nD, R6.post c ⊢ iprop(StableHlo.held (c : Thread nD τ) (Pipeline.ucRefs τ sig) (V17 m outs c) ∗ runRest c))
    (R7 : RegionSeg (pcfgs (F := F)) adm pdats () defs₀ 𝒱r Lr lvr 7)
    (hpre7 : ∀ c : Dev nD, iprop(StableHlo.held (c : Thread nD τ) (Pipeline.ucRefs τ sig) (V17 m outs c) ∗ runRest c) ⊢ R7.pre c)
    (hpost7 : ∀ c : Dev nD, R7.post c ⊢ iprop(StableHlo.held (c : Thread nD τ) (Pipeline.ucRefs τ sig) (V18 m outs c) ∗ runRest c))
    (R8 : RegionSeg (pcfgs (F := F)) adm pdats () defs₀ 𝒱r Lr lvr 8)
    (hpre8 : ∀ c : Dev nD, iprop(StableHlo.held (c : Thread nD τ) (Pipeline.ucRefs τ sig) (V18 m outs c) ∗ runRest c) ⊢ R8.pre c)
    (hpost8 : ∀ c : Dev nD, R8.post c ⊢ iprop(StableHlo.held (c : Thread nD τ) (Pipeline.ucRefs τ sig) (V19 m outs c) ∗ runRest c))
    (R9 : RegionSeg (pcfgs (F := F)) adm pdats () defs₀ 𝒱r Lr lvr 9)
    (hpre9 : ∀ c : Dev nD, iprop(StableHlo.held (c : Thread nD τ) (Pipeline.ucRefs τ sig) (V19 m outs c) ∗ runRest c) ⊢ R9.pre c)
    (hpost9 : ∀ c : Dev nD, R9.post c ⊢ iprop(StableHlo.held (c : Thread nD τ) (Pipeline.ucRefs τ sig) (V20 m outs c) ∗ runRest c))
    (R10 : RegionSeg (pcfgs (F := F)) adm pdats () defs₀ 𝒱r Lr lvr 10)
    (hpre10 : ∀ c : Dev nD, iprop(StableHlo.held (c : Thread nD τ) (Pipeline.ucRefs τ sig) (V20 m outs c) ∗ runRest c) ⊢ R10.pre c)
    (hpost10 : ∀ c : Dev nD, R10.post c ⊢ iprop(StableHlo.held (c : Thread nD τ) (Pipeline.ucRefs τ sig) (V21 m outs c) ∗ runRest c))
    (R11 : RegionSeg (pcfgs (F := F)) adm pdats () defs₀ 𝒱r Lr lvr 11)
    (hpre11 : ∀ c : Dev nD, iprop(StableHlo.held (c : Thread nD τ) (Pipeline.ucRefs τ sig) (V21 m outs c) ∗ runRest c) ⊢ R11.pre c)
    (hpost11 : ∀ c : Dev nD, R11.post c ⊢ iprop(StableHlo.held (c : Thread nD τ) (Pipeline.ucRefs τ sig) (V22 m outs c) ∗ runRest c))
    (R12 : RegionSeg (pcfgs (F := F)) adm pdats () defs₀ 𝒱r Lr lvr 12)
    (hpre12 : ∀ c : Dev nD, iprop(StableHlo.held (c : Thread nD τ) (Pipeline.ucRefs τ sig) (V22 m outs c) ∗ runRest c) ⊢ R12.pre c)
    (hpost12 : ∀ c : Dev nD, R12.post c ⊢ iprop(StableHlo.held (c : Thread nD τ) (Pipeline.ucRefs τ sig) (V23 m outs c) ∗ runRest c))
    (R13 : RegionSeg (pcfgs (F := F)) adm pdats () defs₀ 𝒱r Lr lvr 13)
    (hpre13 : ∀ c : Dev nD, iprop(StableHlo.held (c : Thread nD τ) (Pipeline.ucRefs τ sig) (V25 m outs c) ∗ runRest c) ⊢ R13.pre c)
    (hpost13 : ∀ c : Dev nD, R13.post c ⊢ iprop(StableHlo.held (c : Thread nD τ) (Pipeline.ucRefs τ sig) (V26 m outs c) ∗ runRest c)) :
    θ_run defs (onTc (τ := τ) (main (F := F))) ⟨m, fun _ => 0, ρ⟩ (fun r => ∀ c : Dev nD,
      r.2.mem ((c.tc : Thread nD τ).loc main_v35) = V27 m outs c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_cond m (Ix := Unit) (U := UR sig nD τ) (Lvl := ℕ) emb₁ () 𝒱r Lr lvr (fun _ _ => rfl) ρ outs pdats
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => runRest)
    (hE0 := by
      refine Pipeline.initEach Lr lvr fun c => ?_
      iintro ⟨⟨-, HO, -, Hp, -⟩, -⟩
      imodintro
      isplitl [Hp]; · iexists _; iexact Hp
      iexists ∅; iexact HO)
    (hE14 := fun c => by
      iintro ⟨-, HO⟩
      iexact HO)
    R0 hpre0 hpost0 R1 hpre1 hpost1 R2 hpre2 hpost2 R3 hpre3 hpost3 R4 hpre4 hpost4 R5 hpre5 hpost5 R6 hpre6 hpost6 R7 hpre7 hpost7 R8 hpre8 hpost8 R9 hpre9 hpost9 R10 hpre10 hpost10 R11 hpre11 hpost11 R12 hpre12 hpost12 R13 hpre13 hpost13

/-- THE RUN: from any memory `m` with zero counters, every weakly fair execution of the program terminates; the result
    buffer `main_v35` ends holding what the last valuation gives it over the contents the regions leave (`outs m`), and
    every argument array ends as launched. The regions' records are entered and left exactly at the buffer contents
    between the items, beside the generator register and nothing owed. -/
theorem run_main (ρ : Dev nD → PrngReg) :
    θ_run defs (onTc (τ := τ) (main (F := F))) ⟨m, fun _ => 0, ρ⟩ (fun r => ∀ c : Dev nD,
      r.2.mem ((c.tc : Thread nD τ).loc main_v35) = V27 m (outs m) c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_main_of m ρ (outs m) (pdats m)
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)
    (reg7 m) (hpre7 m) (hpost7 m)
    (reg8 m) (hpre8 m) (hpost8 m)
    (reg9 m) (hpre9 m) (hpost9 m)
    (reg10 m) (hpre10 m) (hpost10 m)
    (reg11 m) (hpre11 m) (hpost11 m)
    (reg12 m) (hpre12 m) (hpost12 m)
    (reg13 m) (hpre13 m) (hpost13 m)

/-- The frame post from the run: drop the result's conjunct. -/
theorem frame_of_run (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run_main m ρ)

end Cert.KernelIdeal.Hand

end
-- ==== Proof.Ref.Stretches.lean ====
/-
  The reference's 222 operations cut into seven consecutive stretches: `sA` (the lower-triangular mask, `E = S·M`,
  the global attention row and `X0 = E + P`), `sB1 … sB5` (one round each) and `sC` (`m = cand·M`, the gate and the
  result). Each stretch comes with the list of the references it writes and the fact that it leaves every other
  reference as it was.
-/
import proofs.«104406_j63058709840319_2_alg».proof.Proof.Ref.RunP

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The mask `tril → main_v1`, `E = S·M → main_v2`, the global attention row `→ main_v18` (repeated down the rows `→ main_v19`) and `X0 = E + P → main_v20`. -/
abbrev sA : List (HloOp τ sig (Elt F)) :=
  [ nullary main_cst (constant S_ .f32 0x3F800000#32),
    unary main_cst main_v0 (broadcastInDim S2048x2048 ![] bcast_S_S2048x2048 : (⟨S_, .f32⟩ : BufTy).Contents (Elt F) → (⟨S2048x2048, .f32⟩ : BufTy).Contents (Elt F)),
    TRef.nullary (TRef.of (T := ⟨S2048x2048, .i32⟩) main_call0_v0) (iotaInDim S2048x2048 32 0),
    TRef.nullary (TRef.of (T := ⟨S_, .i32⟩) main_call0_c) (constantI S_ 32 0#32),
    TRef.unary (TRef.of (T := ⟨S_, .i32⟩) main_call0_c) (TRef.of (T := ⟨S2048x2048, .i32⟩) main_call0_v1) (broadcastInDim S2048x2048 ![] bcast_S_S2048x2048),
    TRef.binary (TRef.of (T := ⟨S2048x2048, .i32⟩) main_call0_v0) (TRef.of (T := ⟨S2048x2048, .i32⟩) main_call0_v1) (TRef.of (T := ⟨S2048x2048, .i32⟩) main_call0_v2) addi,
    TRef.nullary (TRef.of (T := ⟨S2048x2048, .i32⟩) main_call0_v3) (iotaInDim S2048x2048 32 1),
    TRef.binary (TRef.of (T := ⟨S2048x2048, .i32⟩) main_call0_v2) (TRef.of (T := ⟨S2048x2048, .i32⟩) main_call0_v3) (TRef.of (T := ⟨S2048x2048, .i1⟩) main_call0_v4) (cmpi .sge),
    TRef.nullary (TRef.of (T := ⟨S_, .f32⟩) main_call0_cst) (constant S_ .f32 0x00000000#32),
    TRef.unary (TRef.of (T := ⟨S_, .f32⟩) main_call0_cst) (TRef.of (T := ⟨S2048x2048, .f32⟩) main_call0_v5) (broadcastInDim S2048x2048 ![] bcast_S_S2048x2048),
    TRef.ternary (TRef.of (T := ⟨S2048x2048, .i1⟩) main_call0_v4) (TRef.of (T := ⟨S2048x2048, .f32⟩) main_v0) (TRef.of (T := ⟨S2048x2048, .f32⟩) main_call0_v5) (TRef.of (T := ⟨S2048x2048, .f32⟩) main_v1) select,
    binary main_arg0 main_arg2 main_v2 ((fun l r => Host.dotGeneral dot_S2048x20000_S20000x256_S2048x256_1_0_0_1_n_n none l r) : (⟨S2048x20000, .f32⟩ : BufTy).Contents (Elt F) → (⟨S20000x256, .f32⟩ : BufTy).Contents (Elt F) → (⟨S2048x256, .f32⟩ : BufTy).Contents (Elt F)),
    binary main_v2 main_arg10 main_v3 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_v3 main_v4 ((transpose S256x2048 [1, 0] · transposes_S2048x256_S256x2048_1_0) : (⟨S2048x256, .f32⟩ : BufTy).Contents (Elt F) → (⟨S256x2048, .f32⟩ : BufTy).Contents (Elt F)),
    binary main_arg4 main_v4 main_v5 ((fun l r => Host.dotGeneral dot_S1x256_S256x2048_S1x2048_1_0_0_1_n_n none l r) : (⟨S1x256, .f32⟩ : BufTy).Contents (Elt F) → (⟨S256x2048, .f32⟩ : BufTy).Contents (Elt F) → (⟨S1x2048, .f32⟩ : BufTy).Contents (Elt F)),
    nullary main_cst_0 (constant S_ .f32 0xFF800000#32),
    binary main_v5 main_cst_0 main_v6 ((fun x v => Host.reduce FloatOps.maximumf x v reducesTo_S1x2048_S1_d1 h_S_) : (⟨S1x2048, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v7 (broadcastInDim S1 ![] bcast_S_S1 : (⟨S_, .f32⟩ : BufTy).Contents (Elt F) → (⟨S1, .f32⟩ : BufTy).Contents (Elt F)),
    binary main_v7 main_v6 main_v8 (maximumf : (⟨S1, .f32⟩ : BufTy).Contents (Elt F) → (⟨S1, .f32⟩ : BufTy).Contents (Elt F) → (⟨S1, .f32⟩ : BufTy).Contents (Elt F)),
    unary main_v8 main_v9 (broadcastInDim S1x1 ![0] bcast_S1_S1x1_0 : (⟨S1, .f32⟩ : BufTy).Contents (Elt F) → (⟨S1x1, .f32⟩ : BufTy).Contents (Elt F)),
    unary main_v9 main_v10 (broadcastInDim S1x2048 ![0, 1] bcast_S1x1_S1x2048_0_1 : (⟨S1x1, .f32⟩ : BufTy).Contents (Elt F) → (⟨S1x2048, .f32⟩ : BufTy).Contents (Elt F)),
    binary main_v5 main_v10 main_v11 (subf : (⟨S1x2048, .f32⟩ : BufTy).Contents (Elt F) → (⟨S1x2048, .f32⟩ : BufTy).Contents (Elt F) → (⟨S1x2048, .f32⟩ : BufTy).Contents (Elt F)),
    unary main_v11 main_v12 (Host.exp : (⟨S1x2048, .f32⟩ : BufTy).Contents (Elt F) → (⟨S1x2048, .f32⟩ : BufTy).Contents (Elt F)),
    nullary main_cst_2 (constant S_ .f32 0x00000000#32),
    binary main_v12 main_cst_2 main_v13 ((fun x v => Host.reduceAdd x v reducesTo_S1x2048_S1_d1 h_S_) : (⟨S1x2048, .f32⟩ : BufTy).Contents (Elt F) → (⟨S_, .f32⟩ : BufTy).Contents (Elt F) → (⟨S1, .f32⟩ : BufTy).Contents (Elt F)),
    unary main_v13 main_v14 (broadcastInDim S1x1 ![0] bcast_S1_S1x1_0 : (⟨S1, .f32⟩ : BufTy).Contents (Elt F) → (⟨S1x1, .f32⟩ : BufTy).Contents (Elt F)),
    unary main_v14 main_v15 (broadcastInDim S1x2048 ![0, 1] bcast_S1x1_S1x2048_0_1 : (⟨S1x1, .f32⟩ : BufTy).Contents (Elt F) → (⟨S1x2048, .f32⟩ : BufTy).Contents (Elt F)),
    binary main_v12 main_v15 main_v16 (Host.divf : (⟨S1x2048, .f32⟩ : BufTy).Contents (Elt F) → (⟨S1x2048, .f32⟩ : BufTy).Contents (Elt F) → (⟨S1x2048, .f32⟩ : BufTy).Contents (Elt F)),
    binary main_v2 main_arg11 main_v17 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    binary main_v16 main_v17 main_v18 ((fun l r => Host.dotGeneral dot_S1x2048_S2048x256_S1x256_1_0_0_1_n_n none l r) : (⟨S1x2048, .f32⟩ : BufTy).Contents (Elt F) → (⟨S2048x256, .f32⟩ : BufTy).Contents (Elt F) → (⟨S1x256, .f32⟩ : BufTy).Contents (Elt F)),
    unary main_v18 main_v19 (broadcastInDim S2048x256 ![0, 1] bcast_S1x256_S2048x256_0_1 : (⟨S1x256, .f32⟩ : BufTy).Contents (Elt F) → (⟨S2048x256, .f32⟩ : BufTy).Contents (Elt F)),
    binary main_v2 main_arg3 main_v20 (addf : (⟨S2048x256, .f32⟩ : BufTy).Contents (Elt F) → (⟨S2048x256, .f32⟩ : BufTy).Contents (Elt F) → (⟨S2048x256, .f32⟩ : BufTy).Contents (Elt F)) ]

/-- Round 1: reads `main_v20`, writes `main_v47`. -/
abbrev sB1 : List (HloOp τ sig (Elt F)) :=
  [ binary main_v20 main_arg7 main_v21 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    binary main_v20 main_arg8 main_v22 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    binary main_v20 main_arg9 main_v23 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_v22 main_v24 ((transpose S256x2048 [1, 0] · transposes_S2048x256_S256x2048_1_0) : (⟨S2048x256, .f32⟩ : BufTy).Contents (Elt F) → (⟨S256x2048, .f32⟩ : BufTy).Contents (Elt F)),
    binary main_v21 main_v24 main_v25 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    nullary main_cst_3 (constant S_ .f32 0x3D800000#32),
    unary main_cst_3 main_v26 (broadcastInDim S2048x2048 ![] bcast_S_S2048x2048 : (⟨S_, .f32⟩ : BufTy).Contents (Elt F) → (⟨S2048x2048, .f32⟩ : BufTy).Contents (Elt F)),
    binary main_v25 main_v26 main_v27 (mulf : (⟨S2048x2048, .f32⟩ : BufTy).Contents (Elt F) → (⟨S2048x2048, .f32⟩ : BufTy).Contents (Elt F) → (⟨S2048x2048, .f32⟩ : BufTy).Contents (Elt F)),
    nullary main_cst_4 (constant S_ .f32 0xFF800000#32),
    binary main_v27 main_cst_4 main_v28 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_cst_5 (constant S_ .f32 0xFF800000#32),
    unary main_cst_5 main_v29 (broadcastInDim S2048 ![] bcast_S_S2048 : (⟨S_, .f32⟩ : BufTy).Contents (Elt F) → (⟨S2048, .f32⟩ : BufTy).Contents (Elt F)),
    binary main_v29 main_v28 main_v30 (maximumf : (⟨S2048, .f32⟩ : BufTy).Contents (Elt F) → (⟨S2048, .f32⟩ : BufTy).Contents (Elt F) → (⟨S2048, .f32⟩ : BufTy).Contents (Elt F)),
    unary main_v30 main_v31 (broadcastInDim S2048x1 ![0] bcast_S2048_S2048x1_0 : (⟨S2048, .f32⟩ : BufTy).Contents (Elt F) → (⟨S2048x1, .f32⟩ : BufTy).Contents (Elt F)),
    unary main_v31 main_v32 (broadcastInDim S2048x2048 ![0, 1] bcast_S2048x1_S2048x2048_0_1 : (⟨S2048x1, .f32⟩ : BufTy).Contents (Elt F) → (⟨S2048x2048, .f32⟩ : BufTy).Contents (Elt F)),
    binary main_v27 main_v32 main_v33 (subf : (⟨S2048x2048, .f32⟩ : BufTy).Contents (Elt F) → (⟨S2048x2048, .f32⟩ : BufTy).Contents (Elt F) → (⟨S2048x2048, .f32⟩ : BufTy).Contents (Elt F)),
    unary main_v33 main_v34 (Host.exp : (⟨S2048x2048, .f32⟩ : BufTy).Contents (Elt F) → (⟨S2048x2048, .f32⟩ : BufTy).Contents (Elt F)),
    nullary main_cst_6 (constant S_ .f32 0x00000000#32),
    binary main_v34 main_cst_6 main_v35 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v35 main_v36 (broadcastInDim S2048x1 ![0] bcast_S2048_S2048x1_0 : (⟨S2048, .f32⟩ : BufTy).Contents (Elt F) → (⟨S2048x1, .f32⟩ : BufTy).Contents (Elt F)),
    unary main_v36 main_v37 (broadcastInDim S2048x2048 ![0, 1] bcast_S2048x1_S2048x2048_0_1 : (⟨S2048x1, .f32⟩ : BufTy).Contents (Elt F) → (⟨S2048x2048, .f32⟩ : BufTy).Contents (Elt F)),
    binary main_v34 main_v37 main_v38 (Host.divf : (⟨S2048x2048, .f32⟩ : BufTy).Contents (Elt F) → (⟨S2048x2048, .f32⟩ : BufTy).Contents (Elt F) → (⟨S2048x2048, .f32⟩ : BufTy).Contents (Elt F)),
    binary main_v38 main_v1 main_v39 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    binary main_v39 main_v23 main_v40 ((fun l r => Host.dotGeneral dot_S2048x2048_S2048x256_S2048x256_1_0_0_1_n_n none l r) : (⟨S2048x2048, .f32⟩ : BufTy).Contents (Elt F) → (⟨S2048x256, .f32⟩ : BufTy).Contents (Elt F) → (⟨S2048x256, .f32⟩ : BufTy).Contents (Elt F)),
    binary main_v40 main_arg12 main_v41 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_arg14 main_v42 (broadcastInDim S2048x256 ![0, 1] bcast_S1x256_S2048x256_0_1 : (⟨S1x256, .f32⟩ : BufTy).Contents (Elt F) → (⟨S2048x256, .f32⟩ : BufTy).Contents (Elt F)),
    binary main_v41 main_v42 main_v43 (addf : (⟨S2048x256, .f32⟩ : BufTy).Contents (Elt F) → (⟨S2048x256, .f32⟩ : BufTy).Contents (Elt F) → (⟨S2048x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S2048x256, .f32⟩) main_call1_v0) (broadcastInDim S2048x256 ![] bcast_S_S2048x256),
    TRef.binary (TRef.of (T := ⟨S2048x256, .f32⟩) main_v43) (TRef.of (T := ⟨S2048x256, .f32⟩) main_call1_v0) (TRef.of (T := ⟨S2048x256, .f32⟩) main_v44) maximumf,
    binary main_v44 main_arg13 main_v45 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_arg15 main_v46 (broadcastInDim S2048x256 ![0, 1] bcast_S1x256_S2048x256_0_1 : (⟨S1x256, .f32⟩ : BufTy).Contents (Elt F) → (⟨S2048x256, .f32⟩ : BufTy).Contents (Elt F)),
    binary main_v45 main_v46 main_v47 (addf : (⟨S2048x256, .f32⟩ : BufTy).Contents (Elt F) → (⟨S2048x256, .f32⟩ : BufTy).Contents (Elt F) → (⟨S2048x256, .f32⟩ : BufTy).Contents (Elt F)) ]

/-- Round 2: reads `main_v47`, writes `main_v74`. -/
abbrev sB2 : List (HloOp τ sig (Elt F)) :=
  [ binary main_v47 main_arg7 main_v48 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    binary main_v47 main_arg8 main_v49 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    binary main_v47 main_arg9 main_v50 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_v49 main_v51 ((transpose S256x2048 [1, 0] · transposes_S2048x256_S256x2048_1_0) : (⟨S2048x256, .f32⟩ : BufTy).Contents (Elt F) → (⟨S256x2048, .f32⟩ : BufTy).Contents (Elt F)),
    binary main_v48 main_v51 main_v52 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    nullary main_cst_7 (constant S_ .f32 0x3D800000#32),
    unary main_cst_7 main_v53 (broadcastInDim S2048x2048 ![] bcast_S_S2048x2048 : (⟨S_, .f32⟩ : BufTy).Contents (Elt F) → (⟨S2048x2048, .f32⟩ : BufTy).Contents (Elt F)),
    binary main_v52 main_v53 main_v54 (mulf : (⟨S2048x2048, .f32⟩ : BufTy).Contents (Elt F) → (⟨S2048x2048, .f32⟩ : BufTy).Contents (Elt F) → (⟨S2048x2048, .f32⟩ : BufTy).Contents (Elt F)),
    nullary main_cst_8 (constant S_ .f32 0xFF800000#32),
    binary main_v54 main_cst_8 main_v55 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_cst_9 (constant S_ .f32 0xFF800000#32),
    unary main_cst_9 main_v56 (broadcastInDim S2048 ![] bcast_S_S2048 : (⟨S_, .f32⟩ : BufTy).Contents (Elt F) → (⟨S2048, .f32⟩ : BufTy).Contents (Elt F)),
    binary main_v56 main_v55 main_v57 (maximumf : (⟨S2048, .f32⟩ : BufTy).Contents (Elt F) → (⟨S2048, .f32⟩ : BufTy).Contents (Elt F) → (⟨S2048, .f32⟩ : BufTy).Contents (Elt F)),
    unary main_v57 main_v58 (broadcastInDim S2048x1 ![0] bcast_S2048_S2048x1_0 : (⟨S2048, .f32⟩ : BufTy).Contents (Elt F) → (⟨S2048x1, .f32⟩ : BufTy).Contents (Elt F)),
    unary main_v58 main_v59 (broadcastInDim S2048x2048 ![0, 1] bcast_S2048x1_S2048x2048_0_1 : (⟨S2048x1, .f32⟩ : BufTy).Contents (Elt F) → (⟨S2048x2048, .f32⟩ : BufTy).Contents (Elt F)),
    binary main_v54 main_v59 main_v60 (subf : (⟨S2048x2048, .f32⟩ : BufTy).Contents (Elt F) → (⟨S2048x2048, .f32⟩ : BufTy).Contents (Elt F) → (⟨S2048x2048, .f32⟩ : BufTy).Contents (Elt F)),
    unary main_v60 main_v61 (Host.exp : (⟨S2048x2048, .f32⟩ : BufTy).Contents (Elt F) → (⟨S2048x2048, .f32⟩ : BufTy).Contents (Elt F)),
    nullary main_cst_10 (constant S_ .f32 0x00000000#32),
    binary main_v61 main_cst_10 main_v62 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v62 main_v63 (broadcastInDim S2048x1 ![0] bcast_S2048_S2048x1_0 : (⟨S2048, .f32⟩ : BufTy).Contents (Elt F) → (⟨S2048x1, .f32⟩ : BufTy).Contents (Elt F)),
    unary main_v63 main_v64 (broadcastInDim S2048x2048 ![0, 1] bcast_S2048x1_S2048x2048_0_1 : (⟨S2048x1, .f32⟩ : BufTy).Contents (Elt F) → (⟨S2048x2048, .f32⟩ : BufTy).Contents (Elt F)),
    binary main_v61 main_v64 main_v65 (Host.divf : (⟨S2048x2048, .f32⟩ : BufTy).Contents (Elt F) → (⟨S2048x2048, .f32⟩ : BufTy).Contents (Elt F) → (⟨S2048x2048, .f32⟩ : BufTy).Contents (Elt F)),
    binary main_v65 main_v1 main_v66 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    binary main_v66 main_v50 main_v67 ((fun l r => Host.dotGeneral dot_S2048x2048_S2048x256_S2048x256_1_0_0_1_n_n none l r) : (⟨S2048x2048, .f32⟩ : BufTy).Contents (Elt F) → (⟨S2048x256, .f32⟩ : BufTy).Contents (Elt F) → (⟨S2048x256, .f32⟩ : BufTy).Contents (Elt F)),
    binary main_v67 main_arg12 main_v68 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_arg14 main_v69 (broadcastInDim S2048x256 ![0, 1] bcast_S1x256_S2048x256_0_1 : (⟨S1x256, .f32⟩ : BufTy).Contents (Elt F) → (⟨S2048x256, .f32⟩ : BufTy).Contents (Elt F)),
    binary main_v68 main_v69 main_v70 (addf : (⟨S2048x256, .f32⟩ : BufTy).Contents (Elt F) → (⟨S2048x256, .f32⟩ : BufTy).Contents (Elt F) → (⟨S2048x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S2048x256, .f32⟩) main_call2_v0) (broadcastInDim S2048x256 ![] bcast_S_S2048x256),
    TRef.binary (TRef.of (T := ⟨S2048x256, .f32⟩) main_v70) (TRef.of (T := ⟨S2048x256, .f32⟩) main_call2_v0) (TRef.of (T := ⟨S2048x256, .f32⟩) main_v71) maximumf,
    binary main_v71 main_arg13 main_v72 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_arg15 main_v73 (broadcastInDim S2048x256 ![0, 1] bcast_S1x256_S2048x256_0_1 : (⟨S1x256, .f32⟩ : BufTy).Contents (Elt F) → (⟨S2048x256, .f32⟩ : BufTy).Contents (Elt F)),
    binary main_v72 main_v73 main_v74 (addf : (⟨S2048x256, .f32⟩ : BufTy).Contents (Elt F) → (⟨S2048x256, .f32⟩ : BufTy).Contents (Elt F) → (⟨S2048x256, .f32⟩ : BufTy).Contents (Elt F)) ]

/-- Round 3: reads `main_v74`, writes `main_v101`. -/
abbrev sB3 : List (HloOp τ sig (Elt F)) :=
  [ binary main_v74 main_arg7 main_v75 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    binary main_v74 main_arg8 main_v76 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    binary main_v74 main_arg9 main_v77 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_v76 main_v78 ((transpose S256x2048 [1, 0] · transposes_S2048x256_S256x2048_1_0) : (⟨S2048x256, .f32⟩ : BufTy).Contents (Elt F) → (⟨S256x2048, .f32⟩ : BufTy).Contents (Elt F)),
    binary main_v75 main_v78 main_v79 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    nullary main_cst_11 (constant S_ .f32 0x3D800000#32),
    unary main_cst_11 main_v80 (broadcastInDim S2048x2048 ![] bcast_S_S2048x2048 : (⟨S_, .f32⟩ : BufTy).Contents (Elt F) → (⟨S2048x2048, .f32⟩ : BufTy).Contents (Elt F)),
    binary main_v79 main_v80 main_v81 (mulf : (⟨S2048x2048, .f32⟩ : BufTy).Contents (Elt F) → (⟨S2048x2048, .f32⟩ : BufTy).Contents (Elt F) → (⟨S2048x2048, .f32⟩ : BufTy).Contents (Elt F)),
    nullary main_cst_12 (constant S_ .f32 0xFF800000#32),
    binary main_v81 main_cst_12 main_v82 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_cst_13 (constant S_ .f32 0xFF800000#32),
    unary main_cst_13 main_v83 (broadcastInDim S2048 ![] bcast_S_S2048 : (⟨S_, .f32⟩ : BufTy).Contents (Elt F) → (⟨S2048, .f32⟩ : BufTy).Contents (Elt F)),
    binary main_v83 main_v82 main_v84 (maximumf : (⟨S2048, .f32⟩ : BufTy).Contents (Elt F) → (⟨S2048, .f32⟩ : BufTy).Contents (Elt F) → (⟨S2048, .f32⟩ : BufTy).Contents (Elt F)),
    unary main_v84 main_v85 (broadcastInDim S2048x1 ![0] bcast_S2048_S2048x1_0 : (⟨S2048, .f32⟩ : BufTy).Contents (Elt F) → (⟨S2048x1, .f32⟩ : BufTy).Contents (Elt F)),
    unary main_v85 main_v86 (broadcastInDim S2048x2048 ![0, 1] bcast_S2048x1_S2048x2048_0_1 : (⟨S2048x1, .f32⟩ : BufTy).Contents (Elt F) → (⟨S2048x2048, .f32⟩ : BufTy).Contents (Elt F)),
    binary main_v81 main_v86 main_v87 (subf : (⟨S2048x2048, .f32⟩ : BufTy).Contents (Elt F) → (⟨S2048x2048, .f32⟩ : BufTy).Contents (Elt F) → (⟨S2048x2048, .f32⟩ : BufTy).Contents (Elt F)),
    unary main_v87 main_v88 (Host.exp : (⟨S2048x2048, .f32⟩ : BufTy).Contents (Elt F) → (⟨S2048x2048, .f32⟩ : BufTy).Contents (Elt F)),
    nullary main_cst_14 (constant S_ .f32 0x00000000#32),
    binary main_v88 main_cst_14 main_v89 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v89 main_v90 (broadcastInDim S2048x1 ![0] bcast_S2048_S2048x1_0 : (⟨S2048, .f32⟩ : BufTy).Contents (Elt F) → (⟨S2048x1, .f32⟩ : BufTy).Contents (Elt F)),
    unary main_v90 main_v91 (broadcastInDim S2048x2048 ![0, 1] bcast_S2048x1_S2048x2048_0_1 : (⟨S2048x1, .f32⟩ : BufTy).Contents (Elt F) → (⟨S2048x2048, .f32⟩ : BufTy).Contents (Elt F)),
    binary main_v88 main_v91 main_v92 (Host.divf : (⟨S2048x2048, .f32⟩ : BufTy).Contents (Elt F) → (⟨S2048x2048, .f32⟩ : BufTy).Contents (Elt F) → (⟨S2048x2048, .f32⟩ : BufTy).Contents (Elt F)),
    binary main_v92 main_v1 main_v93 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    binary main_v93 main_v77 main_v94 ((fun l r => Host.dotGeneral dot_S2048x2048_S2048x256_S2048x256_1_0_0_1_n_n none l r) : (⟨S2048x2048, .f32⟩ : BufTy).Contents (Elt F) → (⟨S2048x256, .f32⟩ : BufTy).Contents (Elt F) → (⟨S2048x256, .f32⟩ : BufTy).Contents (Elt F)),
    binary main_v94 main_arg12 main_v95 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_arg14 main_v96 (broadcastInDim S2048x256 ![0, 1] bcast_S1x256_S2048x256_0_1 : (⟨S1x256, .f32⟩ : BufTy).Contents (Elt F) → (⟨S2048x256, .f32⟩ : BufTy).Contents (Elt F)),
    binary main_v95 main_v96 main_v97 (addf : (⟨S2048x256, .f32⟩ : BufTy).Contents (Elt F) → (⟨S2048x256, .f32⟩ : BufTy).Contents (Elt F) → (⟨S2048x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S2048x256, .f32⟩) main_call3_v0) (broadcastInDim S2048x256 ![] bcast_S_S2048x256),
    TRef.binary (TRef.of (T := ⟨S2048x256, .f32⟩) main_v97) (TRef.of (T := ⟨S2048x256, .f32⟩) main_call3_v0) (TRef.of (T := ⟨S2048x256, .f32⟩) main_v98) maximumf,
    binary main_v98 main_arg13 main_v99 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_arg15 main_v100 (broadcastInDim S2048x256 ![0, 1] bcast_S1x256_S2048x256_0_1 : (⟨S1x256, .f32⟩ : BufTy).Contents (Elt F) → (⟨S2048x256, .f32⟩ : BufTy).Contents (Elt F)),
    binary main_v99 main_v100 main_v101 (addf : (⟨S2048x256, .f32⟩ : BufTy).Contents (Elt F) → (⟨S2048x256, .f32⟩ : BufTy).Contents (Elt F) → (⟨S2048x256, .f32⟩ : BufTy).Contents (Elt F)) ]

/-- Round 4: reads `main_v101`, writes `main_v128`. -/
abbrev sB4 : List (HloOp τ sig (Elt F)) :=
  [ binary main_v101 main_arg7 main_v102 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    binary main_v101 main_arg8 main_v103 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    binary main_v101 main_arg9 main_v104 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_v103 main_v105 ((transpose S256x2048 [1, 0] · transposes_S2048x256_S256x2048_1_0) : (⟨S2048x256, .f32⟩ : BufTy).Contents (Elt F) → (⟨S256x2048, .f32⟩ : BufTy).Contents (Elt F)),
    binary main_v102 main_v105 main_v106 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    nullary main_cst_15 (constant S_ .f32 0x3D800000#32),
    unary main_cst_15 main_v107 (broadcastInDim S2048x2048 ![] bcast_S_S2048x2048 : (⟨S_, .f32⟩ : BufTy).Contents (Elt F) → (⟨S2048x2048, .f32⟩ : BufTy).Contents (Elt F)),
    binary main_v106 main_v107 main_v108 (mulf : (⟨S2048x2048, .f32⟩ : BufTy).Contents (Elt F) → (⟨S2048x2048, .f32⟩ : BufTy).Contents (Elt F) → (⟨S2048x2048, .f32⟩ : BufTy).Contents (Elt F)),
    nullary main_cst_16 (constant S_ .f32 0xFF800000#32),
    binary main_v108 main_cst_16 main_v109 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_cst_17 (constant S_ .f32 0xFF800000#32),
    unary main_cst_17 main_v110 (broadcastInDim S2048 ![] bcast_S_S2048 : (⟨S_, .f32⟩ : BufTy).Contents (Elt F) → (⟨S2048, .f32⟩ : BufTy).Contents (Elt F)),
    binary main_v110 main_v109 main_v111 (maximumf : (⟨S2048, .f32⟩ : BufTy).Contents (Elt F) → (⟨S2048, .f32⟩ : BufTy).Contents (Elt F) → (⟨S2048, .f32⟩ : BufTy).Contents (Elt F)),
    unary main_v111 main_v112 (broadcastInDim S2048x1 ![0] bcast_S2048_S2048x1_0 : (⟨S2048, .f32⟩ : BufTy).Contents (Elt F) → (⟨S2048x1, .f32⟩ : BufTy).Contents (Elt F)),
    unary main_v112 main_v113 (broadcastInDim S2048x2048 ![0, 1] bcast_S2048x1_S2048x2048_0_1 : (⟨S2048x1, .f32⟩ : BufTy).Contents (Elt F) → (⟨S2048x2048, .f32⟩ : BufTy).Contents (Elt F)),
    binary main_v108 main_v113 main_v114 (subf : (⟨S2048x2048, .f32⟩ : BufTy).Contents (Elt F) → (⟨S2048x2048, .f32⟩ : BufTy).Contents (Elt F) → (⟨S2048x2048, .f32⟩ : BufTy).Contents (Elt F)),
    unary main_v114 main_v115 (Host.exp : (⟨S2048x2048, .f32⟩ : BufTy).Contents (Elt F) → (⟨S2048x2048, .f32⟩ : BufTy).Contents (Elt F)),
    nullary main_cst_18 (constant S_ .f32 0x00000000#32),
    binary main_v115 main_cst_18 main_v116 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v116 main_v117 (broadcastInDim S2048x1 ![0] bcast_S2048_S2048x1_0 : (⟨S2048, .f32⟩ : BufTy).Contents (Elt F) → (⟨S2048x1, .f32⟩ : BufTy).Contents (Elt F)),
    unary main_v117 main_v118 (broadcastInDim S2048x2048 ![0, 1] bcast_S2048x1_S2048x2048_0_1 : (⟨S2048x1, .f32⟩ : BufTy).Contents (Elt F) → (⟨S2048x2048, .f32⟩ : BufTy).Contents (Elt F)),
    binary main_v115 main_v118 main_v119 (Host.divf : (⟨S2048x2048, .f32⟩ : BufTy).Contents (Elt F) → (⟨S2048x2048, .f32⟩ : BufTy).Contents (Elt F) → (⟨S2048x2048, .f32⟩ : BufTy).Contents (Elt F)),
    binary main_v119 main_v1 main_v120 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    binary main_v120 main_v104 main_v121 ((fun l r => Host.dotGeneral dot_S2048x2048_S2048x256_S2048x256_1_0_0_1_n_n none l r) : (⟨S2048x2048, .f32⟩ : BufTy).Contents (Elt F) → (⟨S2048x256, .f32⟩ : BufTy).Contents (Elt F) → (⟨S2048x256, .f32⟩ : BufTy).Contents (Elt F)),
    binary main_v121 main_arg12 main_v122 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_arg14 main_v123 (broadcastInDim S2048x256 ![0, 1] bcast_S1x256_S2048x256_0_1 : (⟨S1x256, .f32⟩ : BufTy).Contents (Elt F) → (⟨S2048x256, .f32⟩ : BufTy).Contents (Elt F)),
    binary main_v122 main_v123 main_v124 (addf : (⟨S2048x256, .f32⟩ : BufTy).Contents (Elt F) → (⟨S2048x256, .f32⟩ : BufTy).Contents (Elt F) → (⟨S2048x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S2048x256, .f32⟩) main_call4_v0) (broadcastInDim S2048x256 ![] bcast_S_S2048x256),
    TRef.binary (TRef.of (T := ⟨S2048x256, .f32⟩) main_v124) (TRef.of (T := ⟨S2048x256, .f32⟩) main_call4_v0) (TRef.of (T := ⟨S2048x256, .f32⟩) main_v125) maximumf,
    binary main_v125 main_arg13 main_v126 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_arg15 main_v127 (broadcastInDim S2048x256 ![0, 1] bcast_S1x256_S2048x256_0_1 : (⟨S1x256, .f32⟩ : BufTy).Contents (Elt F) → (⟨S2048x256, .f32⟩ : BufTy).Contents (Elt F)),
    binary main_v126 main_v127 main_v128 (addf : (⟨S2048x256, .f32⟩ : BufTy).Contents (Elt F) → (⟨S2048x256, .f32⟩ : BufTy).Contents (Elt F) → (⟨S2048x256, .f32⟩ : BufTy).Contents (Elt F)) ]

/-- Round 5: reads `main_v128`, writes `main_v155`. -/
abbrev sB5 : List (HloOp τ sig (Elt F)) :=
  [ binary main_v128 main_arg7 main_v129 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    binary main_v128 main_arg8 main_v130 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    binary main_v128 main_arg9 main_v131 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_v130 main_v132 ((transpose S256x2048 [1, 0] · transposes_S2048x256_S256x2048_1_0) : (⟨S2048x256, .f32⟩ : BufTy).Contents (Elt F) → (⟨S256x2048, .f32⟩ : BufTy).Contents (Elt F)),
    binary main_v129 main_v132 main_v133 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    nullary main_cst_19 (constant S_ .f32 0x3D800000#32),
    unary main_cst_19 main_v134 (broadcastInDim S2048x2048 ![] bcast_S_S2048x2048 : (⟨S_, .f32⟩ : BufTy).Contents (Elt F) → (⟨S2048x2048, .f32⟩ : BufTy).Contents (Elt F)),
    binary main_v133 main_v134 main_v135 (mulf : (⟨S2048x2048, .f32⟩ : BufTy).Contents (Elt F) → (⟨S2048x2048, .f32⟩ : BufTy).Contents (Elt F) → (⟨S2048x2048, .f32⟩ : BufTy).Contents (Elt F)),
    nullary main_cst_20 (constant S_ .f32 0xFF800000#32),
    binary main_v135 main_cst_20 main_v136 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_cst_21 (constant S_ .f32 0xFF800000#32),
    unary main_cst_21 main_v137 (broadcastInDim S2048 ![] bcast_S_S2048 : (⟨S_, .f32⟩ : BufTy).Contents (Elt F) → (⟨S2048, .f32⟩ : BufTy).Contents (Elt F)),
    binary main_v137 main_v136 main_v138 (maximumf : (⟨S2048, .f32⟩ : BufTy).Contents (Elt F) → (⟨S2048, .f32⟩ : BufTy).Contents (Elt F) → (⟨S2048, .f32⟩ : BufTy).Contents (Elt F)),
    unary main_v138 main_v139 (broadcastInDim S2048x1 ![0] bcast_S2048_S2048x1_0 : (⟨S2048, .f32⟩ : BufTy).Contents (Elt F) → (⟨S2048x1, .f32⟩ : BufTy).Contents (Elt F)),
    unary main_v139 main_v140 (broadcastInDim S2048x2048 ![0, 1] bcast_S2048x1_S2048x2048_0_1 : (⟨S2048x1, .f32⟩ : BufTy).Contents (Elt F) → (⟨S2048x2048, .f32⟩ : BufTy).Contents (Elt F)),
    binary main_v135 main_v140 main_v141 (subf : (⟨S2048x2048, .f32⟩ : BufTy).Contents (Elt F) → (⟨S2048x2048, .f32⟩ : BufTy).Contents (Elt F) → (⟨S2048x2048, .f32⟩ : BufTy).Contents (Elt F)),
    unary main_v141 main_v142 (Host.exp : (⟨S2048x2048, .f32⟩ : BufTy).Contents (Elt F) → (⟨S2048x2048, .f32⟩ : BufTy).Contents (Elt F)),
    nullary main_cst_22 (constant S_ .f32 0x00000000#32),
    binary main_v142 main_cst_22 main_v143 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v143 main_v144 (broadcastInDim S2048x1 ![0] bcast_S2048_S2048x1_0 : (⟨S2048, .f32⟩ : BufTy).Contents (Elt F) → (⟨S2048x1, .f32⟩ : BufTy).Contents (Elt F)),
    unary main_v144 main_v145 (broadcastInDim S2048x2048 ![0, 1] bcast_S2048x1_S2048x2048_0_1 : (⟨S2048x1, .f32⟩ : BufTy).Contents (Elt F) → (⟨S2048x2048, .f32⟩ : BufTy).Contents (Elt F)),
    binary main_v142 main_v145 main_v146 (Host.divf : (⟨S2048x2048, .f32⟩ : BufTy).Contents (Elt F) → (⟨S2048x2048, .f32⟩ : BufTy).Contents (Elt F) → (⟨S2048x2048, .f32⟩ : BufTy).Contents (Elt F)),
    binary main_v146 main_v1 main_v147 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    binary main_v147 main_v131 main_v148 ((fun l r => Host.dotGeneral dot_S2048x2048_S2048x256_S2048x256_1_0_0_1_n_n none l r) : (⟨S2048x2048, .f32⟩ : BufTy).Contents (Elt F) → (⟨S2048x256, .f32⟩ : BufTy).Contents (Elt F) → (⟨S2048x256, .f32⟩ : BufTy).Contents (Elt F)),
    binary main_v148 main_arg12 main_v149 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_arg14 main_v150 (broadcastInDim S2048x256 ![0, 1] bcast_S1x256_S2048x256_0_1 : (⟨S1x256, .f32⟩ : BufTy).Contents (Elt F) → (⟨S2048x256, .f32⟩ : BufTy).Contents (Elt F)),
    binary main_v149 main_v150 main_v151 (addf : (⟨S2048x256, .f32⟩ : BufTy).Contents (Elt F) → (⟨S2048x256, .f32⟩ : BufTy).Contents (Elt F) → (⟨S2048x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S2048x256, .f32⟩) main_call5_v0) (broadcastInDim S2048x256 ![] bcast_S_S2048x256),
    TRef.binary (TRef.of (T := ⟨S2048x256, .f32⟩) main_v151) (TRef.of (T := ⟨S2048x256, .f32⟩) main_call5_v0) (TRef.of (T := ⟨S2048x256, .f32⟩) main_v152) maximumf,
    binary main_v152 main_arg13 main_v153 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    unary main_arg15 main_v154 (broadcastInDim S2048x256 ![0, 1] bcast_S1x256_S2048x256_0_1 : (⟨S1x256, .f32⟩ : BufTy).Contents (Elt F) → (⟨S2048x256, .f32⟩ : BufTy).Contents (Elt F)),
    binary main_v153 main_v154 main_v155 (addf : (⟨S2048x256, .f32⟩ : BufTy).Contents (Elt F) → (⟨S2048x256, .f32⟩ : BufTy).Contents (Elt F) → (⟨S2048x256, .f32⟩ : BufTy).Contents (Elt F)) ]

/-- `m = cand·M → main_v156`, the gate `→ main_v167` and the result `→ main_v176`. -/
abbrev sC : List (HloOp τ sig (Elt F)) :=
  [ binary main_arg1 main_arg2 main_v156 ((fun l r => Host.dotGeneral dot_S1x20000_S20000x256_S1x256_1_0_0_1_n_n none l r) : (⟨S1x20000, .f32⟩ : BufTy).Contents (Elt F) → (⟨S20000x256, .f32⟩ : BufTy).Contents (Elt F) → (⟨S1x256, .f32⟩ : BufTy).Contents (Elt F)),
    unary main_v156 main_v157 (broadcastInDim S2048x256 ![0, 1] bcast_S1x256_S2048x256_0_1 : (⟨S1x256, .f32⟩ : BufTy).Contents (Elt F) → (⟨S2048x256, .f32⟩ : BufTy).Contents (Elt F)),
    nary ![main_v157, main_v19, main_v2] main_v158 (fun u => concatenate S2048x768 1 [⟨S2048x256, u 0⟩, ⟨S2048x256, u 1⟩, ⟨S2048x256, u 2⟩] concatenates_S2048x256_S2048x256_S2048x256_S2048x768_d1),
    binary main_v158 main_arg5 main_v159 ((fun l r => Host.dotGeneral dot_S2048x768_S768x1_S2048x1_1_0_0_1_n_n none l r) : (⟨S2048x768, .f32⟩ : BufTy).Contents (Elt F) → (⟨S768x1, .f32⟩ : BufTy).Contents (Elt F) → (⟨S2048x1, .f32⟩ : BufTy).Contents (Elt F)),
    unary main_arg6 main_v160 (broadcastInDim S2048x1 ![0, 1] bcast_S1x1_S2048x1_0_1 : (⟨S1x1, .f32⟩ : BufTy).Contents (Elt F) → (⟨S2048x1, .f32⟩ : BufTy).Contents (Elt F)),
    binary main_v159 main_v160 main_v161 (addf : (⟨S2048x1, .f32⟩ : BufTy).Contents (Elt F) → (⟨S2048x1, .f32⟩ : BufTy).Contents (Elt F) → (⟨S2048x1, .f32⟩ : BufTy).Contents (Elt F)),
    unary main_v161 main_v162 (Host.negf : (⟨S2048x1, .f32⟩ : BufTy).Contents (Elt F) → (⟨S2048x1, .f32⟩ : BufTy).Contents (Elt F)),
    unary main_v162 main_v163 (Host.exp : (⟨S2048x1, .f32⟩ : BufTy).Contents (Elt F) → (⟨S2048x1, .f32⟩ : BufTy).Contents (Elt F)),
    nullary main_cst_23 (constant S_ .f32 0x3F800000#32),
    unary main_cst_23 main_v164 (broadcastInDim S2048x1 ![] bcast_S_S2048x1 : (⟨S_, .f32⟩ : BufTy).Contents (Elt F) → (⟨S2048x1, .f32⟩ : BufTy).Contents (Elt F)),
    binary main_v164 main_v163 main_v165 (addf : (⟨S2048x1, .f32⟩ : BufTy).Contents (Elt F) → (⟨S2048x1, .f32⟩ : BufTy).Contents (Elt F) → (⟨S2048x1, .f32⟩ : BufTy).Contents (Elt F)),
    nullary main_cst_24 (constant S_ .f32 0x3F800000#32),
    unary main_cst_24 main_v166 (broadcastInDim S2048x1 ![] bcast_S_S2048x1 : (⟨S_, .f32⟩ : BufTy).Contents (Elt F) → (⟨S2048x1, .f32⟩ : BufTy).Contents (Elt F)),
    binary main_v166 main_v165 main_v167 (Host.divf : (⟨S2048x1, .f32⟩ : BufTy).Contents (Elt F) → (⟨S2048x1, .f32⟩ : BufTy).Contents (Elt F) → (⟨S2048x1, .f32⟩ : BufTy).Contents (Elt F)),
    unary main_v167 main_v168 (broadcastInDim S2048x256 ![0, 1] bcast_S2048x1_S2048x256_0_1 : (⟨S2048x1, .f32⟩ : BufTy).Contents (Elt F) → (⟨S2048x256, .f32⟩ : BufTy).Contents (Elt F)),
    binary main_v155 main_v168 main_v169 (mulf : (⟨S2048x256, .f32⟩ : BufTy).Contents (Elt F) → (⟨S2048x256, .f32⟩ : BufTy).Contents (Elt F) → (⟨S2048x256, .f32⟩ : BufTy).Contents (Elt F)),
    nullary main_cst_25 (constant S_ .f32 0x3F800000#32),
    unary main_cst_25 main_v170 (broadcastInDim S2048x1 ![] bcast_S_S2048x1 : (⟨S_, .f32⟩ : BufTy).Contents (Elt F) → (⟨S2048x1, .f32⟩ : BufTy).Contents (Elt F)),
    binary main_v170 main_v167 main_v171 (subf : (⟨S2048x1, .f32⟩ : BufTy).Contents (Elt F) → (⟨S2048x1, .f32⟩ : BufTy).Contents (Elt F) → (⟨S2048x1, .f32⟩ : BufTy).Contents (Elt F)),
    unary main_v171 main_v172 (broadcastInDim S2048x256 ![0, 1] bcast_S2048x1_S2048x256_0_1 : (⟨S2048x1, .f32⟩ : BufTy).Contents (Elt F) → (⟨S2048x256, .f32⟩ : BufTy).Contents (Elt F)),
    binary main_v19 main_v172 main_v173 (mulf : (⟨S2048x256, .f32⟩ : BufTy).Contents (Elt F) → (⟨S2048x256, .f32⟩ : BufTy).Contents (Elt F) → (⟨S2048x256, .f32⟩ : BufTy).Contents (Elt F)),
    binary main_v169 main_v173 main_v174 (addf : (⟨S2048x256, .f32⟩ : BufTy).Contents (Elt F) → (⟨S2048x256, .f32⟩ : BufTy).Contents (Elt F) → (⟨S2048x256, .f32⟩ : BufTy).Contents (Elt F)),
    unary main_v156 main_v175 ((transpose S256x1 [1, 0] · transposes_S1x256_S256x1_1_0) : (⟨S1x256, .f32⟩ : BufTy).Contents (Elt F) → (⟨S256x1, .f32⟩ : BufTy).Contents (Elt F)),
    binary main_v174 main_v175 main_v176 ((fun l r => Host.dotGeneral dot_S2048x256_S256x1_S2048x1_1_0_0_1_n_n none l r) : (⟨S2048x256, .f32⟩ : BufTy).Contents (Elt F) → (⟨S256x1, .f32⟩ : BufTy).Contents (Elt F) → (⟨S2048x1, .f32⟩ : BufTy).Contents (Elt F)) ]

set_option maxRecDepth 8192 in
/-- The stretches, in order, are the reference's operations. -/
theorem ops_eq : (RunP.ops : List (HloOp τ sig (Elt F))) = sA ++ sB1 ++ sB2 ++ sB3 ++ sB4 ++ sB5 ++ sC := rfl

/-- The references `sA`'s operations write. -/
abbrev sA_W : List (Ref sig .tc) := [main_cst, main_v0, main_call0_v0, main_call0_c, main_call0_v1, main_call0_v2, main_call0_v3, main_call0_v4, main_call0_cst, main_call0_v5, main_v1, main_v2, main_v3, main_v4, main_v5, main_cst_0, main_v6, main_cst_1, main_v7, main_v8, main_v9, main_v10, main_v11, main_v12, main_cst_2, main_v13, main_v14, main_v15, main_v16, main_v17, main_v18, main_v19, main_v20]
set_option maxRecDepth 8192 in
theorem sA_writes : (sA : List (HloOp τ sig (Elt F))).Forall fun op => op.writes ⊆ (sA_W.map (Proc.devRef (τ := τ) .tc)).toFinset := by
  simp only [List.Forall]
  repeat' apply And.intro
  all_goals (simp only [StableHlo.nullary_writes, StableHlo.unary_writes, StableHlo.binary_writes, StableHlo.ternary_writes, StableHlo.nary_writes, Finset.singleton_subset_iff, List.mem_toFinset]; exact List.mem_map_of_mem (by decide))
/-- `sA` leaves a reference it does not write as it was. -/
theorem sA_frame (V : Valuation τ sig (Elt F)) (r : Ref sig .tc) (h : r ∉ sA_W) :
    StableHlo.after sA V (Proc.devRef .tc r) = V (Proc.devRef .tc r) :=
  StableHlo.after_of_writes_sub sA V sA_writes h

/-- The references `sB1`'s operations write. -/
abbrev sB1_W : List (Ref sig .tc) := [main_v21, main_v22, main_v23, main_v24, main_v25, main_cst_3, main_v26, main_v27, main_cst_4, main_v28, main_cst_5, main_v29, main_v30, main_v31, main_v32, main_v33, main_v34, main_cst_6, main_v35, main_v36, main_v37, main_v38, main_v39, main_v40, main_v41, main_v42, main_v43, main_call1_cst, main_call1_v0, main_v44, main_v45, main_v46, main_v47]
set_option maxRecDepth 8192 in
theorem sB1_writes : (sB1 : List (HloOp τ sig (Elt F))).Forall fun op => op.writes ⊆ (sB1_W.map (Proc.devRef (τ := τ) .tc)).toFinset := by
  simp only [List.Forall]
  repeat' apply And.intro
  all_goals (simp only [StableHlo.nullary_writes, StableHlo.unary_writes, StableHlo.binary_writes, StableHlo.ternary_writes, StableHlo.nary_writes, Finset.singleton_subset_iff, List.mem_toFinset]; exact List.mem_map_of_mem (by decide))
/-- `sB1` leaves a reference it does not write as it was. -/
theorem sB1_frame (V : Valuation τ sig (Elt F)) (r : Ref sig .tc) (h : r ∉ sB1_W) :
    StableHlo.after sB1 V (Proc.devRef .tc r) = V (Proc.devRef .tc r) :=
  StableHlo.after_of_writes_sub sB1 V sB1_writes h

/-- The references `sB2`'s operations write. -/
abbrev sB2_W : List (Ref sig .tc) := [main_v48, main_v49, main_v50, main_v51, main_v52, main_cst_7, main_v53, main_v54, main_cst_8, main_v55, main_cst_9, main_v56, main_v57, main_v58, main_v59, main_v60, main_v61, main_cst_10, main_v62, main_v63, main_v64, main_v65, main_v66, main_v67, main_v68, main_v69, main_v70, main_call2_cst, main_call2_v0, main_v71, main_v72, main_v73, main_v74]
set_option maxRecDepth 8192 in
theorem sB2_writes : (sB2 : List (HloOp τ sig (Elt F))).Forall fun op => op.writes ⊆ (sB2_W.map (Proc.devRef (τ := τ) .tc)).toFinset := by
  simp only [List.Forall]
  repeat' apply And.intro
  all_goals (simp only [StableHlo.nullary_writes, StableHlo.unary_writes, StableHlo.binary_writes, StableHlo.ternary_writes, StableHlo.nary_writes, Finset.singleton_subset_iff, List.mem_toFinset]; exact List.mem_map_of_mem (by decide))
/-- `sB2` leaves a reference it does not write as it was. -/
theorem sB2_frame (V : Valuation τ sig (Elt F)) (r : Ref sig .tc) (h : r ∉ sB2_W) :
    StableHlo.after sB2 V (Proc.devRef .tc r) = V (Proc.devRef .tc r) :=
  StableHlo.after_of_writes_sub sB2 V sB2_writes h

/-- The references `sB3`'s operations write. -/
abbrev sB3_W : List (Ref sig .tc) := [main_v75, main_v76, main_v77, main_v78, main_v79, main_cst_11, main_v80, main_v81, main_cst_12, main_v82, main_cst_13, main_v83, main_v84, main_v85, main_v86, main_v87, main_v88, main_cst_14, main_v89, main_v90, main_v91, main_v92, main_v93, main_v94, main_v95, main_v96, main_v97, main_call3_cst, main_call3_v0, main_v98, main_v99, main_v100, main_v101]
set_option maxRecDepth 8192 in
theorem sB3_writes : (sB3 : List (HloOp τ sig (Elt F))).Forall fun op => op.writes ⊆ (sB3_W.map (Proc.devRef (τ := τ) .tc)).toFinset := by
  simp only [List.Forall]
  repeat' apply And.intro
  all_goals (simp only [StableHlo.nullary_writes, StableHlo.unary_writes, StableHlo.binary_writes, StableHlo.ternary_writes, StableHlo.nary_writes, Finset.singleton_subset_iff, List.mem_toFinset]; exact List.mem_map_of_mem (by decide))
/-- `sB3` leaves a reference it does not write as it was. -/
theorem sB3_frame (V : Valuation τ sig (Elt F)) (r : Ref sig .tc) (h : r ∉ sB3_W) :
    StableHlo.after sB3 V (Proc.devRef .tc r) = V (Proc.devRef .tc r) :=
  StableHlo.after_of_writes_sub sB3 V sB3_writes h

/-- The references `sB4`'s operations write. -/
abbrev sB4_W : List (Ref sig .tc) := [main_v102, main_v103, main_v104, main_v105, main_v106, main_cst_15, main_v107, main_v108, main_cst_16, main_v109, main_cst_17, main_v110, main_v111, main_v112, main_v113, main_v114, main_v115, main_cst_18, main_v116, main_v117, main_v118, main_v119, main_v120, main_v121, main_v122, main_v123, main_v124, main_call4_cst, main_call4_v0, main_v125, main_v126, main_v127, main_v128]
set_option maxRecDepth 8192 in
theorem sB4_writes : (sB4 : List (HloOp τ sig (Elt F))).Forall fun op => op.writes ⊆ (sB4_W.map (Proc.devRef (τ := τ) .tc)).toFinset := by
  simp only [List.Forall]
  repeat' apply And.intro
  all_goals (simp only [StableHlo.nullary_writes, StableHlo.unary_writes, StableHlo.binary_writes, StableHlo.ternary_writes, StableHlo.nary_writes, Finset.singleton_subset_iff, List.mem_toFinset]; exact List.mem_map_of_mem (by decide))
/-- `sB4` leaves a reference it does not write as it was. -/
theorem sB4_frame (V : Valuation τ sig (Elt F)) (r : Ref sig .tc) (h : r ∉ sB4_W) :
    StableHlo.after sB4 V (Proc.devRef .tc r) = V (Proc.devRef .tc r) :=
  StableHlo.after_of_writes_sub sB4 V sB4_writes h

/-- The references `sB5`'s operations write. -/
abbrev sB5_W : List (Ref sig .tc) := [main_v129, main_v130, main_v131, main_v132, main_v133, main_cst_19, main_v134, main_v135, main_cst_20, main_v136, main_cst_21, main_v137, main_v138, main_v139, main_v140, main_v141, main_v142, main_cst_22, main_v143, main_v144, main_v145, main_v146, main_v147, main_v148, main_v149, main_v150, main_v151, main_call5_cst, main_call5_v0, main_v152, main_v153, main_v154, main_v155]
set_option maxRecDepth 8192 in
theorem sB5_writes : (sB5 : List (HloOp τ sig (Elt F))).Forall fun op => op.writes ⊆ (sB5_W.map (Proc.devRef (τ := τ) .tc)).toFinset := by
  simp only [List.Forall]
  repeat' apply And.intro
  all_goals (simp only [StableHlo.nullary_writes, StableHlo.unary_writes, StableHlo.binary_writes, StableHlo.ternary_writes, StableHlo.nary_writes, Finset.singleton_subset_iff, List.mem_toFinset]; exact List.mem_map_of_mem (by decide))
/-- `sB5` leaves a reference it does not write as it was. -/
theorem sB5_frame (V : Valuation τ sig (Elt F)) (r : Ref sig .tc) (h : r ∉ sB5_W) :
    StableHlo.after sB5 V (Proc.devRef .tc r) = V (Proc.devRef .tc r) :=
  StableHlo.after_of_writes_sub sB5 V sB5_writes h

/-- The references `sC`'s operations write. -/
abbrev sC_W : List (Ref sig .tc) := [main_v156, main_v157, main_v158, main_v159, main_v160, main_v161, main_v162, main_v163, main_cst_23, main_v164, main_v165, main_cst_24, main_v166, main_v167, main_v168, main_v169, main_cst_25, main_v170, main_v171, main_v172, main_v173, main_v174, main_v175, main_v176]
set_option maxRecDepth 8192 in
theorem sC_writes : (sC : List (HloOp τ sig (Elt F))).Forall fun op => op.writes ⊆ (sC_W.map (Proc.devRef (τ := τ) .tc)).toFinset := by
  simp only [List.Forall]
  repeat' apply And.intro
  all_goals (simp only [StableHlo.nullary_writes, StableHlo.unary_writes, StableHlo.binary_writes, StableHlo.ternary_writes, StableHlo.nary_writes, Finset.singleton_subset_iff, List.mem_toFinset]; exact List.mem_map_of_mem (by decide))
/-- `sC` leaves a reference it does not write as it was. -/
theorem sC_frame (V : Valuation τ sig (Elt F)) (r : Ref sig .tc) (h : r ∉ sC_W) :
    StableHlo.after sC V (Proc.devRef .tc r) = V (Proc.devRef .tc r) :=
  StableHlo.after_of_writes_sub sC V sC_writes h

/-- The fold over a concatenation is the fold over the second list from the fold over the first. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- The whole run leaves a reference no stretch writes as it was. -/
theorem ops_frame (V : Valuation τ sig (Elt F)) (r : Ref sig .tc)
    (h : r ∉ sA_W ++ sB1_W ++ sB2_W ++ sB3_W ++ sB4_W ++ sB5_W ++ sC_W) :
    StableHlo.after RunP.ops V (Proc.devRef .tc r) = V (Proc.devRef .tc r) := by
  simp only [List.mem_append, not_or] at h
  obtain ⟨⟨⟨⟨⟨⟨hA, h1⟩, h2⟩, h3⟩, h4⟩, h5⟩, hC⟩ := h
  rw [ops_eq, after_app, after_app, after_app, after_app, after_app, after_app,
    sC_frame _ r hC, sB5_frame _ r h5, sB4_frame _ r h4, sB3_frame _ r h3, sB2_frame _ r h2, sB1_frame _ r h1,
    sA_frame _ r hA]

end Cert.ReferenceIdeal.RefValue

end
-- ==== Proof.Spec.lean ====
/-
  The mathematics both programs compute, over the REALS (a finite input array is an array of reals, and every
  operation of either program maps real arrays to real arrays): matrices are functions of two `Fin` coordinates.

  `E = S·M`; a global attention row `y = softmax(qS·(E·Wk)ᵀ)·(E·Wv)`; five rounds of
  `X ↦ relu(((softmax((X·Q)·(X·K)ᵀ/16))·Δ)·(X·V)·W1 + b1)·W2 + b2` from `X = E + P`, with `Δ` the lower-triangular matrix
  of ones; a gate `g = σ([m | y | E]·Wg + bg)` with `m = candidate·M`; and the result `(X∘g + y∘(1-g))·mᵀ`.
  The reference arrangement (`…R`) is the text above; the kernel arrangement (`…K`) multiplies by the reciprocal of the
  softmax denominator, applies `Δ` to `X·V` first (associativity), and splits the gate's product into its three blocks.
-/
import Mathlib.Data.Matrix.Mul
import Mathlib.Analysis.SpecialFunctions.Exp

noncomputable section

open scoped BigOperators

namespace Cert.Spec

/-- A real matrix with `a` rows and `b` columns. -/
abbrev Mat (a b : ℕ) := Matrix (Fin a) (Fin b) ℝ

variable {a b c : ℕ}

/-- The matrix product, written out. -/
def mm (A : Mat a b) (B : Mat b c) : Mat a c := fun i j => ∑ k, A i k * B k j
/-- The transpose. -/
def tr (A : Mat a b) : Mat b a := fun i j => A j i
/-- `max(·, 0)`, entry by entry. -/
def relu (A : Mat a b) : Mat a b := fun i j => max (A i j) 0
/-- A row repeated down every row. -/
def rowB (v : Mat 1 b) : Mat a b := fun _ j => v 0 j
/-- A column repeated across every column. -/
def colB (v : Mat a 1) : Mat a b := fun i _ => v i 0
/-- The lower-triangular matrix of ones. -/
def tril (n : ℕ) : Mat n n := fun i j => if j.val ≤ i.val then 1 else 0
/-- Every entry times `1/16`. -/
def sc (A : Mat a b) : Mat a b := fun i j => A i j * (0.0625 : ℝ)
/-- The largest entry of row `i` (the supremum over a nonempty finite row). -/
def rowMax (A : Mat a (b + 1)) (i : Fin a) : ℝ := Finset.univ.sup' Finset.univ_nonempty (A i)
/-- The row softmax as the reference writes it: `e^(x - max) / Σ e^(x - max)`. -/
def smaxR (A : Mat a (b + 1)) : Mat a (b + 1) :=
  fun i j => Real.exp (A i j - rowMax A i) / ∑ k, Real.exp (A i k - rowMax A i)
/-- The row softmax as the kernel writes it: `e^(x - max) · (1 / Σ e^(x - max))`. -/
def smaxK (A : Mat a (b + 1)) : Mat a (b + 1) :=
  fun i j => Real.exp (A i j - rowMax A i) * (1 / ∑ k, Real.exp (A i k - rowMax A i))
/-- The logistic function `1 / (1 + e^(-x))`. -/
def sigm (x : ℝ) : ℝ := 1 / (1 + Real.exp (-x))

abbrev L : ℕ := 2048
abbrev D : ℕ := 256
abbrev I : ℕ := 20000

/-- The global attention row, reference arrangement. -/
def yR (E : Mat L D) (Wk Wv : Mat D D) (qS : Mat 1 D) : Mat 1 D :=
  mm (smaxR (b := 2047) (mm qS (tr (mm E Wk)))) (mm E Wv)
/-- The global attention row, kernel arrangement. -/
def yK (E : Mat L D) (Wk Wv : Mat D D) (qS : Mat 1 D) : Mat 1 D :=
  mm (smaxK (b := 2047) (mm qS (tr (mm E Wk)))) (mm E Wv)

/-- One round, reference arrangement. -/
def blockR (Q K V W1 W2 : Mat D D) (b1 b2 : Mat 1 D) (X : Mat L D) : Mat L D :=
  fun i j => mm (relu (fun i j => mm (mm (mm (smaxR (b := 2047) (sc (mm (mm X Q) (tr (mm X K))))) (tril L)) (mm X V)) W1 i j + rowB b1 i j)) W2 i j
    + rowB b2 i j
/-- One round, kernel arrangement: `Δ·(X·V)` first. -/
def blockK (Q K V W1 W2 : Mat D D) (b1 b2 : Mat 1 D) (X : Mat L D) : Mat L D :=
  fun i j => mm (relu (fun i j => mm (mm (smaxK (b := 2047) (sc (mm (mm X Q) (tr (mm X K))))) (mm (tril L) (mm X V))) W1 i j + rowB b1 i j)) W2 i j
    + rowB b2 i j

/-- The gate and the result, reference arrangement: the gate's logits from the concatenation `[m | y | E]`. -/
def outR (X E : Mat L D) (y mrow : Mat 1 D) (Wg : Mat (3 * D) 1) (bg : Mat 1 1) : Mat L 1 :=
  let conc : Mat L (3 * D) := fun i j =>
    if h : j.val < D then mrow 0 ⟨j.val, h⟩
    else if h2 : j.val < 2 * D then y 0 ⟨j.val - D, by omega⟩
    else E i ⟨j.val - 2 * D, by have := j.isLt; omega⟩
  let g : Mat L 1 := fun i _ => sigm (mm conc Wg i 0 + bg 0 0)
  mm (fun i j => X i j * colB g i j + rowB y i j * colB (fun i k => 1 - g i k) i j) (tr mrow)
/-- The gate and the result, kernel arrangement: the three blocks of `Wg` applied separately. -/
def outK (X E : Mat L D) (y mrow : Mat 1 D) (Wg : Mat (3 * D) 1) (bg : Mat 1 1) : Mat L 1 :=
  let Wg1 : Mat D 1 := fun k _ => Wg ⟨k.val, by have := k.isLt; omega⟩ 0
  let Wg2 : Mat D 1 := fun k _ => Wg ⟨k.val + D, by have := k.isLt; omega⟩ 0
  let Wg3 : Mat D 1 := fun k _ => Wg ⟨k.val + 2 * D, by have := k.isLt; omega⟩ 0
  let off : ℝ := (mm mrow Wg1 0 0 + mm y Wg2 0 0) + bg 0 0
  let g : Mat L 1 := fun i _ => sigm (mm E Wg3 i 0 + off)
  mm (fun i j => X i j * colB g i j + rowB y i j * colB (fun i k => 1 - g i k) i j) (tr mrow)

/-- The whole reference. -/
def resR (S : Mat L I) (cand : Mat 1 I) (M : Mat I D) (P : Mat L D) (qS : Mat 1 D) (Wg : Mat (3 * D) 1) (bg : Mat 1 1)
    (Q K V Wk Wv W1 W2 : Mat D D) (b1 b2 : Mat 1 D) : Mat L 1 :=
  let E := mm S M
  let y := yR E Wk Wv qS
  let X0 : Mat L D := fun i j => E i j + P i j
  let X5 := (blockR Q K V W1 W2 b1 b2)^[5] X0
  outR X5 E y (mm cand M) Wg bg
/-- The whole kernel program. -/
def resK (S : Mat L I) (cand : Mat 1 I) (M : Mat I D) (P : Mat L D) (qS : Mat 1 D) (Wg : Mat (3 * D) 1) (bg : Mat 1 1)
    (Q K V Wk Wv W1 W2 : Mat D D) (b1 b2 : Mat 1 D) : Mat L 1 :=
  let E := mm S M
  let y := yK E Wk Wv qS
  let X0 : Mat L D := fun i j => E i j + P i j
  let X5 := (blockK Q K V W1 W2 b1 b2)^[5] X0
  outK X5 E y (mm cand M) Wg bg

end Cert.Spec

end
-- ==== Proof.LibCoe.Basic.lean ====
/-
  Real arrays in, real arrays out. At the ideal instance a float is an extended real and every pointwise or layout
  operation of the two programs maps an array of (coerced) reals to an array of reals: `ofM A` is the array whose
  element at `(i, j)` is the real `A i j`, and each lemma below is an equation between arrays,
  `operation (ofM A) … = ofM (the real operation of A …)`. A real matrix written out entry by entry on a right side
  is `Matrix.of fun i j => …`, the matrix with those entries.
-/
import Idealize.ShloMosaic.PureOps.Ideal
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import proofs.«104406_j63058709840319_2_alg».proof.Proof.Spec

noncomputable section

namespace Cert.LibCoe

open Idealize.ShloMosaic Idealize.ShloMosaic.ValueIdx

/-- The array of extended reals a real matrix is: element `(i, j)` is `A i j`. -/
def ofM {a b : ℕ} (A : Cert.Spec.Mat a b) : (⟨2, ![a, b]⟩ : Shape).Idx → EReal :=
  fun i => ((A (i 0) (i 1) : ℝ) : EReal)

variable {a b : ℕ} {φ ψ : FTy}

theorem ofM_apply (A : Spec.Mat a b) (i : (⟨2, ![a, b]⟩ : Shape).Idx) : ofM A i = ((A (i 0) (i 1) : ℝ) : EReal) := rfl

theorem ofM_ix2 (A : Spec.Mat a b) (p : Fin a) (q : Fin b) : ofM A (ix2 p q) = ((A p q : ℝ) : EReal) := rfl

/-- An array is `ofM A` as soon as it reads `A p q` at every `(p, q)`. -/
theorem eq_ofM {X : (⟨2, ![a, b]⟩ : Shape).Idx → EReal} {A : Spec.Mat a b}
    (h : ∀ p q, X (ix2 p q) = ((A p q : ℝ) : EReal)) : X = ofM A := by
  funext i
  exact (congrArg X (eq_ix2 i)).trans (h (i 0) (i 1))

/-- Two real matrices with the same array are equal. -/
theorem ofM_injective : Function.Injective (ofM (a := a) (b := b)) := by
  intro A B h
  funext p q
  have := congrFun h (ix2 p q)
  rw [ofM_ix2, ofM_ix2] at this
  exact EReal.coe_injective this

/-! ### The literal words -/

/-- The f32 word `0x3D800000` is one sixteenth. -/
theorem ofBits_sixteenth_f32 : Ideal.ofBits .f32 0x3D800000#32 = (((0.0625 : ℝ)) : EReal) := by
  simp [Ideal.ofBits, Ideal.ieee, -EReal.coe_mul]; norm_num

theorem ofBits_zero_f32' : Ideal.ofBits .f32 0x00000000#32 = (((0 : ℝ)) : EReal) := by
  rw [Ideal.ofBits_zero_f32]; rfl
theorem ofBits_one_f32' : Ideal.ofBits .f32 0x3F800000#32 = (((1 : ℝ)) : EReal) := by
  rw [Ideal.ofBits_one_f32]; rfl
theorem ofBits_one_bf16' : Ideal.ofBits .bf16 0x3F80#16 = (((1 : ℝ)) : EReal) := by
  rw [Ideal.ofBits_one_bf16]; rfl
theorem ofBits_zero_bf16' : Ideal.ofBits .bf16 0x0000#16 = (((0 : ℝ)) : EReal) := by
  rw [Ideal.ofBits_zero_bf16]; rfl

/-! ### Pointwise operations -/

theorem addf_ofM (A B : Spec.Mat a b) :
    addf (F := Ideal) (φ := φ) (ofM A) (ofM B) = ofM (Matrix.of fun i j => A i j + B i j) := by
  funext i; exact (EReal.coe_add _ _).symm

theorem subf_ofM (A B : Spec.Mat a b) :
    subf (F := Ideal) (φ := φ) (ofM A) (ofM B) = ofM (Matrix.of fun i j => A i j - B i j) := by
  funext i; exact (EReal.coe_sub _ _).symm

theorem mulf_ofM (A B : Spec.Mat a b) :
    mulf (F := Ideal) (φ := φ) (ofM A) (ofM B) = ofM (Matrix.of fun i j => A i j * B i j) := by
  funext i; exact (EReal.coe_mul _ _).symm

theorem div_coe_coe (x : ℝ) {y : ℝ} (hy : y ≠ 0) : Ideal.div (x : EReal) (y : EReal) = ((x / y : ℝ) : EReal) := by
  rw [Ideal.div_coe hy, ← EReal.coe_mul, ← div_eq_mul_one_div]

theorem divf_ofM (A B : Spec.Mat a b) (hB : ∀ i j, B i j ≠ 0) :
    divf (F := Ideal) (φ := φ) (ofM A) (ofM B) = ofM (Matrix.of fun i j => A i j / B i j) := by
  funext i; exact div_coe_coe _ (hB _ _)

theorem Host.divf_ofM (A B : Spec.Mat a b) (hB : ∀ i j, B i j ≠ 0) :
    Host.divf (F := Ideal) (φ := φ) (ofM A) (ofM B) = ofM (Matrix.of fun i j => A i j / B i j) := by
  funext i; exact div_coe_coe _ (hB _ _)

theorem exp_ofM (A : Spec.Mat a b) :
    exp (F := Ideal) (φ := φ) (ofM A) = ofM (Matrix.of fun i j => Real.exp (A i j)) := by
  funext i; rfl

theorem Host.exp_ofM (A : Spec.Mat a b) :
    Host.exp (F := Ideal) (φ := φ) (ofM A) = ofM (Matrix.of fun i j => Real.exp (A i j)) := by
  funext i; rfl

theorem Host.negf_ofM (A : Spec.Mat a b) :
    Host.negf (F := Ideal) (φ := φ) (ofM A) = ofM (Matrix.of fun i j => -A i j) := by
  funext i; exact (EReal.coe_neg _).symm

theorem logistic_coe_sigm (x : ℝ) : Ideal.logistic (x : EReal) = ((Spec.sigm x : ℝ) : EReal) := by
  rw [Ideal.logistic_coe, Spec.sigm, one_div]

theorem logistic_ofM (A : Spec.Mat a b) :
    logistic (F := Ideal) (φ := φ) (ofM A) = ofM (Matrix.of fun i j => Spec.sigm (A i j)) := by
  funext i; exact logistic_coe_sigm _

theorem maximumf_ofM (A B : Spec.Mat a b) :
    maximumf (F := Ideal) (φ := φ) (ofM A) (ofM B) = ofM (Matrix.of fun i j => max (A i j) (B i j)) := by
  funext i; exact (EReal.coe_strictMono.monotone.map_max).symm

theorem truncf_ofM (A : Spec.Mat a b) (h : ψ.bits < φ.bits) :
    truncf (F := Ideal) (φ := φ) ψ (ofM A) h = ofM A := rfl

theorem extf_ofM (A : Spec.Mat a b) (h : φ.bits < ψ.bits) :
    extf (F := Ideal) (φ := φ) ψ (ofM A) h = ofM A := rfl

/-! ### Constants and scalar broadcasts -/

theorem constant_zero_ofM : constant (F := Ideal) ⟨2, ![a, b]⟩ .f32 0x00000000#32 = ofM (Matrix.of fun _ _ => (0 : ℝ)) := by
  funext i; exact ofBits_zero_f32'
theorem constant_one_ofM : constant (F := Ideal) ⟨2, ![a, b]⟩ .f32 0x3F800000#32 = ofM (Matrix.of fun _ _ => (1 : ℝ)) := by
  funext i; exact ofBits_one_f32'
theorem constant_sixteenth_ofM : constant (F := Ideal) ⟨2, ![a, b]⟩ .f32 0x3D800000#32 = ofM (Matrix.of fun _ _ => (0.0625 : ℝ)) := by
  funext i; exact ofBits_sixteenth_f32
theorem constant_one_bf16_ofM : constant (F := Ideal) ⟨2, ![a, b]⟩ .bf16 0x3F80#16 = ofM (Matrix.of fun _ _ => (1 : ℝ)) := by
  funext i; exact ofBits_one_bf16'
theorem constant_zero_bf16_ofM : constant (F := Ideal) ⟨2, ![a, b]⟩ .bf16 0x0000#16 = ofM (Matrix.of fun _ _ => (0 : ℝ)) := by
  funext i; exact ofBits_zero_bf16'

theorem broadcast_zero_ofM :
    broadcast ⟨2, ![a, b]⟩ (Scalar.ofBits (F := Ideal) .f32 0x00000000#32) = ofM (Matrix.of fun _ _ => (0 : ℝ)) := by
  funext i; exact ofBits_zero_f32'
theorem broadcast_one_ofM :
    broadcast ⟨2, ![a, b]⟩ (Scalar.ofBits (F := Ideal) .f32 0x3F800000#32) = ofM (Matrix.of fun _ _ => (1 : ℝ)) := by
  funext i; exact ofBits_one_f32'
theorem broadcast_sixteenth_ofM :
    broadcast ⟨2, ![a, b]⟩ (Scalar.ofBits (F := Ideal) .f32 0x3D800000#32) = ofM (Matrix.of fun _ _ => (0.0625 : ℝ)) := by
  funext i; exact ofBits_sixteenth_f32

/-- The host's splat of a rank-0 constant. -/
theorem broadcastInDim_zero_ofM (h : (⟨0, ![]⟩ : Shape).BroadcastsInDim ⟨2, ![a, b]⟩ ![]) :
    broadcastInDim ⟨2, ![a, b]⟩ ![] h (constant (F := Ideal) ⟨0, ![]⟩ .f32 0x00000000#32) = ofM (Matrix.of fun _ _ => (0 : ℝ)) := by
  funext i; exact ofBits_zero_f32'
theorem broadcastInDim_one_ofM (h : (⟨0, ![]⟩ : Shape).BroadcastsInDim ⟨2, ![a, b]⟩ ![]) :
    broadcastInDim ⟨2, ![a, b]⟩ ![] h (constant (F := Ideal) ⟨0, ![]⟩ .f32 0x3F800000#32) = ofM (Matrix.of fun _ _ => (1 : ℝ)) := by
  funext i; exact ofBits_one_f32'
theorem broadcastInDim_sixteenth_ofM (h : (⟨0, ![]⟩ : Shape).BroadcastsInDim ⟨2, ![a, b]⟩ ![]) :
    broadcastInDim ⟨2, ![a, b]⟩ ![] h (constant (F := Ideal) ⟨0, ![]⟩ .f32 0x3D800000#32) = ofM (Matrix.of fun _ _ => (0.0625 : ℝ)) := by
  funext i; exact ofBits_sixteenth_f32
theorem broadcastInDim_one_bf16_ofM (h : (⟨0, ![]⟩ : Shape).BroadcastsInDim ⟨2, ![a, b]⟩ ![]) :
    broadcastInDim ⟨2, ![a, b]⟩ ![] h (constant (F := Ideal) ⟨0, ![]⟩ .bf16 0x3F80#16) = ofM (Matrix.of fun _ _ => (1 : ℝ)) := by
  funext i; exact ofBits_one_bf16'
theorem broadcastInDim_zero_bf16_ofM (h : (⟨0, ![]⟩ : Shape).BroadcastsInDim ⟨2, ![a, b]⟩ ![]) :
    broadcastInDim ⟨2, ![a, b]⟩ ![] h (constant (F := Ideal) ⟨0, ![]⟩ .bf16 0x0000#16) = ofM (Matrix.of fun _ _ => (0 : ℝ)) := by
  funext i; exact ofBits_zero_bf16'

/-- The reciprocal the kernels write: the splat of one divided by an array of nonzero reals. -/
theorem divf_broadcast_one_ofM (l : Spec.Mat a b) (hl : ∀ i j, l i j ≠ 0) :
    divf (F := Ideal) (φ := .f32) (broadcast ⟨2, ![a, b]⟩ (Scalar.ofBits (F := Ideal) .f32 0x3F800000#32)) (ofM l)
      = ofM (Matrix.of fun i j => 1 / l i j) := by
  rw [broadcast_one_ofM, divf_ofM _ _ hl]; rfl

/-- Every entry times the word of one sixteenth: `Spec.sc`. -/
theorem mulf_broadcast_sixteenth_ofM (A : Spec.Mat a b) :
    mulf (F := Ideal) (φ := .f32) (ofM A) (broadcast ⟨2, ![a, b]⟩ (Scalar.ofBits (F := Ideal) .f32 0x3D800000#32))
      = ofM (Spec.sc A) := by
  rw [broadcast_sixteenth_ofM, mulf_ofM]; rfl

/-- The reference's `relu`: the maximum with the host's splat of zero. -/
theorem relu_ofM (A : Spec.Mat a b) (h : (⟨0, ![]⟩ : Shape).BroadcastsInDim ⟨2, ![a, b]⟩ ![]) :
    maximumf (F := Ideal) (φ := .f32) (ofM A)
        (broadcastInDim ⟨2, ![a, b]⟩ ![] h (constant (F := Ideal) ⟨0, ![]⟩ .f32 0x00000000#32))
      = ofM (Spec.relu A) := by
  rw [broadcastInDim_zero_ofM, maximumf_ofM]; rfl

/-- The kernels' `relu`: the maximum with the splat of the zero word. -/
theorem maximumf_broadcast_zero_ofM (A : Spec.Mat a b) :
    maximumf (F := Ideal) (φ := .f32) (ofM A) (broadcast ⟨2, ![a, b]⟩ (Scalar.ofBits (F := Ideal) .f32 0x00000000#32))
      = ofM (Spec.relu A) := by
  rw [broadcast_zero_ofM, maximumf_ofM]; rfl

/-! ### Layout operations -/

theorem shapeCast_ofM (A : Spec.Mat a b) (h : (⟨2, ![a, b]⟩ : Shape).ShapeCasts ⟨2, ![a, b]⟩) :
    shapeCast ⟨2, ![a, b]⟩ (ofM A) h = ofM A := shapeCast_self _ h

/-- A `[1, b]` row broadcast down `a` rows. -/
theorem broadcastTo_row_ofM (v : Spec.Mat 1 b) (h : (⟨2, ![1, b]⟩ : Shape).Broadcasts ⟨2, ![a, b]⟩) :
    broadcastTo ⟨2, ![a, b]⟩ (ofM v) h = ofM (Spec.rowB v) :=
  eq_ofM fun p q => by rw [broadcastTo_1b_ab_apply]; rfl

/-- An `[a, 1]` column broadcast across `b` columns. -/
theorem broadcastTo_col_ofM (v : Spec.Mat a 1) (h : (⟨2, ![a, 1]⟩ : Shape).Broadcasts ⟨2, ![a, b]⟩) :
    broadcastTo ⟨2, ![a, b]⟩ (ofM v) h = ofM (Spec.colB v) := by
  refine eq_ofM fun p q => ?_
  have hk : broadcastTo ⟨2, ![a, b]⟩ (ofM v) h (ix2 p q) = ofM v (ix2 p (0 : Fin 1)) := by
    refine broadcastTo_apply (ofM v) h (ix2 p q) (ix2 p (0 : Fin 1)) fun ax => ?_
    match ax with
    | ⟨0, _⟩ =>
      show p.val = if a = 1 then 0 else p.val
      split
      · have := p.isLt; omega
      · rfl
    | ⟨1, _⟩ => rfl
  rw [hk]; rfl

/-- The host's broadcast of a `[1, b]` row. -/
theorem broadcastInDim_row_ofM (v : Spec.Mat 1 b) (h : (⟨2, ![1, b]⟩ : Shape).BroadcastsInDim ⟨2, ![a, b]⟩ ![0, 1]) :
    broadcastInDim ⟨2, ![a, b]⟩ ![0, 1] h (ofM v) = ofM (Spec.rowB v) := by
  refine eq_ofM fun p q => ?_
  have hk : broadcastInDim ⟨2, ![a, b]⟩ ![0, 1] h (ofM v) (ix2 p q) = ofM v (ix2 (0 : Fin 1) q) := by
    refine broadcastInDim_apply ![0, 1] h (ofM v) (ix2 p q) (ix2 (0 : Fin 1) q) fun ax => ?_
    match ax with
    | ⟨0, _⟩ => rfl
    | ⟨1, _⟩ =>
      show q.val = if b = 1 then 0 else q.val
      split
      · have := q.isLt; omega
      · rfl
  rw [hk]; rfl

/-- The host's broadcast of an `[a, 1]` column. -/
theorem broadcastInDim_col_ofM (v : Spec.Mat a 1) (h : (⟨2, ![a, 1]⟩ : Shape).BroadcastsInDim ⟨2, ![a, b]⟩ ![0, 1]) :
    broadcastInDim ⟨2, ![a, b]⟩ ![0, 1] h (ofM v) = ofM (Spec.colB v) := by
  refine eq_ofM fun p q => ?_
  have hk : broadcastInDim ⟨2, ![a, b]⟩ ![0, 1] h (ofM v) (ix2 p q) = ofM v (ix2 p (0 : Fin 1)) := by
    refine broadcastInDim_apply ![0, 1] h (ofM v) (ix2 p q) (ix2 p (0 : Fin 1)) fun ax => ?_
    match ax with
    | ⟨0, _⟩ =>
      show p.val = if a = 1 then 0 else p.val
      split
      · have := p.isLt; omega
      · rfl
    | ⟨1, _⟩ => rfl
  rw [hk]; rfl

theorem transpose_ofM (A : Spec.Mat a b) (h : (⟨2, ![a, b]⟩ : Shape).Transposes [1, 0] ⟨2, ![b, a]⟩) :
    transpose ⟨2, ![b, a]⟩ [1, 0] (ofM A) h = ofM (Spec.tr A) :=
  eq_ofM fun p q => by rw [transpose_ix2_apply]; rfl

/-- A block of `m` rows from row `o`. -/
theorem extractStridedSlice_rows_ofM {m : ℕ} (o : ℕ) (A : Spec.Mat a b)
    (h : (⟨2, ![a, b]⟩ : Shape).Slices ![o, 0] ⟨2, ![m, b]⟩) :
    extractStridedSlice ⟨2, ![m, b]⟩ ![o, 0] (ofM A) h
      = ofM (Matrix.of fun (i : Fin m) (j : Fin b) => if hi : o + i.val < a then A ⟨o + i.val, hi⟩ j else 0) := by
  refine eq_ofM fun p q => ?_
  have hp : o + p.val < a := Nat.lt_of_lt_of_le (Nat.add_lt_add_left p.isLt o) (h.2 0)
  rw [slice2_axis0_eq, ofM_ix2, Matrix.of_apply, dif_pos hp]

/-- A block of `m` columns from column `o`. -/
theorem extractStridedSlice_cols_ofM {m : ℕ} (o : ℕ) (A : Spec.Mat a b)
    (h : (⟨2, ![a, b]⟩ : Shape).Slices ![0, o] ⟨2, ![a, m]⟩) :
    extractStridedSlice ⟨2, ![a, m]⟩ ![0, o] (ofM A) h
      = ofM (Matrix.of fun (i : Fin a) (j : Fin m) => if hj : o + j.val < b then A i ⟨o + j.val, hj⟩ else 0) := by
  refine eq_ofM fun p q => ?_
  have hq : o + q.val < b := Nat.lt_of_lt_of_le (Nat.add_lt_add_left q.isLt o) (h.2 1)
  rw [slice2_axis1_eq, ofM_ix2, Matrix.of_apply, dif_pos hq]

/-- The integer zero converted to a float is zero: the value the pads fill with. -/
theorem sitofp_zero_apply (i : (⟨0, ![]⟩ : Shape).Idx) :
    sitofp (F := Ideal) .bf16 (constantI ⟨0, ![]⟩ 32 0#32) i = 0 := by
  show ((((0#32 : BitVec 32).toInt : ℤ) : ℝ) : EReal) = 0
  simp

/-- A pad read at an index that is the image of the operand index `k` is the operand there. -/
theorem pad_apply_of_inside {s t u : Shape} {α : Type} (lo hi interior : Fin s.rank → ℕ) (x : s.Idx → α) (v : u.Idx → α)
    (h : s.Pads lo hi interior t) (hu : 0 < u.numel) (j : t.Idx) (k : s.Idx)
    (hk : ∀ ax : Fin s.rank, (j (ax.cast h.1)).val = lo ax + (k ax).val * (interior ax + 1)) :
    pad t lo hi interior x v h hu j = x k := by
  have hin : ∀ ax : Fin s.rank, lo ax ≤ (j (ax.cast h.1)).val ∧ ((j (ax.cast h.1)).val - lo ax) % (interior ax + 1) = 0
      ∧ ((j (ax.cast h.1)).val - lo ax) / (interior ax + 1) < s.size ax := fun ax => by
    rw [hk ax, Nat.add_sub_cancel_left, Nat.mul_mod_left, Nat.mul_div_cancel _ (Nat.succ_pos _)]
    exact ⟨Nat.le_add_right _ _, rfl, (k ax).isLt⟩
  unfold pad
  rw [dif_pos hin]
  refine congrArg x (funext fun ax => Fin.ext ?_)
  show ((j (ax.cast h.1)).val - lo ax) / (interior ax + 1) = (k ax).val
  rw [hk ax, Nat.add_sub_cancel_left, Nat.mul_div_cancel _ (Nat.succ_pos _)]

/-- A pad read at an index past the operand on some axis is the padding value. -/
theorem pad_apply_of_outside {s t u : Shape} {α : Type} (lo hi interior : Fin s.rank → ℕ) (x : s.Idx → α) (v : u.Idx → α)
    (h : s.Pads lo hi interior t) (hu : 0 < u.numel) (j : t.Idx) (ax : Fin s.rank)
    (hout : s.size ax ≤ ((j (ax.cast h.1)).val - lo ax) / (interior ax + 1)) :
    pad t lo hi interior x v h hu j = v (Shape.Idx.first hu) := by
  unfold pad
  rw [dif_neg fun hin => absurd (hin ax).2.2 (Nat.not_lt.2 hout)]

/-- Columns appended on the right, filled with a zero scalar. -/
theorem pad_cols_ofM {c : ℕ} (hi : ℕ) (A : Spec.Mat a b) (v : (⟨0, ![]⟩ : Shape).Idx → EReal) (hv : ∀ i, v i = 0)
    (h : (⟨2, ![a, b]⟩ : Shape).Pads ![0, 0] ![0, hi] ![0, 0] ⟨2, ![a, c]⟩) (hu : 0 < (⟨0, ![]⟩ : Shape).numel) :
    pad ⟨2, ![a, c]⟩ ![0, 0] ![0, hi] ![0, 0] (ofM A) v h hu
      = ofM (Matrix.of fun (i : Fin a) (j : Fin c) => if hj : j.val < b then A i ⟨j.val, hj⟩ else 0) := by
  refine eq_ofM fun p q => ?_
  rw [Matrix.of_apply]
  by_cases hq : q.val < b
  · rw [dif_pos hq, pad_apply_of_inside _ _ _ (ofM A) v h hu (ix2 p q) (ix2 p ⟨q.val, hq⟩) (fun ax => by
      match ax with
      | ⟨0, _⟩ => show p.val = 0 + p.val * (0 + 1); omega
      | ⟨1, _⟩ => show q.val = 0 + q.val * (0 + 1); omega)]
    rfl
  · rw [dif_neg hq, pad_apply_of_outside _ _ _ (ofM A) v h hu (ix2 p q) (1 : Fin 2) (by
      show b ≤ (q.val - 0) / (0 + 1)
      rw [Nat.sub_zero, Nat.div_one]; omega), hv]
    rfl

/-- Rows appended below, filled with a zero scalar. -/
theorem pad_rows_ofM {c : ℕ} (hi : ℕ) (A : Spec.Mat a b) (v : (⟨0, ![]⟩ : Shape).Idx → EReal) (hv : ∀ i, v i = 0)
    (h : (⟨2, ![a, b]⟩ : Shape).Pads ![0, 0] ![hi, 0] ![0, 0] ⟨2, ![c, b]⟩) (hu : 0 < (⟨0, ![]⟩ : Shape).numel) :
    pad ⟨2, ![c, b]⟩ ![0, 0] ![hi, 0] ![0, 0] (ofM A) v h hu
      = ofM (Matrix.of fun (i : Fin c) (j : Fin b) => if hi' : i.val < a then A ⟨i.val, hi'⟩ j else 0) := by
  refine eq_ofM fun p q => ?_
  rw [Matrix.of_apply]
  by_cases hp : p.val < a
  · rw [dif_pos hp, pad_apply_of_inside _ _ _ (ofM A) v h hu (ix2 p q) (ix2 ⟨p.val, hp⟩ q) (fun ax => by
      match ax with
      | ⟨0, _⟩ => show p.val = 0 + p.val * (0 + 1); omega
      | ⟨1, _⟩ => show q.val = 0 + q.val * (0 + 1); omega)]
    rfl
  · rw [dif_neg hp, pad_apply_of_outside _ _ _ (ofM A) v h hu (ix2 p q) (0 : Fin 2) (by
      show a ≤ (p.val - 0) / (0 + 1)
      rw [Nat.sub_zero, Nat.div_one]; omega), hv]
    rfl

/-- A number below 2³¹, as a 32-bit word read signed, is itself. -/
theorem toInt_ofNat_small (p : ℕ) (hp : p < 2147483648) : (BitVec.ofNat 32 p).toInt = (p : ℤ) := by
  rw [BitVec.toInt_eq_toNat_cond, BitVec.toNat_ofNat]
  have hmod : p % 2 ^ 32 = p := Nat.mod_eq_of_lt (by omega)
  rw [hmod, if_pos (by omega)]

/-- The signed comparison "row (plus the zero word) at least column" of two coordinates below 2³¹ is the comparison of
    the numbers. -/
theorem cmpi_sge_coords (p q : ℕ) (hp : p < 2147483648) (hq : q < 2147483648) :
    IntOp.cmpi .sge (IntOp.addi (BitVec.ofNat 32 p) 0#32) (BitVec.ofNat 32 q) = if q ≤ p then 1#1 else 0#1 := by
  show BitVec.ofBool ((BitVec.ofNat 32 q).sle (BitVec.ofNat 32 p + 0#32)) = _
  rw [BitVec.add_zero, BitVec.sle, toInt_ofNat_small p hp, toInt_ofNat_small q hq]
  by_cases hqp : q ≤ p
  · rw [if_pos hqp, decide_eq_true (by exact_mod_cast hqp)]; rfl
  · rw [if_neg hqp, decide_eq_false (by exact_mod_cast hqp)]; rfl

/-- The lower triangle both programs cut: row index (plus the zero word) at least the column index, signed. -/
theorem tril_select_ofM {n : ℕ} (hn : n ≤ 2147483648) (A Z : Spec.Mat n n)
    (hb : (⟨0, ![]⟩ : Shape).BroadcastsInDim ⟨2, ![n, n]⟩ ![]) :
    select (cmpi .sge (addi (iotaInDim ⟨2, ![n, n]⟩ 32 0) (broadcastInDim ⟨2, ![n, n]⟩ ![] hb (constantI ⟨0, ![]⟩ 32 0#32)))
        (iotaInDim ⟨2, ![n, n]⟩ 32 1)) (ofM A) (ofM Z)
      = ofM (Matrix.of fun i j => if j.val ≤ i.val then A i j else Z i j) := by
  refine eq_ofM fun p q => ?_
  rw [Matrix.of_apply]
  have hp : p.val < 2147483648 := lt_of_lt_of_le p.isLt hn
  have hq : q.val < 2147483648 := lt_of_lt_of_le q.isLt hn
  show Scalar.select (IntOp.cmpi .sge (IntOp.addi (BitVec.ofNat 32 p.val) 0#32) (BitVec.ofNat 32 q.val))
      (ofM A (ix2 p q)) (ofM Z (ix2 p q)) = _
  rw [cmpi_sge_coords _ _ hp hq]
  by_cases hqp : q.val ≤ p.val
  · rw [if_pos hqp, if_pos hqp, select_one]; rfl
  · rw [if_neg hqp, if_neg hqp, select_zero]; rfl

/-- The lower triangle of the all-ones matrix. -/
theorem tril_ofM {n : ℕ} (hn : n ≤ 2147483648) (hb : (⟨0, ![]⟩ : Shape).BroadcastsInDim ⟨2, ![n, n]⟩ ![]) :
    select (cmpi .sge (addi (iotaInDim ⟨2, ![n, n]⟩ 32 0) (broadcastInDim ⟨2, ![n, n]⟩ ![] hb (constantI ⟨0, ![]⟩ 32 0#32)))
        (iotaInDim ⟨2, ![n, n]⟩ 32 1)) (ofM (Matrix.of fun _ _ => (1 : ℝ))) (ofM (Matrix.of fun _ _ => (0 : ℝ)))
      = ofM (Spec.tril n) := by
  rw [tril_select_ofM hn]; rfl

/-- Three `[a, 256]` arrays side by side. -/
theorem concatenate_ofM (A B C : Spec.Mat a 256)
    (h : Shape.Concatenates ([(⟨⟨2, ![a, 256]⟩, ofM A⟩ : (s : Shape) × (s.Idx → EReal)), ⟨⟨2, ![a, 256]⟩, ofM B⟩,
      ⟨⟨2, ![a, 256]⟩, ofM C⟩].map (·.1)) ⟨2, ![a, 768]⟩ 1) :
    concatenate ⟨2, ![a, 768]⟩ 1 [⟨⟨2, ![a, 256]⟩, ofM A⟩, ⟨⟨2, ![a, 256]⟩, ofM B⟩, ⟨⟨2, ![a, 256]⟩, ofM C⟩] h
      = ofM (Matrix.of fun (i : Fin a) (j : Fin 768) =>
          if h1 : j.val < 256 then A i ⟨j.val, h1⟩
          else if h2 : j.val < 512 then B i ⟨j.val - 256, by omega⟩
          else C i ⟨j.val - 512, by have := j.isLt; omega⟩) := by
  refine eq_ofM fun p q => ?_
  rw [Matrix.of_apply]
  by_cases h1 : q.val < 256
  · rw [dif_pos h1]
    exact concatenate_apply_piece 1 _ h (ix2 p q) 0 (by show (0 : ℕ) < 3; omega) ⟨2, ![a, 256]⟩ (ofM A) rfl rfl 0 rfl
      (ix2 p ⟨q.val, h1⟩) (fun bx hb => by
        match bx with
        | ⟨0, _⟩ => rfl
        | ⟨1, _⟩ => exact absurd rfl hb) (Nat.zero_add _)
  · rw [dif_neg h1]
    by_cases h2 : q.val < 512
    · rw [dif_pos h2]
      exact concatenate_apply_piece 1 _ h (ix2 p q) 1 (by show (1 : ℕ) < 3; omega) ⟨2, ![a, 256]⟩ (ofM B) rfl rfl 256 rfl
        (ix2 p ⟨q.val - 256, by omega⟩) (fun bx hb => by
          match bx with
          | ⟨0, _⟩ => rfl
          | ⟨1, _⟩ => exact absurd rfl hb) (by show 256 + (q.val - 256) = q.val; omega)
    · rw [dif_neg h2]
      exact concatenate_apply_piece 1 _ h (ix2 p q) 2 (by show (2 : ℕ) < 3; omega) ⟨2, ![a, 256]⟩ (ofM C) rfl rfl 512 rfl
        (ix2 p ⟨q.val - 512, by have := q.isLt; omega⟩) (fun bx hb => by
          match bx with
          | ⟨0, _⟩ => rfl
          | ⟨1, _⟩ => exact absurd rfl hb) (by show 512 + (q.val - 512) = q.val; omega)

end Cert.LibCoe

end
-- ==== Proof.LibCoe.Reduce.lean ====
/-
  Row reductions of real arrays at the ideal values. A matrix of reals goes in; the row maximum taken from −∞ and the
  row sum taken from 0 come out as reals, whether taken as a vector reduction over the second axis or as the host's
  reduce over that axis, alone, as a column, and repeated back along the row. From these the two arrangements of the
  row softmax: the exponentials times the reciprocal of their sum, and the exponentials divided by their sum; the sum
  of exponentials over a nonempty row is positive, so neither division meets a zero.
-/
import proofs.«104406_j63058709840319_2_alg».proof.Proof.LibCoe.Basic
import Idealize.ShloMosaic.PureOps.Ideal.Laws
import Idealize.ShloMosaic.Lib.Pipeline.Value
import Idealize.ShloMosaic.Lib.ValueIdx

noncomputable section

open Idealize.ShloMosaic Idealize.ShloMosaic.ValueIdx
open scoped BigOperators

namespace Cert.LibCoe

open Cert.Spec

variable {n : ℕ}

/-! ## The constants -/

/-- The word `0xFF800000` is −∞. -/
theorem ofBits_f32_negInf : Ideal.ofBits .f32 0xFF800000#32 = (⊥ : EReal) := by simp [Ideal.ofBits, Ideal.ieee]
/-- The word `0x3F800000` is one. -/
private theorem ofBits_f32_one : Ideal.ofBits .f32 0x3F800000#32 = ((1 : ℝ) : EReal) := by rw [EReal.coe_one]; simp [Ideal.ofBits, Ideal.ieee, -EReal.coe_mul]; norm_num

/-! ## Reals under the extended reals' operations -/

/-- The maximum over a nonempty row of reals, from −∞, is the real row maximum. -/
theorem fold_max_coe (A : Mat n (2047 + 1)) (i : Fin n) :
    (Finset.univ : Finset (Fin (2047 + 1))).fold max (⊥ : EReal) (fun k => ((A i k : ℝ) : EReal)) = ((rowMax A i : ℝ) : EReal) := by
  have hmono : ∀ x y : ℝ, ((max x y : ℝ) : EReal) = max (x : EReal) (y : EReal) :=
    fun x y => (EReal.coe_strictMono.monotone).map_max
  unfold rowMax
  rw [Finset.comp_sup'_eq_sup'_comp Finset.univ_nonempty (fun x : ℝ => (x : EReal)) hmono, Finset.sup'_eq_sup]
  rfl

/-- A finite sum of reals. -/
theorem sum_coe {m : ℕ} (f : Fin m → ℝ) : (∑ k, ((f k : ℝ) : EReal)) = ((∑ k, f k : ℝ) : EReal) := by
  have key : ∀ s : Finset (Fin m), (∑ k ∈ s, ((f k : ℝ) : EReal)) = ((∑ k ∈ s, f k : ℝ) : EReal) := by
    intro s
    induction s using Finset.induction_on with
    | empty => simp
    | insert a s ha ih => rw [Finset.sum_insert ha, Finset.sum_insert ha, ih, EReal.coe_add]
  exact key _

/-- The sum of exponentials over a nonempty row is positive. -/
theorem sumExp_pos (A : Mat n (2047 + 1)) (i : Fin n) : 0 < ∑ k, Real.exp (A i k - rowMax A i) := by exact Finset.sum_pos (fun k _ => Real.exp_pos _) Finset.univ_nonempty

/-! ## The vector reduction over the second axis (kernel side) -/

/-- The row maximum, read at a row. -/
theorem kRowMax_apply (A : Mat n (2047 + 1)) (h : (⟨2, ![n, 2047 + 1]⟩ : Shape).Reduces [1] ⟨1, ![n]⟩)
    (hφ : FKind.Formats .f32) (hacc : (0xFF800000#32 : BitVec 32) = FKind.maximumf.neutral .f32 hφ)
    (j : (⟨1, ![n]⟩ : Shape).Idx) :
    multiReduction (F := Ideal) .maximumf [1] ⟨1, ![n]⟩ (ofM A : FVec Ideal ⟨2, ![n, 2047 + 1]⟩ .f32) 0xFF800000#32 h hφ hacc j
      = ((rowMax A (j 0) : ℝ) : EReal) := by
  rw [Ideal.multiReduction_maximumf_single, Ideal.ofBits_def, ofBits_f32_negInf]
  exact fold_max_coe A (j 0)

/-- The row sum, read at a row. -/
theorem kRowSum_apply (A : Mat n (2047 + 1)) (h : (⟨2, ![n, 2047 + 1]⟩ : Shape).Reduces [1] ⟨1, ![n]⟩)
    (hφ : FKind.Formats .f32) (hacc : (0x00000000#32 : BitVec 32) = FKind.add.neutral .f32 hφ)
    (j : (⟨1, ![n]⟩ : Shape).Idx) :
    multiReduction (F := Ideal) .add [1] ⟨1, ![n]⟩ (ofM A : FVec Ideal ⟨2, ![n, 2047 + 1]⟩ .f32) 0x00000000#32 h hφ hacc j
      = ((∑ k, A (j 0) k : ℝ) : EReal) := by
  rw [Ideal.multiReduction_add_single]
  exact sum_coe (fun k => A (j 0) k)

/-- The row maximum as a column. -/
theorem kRowMax_col (A : Mat n (2047 + 1)) (h : (⟨2, ![n, 2047 + 1]⟩ : Shape).Reduces [1] ⟨1, ![n]⟩)
    (hφ : FKind.Formats .f32) (hacc : (0xFF800000#32 : BitVec 32) = FKind.maximumf.neutral .f32 hφ)
    (hsc : (⟨1, ![n]⟩ : Shape).ShapeCasts ⟨2, ![n, 1]⟩) :
    shapeCast ⟨2, ![n, 1]⟩
        (multiReduction (F := Ideal) .maximumf [1] ⟨1, ![n]⟩ (ofM A : FVec Ideal ⟨2, ![n, 2047 + 1]⟩ .f32) 0xFF800000#32 h hφ hacc) hsc
      = ofM (Matrix.of fun i _ => rowMax A i : Mat n 1) := by
  funext i
  rw [shapeCast_apply _ hsc i (ix1 (i 0)) (by
    rw [Shape.rowMajor_val_one, Shape.rowMajor_val_two]
    have h1 : (i 1).val < 1 := (i 1).isLt
    show (i 0).val = (i 0).val * 1 + (i 1).val
    omega)]
  rw [kRowMax_apply]; rfl

/-- The row sum as a column. -/
theorem kRowSum_col (A : Mat n (2047 + 1)) (h : (⟨2, ![n, 2047 + 1]⟩ : Shape).Reduces [1] ⟨1, ![n]⟩)
    (hφ : FKind.Formats .f32) (hacc : (0x00000000#32 : BitVec 32) = FKind.add.neutral .f32 hφ)
    (hsc : (⟨1, ![n]⟩ : Shape).ShapeCasts ⟨2, ![n, 1]⟩) :
    shapeCast ⟨2, ![n, 1]⟩
        (multiReduction (F := Ideal) .add [1] ⟨1, ![n]⟩ (ofM A : FVec Ideal ⟨2, ![n, 2047 + 1]⟩ .f32) 0x00000000#32 h hφ hacc) hsc
      = ofM (Matrix.of fun i _ => ∑ k, A i k : Mat n 1) := by
  funext i
  rw [shapeCast_apply _ hsc i (ix1 (i 0)) (by
    rw [Shape.rowMajor_val_one, Shape.rowMajor_val_two]
    have h1 : (i 1).val < 1 := (i 1).isLt
    show (i 0).val = (i 0).val * 1 + (i 1).val
    omega)]
  rw [kRowSum_apply]; rfl

/-- A column repeated along the row. -/
private theorem broadcastTo_col (B : Mat n 1) (hb : (⟨2, ![n, 1]⟩ : Shape).Broadcasts ⟨2, ![n, 2047 + 1]⟩) :
    broadcastTo ⟨2, ![n, 2047 + 1]⟩ (ofM B) hb = ofM (Matrix.of fun i _ => B i 0 : Mat n (2047 + 1)) := by
  funext j
  have hj : (j 0).val < n := (j 0).isLt
  rw [broadcastTo_apply (ofM B) hb j (ix2 (j 0) 0) (by
    intro a
    match a with
    | ⟨0, _⟩ =>
      show (j 0).val = if n = 1 then 0 else (j 0).val
      split
      · omega
      · rfl
    | ⟨1, _⟩ => show (0 : ℕ) = if (1 : ℕ) = 1 then 0 else _; rw [if_pos rfl]
    | ⟨_ + 2, h⟩ => exact absurd h (Nat.not_lt.2 (Nat.le_add_left _ _)))]
  rfl

/-- The row maximum repeated back along the row. -/
theorem kRowMax_bcast (A : Mat n (2047 + 1)) (h : (⟨2, ![n, 2047 + 1]⟩ : Shape).Reduces [1] ⟨1, ![n]⟩)
    (hφ : FKind.Formats .f32) (hacc : (0xFF800000#32 : BitVec 32) = FKind.maximumf.neutral .f32 hφ)
    (hsc : (⟨1, ![n]⟩ : Shape).ShapeCasts ⟨2, ![n, 1]⟩) (hb : (⟨2, ![n, 1]⟩ : Shape).Broadcasts ⟨2, ![n, 2047 + 1]⟩) :
    broadcastTo ⟨2, ![n, 2047 + 1]⟩ (shapeCast ⟨2, ![n, 1]⟩
        (multiReduction (F := Ideal) .maximumf [1] ⟨1, ![n]⟩ (ofM A : FVec Ideal ⟨2, ![n, 2047 + 1]⟩ .f32) 0xFF800000#32 h hφ hacc) hsc) hb
      = ofM (Matrix.of fun i _ => rowMax A i : Mat n (2047 + 1)) := by rw [kRowMax_col]; exact broadcastTo_col _ hb

/-- The row sum repeated back along the row. -/
theorem kRowSum_bcast (A : Mat n (2047 + 1)) (h : (⟨2, ![n, 2047 + 1]⟩ : Shape).Reduces [1] ⟨1, ![n]⟩)
    (hφ : FKind.Formats .f32) (hacc : (0x00000000#32 : BitVec 32) = FKind.add.neutral .f32 hφ)
    (hsc : (⟨1, ![n]⟩ : Shape).ShapeCasts ⟨2, ![n, 1]⟩) (hb : (⟨2, ![n, 1]⟩ : Shape).Broadcasts ⟨2, ![n, 2047 + 1]⟩) :
    broadcastTo ⟨2, ![n, 2047 + 1]⟩ (shapeCast ⟨2, ![n, 1]⟩
        (multiReduction (F := Ideal) .add [1] ⟨1, ![n]⟩ (ofM A : FVec Ideal ⟨2, ![n, 2047 + 1]⟩ .f32) 0x00000000#32 h hφ hacc) hsc) hb
      = ofM (Matrix.of fun i _ => ∑ k, A i k : Mat n (2047 + 1)) := by rw [kRowSum_col]; exact broadcastTo_col _ hb

/-- The row softmax, kernel arrangement: `e^(x − max) · (1 / Σ e^(x − max))`. -/
theorem kSoftmax (A : Mat n (2047 + 1)) (h : (⟨2, ![n, 2047 + 1]⟩ : Shape).Reduces [1] ⟨1, ![n]⟩)
    (hφ : FKind.Formats .f32) (hmax : (0xFF800000#32 : BitVec 32) = FKind.maximumf.neutral .f32 hφ)
    (hadd : (0x00000000#32 : BitVec 32) = FKind.add.neutral .f32 hφ)
    (hsc : (⟨1, ![n]⟩ : Shape).ShapeCasts ⟨2, ![n, 1]⟩) (hb : (⟨2, ![n, 1]⟩ : Shape).Broadcasts ⟨2, ![n, 2047 + 1]⟩) :
    mulf
      (exp (subf (ofM A : FVec Ideal ⟨2, ![n, 2047 + 1]⟩ .f32)
        (broadcastTo ⟨2, ![n, 2047 + 1]⟩ (shapeCast ⟨2, ![n, 1]⟩
          (multiReduction (F := Ideal) .maximumf [1] ⟨1, ![n]⟩ (ofM A : FVec Ideal ⟨2, ![n, 2047 + 1]⟩ .f32) 0xFF800000#32 h hφ hmax) hsc) hb)))
      (broadcastTo ⟨2, ![n, 2047 + 1]⟩
        (divf (broadcast ⟨2, ![n, 1]⟩ (Scalar.ofBits (F := Ideal) .f32 0x3F800000#32))
          (shapeCast ⟨2, ![n, 1]⟩
            (multiReduction (F := Ideal) .add [1] ⟨1, ![n]⟩
              (exp (subf (ofM A : FVec Ideal ⟨2, ![n, 2047 + 1]⟩ .f32)
                (broadcastTo ⟨2, ![n, 2047 + 1]⟩ (shapeCast ⟨2, ![n, 1]⟩
                  (multiReduction (F := Ideal) .maximumf [1] ⟨1, ![n]⟩ (ofM A : FVec Ideal ⟨2, ![n, 2047 + 1]⟩ .f32) 0xFF800000#32 h hφ hmax) hsc) hb)))
              0x00000000#32 h hφ hadd) hsc)) hb)
      = ofM (smaxK A) := by
  rw [kRowMax_bcast]
  have hE : exp (F := Ideal) (φ := .f32) (subf (F := Ideal) (φ := .f32) (ofM A) (ofM (Matrix.of fun i _ => rowMax A i : Mat n (2047 + 1))))
      = ofM (Matrix.of fun i k => Real.exp (A i k - rowMax A i) : Mat n (2047 + 1)) := by
    funext i
    show Ideal.exp (((A (i 0) (i 1) : ℝ) : EReal) - ((rowMax A (i 0) : ℝ) : EReal)) = _
    rw [← EReal.coe_sub, Ideal.exp_coe]; rfl
  rw [hE, kRowSum_col]
  have hD : ∀ S : Mat n 1, (∀ i, S i 0 ≠ 0) →
      divf (F := Ideal) (φ := .f32) (broadcast ⟨2, ![n, 1]⟩ (Scalar.ofBits (F := Ideal) .f32 0x3F800000#32)) (ofM S)
        = ofM (Matrix.of fun i _ => 1 / S i 0 : Mat n 1) := by
    intro S hS
    funext i
    have h1 : (i 1).val < 1 := (i 1).isLt
    have e1 : i 1 = (0 : Fin 1) := Fin.ext (by show (i 1).val = 0; omega)
    show Ideal.div (Ideal.ofBits .f32 0x3F800000#32) ((S (i 0) (i 1) : ℝ) : EReal) = ((1 / S (i 0) 0 : ℝ) : EReal)
    rw [e1, Ideal.div_coe (hS (i 0)), ofBits_f32_one, ← EReal.coe_mul, one_mul]
  rw [hD _ (fun i => (sumExp_pos A i).ne')]
  rw [show broadcastTo ⟨2, ![n, 2047 + 1]⟩ (ofM (Matrix.of fun i _ => 1 / (Matrix.of fun i _ => ∑ k, (Matrix.of fun i k => Real.exp (A i k - rowMax A i) : Mat n (2047 + 1)) i k : Mat n 1) i 0 : Mat n 1)) hb
      = ofM (Matrix.of fun i _ => 1 / ∑ k, Real.exp (A i k - rowMax A i) : Mat n (2047 + 1)) from broadcastTo_col _ hb]
  funext i
  show ((Real.exp (A (i 0) (i 1) - rowMax A (i 0)) : ℝ) : EReal) * ((1 / ∑ k, Real.exp (A (i 0) k - rowMax A (i 0)) : ℝ) : EReal) = _
  rw [← EReal.coe_mul]; rfl

/-! ## The host's reduce over the second axis (reference side) -/

/-- A vector made a column and repeated along the row, read at an entry: the vector at that row. -/
theorem broadcastInDim_col_row (v : (⟨1, ![n]⟩ : Shape).Idx → EReal)
    (hb1 : (⟨1, ![n]⟩ : Shape).BroadcastsInDim ⟨2, ![n, 1]⟩ (![0] : Fin 1 → Fin (⟨2, ![n, 1]⟩ : Shape).rank))
    (hb2 : (⟨2, ![n, 1]⟩ : Shape).BroadcastsInDim ⟨2, ![n, 2047 + 1]⟩ (![0, 1] : Fin 2 → Fin (⟨2, ![n, 2047 + 1]⟩ : Shape).rank))
    (i : (⟨2, ![n, 2047 + 1]⟩ : Shape).Idx) :
    broadcastInDim ⟨2, ![n, 2047 + 1]⟩ ![0, 1] hb2 (broadcastInDim ⟨2, ![n, 1]⟩ ![0] hb1 v) i = v (ix1 (i 0)) := by
  have hi : (i 0).val < n := (i 0).isLt
  rw [broadcastInDim_apply _ hb2 _ i (ix2 (i 0) 0) (by
    intro a
    match a with
    | ⟨0, _⟩ =>
      show (i 0).val = if n = 1 then 0 else (i 0).val
      split
      · omega
      · rfl
    | ⟨1, _⟩ => show (0 : ℕ) = if (1 : ℕ) = 1 then 0 else _; rw [if_pos rfl]
    | ⟨_ + 2, h⟩ => exact absurd h (Nat.not_lt.2 (Nat.le_add_left _ _)))]
  rw [broadcastInDim_apply _ hb1 _ (ix2 (i 0) 0) (ix1 (i 0)) (by
    intro a
    match a with
    | ⟨0, _⟩ =>
      show (i 0).val = if n = 1 then 0 else (i 0).val
      split
      · omega
      · rfl
    | ⟨_ + 1, h⟩ => exact absurd h (Nat.not_lt.2 (Nat.le_add_left _ _)))]

/-- The row maximum, read at a row; the initial value is the splat of −∞. -/
theorem hRowMax_apply (A : Mat n (2047 + 1)) (h' : (⟨2, ![n, 2047 + 1]⟩ : Shape).ReducesTo [1] ⟨1, ![n]⟩)
    (hu : 0 < (⟨0, ![]⟩ : Shape).numel) (j : (⟨1, ![n]⟩ : Shape).Idx) :
    Host.reduce FloatOps.maximumf (ofM A : FVec Ideal ⟨2, ![n, 2047 + 1]⟩ .f32)
        (constant ⟨0, ![]⟩ .f32 0xFF800000#32 : FVec Ideal ⟨0, ![]⟩ .f32) h' hu j
      = ((rowMax A (j 0) : ℝ) : EReal) := by
  have h : (⟨2, ![n, 2047 + 1]⟩ : Shape).Reduces [1] ⟨1, ![n]⟩ := ⟨h'.1, Nat.one_pos, h'.2⟩
  rw [Host.reduce_eq_fold_single FloatOps.maximumf _ _ h' h hu j]
  show Finset.fold max (Ideal.ofBits .f32 0xFF800000#32) _ _ = _
  rw [ofBits_f32_negInf]
  exact fold_max_coe A (j 0)

/-- The row sum, read at a row; the initial value is the splat of zero. -/
theorem hRowSum_apply (A : Mat n (2047 + 1)) (h' : (⟨2, ![n, 2047 + 1]⟩ : Shape).ReducesTo [1] ⟨1, ![n]⟩)
    (hu : 0 < (⟨0, ![]⟩ : Shape).numel) (j : (⟨1, ![n]⟩ : Shape).Idx) :
    Host.reduceAdd (F := Ideal) (ofM A : FVec Ideal ⟨2, ![n, 2047 + 1]⟩ .f32)
        (constant ⟨0, ![]⟩ .f32 0x00000000#32 : FVec Ideal ⟨0, ![]⟩ .f32) h' hu j
      = ((∑ k, A (j 0) k : ℝ) : EReal) := by
  have h : (⟨2, ![n, 2047 + 1]⟩ : Shape).Reduces [1] ⟨1, ![n]⟩ := ⟨h'.1, Nat.one_pos, h'.2⟩
  show Ideal.hostReduceAdd h' (ofM A) (Ideal.ofBits .f32 0x00000000#32) j = _
  rw [Ideal.hostReduceAdd_single h' h, Ideal.ofBits_zero_f32, zero_add]
  exact sum_coe (fun k => A (j 0) k)

/-- The row maximum, joined once more with the splat of −∞, as a column and repeated back along the row. -/
theorem hRowMax_bcast (A : Mat n (2047 + 1)) (h' : (⟨2, ![n, 2047 + 1]⟩ : Shape).ReducesTo [1] ⟨1, ![n]⟩)
    (hu : 0 < (⟨0, ![]⟩ : Shape).numel)
    (hb0 : (⟨0, ![]⟩ : Shape).BroadcastsInDim ⟨1, ![n]⟩ (![] : Fin 0 → Fin (⟨1, ![n]⟩ : Shape).rank))
    (hb1 : (⟨1, ![n]⟩ : Shape).BroadcastsInDim ⟨2, ![n, 1]⟩ (![0] : Fin 1 → Fin (⟨2, ![n, 1]⟩ : Shape).rank))
    (hb2 : (⟨2, ![n, 1]⟩ : Shape).BroadcastsInDim ⟨2, ![n, 2047 + 1]⟩ (![0, 1] : Fin 2 → Fin (⟨2, ![n, 2047 + 1]⟩ : Shape).rank)) :
    broadcastInDim ⟨2, ![n, 2047 + 1]⟩ ![0, 1] hb2 (broadcastInDim ⟨2, ![n, 1]⟩ ![0] hb1
        (maximumf (broadcastInDim ⟨1, ![n]⟩ ![] hb0 (constant ⟨0, ![]⟩ .f32 0xFF800000#32 : FVec Ideal ⟨0, ![]⟩ .f32))
          (Host.reduce FloatOps.maximumf (ofM A : FVec Ideal ⟨2, ![n, 2047 + 1]⟩ .f32)
            (constant ⟨0, ![]⟩ .f32 0xFF800000#32 : FVec Ideal ⟨0, ![]⟩ .f32) h' hu)))
      = ofM (Matrix.of fun i _ => rowMax A i : Mat n (2047 + 1)) := by
  funext i
  rw [broadcastInDim_col_row]
  show max (Ideal.ofBits .f32 0xFF800000#32) (Host.reduce FloatOps.maximumf (ofM A : FVec Ideal ⟨2, ![n, 2047 + 1]⟩ .f32)
      (constant ⟨0, ![]⟩ .f32 0xFF800000#32 : FVec Ideal ⟨0, ![]⟩ .f32) h' hu (ix1 (i 0))) = _
  rw [hRowMax_apply, ofBits_f32_negInf, max_bot_left]; rfl

/-- The row sum as a column and repeated back along the row. -/
theorem hRowSum_bcast (A : Mat n (2047 + 1)) (h' : (⟨2, ![n, 2047 + 1]⟩ : Shape).ReducesTo [1] ⟨1, ![n]⟩)
    (hu : 0 < (⟨0, ![]⟩ : Shape).numel)
    (hb1 : (⟨1, ![n]⟩ : Shape).BroadcastsInDim ⟨2, ![n, 1]⟩ (![0] : Fin 1 → Fin (⟨2, ![n, 1]⟩ : Shape).rank))
    (hb2 : (⟨2, ![n, 1]⟩ : Shape).BroadcastsInDim ⟨2, ![n, 2047 + 1]⟩ (![0, 1] : Fin 2 → Fin (⟨2, ![n, 2047 + 1]⟩ : Shape).rank)) :
    broadcastInDim ⟨2, ![n, 2047 + 1]⟩ ![0, 1] hb2 (broadcastInDim ⟨2, ![n, 1]⟩ ![0] hb1
        (Host.reduceAdd (F := Ideal) (ofM A : FVec Ideal ⟨2, ![n, 2047 + 1]⟩ .f32)
          (constant ⟨0, ![]⟩ .f32 0x00000000#32 : FVec Ideal ⟨0, ![]⟩ .f32) h' hu))
      = ofM (Matrix.of fun i _ => ∑ k, A i k : Mat n (2047 + 1)) := by
  funext i
  rw [broadcastInDim_col_row, hRowSum_apply]; rfl

/-- The row softmax, reference arrangement: `e^(x − max) / Σ e^(x − max)`. -/
theorem hSoftmax (A : Mat n (2047 + 1)) (h' : (⟨2, ![n, 2047 + 1]⟩ : Shape).ReducesTo [1] ⟨1, ![n]⟩)
    (hu : 0 < (⟨0, ![]⟩ : Shape).numel)
    (hb0 : (⟨0, ![]⟩ : Shape).BroadcastsInDim ⟨1, ![n]⟩ (![] : Fin 0 → Fin (⟨1, ![n]⟩ : Shape).rank))
    (hb1 : (⟨1, ![n]⟩ : Shape).BroadcastsInDim ⟨2, ![n, 1]⟩ (![0] : Fin 1 → Fin (⟨2, ![n, 1]⟩ : Shape).rank))
    (hb2 : (⟨2, ![n, 1]⟩ : Shape).BroadcastsInDim ⟨2, ![n, 2047 + 1]⟩ (![0, 1] : Fin 2 → Fin (⟨2, ![n, 2047 + 1]⟩ : Shape).rank)) :
    Host.divf
      (Host.exp (subf (ofM A : FVec Ideal ⟨2, ![n, 2047 + 1]⟩ .f32)
        (broadcastInDim ⟨2, ![n, 2047 + 1]⟩ ![0, 1] hb2 (broadcastInDim ⟨2, ![n, 1]⟩ ![0] hb1
          (maximumf (broadcastInDim ⟨1, ![n]⟩ ![] hb0 (constant ⟨0, ![]⟩ .f32 0xFF800000#32 : FVec Ideal ⟨0, ![]⟩ .f32))
            (Host.reduce FloatOps.maximumf (ofM A : FVec Ideal ⟨2, ![n, 2047 + 1]⟩ .f32)
              (constant ⟨0, ![]⟩ .f32 0xFF800000#32 : FVec Ideal ⟨0, ![]⟩ .f32) h' hu))))))
      (broadcastInDim ⟨2, ![n, 2047 + 1]⟩ ![0, 1] hb2 (broadcastInDim ⟨2, ![n, 1]⟩ ![0] hb1
        (Host.reduceAdd (F := Ideal)
          (Host.exp (subf (ofM A : FVec Ideal ⟨2, ![n, 2047 + 1]⟩ .f32)
            (broadcastInDim ⟨2, ![n, 2047 + 1]⟩ ![0, 1] hb2 (broadcastInDim ⟨2, ![n, 1]⟩ ![0] hb1
              (maximumf (broadcastInDim ⟨1, ![n]⟩ ![] hb0 (constant ⟨0, ![]⟩ .f32 0xFF800000#32 : FVec Ideal ⟨0, ![]⟩ .f32))
                (Host.reduce FloatOps.maximumf (ofM A : FVec Ideal ⟨2, ![n, 2047 + 1]⟩ .f32)
                  (constant ⟨0, ![]⟩ .f32 0xFF800000#32 : FVec Ideal ⟨0, ![]⟩ .f32) h' hu))))))
          (constant ⟨0, ![]⟩ .f32 0x00000000#32 : FVec Ideal ⟨0, ![]⟩ .f32) h' hu)))
      = ofM (smaxR A) := by
  rw [hRowMax_bcast]
  have hE : Host.exp (F := Ideal) (φ := .f32) (subf (F := Ideal) (φ := .f32) (ofM A) (ofM (Matrix.of fun i _ => rowMax A i : Mat n (2047 + 1))))
      = ofM (Matrix.of fun i k => Real.exp (A i k - rowMax A i) : Mat n (2047 + 1)) := by
    funext i
    show Ideal.exp (((A (i 0) (i 1) : ℝ) : EReal) - ((rowMax A (i 0) : ℝ) : EReal)) = _
    rw [← EReal.coe_sub, Ideal.exp_coe]; rfl
  rw [hE, hRowSum_bcast]
  funext i
  show Ideal.div ((Real.exp (A (i 0) (i 1) - rowMax A (i 0)) : ℝ) : EReal) (((∑ k, Real.exp (A (i 0) k - rowMax A (i 0)) : ℝ)) : EReal) = _
  rw [Ideal.div_coe (sumExp_pos A (i 0)).ne', ← EReal.coe_mul, mul_one_div]; rfl

end Cert.LibCoe

end
-- ==== Proof.LibCoe.DotR.lean ====
/-
  The reference's matrix products at real arrays. Each of the reference's ten host contractions multiplies an
  a×k array by a k×b array over the one shared axis. When both operands are arrays of reals, read as extended
  reals, the result is the array of the reals `∑ c, A i c * B c j`: a product of two reals is a real and a finite
  sum of reals is a real, so the sum taken in the extended reals is the real sum read there.

  The argument is made once, for the plain a×k by k×b contraction; each of the ten dimension records of the
  reference is that contraction at its own sizes.
-/
import proofs.«104406_j63058709840319_2_alg».proof.ReferenceIdeal
import proofs.«104406_j63058709840319_2_alg».proof.Proof.Spec
import proofs.«104406_j63058709840319_2_alg».proof.Proof.LibCoe.Basic
import Idealize.ShloMosaic.Lib.ValueIdx
import Idealize.ShloMosaic.Lib.StackMember

noncomputable section

open scoped BigOperators

namespace Cert.LibCoe

open Idealize.ShloMosaic Idealize.ShloMosaic.ValueIdx Cert.ReferenceIdeal Cert.Spec

/-- A finite sum of reals, read in the extended reals, is the sum of its terms read there. -/
private theorem coe_finset_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The plain a×k by k×b contraction of two real arrays is the real matrix product: at the entry (p, q) it is the
    sum over the shared coordinate `c` of the products `A p c * B c q`, each a real, and so is their sum. -/
theorem dotGeneral_plain_ofM {a k b : ℕ} (A : Mat a k) (B : Mat k b) :
    Host.dotGeneral (F := Ideal) (φ₁ := .f32) (φ₂ := .f32) (DotDims.plain a k b) none (ofM A) (ofM B)
      = ofM (Cert.Spec.mm A B) := by
  funext i
  obtain ⟨p, q, rfl⟩ : ∃ (p : Fin a) (q : Fin b), i = ix2 p q := ⟨i 0, i 1, eq_ix2 i⟩
  rw [StackMember.dotGeneral_plain_apply]
  show ∑ c : Fin k, ((A p c : ℝ) : EReal) * ((B c q : ℝ) : EReal) = ((∑ c, A p c * B c q : ℝ) : EReal)
  rw [coe_finset_sum]
  exact Finset.sum_congr rfl fun c _ => (EReal.coe_mul _ _).symm

variable [Cert.ReferenceIdeal.Facts₀]

/-! Each record below lists the same axes as the plain contraction (left contracted on its second axis, right on its
    first, no batch axis), over the same shapes: it is the plain contraction at its sizes. -/

/-- The 2048×20000 by 20000×256 product. -/
theorem dotGeneral_S2048x20000_S20000x256 (A : Mat 2048 20000) (B : Mat 20000 256) :
    Host.dotGeneral (F := Ideal) (φ₁ := .f32) (φ₂ := .f32) dot_S2048x20000_S20000x256_S2048x256_1_0_0_1_n_n none
      (ofM A) (ofM B) = ofM (Cert.Spec.mm A B) :=
  dotGeneral_plain_ofM A B

/-- The 2048×256 by 256×256 product. -/
theorem dotGeneral_S2048x256_S256x256 (A : Mat 2048 256) (B : Mat 256 256) :
    Host.dotGeneral (F := Ideal) (φ₁ := .f32) (φ₂ := .f32) dot_S2048x256_S256x256_S2048x256_1_0_0_1_n_n none
      (ofM A) (ofM B) = ofM (Cert.Spec.mm A B) :=
  dotGeneral_plain_ofM A B

/-- The 1×256 by 256×2048 product. -/
theorem dotGeneral_S1x256_S256x2048 (A : Mat 1 256) (B : Mat 256 2048) :
    Host.dotGeneral (F := Ideal) (φ₁ := .f32) (φ₂ := .f32) dot_S1x256_S256x2048_S1x2048_1_0_0_1_n_n none
      (ofM A) (ofM B) = ofM (Cert.Spec.mm A B) :=
  dotGeneral_plain_ofM A B

/-- The 1×2048 by 2048×256 product. -/
theorem dotGeneral_S1x2048_S2048x256 (A : Mat 1 2048) (B : Mat 2048 256) :
    Host.dotGeneral (F := Ideal) (φ₁ := .f32) (φ₂ := .f32) dot_S1x2048_S2048x256_S1x256_1_0_0_1_n_n none
      (ofM A) (ofM B) = ofM (Cert.Spec.mm A B) :=
  dotGeneral_plain_ofM A B

/-- The 2048×256 by 256×2048 product. -/
theorem dotGeneral_S2048x256_S256x2048 (A : Mat 2048 256) (B : Mat 256 2048) :
    Host.dotGeneral (F := Ideal) (φ₁ := .f32) (φ₂ := .f32) dot_S2048x256_S256x2048_S2048x2048_1_0_0_1_n_n none
      (ofM A) (ofM B) = ofM (Cert.Spec.mm A B) :=
  dotGeneral_plain_ofM A B

/-- The 2048×2048 by 2048×2048 product. -/
theorem dotGeneral_S2048x2048_S2048x2048 (A : Mat 2048 2048) (B : Mat 2048 2048) :
    Host.dotGeneral (F := Ideal) (φ₁ := .f32) (φ₂ := .f32) dot_S2048x2048_S2048x2048_S2048x2048_1_0_0_1_n_n none
      (ofM A) (ofM B) = ofM (Cert.Spec.mm A B) :=
  dotGeneral_plain_ofM A B

/-- The 2048×2048 by 2048×256 product. -/
theorem dotGeneral_S2048x2048_S2048x256 (A : Mat 2048 2048) (B : Mat 2048 256) :
    Host.dotGeneral (F := Ideal) (φ₁ := .f32) (φ₂ := .f32) dot_S2048x2048_S2048x256_S2048x256_1_0_0_1_n_n none
      (ofM A) (ofM B) = ofM (Cert.Spec.mm A B) :=
  dotGeneral_plain_ofM A B

/-- The 1×20000 by 20000×256 product. -/
theorem dotGeneral_S1x20000_S20000x256 (A : Mat 1 20000) (B : Mat 20000 256) :
    Host.dotGeneral (F := Ideal) (φ₁ := .f32) (φ₂ := .f32) dot_S1x20000_S20000x256_S1x256_1_0_0_1_n_n none
      (ofM A) (ofM B) = ofM (Cert.Spec.mm A B) :=
  dotGeneral_plain_ofM A B

/-- The 2048×768 by 768×1 product. -/
theorem dotGeneral_S2048x768_S768x1 (A : Mat 2048 768) (B : Mat 768 1) :
    Host.dotGeneral (F := Ideal) (φ₁ := .f32) (φ₂ := .f32) dot_S2048x768_S768x1_S2048x1_1_0_0_1_n_n none
      (ofM A) (ofM B) = ofM (Cert.Spec.mm A B) :=
  dotGeneral_plain_ofM A B

/-- The 2048×256 by 256×1 product. -/
theorem dotGeneral_S2048x256_S256x1 (A : Mat 2048 256) (B : Mat 256 1) :
    Host.dotGeneral (F := Ideal) (φ₁ := .f32) (φ₂ := .f32) dot_S2048x256_S256x1_S2048x1_1_0_0_1_n_n none
      (ofM A) (ofM B) = ofM (Cert.Spec.mm A B) :=
  dotGeneral_plain_ofM A B

end Cert.LibCoe
-- ==== Proof.Ref.StretchA.lean ====
/-
  The reference's first stretch at real arrays. From the arrays of the real matrices `S`, `M`, `P`, `qS`, `Wk`, `Wv`
  the stretch leaves: the lower-triangular matrix of ones; `E = S·M`; the global attention row
  `y = softmax(qS·(E·Wk)ᵀ)·(E·Wv)` repeated down the rows; and `X0 = E + P`. Every operation maps arrays of reals
  to arrays of reals (a product of real matrices, a transpose, the row softmax of a real row, a broadcast, a sum).
-/
import proofs.«104406_j63058709840319_2_alg».proof.Proof.Ref.Stretches
import proofs.«104406_j63058709840319_2_alg».proof.Proof.LibCoe.Basic
import proofs.«104406_j63058709840319_2_alg».proof.Proof.LibCoe.Reduce
import proofs.«104406_j63058709840319_2_alg».proof.Proof.LibCoe.DotR

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Spec Cert.LibCoe

/-- The first stretch: the mask, `E = S·M`, the attention row down the rows, and `X0 = E + P`. -/
theorem sA_val (V : Valuation τ sig (Elt Ideal)) (S : Mat L I) (M : Mat I D) (P : Mat L D) (qS : Mat 1 D) (Wk Wv : Mat D D)
    (hS : V (Proc.devRef .tc main_arg0) = ofM S) (hM : V (Proc.devRef .tc main_arg2) = ofM M)
    (hP : V (Proc.devRef .tc main_arg3) = ofM P) (hq : V (Proc.devRef .tc main_arg4) = ofM qS)
    (hWk : V (Proc.devRef .tc main_arg10) = ofM Wk) (hWv : V (Proc.devRef .tc main_arg11) = ofM Wv) :
    StableHlo.after sA V (Proc.devRef .tc main_v1) = ofM (tril L)
    ∧ StableHlo.after sA V (Proc.devRef .tc main_v2) = ofM (mm S M)
    ∧ StableHlo.after sA V (Proc.devRef .tc main_v19) = ofM (rowB (yR (mm S M) Wk Wv qS) : Mat L D)
    ∧ StableHlo.after sA V (Proc.devRef .tc main_v20) = ofM (fun i j => mm S M i j + P i j : Mat L D) := by
  refine ⟨?_, ?_, ?_, ?_⟩
  · after_results_simp
    simp only [TRef.toBuf, TRef.ofBuf, cast_eq]
    rw [broadcastInDim_one_ofM, broadcastInDim_zero_ofM]
    exact tril_ofM (by norm_num) _
  · after_results_simp
    rw [hS, hM]
    exact dotGeneral_S2048x20000_S20000x256 S M
  · after_results_simp
    rw [hS, hM, hq, hWk, hWv]
    rw [dotGeneral_S2048x20000_S20000x256]
    rw [dotGeneral_S2048x256_S256x256 (mm S M) Wk, dotGeneral_S2048x256_S256x256 (mm S M) Wv]
    rw [transpose_ofM, dotGeneral_S1x256_S256x2048]
    rw [hSoftmax (n := 1) (mm qS (tr (mm (mm S M) Wk)))]
    rw [dotGeneral_S1x2048_S2048x256, broadcastInDim_row_ofM]
    rfl
  · after_results_simp
    rw [hS, hM, hP, dotGeneral_S2048x20000_S20000x256, addf_ofM]
    rfl

end Cert.ReferenceIdeal.RefValue

end
-- ==== Proof.Ref.Round.lean ====
/-
  One round of the reference as a function of the arrays it reads, and its value at real arrays. The round's
  operations, composed: the scores `(x·q)·(x·k)ᵀ` times the word of one sixteenth; their row softmax, written as the
  reference writes it (the row maximum taken from −∞, joined once more with −∞, repeated along the row and
  subtracted; the exponential; its row sum from zero, repeated along the row; the quotient); the products with the
  mask `δ`, with `x·v` and with `w1`; the bias row `b1` repeated down the rows and added; the maximum with the splat of
  zero; the product with `w2`; the bias row `b2` repeated down the rows and added. At arrays of reals every step is
  the real operation, so the round is the real matrix `Cert.Spec.blockR`.
-/
import proofs.«104406_j63058709840319_2_alg».proof.Proof.Gen.ReferenceIdeal
import proofs.«104406_j63058709840319_2_alg».proof.Proof.LibCoe.Basic
import proofs.«104406_j63058709840319_2_alg».proof.Proof.LibCoe.Reduce
import proofs.«104406_j63058709840319_2_alg».proof.Proof.LibCoe.DotR

noncomputable section

namespace Cert.ReferenceIdeal.RefValue

open Cert.ReferenceIdeal Cert.ReferenceIdeal.Gen Idealize.ShloMosaic
open Cert.LibCoe

/-- The scores: `(x·q)·(x·k)ᵀ`, every entry times the word of one sixteenth. -/
def scoresF (x : FVec Ideal S2048x256 .f32) (q k : FVec Ideal S256x256 .f32) : FVec Ideal S2048x2048 .f32 :=
  mulf
    (Host.dotGeneral dot_S2048x256_S256x2048_S2048x2048_1_0_0_1_n_n none
      (Host.dotGeneral dot_S2048x256_S256x256_S2048x256_1_0_0_1_n_n none x q)
      (transpose S256x2048 [1, 0] (Host.dotGeneral dot_S2048x256_S256x256_S2048x256_1_0_0_1_n_n none x k) transposes_S2048x256_S256x2048_1_0))
    (broadcastInDim S2048x2048 ![] bcast_S_S2048x2048 (constant S_ .f32 0x3D800000#32))

/-- The exponentials `e^(s − row maximum)`, the maximum taken from −∞ and joined once more with −∞. -/
def expF (s : FVec Ideal S2048x2048 .f32) : FVec Ideal S2048x2048 .f32 :=
  Host.exp (subf s
      (broadcastInDim S2048x2048 ![0, 1] bcast_S2048x1_S2048x2048_0_1 (broadcastInDim S2048x1 ![0] bcast_S2048_S2048x1_0
        (maximumf (broadcastInDim S2048 ![] bcast_S_S2048 (constant S_ .f32 0xFF800000#32))
          (Host.reduce FloatOps.maximumf s (constant S_ .f32 0xFF800000#32) reducesTo_S2048x2048_S2048_d1 h_S_)))))

/-- The row softmax as the reference writes it: the exponentials divided by their row sums. -/
def smaxF (s : FVec Ideal S2048x2048 .f32) : FVec Ideal S2048x2048 .f32 :=
  Host.divf (expF s)
    (broadcastInDim S2048x2048 ![0, 1] bcast_S2048x1_S2048x2048_0_1 (broadcastInDim S2048x1 ![0] bcast_S2048_S2048x1_0
      (Host.reduceAdd (expF s) (constant S_ .f32 0x00000000#32) reducesTo_S2048x2048_S2048_d1 h_S_)))

/-- One round: `relu(softmax(scores)·δ·(x·v)·w1 + b1)·w2 + b2`, in the reference's order of operations. -/
def roundF (x : FVec Ideal S2048x256 .f32) (q k v w1 w2 : FVec Ideal S256x256 .f32) (b1 b2 : FVec Ideal S1x256 .f32)
    (δ : FVec Ideal S2048x2048 .f32) : FVec Ideal S2048x256 .f32 :=
  addf
    (Host.dotGeneral dot_S2048x256_S256x256_S2048x256_1_0_0_1_n_n none
      (maximumf
        (addf
          (Host.dotGeneral dot_S2048x256_S256x256_S2048x256_1_0_0_1_n_n none
            (Host.dotGeneral dot_S2048x2048_S2048x256_S2048x256_1_0_0_1_n_n none
              (Host.dotGeneral dot_S2048x2048_S2048x2048_S2048x2048_1_0_0_1_n_n none (smaxF (scoresF x q k)) δ)
              (Host.dotGeneral dot_S2048x256_S256x256_S2048x256_1_0_0_1_n_n none x v))
            w1)
          (broadcastInDim S2048x256 ![0, 1] bcast_S1x256_S2048x256_0_1 b1))
        (broadcastInDim S2048x256 ![] bcast_S_S2048x256 (constant S_ .f32 0x00000000#32)))
      w2)
    (broadcastInDim S2048x256 ![0, 1] bcast_S1x256_S2048x256_0_1 b2)

/-- The scores of real arrays: `(X·Q)·(X·K)ᵀ` scaled by one sixteenth. -/
theorem scoresF_ofM (X : Cert.Spec.Mat Cert.Spec.L Cert.Spec.D) (Q K : Cert.Spec.Mat Cert.Spec.D Cert.Spec.D) :
    scoresF (ofM X) (ofM Q) (ofM K)
      = ofM (Cert.Spec.sc (Cert.Spec.mm (Cert.Spec.mm X Q) (Cert.Spec.tr (Cert.Spec.mm X K)))) := by
  unfold scoresF
  rw [dotGeneral_S2048x256_S256x256, dotGeneral_S2048x256_S256x256, transpose_ofM, dotGeneral_S2048x256_S256x2048,
    broadcastInDim_sixteenth_ofM, mulf_ofM]
  rfl

/-- The row softmax of a real array is the real row softmax: a row of 2048 entries is nonempty. -/
theorem smaxF_ofM (A : Cert.Spec.Mat Cert.Spec.L Cert.Spec.L) :
    smaxF (ofM A) = ofM (Cert.Spec.smaxR (b := 2047) A) := by
  unfold smaxF expF
  exact hSoftmax (n := Cert.Spec.L) A reducesTo_S2048x2048_S2048_d1 h_S_ bcast_S_S2048 bcast_S2048_S2048x1_0
    bcast_S2048x1_S2048x2048_0_1

/-- One round at real arrays is the real round. -/
theorem roundF_ofM (X : Cert.Spec.Mat Cert.Spec.L Cert.Spec.D) (Q K Vm W1 W2 : Cert.Spec.Mat Cert.Spec.D Cert.Spec.D)
    (b1 b2 : Cert.Spec.Mat 1 Cert.Spec.D) :
    roundF (ofM X) (ofM Q) (ofM K) (ofM Vm) (ofM W1) (ofM W2) (ofM b1) (ofM b2) (ofM (Cert.Spec.tril Cert.Spec.L))
      = ofM (Cert.Spec.blockR Q K Vm W1 W2 b1 b2 X) := by
  unfold roundF
  rw [scoresF_ofM, smaxF_ofM, dotGeneral_S2048x2048_S2048x2048, dotGeneral_S2048x256_S256x256 X Vm,
    dotGeneral_S2048x2048_S2048x256, dotGeneral_S2048x256_S256x256, broadcastInDim_row_ofM, addf_ofM, relu_ofM,
    dotGeneral_S2048x256_S256x256, broadcastInDim_row_ofM, addf_ofM]
  rfl

end Cert.ReferenceIdeal.RefValue

end
-- ==== Proof.Ref.StretchB1.lean ====
/-
  Round 1 of the reference at real arrays. The round's 33 operations read the round's input, the three
  projections, the two feed-forward matrices with their bias rows and the lower-triangular mask, and compose to the
  function `roundF` of those nine arrays; at arrays of reals `roundF` is the real round `Cert.Spec.blockR`
  (`roundF_ofM`), so the round's result buffer holds the array of `blockR Q K V W1 W2 b1 b2 X`.
-/
import proofs.«104406_j63058709840319_2_alg».proof.Proof.Ref.Stretches
import proofs.«104406_j63058709840319_2_alg».proof.Proof.Ref.Round

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.LibCoe

set_option maxRecDepth 8192 in
/-- Round 1's operations compose to `roundF` of the contents they read. -/
theorem sB1_term (V : Valuation τ sig (Elt Ideal)) :
    StableHlo.after sB1 V (Proc.devRef .tc main_v47)
      = roundF (V (Proc.devRef .tc main_v20)) (V (Proc.devRef .tc main_arg7)) (V (Proc.devRef .tc main_arg8))
          (V (Proc.devRef .tc main_arg9)) (V (Proc.devRef .tc main_arg12)) (V (Proc.devRef .tc main_arg13))
          (V (Proc.devRef .tc main_arg14)) (V (Proc.devRef .tc main_arg15)) (V (Proc.devRef .tc main_v1)) := by
  after_results_simp
  rfl

/-- Round 1: `main_v47` is the array of `blockR Q K V W1 W2 b1 b2 X`, `X` the real matrix in `main_v20`. -/
theorem sB1_val (V : Valuation τ sig (Elt Ideal)) (X : Cert.Spec.Mat Cert.Spec.L Cert.Spec.D)
    (Q K Vm W1 W2 : Cert.Spec.Mat Cert.Spec.D Cert.Spec.D) (b1 b2 : Cert.Spec.Mat 1 Cert.Spec.D)
    (hX : V (Proc.devRef .tc main_v20) = ofM X) (hQ : V (Proc.devRef .tc main_arg7) = ofM Q)
    (hK : V (Proc.devRef .tc main_arg8) = ofM K) (hV : V (Proc.devRef .tc main_arg9) = ofM Vm)
    (hW1 : V (Proc.devRef .tc main_arg12) = ofM W1) (hW2 : V (Proc.devRef .tc main_arg13) = ofM W2)
    (hb1 : V (Proc.devRef .tc main_arg14) = ofM b1) (hb2 : V (Proc.devRef .tc main_arg15) = ofM b2)
    (hΔ : V (Proc.devRef .tc main_v1) = ofM (Cert.Spec.tril Cert.Spec.L)) :
    StableHlo.after sB1 V (Proc.devRef .tc main_v47) = ofM (Cert.Spec.blockR Q K Vm W1 W2 b1 b2 X) := by
  rw [sB1_term, hX, hQ, hK, hV, hW1, hW2, hb1, hb2, hΔ]
  exact roundF_ofM X Q K Vm W1 W2 b1 b2

end Cert.ReferenceIdeal.RefValue

end
-- ==== Proof.Ref.StretchB2.lean ====
/-
  Round 2 of the reference at real arrays. The round's 33 operations read the round's input, the three
  projections, the two feed-forward matrices with their bias rows and the lower-triangular mask, and compose to the
  function `roundF` of those nine arrays; at arrays of reals `roundF` is the real round `Cert.Spec.blockR`
  (`roundF_ofM`), so the round's result buffer holds the array of `blockR Q K V W1 W2 b1 b2 X`.
-/
import proofs.«104406_j63058709840319_2_alg».proof.Proof.Ref.Stretches
import proofs.«104406_j63058709840319_2_alg».proof.Proof.Ref.Round

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.LibCoe

set_option maxRecDepth 8192 in
/-- Round 2's operations compose to `roundF` of the contents they read. -/
theorem sB2_term (V : Valuation τ sig (Elt Ideal)) :
    StableHlo.after sB2 V (Proc.devRef .tc main_v74)
      = roundF (V (Proc.devRef .tc main_v47)) (V (Proc.devRef .tc main_arg7)) (V (Proc.devRef .tc main_arg8))
          (V (Proc.devRef .tc main_arg9)) (V (Proc.devRef .tc main_arg12)) (V (Proc.devRef .tc main_arg13))
          (V (Proc.devRef .tc main_arg14)) (V (Proc.devRef .tc main_arg15)) (V (Proc.devRef .tc main_v1)) := by
  after_results_simp
  rfl

/-- Round 2: `main_v74` is the array of `blockR Q K V W1 W2 b1 b2 X`, `X` the real matrix in `main_v47`. -/
theorem sB2_val (V : Valuation τ sig (Elt Ideal)) (X : Cert.Spec.Mat Cert.Spec.L Cert.Spec.D)
    (Q K Vm W1 W2 : Cert.Spec.Mat Cert.Spec.D Cert.Spec.D) (b1 b2 : Cert.Spec.Mat 1 Cert.Spec.D)
    (hX : V (Proc.devRef .tc main_v47) = ofM X) (hQ : V (Proc.devRef .tc main_arg7) = ofM Q)
    (hK : V (Proc.devRef .tc main_arg8) = ofM K) (hV : V (Proc.devRef .tc main_arg9) = ofM Vm)
    (hW1 : V (Proc.devRef .tc main_arg12) = ofM W1) (hW2 : V (Proc.devRef .tc main_arg13) = ofM W2)
    (hb1 : V (Proc.devRef .tc main_arg14) = ofM b1) (hb2 : V (Proc.devRef .tc main_arg15) = ofM b2)
    (hΔ : V (Proc.devRef .tc main_v1) = ofM (Cert.Spec.tril Cert.Spec.L)) :
    StableHlo.after sB2 V (Proc.devRef .tc main_v74) = ofM (Cert.Spec.blockR Q K Vm W1 W2 b1 b2 X) := by
  rw [sB2_term, hX, hQ, hK, hV, hW1, hW2, hb1, hb2, hΔ]
  exact roundF_ofM X Q K Vm W1 W2 b1 b2

end Cert.ReferenceIdeal.RefValue

end
-- ==== Proof.Ref.StretchB3.lean ====
/-
  Round 3 of the reference at real arrays. The round's 33 operations read the round's input, the three
  projections, the two feed-forward matrices with their bias rows and the lower-triangular mask, and compose to the
  function `roundF` of those nine arrays; at arrays of reals `roundF` is the real round `Cert.Spec.blockR`
  (`roundF_ofM`), so the round's result buffer holds the array of `blockR Q K V W1 W2 b1 b2 X`.
-/
import proofs.«104406_j63058709840319_2_alg».proof.Proof.Ref.Stretches
import proofs.«104406_j63058709840319_2_alg».proof.Proof.Ref.Round

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.LibCoe

set_option maxRecDepth 8192 in
/-- Round 3's operations compose to `roundF` of the contents they read. -/
theorem sB3_term (V : Valuation τ sig (Elt Ideal)) :
    StableHlo.after sB3 V (Proc.devRef .tc main_v101)
      = roundF (V (Proc.devRef .tc main_v74)) (V (Proc.devRef .tc main_arg7)) (V (Proc.devRef .tc main_arg8))
          (V (Proc.devRef .tc main_arg9)) (V (Proc.devRef .tc main_arg12)) (V (Proc.devRef .tc main_arg13))
          (V (Proc.devRef .tc main_arg14)) (V (Proc.devRef .tc main_arg15)) (V (Proc.devRef .tc main_v1)) := by
  after_results_simp
  rfl

/-- Round 3: `main_v101` is the array of `blockR Q K V W1 W2 b1 b2 X`, `X` the real matrix in `main_v74`. -/
theorem sB3_val (V : Valuation τ sig (Elt Ideal)) (X : Cert.Spec.Mat Cert.Spec.L Cert.Spec.D)
    (Q K Vm W1 W2 : Cert.Spec.Mat Cert.Spec.D Cert.Spec.D) (b1 b2 : Cert.Spec.Mat 1 Cert.Spec.D)
    (hX : V (Proc.devRef .tc main_v74) = ofM X) (hQ : V (Proc.devRef .tc main_arg7) = ofM Q)
    (hK : V (Proc.devRef .tc main_arg8) = ofM K) (hV : V (Proc.devRef .tc main_arg9) = ofM Vm)
    (hW1 : V (Proc.devRef .tc main_arg12) = ofM W1) (hW2 : V (Proc.devRef .tc main_arg13) = ofM W2)
    (hb1 : V (Proc.devRef .tc main_arg14) = ofM b1) (hb2 : V (Proc.devRef .tc main_arg15) = ofM b2)
    (hΔ : V (Proc.devRef .tc main_v1) = ofM (Cert.Spec.tril Cert.Spec.L)) :
    StableHlo.after sB3 V (Proc.devRef .tc main_v101) = ofM (Cert.Spec.blockR Q K Vm W1 W2 b1 b2 X) := by
  rw [sB3_term, hX, hQ, hK, hV, hW1, hW2, hb1, hb2, hΔ]
  exact roundF_ofM X Q K Vm W1 W2 b1 b2

end Cert.ReferenceIdeal.RefValue

end
-- ==== Proof.Ref.StretchB4.lean ====
/-
  Round 4 of the reference at real arrays. The round's 33 operations read the round's input, the three
  projections, the two feed-forward matrices with their bias rows and the lower-triangular mask, and compose to the
  function `roundF` of those nine arrays; at arrays of reals `roundF` is the real round `Cert.Spec.blockR`
  (`roundF_ofM`), so the round's result buffer holds the array of `blockR Q K V W1 W2 b1 b2 X`.
-/
import proofs.«104406_j63058709840319_2_alg».proof.Proof.Ref.Stretches
import proofs.«104406_j63058709840319_2_alg».proof.Proof.Ref.Round

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.LibCoe

set_option maxRecDepth 8192 in
/-- Round 4's operations compose to `roundF` of the contents they read. -/
theorem sB4_term (V : Valuation τ sig (Elt Ideal)) :
    StableHlo.after sB4 V (Proc.devRef .tc main_v128)
      = roundF (V (Proc.devRef .tc main_v101)) (V (Proc.devRef .tc main_arg7)) (V (Proc.devRef .tc main_arg8))
          (V (Proc.devRef .tc main_arg9)) (V (Proc.devRef .tc main_arg12)) (V (Proc.devRef .tc main_arg13))
          (V (Proc.devRef .tc main_arg14)) (V (Proc.devRef .tc main_arg15)) (V (Proc.devRef .tc main_v1)) := by
  after_results_simp
  rfl

/-- Round 4: `main_v128` is the array of `blockR Q K V W1 W2 b1 b2 X`, `X` the real matrix in `main_v101`. -/
theorem sB4_val (V : Valuation τ sig (Elt Ideal)) (X : Cert.Spec.Mat Cert.Spec.L Cert.Spec.D)
    (Q K Vm W1 W2 : Cert.Spec.Mat Cert.Spec.D Cert.Spec.D) (b1 b2 : Cert.Spec.Mat 1 Cert.Spec.D)
    (hX : V (Proc.devRef .tc main_v101) = ofM X) (hQ : V (Proc.devRef .tc main_arg7) = ofM Q)
    (hK : V (Proc.devRef .tc main_arg8) = ofM K) (hV : V (Proc.devRef .tc main_arg9) = ofM Vm)
    (hW1 : V (Proc.devRef .tc main_arg12) = ofM W1) (hW2 : V (Proc.devRef .tc main_arg13) = ofM W2)
    (hb1 : V (Proc.devRef .tc main_arg14) = ofM b1) (hb2 : V (Proc.devRef .tc main_arg15) = ofM b2)
    (hΔ : V (Proc.devRef .tc main_v1) = ofM (Cert.Spec.tril Cert.Spec.L)) :
    StableHlo.after sB4 V (Proc.devRef .tc main_v128) = ofM (Cert.Spec.blockR Q K Vm W1 W2 b1 b2 X) := by
  rw [sB4_term, hX, hQ, hK, hV, hW1, hW2, hb1, hb2, hΔ]
  exact roundF_ofM X Q K Vm W1 W2 b1 b2

end Cert.ReferenceIdeal.RefValue

end
-- ==== Proof.Ref.StretchB5.lean ====
/-
  Round 5 of the reference at real arrays. The round's 33 operations read the round's input, the three
  projections, the two feed-forward matrices with their bias rows and the lower-triangular mask, and compose to the
  function `roundF` of those nine arrays; at arrays of reals `roundF` is the real round `Cert.Spec.blockR`
  (`roundF_ofM`), so the round's result buffer holds the array of `blockR Q K V W1 W2 b1 b2 X`.
-/
import proofs.«104406_j63058709840319_2_alg».proof.Proof.Ref.Stretches
import proofs.«104406_j63058709840319_2_alg».proof.Proof.Ref.Round

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.LibCoe

set_option maxRecDepth 8192 in
/-- Round 5's operations compose to `roundF` of the contents they read. -/
theorem sB5_term (V : Valuation τ sig (Elt Ideal)) :
    StableHlo.after sB5 V (Proc.devRef .tc main_v155)
      = roundF (V (Proc.devRef .tc main_v128)) (V (Proc.devRef .tc main_arg7)) (V (Proc.devRef .tc main_arg8))
          (V (Proc.devRef .tc main_arg9)) (V (Proc.devRef .tc main_arg12)) (V (Proc.devRef .tc main_arg13))
          (V (Proc.devRef .tc main_arg14)) (V (Proc.devRef .tc main_arg15)) (V (Proc.devRef .tc main_v1)) := by
  after_results_simp
  rfl

/-- Round 5: `main_v155` is the array of `blockR Q K V W1 W2 b1 b2 X`, `X` the real matrix in `main_v128`. -/
theorem sB5_val (V : Valuation τ sig (Elt Ideal)) (X : Cert.Spec.Mat Cert.Spec.L Cert.Spec.D)
    (Q K Vm W1 W2 : Cert.Spec.Mat Cert.Spec.D Cert.Spec.D) (b1 b2 : Cert.Spec.Mat 1 Cert.Spec.D)
    (hX : V (Proc.devRef .tc main_v128) = ofM X) (hQ : V (Proc.devRef .tc main_arg7) = ofM Q)
    (hK : V (Proc.devRef .tc main_arg8) = ofM K) (hV : V (Proc.devRef .tc main_arg9) = ofM Vm)
    (hW1 : V (Proc.devRef .tc main_arg12) = ofM W1) (hW2 : V (Proc.devRef .tc main_arg13) = ofM W2)
    (hb1 : V (Proc.devRef .tc main_arg14) = ofM b1) (hb2 : V (Proc.devRef .tc main_arg15) = ofM b2)
    (hΔ : V (Proc.devRef .tc main_v1) = ofM (Cert.Spec.tril Cert.Spec.L)) :
    StableHlo.after sB5 V (Proc.devRef .tc main_v155) = ofM (Cert.Spec.blockR Q K Vm W1 W2 b1 b2 X) := by
  rw [sB5_term, hX, hQ, hK, hV, hW1, hW2, hb1, hb2, hΔ]
  exact roundF_ofM X Q K Vm W1 W2 b1 b2

end Cert.ReferenceIdeal.RefValue

end
-- ==== Proof.Ref.StretchC.lean ====
/-
  The reference's last stretch at real arrays. From the fifth round's result `X`, the embedding `E`, the global
  attention row `y` repeated down the rows, the candidate row, the table `M`, the gate's weights `Wg` and bias `bg`,
  all arrays of reals, the stretch computes `m = candidate·M`, repeats it down the rows, sets `[m | y | E]` side by
  side, multiplies by `Wg` and adds `bg`, takes the logistic function written out as `1 / (1 + e^(-x))`, mixes
  `X∘g + y∘(1 - g)` and multiplies by `mᵀ`: every step maps arrays of reals to arrays of reals, and the result is the
  array of the real matrix `Cert.Spec.outR`.
-/
import proofs.«104406_j63058709840319_2_alg».proof.Proof.Ref.Stretches
import proofs.«104406_j63058709840319_2_alg».proof.Proof.LibCoe.Basic
import proofs.«104406_j63058709840319_2_alg».proof.Proof.LibCoe.DotR

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Spec Cert.LibCoe

/-- The gate of the last stretch: the logistic function of `[m | y | E]·Wg + bg`, one value per row. -/
def sC_gateR (E : Mat L D) (y m : Mat 1 D) (Wg : Mat (3 * D) 1) (bg : Mat 1 1) : Mat L 1 :=
  fun i _ => sigm (mm (fun i j =>
      if h : j.val < D then m 0 ⟨j.val, h⟩
      else if h2 : j.val < 2 * D then y 0 ⟨j.val - D, by omega⟩
      else E i ⟨j.val - 2 * D, by have := j.isLt; omega⟩ : Mat L (3 * D)) Wg i 0 + bg 0 0)

/-- The result of the specification is the mix `X∘g + y∘(1 - g)` times `mᵀ`, with `g` the gate. -/
theorem sC_outR_eq (X E : Mat L D) (y m : Mat 1 D) (Wg : Mat (3 * D) 1) (bg : Mat 1 1) :
    outR X E y m Wg bg
      = mm (fun i j => X i j * colB (sC_gateR E y m Wg bg) i j
              + rowB y i j * colB (fun i k => 1 - sC_gateR E y m Wg bg i k) i j)
          (tr m) := rfl

/-- The gate's operations at real arrays: the row `m` repeated down the rows, `[m | y | E]` side by side, times
    `Wg`, plus `bg` repeated down the rows; then negated, exponentiated, one added, and one divided by the sum,
    which is positive. -/
theorem sC_gate_real (E : Mat L D) (y m : Mat 1 D) (Wg : Mat (3 * D) 1) (bg : Mat 1 1)
    (mA : (⟨2, ![1, 256]⟩ : Shape).Idx → EReal) (hm : mA = ofM m) :
    Host.divf (F := Ideal) (φ := .f32) (broadcastInDim S2048x1 ![] bcast_S_S2048x1 (constant S_ .f32 0x3F800000#32))
      (addf (F := Ideal) (φ := .f32) (broadcastInDim S2048x1 ![] bcast_S_S2048x1 (constant S_ .f32 0x3F800000#32))
        (Host.exp (F := Ideal) (φ := .f32) (Host.negf (F := Ideal) (φ := .f32) (addf (F := Ideal) (φ := .f32)
          (Host.dotGeneral (F := Ideal) (φ₁ := .f32) (φ₂ := .f32) dot_S2048x768_S768x1_S2048x1_1_0_0_1_n_n none
            (concatenate (α := EReal) S2048x768 1
              [⟨S2048x256, broadcastInDim S2048x256 ![0, 1] bcast_S1x256_S2048x256_0_1 mA⟩,
               ⟨S2048x256, ofM (rowB y : Mat L D)⟩, ⟨S2048x256, ofM E⟩]
              concatenates_S2048x256_S2048x256_S2048x256_S2048x768_d1)
            (ofM Wg))
          (broadcastInDim S2048x1 ![0, 1] bcast_S1x1_S2048x1_0_1 (ofM bg))))))
      = ofM (sC_gateR E y m Wg bg) := by
  subst hm
  rw [broadcastInDim_row_ofM m, concatenate_ofM, dotGeneral_S2048x768_S768x1, broadcastInDim_row_ofM bg,
    broadcastInDim_one_ofM, addf_ofM, Host.negf_ofM, Host.exp_ofM, addf_ofM, Host.divf_ofM]
  · refine congrArg ofM ?_
    funext i j
    obtain rfl : j = 0 := Subsingleton.elim _ _
    rfl
  · intro i j
    simp only [Matrix.of_apply]
    positivity

/-- The mix and the last product at real arrays, the gate `G` given as the array of `sC_gateR`. -/
theorem sC_real (X E : Mat L D) (y : Mat 1 D) (cand : Mat 1 I) (M : Mat I D) (Wg : Mat (3 * D) 1) (bg : Mat 1 1)
    (G : (⟨2, ![2048, 1]⟩ : Shape).Idx → EReal) (hG : G = ofM (sC_gateR E y (mm cand M) Wg bg)) :
    Host.dotGeneral (F := Ideal) (φ₁ := .f32) (φ₂ := .f32) dot_S2048x256_S256x1_S2048x1_1_0_0_1_n_n none
      (addf (F := Ideal) (φ := .f32)
        (mulf (F := Ideal) (φ := .f32) (ofM X) (broadcastInDim S2048x256 ![0, 1] bcast_S2048x1_S2048x256_0_1 G))
        (mulf (F := Ideal) (φ := .f32) (ofM (rowB y : Mat L D))
          (broadcastInDim S2048x256 ![0, 1] bcast_S2048x1_S2048x256_0_1
            (subf (F := Ideal) (φ := .f32)
              (broadcastInDim S2048x1 ![] bcast_S_S2048x1 (constant S_ .f32 0x3F800000#32)) G))))
      (transpose S256x1 [1, 0]
        (Host.dotGeneral (F := Ideal) (φ₁ := .f32) (φ₂ := .f32) dot_S1x20000_S20000x256_S1x256_1_0_0_1_n_n none
          (ofM cand) (ofM M))
        transposes_S1x256_S256x1_1_0)
      = ofM (outR X E y (mm cand M) Wg bg) := by
  subst hG
  rw [dotGeneral_S1x20000_S20000x256 cand M, broadcastInDim_col_ofM, mulf_ofM, broadcastInDim_one_ofM, subf_ofM,
    broadcastInDim_col_ofM, mulf_ofM, addf_ofM, transpose_ofM, dotGeneral_S2048x256_S256x1, sC_outR_eq]
  rfl

set_option maxHeartbeats 4000000 in
set_option maxRecDepth 8192 in
/-- The last stretch: `main_v176` is the array of `outR X E y (candidate·M) Wg bg`. The fold of the stretch at its
    result is each operation's function at its operands' contents; at the given real arrays that is the term of
    `sC_real`, its gate the term of `sC_gate_real`. -/
theorem sC_val (V : Valuation τ sig (Elt Ideal)) (X E : Mat L D) (y : Mat 1 D) (cand : Mat 1 I) (M : Mat I D)
    (Wg : Mat (3 * D) 1) (bg : Mat 1 1)
    (hX : V (Proc.devRef .tc main_v155) = ofM X) (hE : V (Proc.devRef .tc main_v2) = ofM E)
    (hy : V (Proc.devRef .tc main_v19) = ofM (rowB y : Mat L D))
    (hc : V (Proc.devRef .tc main_arg1) = ofM cand) (hM : V (Proc.devRef .tc main_arg2) = ofM M)
    (hWg : V (Proc.devRef .tc main_arg5) = ofM Wg) (hbg : V (Proc.devRef .tc main_arg6) = ofM bg) :
    StableHlo.after sC V (Proc.devRef .tc main_v176) = ofM (outR X E y (mm cand M) Wg bg) := by
  simp (disch := decide) only [after_cons, after_nil, nullary_result', unary_result', binary_result', nary_result',
    nullary_result_ne', unary_result_ne', binary_result_ne', nary_result_ne', Matrix.cons_val]
  repeat (first
    | rw [unary_result] | rw [binary_result]
    | (rw [unary_result_ne]; rotate_left; decide)
    | (rw [binary_result_ne]; rotate_left; decide))
  rw [hX, hE, hy, hc, hM, hWg, hbg]
  exact sC_real X E y cand M Wg bg _
    (sC_gate_real E y (mm cand M) Wg bg _ (dotGeneral_S1x20000_S20000x256 cand M))

end Cert.ReferenceIdeal.RefValue

end
-- ==== Proof.Ref.Value.lean ====
/-
  The reference's result at real inputs. The run is evaluated stretch by stretch over named real matrices: after the
  first stretch the buffers hold the mask, `E = S·M`, the attention row `y` down the rows and `X0 = E + P`; each of
  the five rounds maps the array of `X` to the array of `blockR … X` and writes none of the buffers the later stretches
  read; the last stretch gives the array of `outR X5 E y (cand·M) Wg bg`. Composed, the result buffer holds the array of
  `Cert.Spec.resR`.
-/
import proofs.«104406_j63058709840319_2_alg».proof.Proof.Ref.Stretches
import proofs.«104406_j63058709840319_2_alg».proof.Proof.Ref.StretchA
import proofs.«104406_j63058709840319_2_alg».proof.Proof.Ref.StretchB1
import proofs.«104406_j63058709840319_2_alg».proof.Proof.Ref.StretchB2
import proofs.«104406_j63058709840319_2_alg».proof.Proof.Ref.StretchB3
import proofs.«104406_j63058709840319_2_alg».proof.Proof.Ref.StretchB4
import proofs.«104406_j63058709840319_2_alg».proof.Proof.Ref.StretchB5
import proofs.«104406_j63058709840319_2_alg».proof.Proof.Ref.StretchC
import proofs.«104406_j63058709840319_2_alg».proof.Proof.LibCoe.Basic

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Spec Cert.LibCoe

/-- What the stretches after the first read besides the running `X`: the mask, `E`, the attention row down the rows, and
    eleven of the arguments, as arrays of reals at the valuation `W`. -/
structure Env (W : Valuation τ sig (Elt Ideal)) (E : Mat L D) (y : Mat 1 D) (cand : Mat 1 I) (M : Mat I D) (Wg : Mat (3 * D) 1) (bg : Mat 1 1)
    (Q K Vm W1 W2 : Mat D D) (b1 b2 : Mat 1 D) : Prop where
  hΔ : W (Proc.devRef .tc main_v1) = ofM (tril L)
  hE : W (Proc.devRef .tc main_v2) = ofM E
  hy : W (Proc.devRef .tc main_v19) = ofM (rowB y : Mat L D)
  hc : W (Proc.devRef .tc main_arg1) = ofM cand
  hM : W (Proc.devRef .tc main_arg2) = ofM M
  hWg : W (Proc.devRef .tc main_arg5) = ofM Wg
  hbg : W (Proc.devRef .tc main_arg6) = ofM bg
  hQ : W (Proc.devRef .tc main_arg7) = ofM Q
  hK : W (Proc.devRef .tc main_arg8) = ofM K
  hV : W (Proc.devRef .tc main_arg9) = ofM Vm
  hW1 : W (Proc.devRef .tc main_arg12) = ofM W1
  hW2 : W (Proc.devRef .tc main_arg13) = ofM W2
  hb1 : W (Proc.devRef .tc main_arg14) = ofM b1
  hb2 : W (Proc.devRef .tc main_arg15) = ofM b2

/-- The references `Env` speaks of. -/
abbrev envRefs : List (Ref sig .tc) := [main_v1, main_v2, main_v19, main_arg1, main_arg2, main_arg5, main_arg6, main_arg7, main_arg8, main_arg9, main_arg12, main_arg13, main_arg14, main_arg15]

variable {W : Valuation τ sig (Elt Ideal)} {E : Mat L D} {y : Mat 1 D} {cand : Mat 1 I} {M : Mat I D} {Wg : Mat (3 * D) 1}
  {bg : Mat 1 1} {Q K Vm W1 W2 : Mat D D} {b1 b2 : Mat 1 D}

/-- A stretch that writes none of those references keeps `Env`. -/
theorem Env.step (e : Env W E y cand M Wg bg Q K Vm W1 W2 b1 b2) (s : List (HloOp τ sig (Elt Ideal))) (Ws : List (Ref sig .tc))
    (hf : ∀ r, r ∉ Ws → StableHlo.after s W (Proc.devRef .tc r) = W (Proc.devRef .tc r))
    (hd : ∀ r ∈ envRefs, r ∉ Ws) : Env (StableHlo.after s W) E y cand M Wg bg Q K Vm W1 W2 b1 b2 :=
  ⟨(hf main_v1 (hd _ (by decide))).trans e.hΔ,
   (hf main_v2 (hd _ (by decide))).trans e.hE,
   (hf main_v19 (hd _ (by decide))).trans e.hy,
   (hf main_arg1 (hd _ (by decide))).trans e.hc,
   (hf main_arg2 (hd _ (by decide))).trans e.hM,
   (hf main_arg5 (hd _ (by decide))).trans e.hWg,
   (hf main_arg6 (hd _ (by decide))).trans e.hbg,
   (hf main_arg7 (hd _ (by decide))).trans e.hQ,
   (hf main_arg8 (hd _ (by decide))).trans e.hK,
   (hf main_arg9 (hd _ (by decide))).trans e.hV,
   (hf main_arg12 (hd _ (by decide))).trans e.hW1,
   (hf main_arg13 (hd _ (by decide))).trans e.hW2,
   (hf main_arg14 (hd _ (by decide))).trans e.hb1,
   (hf main_arg15 (hd _ (by decide))).trans e.hb2⟩

/-- From round 5 on: the rounds 5 to 5 and the last stretch, from `X` in `main_v128`. -/
theorem tail5 (e : Env W E y cand M Wg bg Q K Vm W1 W2 b1 b2) (X : Mat L D) (hX : W (Proc.devRef .tc main_v128) = ofM X) :
    StableHlo.after sC (StableHlo.after sB5 W) (Proc.devRef .tc main_v176)
      = ofM (outR (blockR Q K Vm W1 W2 b1 b2 X) E y (mm cand M) Wg bg) :=
  have e' := e.step sB5 sB5_W (sB5_frame W) (by decide)
  sC_val _ _ E y cand M Wg bg (sB5_val W X Q K Vm W1 W2 b1 b2 hX e.hQ e.hK e.hV e.hW1 e.hW2 e.hb1 e.hb2 e.hΔ) e'.hE e'.hy e'.hc e'.hM e'.hWg e'.hbg

/-- From round 4 on: the rounds 4 to 5 and the last stretch, from `X` in `main_v101`. -/
theorem tail4 (e : Env W E y cand M Wg bg Q K Vm W1 W2 b1 b2) (X : Mat L D) (hX : W (Proc.devRef .tc main_v101) = ofM X) :
    StableHlo.after sC (StableHlo.after sB5 (StableHlo.after sB4 W)) (Proc.devRef .tc main_v176)
      = ofM (outR (blockR Q K Vm W1 W2 b1 b2 (blockR Q K Vm W1 W2 b1 b2 X)) E y (mm cand M) Wg bg) :=
  tail5 (e.step sB4 sB4_W (sB4_frame W) (by decide)) _ (sB4_val W X Q K Vm W1 W2 b1 b2 hX e.hQ e.hK e.hV e.hW1 e.hW2 e.hb1 e.hb2 e.hΔ)

/-- From round 3 on: the rounds 3 to 5 and the last stretch, from `X` in `main_v74`. -/
theorem tail3 (e : Env W E y cand M Wg bg Q K Vm W1 W2 b1 b2) (X : Mat L D) (hX : W (Proc.devRef .tc main_v74) = ofM X) :
    StableHlo.after sC (StableHlo.after sB5 (StableHlo.after sB4 (StableHlo.after sB3 W))) (Proc.devRef .tc main_v176)
      = ofM (outR (blockR Q K Vm W1 W2 b1 b2 (blockR Q K Vm W1 W2 b1 b2 (blockR Q K Vm W1 W2 b1 b2 X))) E y (mm cand M) Wg bg) :=
  tail4 (e.step sB3 sB3_W (sB3_frame W) (by decide)) _ (sB3_val W X Q K Vm W1 W2 b1 b2 hX e.hQ e.hK e.hV e.hW1 e.hW2 e.hb1 e.hb2 e.hΔ)

/-- From round 2 on: the rounds 2 to 5 and the last stretch, from `X` in `main_v47`. -/
theorem tail2 (e : Env W E y cand M Wg bg Q K Vm W1 W2 b1 b2) (X : Mat L D) (hX : W (Proc.devRef .tc main_v47) = ofM X) :
    StableHlo.after sC (StableHlo.after sB5 (StableHlo.after sB4 (StableHlo.after sB3 (StableHlo.after sB2 W)))) (Proc.devRef .tc main_v176)
      = ofM (outR (blockR Q K Vm W1 W2 b1 b2 (blockR Q K Vm W1 W2 b1 b2 (blockR Q K Vm W1 W2 b1 b2 (blockR Q K Vm W1 W2 b1 b2 X)))) E y (mm cand M) Wg bg) :=
  tail3 (e.step sB2 sB2_W (sB2_frame W) (by decide)) _ (sB2_val W X Q K Vm W1 W2 b1 b2 hX e.hQ e.hK e.hV e.hW1 e.hW2 e.hb1 e.hb2 e.hΔ)

/-- From round 1 on: the rounds 1 to 5 and the last stretch, from `X` in `main_v20`. -/
theorem tail1 (e : Env W E y cand M Wg bg Q K Vm W1 W2 b1 b2) (X : Mat L D) (hX : W (Proc.devRef .tc main_v20) = ofM X) :
    StableHlo.after sC (StableHlo.after sB5 (StableHlo.after sB4 (StableHlo.after sB3 (StableHlo.after sB2 (StableHlo.after sB1 W))))) (Proc.devRef .tc main_v176)
      = ofM (outR (blockR Q K Vm W1 W2 b1 b2 (blockR Q K Vm W1 W2 b1 b2 (blockR Q K Vm W1 W2 b1 b2 (blockR Q K Vm W1 W2 b1 b2 (blockR Q K Vm W1 W2 b1 b2 X))))) E y (mm cand M) Wg bg) :=
  tail2 (e.step sB1 sB1_W (sB1_frame W) (by decide)) _ (sB1_val W X Q K Vm W1 W2 b1 b2 hX e.hQ e.hK e.hV e.hW1 e.hW2 e.hb1 e.hb2 e.hΔ)

/-- From real inputs the reference's result buffer holds the array of `Cert.Spec.resR`. -/
theorem result_eq (m : (ℓ : Loc nD τ sig) → Buf (Elt Ideal) ℓ) (c : Dev nD)
    (S : Mat L I) (cand : Mat 1 I) (M : Mat I D) (P : Mat L D) (qS : Mat 1 D) (Wg : Mat (3 * D) 1) (bg : Mat 1 1)
    (Q K Vm Wk Wv W1 W2 : Mat D D) (b1 b2 : Mat 1 D)
    (h0 : m ((c.tc : Thread nD τ).loc main_arg0) = ofM S) (h1 : m ((c.tc : Thread nD τ).loc main_arg1) = ofM cand) (h2 : m ((c.tc : Thread nD τ).loc main_arg2) = ofM M) (h3 : m ((c.tc : Thread nD τ).loc main_arg3) = ofM P)
    (h4 : m ((c.tc : Thread nD τ).loc main_arg4) = ofM qS) (h5 : m ((c.tc : Thread nD τ).loc main_arg5) = ofM Wg) (h6 : m ((c.tc : Thread nD τ).loc main_arg6) = ofM bg) (h7 : m ((c.tc : Thread nD τ).loc main_arg7) = ofM Q)
    (h8 : m ((c.tc : Thread nD τ).loc main_arg8) = ofM K) (h9 : m ((c.tc : Thread nD τ).loc main_arg9) = ofM Vm) (h10 : m ((c.tc : Thread nD τ).loc main_arg10) = ofM Wk) (h11 : m ((c.tc : Thread nD τ).loc main_arg11) = ofM Wv)
    (h12 : m ((c.tc : Thread nD τ).loc main_arg12) = ofM W1) (h13 : m ((c.tc : Thread nD τ).loc main_arg13) = ofM W2) (h14 : m ((c.tc : Thread nD τ).loc main_arg14) = ofM b1) (h15 : m ((c.tc : Thread nD τ).loc main_arg15) = ofM b2) :
    RunP.res_main_v176 m c = ofM (Cert.Spec.resR S cand M P qS Wg bg Q K Vm Wk Wv W1 W2 b1 b2) := by
  obtain ⟨hA1, hA2, hA19, hA20⟩ := sA_val (fun b => m (c, b)) S M P qS Wk Wv h0 h2 h3 h4 h10 h11
  have e : Env (StableHlo.after sA (fun b => m (c, b))) (mm S M) (yR (mm S M) Wk Wv qS) cand M Wg bg Q K Vm W1 W2 b1 b2 :=
    ⟨hA1, hA2, hA19,
     (sA_frame _ main_arg1 (by decide)).trans h1, (sA_frame _ main_arg2 (by decide)).trans h2,
     (sA_frame _ main_arg5 (by decide)).trans h5, (sA_frame _ main_arg6 (by decide)).trans h6,
     (sA_frame _ main_arg7 (by decide)).trans h7, (sA_frame _ main_arg8 (by decide)).trans h8,
     (sA_frame _ main_arg9 (by decide)).trans h9, (sA_frame _ main_arg12 (by decide)).trans h12,
     (sA_frame _ main_arg13 (by decide)).trans h13, (sA_frame _ main_arg14 (by decide)).trans h14,
     (sA_frame _ main_arg15 (by decide)).trans h15⟩
  show StableHlo.after RunP.ops (fun b => m (c, b)) (Proc.devRef .tc main_v176) = _
  rw [ops_eq, after_app, after_app, after_app, after_app,
    after_app, after_app]
  exact tail1 e _ hA20

end Cert.ReferenceIdeal.RefValue

end
-- ==== Proof.Bridge.lean ====
/-
  The kernel arrangement and the reference arrangement of the specification agree over the reals:
  p * (1 / l) = p / l, the matrix product is associative, a sum over Fin (3 * 256) splits into its three
  blocks of 256, and a product whose inner dimension is padded by zeros is the unpadded product.
-/
import proofs.«104406_j63058709840319_2_alg».proof.Proof.Spec
import Mathlib.Algebra.BigOperators.Fin
import Mathlib.Algebra.BigOperators.Ring.Finset
import Mathlib.Logic.Equiv.Fin.Basic
import Mathlib.Tactic.Ring
import Mathlib.Tactic.Linarith

noncomputable section

open scoped BigOperators

namespace Cert.Spec

variable {a b c d : ℕ}

/-! ### Softmax: multiplying by the reciprocal is dividing -/

theorem smaxK_eq_smaxR (A : Mat a (b + 1)) : smaxK A = smaxR A := by
  funext i j
  simp only [smaxK, smaxR, mul_one_div]

theorem yK_eq_yR (E : Mat L D) (Wk Wv : Mat D D) (qS : Mat 1 D) : yK E Wk Wv qS = yR E Wk Wv qS := by
  unfold yK yR
  rw [smaxK_eq_smaxR]

/-! ### The matrix product is associative -/

theorem mm_assoc (A : Mat a b) (B : Mat b c) (C : Mat c d) : mm (mm A B) C = mm A (mm B C) := by
  funext i j
  simp only [mm, Finset.sum_mul, Finset.mul_sum]
  rw [Finset.sum_comm]
  refine Finset.sum_congr rfl fun k _ => Finset.sum_congr rfl fun l _ => ?_
  ring

theorem blockK_eq_blockR (Q K V W1 W2 : Mat D D) (b1 b2 : Mat 1 D) :
    blockK Q K V W1 W2 b1 b2 = blockR Q K V W1 W2 b1 b2 := by
  funext X
  unfold blockK blockR
  rw [smaxK_eq_smaxR, ← mm_assoc _ (tril L) (mm X V)]

theorem iterK_eq_iterR (Q K V W1 W2 : Mat D D) (b1 b2 : Mat 1 D) (n : ℕ) (X : Mat L D) :
    (blockK Q K V W1 W2 b1 b2)^[n] X = (blockR Q K V W1 W2 b1 b2)^[n] X := by
  rw [blockK_eq_blockR]

/-! ### A sum over Fin (s * r) by blocks of length r -/

theorem blk_lt {s r : ℕ} (i : Fin s) (j : Fin r) : i.val * r + j.val < s * r :=
  calc i.val * r + j.val < i.val * r + r := Nat.add_lt_add_left j.isLt _
    _ = (i.val + 1) * r := (Nat.succ_mul _ _).symm
    _ ≤ s * r := Nat.mul_le_mul_right _ i.isLt

theorem sum_fin_mul {s r : ℕ} (f : Fin (s * r) → ℝ) :
    ∑ k, f k = ∑ i : Fin s, ∑ j : Fin r, f ⟨i.val * r + j.val, blk_lt i j⟩ := by
  rw [← finProdFinEquiv.sum_comp, Fintype.sum_prod_type]
  refine Finset.sum_congr rfl fun i _ => Finset.sum_congr rfl fun j _ => ?_
  congr 1
  apply Fin.ext
  simp only [finProdFinEquiv_apply_val]
  ring

/-- The accumulation over the padded inner dimension, by 8 blocks of 2560. -/
theorem sum_blocked (f : Fin 20480 → ℝ) :
    ∑ k : Fin 20480, f k
      = ∑ s : Fin 8, ∑ r : Fin 2560,
          f ⟨s.val * 2560 + r.val, by have := s.isLt; have := r.isLt; omega⟩ :=
  sum_fin_mul (s := 8) (r := 2560) f

/-- A sum over Fin (3 * 256) is the sum of its three blocks. -/
theorem sum_three_blocks (f : Fin (3 * D) → ℝ) :
    ∑ k, f k
      = (∑ k : Fin D, f ⟨k.val, by have := k.isLt; omega⟩
          + ∑ k : Fin D, f ⟨k.val + D, by have := k.isLt; omega⟩)
        + ∑ k : Fin D, f ⟨k.val + 2 * D, by have := k.isLt; omega⟩ := by
  rw [sum_fin_mul (s := 3) (r := D) f, Fin.sum_univ_three]
  refine congrArg₂ (· + ·) (congrArg₂ (· + ·) ?_ ?_) ?_
  · refine Finset.sum_congr rfl fun k _ => congrArg f (Fin.ext ?_)
    simp
  · refine Finset.sum_congr rfl fun k _ => congrArg f (Fin.ext ?_)
    simp only [Fin.val_one]
    omega
  · refine Finset.sum_congr rfl fun k _ => congrArg f (Fin.ext ?_)
    simp only [Fin.val_two]
    omega

/-! ### The gate: the product against the concatenation splits in three -/

/-- The gate's logit against the concatenation is the sum of the three block products. -/
theorem gate_logit (E : Mat L D) (y mrow : Mat 1 D) (Wg : Mat (3 * D) 1) (i : Fin L) :
    mm (fun i j =>
          if h : j.val < D then mrow 0 ⟨j.val, h⟩
          else if h2 : j.val < 2 * D then y 0 ⟨j.val - D, by omega⟩
          else E i ⟨j.val - 2 * D, by have := j.isLt; omega⟩ : Mat L (3 * D)) Wg i 0
      = (mm mrow (fun k _ => Wg ⟨k.val, by have := k.isLt; omega⟩ 0 : Mat D 1) 0 0
          + mm y (fun k _ => Wg ⟨k.val + D, by have := k.isLt; omega⟩ 0 : Mat D 1) 0 0)
        + mm E (fun k _ => Wg ⟨k.val + 2 * D, by have := k.isLt; omega⟩ 0 : Mat D 1) i 0 := by
  simp only [mm]
  rw [sum_three_blocks]
  refine congrArg₂ (· + ·) (congrArg₂ (· + ·) ?_ ?_) ?_
  · refine Finset.sum_congr rfl fun k _ => ?_
    have hk : k.val < D := k.isLt
    simp only [dif_pos hk]
  · refine Finset.sum_congr rfl fun k _ => ?_
    have hk : k.val < D := k.isLt
    have h1 : ¬ k.val + D < D := by omega
    have h2 : k.val + D < 2 * D := by omega
    simp only [dif_neg h1, dif_pos h2, Nat.add_sub_cancel]
  · refine Finset.sum_congr rfl fun k _ => ?_
    have hk : k.val < D := k.isLt
    have h1 : ¬ k.val + 2 * D < D := by omega
    have h2 : ¬ k.val + 2 * D < 2 * D := by omega
    simp only [dif_neg h1, dif_neg h2, Nat.add_sub_cancel]

theorem outK_eq_outR (X E : Mat L D) (y mrow : Mat 1 D) (Wg : Mat (3 * D) 1) (bg : Mat 1 1) :
    outK X E y mrow Wg bg = outR X E y mrow Wg bg := by
  have hg : ∀ i : Fin L,
      mm (fun i j =>
            if h : j.val < D then mrow 0 ⟨j.val, h⟩
            else if h2 : j.val < 2 * D then y 0 ⟨j.val - D, by omega⟩
            else E i ⟨j.val - 2 * D, by have := j.isLt; omega⟩ : Mat L (3 * D)) Wg i 0 + bg 0 0
        = mm E (fun k _ => Wg ⟨k.val + 2 * D, by have := k.isLt; omega⟩ 0 : Mat D 1) i 0
          + ((mm mrow (fun k _ => Wg ⟨k.val, by have := k.isLt; omega⟩ 0 : Mat D 1) 0 0
              + mm y (fun k _ => Wg ⟨k.val + D, by have := k.isLt; omega⟩ 0 : Mat D 1) 0 0) + bg 0 0) := by
    intro i
    rw [gate_logit]
    ring
  unfold outK outR
  simp only [hg]

/-! ### Zero padding of the inner dimension -/

/-- A with its 20000 columns padded by zero columns to 20480. -/
def padCols (A : Mat a I) : Mat a 20480 := fun i j => if h : j.val < 20000 then A i ⟨j.val, h⟩ else 0
/-- B with its 20000 rows padded by zero rows to 20480. -/
def padRows (B : Mat I d) : Mat 20480 d := fun i j => if h : i.val < 20000 then B ⟨i.val, h⟩ j else 0

theorem mm_padCols_padRows (A : Mat a I) (B : Mat I d) : mm (padCols A) (padRows B) = mm A B := by
  funext i j
  show ∑ k : Fin (20000 + 480), padCols A i k * padRows B k j = ∑ k : Fin I, A i k * B k j
  rw [Fin.sum_univ_add]
  have hz : ∑ k : Fin 480, padCols A i (Fin.natAdd 20000 k) * padRows B (Fin.natAdd 20000 k) j = 0 := by
    refine Finset.sum_eq_zero fun k _ => ?_
    have hk : ¬ (Fin.natAdd 20000 k).val < 20000 := by simp
    simp only [padCols, dif_neg hk, zero_mul]
  rw [hz, add_zero]
  refine Finset.sum_congr rfl fun k _ => ?_
  have hk : (Fin.castAdd 480 k).val < 20000 := k.isLt
  simp only [padCols, padRows, dif_pos hk]
  rfl

/-- The same fact with the padded matrices written out. -/
theorem mm_pad (A : Mat a I) (B : Mat I d) :
    mm (fun i j => if h : j.val < 20000 then A i ⟨j.val, h⟩ else 0 : Mat a 20480)
       (fun i j => if h : i.val < 20000 then B ⟨i.val, h⟩ j else 0 : Mat 20480 d) = mm A B :=
  mm_padCols_padRows A B

/-! ### The two arrangements agree -/

theorem resK_eq_resR (S : Mat L I) (cand : Mat 1 I) (M : Mat I D) (P : Mat L D) (qS : Mat 1 D)
    (Wg : Mat (3 * D) 1) (bg : Mat 1 1) (Q K V Wk Wv W1 W2 : Mat D D) (b1 b2 : Mat 1 D) :
    resK S cand M P qS Wg bg Q K V Wk Wv W1 W2 b1 b2 = resR S cand M P qS Wg bg Q K V Wk Wv W1 W2 b1 b2 := by
  unfold resK resR
  simp only [yK_eq_yR, blockK_eq_blockR, outK_eq_outR]

end Cert.Spec

end
-- ==== Proof.Val.Host.lean ====
/-
  What the host stretches of the kernel program leave in the buffers, over the extended reals, when the buffers
  they read hold arrays of real matrices. The casts between float widths are the identity; a pad appends zero
  columns or rows; the triangle mask compares a row index with a column index; the last stretch keeps column 0.
  Every statement is about an arbitrary valuation `W` of the buffers before the stretch.
-/
import proofs.«104406_j63058709840319_2_alg».proof.Proof.Gen.KernelIdeal.Regions
import proofs.«104406_j63058709840319_2_alg».proof.Proof.LibCoe.Basic
import proofs.«104406_j63058709840319_2_alg».proof.Proof.Bridge
import Idealize.ShloMosaic.Lib.StableHlo.Run
import Idealize.ShloMosaic.Lib.ValueLayout

set_option maxRecDepth 16384

noncomputable section

namespace Cert.KernelIdeal.HandVal

open Cert.KernelIdeal Cert.KernelIdeal.Gen Cert.LibCoe
open Idealize.ShloMosaic Idealize.ShloMosaic.TcCoe Idealize.ShloMosaic.ValueIdx
open Idealize.ShloMosaic.StableHlo

/-- A buffer valuation at the extended reals. -/
abbrev VI : Type := Valuation τ sig (Elt Ideal)

/-! ## The valuations after each group of stretches -/

/-- After the six stretches that cast and pad the three large inputs. -/
abbrev afterPad (W : VI) : VI :=
  StableHlo.after hostOps0_5 (StableHlo.after hostOps0_4 (StableHlo.after hostOps0_3
    (StableHlo.after hostOps0_2 (StableHlo.after hostOps0_1 (StableHlo.after hostOps0 W)))))

/-- After the stretch that casts the eight small weights. -/
abbrev afterCasts (W : VI) : VI := StableHlo.after hostOps2 W

/-- After the three stretches that build the triangle mask and add the positional term. -/
abbrev afterTrilX0 (W : VI) : VI :=
  StableHlo.after hostOps3_2 (StableHlo.after hostOps3_1 (StableHlo.after hostOps3 W))

/-- After the two stretches that cast the gate weights and lay the candidate row out as a padded column. -/
abbrev afterGateIn (W : VI) : VI := StableHlo.after hostOps13_1 (StableHlo.after hostOps13 W)

/-- After the last stretch, which keeps column 0. -/
abbrev afterSlice (W : VI) : VI := StableHlo.after hostOps14 W

/-- The row `m` as a column, followed by 127 zero columns. -/
def padT (m : Spec.Mat 1 256) : Spec.Mat 256 128 :=
  Matrix.of fun (k : Fin 256) (j : Fin 128) => if hj : j.val < 1 then Spec.tr m k ⟨j.val, hj⟩ else 0

theorem padT_zero (m : Spec.Mat 1 256) (k : Fin 256) : padT m k 0 = m 0 k := rfl

theorem padT_pos (m : Spec.Mat 1 256) (k : Fin 256) (j : Fin 128) (hj : 0 < j.val) : padT m k j = 0 := by
  have h : ¬ j.val < 1 := by omega
  simp only [padT, Matrix.of_apply, dif_neg h]

/-! ## Items 0 to 5: the three large inputs cast and padded -/

theorem host_pad_v1 (W : VI) (S : Spec.Mat 2048 20000)
    (h0 : (W main_arg0 : S2048x20000.Idx → EReal) = ofM S) :
    (afterPad W main_v1 : S2048x20480.Idx → EReal) = ofM (Spec.padCols S) := by
  have e : (afterPad W main_v1 : S2048x20480.Idx → EReal)
      = pad S2048x20480 ![0, 0] ![0, 480] ![0, 0]
          (truncf .bf16 (W main_arg0 : S2048x20000.Idx → EReal) bitsLt_bf16_f32)
          (sitofp (F := Ideal) .bf16 (constantI S_ 32 0#32)) pads_S2048x20000_S2048x20480_000_04800 h_S_ := by
    dsimp only [afterPad, hostOps0, hostOps0_1, hostOps0_2, hostOps0_3, hostOps0_4, hostOps0_5]
    after_results
    rfl
  rw [e, h0, truncf_ofM]
  exact pad_cols_ofM 480 S _ sitofp_zero_apply _ _

theorem host_pad_v3 (W : VI) (cand : Spec.Mat 1 20000)
    (h1 : (W main_arg1 : S1x20000.Idx → EReal) = ofM cand) :
    (afterPad W main_v3 : S1x20480.Idx → EReal) = ofM (Spec.padCols cand) := by
  have e : (afterPad W main_v3 : S1x20480.Idx → EReal)
      = pad S1x20480 ![0, 0] ![0, 480] ![0, 0]
          (truncf .bf16 (W main_arg1 : S1x20000.Idx → EReal) bitsLt_bf16_f32)
          (sitofp (F := Ideal) .bf16 (constantI S_ 32 0#32)) pads_S1x20000_S1x20480_000_04800 h_S_ := by
    dsimp only [afterPad, hostOps0, hostOps0_1, hostOps0_2, hostOps0_3, hostOps0_4, hostOps0_5]
    after_results
    rfl
  rw [e, h1, truncf_ofM]
  exact pad_cols_ofM 480 cand _ sitofp_zero_apply _ _

theorem host_pad_v5 (W : VI) (M : Spec.Mat 20000 256)
    (h2 : (W main_arg2 : S20000x256.Idx → EReal) = ofM M) :
    (afterPad W main_v5 : S20480x256.Idx → EReal) = ofM (Spec.padRows M) := by
  have e : (afterPad W main_v5 : S20480x256.Idx → EReal)
      = pad S20480x256 ![0, 0] ![480, 0] ![0, 0]
          (truncf .bf16 (W main_arg2 : S20000x256.Idx → EReal) bitsLt_bf16_f32)
          (sitofp (F := Ideal) .bf16 (constantI S_ 32 0#32)) pads_S20000x256_S20480x256_04800_000 h_S_ := by
    dsimp only [afterPad, hostOps0, hostOps0_1, hostOps0_2, hostOps0_3, hostOps0_4, hostOps0_5]
    after_results
    rfl
  rw [e, h2, truncf_ofM]
  exact pad_rows_ofM 480 M _ sitofp_zero_apply _ _

theorem host_pad (W : VI) (S : Spec.Mat 2048 20000) (cand : Spec.Mat 1 20000) (M : Spec.Mat 20000 256)
    (h0 : (W main_arg0 : S2048x20000.Idx → EReal) = ofM S)
    (h1 : (W main_arg1 : S1x20000.Idx → EReal) = ofM cand)
    (h2 : (W main_arg2 : S20000x256.Idx → EReal) = ofM M) :
    (afterPad W main_v1 : S2048x20480.Idx → EReal) = ofM (Spec.padCols S)
      ∧ (afterPad W main_v3 : S1x20480.Idx → EReal) = ofM (Spec.padCols cand)
      ∧ (afterPad W main_v5 : S20480x256.Idx → EReal) = ofM (Spec.padRows M) :=
  ⟨host_pad_v1 W S h0, host_pad_v3 W cand h1, host_pad_v5 W M h2⟩

/-! ## Item 8: the eight small weights cast -/

theorem host_casts (W : VI) (qS : Spec.Mat 1 256) (Wk Wv Q K V W1 W2 : Spec.Mat 256 256)
    (h4 : (W main_arg4 : S1x256.Idx → EReal) = ofM qS)
    (h10 : (W main_arg10 : S256x256.Idx → EReal) = ofM Wk)
    (h11 : (W main_arg11 : S256x256.Idx → EReal) = ofM Wv)
    (h7 : (W main_arg7 : S256x256.Idx → EReal) = ofM Q)
    (h8 : (W main_arg8 : S256x256.Idx → EReal) = ofM K)
    (h9 : (W main_arg9 : S256x256.Idx → EReal) = ofM V)
    (h12 : (W main_arg12 : S256x256.Idx → EReal) = ofM W1)
    (h13 : (W main_arg13 : S256x256.Idx → EReal) = ofM W2) :
    (afterCasts W main_v8 : S1x256.Idx → EReal) = ofM qS
      ∧ (afterCasts W main_v9 : S256x256.Idx → EReal) = ofM Wk
      ∧ (afterCasts W main_v10 : S256x256.Idx → EReal) = ofM Wv
      ∧ (afterCasts W main_v11 : S256x256.Idx → EReal) = ofM Q
      ∧ (afterCasts W main_v12 : S256x256.Idx → EReal) = ofM K
      ∧ (afterCasts W main_v13 : S256x256.Idx → EReal) = ofM V
      ∧ (afterCasts W main_v14 : S256x256.Idx → EReal) = ofM W1
      ∧ (afterCasts W main_v15 : S256x256.Idx → EReal) = ofM W2 := by
  refine ⟨?_, ?_, ?_, ?_, ?_, ?_, ?_, ?_⟩
  · dsimp only [afterCasts, hostOps2]; after_results; rw [h4]; rfl
  · dsimp only [afterCasts, hostOps2]; after_results; rw [h10]; rfl
  · dsimp only [afterCasts, hostOps2]; after_results; rw [h11]; rfl
  · dsimp only [afterCasts, hostOps2]; after_results; rw [h7]; rfl
  · dsimp only [afterCasts, hostOps2]; after_results; rw [h8]; rfl
  · dsimp only [afterCasts, hostOps2]; after_results; rw [h9]; rfl
  · dsimp only [afterCasts, hostOps2]; after_results; rw [h12]; rfl
  · dsimp only [afterCasts, hostOps2]; after_results; rw [h13]; rfl

/-! ## Items 10 to 12: the triangle mask and the first round's input -/

theorem host_tril (W : VI) :
    (afterTrilX0 W main_v18 : S2048x2048.Idx → EReal) = ofM (Spec.tril 2048) := by
  have e : (afterTrilX0 W main_v18 : S2048x2048.Idx → EReal)
      = select (cmpi .sge (addi (iotaInDim S2048x2048 32 0)
            (broadcastInDim S2048x2048 ![] bcast_S_S2048x2048 (constantI S_ 32 0#32))) (iotaInDim S2048x2048 32 1))
          (broadcastInDim S2048x2048 ![] bcast_S_S2048x2048 (constant (F := Ideal) S_ .bf16 0x3F80#16))
          (broadcastInDim S2048x2048 ![] bcast_S_S2048x2048 (constant (F := Ideal) S_ .bf16 0x0000#16)) := by
    dsimp only [afterTrilX0, hostOps3, hostOps3_1, hostOps3_2]
    after_results
    rfl
  rw [e, broadcastInDim_one_bf16_ofM, broadcastInDim_zero_bf16_ofM]
  exact tril_ofM (by norm_num) _

theorem host_x0 (W : VI) (E P : Spec.Mat 2048 256)
    (h6 : (W main_v6 : S2048x256.Idx → EReal) = ofM E)
    (h3 : (W main_arg3 : S2048x256.Idx → EReal) = ofM P) :
    (afterTrilX0 W main_v20 : S2048x256.Idx → EReal) = ofM (Matrix.of fun i j => E i j + P i j) := by
  have e : (afterTrilX0 W main_v20 : S2048x256.Idx → EReal)
      = addf (F := Ideal) (φ := .f32) (extf .f32 (W main_v6 : S2048x256.Idx → EReal) bitsLt_bf16_f32)
          (W main_arg3 : S2048x256.Idx → EReal) := by
    dsimp only [afterTrilX0, hostOps3, hostOps3_1, hostOps3_2]
    after_results
  rw [e, h6, h3, extf_ofM, addf_ofM]

theorem host_tril_x0 (W : VI) (E P : Spec.Mat 2048 256)
    (h6 : (W main_v6 : S2048x256.Idx → EReal) = ofM E)
    (h3 : (W main_arg3 : S2048x256.Idx → EReal) = ofM P) :
    (afterTrilX0 W main_v18 : S2048x2048.Idx → EReal) = ofM (Spec.tril 2048)
      ∧ (afterTrilX0 W main_v20 : S2048x256.Idx → EReal) = ofM (Matrix.of fun i j => E i j + P i j) :=
  ⟨host_tril W, host_x0 W E P h6 h3⟩

/-! ## Items 23 and 24: the gate weights and the candidate row as a padded column -/

theorem host_gate_in (W : VI) (Wg : Spec.Mat 768 1) (m : Spec.Mat 1 256)
    (h5 : (W main_arg5 : S768x1.Idx → EReal) = ofM Wg)
    (h7 : (W main_v7 : S1x256.Idx → EReal) = ofM m) :
    (afterGateIn W main_v31 : S768x1.Idx → EReal) = ofM Wg
      ∧ (afterGateIn W main_v33 : S256x128.Idx → EReal) = ofM (padT m) := by
  constructor
  · dsimp only [afterGateIn, hostOps13, hostOps13_1]; after_results; rw [h5]; rfl
  · have e : (afterGateIn W main_v33 : S256x128.Idx → EReal)
        = pad S256x128 ![0, 0] ![0, 127] ![0, 0]
            (transpose S256x1 [1, 0] (W main_v7 : S1x256.Idx → EReal) transposes_S1x256_S256x1_1_0)
            (sitofp (F := Ideal) .bf16 (constantI S_ 32 0#32)) pads_S256x1_S256x128_000_01270 h_S_ := by
      dsimp only [afterGateIn, hostOps13, hostOps13_1]
      after_results
      rfl
    rw [e, h7, transpose_ofM]
    exact pad_cols_ofM 127 (Spec.tr m) _ sitofp_zero_apply _ _

/-! ## Item 26: column 0 of the last region's output -/

theorem host_slice (W : VI) (i : Fin 2048) :
    (afterSlice W main_v35 : S2048x1.Idx → EReal) (ix2 i 0)
      = (W main_v34 : S2048x128.Idx → EReal) (ix2 i 0) := by
  have e : (afterSlice W main_v35 : S2048x1.Idx → EReal)
      = extractStridedSlice S2048x1 ![0, 0] (W main_v34 : S2048x128.Idx → EReal) slices_S2048x128_S2048x1_0_0 := by
    dsimp only [afterSlice, hostOps14]
    after_results
  rw [e]
  exact slice2_axis1_apply 0 _ _ i 0 0 rfl

/-! ## The same at the valuations between the program's items -/

variable (m : (ℓ : Loc nD τ sig) → Buf (Elt Ideal) ℓ) (outs : Outs (F := Ideal))

theorem V6_eq (c : Dev nD) : V6 m c = afterPad (V0 m c) := rfl
theorem V9_eq (c : Dev nD) : V9 m outs c = afterCasts (V8 m outs c) := rfl
theorem V13_eq (c : Dev nD) : V13 m outs c = afterTrilX0 (V10 m outs c) := rfl
theorem V25_eq (c : Dev nD) : V25 m outs c = afterGateIn (V23 m outs c) := rfl
theorem V27_eq (c : Dev nD) : V27 m outs c = afterSlice (V26 m outs c) := rfl

/-- A reference that none of the first eight items writes holds its launch contents before item 8. -/
theorem V8_of_V0 (c : Dev nD) (r : Ref sig .tc)
    (h0 : r ∉ hostOps0_W) (h1 : r ∉ hostOps0_1_W) (h2 : r ∉ hostOps0_2_W) (h3 : r ∉ hostOps0_3_W)
    (h4 : r ∉ hostOps0_4_W) (h5 : r ∉ hostOps0_5_W)
    (h6 : r ∉ ([main_v6] : List (Ref sig .tc))) (h7 : r ∉ ([main_v7] : List (Ref sig .tc))) :
    V8 m outs c r = V0 m c r :=
  (V8_of m outs c r h7).trans <| (V7_of m outs c r h6).trans <| (V6_of m c r h5).trans <| (V5_of m c r h4).trans <|
    (V4_of m c r h3).trans <| (V3_of m c r h2).trans <| (V2_of m c r h1).trans (V1_of m c r h0)

/-- A reference that items 8 and 9 do not write is, before item 10, as it was before item 8. -/
theorem V10_of_V8 (c : Dev nD) (r : Ref sig .tc) (h8 : r ∉ hostOps2_W)
    (h9 : r ∉ ([main_v16] : List (Ref sig .tc))) : V10 m outs c r = V8 m outs c r :=
  (V10_of m outs c r h9).trans (V9_of m outs c r h8)

/-- A reference that items 10 to 22 do not write is, before item 23, as it was before item 10. -/
theorem V23_of_V10 (c : Dev nD) (r : Ref sig .tc)
    (h10 : r ∉ hostOps3_W) (h11 : r ∉ hostOps3_1_W) (h12 : r ∉ hostOps3_2_W)
    (h13 : r ∉ ([main_v21_0, main_v21_1, main_v21_2] : List (Ref sig .tc)))
    (h14 : r ∉ ([main_v22] : List (Ref sig .tc)))
    (h15 : r ∉ ([main_v23_0, main_v23_1, main_v23_2] : List (Ref sig .tc)))
    (h16 : r ∉ ([main_v24] : List (Ref sig .tc)))
    (h17 : r ∉ ([main_v25_0, main_v25_1, main_v25_2] : List (Ref sig .tc)))
    (h18 : r ∉ ([main_v26] : List (Ref sig .tc)))
    (h19 : r ∉ ([main_v27_0, main_v27_1, main_v27_2] : List (Ref sig .tc)))
    (h20 : r ∉ ([main_v28] : List (Ref sig .tc)))
    (h21 : r ∉ ([main_v29_0, main_v29_1, main_v29_2] : List (Ref sig .tc)))
    (h22 : r ∉ ([main_v30] : List (Ref sig .tc))) : V23 m outs c r = V10 m outs c r :=
  (V23_of m outs c r h22).trans <| (V22_of m outs c r h21).trans <| (V21_of m outs c r h20).trans <|
    (V20_of m outs c r h19).trans <| (V19_of m outs c r h18).trans <| (V18_of m outs c r h17).trans <|
    (V17_of m outs c r h16).trans <| (V16_of m outs c r h15).trans <| (V15_of m outs c r h14).trans <|
    (V14_of m outs c r h13).trans <| (V13_of m outs c r h12).trans <| (V12_of m outs c r h11).trans
    (V11_of m outs c r h10)

/-- What region 0 left in `main_v6` is still there before item 10. -/
theorem V10_v6 (c : Dev nD) : V10 m outs c main_v6 = V7 m outs c main_v6 :=
  (V10_of_V8 m outs c main_v6 (by decide) (by decide)).trans (V8_of m outs c main_v6 (by decide))

/-- What region 1 left in `main_v7` is still there before item 23. -/
theorem V23_v7 (c : Dev nD) : V23 m outs c main_v7 = V8 m outs c main_v7 :=
  (V23_of_V10 m outs c main_v7 (by decide) (by decide) (by decide) (by decide) (by decide) (by decide) (by decide)
    (by decide) (by decide) (by decide) (by decide) (by decide) (by decide)).trans
    (V10_of_V8 m outs c main_v7 (by decide) (by decide))

/-- An argument holds its launch contents before item 23 (for the arguments the later stretches read). -/
theorem V23_arg5 (c : Dev nD) : V23 m outs c main_arg5 = V0 m c main_arg5 :=
  (V23_of_V10 m outs c main_arg5 (by decide) (by decide) (by decide) (by decide) (by decide) (by decide) (by decide)
    (by decide) (by decide) (by decide) (by decide) (by decide) (by decide)).trans <|
    (V10_of_V8 m outs c main_arg5 (by decide) (by decide)).trans
    (V8_of_V0 m outs c main_arg5 (by decide) (by decide) (by decide) (by decide) (by decide) (by decide) (by decide) (by decide))

theorem V10_arg3 (c : Dev nD) : V10 m outs c main_arg3 = V0 m c main_arg3 :=
  (V10_of_V8 m outs c main_arg3 (by decide) (by decide)).trans
    (V8_of_V0 m outs c main_arg3 (by decide) (by decide) (by decide) (by decide) (by decide) (by decide) (by decide) (by decide))

/-- Items 0 to 5 at the launch contents. -/
theorem host_pad_V6 (c : Dev nD) (S : Spec.Mat 2048 20000) (cand : Spec.Mat 1 20000) (M : Spec.Mat 20000 256)
    (h0 : (V0 m c main_arg0 : S2048x20000.Idx → EReal) = ofM S)
    (h1 : (V0 m c main_arg1 : S1x20000.Idx → EReal) = ofM cand)
    (h2 : (V0 m c main_arg2 : S20000x256.Idx → EReal) = ofM M) :
    (V6 m c main_v1 : S2048x20480.Idx → EReal) = ofM (Spec.padCols S)
      ∧ (V6 m c main_v3 : S1x20480.Idx → EReal) = ofM (Spec.padCols cand)
      ∧ (V6 m c main_v5 : S20480x256.Idx → EReal) = ofM (Spec.padRows M) :=
  host_pad (V0 m c) S cand M h0 h1 h2

/-- Item 8 from the launch contents of the eight weights. -/
theorem host_casts_V9 (c : Dev nD) (qS : Spec.Mat 1 256) (Wk Wv Q K V W1 W2 : Spec.Mat 256 256)
    (h4 : (V0 m c main_arg4 : S1x256.Idx → EReal) = ofM qS)
    (h10 : (V0 m c main_arg10 : S256x256.Idx → EReal) = ofM Wk)
    (h11 : (V0 m c main_arg11 : S256x256.Idx → EReal) = ofM Wv)
    (h7 : (V0 m c main_arg7 : S256x256.Idx → EReal) = ofM Q)
    (h8 : (V0 m c main_arg8 : S256x256.Idx → EReal) = ofM K)
    (h9 : (V0 m c main_arg9 : S256x256.Idx → EReal) = ofM V)
    (h12 : (V0 m c main_arg12 : S256x256.Idx → EReal) = ofM W1)
    (h13 : (V0 m c main_arg13 : S256x256.Idx → EReal) = ofM W2) :
    (V9 m outs c main_v8 : S1x256.Idx → EReal) = ofM qS
      ∧ (V9 m outs c main_v9 : S256x256.Idx → EReal) = ofM Wk
      ∧ (V9 m outs c main_v10 : S256x256.Idx → EReal) = ofM Wv
      ∧ (V9 m outs c main_v11 : S256x256.Idx → EReal) = ofM Q
      ∧ (V9 m outs c main_v12 : S256x256.Idx → EReal) = ofM K
      ∧ (V9 m outs c main_v13 : S256x256.Idx → EReal) = ofM V
      ∧ (V9 m outs c main_v14 : S256x256.Idx → EReal) = ofM W1
      ∧ (V9 m outs c main_v15 : S256x256.Idx → EReal) = ofM W2 :=
  host_casts (V8 m outs c) qS Wk Wv Q K V W1 W2
    ((V8_of_V0 m outs c main_arg4 (by decide) (by decide) (by decide) (by decide) (by decide) (by decide) (by decide) (by decide)).trans h4)
    ((V8_of_V0 m outs c main_arg10 (by decide) (by decide) (by decide) (by decide) (by decide) (by decide) (by decide) (by decide)).trans h10)
    ((V8_of_V0 m outs c main_arg11 (by decide) (by decide) (by decide) (by decide) (by decide) (by decide) (by decide) (by decide)).trans h11)
    ((V8_of_V0 m outs c main_arg7 (by decide) (by decide) (by decide) (by decide) (by decide) (by decide) (by decide) (by decide)).trans h7)
    ((V8_of_V0 m outs c main_arg8 (by decide) (by decide) (by decide) (by decide) (by decide) (by decide) (by decide) (by decide)).trans h8)
    ((V8_of_V0 m outs c main_arg9 (by decide) (by decide) (by decide) (by decide) (by decide) (by decide) (by decide) (by decide)).trans h9)
    ((V8_of_V0 m outs c main_arg12 (by decide) (by decide) (by decide) (by decide) (by decide) (by decide) (by decide) (by decide)).trans h12)
    ((V8_of_V0 m outs c main_arg13 (by decide) (by decide) (by decide) (by decide) (by decide) (by decide) (by decide) (by decide)).trans h13)

/-- Items 10 to 12 from what region 0 left in `main_v6` and the launch contents of the positional term. -/
theorem host_tril_x0_V13 (c : Dev nD) (E P : Spec.Mat 2048 256)
    (h6 : (V7 m outs c main_v6 : S2048x256.Idx → EReal) = ofM E)
    (h3 : (V0 m c main_arg3 : S2048x256.Idx → EReal) = ofM P) :
    (V13 m outs c main_v18 : S2048x2048.Idx → EReal) = ofM (Spec.tril 2048)
      ∧ (V13 m outs c main_v20 : S2048x256.Idx → EReal) = ofM (Matrix.of fun i j => E i j + P i j) :=
  host_tril_x0 (V10 m outs c) E P ((V10_v6 m outs c).trans h6) ((V10_arg3 m outs c).trans h3)

/-- Items 23 and 24 from the launch contents of the gate weights and what region 1 left in `main_v7`. -/
theorem host_gate_in_V25 (c : Dev nD) (Wg : Spec.Mat 768 1) (mrow : Spec.Mat 1 256)
    (h5 : (V0 m c main_arg5 : S768x1.Idx → EReal) = ofM Wg)
    (h7 : (V8 m outs c main_v7 : S1x256.Idx → EReal) = ofM mrow) :
    (V25 m outs c main_v31 : S768x1.Idx → EReal) = ofM Wg
      ∧ (V25 m outs c main_v33 : S256x128.Idx → EReal) = ofM (padT mrow) :=
  host_gate_in (V23 m outs c) Wg mrow ((V23_arg5 m outs c).trans h5) ((V23_v7 m outs c).trans h7)

/-- Item 26: the result is column 0 of what region 13 left in `main_v34`. -/
theorem host_slice_V27 (c : Dev nD) (i : Fin 2048) :
    (V27 m outs c main_v35 : S2048x1.Idx → EReal) (ix2 i 0)
      = (V26 m outs c main_v34 : S2048x128.Idx → EReal) (ix2 i 0) :=
  host_slice (V26 m outs c) i

end Cert.KernelIdeal.HandVal

end
-- ==== Proof.LibCoe.DotK.lean ====
import proofs.«104406_j63058709840319_2_alg».proof.KernelIdeal
import proofs.«104406_j63058709840319_2_alg».proof.Proof.Gen.KernelIdeal
import proofs.«104406_j63058709840319_2_alg».proof.Proof.Spec
import proofs.«104406_j63058709840319_2_alg».proof.Proof.LibCoe.Basic
import Idealize.ShloMosaic.Lib.ValueIdx
import Idealize.ShloMosaic.PureOps.Ideal.Laws

/-!
  The kernel's matrix products at the ideal values. For each of its twelve dimension-number records: the product
  into a zero accumulator read at entry (i, j) is the sum over the one contracted coordinate of the operands' products
  (for arbitrary extended-real operands), and on two real matrices it is the real matrix product (with the right factor
  transposed for the two records that contract axis 1 of both operands).
-/

noncomputable section

open scoped BigOperators

namespace Cert.LibCoe

open Idealize.ShloMosaic Idealize.ShloMosaic.ValueIdx Cert.KernelIdeal

/-- The coercion of a finite real sum is the sum of the coercions. -/
theorem coe_sum {ι : Type*} (s : Finset ι) (f : ι → ℝ) : ((∑ k ∈ s, f k : ℝ) : EReal) = ∑ k ∈ s, ((f k : ℝ) : EReal) := by
  classical
  refine Finset.induction_on s (by simp) fun a s ha ih => ?_
  rw [Finset.sum_insert ha, Finset.sum_insert ha, EReal.coe_add, ih]

/-! ## [1024, 2560] times [2560, 256] -/

theorem lhs_S1024x2560_S2560x256_0 (i : S1024x256.Idx) (q : dot_S1024x2560_S2560x256_S1024x256_1_0_0_1_n_n.contr.Idx) :
    (dot_S1024x2560_S2560x256_S1024x256_1_0_0_1_n_n.lhsIdx i q 0).val = (i 0).val := by
  unfold DotDims.lhsIdx
  rw [dif_neg (show ¬(0 : Fin S1024x2560.rank) ∈ dot_S1024x2560_S2560x256_S1024x256_1_0_0_1_n_n.lhsBatch by decide), dif_pos (show (0 : Fin S1024x2560.rank) ∈ dot_S1024x2560_S2560x256_S1024x256_1_0_0_1_n_n.lhsNonContracting by decide)]
  rfl
theorem lhs_S1024x2560_S2560x256_1 (i : S1024x256.Idx) (q : dot_S1024x2560_S2560x256_S1024x256_1_0_0_1_n_n.contr.Idx) :
    (dot_S1024x2560_S2560x256_S1024x256_1_0_0_1_n_n.lhsIdx i q 1).val = (q ⟨0, by decide⟩).val :=
  dot_S1024x2560_S2560x256_S1024x256_1_0_0_1_n_n.lhsIdx_val_of_single rfl i q
theorem rhs_S1024x2560_S2560x256_0 (i : S1024x256.Idx) (q : dot_S1024x2560_S2560x256_S1024x256_1_0_0_1_n_n.contr.Idx) :
    (dot_S1024x2560_S2560x256_S1024x256_1_0_0_1_n_n.rhsIdx i q 0).val = (q ⟨0, by decide⟩).val :=
  dot_S1024x2560_S2560x256_S1024x256_1_0_0_1_n_n.rhsIdx_val_of_single rfl i q
theorem rhs_S1024x2560_S2560x256_1 (i : S1024x256.Idx) (q : dot_S1024x2560_S2560x256_S1024x256_1_0_0_1_n_n.contr.Idx) :
    (dot_S1024x2560_S2560x256_S1024x256_1_0_0_1_n_n.rhsIdx i q 1).val = (i 1).val := by
  unfold DotDims.rhsIdx
  rw [dif_neg (show ¬(1 : Fin S2560x256.rank) ∈ dot_S1024x2560_S2560x256_S1024x256_1_0_0_1_n_n.rhsBatch by decide), dif_pos (show (1 : Fin S2560x256.rank) ∈ dot_S1024x2560_S2560x256_S1024x256_1_0_0_1_n_n.rhsNonContracting by decide)]
  rfl

/-- The product into a zero accumulator at entry (i, j): the sum over the contracted coordinate. -/
theorem matmul_S1024x2560_S2560x256_apply {φ₁ φ₂ : FTy} (x : FVec Ideal S1024x2560 φ₁) (y : FVec Ideal S2560x256 φ₂) (i : Fin 1024) (j : Fin 256) :
    matmul (F := Ideal) dot_S1024x2560_S2560x256_S1024x256_1_0_0_1_n_n none x y (constant S1024x256 .f32 0x00000000#32) (ix2 i j)
      = ∑ k : Fin 2560, x (ix2 i k) * y (ix2 k j) := by
  show FloatOps.matmul dot_S1024x2560_S2560x256_S1024x256_1_0_0_1_n_n none x y (constant S1024x256 .f32 0x00000000#32) (ix2 i j) = _
  rw [Ideal.matmul_constant_zero_apply, ← Equiv.sum_comp (contrEquiv1 dot_S1024x2560_S2560x256_S1024x256_1_0_0_1_n_n 2560 rfl rfl).symm]
  refine Finset.sum_congr rfl fun k _ => ?_
  have hk := contrEquiv1_symm_val dot_S1024x2560_S2560x256_S1024x256_1_0_0_1_n_n 2560 rfl rfl k
  have el : dot_S1024x2560_S2560x256_S1024x256_1_0_0_1_n_n.lhsIdx (ix2 i j) ((contrEquiv1 dot_S1024x2560_S2560x256_S1024x256_1_0_0_1_n_n 2560 rfl rfl).symm k) = ix2 i k :=
    funext fun a => Fin.ext (by
      match a with
      | ⟨0, _⟩ => exact lhs_S1024x2560_S2560x256_0 _ _
      | ⟨1, _⟩ => exact (lhs_S1024x2560_S2560x256_1 _ _).trans hk)
  have er : dot_S1024x2560_S2560x256_S1024x256_1_0_0_1_n_n.rhsIdx (ix2 i j) ((contrEquiv1 dot_S1024x2560_S2560x256_S1024x256_1_0_0_1_n_n 2560 rfl rfl).symm k) = ix2 k j :=
    funext fun a => Fin.ext (by
      match a with
      | ⟨0, _⟩ => exact (rhs_S1024x2560_S2560x256_0 _ _).trans hk
      | ⟨1, _⟩ => exact rhs_S1024x2560_S2560x256_1 _ _)
  rw [el, er]

/-- On real matrices the product into a zero accumulator is the real matrix product. -/
theorem matmul_S1024x2560_S2560x256 {φ₁ φ₂ : FTy} (A : Cert.Spec.Mat 1024 2560) (B : Cert.Spec.Mat 2560 256) :
    matmul (F := Ideal) (φ₁ := φ₁) (φ₂ := φ₂) dot_S1024x2560_S2560x256_S1024x256_1_0_0_1_n_n none (ofM A) (ofM B) (constant S1024x256 .f32 0x00000000#32)
      = ofM (Cert.Spec.mm A B) := by
  funext i
  obtain ⟨p, q, rfl⟩ : ∃ (p : Fin 1024) (q : Fin 256), i = ix2 p q := ⟨i 0, i 1, eq_ix2 i⟩
  rw [matmul_S1024x2560_S2560x256_apply]
  show ∑ k : Fin 2560, ((A p k : ℝ) : EReal) * ((B k q : ℝ) : EReal) = ((∑ k, A p k * B k q : ℝ) : EReal)
  rw [coe_sum]
  simp only [EReal.coe_mul]

/-! ## [1, 2560] times [2560, 256] -/

theorem lhs_S1x2560_S2560x256_0 (i : S1x256.Idx) (q : dot_S1x2560_S2560x256_S1x256_1_0_0_1_n_n.contr.Idx) :
    (dot_S1x2560_S2560x256_S1x256_1_0_0_1_n_n.lhsIdx i q 0).val = (i 0).val := by
  unfold DotDims.lhsIdx
  rw [dif_neg (show ¬(0 : Fin S1x2560.rank) ∈ dot_S1x2560_S2560x256_S1x256_1_0_0_1_n_n.lhsBatch by decide), dif_pos (show (0 : Fin S1x2560.rank) ∈ dot_S1x2560_S2560x256_S1x256_1_0_0_1_n_n.lhsNonContracting by decide)]
  rfl
theorem lhs_S1x2560_S2560x256_1 (i : S1x256.Idx) (q : dot_S1x2560_S2560x256_S1x256_1_0_0_1_n_n.contr.Idx) :
    (dot_S1x2560_S2560x256_S1x256_1_0_0_1_n_n.lhsIdx i q 1).val = (q ⟨0, by decide⟩).val :=
  dot_S1x2560_S2560x256_S1x256_1_0_0_1_n_n.lhsIdx_val_of_single rfl i q
theorem rhs_S1x2560_S2560x256_0 (i : S1x256.Idx) (q : dot_S1x2560_S2560x256_S1x256_1_0_0_1_n_n.contr.Idx) :
    (dot_S1x2560_S2560x256_S1x256_1_0_0_1_n_n.rhsIdx i q 0).val = (q ⟨0, by decide⟩).val :=
  dot_S1x2560_S2560x256_S1x256_1_0_0_1_n_n.rhsIdx_val_of_single rfl i q
theorem rhs_S1x2560_S2560x256_1 (i : S1x256.Idx) (q : dot_S1x2560_S2560x256_S1x256_1_0_0_1_n_n.contr.Idx) :
    (dot_S1x2560_S2560x256_S1x256_1_0_0_1_n_n.rhsIdx i q 1).val = (i 1).val := by
  unfold DotDims.rhsIdx
  rw [dif_neg (show ¬(1 : Fin S2560x256.rank) ∈ dot_S1x2560_S2560x256_S1x256_1_0_0_1_n_n.rhsBatch by decide), dif_pos (show (1 : Fin S2560x256.rank) ∈ dot_S1x2560_S2560x256_S1x256_1_0_0_1_n_n.rhsNonContracting by decide)]
  rfl

/-- The product into a zero accumulator at entry (i, j): the sum over the contracted coordinate. -/
theorem matmul_S1x2560_S2560x256_apply {φ₁ φ₂ : FTy} (x : FVec Ideal S1x2560 φ₁) (y : FVec Ideal S2560x256 φ₂) (i : Fin 1) (j : Fin 256) :
    matmul (F := Ideal) dot_S1x2560_S2560x256_S1x256_1_0_0_1_n_n none x y (constant S1x256 .f32 0x00000000#32) (ix2 i j)
      = ∑ k : Fin 2560, x (ix2 i k) * y (ix2 k j) := by
  show FloatOps.matmul dot_S1x2560_S2560x256_S1x256_1_0_0_1_n_n none x y (constant S1x256 .f32 0x00000000#32) (ix2 i j) = _
  rw [Ideal.matmul_constant_zero_apply, ← Equiv.sum_comp (contrEquiv1 dot_S1x2560_S2560x256_S1x256_1_0_0_1_n_n 2560 rfl rfl).symm]
  refine Finset.sum_congr rfl fun k _ => ?_
  have hk := contrEquiv1_symm_val dot_S1x2560_S2560x256_S1x256_1_0_0_1_n_n 2560 rfl rfl k
  have el : dot_S1x2560_S2560x256_S1x256_1_0_0_1_n_n.lhsIdx (ix2 i j) ((contrEquiv1 dot_S1x2560_S2560x256_S1x256_1_0_0_1_n_n 2560 rfl rfl).symm k) = ix2 i k :=
    funext fun a => Fin.ext (by
      match a with
      | ⟨0, _⟩ => exact lhs_S1x2560_S2560x256_0 _ _
      | ⟨1, _⟩ => exact (lhs_S1x2560_S2560x256_1 _ _).trans hk)
  have er : dot_S1x2560_S2560x256_S1x256_1_0_0_1_n_n.rhsIdx (ix2 i j) ((contrEquiv1 dot_S1x2560_S2560x256_S1x256_1_0_0_1_n_n 2560 rfl rfl).symm k) = ix2 k j :=
    funext fun a => Fin.ext (by
      match a with
      | ⟨0, _⟩ => exact (rhs_S1x2560_S2560x256_0 _ _).trans hk
      | ⟨1, _⟩ => exact rhs_S1x2560_S2560x256_1 _ _)
  rw [el, er]

/-- On real matrices the product into a zero accumulator is the real matrix product. -/
theorem matmul_S1x2560_S2560x256 {φ₁ φ₂ : FTy} (A : Cert.Spec.Mat 1 2560) (B : Cert.Spec.Mat 2560 256) :
    matmul (F := Ideal) (φ₁ := φ₁) (φ₂ := φ₂) dot_S1x2560_S2560x256_S1x256_1_0_0_1_n_n none (ofM A) (ofM B) (constant S1x256 .f32 0x00000000#32)
      = ofM (Cert.Spec.mm A B) := by
  funext i
  obtain ⟨p, q, rfl⟩ : ∃ (p : Fin 1) (q : Fin 256), i = ix2 p q := ⟨i 0, i 1, eq_ix2 i⟩
  rw [matmul_S1x2560_S2560x256_apply]
  show ∑ k : Fin 2560, ((A p k : ℝ) : EReal) * ((B k q : ℝ) : EReal) = ((∑ k, A p k * B k q : ℝ) : EReal)
  rw [coe_sum]
  simp only [EReal.coe_mul]

/-! ## [2048, 256] times [256, 256] -/

theorem lhs_S2048x256_S256x256_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_S2048x256_S256x256_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_S2048x256_S256x256_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_S2048x256_S256x256_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The product into a zero accumulator at entry (i, j): the sum over the contracted coordinate. -/
theorem matmul_S2048x256_S256x256_apply {φ₁ φ₂ : FTy} (x : FVec Ideal S2048x256 φ₁) (y : FVec Ideal S256x256 φ₂) (i : Fin 2048) (j : Fin 256) :
    matmul (F := Ideal) dot_S2048x256_S256x256_S2048x256_1_0_0_1_n_n none x y (constant S2048x256 .f32 0x00000000#32) (ix2 i j)
      = ∑ k : Fin 256, x (ix2 i k) * y (ix2 k j) := by
  show FloatOps.matmul dot_S2048x256_S256x256_S2048x256_1_0_0_1_n_n none x y (constant S2048x256 .f32 0x00000000#32) (ix2 i j) = _
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 i j) ((contrEquiv1 dot_S2048x256_S256x256_S2048x256_1_0_0_1_n_n 256 rfl rfl).symm k) = ix2 i k :=
    funext fun a => Fin.ext (by
      match a with
      | ⟨0, _⟩ => exact lhs_S2048x256_S256x256_0 _ _
      | ⟨1, _⟩ => exact (lhs_S2048x256_S256x256_1 _ _).trans hk)
  have er : dot_S2048x256_S256x256_S2048x256_1_0_0_1_n_n.rhsIdx (ix2 i j) ((contrEquiv1 dot_S2048x256_S256x256_S2048x256_1_0_0_1_n_n 256 rfl rfl).symm k) = ix2 k j :=
    funext fun a => Fin.ext (by
      match a with
      | ⟨0, _⟩ => exact (rhs_S2048x256_S256x256_0 _ _).trans hk
      | ⟨1, _⟩ => exact rhs_S2048x256_S256x256_1 _ _)
  rw [el, er]

/-- On real matrices the product into a zero accumulator is the real matrix product. -/
theorem matmul_S2048x256_S256x256 {φ₁ φ₂ : FTy} (A : Cert.Spec.Mat 2048 256) (B : Cert.Spec.Mat 256 256) :
    matmul (F := Ideal) (φ₁ := φ₁) (φ₂ := φ₂) dot_S2048x256_S256x256_S2048x256_1_0_0_1_n_n none (ofM A) (ofM B) (constant S2048x256 .f32 0x00000000#32)
      = ofM (Cert.Spec.mm A B) := by
  funext i
  obtain ⟨p, q, rfl⟩ : ∃ (p : Fin 2048) (q : Fin 256), i = ix2 p q := ⟨i 0, i 1, eq_ix2 i⟩
  rw [matmul_S2048x256_S256x256_apply]
  show ∑ k : Fin 256, ((A p k : ℝ) : EReal) * ((B k q : ℝ) : EReal) = ((∑ k, A p k * B k q : ℝ) : EReal)
  rw [coe_sum]
  simp only [EReal.coe_mul]

/-! ## [1, 256] times [2048, 256] transposed -/

theorem lhs_S1x256_S2048x256_0 (i : S1x2048.Idx) (q : dot_S1x256_S2048x256_S1x2048_1_1_0_0_n_n.contr.Idx) :
    (dot_S1x256_S2048x256_S1x2048_1_1_0_0_n_n.lhsIdx i q 0).val = (i 0).val := by
  unfold DotDims.lhsIdx
  rw [dif_neg (show ¬(0 : Fin S1x256.rank) ∈ dot_S1x256_S2048x256_S1x2048_1_1_0_0_n_n.lhsBatch by decide), dif_pos (show (0 : Fin S1x256.rank) ∈ dot_S1x256_S2048x256_S1x2048_1_1_0_0_n_n.lhsNonContracting by decide)]
  rfl
theorem lhs_S1x256_S2048x256_1 (i : S1x2048.Idx) (q : dot_S1x256_S2048x256_S1x2048_1_1_0_0_n_n.contr.Idx) :
    (dot_S1x256_S2048x256_S1x2048_1_1_0_0_n_n.lhsIdx i q 1).val = (q ⟨0, by decide⟩).val :=
  dot_S1x256_S2048x256_S1x2048_1_1_0_0_n_n.lhsIdx_val_of_single rfl i q
theorem rhs_S1x256_S2048x256_0 (i : S1x2048.Idx) (q : dot_S1x256_S2048x256_S1x2048_1_1_0_0_n_n.contr.Idx) :
    (dot_S1x256_S2048x256_S1x2048_1_1_0_0_n_n.rhsIdx i q 0).val = (i 1).val := by
  unfold DotDims.rhsIdx
  rw [dif_neg (show ¬(0 : Fin S2048x256.rank) ∈ dot_S1x256_S2048x256_S1x2048_1_1_0_0_n_n.rhsBatch by decide), dif_pos (show (0 : Fin S2048x256.rank) ∈ dot_S1x256_S2048x256_S1x2048_1_1_0_0_n_n.rhsNonContracting by decide)]
  rfl
theorem rhs_S1x256_S2048x256_1 (i : S1x2048.Idx) (q : dot_S1x256_S2048x256_S1x2048_1_1_0_0_n_n.contr.Idx) :
    (dot_S1x256_S2048x256_S1x2048_1_1_0_0_n_n.rhsIdx i q 1).val = (q ⟨0, by decide⟩).val :=
  dot_S1x256_S2048x256_S1x2048_1_1_0_0_n_n.rhsIdx_val_of_single rfl i q

/-- The product into a zero accumulator at entry (i, j): the sum over the contracted coordinate. -/
theorem matmul_S1x256_S2048x256_apply {φ₁ φ₂ : FTy} (x : FVec Ideal S1x256 φ₁) (y : FVec Ideal S2048x256 φ₂) (i : Fin 1) (j : Fin 2048) :
    matmul (F := Ideal) dot_S1x256_S2048x256_S1x2048_1_1_0_0_n_n none x y (constant S1x2048 .f32 0x00000000#32) (ix2 i j)
      = ∑ k : Fin 256, x (ix2 i k) * y (ix2 j k) := by
  show FloatOps.matmul dot_S1x256_S2048x256_S1x2048_1_1_0_0_n_n none x y (constant S1x2048 .f32 0x00000000#32) (ix2 i j) = _
  rw [Ideal.matmul_constant_zero_apply, ← Equiv.sum_comp (contrEquiv1 dot_S1x256_S2048x256_S1x2048_1_1_0_0_n_n 256 rfl rfl).symm]
  refine Finset.sum_congr rfl fun k _ => ?_
  have hk := contrEquiv1_symm_val dot_S1x256_S2048x256_S1x2048_1_1_0_0_n_n 256 rfl rfl k
  have el : dot_S1x256_S2048x256_S1x2048_1_1_0_0_n_n.lhsIdx (ix2 i j) ((contrEquiv1 dot_S1x256_S2048x256_S1x2048_1_1_0_0_n_n 256 rfl rfl).symm k) = ix2 i k :=
    funext fun a => Fin.ext (by
      match a with
      | ⟨0, _⟩ => exact lhs_S1x256_S2048x256_0 _ _
      | ⟨1, _⟩ => exact (lhs_S1x256_S2048x256_1 _ _).trans hk)
  have er : dot_S1x256_S2048x256_S1x2048_1_1_0_0_n_n.rhsIdx (ix2 i j) ((contrEquiv1 dot_S1x256_S2048x256_S1x2048_1_1_0_0_n_n 256 rfl rfl).symm k) = ix2 j k :=
    funext fun a => Fin.ext (by
      match a with
      | ⟨0, _⟩ => exact rhs_S1x256_S2048x256_0 _ _
      | ⟨1, _⟩ => exact (rhs_S1x256_S2048x256_1 _ _).trans hk)
  rw [el, er]

/-- On real matrices the product into a zero accumulator, contracting the second axis of both, is the real product with the right factor transposed. -/
theorem matmul_S1x256_S2048x256 {φ₁ φ₂ : FTy} (A : Cert.Spec.Mat 1 256) (B : Cert.Spec.Mat 2048 256) :
    matmul (F := Ideal) (φ₁ := φ₁) (φ₂ := φ₂) dot_S1x256_S2048x256_S1x2048_1_1_0_0_n_n none (ofM A) (ofM B) (constant S1x2048 .f32 0x00000000#32)
      = ofM (Cert.Spec.mm A (Cert.Spec.tr B)) := by
  funext i
  obtain ⟨p, q, rfl⟩ : ∃ (p : Fin 1) (q : Fin 2048), i = ix2 p q := ⟨i 0, i 1, eq_ix2 i⟩
  rw [matmul_S1x256_S2048x256_apply]
  show ∑ k : Fin 256, ((A p k : ℝ) : EReal) * ((B q k : ℝ) : EReal) = ((∑ k, A p k * B q k : ℝ) : EReal)
  rw [coe_sum]
  simp only [EReal.coe_mul]

/-! ## [1, 2048] times [2048, 256] -/

theorem lhs_S1x2048_S2048x256_0 (i : S1x256.Idx) (q : dot_S1x2048_S2048x256_S1x256_1_0_0_1_n_n.contr.Idx) :
    (dot_S1x2048_S2048x256_S1x256_1_0_0_1_n_n.lhsIdx i q 0).val = (i 0).val := by
  unfold DotDims.lhsIdx
  rw [dif_neg (show ¬(0 : Fin S1x2048.rank) ∈ dot_S1x2048_S2048x256_S1x256_1_0_0_1_n_n.lhsBatch by decide), dif_pos (show (0 : Fin S1x2048.rank) ∈ dot_S1x2048_S2048x256_S1x256_1_0_0_1_n_n.lhsNonContracting by decide)]
  rfl
theorem lhs_S1x2048_S2048x256_1 (i : S1x256.Idx) (q : dot_S1x2048_S2048x256_S1x256_1_0_0_1_n_n.contr.Idx) :
    (dot_S1x2048_S2048x256_S1x256_1_0_0_1_n_n.lhsIdx i q 1).val = (q ⟨0, by decide⟩).val :=
  dot_S1x2048_S2048x256_S1x256_1_0_0_1_n_n.lhsIdx_val_of_single rfl i q
theorem rhs_S1x2048_S2048x256_0 (i : S1x256.Idx) (q : dot_S1x2048_S2048x256_S1x256_1_0_0_1_n_n.contr.Idx) :
    (dot_S1x2048_S2048x256_S1x256_1_0_0_1_n_n.rhsIdx i q 0).val = (q ⟨0, by decide⟩).val :=
  dot_S1x2048_S2048x256_S1x256_1_0_0_1_n_n.rhsIdx_val_of_single rfl i q
theorem rhs_S1x2048_S2048x256_1 (i : S1x256.Idx) (q : dot_S1x2048_S2048x256_S1x256_1_0_0_1_n_n.contr.Idx) :
    (dot_S1x2048_S2048x256_S1x256_1_0_0_1_n_n.rhsIdx i q 1).val = (i 1).val := by
  unfold DotDims.rhsIdx
  rw [dif_neg (show ¬(1 : Fin S2048x256.rank) ∈ dot_S1x2048_S2048x256_S1x256_1_0_0_1_n_n.rhsBatch by decide), dif_pos (show (1 : Fin S2048x256.rank) ∈ dot_S1x2048_S2048x256_S1x256_1_0_0_1_n_n.rhsNonContracting by decide)]
  rfl

/-- The product into a zero accumulator at entry (i, j): the sum over the contracted coordinate. -/
theorem matmul_S1x2048_S2048x256_apply {φ₁ φ₂ : FTy} (x : FVec Ideal S1x2048 φ₁) (y : FVec Ideal S2048x256 φ₂) (i : Fin 1) (j : Fin 256) :
    matmul (F := Ideal) dot_S1x2048_S2048x256_S1x256_1_0_0_1_n_n none x y (constant S1x256 .f32 0x00000000#32) (ix2 i j)
      = ∑ k : Fin 2048, x (ix2 i k) * y (ix2 k j) := by
  show FloatOps.matmul dot_S1x2048_S2048x256_S1x256_1_0_0_1_n_n none x y (constant S1x256 .f32 0x00000000#32) (ix2 i j) = _
  rw [Ideal.matmul_constant_zero_apply, ← Equiv.sum_comp (contrEquiv1 dot_S1x2048_S2048x256_S1x256_1_0_0_1_n_n 2048 rfl rfl).symm]
  refine Finset.sum_congr rfl fun k _ => ?_
  have hk := contrEquiv1_symm_val dot_S1x2048_S2048x256_S1x256_1_0_0_1_n_n 2048 rfl rfl k
  have el : dot_S1x2048_S2048x256_S1x256_1_0_0_1_n_n.lhsIdx (ix2 i j) ((contrEquiv1 dot_S1x2048_S2048x256_S1x256_1_0_0_1_n_n 2048 rfl rfl).symm k) = ix2 i k :=
    funext fun a => Fin.ext (by
      match a with
      | ⟨0, _⟩ => exact lhs_S1x2048_S2048x256_0 _ _
      | ⟨1, _⟩ => exact (lhs_S1x2048_S2048x256_1 _ _).trans hk)
  have er : dot_S1x2048_S2048x256_S1x256_1_0_0_1_n_n.rhsIdx (ix2 i j) ((contrEquiv1 dot_S1x2048_S2048x256_S1x256_1_0_0_1_n_n 2048 rfl rfl).symm k) = ix2 k j :=
    funext fun a => Fin.ext (by
      match a with
      | ⟨0, _⟩ => exact (rhs_S1x2048_S2048x256_0 _ _).trans hk
      | ⟨1, _⟩ => exact rhs_S1x2048_S2048x256_1 _ _)
  rw [el, er]

/-- On real matrices the product into a zero accumulator is the real matrix product. -/
theorem matmul_S1x2048_S2048x256 {φ₁ φ₂ : FTy} (A : Cert.Spec.Mat 1 2048) (B : Cert.Spec.Mat 2048 256) :
    matmul (F := Ideal) (φ₁ := φ₁) (φ₂ := φ₂) dot_S1x2048_S2048x256_S1x256_1_0_0_1_n_n none (ofM A) (ofM B) (constant S1x256 .f32 0x00000000#32)
      = ofM (Cert.Spec.mm A B) := by
  funext i
  obtain ⟨p, q, rfl⟩ : ∃ (p : Fin 1) (q : Fin 256), i = ix2 p q := ⟨i 0, i 1, eq_ix2 i⟩
  rw [matmul_S1x2048_S2048x256_apply]
  show ∑ k : Fin 2048, ((A p k : ℝ) : EReal) * ((B k q : ℝ) : EReal) = ((∑ k, A p k * B k q : ℝ) : EReal)
  rw [coe_sum]
  simp only [EReal.coe_mul]

/-! ## [2048, 2048] times [2048, 256] -/

theorem lhs_S2048x2048_S2048x256_0 (i : S2048x256.Idx) (q : dot_S2048x2048_S2048x256_S2048x256_1_0_0_1_n_n.contr.Idx) :
    (dot_S2048x2048_S2048x256_S2048x256_1_0_0_1_n_n.lhsIdx i q 0).val = (i 0).val := by
  unfold DotDims.lhsIdx
  rw [dif_neg (show ¬(0 : Fin S2048x2048.rank) ∈ dot_S2048x2048_S2048x256_S2048x256_1_0_0_1_n_n.lhsBatch by decide), dif_pos (show (0 : Fin S2048x2048.rank) ∈ dot_S2048x2048_S2048x256_S2048x256_1_0_0_1_n_n.lhsNonContracting by decide)]
  rfl
theorem lhs_S2048x2048_S2048x256_1 (i : S2048x256.Idx) (q : dot_S2048x2048_S2048x256_S2048x256_1_0_0_1_n_n.contr.Idx) :
    (dot_S2048x2048_S2048x256_S2048x256_1_0_0_1_n_n.lhsIdx i q 1).val = (q ⟨0, by decide⟩).val :=
  dot_S2048x2048_S2048x256_S2048x256_1_0_0_1_n_n.lhsIdx_val_of_single rfl i q
theorem rhs_S2048x2048_S2048x256_0 (i : S2048x256.Idx) (q : dot_S2048x2048_S2048x256_S2048x256_1_0_0_1_n_n.contr.Idx) :
    (dot_S2048x2048_S2048x256_S2048x256_1_0_0_1_n_n.rhsIdx i q 0).val = (q ⟨0, by decide⟩).val :=
  dot_S2048x2048_S2048x256_S2048x256_1_0_0_1_n_n.rhsIdx_val_of_single rfl i q
theorem rhs_S2048x2048_S2048x256_1 (i : S2048x256.Idx) (q : dot_S2048x2048_S2048x256_S2048x256_1_0_0_1_n_n.contr.Idx) :
    (dot_S2048x2048_S2048x256_S2048x256_1_0_0_1_n_n.rhsIdx i q 1).val = (i 1).val := by
  unfold DotDims.rhsIdx
  rw [dif_neg (show ¬(1 : Fin S2048x256.rank) ∈ dot_S2048x2048_S2048x256_S2048x256_1_0_0_1_n_n.rhsBatch by decide), dif_pos (show (1 : Fin S2048x256.rank) ∈ dot_S2048x2048_S2048x256_S2048x256_1_0_0_1_n_n.rhsNonContracting by decide)]
  rfl

/-- The product into a zero accumulator at entry (i, j): the sum over the contracted coordinate. -/
theorem matmul_S2048x2048_S2048x256_apply {φ₁ φ₂ : FTy} (x : FVec Ideal S2048x2048 φ₁) (y : FVec Ideal S2048x256 φ₂) (i : Fin 2048) (j : Fin 256) :
    matmul (F := Ideal) dot_S2048x2048_S2048x256_S2048x256_1_0_0_1_n_n none x y (constant S2048x256 .f32 0x00000000#32) (ix2 i j)
      = ∑ k : Fin 2048, x (ix2 i k) * y (ix2 k j) := by
  show FloatOps.matmul dot_S2048x2048_S2048x256_S2048x256_1_0_0_1_n_n none x y (constant S2048x256 .f32 0x00000000#32) (ix2 i j) = _
  rw [Ideal.matmul_constant_zero_apply, ← Equiv.sum_comp (contrEquiv1 dot_S2048x2048_S2048x256_S2048x256_1_0_0_1_n_n 2048 rfl rfl).symm]
  refine Finset.sum_congr rfl fun k _ => ?_
  have hk := contrEquiv1_symm_val dot_S2048x2048_S2048x256_S2048x256_1_0_0_1_n_n 2048 rfl rfl k
  have el : dot_S2048x2048_S2048x256_S2048x256_1_0_0_1_n_n.lhsIdx (ix2 i j) ((contrEquiv1 dot_S2048x2048_S2048x256_S2048x256_1_0_0_1_n_n 2048 rfl rfl).symm k) = ix2 i k :=
    funext fun a => Fin.ext (by
      match a with
      | ⟨0, _⟩ => exact lhs_S2048x2048_S2048x256_0 _ _
      | ⟨1, _⟩ => exact (lhs_S2048x2048_S2048x256_1 _ _).trans hk)
  have er : dot_S2048x2048_S2048x256_S2048x256_1_0_0_1_n_n.rhsIdx (ix2 i j) ((contrEquiv1 dot_S2048x2048_S2048x256_S2048x256_1_0_0_1_n_n 2048 rfl rfl).symm k) = ix2 k j :=
    funext fun a => Fin.ext (by
      match a with
      | ⟨0, _⟩ => exact (rhs_S2048x2048_S2048x256_0 _ _).trans hk
      | ⟨1, _⟩ => exact rhs_S2048x2048_S2048x256_1 _ _)
  rw [el, er]

/-- On real matrices the product into a zero accumulator is the real matrix product. -/
theorem matmul_S2048x2048_S2048x256 {φ₁ φ₂ : FTy} (A : Cert.Spec.Mat 2048 2048) (B : Cert.Spec.Mat 2048 256) :
    matmul (F := Ideal) (φ₁ := φ₁) (φ₂ := φ₂) dot_S2048x2048_S2048x256_S2048x256_1_0_0_1_n_n none (ofM A) (ofM B) (constant S2048x256 .f32 0x00000000#32)
      = ofM (Cert.Spec.mm A B) := by
  funext i
  obtain ⟨p, q, rfl⟩ : ∃ (p : Fin 2048) (q : Fin 256), i = ix2 p q := ⟨i 0, i 1, eq_ix2 i⟩
  rw [matmul_S2048x2048_S2048x256_apply]
  show ∑ k : Fin 2048, ((A p k : ℝ) : EReal) * ((B k q : ℝ) : EReal) = ((∑ k, A p k * B k q : ℝ) : EReal)
  rw [coe_sum]
  simp only [EReal.coe_mul]

/-! ## [512, 256] times [2048, 256] transposed -/

theorem lhs_S512x256_S2048x256_0 (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
theorem lhs_S512x256_S2048x256_1 (i : S512x2048.Idx) (q : dot_S512x256_S2048x256_S512x2048_1_1_0_0_n_n.contr.Idx) :
    (dot_S512x256_S2048x256_S512x2048_1_1_0_0_n_n.lhsIdx i q 1).val = (q ⟨0, by decide⟩).val :=
  dot_S512x256_S2048x256_S512x2048_1_1_0_0_n_n.lhsIdx_val_of_single rfl i q
theorem rhs_S512x256_S2048x256_0 (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
theorem rhs_S512x256_S2048x256_1 (i : S512x2048.Idx) (q : dot_S512x256_S2048x256_S512x2048_1_1_0_0_n_n.contr.Idx) :
    (dot_S512x256_S2048x256_S512x2048_1_1_0_0_n_n.rhsIdx i q 1).val = (q ⟨0, by decide⟩).val :=
  dot_S512x256_S2048x256_S512x2048_1_1_0_0_n_n.rhsIdx_val_of_single rfl i q

/-- The product into a zero accumulator at entry (i, j): the sum over the contracted coordinate. -/
theorem matmul_S512x256_S2048x256_apply {φ₁ φ₂ : FTy} (x : FVec Ideal S512x256 φ₁) (y : FVec Ideal S2048x256 φ₂) (i : Fin 512) (j : Fin 2048) :
    matmul (F := Ideal) dot_S512x256_S2048x256_S512x2048_1_1_0_0_n_n none x y (constant S512x2048 .f32 0x00000000#32) (ix2 i j)
      = ∑ k : Fin 256, x (ix2 i k) * y (ix2 j k) := by
  show FloatOps.matmul dot_S512x256_S2048x256_S512x2048_1_1_0_0_n_n none x y (constant S512x2048 .f32 0x00000000#32) (ix2 i j) = _
  rw [Ideal.matmul_constant_zero_apply, ← Equiv.sum_comp (contrEquiv1 dot_S512x256_S2048x256_S512x2048_1_1_0_0_n_n 256 rfl rfl).symm]
  refine Finset.sum_congr rfl fun k _ => ?_
  have hk := contrEquiv1_symm_val dot_S512x256_S2048x256_S512x2048_1_1_0_0_n_n 256 rfl rfl k
  have el : dot_S512x256_S2048x256_S512x2048_1_1_0_0_n_n.lhsIdx (ix2 i j) ((contrEquiv1 dot_S512x256_S2048x256_S512x2048_1_1_0_0_n_n 256 rfl rfl).symm k) = ix2 i k :=
    funext fun a => Fin.ext (by
      match a with
      | ⟨0, _⟩ => exact lhs_S512x256_S2048x256_0 _ _
      | ⟨1, _⟩ => exact (lhs_S512x256_S2048x256_1 _ _).trans hk)
  have er : dot_S512x256_S2048x256_S512x2048_1_1_0_0_n_n.rhsIdx (ix2 i j) ((contrEquiv1 dot_S512x256_S2048x256_S512x2048_1_1_0_0_n_n 256 rfl rfl).symm k) = ix2 j k :=
    funext fun a => Fin.ext (by
      match a with
      | ⟨0, _⟩ => exact rhs_S512x256_S2048x256_0 _ _
      | ⟨1, _⟩ => exact (rhs_S512x256_S2048x256_1 _ _).trans hk)
  rw [el, er]

/-- On real matrices the product into a zero accumulator, contracting the second axis of both, is the real product with the right factor transposed. -/
theorem matmul_S512x256_S2048x256 {φ₁ φ₂ : FTy} (A : Cert.Spec.Mat 512 256) (B : Cert.Spec.Mat 2048 256) :
    matmul (F := Ideal) (φ₁ := φ₁) (φ₂ := φ₂) dot_S512x256_S2048x256_S512x2048_1_1_0_0_n_n none (ofM A) (ofM B) (constant S512x2048 .f32 0x00000000#32)
      = ofM (Cert.Spec.mm A (Cert.Spec.tr B)) := by
  funext i
  obtain ⟨p, q, rfl⟩ : ∃ (p : Fin 512) (q : Fin 2048), i = ix2 p q := ⟨i 0, i 1, eq_ix2 i⟩
  rw [matmul_S512x256_S2048x256_apply]
  show ∑ k : Fin 256, ((A p k : ℝ) : EReal) * ((B q k : ℝ) : EReal) = ((∑ k, A p k * B q k : ℝ) : EReal)
  rw [coe_sum]
  simp only [EReal.coe_mul]

/-! ## [512, 2048] times [2048, 256] -/

theorem lhs_S512x2048_S2048x256_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem lhs_S512x2048_S2048x256_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem rhs_S512x2048_S2048x256_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem rhs_S512x2048_S2048x256_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- The product into a zero accumulator at entry (i, j): the sum over the contracted coordinate. -/
theorem matmul_S512x2048_S2048x256_apply {φ₁ φ₂ : FTy} (x : FVec Ideal S512x2048 φ₁) (y : FVec Ideal S2048x256 φ₂) (i : Fin 512) (j : Fin 256) :
    matmul (F := Ideal) dot_S512x2048_S2048x256_S512x256_1_0_0_1_n_n none x y (constant S512x256 .f32 0x00000000#32) (ix2 i j)
      = ∑ k : Fin 2048, x (ix2 i k) * y (ix2 k j) := by
  show FloatOps.matmul dot_S512x2048_S2048x256_S512x256_1_0_0_1_n_n none x y (constant S512x256 .f32 0x00000000#32) (ix2 i j) = _
  rw [Ideal.matmul_constant_zero_apply, ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 i j) ((contrEquiv1 dot_S512x2048_S2048x256_S512x256_1_0_0_1_n_n 2048 rfl rfl).symm k) = ix2 i k :=
    funext fun a => Fin.ext (by
      match a with
      | ⟨0, _⟩ => exact lhs_S512x2048_S2048x256_0 _ _
      | ⟨1, _⟩ => exact (lhs_S512x2048_S2048x256_1 _ _).trans hk)
  have er : dot_S512x2048_S2048x256_S512x256_1_0_0_1_n_n.rhsIdx (ix2 i j) ((contrEquiv1 dot_S512x2048_S2048x256_S512x256_1_0_0_1_n_n 2048 rfl rfl).symm k) = ix2 k j :=
    funext fun a => Fin.ext (by
      match a with
      | ⟨0, _⟩ => exact (rhs_S512x2048_S2048x256_0 _ _).trans hk
      | ⟨1, _⟩ => exact rhs_S512x2048_S2048x256_1 _ _)
  rw [el, er]

/-- On real matrices the product into a zero accumulator is the real matrix product. -/
theorem matmul_S512x2048_S2048x256 {φ₁ φ₂ : FTy} (A : Cert.Spec.Mat 512 2048) (B : Cert.Spec.Mat 2048 256) :
    matmul (F := Ideal) (φ₁ := φ₁) (φ₂ := φ₂) dot_S512x2048_S2048x256_S512x256_1_0_0_1_n_n none (ofM A) (ofM B) (constant S512x256 .f32 0x00000000#32)
      = ofM (Cert.Spec.mm A B) := by
  funext i
  obtain ⟨p, q, rfl⟩ : ∃ (p : Fin 512) (q : Fin 256), i = ix2 p q := ⟨i 0, i 1, eq_ix2 i⟩
  rw [matmul_S512x2048_S2048x256_apply]
  show ∑ k : Fin 2048, ((A p k : ℝ) : EReal) * ((B k q : ℝ) : EReal) = ((∑ k, A p k * B k q : ℝ) : EReal)
  rw [coe_sum]
  simp only [EReal.coe_mul]

/-! ## [512, 256] times [256, 256] -/

theorem lhs_S512x256_S256x256_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs_S512x256_S256x256_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_S512x256_S256x256_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_S512x256_S256x256_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The product into a zero accumulator at entry (i, j): the sum over the contracted coordinate. -/
theorem matmul_S512x256_S256x256_apply {φ₁ φ₂ : FTy} (x : FVec Ideal S512x256 φ₁) (y : FVec Ideal S256x256 φ₂) (i : Fin 512) (j : Fin 256) :
    matmul (F := Ideal) dot_S512x256_S256x256_S512x256_1_0_0_1_n_n none x y (constant S512x256 .f32 0x00000000#32) (ix2 i j)
      = ∑ k : Fin 256, x (ix2 i k) * y (ix2 k j) := by
  show FloatOps.matmul dot_S512x256_S256x256_S512x256_1_0_0_1_n_n none x y (constant S512x256 .f32 0x00000000#32) (ix2 i j) = _
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 i j) ((contrEquiv1 dot_S512x256_S256x256_S512x256_1_0_0_1_n_n 256 rfl rfl).symm k) = ix2 i k :=
    funext fun a => Fin.ext (by
      match a with
      | ⟨0, _⟩ => exact lhs_S512x256_S256x256_0 _ _
      | ⟨1, _⟩ => exact (lhs_S512x256_S256x256_1 _ _).trans hk)
  have er : dot_S512x256_S256x256_S512x256_1_0_0_1_n_n.rhsIdx (ix2 i j) ((contrEquiv1 dot_S512x256_S256x256_S512x256_1_0_0_1_n_n 256 rfl rfl).symm k) = ix2 k j :=
    funext fun a => Fin.ext (by
      match a with
      | ⟨0, _⟩ => exact (rhs_S512x256_S256x256_0 _ _).trans hk
      | ⟨1, _⟩ => exact rhs_S512x256_S256x256_1 _ _)
  rw [el, er]

/-- On real matrices the product into a zero accumulator is the real matrix product. -/
theorem matmul_S512x256_S256x256 {φ₁ φ₂ : FTy} (A : Cert.Spec.Mat 512 256) (B : Cert.Spec.Mat 256 256) :
    matmul (F := Ideal) (φ₁ := φ₁) (φ₂ := φ₂) dot_S512x256_S256x256_S512x256_1_0_0_1_n_n none (ofM A) (ofM B) (constant S512x256 .f32 0x00000000#32)
      = ofM (Cert.Spec.mm A B) := by
  funext i
  obtain ⟨p, q, rfl⟩ : ∃ (p : Fin 512) (q : Fin 256), i = ix2 p q := ⟨i 0, i 1, eq_ix2 i⟩
  rw [matmul_S512x256_S256x256_apply]
  show ∑ k : Fin 256, ((A p k : ℝ) : EReal) * ((B k q : ℝ) : EReal) = ((∑ k, A p k * B k q : ℝ) : EReal)
  rw [coe_sum]
  simp only [EReal.coe_mul]

/-! ## [1, 256] times [256, 1] -/

theorem lhs_S1x256_S256x1_0 (i : S1x1.Idx) (q : dot_S1x256_S256x1_S1x1_1_0_0_1_n_n.contr.Idx) :
    (dot_S1x256_S256x1_S1x1_1_0_0_1_n_n.lhsIdx i q 0).val = (i 0).val := by
  unfold DotDims.lhsIdx
  rw [dif_neg (show ¬(0 : Fin S1x256.rank) ∈ dot_S1x256_S256x1_S1x1_1_0_0_1_n_n.lhsBatch by decide), dif_pos (show (0 : Fin S1x256.rank) ∈ dot_S1x256_S256x1_S1x1_1_0_0_1_n_n.lhsNonContracting by decide)]
  rfl
theorem lhs_S1x256_S256x1_1 (i : S1x1.Idx) (q : dot_S1x256_S256x1_S1x1_1_0_0_1_n_n.contr.Idx) :
    (dot_S1x256_S256x1_S1x1_1_0_0_1_n_n.lhsIdx i q 1).val = (q ⟨0, by decide⟩).val :=
  dot_S1x256_S256x1_S1x1_1_0_0_1_n_n.lhsIdx_val_of_single rfl i q
theorem rhs_S1x256_S256x1_0 (i : S1x1.Idx) (q : dot_S1x256_S256x1_S1x1_1_0_0_1_n_n.contr.Idx) :
    (dot_S1x256_S256x1_S1x1_1_0_0_1_n_n.rhsIdx i q 0).val = (q ⟨0, by decide⟩).val :=
  dot_S1x256_S256x1_S1x1_1_0_0_1_n_n.rhsIdx_val_of_single rfl i q
theorem rhs_S1x256_S256x1_1 (i : S1x1.Idx) (q : dot_S1x256_S256x1_S1x1_1_0_0_1_n_n.contr.Idx) :
    (dot_S1x256_S256x1_S1x1_1_0_0_1_n_n.rhsIdx i q 1).val = (i 1).val := by
  unfold DotDims.rhsIdx
  rw [dif_neg (show ¬(1 : Fin S256x1.rank) ∈ dot_S1x256_S256x1_S1x1_1_0_0_1_n_n.rhsBatch by decide), dif_pos (show (1 : Fin S256x1.rank) ∈ dot_S1x256_S256x1_S1x1_1_0_0_1_n_n.rhsNonContracting by decide)]
  rfl

/-- The product into a zero accumulator at entry (i, j): the sum over the contracted coordinate. -/
theorem matmul_S1x256_S256x1_apply {φ₁ φ₂ : FTy} (x : FVec Ideal S1x256 φ₁) (y : FVec Ideal S256x1 φ₂) (i : Fin 1) (j : Fin 1) :
    matmul (F := Ideal) dot_S1x256_S256x1_S1x1_1_0_0_1_n_n none x y (constant S1x1 .f32 0x00000000#32) (ix2 i j)
      = ∑ k : Fin 256, x (ix2 i k) * y (ix2 k j) := by
  show FloatOps.matmul dot_S1x256_S256x1_S1x1_1_0_0_1_n_n none x y (constant S1x1 .f32 0x00000000#32) (ix2 i j) = _
  rw [Ideal.matmul_constant_zero_apply, ← Equiv.sum_comp (contrEquiv1 dot_S1x256_S256x1_S1x1_1_0_0_1_n_n 256 rfl rfl).symm]
  refine Finset.sum_congr rfl fun k _ => ?_
  have hk := contrEquiv1_symm_val dot_S1x256_S256x1_S1x1_1_0_0_1_n_n 256 rfl rfl k
  have el : dot_S1x256_S256x1_S1x1_1_0_0_1_n_n.lhsIdx (ix2 i j) ((contrEquiv1 dot_S1x256_S256x1_S1x1_1_0_0_1_n_n 256 rfl rfl).symm k) = ix2 i k :=
    funext fun a => Fin.ext (by
      match a with
      | ⟨0, _⟩ => exact lhs_S1x256_S256x1_0 _ _
      | ⟨1, _⟩ => exact (lhs_S1x256_S256x1_1 _ _).trans hk)
  have er : dot_S1x256_S256x1_S1x1_1_0_0_1_n_n.rhsIdx (ix2 i j) ((contrEquiv1 dot_S1x256_S256x1_S1x1_1_0_0_1_n_n 256 rfl rfl).symm k) = ix2 k j :=
    funext fun a => Fin.ext (by
      match a with
      | ⟨0, _⟩ => exact (rhs_S1x256_S256x1_0 _ _).trans hk
      | ⟨1, _⟩ => exact rhs_S1x256_S256x1_1 _ _)
  rw [el, er]

/-- On real matrices the product into a zero accumulator is the real matrix product. -/
theorem matmul_S1x256_S256x1 {φ₁ φ₂ : FTy} (A : Cert.Spec.Mat 1 256) (B : Cert.Spec.Mat 256 1) :
    matmul (F := Ideal) (φ₁ := φ₁) (φ₂ := φ₂) dot_S1x256_S256x1_S1x1_1_0_0_1_n_n none (ofM A) (ofM B) (constant S1x1 .f32 0x00000000#32)
      = ofM (Cert.Spec.mm A B) := by
  funext i
  obtain ⟨p, q, rfl⟩ : ∃ (p : Fin 1) (q : Fin 1), i = ix2 p q := ⟨i 0, i 1, eq_ix2 i⟩
  rw [matmul_S1x256_S256x1_apply]
  show ∑ k : Fin 256, ((A p k : ℝ) : EReal) * ((B k q : ℝ) : EReal) = ((∑ k, A p k * B k q : ℝ) : EReal)
  rw [coe_sum]
  simp only [EReal.coe_mul]

/-! ## [2048, 256] times [256, 1] -/

theorem lhs_S2048x256_S256x1_0 (i : S2048x1.Idx) (q : dot_S2048x256_S256x1_S2048x1_1_0_0_1_n_n.contr.Idx) :
    (dot_S2048x256_S256x1_S2048x1_1_0_0_1_n_n.lhsIdx i q 0).val = (i 0).val := by
  unfold DotDims.lhsIdx
  rw [dif_neg (show ¬(0 : Fin S2048x256.rank) ∈ dot_S2048x256_S256x1_S2048x1_1_0_0_1_n_n.lhsBatch by decide), dif_pos (show (0 : Fin S2048x256.rank) ∈ dot_S2048x256_S256x1_S2048x1_1_0_0_1_n_n.lhsNonContracting by decide)]
  rfl
theorem lhs_S2048x256_S256x1_1 (i : S2048x1.Idx) (q : dot_S2048x256_S256x1_S2048x1_1_0_0_1_n_n.contr.Idx) :
    (dot_S2048x256_S256x1_S2048x1_1_0_0_1_n_n.lhsIdx i q 1).val = (q ⟨0, by decide⟩).val :=
  dot_S2048x256_S256x1_S2048x1_1_0_0_1_n_n.lhsIdx_val_of_single rfl i q
theorem rhs_S2048x256_S256x1_0 (i : S2048x1.Idx) (q : dot_S2048x256_S256x1_S2048x1_1_0_0_1_n_n.contr.Idx) :
    (dot_S2048x256_S256x1_S2048x1_1_0_0_1_n_n.rhsIdx i q 0).val = (q ⟨0, by decide⟩).val :=
  dot_S2048x256_S256x1_S2048x1_1_0_0_1_n_n.rhsIdx_val_of_single rfl i q
theorem rhs_S2048x256_S256x1_1 (i : S2048x1.Idx) (q : dot_S2048x256_S256x1_S2048x1_1_0_0_1_n_n.contr.Idx) :
    (dot_S2048x256_S256x1_S2048x1_1_0_0_1_n_n.rhsIdx i q 1).val = (i 1).val := by
  unfold DotDims.rhsIdx
  rw [dif_neg (show ¬(1 : Fin S256x1.rank) ∈ dot_S2048x256_S256x1_S2048x1_1_0_0_1_n_n.rhsBatch by decide), dif_pos (show (1 : Fin S256x1.rank) ∈ dot_S2048x256_S256x1_S2048x1_1_0_0_1_n_n.rhsNonContracting by decide)]
  rfl

/-- The product into a zero accumulator at entry (i, j): the sum over the contracted coordinate. -/
theorem matmul_S2048x256_S256x1_apply {φ₁ φ₂ : FTy} (x : FVec Ideal S2048x256 φ₁) (y : FVec Ideal S256x1 φ₂) (i : Fin 2048) (j : Fin 1) :
    matmul (F := Ideal) dot_S2048x256_S256x1_S2048x1_1_0_0_1_n_n none x y (constant S2048x1 .f32 0x00000000#32) (ix2 i j)
      = ∑ k : Fin 256, x (ix2 i k) * y (ix2 k j) := by
  show FloatOps.matmul dot_S2048x256_S256x1_S2048x1_1_0_0_1_n_n none x y (constant S2048x1 .f32 0x00000000#32) (ix2 i j) = _
  rw [Ideal.matmul_constant_zero_apply, ← Equiv.sum_comp (contrEquiv1 dot_S2048x256_S256x1_S2048x1_1_0_0_1_n_n 256 rfl rfl).symm]
  refine Finset.sum_congr rfl fun k _ => ?_
  have hk := contrEquiv1_symm_val dot_S2048x256_S256x1_S2048x1_1_0_0_1_n_n 256 rfl rfl k
  have el : dot_S2048x256_S256x1_S2048x1_1_0_0_1_n_n.lhsIdx (ix2 i j) ((contrEquiv1 dot_S2048x256_S256x1_S2048x1_1_0_0_1_n_n 256 rfl rfl).symm k) = ix2 i k :=
    funext fun a => Fin.ext (by
      match a with
      | ⟨0, _⟩ => exact lhs_S2048x256_S256x1_0 _ _
      | ⟨1, _⟩ => exact (lhs_S2048x256_S256x1_1 _ _).trans hk)
  have er : dot_S2048x256_S256x1_S2048x1_1_0_0_1_n_n.rhsIdx (ix2 i j) ((contrEquiv1 dot_S2048x256_S256x1_S2048x1_1_0_0_1_n_n 256 rfl rfl).symm k) = ix2 k j :=
    funext fun a => Fin.ext (by
      match a with
      | ⟨0, _⟩ => exact (rhs_S2048x256_S256x1_0 _ _).trans hk
      | ⟨1, _⟩ => exact rhs_S2048x256_S256x1_1 _ _)
  rw [el, er]

/-- On real matrices the product into a zero accumulator is the real matrix product. -/
theorem matmul_S2048x256_S256x1 {φ₁ φ₂ : FTy} (A : Cert.Spec.Mat 2048 256) (B : Cert.Spec.Mat 256 1) :
    matmul (F := Ideal) (φ₁ := φ₁) (φ₂ := φ₂) dot_S2048x256_S256x1_S2048x1_1_0_0_1_n_n none (ofM A) (ofM B) (constant S2048x1 .f32 0x00000000#32)
      = ofM (Cert.Spec.mm A B) := by
  funext i
  obtain ⟨p, q, rfl⟩ : ∃ (p : Fin 2048) (q : Fin 1), i = ix2 p q := ⟨i 0, i 1, eq_ix2 i⟩
  rw [matmul_S2048x256_S256x1_apply]
  show ∑ k : Fin 256, ((A p k : ℝ) : EReal) * ((B k q : ℝ) : EReal) = ((∑ k, A p k * B k q : ℝ) : EReal)
  rw [coe_sum]
  simp only [EReal.coe_mul]

/-! ## [2048, 256] times [256, 128] -/

theorem lhs_S2048x256_S256x128_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhs_S2048x256_S256x128_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem rhs_S2048x256_S256x128_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem rhs_S2048x256_S256x128_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The product into a zero accumulator at entry (i, j): the sum over the contracted coordinate. -/
theorem matmul_S2048x256_S256x128_apply {φ₁ φ₂ : FTy} (x : FVec Ideal S2048x256 φ₁) (y : FVec Ideal S256x128 φ₂) (i : Fin 2048) (j : Fin 128) :
    matmul (F := Ideal) dot_S2048x256_S256x128_S2048x128_1_0_0_1_n_n none x y (constant S2048x128 .f32 0x00000000#32) (ix2 i j)
      = ∑ k : Fin 256, x (ix2 i k) * y (ix2 k j) := by
  show FloatOps.matmul dot_S2048x256_S256x128_S2048x128_1_0_0_1_n_n none x y (constant S2048x128 .f32 0x00000000#32) (ix2 i j) = _
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 i j) ((contrEquiv1 dot_S2048x256_S256x128_S2048x128_1_0_0_1_n_n 256 rfl rfl).symm k) = ix2 i k :=
    funext fun a => Fin.ext (by
      match a with
      | ⟨0, _⟩ => exact lhs_S2048x256_S256x128_0 _ _
      | ⟨1, _⟩ => exact (lhs_S2048x256_S256x128_1 _ _).trans hk)
  have er : dot_S2048x256_S256x128_S2048x128_1_0_0_1_n_n.rhsIdx (ix2 i j) ((contrEquiv1 dot_S2048x256_S256x128_S2048x128_1_0_0_1_n_n 256 rfl rfl).symm k) = ix2 k j :=
    funext fun a => Fin.ext (by
      match a with
      | ⟨0, _⟩ => exact (rhs_S2048x256_S256x128_0 _ _).trans hk
      | ⟨1, _⟩ => exact rhs_S2048x256_S256x128_1 _ _)
  rw [el, er]

/-- On real matrices the product into a zero accumulator is the real matrix product. -/
theorem matmul_S2048x256_S256x128 {φ₁ φ₂ : FTy} (A : Cert.Spec.Mat 2048 256) (B : Cert.Spec.Mat 256 128) :
    matmul (F := Ideal) (φ₁ := φ₁) (φ₂ := φ₂) dot_S2048x256_S256x128_S2048x128_1_0_0_1_n_n none (ofM A) (ofM B) (constant S2048x128 .f32 0x00000000#32)
      = ofM (Cert.Spec.mm A B) := by
  funext i
  obtain ⟨p, q, rfl⟩ : ∃ (p : Fin 2048) (q : Fin 128), i = ix2 p q := ⟨i 0, i 1, eq_ix2 i⟩
  rw [matmul_S2048x256_S256x128_apply]
  show ∑ k : Fin 256, ((A p k : ℝ) : EReal) * ((B k q : ℝ) : EReal) = ((∑ k, A p k * B k q : ℝ) : EReal)
  rw [coe_sum]
  simp only [EReal.coe_mul]

end Cert.LibCoe

end
-- ==== Proof.Val.Val0.lean ====
import proofs.«104406_j63058709840319_2_alg».proof.Proof.KI.Reg0
import proofs.«104406_j63058709840319_2_alg».proof.Proof.LibCoe.Basic
import proofs.«104406_j63058709840319_2_alg».proof.Proof.LibCoe.DotK
import proofs.«104406_j63058709840319_2_alg».proof.Proof.Bridge
import Idealize.ShloMosaic.Lib.Pipeline.Value
import Idealize.ShloMosaic.Lib.ValueIdx

/-! Region 0 at the ideal values: the K-blocked product of a real [2048, 20480] matrix and a real [20480, 256] matrix.
At point t = 8 i + k the accumulator holds the sum over the column blocks 0 .. k of row tile i times the matching row
blocks of the right factor (it restarts at k = 0); the block written back at k = 7 is the whole sum over the 8 blocks,
which is the product's row tile i; the two row tiles cover the array. -/

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.LibCoe

/-! ## Real algebra: blocks and partial sums -/

/-- A real matrix read at natural-number coordinates: zero outside its extents. -/
def ext0 {a b : ℕ} (A : Cert.Spec.Mat a b) (i j : ℕ) : ℝ := if h : i < a ∧ j < b then A ⟨i, h.1⟩ ⟨j, h.2⟩ else 0

theorem ext0_eq {a b : ℕ} (A : Cert.Spec.Mat a b) (i : Fin a) (j : Fin b) {x y : ℕ} (hx : i.val = x) (hy : j.val = y) :
    ext0 A x y = A i j := by
  subst hx hy
  unfold ext0
  rw [dif_pos ⟨i.isLt, j.isLt⟩]

/-- The left factor's block at point n: row tile n / 8, column block n % 8. -/
def blkA0 (A : Cert.Spec.Mat 2048 20480) (n : ℕ) : Cert.Spec.Mat 1024 2560 :=
  Matrix.of fun p r => ext0 A (n / 8 * 1024 + p.val) (n % 8 * 2560 + r.val)
/-- The right factor's block at point n: row block n % 8. -/
def blkB0 (B : Cert.Spec.Mat 20480 256) (n : ℕ) : Cert.Spec.Mat 2560 256 :=
  Matrix.of fun r q => ext0 B (n % 8 * 2560 + r.val) q.val
/-- The accumulator after point n: the sum over the blocks 0 .. n % 8 of row tile n / 8. -/
def part0 (A : Cert.Spec.Mat 2048 20480) (B : Cert.Spec.Mat 20480 256) (n : ℕ) : Cert.Spec.Mat 1024 256 :=
  Matrix.of fun p q => ∑ s ∈ Finset.range (n % 8 + 1), ∑ r : Fin 2560,
    ext0 A (n / 8 * 1024 + p.val) (s * 2560 + r.val) * ext0 B (s * 2560 + r.val) q.val

/-- At a point with k = 0 the product of the two blocks is the partial sum. -/
theorem part0_first (A : Cert.Spec.Mat 2048 20480) (B : Cert.Spec.Mat 20480 256) (n : ℕ) (h : n % 8 = 0) :
    Cert.Spec.mm (blkA0 A n) (blkB0 B n) = part0 A B n := by
  funext p q
  show ∑ r : Fin 2560, ext0 A (n / 8 * 1024 + p.val) (n % 8 * 2560 + r.val) * ext0 B (n % 8 * 2560 + r.val) q.val
      = ∑ s ∈ Finset.range (n % 8 + 1), ∑ r : Fin 2560,
          ext0 A (n / 8 * 1024 + p.val) (s * 2560 + r.val) * ext0 B (s * 2560 + r.val) q.val
  rw [h]
  simp only [Nat.zero_add, Finset.sum_range_one]

/-- At a point with k ≠ 0 the partial sum grows by the product of the two blocks. -/
theorem part0_next (A : Cert.Spec.Mat 2048 20480) (B : Cert.Spec.Mat 20480 256) (n : ℕ) (h : ¬(n + 1) % 8 = 0) :
    (Matrix.of fun p q => part0 A B n p q + Cert.Spec.mm (blkA0 A (n + 1)) (blkB0 B (n + 1)) p q) = part0 A B (n + 1) := by
  have h1 : (n + 1) % 8 = n % 8 + 1 := by omega
  have h2 : (n + 1) / 8 = n / 8 := by omega
  funext p q
  show (∑ s ∈ Finset.range (n % 8 + 1), ∑ r : Fin 2560,
          ext0 A (n / 8 * 1024 + p.val) (s * 2560 + r.val) * ext0 B (s * 2560 + r.val) q.val)
        + ∑ r : Fin 2560, ext0 A ((n + 1) / 8 * 1024 + p.val) ((n + 1) % 8 * 2560 + r.val)
            * ext0 B ((n + 1) % 8 * 2560 + r.val) q.val
      = ∑ s ∈ Finset.range ((n + 1) % 8 + 1), ∑ r : Fin 2560,
          ext0 A ((n + 1) / 8 * 1024 + p.val) (s * 2560 + r.val) * ext0 B (s * 2560 + r.val) q.val
  rw [h1, h2, Finset.sum_range_succ _ (n % 8 + 1)]

/-- At a point with k = 7 the partial sum is the product's entry. -/
theorem part0_last (A : Cert.Spec.Mat 2048 20480) (B : Cert.Spec.Mat 20480 256) (n : ℕ) (h7 : n % 8 = 7)
    (p : Fin 1024) (q : Fin 256) (I : Fin 2048) (J : Fin 256) (hI : I.val = n / 8 * 1024 + p.val) (hJ : J.val = q.val) :
    part0 A B n p q = Cert.Spec.mm A B I J := by
  have h8 : n % 8 + 1 = 8 := by omega
  show ∑ s ∈ Finset.range (n % 8 + 1), ∑ r : Fin 2560,
        ext0 A (n / 8 * 1024 + p.val) (s * 2560 + r.val) * ext0 B (s * 2560 + r.val) q.val
      = ∑ k : Fin 20480, A I k * B k J
  rw [h8, Cert.Spec.sum_blocked (fun k => A I k * B k J), Finset.sum_range]
  refine Finset.sum_congr rfl fun s _ => Finset.sum_congr rfl fun r _ => ?_
  exact congrArg₂ (· * ·) (ext0_eq A I _ hI rfl) (ext0_eq B _ J rfl hJ)

/-! ## The body's payloads on real blocks -/

variable (V : (c : Dev nD) → (b : Ref sig .tc) → Buf (Elt Ideal) ((c : Thread nD τ).loc b))

theorem hz0 : (![0, 0] : Fin 2 → Nat) = fun _ => 0 := funext fun a => by fin_cases a <;> rfl

/-- The product of two real blocks into a zero accumulator is their real product. -/
theorem matmul0_ofM (X0 : Cert.Spec.Mat 1024 2560) (X1 : Cert.Spec.Mat 2560 256) :
    matmul (F := Ideal) (φ₁ := .bf16) (φ₂ := .bf16) dot_S1024x2560_S2560x256_S1024x256_1_0_0_1_n_n none (ofM X0) (ofM X1)
        (constant S1024x256 .f32 0x00000000#32)
      = ofM (Cert.Spec.mm X0 X1) :=
  matmul_S1024x2560_S2560x256 X0 X1

/-- The accumulator after a point with k = 0, on real blocks: zero plus their product. -/
theorem acc0_first_ofM (X0 : Cert.Spec.Mat 1024 2560) (X1 : Cert.Spec.Mat 2560 256) :
    acc0_first (F := Ideal) (ofM X0) (ofM X1) = ofM (Cert.Spec.mm X0 X1) := by
  unfold acc0_first
  try simp only [View.canon_unit_zero (S := S1024x256) hz0, View.ld_unit_zero (S := S1024x2560) hz0,
    View.ld_unit_zero (S := S2560x256) hz0]
  unfold k0_pay2 k0_pay1
  simp only [shapeCast_self]
  rw [matmul0_ofM, broadcast_zero_ofM, addf_ofM]
  refine congrArg ofM ?_
  funext i j
  show (0 : ℝ) + Cert.Spec.mm X0 X1 i j = Cert.Spec.mm X0 X1 i j
  exact zero_add _

/-- The accumulator after a point with k ≠ 0, on real blocks: what it held plus their product. -/
theorem acc0_next_ofM (S : Cert.Spec.Mat 1024 256) (X0 : Cert.Spec.Mat 1024 2560) (X1 : Cert.Spec.Mat 2560 256) :
    acc0_next (F := Ideal) (ofM S) (ofM X0) (ofM X1) = ofM (Matrix.of fun p q => S p q + Cert.Spec.mm X0 X1 p q) := by
  unfold acc0_next
  try simp only [View.canon_unit_zero (S := S1024x256) hz0, View.ld_unit_zero (S := S1024x256) hz0,
    View.ld_unit_zero (S := S1024x2560) hz0, View.ld_unit_zero (S := S2560x256) hz0]
  unfold k0_pay2
  simp only [shapeCast_self]
  rw [matmul0_ofM, addf_ofM]

/-- The output buffer after a point, on a real accumulator: the accumulator (the narrowing is the identity). -/
theorem out0_2_ofM (S : Cert.Spec.Mat 1024 256) : out0_2 (F := Ideal) (ofM S) = ofM S := by
  unfold out0_2
  try simp only [View.canon_unit_zero (S := S1024x256) hz0, View.ld_unit_zero (S := S1024x256) hz0]
  rfl

/-! ## The windows' blocks of real arrays -/

/-- The printed index maps over the grid: point t works on row tile t / 8 at step t % 8. -/
theorem idx0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0)

/-- Window 0's block at point n of a real array is the real block. -/
theorem iblk0_0_eq (c : Dev nD) (A : Cert.Spec.Mat 2048 20480) (h0 : V c main_v1 = ofM A) (n : ℕ) (hn : n < cfg0.N) :
    iblk0 V c 0 ⟨n, hn⟩ = ofM (blkA0 A n) := by
  have e0 : win0_0.index ⟨n, hn⟩ (0 : Fin 2) = n / 8 := (idx0 ⟨n, hn⟩).1
  have e1 : win0_0.index ⟨n, hn⟩ (1 : Fin 2) = n % 8 := (idx0 ⟨n, hn⟩).2.1
  funext j
  unfold iblk0
  rw [View.read_apply]
  show V c main_v1 (((cfg0.win 0).blk ⟨n, hn⟩).view.emb j) = _
  rw [h0]
  refine congrArg (fun x : ℝ => (x : EReal)) (ext0_eq A _ _ ?_ ?_).symm
  · show win0_0.index ⟨n, hn⟩ (0 : Fin 2) * 1024 + 1 * (j 0).val = n / 8 * 1024 + (j 0).val
    rw [e0]; omega
  · show win0_0.index ⟨n, hn⟩ (1 : Fin 2) * 2560 + 1 * (j 1).val = n % 8 * 2560 + (j 1).val
    rw [e1]; omega

/-- Window 1's block at point n of a real array is the real block. -/
theorem iblk0_1_eq (c : Dev nD) (B : Cert.Spec.Mat 20480 256) (h1 : V c main_v5 = ofM B) (n : ℕ) (hn : n < cfg0.N) :
    iblk0 V c 1 ⟨n, hn⟩ = ofM (blkB0 B n) := by
  have e2 : win0_1.index ⟨n, hn⟩ (0 : Fin 2) = n % 8 := (idx0 ⟨n, hn⟩).2.2.1
  have e3 : win0_1.index ⟨n, hn⟩ (1 : Fin 2) = 0 := (idx0 ⟨n, hn⟩).2.2.2.1
  funext j
  unfold iblk0
  rw [View.read_apply]
  show V c main_v5 (((cfg0.win 1).blk ⟨n, hn⟩).view.emb j) = _
  rw [h1]
  refine congrArg (fun x : ℝ => (x : EReal)) (ext0_eq B _ _ ?_ ?_).symm
  · show win0_1.index ⟨n, hn⟩ (0 : Fin 2) * 2560 + 1 * (j 0).val = n % 8 * 2560 + (j 0).val
    rw [e2]; omega
  · show win0_1.index ⟨n, hn⟩ (1 : Fin 2) * 256 + 1 * (j 1).val = (j 1).val
    rw [e3]; omega

/-! ## The accumulator and the output buffer after each point -/

/-- After point n both the output buffer and the accumulator hold the partial sum. -/
theorem outsAt0_eq (c : Dev nD) (A : Cert.Spec.Mat 2048 20480) (B : Cert.Spec.Mat 20480 256)
    (h0 : V c main_v1 = ofM A) (h1 : V c main_v5 = ofM B) :
    ∀ (n : ℕ) (hn : n < cfg0.N), outsAt0 V c n hn = (ofM (part0 A B n), ofM (part0 A B n))
  | 0, hn => by
    rw [outsAt0]
    rw [iblk0_0_eq V c A h0, iblk0_1_eq V c B h1, acc0_first_ofM, out0_2_ofM, part0_first A B 0 rfl]
  | n + 1, hn => by
    rw [outsAt0]
    by_cases h8 : (n + 1) % 8 = 0
    · rw [dif_pos h8, iblk0_0_eq V c A h0, iblk0_1_eq V c B h1, acc0_first_ofM, out0_2_ofM, part0_first A B (n + 1) h8]
    · rw [dif_neg h8, outsAt0_eq c A B h0 h1 n (Nat.lt_of_succ_lt hn)]
      dsimp only
      rw [iblk0_0_eq V c A h0, iblk0_1_eq V c B h1, acc0_next_ofM, out0_2_ofM, part0_next A B n h8]

/-! ## From blocks to the array -/

/-- What a point with k = 7 writes back is its block of the product. -/
theorem flushed0_2_eq (c : Dev nD) (A : Cert.Spec.Mat 2048 20480) (B : Cert.Spec.Mat 20480 256)
    (h0 : V c main_v1 = ofM A) (h1 : V c main_v5 = ofM B) (t : Fin cfg0.N) (hf : (cfg0.win 2).flush t = true) :
    (dat0 V c).flushed 2 t = ((cfg0.win 2).blk t).view.read (Elt Ideal) (ofM (Cert.Spec.mm A B)) := by
  have h7 : t.val % 8 = 7 := (flush0_2 t).mp hf
  obtain ⟨-, -, -, -, e4, e5⟩ := idx0 t
  show (cfg0.win 2).cut (grid0.coords t) ((dat0 V c).after 2 t) = _
  rw [after0_2, outsAt0_eq V c A B h0 h1]
  funext j
  rw [View.read_apply]
  show ((part0 A B t.val ⟨(j 0).val, _⟩ ⟨(j 1).val, _⟩ : ℝ) : EReal)
      = ((Cert.Spec.mm A B ((((cfg0.win 2).blk t).view.emb j) 0) ((((cfg0.win 2).blk t).view.emb j) 1) : ℝ) : EReal)
  refine congrArg (fun x : ℝ => (x : EReal)) (part0_last A B t.val h7 _ _ _ _ ?_ ?_)
  · show win0_2.index t (0 : Fin 2) * 1024 + 1 * (j 0).val = t.val / 8 * 1024 + (j 0).val
    rw [e4]; omega
  · show win0_2.index t (1 : Fin 2) * 256 + 1 * (j 1).val = (j 1).val
    rw [e5]; omega

/-- An index of the array is in point t's block iff each coordinate is in the block's range on its axis. -/
theorem mem_blk0_2 (t : Fin cfg0.N) (i : S2048x256.Idx) :
    i ∈ ((cfg0.win 2).blk t).view.set ↔ ∀ a : Fin 2,
      win0_2.index t a * S1024x256.size a ≤ (i a).val ∧ (i a).val < win0_2.index t a * S1024x256.size a + S1024x256.size a := by
  show i ∈ ((View.whole main_v6).slice (win0_2.rect t)).set ↔ _
  rw [View.set_slice_whole, Rect.mem_set_unit]
  exact Iff.rfl

/-- Every index of the array is in the block of a point that writes back: row tile i / 1024 at k = 7. -/
theorem cover0_2 (i : S2048x256.Idx) :
    ∃ t : Fin cfg0.N, (cfg0.win 2).flush t = true ∧ i ∈ ((cfg0.win 2).blk t).view.set := by
  have hi0 : (i 0).val < 2048 := (i 0).isLt
  have hi1 : (i 1).val < 256 := (i 1).isLt
  have hN : cfg0.N = 16 := N_0
  have ht : 8 * ((i 0).val / 1024) + 7 < cfg0.N := by rw [hN]; omega
  refine ⟨⟨8 * ((i 0).val / 1024) + 7, ht⟩, (flush0_2 _).mpr (by show (8 * ((i 0).val / 1024) + 7) % 8 = 7; omega), ?_⟩
  obtain ⟨-, -, -, -, e4, e5⟩ := idx0 ⟨8 * ((i 0).val / 1024) + 7, ht⟩
  rw [mem_blk0_2]
  intro a
  match a with
  | ⟨0, _⟩ =>
    show win0_2.index ⟨8 * ((i 0).val / 1024) + 7, ht⟩ (0 : Fin 2) * 1024 ≤ (i 0).val
      ∧ (i 0).val < win0_2.index ⟨8 * ((i 0).val / 1024) + 7, ht⟩ (0 : Fin 2) * 1024 + 1024
    rw [e4]
    show (8 * ((i 0).val / 1024) + 7) / 8 * 1024 ≤ (i 0).val ∧ (i 0).val < (8 * ((i 0).val / 1024) + 7) / 8 * 1024 + 1024
    omega
  | ⟨1, _⟩ =>
    show win0_2.index ⟨8 * ((i 0).val / 1024) + 7, ht⟩ (1 : Fin 2) * 256 ≤ (i 1).val
      ∧ (i 1).val < win0_2.index ⟨8 * ((i 0).val / 1024) + 7, ht⟩ (1 : Fin 2) * 256 + 256
    rw [e5]
    omega

/-- Region 0's output array after the region: the product of the two input arrays. -/
theorem val0 (c : Dev nD) (A : Cert.Spec.Mat 2048 20480) (B : Cert.Spec.Mat 20480 256)
    (h0 : V c main_v1 = ofM A) (h1 : V c main_v5 = ofM B) :
    (dat0 V c).arrAt 2 cfg0.N = ofM (Cert.Spec.mm A B) :=
  (dat0 V c).arrAt_eq_of_cover 2 (ofM (Cert.Spec.mm A B)) (flushed0_2_eq V c A B h0 h1) (cover0_2)

end Cert.KernelIdeal.HandVal

end
-- ==== Proof.Val.Val1.lean ====
import proofs.«104406_j63058709840319_2_alg».proof.Proof.KI.Reg1
import proofs.«104406_j63058709840319_2_alg».proof.Proof.LibCoe.Basic
import proofs.«104406_j63058709840319_2_alg».proof.Proof.LibCoe.DotK
import proofs.«104406_j63058709840319_2_alg».proof.Proof.Bridge
import Idealize.ShloMosaic.Lib.Pipeline.Value
import Idealize.ShloMosaic.Lib.ValueIdx

/-! Region 1 at the ideal values: the K-blocked product of a real [1, 20480] matrix and a real [20480, 256] matrix.
At point t = 8 i + k the accumulator holds the sum over the column blocks 0 .. k of row tile i times the matching row
blocks of the right factor (it restarts at k = 0); the block written back at k = 7 is the whole sum over the 8 blocks,
which is the product's row tile i; the two row tiles cover the array. -/

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open Cert.LibCoe

/-! ## Real algebra: blocks and partial sums -/

/-- A real matrix read at natural-number coordinates: zero outside its extents. -/
def ext1 {a b : ℕ} (A : Cert.Spec.Mat a b) (i j : ℕ) : ℝ := if h : i < a ∧ j < b then A ⟨i, h.1⟩ ⟨j, h.2⟩ else 0

theorem ext1_eq {a b : ℕ} (A : Cert.Spec.Mat a b) (i : Fin a) (j : Fin b) {x y : ℕ} (hx : i.val = x) (hy : j.val = y) :
    ext1 A x y = A i j := by
  subst hx hy
  unfold ext1
  rw [dif_pos ⟨i.isLt, j.isLt⟩]

/-- The left factor's block at point n: row tile n / 8, column block n % 8. -/
def blkA1 (A : Cert.Spec.Mat 1 20480) (n : ℕ) : Cert.Spec.Mat 1 2560 :=
  Matrix.of fun p r => ext1 A (n / 8 * 1 + p.val) (n % 8 * 2560 + r.val)
/-- The right factor's block at point n: row block n % 8. -/
def blkB1 (B : Cert.Spec.Mat 20480 256) (n : ℕ) : Cert.Spec.Mat 2560 256 :=
  Matrix.of fun r q => ext1 B (n % 8 * 2560 + r.val) q.val
/-- The accumulator after point n: the sum over the blocks 0 .. n % 8 of row tile n / 8. -/
def part1 (A : Cert.Spec.Mat 1 20480) (B : Cert.Spec.Mat 20480 256) (n : ℕ) : Cert.Spec.Mat 1 256 :=
  Matrix.of fun p q => ∑ s ∈ Finset.range (n % 8 + 1), ∑ r : Fin 2560,
    ext1 A (n / 8 * 1 + p.val) (s * 2560 + r.val) * ext1 B (s * 2560 + r.val) q.val

/-- At a point with k = 0 the product of the two blocks is the partial sum. -/
theorem part1_first (A : Cert.Spec.Mat 1 20480) (B : Cert.Spec.Mat 20480 256) (n : ℕ) (h : n % 8 = 0) :
    Cert.Spec.mm (blkA1 A n) (blkB1 B n) = part1 A B n := by
  funext p q
  show ∑ r : Fin 2560, ext1 A (n / 8 * 1 + p.val) (n % 8 * 2560 + r.val) * ext1 B (n % 8 * 2560 + r.val) q.val
      = ∑ s ∈ Finset.range (n % 8 + 1), ∑ r : Fin 2560,
          ext1 A (n / 8 * 1 + p.val) (s * 2560 + r.val) * ext1 B (s * 2560 + r.val) q.val
  rw [h]
  simp only [Nat.zero_add, Finset.sum_range_one]

/-- At a point with k ≠ 0 the partial sum grows by the product of the two blocks. -/
theorem part1_next (A : Cert.Spec.Mat 1 20480) (B : Cert.Spec.Mat 20480 256) (n : ℕ) (h : ¬(n + 1) % 8 = 0) :
    (Matrix.of fun p q => part1 A B n p q + Cert.Spec.mm (blkA1 A (n + 1)) (blkB1 B (n + 1)) p q) = part1 A B (n + 1) := by
  have h1 : (n + 1) % 8 = n % 8 + 1 := by omega
  have h2 : (n + 1) / 8 = n / 8 := by omega
  funext p q
  show (∑ s ∈ Finset.range (n % 8 + 1), ∑ r : Fin 2560,
          ext1 A (n / 8 * 1 + p.val) (s * 2560 + r.val) * ext1 B (s * 2560 + r.val) q.val)
        + ∑ r : Fin 2560, ext1 A ((n + 1) / 8 * 1 + p.val) ((n + 1) % 8 * 2560 + r.val)
            * ext1 B ((n + 1) % 8 * 2560 + r.val) q.val
      = ∑ s ∈ Finset.range ((n + 1) % 8 + 1), ∑ r : Fin 2560,
          ext1 A ((n + 1) / 8 * 1 + p.val) (s * 2560 + r.val) * ext1 B (s * 2560 + r.val) q.val
  rw [h1, h2, Finset.sum_range_succ _ (n % 8 + 1)]

/-- At a point with k = 7 the partial sum is the product's entry. -/
theorem part1_last (A : Cert.Spec.Mat 1 20480) (B : Cert.Spec.Mat 20480 256) (n : ℕ) (h7 : n % 8 = 7)
    (p : Fin 1) (q : Fin 256) (I : Fin 1) (J : Fin 256) (hI : I.val = n / 8 * 1 + p.val) (hJ : J.val = q.val) :
    part1 A B n p q = Cert.Spec.mm A B I J := by
  have h8 : n % 8 + 1 = 8 := by omega
  show ∑ s ∈ Finset.range (n % 8 + 1), ∑ r : Fin 2560,
        ext1 A (n / 8 * 1 + p.val) (s * 2560 + r.val) * ext1 B (s * 2560 + r.val) q.val
      = ∑ k : Fin 20480, A I k * B k J
  rw [h8, Cert.Spec.sum_blocked (fun k => A I k * B k J), Finset.sum_range]
  refine Finset.sum_congr rfl fun s _ => Finset.sum_congr rfl fun r _ => ?_
  exact congrArg₂ (· * ·) (ext1_eq A I _ hI rfl) (ext1_eq B _ J rfl hJ)

/-! ## The body's payloads on real blocks -/

variable (V : (c : Dev nD) → (b : Ref sig .tc) → Buf (Elt Ideal) ((c : Thread nD τ).loc b))

theorem hz1 : (![0, 0] : Fin 2 → Nat) = fun _ => 0 := funext fun a => by fin_cases a <;> rfl

/-- The product of two real blocks into a zero accumulator is their real product. -/
theorem matmul1_ofM (X0 : Cert.Spec.Mat 1 2560) (X1 : Cert.Spec.Mat 2560 256) :
    matmul (F := Ideal) (φ₁ := .bf16) (φ₂ := .bf16) dot_S1x2560_S2560x256_S1x256_1_0_0_1_n_n none (ofM X0) (ofM X1)
        (constant S1x256 .f32 0x00000000#32)
      = ofM (Cert.Spec.mm X0 X1) :=
  matmul_S1x2560_S2560x256 X0 X1

/-- The accumulator after a point with k = 0, on real blocks: zero plus their product. -/
theorem acc1_first_ofM (X0 : Cert.Spec.Mat 1 2560) (X1 : Cert.Spec.Mat 2560 256) :
    acc1_first (F := Ideal) (ofM X0) (ofM X1) = ofM (Cert.Spec.mm X0 X1) := by
  unfold acc1_first
  try simp only [View.canon_unit_zero (S := S1x256) hz1, View.ld_unit_zero (S := S1x2560) hz1,
    View.ld_unit_zero (S := S2560x256) hz1]
  unfold k1_pay2 k1_pay1
  simp only [shapeCast_self]
  rw [matmul1_ofM, broadcast_zero_ofM, addf_ofM]
  refine congrArg ofM ?_
  funext i j
  show (0 : ℝ) + Cert.Spec.mm X0 X1 i j = Cert.Spec.mm X0 X1 i j
  exact zero_add _

/-- The accumulator after a point with k ≠ 0, on real blocks: what it held plus their product. -/
theorem acc1_next_ofM (S : Cert.Spec.Mat 1 256) (X0 : Cert.Spec.Mat 1 2560) (X1 : Cert.Spec.Mat 2560 256) :
    acc1_next (F := Ideal) (ofM S) (ofM X0) (ofM X1) = ofM (Matrix.of fun p q => S p q + Cert.Spec.mm X0 X1 p q) := by
  unfold acc1_next
  try simp only [View.canon_unit_zero (S := S1x256) hz1, View.ld_unit_zero (S := S1x256) hz1,
    View.ld_unit_zero (S := S1x2560) hz1, View.ld_unit_zero (S := S2560x256) hz1]
  unfold k1_pay2
  simp only [shapeCast_self]
  rw [matmul1_ofM, addf_ofM]

/-- The output buffer after a point, on a real accumulator: the accumulator (the narrowing is the identity). -/
theorem out1_2_ofM (S : Cert.Spec.Mat 1 256) : out1_2 (F := Ideal) (ofM S) = ofM S := by
  unfold out1_2
  try simp only [View.canon_unit_zero (S := S1x256) hz1, View.ld_unit_zero (S := S1x256) hz1]
  rfl

/-! ## The windows' blocks of real arrays -/

/-- The printed index maps over the grid: point t works on row tile t / 8 at step t % 8. -/
theorem idx1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0)

/-- Window 0's block at point n of a real array is the real block. -/
theorem iblk1_0_eq (c : Dev nD) (A : Cert.Spec.Mat 1 20480) (h0 : V c main_v3 = ofM A) (n : ℕ) (hn : n < cfg1.N) :
    iblk1 V c 0 ⟨n, hn⟩ = ofM (blkA1 A n) := by
  have e0 : win1_0.index ⟨n, hn⟩ (0 : Fin 2) = n / 8 := (idx1 ⟨n, hn⟩).1
  have e1 : win1_0.index ⟨n, hn⟩ (1 : Fin 2) = n % 8 := (idx1 ⟨n, hn⟩).2.1
  funext j
  unfold iblk1
  rw [View.read_apply]
  show V c main_v3 (((cfg1.win 0).blk ⟨n, hn⟩).view.emb j) = _
  rw [h0]
  refine congrArg (fun x : ℝ => (x : EReal)) (ext1_eq A _ _ ?_ ?_).symm
  · show win1_0.index ⟨n, hn⟩ (0 : Fin 2) * 1 + 1 * (j 0).val = n / 8 * 1 + (j 0).val
    rw [e0]; omega
  · show win1_0.index ⟨n, hn⟩ (1 : Fin 2) * 2560 + 1 * (j 1).val = n % 8 * 2560 + (j 1).val
    rw [e1]; omega

/-- Window 1's block at point n of a real array is the real block. -/
theorem iblk1_1_eq (c : Dev nD) (B : Cert.Spec.Mat 20480 256) (h1 : V c main_v5 = ofM B) (n : ℕ) (hn : n < cfg1.N) :
    iblk1 V c 1 ⟨n, hn⟩ = ofM (blkB1 B n) := by
  have e2 : win1_1.index ⟨n, hn⟩ (0 : Fin 2) = n % 8 := (idx1 ⟨n, hn⟩).2.2.1
  have e3 : win1_1.index ⟨n, hn⟩ (1 : Fin 2) = 0 := (idx1 ⟨n, hn⟩).2.2.2.1
  funext j
  unfold iblk1
  rw [View.read_apply]
  show V c main_v5 (((cfg1.win 1).blk ⟨n, hn⟩).view.emb j) = _
  rw [h1]
  refine congrArg (fun x : ℝ => (x : EReal)) (ext1_eq B _ _ ?_ ?_).symm
  · show win1_1.index ⟨n, hn⟩ (0 : Fin 2) * 2560 + 1 * (j 0).val = n % 8 * 2560 + (j 0).val
    rw [e2]; omega
  · show win1_1.index ⟨n, hn⟩ (1 : Fin 2) * 256 + 1 * (j 1).val = (j 1).val
    rw [e3]; omega

/-! ## The accumulator and the output buffer after each point -/

/-- After point n both the output buffer and the accumulator hold the partial sum. -/
theorem outsAt1_eq (c : Dev nD) (A : Cert.Spec.Mat 1 20480) (B : Cert.Spec.Mat 20480 256)
    (h0 : V c main_v3 = ofM A) (h1 : V c main_v5 = ofM B) :
    ∀ (n : ℕ) (hn : n < cfg1.N), outsAt1 V c n hn = (ofM (part1 A B n), ofM (part1 A B n))
  | 0, hn => by
    rw [outsAt1]
    rw [iblk1_0_eq V c A h0, iblk1_1_eq V c B h1, acc1_first_ofM, out1_2_ofM, part1_first A B 0 rfl]
  | n + 1, hn => by
    rw [outsAt1]
    by_cases h8 : (n + 1) % 8 = 0
    · rw [dif_pos h8, iblk1_0_eq V c A h0, iblk1_1_eq V c B h1, acc1_first_ofM, out1_2_ofM, part1_first A B (n + 1) h8]
    · rw [dif_neg h8, outsAt1_eq c A B h0 h1 n (Nat.lt_of_succ_lt hn)]
      dsimp only
      rw [iblk1_0_eq V c A h0, iblk1_1_eq V c B h1, acc1_next_ofM, out1_2_ofM, part1_next A B n h8]

/-! ## From blocks to the array -/

/-- What a point with k = 7 writes back is its block of the product. -/
theorem flushed1_2_eq (c : Dev nD) (A : Cert.Spec.Mat 1 20480) (B : Cert.Spec.Mat 20480 256)
    (h0 : V c main_v3 = ofM A) (h1 : V c main_v5 = ofM B) (t : Fin cfg1.N) (hf : (cfg1.win 2).flush t = true) :
    (dat1 V c).flushed 2 t = ((cfg1.win 2).blk t).view.read (Elt Ideal) (ofM (Cert.Spec.mm A B)) := by
  have h7 : t.val % 8 = 7 := (flush1_2 t).mp hf
  obtain ⟨-, -, -, -, e4, e5⟩ := idx1 t
  show (cfg1.win 2).cut (grid1.coords t) ((dat1 V c).after 2 t) = _
  rw [after1_2, outsAt1_eq V c A B h0 h1]
  funext j
  rw [View.read_apply]
  show ((part1 A B t.val ⟨(j 0).val, _⟩ ⟨(j 1).val, _⟩ : ℝ) : EReal)
      = ((Cert.Spec.mm A B ((((cfg1.win 2).blk t).view.emb j) 0) ((((cfg1.win 2).blk t).view.emb j) 1) : ℝ) : EReal)
  refine congrArg (fun x : ℝ => (x : EReal)) (part1_last A B t.val h7 _ _ _ _ ?_ ?_)
  · show win1_2.index t (0 : Fin 2) * 1 + 1 * (j 0).val = t.val / 8 * 1 + (j 0).val
    rw [e4]; omega
  · show win1_2.index t (1 : Fin 2) * 256 + 1 * (j 1).val = (j 1).val
    rw [e5]; omega

/-- An index of the array is in point t's block iff each coordinate is in the block's range on its axis. -/
theorem mem_blk1_2 (t : Fin cfg1.N) (i : S1x256.Idx) :
    i ∈ ((cfg1.win 2).blk t).view.set ↔ ∀ a : Fin 2,
      win1_2.index t a * S1x256.size a ≤ (i a).val ∧ (i a).val < win1_2.index t a * S1x256.size a + S1x256.size a := by
  show i ∈ ((View.whole main_v7).slice (win1_2.rect t)).set ↔ _
  rw [View.set_slice_whole, Rect.mem_set_unit]
  exact Iff.rfl

/-- Every index of the array is in the block of a point that writes back: row tile i / 1 at k = 7. -/
theorem cover1_2 (i : S1x256.Idx) :
    ∃ t : Fin cfg1.N, (cfg1.win 2).flush t = true ∧ i ∈ ((cfg1.win 2).blk t).view.set := by
  have hi0 : (i 0).val < 1 := (i 0).isLt
  have hi1 : (i 1).val < 256 := (i 1).isLt
  have hN : cfg1.N = 8 := N_1
  have ht : 8 * ((i 0).val / 1) + 7 < cfg1.N := by rw [hN]; omega
  refine ⟨⟨8 * ((i 0).val / 1) + 7, ht⟩, (flush1_2 _).mpr (by show (8 * ((i 0).val / 1) + 7) % 8 = 7; omega), ?_⟩
  obtain ⟨-, -, -, -, e4, e5⟩ := idx1 ⟨8 * ((i 0).val / 1) + 7, ht⟩
  rw [mem_blk1_2]
  intro a
  match a with
  | ⟨0, _⟩ =>
    show win1_2.index ⟨8 * ((i 0).val / 1) + 7, ht⟩ (0 : Fin 2) * 1 ≤ (i 0).val
      ∧ (i 0).val < win1_2.index ⟨8 * ((i 0).val / 1) + 7, ht⟩ (0 : Fin 2) * 1 + 1
    rw [e4]
    show (8 * ((i 0).val / 1) + 7) / 8 * 1 ≤ (i 0).val ∧ (i 0).val < (8 * ((i 0).val / 1) + 7) / 8 * 1 + 1
    omega
  | ⟨1, _⟩ =>
    show win1_2.index ⟨8 * ((i 0).val / 1) + 7, ht⟩ (1 : Fin 2) * 256 ≤ (i 1).val
      ∧ (i 1).val < win1_2.index ⟨8 * ((i 0).val / 1) + 7, ht⟩ (1 : Fin 2) * 256 + 256
    rw [e5]
    omega

/-- Region 1's output array after the region: the product of the two input arrays. -/
theorem val1 (c : Dev nD) (A : Cert.Spec.Mat 1 20480) (B : Cert.Spec.Mat 20480 256)
    (h0 : V c main_v3 = ofM A) (h1 : V c main_v5 = ofM B) :
    (dat1 V c).arrAt 2 cfg1.N = ofM (Cert.Spec.mm A B) :=
  (dat1 V c).arrAt_eq_of_cover 2 (ofM (Cert.Spec.mm A B)) (flushed1_2_eq V c A B h0 h1) (cover1_2)

end Cert.KernelIdeal.HandVal

end
-- ==== Proof.Val.Val2.lean ====
/- Region 2 at the ideal values: when the four input arrays are real matrices `E`, `Wk`, `Wv`, `qS`, the output array
   after the region is the real matrix `softmax(qS·(E·Wk)ᵀ)·(E·Wv)`, the softmax written as the exponentials times the
   reciprocal of their sum. The grid has one point and every window's block is its whole array, so the output array
   is the body's stored value of the four input arrays; that value is read one operation at a time. -/
import proofs.«104406_j63058709840319_2_alg».proof.Proof.KI.Reg2
import proofs.«104406_j63058709840319_2_alg».proof.Proof.Spec
import proofs.«104406_j63058709840319_2_alg».proof.Proof.LibCoe.Basic
import proofs.«104406_j63058709840319_2_alg».proof.Proof.LibCoe.Reduce
import proofs.«104406_j63058709840319_2_alg».proof.Proof.LibCoe.DotK
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe
open Idealize.SL Idealize.SL.Sem
open Idealize.ShloMosaic.Pipeline (Dat Cfg Window)
open Cert.LibCoe Cert.Spec

/-! ## The array after the region: the body's payload of the four input arrays -/

variable (V : (c : Dev nD) → (b : Ref sig .tc) → Buf (Elt Ideal) ((c : Thread nD τ).loc b))

theorem hz2 : (![0, 0] : Fin 2 → Nat) = fun _ => 0 := funext fun a => by fin_cases a <;> rfl

/-- The grid has one point and every window's block is its whole array: the block read off the array is the array. -/
theorem iblk2_0 (c : Dev nD) (t : Fin cfg2.N) : iblk2 V c 0 t = V c main_v6 := by
  funext j
  show V c main_v6 (((cfg2.win 0).blk t).view.emb j) = V c main_v6 j
  congr 1
  funext a; apply Fin.ext
  match a with
  | ⟨0, _⟩ => show win2_0.index t (0 : Fin 2) * 2048 + 1 * (j 0).val = (j 0).val; have h : win2_0.index t (0 : Fin 2) = 0 := rfl; omega
  | ⟨1, _⟩ => show win2_0.index t (1 : Fin 2) * 256 + 1 * (j 1).val = (j 1).val; have h : win2_0.index t (1 : Fin 2) = 0 := rfl; omega

theorem iblk2_1 (c : Dev nD) (t : Fin cfg2.N) : iblk2 V c 1 t = V c main_v9 := by
  funext j
  show V c main_v9 (((cfg2.win 1).blk t).view.emb j) = V c main_v9 j
  congr 1
  funext a; apply Fin.ext
  match a with
  | ⟨0, _⟩ => show win2_1.index t (0 : Fin 2) * 256 + 1 * (j 0).val = (j 0).val; have h : win2_1.index t (0 : Fin 2) = 0 := rfl; omega
  | ⟨1, _⟩ => show win2_1.index t (1 : Fin 2) * 256 + 1 * (j 1).val = (j 1).val; have h : win2_1.index t (1 : Fin 2) = 0 := rfl; omega

theorem iblk2_2 (c : Dev nD) (t : Fin cfg2.N) : iblk2 V c 2 t = V c main_v10 := by
  funext j
  show V c main_v10 (((cfg2.win 2).blk t).view.emb j) = V c main_v10 j
  congr 1
  funext a; apply Fin.ext
  match a with
  | ⟨0, _⟩ => show win2_2.index t (0 : Fin 2) * 256 + 1 * (j 0).val = (j 0).val; have h : win2_2.index t (0 : Fin 2) = 0 := rfl; omega
  | ⟨1, _⟩ => show win2_2.index t (1 : Fin 2) * 256 + 1 * (j 1).val = (j 1).val; have h : win2_2.index t (1 : Fin 2) = 0 := rfl; omega

theorem iblk2_3 (c : Dev nD) (t : Fin cfg2.N) : iblk2 V c 3 t = V c main_v8 := by
  funext j
  show V c main_v8 (((cfg2.win 3).blk t).view.emb j) = V c main_v8 j
  congr 1
  funext a; apply Fin.ext
  match a with
  | ⟨0, _⟩ => show win2_3.index t (0 : Fin 2) * 1 + 1 * (j 0).val = (j 0).val; have h : win2_3.index t (0 : Fin 2) = 0 := rfl; omega
  | ⟨1, _⟩ => show win2_3.index t (1 : Fin 2) * 256 + 1 * (j 1).val = (j 1).val; have h : win2_3.index t (1 : Fin 2) = 0 := rfl; omega

/-- The output window's one block is the whole output array: a whole-array function read through it is itself. -/
theorem read_blk2_4 (c : Dev nD) (t : Fin cfg2.N) (P : Buf (Elt Ideal) ((cfg2.win 4).arr.view.loc (c.tc : Thread nD τ))) :
    ((cfg2.win 4).blk t).view.read (Elt Ideal) P = P := by
  funext j
  show P (((cfg2.win 4).blk t).view.emb j) = P j
  congr 1
  funext a; apply Fin.ext
  match a with
  | ⟨0, _⟩ => show win2_4.index t (0 : Fin 2) * 1 + 1 * (j 0).val = (j 0).val; have h : win2_4.index t (0 : Fin 2) = 0 := rfl; omega
  | ⟨1, _⟩ => show win2_4.index t (1 : Fin 2) * 256 + 1 * (j 1).val = (j 1).val; have h : win2_4.index t (1 : Fin 2) = 0 := rfl; omega

/-- What the point writes back is the payload of the four input arrays, read through the output's block. -/
theorem flushed2_4 (c : Dev nD) (t : Fin cfg2.N) :
    (dat2 V c).flushed 4 t = ((cfg2.win 4).blk t).view.read (Elt Ideal) (k2_pay1 (V c main_v6) (V c main_v9) (V c main_v10) (V c main_v8)) := by
  rw [read_blk2_4 c t]
  show (cfg2.win 4).cut (grid2.coords t) ((dat2 V c).after 4 t) = _
  rw [after2_4]
  unfold out2_4
  rw [View.canon_unit_zero hz2]
  simp only [View.ld_unit_zero (S := S2048x256) hz2, View.ld_unit_zero (S := S256x256) hz2, View.ld_unit_zero (S := S1x256) hz2]
  rw [iblk2_0, iblk2_1, iblk2_2, iblk2_3]
  rfl

/-- An index is in the point's block iff each coordinate is in the block's range on its axis. -/
theorem mem_blk2_4 (t : Fin cfg2.N) (i : S1x256.Idx) :
    i ∈ ((cfg2.win 4).blk t).view.set ↔ ∀ a : Fin 2, win2_4.index t a * S1x256.size a ≤ (i a).val ∧ (i a).val < win2_4.index t a * S1x256.size a + S1x256.size a := by
  show i ∈ ((View.whole main_v16).slice (win2_4.rect t)).set ↔ _
  rw [View.set_slice_whole, Rect.mem_set_unit]
  exact Iff.rfl

/-- Every index of the output array is in the one point's block. -/
theorem cover2_out (i : S1x256.Idx) :
    ∃ t : Fin cfg2.N, (cfg2.win 4).flush t = true ∧ i ∈ ((cfg2.win 4).blk t).view.set := by
  refine ⟨⟨0, by decide⟩, flush2_4 _, ?_⟩
  rw [mem_blk2_4]
  intro a
  match a with
  | ⟨0, _⟩ =>
    show win2_4.index _ (0 : Fin 2) * 1 ≤ (i 0).val ∧ (i 0).val < win2_4.index _ (0 : Fin 2) * 1 + 1
    have hi : (i 0).val < 1 := (i 0).isLt
    have h : win2_4.index (⟨0, by decide⟩ : Fin cfg2.N) (0 : Fin 2) = 0 := rfl
    omega
  | ⟨1, _⟩ =>
    show win2_4.index _ (1 : Fin 2) * 256 ≤ (i 1).val ∧ (i 1).val < win2_4.index _ (1 : Fin 2) * 256 + 256
    have hi : (i 1).val < 256 := (i 1).isLt
    have h : win2_4.index (⟨0, by decide⟩ : Fin cfg2.N) (1 : Fin 2) = 0 := rfl
    omega

/-- The output array after the region is the payload of the four input arrays as the region finds them. -/
theorem arr2_4 (c : Dev nD) :
    (dat2 V c).arrAt 4 cfg2.N = k2_pay1 (V c main_v6) (V c main_v9) (V c main_v10) (V c main_v8) :=
  (dat2 V c).arrAt_eq_of_cover 4 _ (fun t _ => flushed2_4 V c t) (fun i => cover2_out i)

/-! ## The payload on real matrices -/

theorem mmA {φ₁ φ₂ : FTy} (A : Mat 2048 256) (B : Mat 256 256) :
    matmul (F := Ideal) (φ₁ := φ₁) (φ₂ := φ₂) dot_S2048x256_S256x256_S2048x256_1_0_0_1_n_n none (ofM A) (ofM B) (constant S2048x256 .f32 0x00000000#32)
      = ofM (mm A B) := matmul_S2048x256_S256x256 A B
theorem mmB {φ₁ φ₂ : FTy} (A : Mat 1 256) (B : Mat 2048 256) :
    matmul (F := Ideal) (φ₁ := φ₁) (φ₂ := φ₂) dot_S1x256_S2048x256_S1x2048_1_1_0_0_n_n none (ofM A) (ofM B) (constant S1x2048 .f32 0x00000000#32)
      = ofM (mm A (tr B)) := matmul_S1x256_S2048x256 A B
theorem mmC {φ₁ φ₂ : FTy} (A : Mat 1 2048) (B : Mat 2048 256) :
    matmul (F := Ideal) (φ₁ := φ₁) (φ₂ := φ₂) dot_S1x2048_S2048x256_S1x256_1_0_0_1_n_n none (ofM A) (ofM B) (constant S1x256 .f32 0x00000000#32)
      = ofM (mm A B) := matmul_S1x2048_S2048x256 A B

/-- On real matrices the payload is the attention row, kernel arrangement. -/
theorem pay2_val (E : Mat L D) (Wk Wv : Mat D D) (qS : Mat 1 D) :
    k2_pay1 (F := Ideal) (ofM E) (ofM Wk) (ofM Wv) (ofM qS) = ofM (yK E Wk Wv qS) := by
  unfold k2_pay1
  simp only [shapeCast_ofM, truncf_ofM, mmA, mmB]
  have hSM := kSoftmax (n := 1) (mm qS (tr (mm E Wk))) reduces_S1x2048_S1 (.inl rfl) rfl rfl shapeCasts_S1_S1x1 broadcasts_S1x1_S1x2048
  refine Eq.trans (congrArg (fun s => truncf (F := Ideal) .bf16 (matmul dot_S1x2048_S2048x256_S1x256_1_0_0_1_n_n none
    (truncf (F := Ideal) .bf16 s bitsLt_bf16_f32) (ofM (mm E Wv)) (constant S1x256 .f32 0x00000000#32)) bitsLt_bf16_f32) hSM) ?_
  rw [truncf_ofM, mmC, truncf_ofM]
  rfl

theorem val2 (c : Dev nD) (E : Mat L D) (Wk Wv : Mat D D) (qS : Mat 1 D)
    (h0 : V c main_v6 = ofM E) (h1 : V c main_v9 = ofM Wk) (h2 : V c main_v10 = ofM Wv) (h3 : V c main_v8 = ofM qS) :
    (dat2 V c).arrAt 4 cfg2.N = ofM (yK E Wk Wv qS) := by
  rw [arr2_4, h0, h1, h2, h3]
  exact pay2_val E Wk Wv qS

end Cert.KernelIdeal.HandVal

end
-- ==== Proof.Val.Val3.lean ====
/- Region 3 of @main (the projection kernel, one grid point) at the ideal values: when the arrays it reads hold real
   matrices `X` (the activations), `Q`, `K`, `Vm` (the three weights) and the lower-triangular matrix of ones, its
   three output arrays hold after the region the real matrices `X·Q`, `X·K` and `Δ·(X·Vm)`. Each output window's one
   block is the whole array, written by one whole-buffer store of a payload that is a product of real matrices (the
   truncations and the shape casts are the identity on ideal values). -/
import proofs.«104406_j63058709840319_2_alg».proof.Proof.KI.Reg3
import proofs.«104406_j63058709840319_2_alg».proof.Proof.LibCoe.Basic
import proofs.«104406_j63058709840319_2_alg».proof.Proof.LibCoe.DotK
import Idealize.ShloMosaic.Lib.Pipeline.Value
import Idealize.ShloMosaic.Lib.ValueIdx

set_option maxRecDepth 16384

noncomputable section

namespace Cert.KernelIdeal.HandVal

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand
open Cert.LibCoe Cert.Spec

variable (V : (c : Dev nD) → (b : Ref sig .tc) → Buf (Elt Ideal) ((c : Thread nD τ).loc b))

/-! ## The payloads on real matrices -/

/-- A truncation is the identity on ideal values. -/
theorem truncf_id3 {s : Shape} {φ ψ : FTy} (x : FVec Ideal s φ) (h : ψ.bits < φ.bits) : truncf (F := Ideal) ψ x h = x := rfl

/-- The truncated activations: the shape cast and the truncation are the identity on ideal values. -/
theorem pay3_1_val (x0 : Vec Ideal S2048x256 .f32) (X : Mat 2048 256) (h0 : x0 = ofM X) : k3_pay1 x0 = ofM X := by
  subst h0
  unfold k3_pay1
  dsimp only
  rw [truncf_id3, shapeCast_self]

/-- The first stored payload: the activations times the first weight. -/
theorem pay3_2_val (x0 : Vec Ideal S2048x256 .f32) (x1 : Vec Ideal S256x256 .bf16) (X : Mat 2048 256) (W : Mat 256 256)
    (h0 : x0 = ofM X) (h1 : x1 = ofM W) : k3_pay2 x0 x1 = ofM (mm X W) := by
  have e1 := pay3_1_val x0 X h0
  subst h1
  unfold k3_pay2
  dsimp only
  rw [e1, shapeCast_self, truncf_id3]
  exact matmul_S2048x256_S256x256 (φ₁ := .bf16) (φ₂ := .bf16) X W

/-- The second stored payload: the activations times the second weight. -/
theorem pay3_3_val (x0 : Vec Ideal S2048x256 .f32) (x2 : Vec Ideal S256x256 .bf16) (X : Mat 2048 256) (W : Mat 256 256)
    (h0 : x0 = ofM X) (h2 : x2 = ofM W) : k3_pay3 x0 x2 = ofM (mm X W) := by
  have e1 := pay3_1_val x0 X h0
  subst h2
  unfold k3_pay3
  dsimp only
  rw [e1, shapeCast_self, truncf_id3]
  exact matmul_S2048x256_S256x256 (φ₁ := .bf16) (φ₂ := .bf16) X W

/-- The third stored payload: the triangle times (the activations times the third weight). -/
theorem pay3_4_val (x0 : Vec Ideal S2048x256 .f32) (x3 : Vec Ideal S256x256 .bf16) (x4 : Vec Ideal S2048x2048 .bf16)
    (X : Mat 2048 256) (W : Mat 256 256) (T : Mat 2048 2048)
    (h0 : x0 = ofM X) (h3 : x3 = ofM W) (h4 : x4 = ofM T) : k3_pay4 x0 x3 x4 = ofM (mm T (mm X W)) := by
  have e1 := pay3_1_val x0 X h0
  subst h3 h4
  unfold k3_pay4
  dsimp only
  rw [e1, shapeCast_self, shapeCast_self, truncf_id3, truncf_id3]
  refine Eq.trans ?_ (matmul_S2048x2048_S2048x256 (φ₁ := .bf16) (φ₂ := .bf16) T (mm X W))
  exact congrArg (fun z => matmul (F := Ideal) (φ₁ := .bf16) (φ₂ := .bf16) dot_S2048x2048_S2048x256_S2048x256_1_0_0_1_n_n none (ofM T) z
    (constant S2048x256 .f32 0x00000000#32)) (matmul_S2048x256_S256x256 (φ₁ := .bf16) (φ₂ := .bf16) X W)

/-! ## Each window's one block is its whole array -/

theorem hz3 : (![0, 0] : Fin 2 → Nat) = fun _ => 0 := funext fun a => by fin_cases a <;> rfl

/-- The printed index maps, decided over the grid's one point: every window's block index is zero on both axes. -/
theorem idx_facts3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

/-- Window 0's block is its whole array: the activations. -/
theorem blk3_0 (c : Dev nD) (t : Fin cfg3.N) (X : Mat 2048 256) (hX : V c main_v20 = ofM X) :
    (iblk3 V c 0 t : Vec Ideal S2048x256 .f32) = ofM X := by
  obtain ⟨e00, e01, -⟩ := idx_facts3 t
  funext j
  show V c main_v20 (((cfg3.win 0).blk t).view.emb j) = ofM X j
  rw [hX]
  refine congrArg (ofM X) ?_
  funext a; apply Fin.ext
  match a with
  | ⟨0, _⟩ => show win3_0.index t (0 : Fin 2) * 2048 + 1 * (j 0).val = (j 0).val; omega
  | ⟨1, _⟩ => show win3_0.index t (1 : Fin 2) * 256 + 1 * (j 1).val = (j 1).val; omega

/-- Window 1's block is its whole array: the first weight. -/
theorem blk3_1 (c : Dev nD) (t : Fin cfg3.N) (W : Mat 256 256) (hW : V c main_v11 = ofM W) :
    (iblk3 V c 1 t : Vec Ideal S256x256 .bf16) = ofM W := by
  obtain ⟨-, -, e10, e11, -⟩ := idx_facts3 t
  funext j
  show V c main_v11 (((cfg3.win 1).blk t).view.emb j) = ofM W j
  rw [hW]
  refine congrArg (ofM W) ?_
  funext a; apply Fin.ext
  match a with
  | ⟨0, _⟩ => show win3_1.index t (0 : Fin 2) * 256 + 1 * (j 0).val = (j 0).val; omega
  | ⟨1, _⟩ => show win3_1.index t (1 : Fin 2) * 256 + 1 * (j 1).val = (j 1).val; omega

/-- Window 2's block is its whole array: the second weight. -/
theorem blk3_2 (c : Dev nD) (t : Fin cfg3.N) (W : Mat 256 256) (hW : V c main_v12 = ofM W) :
    (iblk3 V c 2 t : Vec Ideal S256x256 .bf16) = ofM W := by
  obtain ⟨-, -, -, -, e20, e21, -⟩ := idx_facts3 t
  funext j
  show V c main_v12 (((cfg3.win 2).blk t).view.emb j) = ofM W j
  rw [hW]
  refine congrArg (ofM W) ?_
  funext a; apply Fin.ext
  match a with
  | ⟨0, _⟩ => show win3_2.index t (0 : Fin 2) * 256 + 1 * (j 0).val = (j 0).val; omega
  | ⟨1, _⟩ => show win3_2.index t (1 : Fin 2) * 256 + 1 * (j 1).val = (j 1).val; omega

/-- Window 3's block is its whole array: the third weight. -/
theorem blk3_3 (c : Dev nD) (t : Fin cfg3.N) (W : Mat 256 256) (hW : V c main_v13 = ofM W) :
    (iblk3 V c 3 t : Vec Ideal S256x256 .bf16) = ofM W := by
  obtain ⟨-, -, -, -, -, -, e30, e31, -⟩ := idx_facts3 t
  funext j
  show V c main_v13 (((cfg3.win 3).blk t).view.emb j) = ofM W j
  rw [hW]
  refine congrArg (ofM W) ?_
  funext a; apply Fin.ext
  match a with
  | ⟨0, _⟩ => show win3_3.index t (0 : Fin 2) * 256 + 1 * (j 0).val = (j 0).val; omega
  | ⟨1, _⟩ => show win3_3.index t (1 : Fin 2) * 256 + 1 * (j 1).val = (j 1).val; omega

/-- Window 4's block is its whole array: the triangle. -/
theorem blk3_4 (c : Dev nD) (t : Fin cfg3.N) (T : Mat 2048 2048) (hT : V c main_v18 = ofM T) :
    (iblk3 V c 4 t : Vec Ideal S2048x2048 .bf16) = ofM T := by
  obtain ⟨-, -, -, -, -, -, -, -, e40, e41, -⟩ := idx_facts3 t
  funext j
  show V c main_v18 (((cfg3.win 4).blk t).view.emb j) = ofM T j
  rw [hT]
  refine congrArg (ofM T) ?_
  funext a; apply Fin.ext
  match a with
  | ⟨0, _⟩ => show win3_4.index t (0 : Fin 2) * 2048 + 1 * (j 0).val = (j 0).val; omega
  | ⟨1, _⟩ => show win3_4.index t (1 : Fin 2) * 2048 + 1 * (j 1).val = (j 1).val; omega

/-! ## What the one point writes back -/

/-- A real matrix written back through an output window's block: the block is the whole array. -/
theorem read3_5 (t : Fin cfg3.N) (A : Mat 2048 256) :
    (cfg3.win 5).cut (grid3.coords t) (ofM A) = ((cfg3.win 5).blk t).view.read (Elt Ideal) (ofM A) := by
  obtain ⟨-, -, -, -, -, -, -, -, -, -, e0, e1, -⟩ := idx_facts3 t
  funext j
  show ofM A ((cfg3.win 5).xinj (grid3.coords t) j) = ofM A (((cfg3.win 5).blk t).view.emb j)
  refine congrArg (ofM A) ?_
  funext a; apply Fin.ext
  match a with
  | ⟨0, _⟩ => show (j 0).val = win3_5.index t (0 : Fin 2) * 2048 + 1 * (j 0).val; omega
  | ⟨1, _⟩ => show (j 1).val = win3_5.index t (1 : Fin 2) * 256 + 1 * (j 1).val; omega
theorem read3_6 (t : Fin cfg3.N) (A : Mat 2048 256) :
    (cfg3.win 6).cut (grid3.coords t) (ofM A) = ((cfg3.win 6).blk t).view.read (Elt Ideal) (ofM A) := by
  obtain ⟨-, -, -, -, -, -, -, -, -, -, -, -, e0, e1, -⟩ := idx_facts3 t
  funext j
  show ofM A ((cfg3.win 6).xinj (grid3.coords t) j) = ofM A (((cfg3.win 6).blk t).view.emb j)
  refine congrArg (ofM A) ?_
  funext a; apply Fin.ext
  match a with
  | ⟨0, _⟩ => show (j 0).val = win3_6.index t (0 : Fin 2) * 2048 + 1 * (j 0).val; omega
  | ⟨1, _⟩ => show (j 1).val = win3_6.index t (1 : Fin 2) * 256 + 1 * (j 1).val; omega
theorem read3_7 (t : Fin cfg3.N) (A : Mat 2048 256) :
    (cfg3.win 7).cut (grid3.coords t) (ofM A) = ((cfg3.win 7).blk t).view.read (Elt Ideal) (ofM A) := by
  obtain ⟨-, -, -, -, -, -, -, -, -, -, -, -, -, -, e0, e1⟩ := idx_facts3 t
  funext j
  show ofM A ((cfg3.win 7).xinj (grid3.coords t) j) = ofM A (((cfg3.win 7).blk t).view.emb j)
  refine congrArg (ofM A) ?_
  funext a; apply Fin.ext
  match a with
  | ⟨0, _⟩ => show (j 0).val = win3_7.index t (0 : Fin 2) * 2048 + 1 * (j 0).val; omega
  | ⟨1, _⟩ => show (j 1).val = win3_7.index t (1 : Fin 2) * 256 + 1 * (j 1).val; omega

/-- The body's result in window 5's buffer, written back, is the block of the product with the first weight. -/
theorem wb3_5 (c : Dev nD) (t : Fin cfg3.N) (X : Mat 2048 256) (W : Mat 256 256)
    (hX : V c main_v20 = ofM X) (hW : V c main_v11 = ofM W) :
    (cfg3.win 5).cut (grid3.coords t) (out3_5 (iblk3 V c 0 t) (iblk3 V c 1 t) (iblk3 V c 2 t) (iblk3 V c 3 t) (iblk3 V c 4 t))
      = ((cfg3.win 5).blk t).view.read (Elt Ideal) (ofM (mm X W)) := by
  unfold out3_5
  rw [View.canon_unit_zero hz3]
  simp only [View.ld_unit_zero (S := S2048x256) hz3, View.ld_unit_zero (S := S256x256) hz3]
  have hp : k3_pay2 (F := Ideal) (iblk3 V c 0 t) (iblk3 V c 1 t) = ofM (mm X W) :=
    pay3_2_val (iblk3 V c 0 t) (iblk3 V c 1 t) X W (blk3_0 V c t X hX) (blk3_1 V c t W hW)
  rw [hp]
  exact read3_5 t (mm X W)

/-- The body's result in window 6's buffer, written back, is the block of the product with the second weight. -/
theorem wb3_6 (c : Dev nD) (t : Fin cfg3.N) (X : Mat 2048 256) (W : Mat 256 256)
    (hX : V c main_v20 = ofM X) (hW : V c main_v12 = ofM W) :
    (cfg3.win 6).cut (grid3.coords t) (out3_6 (iblk3 V c 0 t) (iblk3 V c 1 t) (iblk3 V c 2 t) (iblk3 V c 3 t) (iblk3 V c 4 t))
      = ((cfg3.win 6).blk t).view.read (Elt Ideal) (ofM (mm X W)) := by
  unfold out3_6
  rw [View.canon_unit_zero hz3]
  simp only [View.ld_unit_zero (S := S2048x256) hz3, View.ld_unit_zero (S := S256x256) hz3]
  have hp : k3_pay3 (F := Ideal) (iblk3 V c 0 t) (iblk3 V c 2 t) = ofM (mm X W) :=
    pay3_3_val (iblk3 V c 0 t) (iblk3 V c 2 t) X W (blk3_0 V c t X hX) (blk3_2 V c t W hW)
  rw [hp]
  exact read3_6 t (mm X W)

/-- The body's result in window 7's buffer, written back, is the block of the triangle times the product with the
    third weight. -/
theorem wb3_7 (c : Dev nD) (t : Fin cfg3.N) (X : Mat 2048 256) (W : Mat 256 256) (T : Mat 2048 2048)
    (hX : V c main_v20 = ofM X) (hW : V c main_v13 = ofM W) (hT : V c main_v18 = ofM T) :
    (cfg3.win 7).cut (grid3.coords t) (out3_7 (iblk3 V c 0 t) (iblk3 V c 1 t) (iblk3 V c 2 t) (iblk3 V c 3 t) (iblk3 V c 4 t))
      = ((cfg3.win 7).blk t).view.read (Elt Ideal) (ofM (mm T (mm X W))) := by
  unfold out3_7
  rw [View.canon_unit_zero hz3]
  simp only [View.ld_unit_zero (S := S2048x256) hz3, View.ld_unit_zero (S := S256x256) hz3, View.ld_unit_zero (S := S2048x2048) hz3]
  have hp : k3_pay4 (F := Ideal) (iblk3 V c 0 t) (iblk3 V c 3 t) (iblk3 V c 4 t) = ofM (mm T (mm X W)) :=
    pay3_4_val (iblk3 V c 0 t) (iblk3 V c 3 t) (iblk3 V c 4 t) X W T (blk3_0 V c t X hX) (blk3_3 V c t W hW) (blk3_4 V c t T hT)
  rw [hp]
  exact read3_7 t (mm T (mm X W))

/-- What the point writes back through window 5 is the block of `X·Q`. -/
theorem flushed3_5 (c : Dev nD) (t : Fin cfg3.N) (X : Mat 2048 256) (W : Mat 256 256)
    (hX : V c main_v20 = ofM X) (hW : V c main_v11 = ofM W) :
    (dat3 V c).flushed 5 t = ((cfg3.win 5).blk t).view.read (Elt Ideal) (ofM (mm X W)) := by
  show (cfg3.win 5).cut (grid3.coords t) ((dat3 V c).after 5 t) = _
  rw [after3_5]
  exact wb3_5 V c t X W hX hW

/-- What the point writes back through window 6 is the block of `X·K`. -/
theorem flushed3_6 (c : Dev nD) (t : Fin cfg3.N) (X : Mat 2048 256) (W : Mat 256 256)
    (hX : V c main_v20 = ofM X) (hW : V c main_v12 = ofM W) :
    (dat3 V c).flushed 6 t = ((cfg3.win 6).blk t).view.read (Elt Ideal) (ofM (mm X W)) := by
  show (cfg3.win 6).cut (grid3.coords t) ((dat3 V c).after 6 t) = _
  rw [after3_6]
  exact wb3_6 V c t X W hX hW

/-- What the point writes back through window 7 is the block of `Δ·(X·Vm)`. -/
theorem flushed3_7 (c : Dev nD) (t : Fin cfg3.N) (X : Mat 2048 256) (W : Mat 256 256) (T : Mat 2048 2048)
    (hX : V c main_v20 = ofM X) (hW : V c main_v13 = ofM W) (hT : V c main_v18 = ofM T) :
    (dat3 V c).flushed 7 t = ((cfg3.win 7).blk t).view.read (Elt Ideal) (ofM (mm T (mm X W))) := by
  show (cfg3.win 7).cut (grid3.coords t) ((dat3 V c).after 7 t) = _
  rw [after3_7]
  exact wb3_7 V c t X W T hX hW hT

/-! ## The cover: the one point's block is the whole array -/

theorem mem_blk3_5 (t : Fin cfg3.N) (i : S2048x256.Idx) :
    i ∈ ((cfg3.win 5).blk t).view.set ↔ ∀ a : Fin 2, win3_5.index t a * S2048x256.size a ≤ (i a).val ∧ (i a).val < win3_5.index t a * S2048x256.size a + S2048x256.size a := by
  show i ∈ ((View.whole main_v21_0).slice (win3_5.rect t)).set ↔ _
  rw [View.set_slice_whole, Rect.mem_set_unit]
  exact Iff.rfl
theorem mem_blk3_6 (t : Fin cfg3.N) (i : S2048x256.Idx) :
    i ∈ ((cfg3.win 6).blk t).view.set ↔ ∀ a : Fin 2, win3_6.index t a * S2048x256.size a ≤ (i a).val ∧ (i a).val < win3_6.index t a * S2048x256.size a + S2048x256.size a := by
  show i ∈ ((View.whole main_v21_1).slice (win3_6.rect t)).set ↔ _
  rw [View.set_slice_whole, Rect.mem_set_unit]
  exact Iff.rfl
theorem mem_blk3_7 (t : Fin cfg3.N) (i : S2048x256.Idx) :
    i ∈ ((cfg3.win 7).blk t).view.set ↔ ∀ a : Fin 2, win3_7.index t a * S2048x256.size a ≤ (i a).val ∧ (i a).val < win3_7.index t a * S2048x256.size a + S2048x256.size a := by
  show i ∈ ((View.whole main_v21_2).slice (win3_7.rect t)).set ↔ _
  rw [View.set_slice_whole, Rect.mem_set_unit]
  exact Iff.rfl

/-- Every index of window 5's array is in the one point's block. -/
theorem covered3_5 (i : S2048x256.Idx) : ∃ t : Fin cfg3.N, (cfg3.win 5).flush t = true ∧ i ∈ ((cfg3.win 5).blk t).view.set := by
  obtain ⟨-, -, -, -, -, -, -, -, -, -, e0, e1, -⟩ := idx_facts3 t3_0
  refine ⟨t3_0, flush3_5 t3_0, ?_⟩
  rw [mem_blk3_5]
  intro a
  match a with
  | ⟨0, _⟩ => show win3_5.index t3_0 (0 : Fin 2) * 2048 ≤ (i 0).val ∧ (i 0).val < win3_5.index t3_0 (0 : Fin 2) * 2048 + 2048; have hi : (i 0).val < 2048 := (i 0).isLt; omega
  | ⟨1, _⟩ => show win3_5.index t3_0 (1 : Fin 2) * 256 ≤ (i 1).val ∧ (i 1).val < win3_5.index t3_0 (1 : Fin 2) * 256 + 256; have hi : (i 1).val < 256 := (i 1).isLt; omega
theorem covered3_6 (i : S2048x256.Idx) : ∃ t : Fin cfg3.N, (cfg3.win 6).flush t = true ∧ i ∈ ((cfg3.win 6).blk t).view.set := by
  obtain ⟨-, -, -, -, -, -, -, -, -, -, -, -, e0, e1, -⟩ := idx_facts3 t3_0
  refine ⟨t3_0, flush3_6 t3_0, ?_⟩
  rw [mem_blk3_6]
  intro a
  match a with
  | ⟨0, _⟩ => show win3_6.index t3_0 (0 : Fin 2) * 2048 ≤ (i 0).val ∧ (i 0).val < win3_6.index t3_0 (0 : Fin 2) * 2048 + 2048; have hi : (i 0).val < 2048 := (i 0).isLt; omega
  | ⟨1, _⟩ => show win3_6.index t3_0 (1 : Fin 2) * 256 ≤ (i 1).val ∧ (i 1).val < win3_6.index t3_0 (1 : Fin 2) * 256 + 256; have hi : (i 1).val < 256 := (i 1).isLt; omega
theorem covered3_7 (i : S2048x256.Idx) : ∃ t : Fin cfg3.N, (cfg3.win 7).flush t = true ∧ i ∈ ((cfg3.win 7).blk t).view.set := by
  obtain ⟨-, -, -, -, -, -, -, -, -, -, -, -, -, -, e0, e1⟩ := idx_facts3 t3_0
  refine ⟨t3_0, flush3_7 t3_0, ?_⟩
  rw [mem_blk3_7]
  intro a
  match a with
  | ⟨0, _⟩ => show win3_7.index t3_0 (0 : Fin 2) * 2048 ≤ (i 0).val ∧ (i 0).val < win3_7.index t3_0 (0 : Fin 2) * 2048 + 2048; have hi : (i 0).val < 2048 := (i 0).isLt; omega
  | ⟨1, _⟩ => show win3_7.index t3_0 (1 : Fin 2) * 256 ≤ (i 1).val ∧ (i 1).val < win3_7.index t3_0 (1 : Fin 2) * 256 + 256; have hi : (i 1).val < 256 := (i 1).isLt; omega

/-! ## The arrays after the region -/

/-- The three output arrays of region 3 after the region, as real matrices of its input arrays. -/
theorem val3 (c : Dev nD) (X : Mat L D) (Q K Vm : Mat D D)
    (hX : V c main_v20 = ofM X) (hQ : V c main_v11 = ofM Q) (hK : V c main_v12 = ofM K) (hV : V c main_v13 = ofM Vm)
    (hΔ : V c main_v18 = ofM (Cert.Spec.tril L)) :
    (dat3 V c).arrAt 5 cfg3.N = ofM (mm X Q) ∧ (dat3 V c).arrAt 6 cfg3.N = ofM (mm X K)
      ∧ (dat3 V c).arrAt 7 cfg3.N = ofM (mm (tril L) (mm X Vm)) :=
  ⟨(dat3 V c).arrAt_eq_of_cover 5 (ofM (mm X Q)) (fun t _ => flushed3_5 V c t X Q hX hQ) covered3_5,
   (dat3 V c).arrAt_eq_of_cover 6 (ofM (mm X K)) (fun t _ => flushed3_6 V c t X K hX hK) covered3_6,
   (dat3 V c).arrAt_eq_of_cover 7 (ofM (mm (tril L) (mm X Vm))) (fun t _ => flushed3_7 V c t X Vm (tril L) hX hV hΔ) covered3_7⟩

end Cert.KernelIdeal.HandVal

end
-- ==== Proof.Val.Ffn.lean ====
import proofs.«104406_j63058709840319_2_alg».proof.Proof.Spec

/-! One round's attention and feed-forward on `n` query rows against the 2048 key and value rows, over the reals, and
    the fact the row tiling rests on: row `i` of the result depends on row `i` of the queries only. -/

noncomputable section

open scoped BigOperators

namespace Cert.Spec

variable {n n' : ℕ}

/-- `relu(softmax(X·XKᵀ/16)·PV·W₁ + b₁)·W₂ + b₂` on `n` query rows `X`. -/
def ffn (X : Mat n D) (XK PV : Mat L D) (W1 W2 : Mat D D) (b1 b2 : Mat 1 D) : Mat n D :=
  fun i j => mm (relu (fun i j => mm (mm (smaxK (b := 2047) (sc (mm X (tr XK)))) PV) W1 i j + rowB b1 i j)) W2 i j + rowB b2 i j

/-- Rows `512·q … 512·q + 511` of a matrix of 2048 rows. -/
def rows512 (q : ℕ) (hq : q < 4) (X : Mat L D) : Mat 512 D :=
  fun i j => X ⟨512 * q + i.val, by have := i.isLt; show _ < 2048; omega⟩ j

/-- An entry of a matrix depends on the values of its two indices only. -/
theorem entry_congr {a b : ℕ} (X : Mat a b) {i i' : Fin a} {j j' : Fin b} (hi : i.val = i'.val) (hj : j.val = j'.val) :
    X i j = X i' j' := by
  rw [Fin.ext hi, Fin.ext hj]

/-- Two query matrices with the same row, one at `i` and the other at `i'`, give the same result row. -/
theorem ffn_congr_row (X : Mat n D) (X' : Mat n' D) (XK PV : Mat L D) (W1 W2 : Mat D D) (b1 b2 : Mat 1 D)
    (i : Fin n) (i' : Fin n') (h : ∀ k, X i k = X' i' k) (j : Fin D) :
    ffn X XK PV W1 W2 b1 b2 i j = ffn X' XK PV W1 W2 b1 b2 i' j := by
  have hs : (sc (mm X (tr XK))) i = (sc (mm X' (tr XK))) i' := by
    funext k
    show (∑ l, X i l * tr XK l k) * (0.0625 : ℝ) = (∑ l, X' i' l * tr XK l k) * (0.0625 : ℝ)
    simp only [h]
  have hm : rowMax (b := 2047) (sc (mm X (tr XK))) i = rowMax (b := 2047) (sc (mm X' (tr XK))) i' := by
    unfold rowMax; rw [hs]
  have hp : (smaxK (b := 2047) (sc (mm X (tr XK)))) i = (smaxK (b := 2047) (sc (mm X' (tr XK)))) i' := by
    funext k
    unfold smaxK
    simp only [hm, congrFun hs]
  have ha : ∀ j, mm (smaxK (b := 2047) (sc (mm X (tr XK)))) PV i j = mm (smaxK (b := 2047) (sc (mm X' (tr XK)))) PV i' j := by
    intro j
    show ∑ l, (smaxK (b := 2047) (sc (mm X (tr XK)))) i l * PV l j = ∑ l, (smaxK (b := 2047) (sc (mm X' (tr XK)))) i' l * PV l j
    rw [hp]
  have hh : ∀ j, relu (fun i j => mm (mm (smaxK (b := 2047) (sc (mm X (tr XK)))) PV) W1 i j + rowB b1 i j) i j
      = relu (fun i j => mm (mm (smaxK (b := 2047) (sc (mm X' (tr XK)))) PV) W1 i j + rowB b1 i j) i' j := by
    intro j
    show max ((∑ l, mm (smaxK (b := 2047) (sc (mm X (tr XK)))) PV i l * W1 l j) + b1 0 j) 0
      = max ((∑ l, mm (smaxK (b := 2047) (sc (mm X' (tr XK)))) PV i' l * W1 l j) + b1 0 j) 0
    simp only [ha]
  show (∑ l, relu (fun i j => mm (mm (smaxK (b := 2047) (sc (mm X (tr XK)))) PV) W1 i j + rowB b1 i j) i l * W2 l j) + b2 0 j
    = (∑ l, relu (fun i j => mm (mm (smaxK (b := 2047) (sc (mm X' (tr XK)))) PV) W1 i j + rowB b1 i j) i' l * W2 l j) + b2 0 j
  simp only [hh]

/-- Row `i` of the result on a tile of the queries is row `512·q + i` of the result on all of them. -/
theorem ffn_rows512 (q : ℕ) (hq : q < 4) (X XK PV : Mat L D) (W1 W2 : Mat D D) (b1 b2 : Mat 1 D) (i : Fin 512) (j : Fin D) :
    ffn (rows512 q hq X) XK PV W1 W2 b1 b2 i j
      = ffn X XK PV W1 W2 b1 b2 ⟨512 * q + i.val, by have := i.isLt; show _ < 2048; omega⟩ j :=
  ffn_congr_row _ _ _ _ _ _ _ _ _ _ (fun _ => rfl) j

end Cert.Spec

end
-- ==== Proof.Val.Val4.lean ====
import proofs.«104406_j63058709840319_2_alg».proof.Proof.KI.Reg4
import proofs.«104406_j63058709840319_2_alg».proof.Proof.LibCoe.Basic
import proofs.«104406_j63058709840319_2_alg».proof.Proof.LibCoe.Reduce
import proofs.«104406_j63058709840319_2_alg».proof.Proof.LibCoe.DotK
import proofs.«104406_j63058709840319_2_alg».proof.Proof.Val.Ffn
import Idealize.ShloMosaic.Lib.Pipeline.Value
import Idealize.ShloMosaic.Lib.ValueIdx

/-! The attention-and-feed-forward call over four row tiles of 512, read as real matrices: when the seven input
    arrays hold real matrices, the output array after the call holds the real matrix
    `relu(softmax(XQ·XKᵀ/16)·PV·W₁ + b₁)·W₂ + b₂`. Every row of that matrix depends on the same row of `XQ` only, so
    what the body leaves at tile `t` (the same expression of rows `512·t … 512·t+511` of `XQ`) is tile `t` of the
    whole matrix, and the four tiles cover the array. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.LibCoe Cert.Spec

/-! ## The body's payload on real blocks -/

/-- The three matrix products of the body on real matrices, at the body's shapes. -/
theorem mmT4 {φ₁ φ₂ : FTy} (A : Mat 512 256) (B : Mat 2048 256) :
    matmul (F := Ideal) (φ₁ := φ₁) (φ₂ := φ₂) dot_S512x256_S2048x256_S512x2048_1_1_0_0_n_n none (ofM A) (ofM B) (constant S512x2048 .f32 0x00000000#32)
      = ofM (mm A (tr B)) := matmul_S512x256_S2048x256 A B
theorem mmA4 {φ₁ φ₂ : FTy} (A : Mat 512 2048) (B : Mat 2048 256) :
    matmul (F := Ideal) (φ₁ := φ₁) (φ₂ := φ₂) dot_S512x2048_S2048x256_S512x256_1_0_0_1_n_n none (ofM A) (ofM B) (constant S512x256 .f32 0x00000000#32)
      = ofM (mm A B) := matmul_S512x2048_S2048x256 A B
theorem mmW4 {φ₁ φ₂ : FTy} (A : Mat 512 256) (B : Mat 256 256) :
    matmul (F := Ideal) (φ₁ := φ₁) (φ₂ := φ₂) dot_S512x256_S256x256_S512x256_1_0_0_1_n_n none (ofM A) (ofM B) (constant S512x256 .f32 0x00000000#32)
      = ofM (mm A B) := matmul_S512x256_S256x256 A B

/-- The row softmax of the body, kernel arrangement, at the body's shapes and with the side conditions spelled as
    the body spells them. -/
theorem kSoftmax4 (A : Mat 512 2048) (h : S512x2048.Reduces [1] S512)
    (hφ : FKind.Formats .f32) (hmax : (0xFF800000#32 : BitVec (FTy.bits .f32)) = FKind.maximumf.neutral .f32 hφ)
    (hadd : (0x00000000#32 : BitVec (FTy.bits .f32)) = FKind.add.neutral .f32 hφ)
    (hsc : S512.ShapeCasts S512x1) (hb : S512x1.Broadcasts S512x2048) :
    mulf
      (exp (subf (ofM A : FVec Ideal S512x2048 .f32)
        (broadcastTo S512x2048 (shapeCast S512x1
          (multiReduction (F := Ideal) .maximumf [1] S512 (ofM A : FVec Ideal S512x2048 .f32) 0xFF800000#32 h hφ hmax) hsc) hb)))
      (broadcastTo S512x2048
        (divf (broadcast S512x1 (Scalar.ofBits (F := Ideal) .f32 0x3F800000#32))
          (shapeCast S512x1
            (multiReduction (F := Ideal) .add [1] S512
              (exp (subf (ofM A : FVec Ideal S512x2048 .f32)
                (broadcastTo S512x2048 (shapeCast S512x1
                  (multiReduction (F := Ideal) .maximumf [1] S512 (ofM A : FVec Ideal S512x2048 .f32) 0xFF800000#32 h hφ hmax) hsc) hb)))
              0x00000000#32 h hφ hadd) hsc)) hb)
      = ofM (a := 512) (b := 2048) (smaxK (b := 2047) A) :=
  kSoftmax (n := 512) A h hφ hmax hadd hsc hb

/-- The body's stored value on real blocks is the real expression of them. -/
theorem pay4 (X : Mat 512 D) (XK PV : Mat L D) (W1 W2 : Mat D D) (b1 b2 : Mat 1 D) :
    k4_pay1 (F := Ideal) (k4_pay2 (ofM X) (ofM XK) (ofM PV) (ofM W1) (ofM b1) (ofM W2)) (ofM b2)
      = ofM (ffn X XK PV W1 W2 b1 b2) := by
  unfold k4_pay1 k4_pay2
  dsimp only
  simp only [shapeCast_ofM, broadcastTo_row_ofM]
  rw [mmT4, mulf_broadcast_sixteenth_ofM]
  erw [kSoftmax4]
  rw [truncf_ofM, mmA4, truncf_ofM, mmW4, addf_ofM, maximumf_broadcast_zero_ofM, truncf_ofM, mmW4, addf_ofM]
  rfl

/-! ## The input blocks -/

theorem hz4 : (![0, 0] : Fin 2 → Nat) = fun _ => 0 := funext fun a => by fin_cases a <;> rfl

/-- The printed index maps, decided over the four points: the query window and the output window are at row tile
    `t`, every other window at its whole array. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

variable (V : (c : Dev nD) → (b : Ref sig .tc) → Buf (Elt Ideal) ((c : Thread nD τ).loc b)) (c : Dev nD)

/-- The query window's block at point `t` is rows `512·t … 512·t+511` of the query array. -/
theorem iblk4_0_eq (XQ : Mat L D) (h0 : V c main_v21_0 = ofM XQ) (t : Fin cfg4.N) :
    iblk4 V c 0 t = ofM (rows512 t.val (Nat.lt_of_lt_of_eq t.isLt N_4) XQ) := by
  obtain ⟨e0, e1, -⟩ := idx_facts4 t
  funext j
  show V c main_v21_0 (((cfg4.win 0).blk t).view.emb j) = ofM (rows512 t.val (Nat.lt_of_lt_of_eq t.isLt N_4) XQ) j
  refine (congrFun h0 _).trans ?_
  refine congrArg (fun x : ℝ => (x : EReal)) (entry_congr XQ ?_ ?_)
  · show win4_0.index t (0 : Fin 2) * 512 + 1 * (j 0).val = 512 * t.val + (j 0).val
    omega
  · show win4_0.index t (1 : Fin 2) * 256 + 1 * (j 1).val = (j 1).val
    omega

/-- Every other input window's block is its whole array, at every point. -/
theorem iblk4_1_eq (t : Fin cfg4.N) : iblk4 V c 1 t = V c main_v21_1 := by
  obtain ⟨-, -, e0, e1, -⟩ := idx_facts4 t
  funext j
  show V c main_v21_1 (((cfg4.win 1).blk t).view.emb j) = V c main_v21_1 j
  refine congrArg (V c main_v21_1) ?_
  funext a; apply Fin.ext
  match a with
  | ⟨0, _⟩ => show win4_1.index t (0 : Fin 2) * 2048 + 1 * (j 0).val = (j 0).val; omega
  | ⟨1, _⟩ => show win4_1.index t (1 : Fin 2) * 256 + 1 * (j 1).val = (j 1).val; omega
theorem iblk4_2_eq (t : Fin cfg4.N) : iblk4 V c 2 t = V c main_v21_2 := by
  obtain ⟨-, -, -, -, e0, e1, -⟩ := idx_facts4 t
  funext j
  show V c main_v21_2 (((cfg4.win 2).blk t).view.emb j) = V c main_v21_2 j
  refine congrArg (V c main_v21_2) ?_
  funext a; apply Fin.ext
  match a with
  | ⟨0, _⟩ => show win4_2.index t (0 : Fin 2) * 2048 + 1 * (j 0).val = (j 0).val; omega
  | ⟨1, _⟩ => show win4_2.index t (1 : Fin 2) * 256 + 1 * (j 1).val = (j 1).val; omega
theorem iblk4_3_eq (t : Fin cfg4.N) : iblk4 V c 3 t = V c main_v14 := by
  obtain ⟨-, -, -, -, -, -, e0, e1, -⟩ := idx_facts4 t
  funext j
  show V c main_v14 (((cfg4.win 3).blk t).view.emb j) = V c main_v14 j
  refine congrArg (V c main_v14) ?_
  funext a; apply Fin.ext
  match a with
  | ⟨0, _⟩ => show win4_3.index t (0 : Fin 2) * 256 + 1 * (j 0).val = (j 0).val; omega
  | ⟨1, _⟩ => show win4_3.index t (1 : Fin 2) * 256 + 1 * (j 1).val = (j 1).val; omega
theorem iblk4_4_eq (t : Fin cfg4.N) : iblk4 V c 4 t = V c main_v15 := by
  obtain ⟨-, -, -, -, -, -, -, -, e0, e1, -⟩ := idx_facts4 t
  funext j
  show V c main_v15 (((cfg4.win 4).blk t).view.emb j) = V c main_v15 j
  refine congrArg (V c main_v15) ?_
  funext a; apply Fin.ext
  match a with
  | ⟨0, _⟩ => show win4_4.index t (0 : Fin 2) * 256 + 1 * (j 0).val = (j 0).val; omega
  | ⟨1, _⟩ => show win4_4.index t (1 : Fin 2) * 256 + 1 * (j 1).val = (j 1).val; omega
theorem iblk4_5_eq (t : Fin cfg4.N) : iblk4 V c 5 t = V c main_arg14 := by
  obtain ⟨-, -, -, -, -, -, -, -, -, -, e0, e1, -⟩ := idx_facts4 t
  funext j
  show V c main_arg14 (((cfg4.win 5).blk t).view.emb j) = V c main_arg14 j
  refine congrArg (V c main_arg14) ?_
  funext a; apply Fin.ext
  match a with
  | ⟨0, _⟩ => show win4_5.index t (0 : Fin 2) * 1 + 1 * (j 0).val = (j 0).val; omega
  | ⟨1, _⟩ => show win4_5.index t (1 : Fin 2) * 256 + 1 * (j 1).val = (j 1).val; omega
theorem iblk4_6_eq (t : Fin cfg4.N) : iblk4 V c 6 t = V c main_arg15 := by
  obtain ⟨-, -, -, -, -, -, -, -, -, -, -, -, e0, e1, -⟩ := idx_facts4 t
  funext j
  show V c main_arg15 (((cfg4.win 6).blk t).view.emb j) = V c main_arg15 j
  refine congrArg (V c main_arg15) ?_
  funext a; apply Fin.ext
  match a with
  | ⟨0, _⟩ => show win4_6.index t (0 : Fin 2) * 1 + 1 * (j 0).val = (j 0).val; omega
  | ⟨1, _⟩ => show win4_6.index t (1 : Fin 2) * 256 + 1 * (j 1).val = (j 1).val; omega

/-! ## From the blocks to the array -/

/-- What point `t` writes back is tile `t` of the whole real matrix. -/
theorem flushed4_eq (XQ XK PV : Mat L D) (W1 W2 : Mat D D) (b1 b2 : Mat 1 D)
    (h0 : V c main_v21_0 = ofM XQ) (h1 : V c main_v21_1 = ofM XK) (h2 : V c main_v21_2 = ofM PV)
    (h3 : V c main_v14 = ofM W1) (h4 : V c main_v15 = ofM W2) (h5 : V c main_arg14 = ofM b1) (h6 : V c main_arg15 = ofM b2)
    (t : Fin cfg4.N) :
    (dat4 V c).flushed 7 t = ((cfg4.win 7).blk t).view.read (Elt Ideal) (ofM (ffn XQ XK PV W1 W2 b1 b2)) := by
  show (cfg4.win 7).cut (grid4.coords t) ((dat4 V c).after 7 t) = _
  rw [after4_7]
  unfold out4_7
  rw [View.canon_unit_zero hz4]
  simp only [View.ld_unit_zero (S := S512x256) hz4, View.ld_unit_zero (S := S2048x256) hz4,
    View.ld_unit_zero (S := S256x256) hz4, View.ld_unit_zero (S := S1x256) hz4]
  rw [iblk4_0_eq V c XQ h0, iblk4_1_eq, iblk4_2_eq, iblk4_3_eq, iblk4_4_eq, iblk4_5_eq, iblk4_6_eq, h1, h2, h3, h4, h5, h6, pay4]
  obtain ⟨-, -, -, -, -, -, -, -, -, -, -, -, -, -, e0, e1⟩ := idx_facts4 t
  funext j
  show ((ffn (rows512 t.val (Nat.lt_of_lt_of_eq t.isLt N_4) XQ) XK PV W1 W2 b1 b2 (j 0) (j 1) : ℝ) : EReal)
    = ((ffn XQ XK PV W1 W2 b1 b2 (((cfg4.win 7).blk t).view.emb j 0) (((cfg4.win 7).blk t).view.emb j 1) : ℝ) : EReal)
  refine congrArg (fun x : ℝ => (x : EReal)) ((ffn_rows512 t.val _ XQ XK PV W1 W2 b1 b2 (j 0) (j 1)).trans
    (entry_congr (ffn XQ XK PV W1 W2 b1 b2) ?_ ?_))
  · show 512 * t.val + (j 0).val = win4_7.index t (0 : Fin 2) * 512 + 1 * (j 0).val
    omega
  · show (j 1).val = win4_7.index t (1 : Fin 2) * 256 + 1 * (j 1).val
    omega

/-- An index of the output array is in point `t`'s block iff each coordinate is in the block's range on its axis. -/
theorem mem_blk4 (t : Fin cfg4.N) (i : S2048x256.Idx) :
    i ∈ ((cfg4.win 7).blk t).view.set ↔ ∀ a : Fin 2, win4_7.index t a * S512x256.size a ≤ (i a).val ∧ (i a).val < win4_7.index t a * S512x256.size a + S512x256.size a := by
  show i ∈ ((View.whole main_v22).slice (win4_7.rect t)).set ↔ _
  rw [View.set_slice_whole, Rect.mem_set_unit]
  exact Iff.rfl

/-- Every index of the output array is in the block of the point its row's tile names. -/
theorem cover4 (i : S2048x256.Idx) : ∃ t : Fin cfg4.N, (cfg4.win 7).flush t = true ∧ i ∈ ((cfg4.win 7).blk t).view.set := by
  have hi0 : (i 0).val < 2048 := (i 0).isLt
  have hi1 : (i 1).val < 256 := (i 1).isLt
  have hq : (i 0).val / 512 < 4 := by omega
  obtain ⟨-, -, -, -, -, -, -, -, -, -, -, -, -, -, e0, e1⟩ := idx_facts4 ⟨(i 0).val / 512, Nat.lt_of_lt_of_eq hq N_4.symm⟩
  refine ⟨⟨(i 0).val / 512, Nat.lt_of_lt_of_eq hq N_4.symm⟩, flush4_7 _, ?_⟩
  rw [mem_blk4]
  intro a
  match a with
  | ⟨0, _⟩ =>
    show win4_7.index ⟨(i 0).val / 512, Nat.lt_of_lt_of_eq hq N_4.symm⟩ (0 : Fin 2) * 512 ≤ (i 0).val
      ∧ (i 0).val < win4_7.index ⟨(i 0).val / 512, Nat.lt_of_lt_of_eq hq N_4.symm⟩ (0 : Fin 2) * 512 + 512
    rw [e0]
    show (i 0).val / 512 * 512 ≤ (i 0).val ∧ (i 0).val < (i 0).val / 512 * 512 + 512
    omega
  | ⟨1, _⟩ =>
    show win4_7.index ⟨(i 0).val / 512, Nat.lt_of_lt_of_eq hq N_4.symm⟩ (1 : Fin 2) * 256 ≤ (i 1).val
      ∧ (i 1).val < win4_7.index ⟨(i 0).val / 512, Nat.lt_of_lt_of_eq hq N_4.symm⟩ (1 : Fin 2) * 256 + 256
    omega

/-- The output array after the call, from real inputs. -/
theorem val4 (XQ XK PV : Mat L D) (W1 W2 : Mat D D) (b1 b2 : Mat 1 D)
    (h0 : V c main_v21_0 = ofM XQ) (h1 : V c main_v21_1 = ofM XK) (h2 : V c main_v21_2 = ofM PV)
    (h3 : V c main_v14 = ofM W1) (h4 : V c main_v15 = ofM W2) (h5 : V c main_arg14 = ofM b1) (h6 : V c main_arg15 = ofM b2) :
    (dat4 V c).arrAt 7 cfg4.N = ofM (fun i j => mm (relu (fun i j => mm (mm (smaxK (b := 2047) (sc (mm XQ (tr XK)))) PV) W1 i j + rowB b1 i j)) W2 i j + rowB b2 i j) :=
  (dat4 V c).arrAt_eq_of_cover 7 (ofM (ffn XQ XK PV W1 W2 b1 b2))
    (fun t _ => flushed4_eq V c XQ XK PV W1 W2 b1 b2 h0 h1 h2 h3 h4 h5 h6 t) cover4

end Cert.KernelIdeal.HandVal

end
-- ==== Proof.Val.Val5.lean ====
/- Region 5 of @main (the projection kernel, one grid point) at the ideal values: when the arrays it reads hold real
   matrices `X` (the activations), `Q`, `K`, `Vm` (the three weights) and the lower-triangular matrix of ones, its
   three output arrays hold after the region the real matrices `X·Q`, `X·K` and `Δ·(X·Vm)`. Each output window's one
   block is the whole array, written by one whole-buffer store of a payload that is a product of real matrices (the
   truncations and the shape casts are the identity on ideal values). -/
import proofs.«104406_j63058709840319_2_alg».proof.Proof.KI.Reg5
import proofs.«104406_j63058709840319_2_alg».proof.Proof.LibCoe.Basic
import proofs.«104406_j63058709840319_2_alg».proof.Proof.LibCoe.DotK
import Idealize.ShloMosaic.Lib.Pipeline.Value
import Idealize.ShloMosaic.Lib.ValueIdx

set_option maxRecDepth 16384

noncomputable section

namespace Cert.KernelIdeal.HandVal

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand
open Cert.LibCoe Cert.Spec

variable (V : (c : Dev nD) → (b : Ref sig .tc) → Buf (Elt Ideal) ((c : Thread nD τ).loc b))

/-! ## The payloads on real matrices -/

/-- A truncation is the identity on ideal values. -/
theorem truncf_id5 {s : Shape} {φ ψ : FTy} (x : FVec Ideal s φ) (h : ψ.bits < φ.bits) : truncf (F := Ideal) ψ x h = x := rfl

/-- The truncated activations: the shape cast and the truncation are the identity on ideal values. -/
theorem pay5_1_val (x0 : Vec Ideal S2048x256 .f32) (X : Mat 2048 256) (h0 : x0 = ofM X) : k5_pay1 x0 = ofM X := by
  subst h0
  unfold k5_pay1
  dsimp only
  rw [truncf_id5, shapeCast_self]

/-- The first stored payload: the activations times the first weight. -/
theorem pay5_2_val (x0 : Vec Ideal S2048x256 .f32) (x1 : Vec Ideal S256x256 .bf16) (X : Mat 2048 256) (W : Mat 256 256)
    (h0 : x0 = ofM X) (h1 : x1 = ofM W) : k5_pay2 x0 x1 = ofM (mm X W) := by
  have e1 := pay5_1_val x0 X h0
  subst h1
  unfold k5_pay2
  dsimp only
  rw [e1, shapeCast_self, truncf_id5]
  exact matmul_S2048x256_S256x256 (φ₁ := .bf16) (φ₂ := .bf16) X W

/-- The second stored payload: the activations times the second weight. -/
theorem pay5_3_val (x0 : Vec Ideal S2048x256 .f32) (x2 : Vec Ideal S256x256 .bf16) (X : Mat 2048 256) (W : Mat 256 256)
    (h0 : x0 = ofM X) (h2 : x2 = ofM W) : k5_pay3 x0 x2 = ofM (mm X W) := by
  have e1 := pay5_1_val x0 X h0
  subst h2
  unfold k5_pay3
  dsimp only
  rw [e1, shapeCast_self, truncf_id5]
  exact matmul_S2048x256_S256x256 (φ₁ := .bf16) (φ₂ := .bf16) X W

/-- The third stored payload: the triangle times (the activations times the third weight). -/
theorem pay5_4_val (x0 : Vec Ideal S2048x256 .f32) (x3 : Vec Ideal S256x256 .bf16) (x4 : Vec Ideal S2048x2048 .bf16)
    (X : Mat 2048 256) (W : Mat 256 256) (T : Mat 2048 2048)
    (h0 : x0 = ofM X) (h3 : x3 = ofM W) (h4 : x4 = ofM T) : k5_pay4 x0 x3 x4 = ofM (mm T (mm X W)) := by
  have e1 := pay5_1_val x0 X h0
  subst h3 h4
  unfold k5_pay4
  dsimp only
  rw [e1, shapeCast_self, shapeCast_self, truncf_id5, truncf_id5]
  refine Eq.trans ?_ (matmul_S2048x2048_S2048x256 (φ₁ := .bf16) (φ₂ := .bf16) T (mm X W))
  exact congrArg (fun z => matmul (F := Ideal) (φ₁ := .bf16) (φ₂ := .bf16) dot_S2048x2048_S2048x256_S2048x256_1_0_0_1_n_n none (ofM T) z
    (constant S2048x256 .f32 0x00000000#32)) (matmul_S2048x256_S256x256 (φ₁ := .bf16) (φ₂ := .bf16) X W)

/-! ## Each window's one block is its whole array -/

theorem hz5 : (![0, 0] : Fin 2 → Nat) = fun _ => 0 := funext fun a => by fin_cases a <;> rfl

/-- The printed index maps, decided over the grid's one point: every window's block index is zero on both axes. -/
theorem idx_facts5 : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0 :=
  (by decide +kernel : ∀ t : Fin grid5.N, _)

/-- Window 0's block is its whole array: the activations. -/
theorem blk5_0 (c : Dev nD) (t : Fin cfg5.N) (X : Mat 2048 256) (hX : V c main_v22 = ofM X) :
    (iblk5 V c 0 t : Vec Ideal S2048x256 .f32) = ofM X := by
  obtain ⟨e00, e01, -⟩ := idx_facts5 t
  funext j
  show V c main_v22 (((cfg5.win 0).blk t).view.emb j) = ofM X j
  rw [hX]
  refine congrArg (ofM X) ?_
  funext a; apply Fin.ext
  match a with
  | ⟨0, _⟩ => show win5_0.index t (0 : Fin 2) * 2048 + 1 * (j 0).val = (j 0).val; omega
  | ⟨1, _⟩ => show win5_0.index t (1 : Fin 2) * 256 + 1 * (j 1).val = (j 1).val; omega

/-- Window 1's block is its whole array: the first weight. -/
theorem blk5_1 (c : Dev nD) (t : Fin cfg5.N) (W : Mat 256 256) (hW : V c main_v11 = ofM W) :
    (iblk5 V c 1 t : Vec Ideal S256x256 .bf16) = ofM W := by
  obtain ⟨-, -, e10, e11, -⟩ := idx_facts5 t
  funext j
  show V c main_v11 (((cfg5.win 1).blk t).view.emb j) = ofM W j
  rw [hW]
  refine congrArg (ofM W) ?_
  funext a; apply Fin.ext
  match a with
  | ⟨0, _⟩ => show win5_1.index t (0 : Fin 2) * 256 + 1 * (j 0).val = (j 0).val; omega
  | ⟨1, _⟩ => show win5_1.index t (1 : Fin 2) * 256 + 1 * (j 1).val = (j 1).val; omega

/-- Window 2's block is its whole array: the second weight. -/
theorem blk5_2 (c : Dev nD) (t : Fin cfg5.N) (W : Mat 256 256) (hW : V c main_v12 = ofM W) :
    (iblk5 V c 2 t : Vec Ideal S256x256 .bf16) = ofM W := by
  obtain ⟨-, -, -, -, e20, e21, -⟩ := idx_facts5 t
  funext j
  show V c main_v12 (((cfg5.win 2).blk t).view.emb j) = ofM W j
  rw [hW]
  refine congrArg (ofM W) ?_
  funext a; apply Fin.ext
  match a with
  | ⟨0, _⟩ => show win5_2.index t (0 : Fin 2) * 256 + 1 * (j 0).val = (j 0).val; omega
  | ⟨1, _⟩ => show win5_2.index t (1 : Fin 2) * 256 + 1 * (j 1).val = (j 1).val; omega

/-- Window 3's block is its whole array: the third weight. -/
theorem blk5_3 (c : Dev nD) (t : Fin cfg5.N) (W : Mat 256 256) (hW : V c main_v13 = ofM W) :
    (iblk5 V c 3 t : Vec Ideal S256x256 .bf16) = ofM W := by
  obtain ⟨-, -, -, -, -, -, e30, e31, -⟩ := idx_facts5 t
  funext j
  show V c main_v13 (((cfg5.win 3).blk t).view.emb j) = ofM W j
  rw [hW]
  refine congrArg (ofM W) ?_
  funext a; apply Fin.ext
  match a with
  | ⟨0, _⟩ => show win5_3.index t (0 : Fin 2) * 256 + 1 * (j 0).val = (j 0).val; omega
  | ⟨1, _⟩ => show win5_3.index t (1 : Fin 2) * 256 + 1 * (j 1).val = (j 1).val; omega

/-- Window 4's block is its whole array: the triangle. -/
theorem blk5_4 (c : Dev nD) (t : Fin cfg5.N) (T : Mat 2048 2048) (hT : V c main_v18 = ofM T) :
    (iblk5 V c 4 t : Vec Ideal S2048x2048 .bf16) = ofM T := by
  obtain ⟨-, -, -, -, -, -, -, -, e40, e41, -⟩ := idx_facts5 t
  funext j
  show V c main_v18 (((cfg5.win 4).blk t).view.emb j) = ofM T j
  rw [hT]
  refine congrArg (ofM T) ?_
  funext a; apply Fin.ext
  match a with
  | ⟨0, _⟩ => show win5_4.index t (0 : Fin 2) * 2048 + 1 * (j 0).val = (j 0).val; omega
  | ⟨1, _⟩ => show win5_4.index t (1 : Fin 2) * 2048 + 1 * (j 1).val = (j 1).val; omega

/-! ## What the one point writes back -/

/-- A real matrix written back through an output window's block: the block is the whole array. -/
theorem read5_5 (t : Fin cfg5.N) (A : Mat 2048 256) :
    (cfg5.win 5).cut (grid5.coords t) (ofM A) = ((cfg5.win 5).blk t).view.read (Elt Ideal) (ofM A) := by
  obtain ⟨-, -, -, -, -, -, -, -, -, -, e0, e1, -⟩ := idx_facts5 t
  funext j
  show ofM A ((cfg5.win 5).xinj (grid5.coords t) j) = ofM A (((cfg5.win 5).blk t).view.emb j)
  refine congrArg (ofM A) ?_
  funext a; apply Fin.ext
  match a with
  | ⟨0, _⟩ => show (j 0).val = win5_5.index t (0 : Fin 2) * 2048 + 1 * (j 0).val; omega
  | ⟨1, _⟩ => show (j 1).val = win5_5.index t (1 : Fin 2) * 256 + 1 * (j 1).val; omega
theorem read5_6 (t : Fin cfg5.N) (A : Mat 2048 256) :
    (cfg5.win 6).cut (grid5.coords t) (ofM A) = ((cfg5.win 6).blk t).view.read (Elt Ideal) (ofM A) := by
  obtain ⟨-, -, -, -, -, -, -, -, -, -, -, -, e0, e1, -⟩ := idx_facts5 t
  funext j
  show ofM A ((cfg5.win 6).xinj (grid5.coords t) j) = ofM A (((cfg5.win 6).blk t).view.emb j)
  refine congrArg (ofM A) ?_
  funext a; apply Fin.ext
  match a with
  | ⟨0, _⟩ => show (j 0).val = win5_6.index t (0 : Fin 2) * 2048 + 1 * (j 0).val; omega
  | ⟨1, _⟩ => show (j 1).val = win5_6.index t (1 : Fin 2) * 256 + 1 * (j 1).val; omega
theorem read5_7 (t : Fin cfg5.N) (A : Mat 2048 256) :
    (cfg5.win 7).cut (grid5.coords t) (ofM A) = ((cfg5.win 7).blk t).view.read (Elt Ideal) (ofM A) := by
  obtain ⟨-, -, -, -, -, -, -, -, -, -, -, -, -, -, e0, e1⟩ := idx_facts5 t
  funext j
  show ofM A ((cfg5.win 7).xinj (grid5.coords t) j) = ofM A (((cfg5.win 7).blk t).view.emb j)
  refine congrArg (ofM A) ?_
  funext a; apply Fin.ext
  match a with
  | ⟨0, _⟩ => show (j 0).val = win5_7.index t (0 : Fin 2) * 2048 + 1 * (j 0).val; omega
  | ⟨1, _⟩ => show (j 1).val = win5_7.index t (1 : Fin 2) * 256 + 1 * (j 1).val; omega

/-- The body's result in window 5's buffer, written back, is the block of the product with the first weight. -/
theorem wb5_5 (c : Dev nD) (t : Fin cfg5.N) (X : Mat 2048 256) (W : Mat 256 256)
    (hX : V c main_v22 = ofM X) (hW : V c main_v11 = ofM W) :
    (cfg5.win 5).cut (grid5.coords t) (out5_5 (iblk5 V c 0 t) (iblk5 V c 1 t) (iblk5 V c 2 t) (iblk5 V c 3 t) (iblk5 V c 4 t))
      = ((cfg5.win 5).blk t).view.read (Elt Ideal) (ofM (mm X W)) := by
  unfold out5_5
  rw [View.canon_unit_zero hz5]
  simp only [View.ld_unit_zero (S := S2048x256) hz5, View.ld_unit_zero (S := S256x256) hz5]
  have hp : k5_pay2 (F := Ideal) (iblk5 V c 0 t) (iblk5 V c 1 t) = ofM (mm X W) :=
    pay5_2_val (iblk5 V c 0 t) (iblk5 V c 1 t) X W (blk5_0 V c t X hX) (blk5_1 V c t W hW)
  rw [hp]
  exact read5_5 t (mm X W)

/-- The body's result in window 6's buffer, written back, is the block of the product with the second weight. -/
theorem wb5_6 (c : Dev nD) (t : Fin cfg5.N) (X : Mat 2048 256) (W : Mat 256 256)
    (hX : V c main_v22 = ofM X) (hW : V c main_v12 = ofM W) :
    (cfg5.win 6).cut (grid5.coords t) (out5_6 (iblk5 V c 0 t) (iblk5 V c 1 t) (iblk5 V c 2 t) (iblk5 V c 3 t) (iblk5 V c 4 t))
      = ((cfg5.win 6).blk t).view.read (Elt Ideal) (ofM (mm X W)) := by
  unfold out5_6
  rw [View.canon_unit_zero hz5]
  simp only [View.ld_unit_zero (S := S2048x256) hz5, View.ld_unit_zero (S := S256x256) hz5]
  have hp : k5_pay3 (F := Ideal) (iblk5 V c 0 t) (iblk5 V c 2 t) = ofM (mm X W) :=
    pay5_3_val (iblk5 V c 0 t) (iblk5 V c 2 t) X W (blk5_0 V c t X hX) (blk5_2 V c t W hW)
  rw [hp]
  exact read5_6 t (mm X W)

/-- The body's result in window 7's buffer, written back, is the block of the triangle times the product with the
    third weight. -/
theorem wb5_7 (c : Dev nD) (t : Fin cfg5.N) (X : Mat 2048 256) (W : Mat 256 256) (T : Mat 2048 2048)
    (hX : V c main_v22 = ofM X) (hW : V c main_v13 = ofM W) (hT : V c main_v18 = ofM T) :
    (cfg5.win 7).cut (grid5.coords t) (out5_7 (iblk5 V c 0 t) (iblk5 V c 1 t) (iblk5 V c 2 t) (iblk5 V c 3 t) (iblk5 V c 4 t))
      = ((cfg5.win 7).blk t).view.read (Elt Ideal) (ofM (mm T (mm X W))) := by
  unfold out5_7
  rw [View.canon_unit_zero hz5]
  simp only [View.ld_unit_zero (S := S2048x256) hz5, View.ld_unit_zero (S := S256x256) hz5, View.ld_unit_zero (S := S2048x2048) hz5]
  have hp : k5_pay4 (F := Ideal) (iblk5 V c 0 t) (iblk5 V c 3 t) (iblk5 V c 4 t) = ofM (mm T (mm X W)) :=
    pay5_4_val (iblk5 V c 0 t) (iblk5 V c 3 t) (iblk5 V c 4 t) X W T (blk5_0 V c t X hX) (blk5_3 V c t W hW) (blk5_4 V c t T hT)
  rw [hp]
  exact read5_7 t (mm T (mm X W))

/-- What the point writes back through window 5 is the block of `X·Q`. -/
theorem flushed5_5 (c : Dev nD) (t : Fin cfg5.N) (X : Mat 2048 256) (W : Mat 256 256)
    (hX : V c main_v22 = ofM X) (hW : V c main_v11 = ofM W) :
    (dat5 V c).flushed 5 t = ((cfg5.win 5).blk t).view.read (Elt Ideal) (ofM (mm X W)) := by
  show (cfg5.win 5).cut (grid5.coords t) ((dat5 V c).after 5 t) = _
  rw [after5_5]
  exact wb5_5 V c t X W hX hW

/-- What the point writes back through window 6 is the block of `X·K`. -/
theorem flushed5_6 (c : Dev nD) (t : Fin cfg5.N) (X : Mat 2048 256) (W : Mat 256 256)
    (hX : V c main_v22 = ofM X) (hW : V c main_v12 = ofM W) :
    (dat5 V c).flushed 6 t = ((cfg5.win 6).blk t).view.read (Elt Ideal) (ofM (mm X W)) := by
  show (cfg5.win 6).cut (grid5.coords t) ((dat5 V c).after 6 t) = _
  rw [after5_6]
  exact wb5_6 V c t X W hX hW

/-- What the point writes back through window 7 is the block of `Δ·(X·Vm)`. -/
theorem flushed5_7 (c : Dev nD) (t : Fin cfg5.N) (X : Mat 2048 256) (W : Mat 256 256) (T : Mat 2048 2048)
    (hX : V c main_v22 = ofM X) (hW : V c main_v13 = ofM W) (hT : V c main_v18 = ofM T) :
    (dat5 V c).flushed 7 t = ((cfg5.win 7).blk t).view.read (Elt Ideal) (ofM (mm T (mm X W))) := by
  show (cfg5.win 7).cut (grid5.coords t) ((dat5 V c).after 7 t) = _
  rw [after5_7]
  exact wb5_7 V c t X W T hX hW hT

/-! ## The cover: the one point's block is the whole array -/

theorem mem_blk5_5 (t : Fin cfg5.N) (i : S2048x256.Idx) :
    i ∈ ((cfg5.win 5).blk t).view.set ↔ ∀ a : Fin 2, win5_5.index t a * S2048x256.size a ≤ (i a).val ∧ (i a).val < win5_5.index t a * S2048x256.size a + S2048x256.size a := by
  show i ∈ ((View.whole main_v23_0).slice (win5_5.rect t)).set ↔ _
  rw [View.set_slice_whole, Rect.mem_set_unit]
  exact Iff.rfl
theorem mem_blk5_6 (t : Fin cfg5.N) (i : S2048x256.Idx) :
    i ∈ ((cfg5.win 6).blk t).view.set ↔ ∀ a : Fin 2, win5_6.index t a * S2048x256.size a ≤ (i a).val ∧ (i a).val < win5_6.index t a * S2048x256.size a + S2048x256.size a := by
  show i ∈ ((View.whole main_v23_1).slice (win5_6.rect t)).set ↔ _
  rw [View.set_slice_whole, Rect.mem_set_unit]
  exact Iff.rfl
theorem mem_blk5_7 (t : Fin cfg5.N) (i : S2048x256.Idx) :
    i ∈ ((cfg5.win 7).blk t).view.set ↔ ∀ a : Fin 2, win5_7.index t a * S2048x256.size a ≤ (i a).val ∧ (i a).val < win5_7.index t a * S2048x256.size a + S2048x256.size a := by
  show i ∈ ((View.whole main_v23_2).slice (win5_7.rect t)).set ↔ _
  rw [View.set_slice_whole, Rect.mem_set_unit]
  exact Iff.rfl

/-- Every index of window 5's array is in the one point's block. -/
theorem covered5_5 (i : S2048x256.Idx) : ∃ t : Fin cfg5.N, (cfg5.win 5).flush t = true ∧ i ∈ ((cfg5.win 5).blk t).view.set := by
  obtain ⟨-, -, -, -, -, -, -, -, -, -, e0, e1, -⟩ := idx_facts5 t5_0
  refine ⟨t5_0, flush5_5 t5_0, ?_⟩
  rw [mem_blk5_5]
  intro a
  match a with
  | ⟨0, _⟩ => show win5_5.index t5_0 (0 : Fin 2) * 2048 ≤ (i 0).val ∧ (i 0).val < win5_5.index t5_0 (0 : Fin 2) * 2048 + 2048; have hi : (i 0).val < 2048 := (i 0).isLt; omega
  | ⟨1, _⟩ => show win5_5.index t5_0 (1 : Fin 2) * 256 ≤ (i 1).val ∧ (i 1).val < win5_5.index t5_0 (1 : Fin 2) * 256 + 256; have hi : (i 1).val < 256 := (i 1).isLt; omega
theorem covered5_6 (i : S2048x256.Idx) : ∃ t : Fin cfg5.N, (cfg5.win 6).flush t = true ∧ i ∈ ((cfg5.win 6).blk t).view.set := by
  obtain ⟨-, -, -, -, -, -, -, -, -, -, -, -, e0, e1, -⟩ := idx_facts5 t5_0
  refine ⟨t5_0, flush5_6 t5_0, ?_⟩
  rw [mem_blk5_6]
  intro a
  match a with
  | ⟨0, _⟩ => show win5_6.index t5_0 (0 : Fin 2) * 2048 ≤ (i 0).val ∧ (i 0).val < win5_6.index t5_0 (0 : Fin 2) * 2048 + 2048; have hi : (i 0).val < 2048 := (i 0).isLt; omega
  | ⟨1, _⟩ => show win5_6.index t5_0 (1 : Fin 2) * 256 ≤ (i 1).val ∧ (i 1).val < win5_6.index t5_0 (1 : Fin 2) * 256 + 256; have hi : (i 1).val < 256 := (i 1).isLt; omega
theorem covered5_7 (i : S2048x256.Idx) : ∃ t : Fin cfg5.N, (cfg5.win 7).flush t = true ∧ i ∈ ((cfg5.win 7).blk t).view.set := by
  obtain ⟨-, -, -, -, -, -, -, -, -, -, -, -, -, -, e0, e1⟩ := idx_facts5 t5_0
  refine ⟨t5_0, flush5_7 t5_0, ?_⟩
  rw [mem_blk5_7]
  intro a
  match a with
  | ⟨0, _⟩ => show win5_7.index t5_0 (0 : Fin 2) * 2048 ≤ (i 0).val ∧ (i 0).val < win5_7.index t5_0 (0 : Fin 2) * 2048 + 2048; have hi : (i 0).val < 2048 := (i 0).isLt; omega
  | ⟨1, _⟩ => show win5_7.index t5_0 (1 : Fin 2) * 256 ≤ (i 1).val ∧ (i 1).val < win5_7.index t5_0 (1 : Fin 2) * 256 + 256; have hi : (i 1).val < 256 := (i 1).isLt; omega

/-! ## The arrays after the region -/

/-- The three output arrays of region 5 after the region, as real matrices of its input arrays. -/
theorem val5 (c : Dev nD) (X : Mat L D) (Q K Vm : Mat D D)
    (hX : V c main_v22 = ofM X) (hQ : V c main_v11 = ofM Q) (hK : V c main_v12 = ofM K) (hV : V c main_v13 = ofM Vm)
    (hΔ : V c main_v18 = ofM (Cert.Spec.tril L)) :
    (dat5 V c).arrAt 5 cfg5.N = ofM (mm X Q) ∧ (dat5 V c).arrAt 6 cfg5.N = ofM (mm X K)
      ∧ (dat5 V c).arrAt 7 cfg5.N = ofM (mm (tril L) (mm X Vm)) :=
  ⟨(dat5 V c).arrAt_eq_of_cover 5 (ofM (mm X Q)) (fun t _ => flushed5_5 V c t X Q hX hQ) covered5_5,
   (dat5 V c).arrAt_eq_of_cover 6 (ofM (mm X K)) (fun t _ => flushed5_6 V c t X K hX hK) covered5_6,
   (dat5 V c).arrAt_eq_of_cover 7 (ofM (mm (tril L) (mm X Vm))) (fun t _ => flushed5_7 V c t X Vm (tril L) hX hV hΔ) covered5_7⟩

end Cert.KernelIdeal.HandVal

end
-- ==== Proof.Val.Val6.lean ====
import proofs.«104406_j63058709840319_2_alg».proof.Proof.KI.Reg6
import proofs.«104406_j63058709840319_2_alg».proof.Proof.LibCoe.Basic
import proofs.«104406_j63058709840319_2_alg».proof.Proof.LibCoe.Reduce
import proofs.«104406_j63058709840319_2_alg».proof.Proof.LibCoe.DotK
import proofs.«104406_j63058709840319_2_alg».proof.Proof.Val.Ffn
import Idealize.ShloMosaic.Lib.Pipeline.Value
import Idealize.ShloMosaic.Lib.ValueIdx

/-! The attention-and-feed-forward call over four row tiles of 512, read as real matrices: when the seven input
    arrays hold real matrices, the output array after the call holds the real matrix
    `relu(softmax(XQ·XKᵀ/16)·PV·W₁ + b₁)·W₂ + b₂`. Every row of that matrix depends on the same row of `XQ` only, so
    what the body leaves at tile `t` (the same expression of rows `512·t … 512·t+511` of `XQ`) is tile `t` of the
    whole matrix, and the four tiles cover the array. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.LibCoe Cert.Spec

/-! ## The body's payload on real blocks -/

/-- The three matrix products of the body on real matrices, at the body's shapes. -/
theorem mmT6 {φ₁ φ₂ : FTy} (A : Mat 512 256) (B : Mat 2048 256) :
    matmul (F := Ideal) (φ₁ := φ₁) (φ₂ := φ₂) dot_S512x256_S2048x256_S512x2048_1_1_0_0_n_n none (ofM A) (ofM B) (constant S512x2048 .f32 0x00000000#32)
      = ofM (mm A (tr B)) := matmul_S512x256_S2048x256 A B
theorem mmA6 {φ₁ φ₂ : FTy} (A : Mat 512 2048) (B : Mat 2048 256) :
    matmul (F := Ideal) (φ₁ := φ₁) (φ₂ := φ₂) dot_S512x2048_S2048x256_S512x256_1_0_0_1_n_n none (ofM A) (ofM B) (constant S512x256 .f32 0x00000000#32)
      = ofM (mm A B) := matmul_S512x2048_S2048x256 A B
theorem mmW6 {φ₁ φ₂ : FTy} (A : Mat 512 256) (B : Mat 256 256) :
    matmul (F := Ideal) (φ₁ := φ₁) (φ₂ := φ₂) dot_S512x256_S256x256_S512x256_1_0_0_1_n_n none (ofM A) (ofM B) (constant S512x256 .f32 0x00000000#32)
      = ofM (mm A B) := matmul_S512x256_S256x256 A B

/-- The row softmax of the body, kernel arrangement, at the body's shapes and with the side conditions spelled as
    the body spells them. -/
theorem kSoftmax6 (A : Mat 512 2048) (h : S512x2048.Reduces [1] S512)
    (hφ : FKind.Formats .f32) (hmax : (0xFF800000#32 : BitVec (FTy.bits .f32)) = FKind.maximumf.neutral .f32 hφ)
    (hadd : (0x00000000#32 : BitVec (FTy.bits .f32)) = FKind.add.neutral .f32 hφ)
    (hsc : S512.ShapeCasts S512x1) (hb : S512x1.Broadcasts S512x2048) :
    mulf
      (exp (subf (ofM A : FVec Ideal S512x2048 .f32)
        (broadcastTo S512x2048 (shapeCast S512x1
          (multiReduction (F := Ideal) .maximumf [1] S512 (ofM A : FVec Ideal S512x2048 .f32) 0xFF800000#32 h hφ hmax) hsc) hb)))
      (broadcastTo S512x2048
        (divf (broadcast S512x1 (Scalar.ofBits (F := Ideal) .f32 0x3F800000#32))
          (shapeCast S512x1
            (multiReduction (F := Ideal) .add [1] S512
              (exp (subf (ofM A : FVec Ideal S512x2048 .f32)
                (broadcastTo S512x2048 (shapeCast S512x1
                  (multiReduction (F := Ideal) .maximumf [1] S512 (ofM A : FVec Ideal S512x2048 .f32) 0xFF800000#32 h hφ hmax) hsc) hb)))
              0x00000000#32 h hφ hadd) hsc)) hb)
      = ofM (a := 512) (b := 2048) (smaxK (b := 2047) A) :=
  kSoftmax (n := 512) A h hφ hmax hadd hsc hb

/-- The body's stored value on real blocks is the real expression of them. -/
theorem pay6 (X : Mat 512 D) (XK PV : Mat L D) (W1 W2 : Mat D D) (b1 b2 : Mat 1 D) :
    k6_pay1 (F := Ideal) (k6_pay2 (ofM X) (ofM XK) (ofM PV) (ofM W1) (ofM b1) (ofM W2)) (ofM b2)
      = ofM (ffn X XK PV W1 W2 b1 b2) := by
  unfold k6_pay1 k6_pay2
  dsimp only
  simp only [shapeCast_ofM, broadcastTo_row_ofM]
  rw [mmT6, mulf_broadcast_sixteenth_ofM]
  erw [kSoftmax6]
  rw [truncf_ofM, mmA6, truncf_ofM, mmW6, addf_ofM, maximumf_broadcast_zero_ofM, truncf_ofM, mmW6, addf_ofM]
  rfl

/-! ## The input blocks -/

theorem hz6 : (![0, 0] : Fin 2 → Nat) = fun _ => 0 := funext fun a => by fin_cases a <;> rfl

/-- The printed index maps, decided over the four points: the query window and the output window are at row tile
    `t`, every other window at its whole array. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

variable (V : (c : Dev nD) → (b : Ref sig .tc) → Buf (Elt Ideal) ((c : Thread nD τ).loc b)) (c : Dev nD)

/-- The query window's block at point `t` is rows `512·t … 512·t+511` of the query array. -/
theorem iblk6_0_eq (XQ : Mat L D) (h0 : V c main_v23_0 = ofM XQ) (t : Fin cfg6.N) :
    iblk6 V c 0 t = ofM (rows512 t.val (Nat.lt_of_lt_of_eq t.isLt N_6) XQ) := by
  obtain ⟨e0, e1, -⟩ := idx_facts6 t
  funext j
  show V c main_v23_0 (((cfg6.win 0).blk t).view.emb j) = ofM (rows512 t.val (Nat.lt_of_lt_of_eq t.isLt N_6) XQ) j
  refine (congrFun h0 _).trans ?_
  refine congrArg (fun x : ℝ => (x : EReal)) (entry_congr XQ ?_ ?_)
  · show win6_0.index t (0 : Fin 2) * 512 + 1 * (j 0).val = 512 * t.val + (j 0).val
    omega
  · show win6_0.index t (1 : Fin 2) * 256 + 1 * (j 1).val = (j 1).val
    omega

/-- Every other input window's block is its whole array, at every point. -/
theorem iblk6_1_eq (t : Fin cfg6.N) : iblk6 V c 1 t = V c main_v23_1 := by
  obtain ⟨-, -, e0, e1, -⟩ := idx_facts6 t
  funext j
  show V c main_v23_1 (((cfg6.win 1).blk t).view.emb j) = V c main_v23_1 j
  refine congrArg (V c main_v23_1) ?_
  funext a; apply Fin.ext
  match a with
  | ⟨0, _⟩ => show win6_1.index t (0 : Fin 2) * 2048 + 1 * (j 0).val = (j 0).val; omega
  | ⟨1, _⟩ => show win6_1.index t (1 : Fin 2) * 256 + 1 * (j 1).val = (j 1).val; omega
theorem iblk6_2_eq (t : Fin cfg6.N) : iblk6 V c 2 t = V c main_v23_2 := by
  obtain ⟨-, -, -, -, e0, e1, -⟩ := idx_facts6 t
  funext j
  show V c main_v23_2 (((cfg6.win 2).blk t).view.emb j) = V c main_v23_2 j
  refine congrArg (V c main_v23_2) ?_
  funext a; apply Fin.ext
  match a with
  | ⟨0, _⟩ => show win6_2.index t (0 : Fin 2) * 2048 + 1 * (j 0).val = (j 0).val; omega
  | ⟨1, _⟩ => show win6_2.index t (1 : Fin 2) * 256 + 1 * (j 1).val = (j 1).val; omega
theorem iblk6_3_eq (t : Fin cfg6.N) : iblk6 V c 3 t = V c main_v14 := by
  obtain ⟨-, -, -, -, -, -, e0, e1, -⟩ := idx_facts6 t
  funext j
  show V c main_v14 (((cfg6.win 3).blk t).view.emb j) = V c main_v14 j
  refine congrArg (V c main_v14) ?_
  funext a; apply Fin.ext
  match a with
  | ⟨0, _⟩ => show win6_3.index t (0 : Fin 2) * 256 + 1 * (j 0).val = (j 0).val; omega
  | ⟨1, _⟩ => show win6_3.index t (1 : Fin 2) * 256 + 1 * (j 1).val = (j 1).val; omega
theorem iblk6_4_eq (t : Fin cfg6.N) : iblk6 V c 4 t = V c main_v15 := by
  obtain ⟨-, -, -, -, -, -, -, -, e0, e1, -⟩ := idx_facts6 t
  funext j
  show V c main_v15 (((cfg6.win 4).blk t).view.emb j) = V c main_v15 j
  refine congrArg (V c main_v15) ?_
  funext a; apply Fin.ext
  match a with
  | ⟨0, _⟩ => show win6_4.index t (0 : Fin 2) * 256 + 1 * (j 0).val = (j 0).val; omega
  | ⟨1, _⟩ => show win6_4.index t (1 : Fin 2) * 256 + 1 * (j 1).val = (j 1).val; omega
theorem iblk6_5_eq (t : Fin cfg6.N) : iblk6 V c 5 t = V c main_arg14 := by
  obtain ⟨-, -, -, -, -, -, -, -, -, -, e0, e1, -⟩ := idx_facts6 t
  funext j
  show V c main_arg14 (((cfg6.win 5).blk t).view.emb j) = V c main_arg14 j
  refine congrArg (V c main_arg14) ?_
  funext a; apply Fin.ext
  match a with
  | ⟨0, _⟩ => show win6_5.index t (0 : Fin 2) * 1 + 1 * (j 0).val = (j 0).val; omega
  | ⟨1, _⟩ => show win6_5.index t (1 : Fin 2) * 256 + 1 * (j 1).val = (j 1).val; omega
theorem iblk6_6_eq (t : Fin cfg6.N) : iblk6 V c 6 t = V c main_arg15 := by
  obtain ⟨-, -, -, -, -, -, -, -, -, -, -, -, e0, e1, -⟩ := idx_facts6 t
  funext j
  show V c main_arg15 (((cfg6.win 6).blk t).view.emb j) = V c main_arg15 j
  refine congrArg (V c main_arg15) ?_
  funext a; apply Fin.ext
  match a with
  | ⟨0, _⟩ => show win6_6.index t (0 : Fin 2) * 1 + 1 * (j 0).val = (j 0).val; omega
  | ⟨1, _⟩ => show win6_6.index t (1 : Fin 2) * 256 + 1 * (j 1).val = (j 1).val; omega

/-! ## From the blocks to the array -/

/-- What point `t` writes back is tile `t` of the whole real matrix. -/
theorem flushed6_eq (XQ XK PV : Mat L D) (W1 W2 : Mat D D) (b1 b2 : Mat 1 D)
    (h0 : V c main_v23_0 = ofM XQ) (h1 : V c main_v23_1 = ofM XK) (h2 : V c main_v23_2 = ofM PV)
    (h3 : V c main_v14 = ofM W1) (h4 : V c main_v15 = ofM W2) (h5 : V c main_arg14 = ofM b1) (h6 : V c main_arg15 = ofM b2)
    (t : Fin cfg6.N) :
    (dat6 V c).flushed 7 t = ((cfg6.win 7).blk t).view.read (Elt Ideal) (ofM (ffn XQ XK PV W1 W2 b1 b2)) := by
  show (cfg6.win 7).cut (grid6.coords t) ((dat6 V c).after 7 t) = _
  rw [after6_7]
  unfold out6_7
  rw [View.canon_unit_zero hz6]
  simp only [View.ld_unit_zero (S := S512x256) hz6, View.ld_unit_zero (S := S2048x256) hz6,
    View.ld_unit_zero (S := S256x256) hz6, View.ld_unit_zero (S := S1x256) hz6]
  rw [iblk6_0_eq V c XQ h0, iblk6_1_eq, iblk6_2_eq, iblk6_3_eq, iblk6_4_eq, iblk6_5_eq, iblk6_6_eq, h1, h2, h3, h4, h5, h6, pay6]
  obtain ⟨-, -, -, -, -, -, -, -, -, -, -, -, -, -, e0, e1⟩ := idx_facts6 t
  funext j
  show ((ffn (rows512 t.val (Nat.lt_of_lt_of_eq t.isLt N_6) XQ) XK PV W1 W2 b1 b2 (j 0) (j 1) : ℝ) : EReal)
    = ((ffn XQ XK PV W1 W2 b1 b2 (((cfg6.win 7).blk t).view.emb j 0) (((cfg6.win 7).blk t).view.emb j 1) : ℝ) : EReal)
  refine congrArg (fun x : ℝ => (x : EReal)) ((ffn_rows512 t.val _ XQ XK PV W1 W2 b1 b2 (j 0) (j 1)).trans
    (entry_congr (ffn XQ XK PV W1 W2 b1 b2) ?_ ?_))
  · show 512 * t.val + (j 0).val = win6_7.index t (0 : Fin 2) * 512 + 1 * (j 0).val
    omega
  · show (j 1).val = win6_7.index t (1 : Fin 2) * 256 + 1 * (j 1).val
    omega

/-- An index of the output array is in point `t`'s block iff each coordinate is in the block's range on its axis. -/
theorem mem_blk6 (t : Fin cfg6.N) (i : S2048x256.Idx) :
    i ∈ ((cfg6.win 7).blk t).view.set ↔ ∀ a : Fin 2, win6_7.index t a * S512x256.size a ≤ (i a).val ∧ (i a).val < win6_7.index t a * S512x256.size a + S512x256.size a := by
  show i ∈ ((View.whole main_v24).slice (win6_7.rect t)).set ↔ _
  rw [View.set_slice_whole, Rect.mem_set_unit]
  exact Iff.rfl

/-- Every index of the output array is in the block of the point its row's tile names. -/
theorem cover6 (i : S2048x256.Idx) : ∃ t : Fin cfg6.N, (cfg6.win 7).flush t = true ∧ i ∈ ((cfg6.win 7).blk t).view.set := by
  have hi0 : (i 0).val < 2048 := (i 0).isLt
  have hi1 : (i 1).val < 256 := (i 1).isLt
  have hq : (i 0).val / 512 < 4 := by omega
  obtain ⟨-, -, -, -, -, -, -, -, -, -, -, -, -, -, e0, e1⟩ := idx_facts6 ⟨(i 0).val / 512, Nat.lt_of_lt_of_eq hq N_6.symm⟩
  refine ⟨⟨(i 0).val / 512, Nat.lt_of_lt_of_eq hq N_6.symm⟩, flush6_7 _, ?_⟩
  rw [mem_blk6]
  intro a
  match a with
  | ⟨0, _⟩ =>
    show win6_7.index ⟨(i 0).val / 512, Nat.lt_of_lt_of_eq hq N_6.symm⟩ (0 : Fin 2) * 512 ≤ (i 0).val
      ∧ (i 0).val < win6_7.index ⟨(i 0).val / 512, Nat.lt_of_lt_of_eq hq N_6.symm⟩ (0 : Fin 2) * 512 + 512
    rw [e0]
    show (i 0).val / 512 * 512 ≤ (i 0).val ∧ (i 0).val < (i 0).val / 512 * 512 + 512
    omega
  | ⟨1, _⟩ =>
    show win6_7.index ⟨(i 0).val / 512, Nat.lt_of_lt_of_eq hq N_6.symm⟩ (1 : Fin 2) * 256 ≤ (i 1).val
      ∧ (i 1).val < win6_7.index ⟨(i 0).val / 512, Nat.lt_of_lt_of_eq hq N_6.symm⟩ (1 : Fin 2) * 256 + 256
    omega

/-- The output array after the call, from real inputs. -/
theorem val6 (XQ XK PV : Mat L D) (W1 W2 : Mat D D) (b1 b2 : Mat 1 D)
    (h0 : V c main_v23_0 = ofM XQ) (h1 : V c main_v23_1 = ofM XK) (h2 : V c main_v23_2 = ofM PV)
    (h3 : V c main_v14 = ofM W1) (h4 : V c main_v15 = ofM W2) (h5 : V c main_arg14 = ofM b1) (h6 : V c main_arg15 = ofM b2) :
    (dat6 V c).arrAt 7 cfg6.N = ofM (fun i j => mm (relu (fun i j => mm (mm (smaxK (b := 2047) (sc (mm XQ (tr XK)))) PV) W1 i j + rowB b1 i j)) W2 i j + rowB b2 i j) :=
  (dat6 V c).arrAt_eq_of_cover 7 (ofM (ffn XQ XK PV W1 W2 b1 b2))
    (fun t _ => flushed6_eq V c XQ XK PV W1 W2 b1 b2 h0 h1 h2 h3 h4 h5 h6 t) cover6

end Cert.KernelIdeal.HandVal

end
-- ==== Proof.Val.Val7.lean ====
/- Region 7 of @main (the projection kernel, one grid point) at the ideal values: when the arrays it reads hold real
   matrices `X` (the activations), `Q`, `K`, `Vm` (the three weights) and the lower-triangular matrix of ones, its
   three output arrays hold after the region the real matrices `X·Q`, `X·K` and `Δ·(X·Vm)`. Each output window's one
   block is the whole array, written by one whole-buffer store of a payload that is a product of real matrices (the
   truncations and the shape casts are the identity on ideal values). -/
import proofs.«104406_j63058709840319_2_alg».proof.Proof.KI.Reg7
import proofs.«104406_j63058709840319_2_alg».proof.Proof.LibCoe.Basic
import proofs.«104406_j63058709840319_2_alg».proof.Proof.LibCoe.DotK
import Idealize.ShloMosaic.Lib.Pipeline.Value
import Idealize.ShloMosaic.Lib.ValueIdx

set_option maxRecDepth 16384

noncomputable section

namespace Cert.KernelIdeal.HandVal

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand
open Cert.LibCoe Cert.Spec

variable (V : (c : Dev nD) → (b : Ref sig .tc) → Buf (Elt Ideal) ((c : Thread nD τ).loc b))

/-! ## The payloads on real matrices -/

/-- A truncation is the identity on ideal values. -/
theorem truncf_id7 {s : Shape} {φ ψ : FTy} (x : FVec Ideal s φ) (h : ψ.bits < φ.bits) : truncf (F := Ideal) ψ x h = x := rfl

/-- The truncated activations: the shape cast and the truncation are the identity on ideal values. -/
theorem pay7_1_val (x0 : Vec Ideal S2048x256 .f32) (X : Mat 2048 256) (h0 : x0 = ofM X) : k7_pay1 x0 = ofM X := by
  subst h0
  unfold k7_pay1
  dsimp only
  rw [truncf_id7, shapeCast_self]

/-- The first stored payload: the activations times the first weight. -/
theorem pay7_2_val (x0 : Vec Ideal S2048x256 .f32) (x1 : Vec Ideal S256x256 .bf16) (X : Mat 2048 256) (W : Mat 256 256)
    (h0 : x0 = ofM X) (h1 : x1 = ofM W) : k7_pay2 x0 x1 = ofM (mm X W) := by
  have e1 := pay7_1_val x0 X h0
  subst h1
  unfold k7_pay2
  dsimp only
  rw [e1, shapeCast_self, truncf_id7]
  exact matmul_S2048x256_S256x256 (φ₁ := .bf16) (φ₂ := .bf16) X W

/-- The second stored payload: the activations times the second weight. -/
theorem pay7_3_val (x0 : Vec Ideal S2048x256 .f32) (x2 : Vec Ideal S256x256 .bf16) (X : Mat 2048 256) (W : Mat 256 256)
    (h0 : x0 = ofM X) (h2 : x2 = ofM W) : k7_pay3 x0 x2 = ofM (mm X W) := by
  have e1 := pay7_1_val x0 X h0
  subst h2
  unfold k7_pay3
  dsimp only
  rw [e1, shapeCast_self, truncf_id7]
  exact matmul_S2048x256_S256x256 (φ₁ := .bf16) (φ₂ := .bf16) X W

/-- The third stored payload: the triangle times (the activations times the third weight). -/
theorem pay7_4_val (x0 : Vec Ideal S2048x256 .f32) (x3 : Vec Ideal S256x256 .bf16) (x4 : Vec Ideal S2048x2048 .bf16)
    (X : Mat 2048 256) (W : Mat 256 256) (T : Mat 2048 2048)
    (h0 : x0 = ofM X) (h3 : x3 = ofM W) (h4 : x4 = ofM T) : k7_pay4 x0 x3 x4 = ofM (mm T (mm X W)) := by
  have e1 := pay7_1_val x0 X h0
  subst h3 h4
  unfold k7_pay4
  dsimp only
  rw [e1, shapeCast_self, shapeCast_self, truncf_id7, truncf_id7]
  refine Eq.trans ?_ (matmul_S2048x2048_S2048x256 (φ₁ := .bf16) (φ₂ := .bf16) T (mm X W))
  exact congrArg (fun z => matmul (F := Ideal) (φ₁ := .bf16) (φ₂ := .bf16) dot_S2048x2048_S2048x256_S2048x256_1_0_0_1_n_n none (ofM T) z
    (constant S2048x256 .f32 0x00000000#32)) (matmul_S2048x256_S256x256 (φ₁ := .bf16) (φ₂ := .bf16) X W)

/-! ## Each window's one block is its whole array -/

theorem hz7 : (![0, 0] : Fin 2 → Nat) = fun _ => 0 := funext fun a => by fin_cases a <;> rfl

/-- The printed index maps, decided over the grid's one point: every window's block index is zero on both axes. -/
theorem idx_facts7 : ∀ t : Fin cfg7.N,
    win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0 :=
  (by decide +kernel : ∀ t : Fin grid7.N, _)

/-- Window 0's block is its whole array: the activations. -/
theorem blk7_0 (c : Dev nD) (t : Fin cfg7.N) (X : Mat 2048 256) (hX : V c main_v24 = ofM X) :
    (iblk7 V c 0 t : Vec Ideal S2048x256 .f32) = ofM X := by
  obtain ⟨e00, e01, -⟩ := idx_facts7 t
  funext j
  show V c main_v24 (((cfg7.win 0).blk t).view.emb j) = ofM X j
  rw [hX]
  refine congrArg (ofM X) ?_
  funext a; apply Fin.ext
  match a with
  | ⟨0, _⟩ => show win7_0.index t (0 : Fin 2) * 2048 + 1 * (j 0).val = (j 0).val; omega
  | ⟨1, _⟩ => show win7_0.index t (1 : Fin 2) * 256 + 1 * (j 1).val = (j 1).val; omega

/-- Window 1's block is its whole array: the first weight. -/
theorem blk7_1 (c : Dev nD) (t : Fin cfg7.N) (W : Mat 256 256) (hW : V c main_v11 = ofM W) :
    (iblk7 V c 1 t : Vec Ideal S256x256 .bf16) = ofM W := by
  obtain ⟨-, -, e10, e11, -⟩ := idx_facts7 t
  funext j
  show V c main_v11 (((cfg7.win 1).blk t).view.emb j) = ofM W j
  rw [hW]
  refine congrArg (ofM W) ?_
  funext a; apply Fin.ext
  match a with
  | ⟨0, _⟩ => show win7_1.index t (0 : Fin 2) * 256 + 1 * (j 0).val = (j 0).val; omega
  | ⟨1, _⟩ => show win7_1.index t (1 : Fin 2) * 256 + 1 * (j 1).val = (j 1).val; omega

/-- Window 2's block is its whole array: the second weight. -/
theorem blk7_2 (c : Dev nD) (t : Fin cfg7.N) (W : Mat 256 256) (hW : V c main_v12 = ofM W) :
    (iblk7 V c 2 t : Vec Ideal S256x256 .bf16) = ofM W := by
  obtain ⟨-, -, -, -, e20, e21, -⟩ := idx_facts7 t
  funext j
  show V c main_v12 (((cfg7.win 2).blk t).view.emb j) = ofM W j
  rw [hW]
  refine congrArg (ofM W) ?_
  funext a; apply Fin.ext
  match a with
  | ⟨0, _⟩ => show win7_2.index t (0 : Fin 2) * 256 + 1 * (j 0).val = (j 0).val; omega
  | ⟨1, _⟩ => show win7_2.index t (1 : Fin 2) * 256 + 1 * (j 1).val = (j 1).val; omega

/-- Window 3's block is its whole array: the third weight. -/
theorem blk7_3 (c : Dev nD) (t : Fin cfg7.N) (W : Mat 256 256) (hW : V c main_v13 = ofM W) :
    (iblk7 V c 3 t : Vec Ideal S256x256 .bf16) = ofM W := by
  obtain ⟨-, -, -, -, -, -, e30, e31, -⟩ := idx_facts7 t
  funext j
  show V c main_v13 (((cfg7.win 3).blk t).view.emb j) = ofM W j
  rw [hW]
  refine congrArg (ofM W) ?_
  funext a; apply Fin.ext
  match a with
  | ⟨0, _⟩ => show win7_3.index t (0 : Fin 2) * 256 + 1 * (j 0).val = (j 0).val; omega
  | ⟨1, _⟩ => show win7_3.index t (1 : Fin 2) * 256 + 1 * (j 1).val = (j 1).val; omega

/-- Window 4's block is its whole array: the triangle. -/
theorem blk7_4 (c : Dev nD) (t : Fin cfg7.N) (T : Mat 2048 2048) (hT : V c main_v18 = ofM T) :
    (iblk7 V c 4 t : Vec Ideal S2048x2048 .bf16) = ofM T := by
  obtain ⟨-, -, -, -, -, -, -, -, e40, e41, -⟩ := idx_facts7 t
  funext j
  show V c main_v18 (((cfg7.win 4).blk t).view.emb j) = ofM T j
  rw [hT]
  refine congrArg (ofM T) ?_
  funext a; apply Fin.ext
  match a with
  | ⟨0, _⟩ => show win7_4.index t (0 : Fin 2) * 2048 + 1 * (j 0).val = (j 0).val; omega
  | ⟨1, _⟩ => show win7_4.index t (1 : Fin 2) * 2048 + 1 * (j 1).val = (j 1).val; omega

/-! ## What the one point writes back -/

/-- A real matrix written back through an output window's block: the block is the whole array. -/
theorem read7_5 (t : Fin cfg7.N) (A : Mat 2048 256) :
    (cfg7.win 5).cut (grid7.coords t) (ofM A) = ((cfg7.win 5).blk t).view.read (Elt Ideal) (ofM A) := by
  obtain ⟨-, -, -, -, -, -, -, -, -, -, e0, e1, -⟩ := idx_facts7 t
  funext j
  show ofM A ((cfg7.win 5).xinj (grid7.coords t) j) = ofM A (((cfg7.win 5).blk t).view.emb j)
  refine congrArg (ofM A) ?_
  funext a; apply Fin.ext
  match a with
  | ⟨0, _⟩ => show (j 0).val = win7_5.index t (0 : Fin 2) * 2048 + 1 * (j 0).val; omega
  | ⟨1, _⟩ => show (j 1).val = win7_5.index t (1 : Fin 2) * 256 + 1 * (j 1).val; omega
theorem read7_6 (t : Fin cfg7.N) (A : Mat 2048 256) :
    (cfg7.win 6).cut (grid7.coords t) (ofM A) = ((cfg7.win 6).blk t).view.read (Elt Ideal) (ofM A) := by
  obtain ⟨-, -, -, -, -, -, -, -, -, -, -, -, e0, e1, -⟩ := idx_facts7 t
  funext j
  show ofM A ((cfg7.win 6).xinj (grid7.coords t) j) = ofM A (((cfg7.win 6).blk t).view.emb j)
  refine congrArg (ofM A) ?_
  funext a; apply Fin.ext
  match a with
  | ⟨0, _⟩ => show (j 0).val = win7_6.index t (0 : Fin 2) * 2048 + 1 * (j 0).val; omega
  | ⟨1, _⟩ => show (j 1).val = win7_6.index t (1 : Fin 2) * 256 + 1 * (j 1).val; omega
theorem read7_7 (t : Fin cfg7.N) (A : Mat 2048 256) :
    (cfg7.win 7).cut (grid7.coords t) (ofM A) = ((cfg7.win 7).blk t).view.read (Elt Ideal) (ofM A) := by
  obtain ⟨-, -, -, -, -, -, -, -, -, -, -, -, -, -, e0, e1⟩ := idx_facts7 t
  funext j
  show ofM A ((cfg7.win 7).xinj (grid7.coords t) j) = ofM A (((cfg7.win 7).blk t).view.emb j)
  refine congrArg (ofM A) ?_
  funext a; apply Fin.ext
  match a with
  | ⟨0, _⟩ => show (j 0).val = win7_7.index t (0 : Fin 2) * 2048 + 1 * (j 0).val; omega
  | ⟨1, _⟩ => show (j 1).val = win7_7.index t (1 : Fin 2) * 256 + 1 * (j 1).val; omega

/-- The body's result in window 5's buffer, written back, is the block of the product with the first weight. -/
theorem wb7_5 (c : Dev nD) (t : Fin cfg7.N) (X : Mat 2048 256) (W : Mat 256 256)
    (hX : V c main_v24 = ofM X) (hW : V c main_v11 = ofM W) :
    (cfg7.win 5).cut (grid7.coords t) (out7_5 (iblk7 V c 0 t) (iblk7 V c 1 t) (iblk7 V c 2 t) (iblk7 V c 3 t) (iblk7 V c 4 t))
      = ((cfg7.win 5).blk t).view.read (Elt Ideal) (ofM (mm X W)) := by
  unfold out7_5
  rw [View.canon_unit_zero hz7]
  simp only [View.ld_unit_zero (S := S2048x256) hz7, View.ld_unit_zero (S := S256x256) hz7]
  have hp : k7_pay2 (F := Ideal) (iblk7 V c 0 t) (iblk7 V c 1 t) = ofM (mm X W) :=
    pay7_2_val (iblk7 V c 0 t) (iblk7 V c 1 t) X W (blk7_0 V c t X hX) (blk7_1 V c t W hW)
  rw [hp]
  exact read7_5 t (mm X W)

/-- The body's result in window 6's buffer, written back, is the block of the product with the second weight. -/
theorem wb7_6 (c : Dev nD) (t : Fin cfg7.N) (X : Mat 2048 256) (W : Mat 256 256)
    (hX : V c main_v24 = ofM X) (hW : V c main_v12 = ofM W) :
    (cfg7.win 6).cut (grid7.coords t) (out7_6 (iblk7 V c 0 t) (iblk7 V c 1 t) (iblk7 V c 2 t) (iblk7 V c 3 t) (iblk7 V c 4 t))
      = ((cfg7.win 6).blk t).view.read (Elt Ideal) (ofM (mm X W)) := by
  unfold out7_6
  rw [View.canon_unit_zero hz7]
  simp only [View.ld_unit_zero (S := S2048x256) hz7, View.ld_unit_zero (S := S256x256) hz7]
  have hp : k7_pay3 (F := Ideal) (iblk7 V c 0 t) (iblk7 V c 2 t) = ofM (mm X W) :=
    pay7_3_val (iblk7 V c 0 t) (iblk7 V c 2 t) X W (blk7_0 V c t X hX) (blk7_2 V c t W hW)
  rw [hp]
  exact read7_6 t (mm X W)

/-- The body's result in window 7's buffer, written back, is the block of the triangle times the product with the
    third weight. -/
theorem wb7_7 (c : Dev nD) (t : Fin cfg7.N) (X : Mat 2048 256) (W : Mat 256 256) (T : Mat 2048 2048)
    (hX : V c main_v24 = ofM X) (hW : V c main_v13 = ofM W) (hT : V c main_v18 = ofM T) :
    (cfg7.win 7).cut (grid7.coords t) (out7_7 (iblk7 V c 0 t) (iblk7 V c 1 t) (iblk7 V c 2 t) (iblk7 V c 3 t) (iblk7 V c 4 t))
      = ((cfg7.win 7).blk t).view.read (Elt Ideal) (ofM (mm T (mm X W))) := by
  unfold out7_7
  rw [View.canon_unit_zero hz7]
  simp only [View.ld_unit_zero (S := S2048x256) hz7, View.ld_unit_zero (S := S256x256) hz7, View.ld_unit_zero (S := S2048x2048) hz7]
  have hp : k7_pay4 (F := Ideal) (iblk7 V c 0 t) (iblk7 V c 3 t) (iblk7 V c 4 t) = ofM (mm T (mm X W)) :=
    pay7_4_val (iblk7 V c 0 t) (iblk7 V c 3 t) (iblk7 V c 4 t) X W T (blk7_0 V c t X hX) (blk7_3 V c t W hW) (blk7_4 V c t T hT)
  rw [hp]
  exact read7_7 t (mm T (mm X W))

/-- What the point writes back through window 5 is the block of `X·Q`. -/
theorem flushed7_5 (c : Dev nD) (t : Fin cfg7.N) (X : Mat 2048 256) (W : Mat 256 256)
    (hX : V c main_v24 = ofM X) (hW : V c main_v11 = ofM W) :
    (dat7 V c).flushed 5 t = ((cfg7.win 5).blk t).view.read (Elt Ideal) (ofM (mm X W)) := by
  show (cfg7.win 5).cut (grid7.coords t) ((dat7 V c).after 5 t) = _
  rw [after7_5]
  exact wb7_5 V c t X W hX hW

/-- What the point writes back through window 6 is the block of `X·K`. -/
theorem flushed7_6 (c : Dev nD) (t : Fin cfg7.N) (X : Mat 2048 256) (W : Mat 256 256)
    (hX : V c main_v24 = ofM X) (hW : V c main_v12 = ofM W) :
    (dat7 V c).flushed 6 t = ((cfg7.win 6).blk t).view.read (Elt Ideal) (ofM (mm X W)) := by
  show (cfg7.win 6).cut (grid7.coords t) ((dat7 V c).after 6 t) = _
  rw [after7_6]
  exact wb7_6 V c t X W hX hW

/-- What the point writes back through window 7 is the block of `Δ·(X·Vm)`. -/
theorem flushed7_7 (c : Dev nD) (t : Fin cfg7.N) (X : Mat 2048 256) (W : Mat 256 256) (T : Mat 2048 2048)
    (hX : V c main_v24 = ofM X) (hW : V c main_v13 = ofM W) (hT : V c main_v18 = ofM T) :
    (dat7 V c).flushed 7 t = ((cfg7.win 7).blk t).view.read (Elt Ideal) (ofM (mm T (mm X W))) := by
  show (cfg7.win 7).cut (grid7.coords t) ((dat7 V c).after 7 t) = _
  rw [after7_7]
  exact wb7_7 V c t X W T hX hW hT

/-! ## The cover: the one point's block is the whole array -/

theorem mem_blk7_5 (t : Fin cfg7.N) (i : S2048x256.Idx) :
    i ∈ ((cfg7.win 5).blk t).view.set ↔ ∀ a : Fin 2, win7_5.index t a * S2048x256.size a ≤ (i a).val ∧ (i a).val < win7_5.index t a * S2048x256.size a + S2048x256.size a := by
  show i ∈ ((View.whole main_v25_0).slice (win7_5.rect t)).set ↔ _
  rw [View.set_slice_whole, Rect.mem_set_unit]
  exact Iff.rfl
theorem mem_blk7_6 (t : Fin cfg7.N) (i : S2048x256.Idx) :
    i ∈ ((cfg7.win 6).blk t).view.set ↔ ∀ a : Fin 2, win7_6.index t a * S2048x256.size a ≤ (i a).val ∧ (i a).val < win7_6.index t a * S2048x256.size a + S2048x256.size a := by
  show i ∈ ((View.whole main_v25_1).slice (win7_6.rect t)).set ↔ _
  rw [View.set_slice_whole, Rect.mem_set_unit]
  exact Iff.rfl
theorem mem_blk7_7 (t : Fin cfg7.N) (i : S2048x256.Idx) :
    i ∈ ((cfg7.win 7).blk t).view.set ↔ ∀ a : Fin 2, win7_7.index t a * S2048x256.size a ≤ (i a).val ∧ (i a).val < win7_7.index t a * S2048x256.size a + S2048x256.size a := by
  show i ∈ ((View.whole main_v25_2).slice (win7_7.rect t)).set ↔ _
  rw [View.set_slice_whole, Rect.mem_set_unit]
  exact Iff.rfl

/-- Every index of window 5's array is in the one point's block. -/
theorem covered7_5 (i : S2048x256.Idx) : ∃ t : Fin cfg7.N, (cfg7.win 5).flush t = true ∧ i ∈ ((cfg7.win 5).blk t).view.set := by
  obtain ⟨-, -, -, -, -, -, -, -, -, -, e0, e1, -⟩ := idx_facts7 t7_0
  refine ⟨t7_0, flush7_5 t7_0, ?_⟩
  rw [mem_blk7_5]
  intro a
  match a with
  | ⟨0, _⟩ => show win7_5.index t7_0 (0 : Fin 2) * 2048 ≤ (i 0).val ∧ (i 0).val < win7_5.index t7_0 (0 : Fin 2) * 2048 + 2048; have hi : (i 0).val < 2048 := (i 0).isLt; omega
  | ⟨1, _⟩ => show win7_5.index t7_0 (1 : Fin 2) * 256 ≤ (i 1).val ∧ (i 1).val < win7_5.index t7_0 (1 : Fin 2) * 256 + 256; have hi : (i 1).val < 256 := (i 1).isLt; omega
theorem covered7_6 (i : S2048x256.Idx) : ∃ t : Fin cfg7.N, (cfg7.win 6).flush t = true ∧ i ∈ ((cfg7.win 6).blk t).view.set := by
  obtain ⟨-, -, -, -, -, -, -, -, -, -, -, -, e0, e1, -⟩ := idx_facts7 t7_0
  refine ⟨t7_0, flush7_6 t7_0, ?_⟩
  rw [mem_blk7_6]
  intro a
  match a with
  | ⟨0, _⟩ => show win7_6.index t7_0 (0 : Fin 2) * 2048 ≤ (i 0).val ∧ (i 0).val < win7_6.index t7_0 (0 : Fin 2) * 2048 + 2048; have hi : (i 0).val < 2048 := (i 0).isLt; omega
  | ⟨1, _⟩ => show win7_6.index t7_0 (1 : Fin 2) * 256 ≤ (i 1).val ∧ (i 1).val < win7_6.index t7_0 (1 : Fin 2) * 256 + 256; have hi : (i 1).val < 256 := (i 1).isLt; omega
theorem covered7_7 (i : S2048x256.Idx) : ∃ t : Fin cfg7.N, (cfg7.win 7).flush t = true ∧ i ∈ ((cfg7.win 7).blk t).view.set := by
  obtain ⟨-, -, -, -, -, -, -, -, -, -, -, -, -, -, e0, e1⟩ := idx_facts7 t7_0
  refine ⟨t7_0, flush7_7 t7_0, ?_⟩
  rw [mem_blk7_7]
  intro a
  match a with
  | ⟨0, _⟩ => show win7_7.index t7_0 (0 : Fin 2) * 2048 ≤ (i 0).val ∧ (i 0).val < win7_7.index t7_0 (0 : Fin 2) * 2048 + 2048; have hi : (i 0).val < 2048 := (i 0).isLt; omega
  | ⟨1, _⟩ => show win7_7.index t7_0 (1 : Fin 2) * 256 ≤ (i 1).val ∧ (i 1).val < win7_7.index t7_0 (1 : Fin 2) * 256 + 256; have hi : (i 1).val < 256 := (i 1).isLt; omega

/-! ## The arrays after the region -/

/-- The three output arrays of region 7 after the region, as real matrices of its input arrays. -/
theorem val7 (c : Dev nD) (X : Mat L D) (Q K Vm : Mat D D)
    (hX : V c main_v24 = ofM X) (hQ : V c main_v11 = ofM Q) (hK : V c main_v12 = ofM K) (hV : V c main_v13 = ofM Vm)
    (hΔ : V c main_v18 = ofM (Cert.Spec.tril L)) :
    (dat7 V c).arrAt 5 cfg7.N = ofM (mm X Q) ∧ (dat7 V c).arrAt 6 cfg7.N = ofM (mm X K)
      ∧ (dat7 V c).arrAt 7 cfg7.N = ofM (mm (tril L) (mm X Vm)) :=
  ⟨(dat7 V c).arrAt_eq_of_cover 5 (ofM (mm X Q)) (fun t _ => flushed7_5 V c t X Q hX hQ) covered7_5,
   (dat7 V c).arrAt_eq_of_cover 6 (ofM (mm X K)) (fun t _ => flushed7_6 V c t X K hX hK) covered7_6,
   (dat7 V c).arrAt_eq_of_cover 7 (ofM (mm (tril L) (mm X Vm))) (fun t _ => flushed7_7 V c t X Vm (tril L) hX hV hΔ) covered7_7⟩

end Cert.KernelIdeal.HandVal

end
-- ==== Proof.Val.Val8.lean ====
import proofs.«104406_j63058709840319_2_alg».proof.Proof.KI.Reg8
import proofs.«104406_j63058709840319_2_alg».proof.Proof.LibCoe.Basic
import proofs.«104406_j63058709840319_2_alg».proof.Proof.LibCoe.Reduce
import proofs.«104406_j63058709840319_2_alg».proof.Proof.LibCoe.DotK
import proofs.«104406_j63058709840319_2_alg».proof.Proof.Val.Ffn
import Idealize.ShloMosaic.Lib.Pipeline.Value
import Idealize.ShloMosaic.Lib.ValueIdx

/-! The attention-and-feed-forward call over four row tiles of 512, read as real matrices: when the seven input
    arrays hold real matrices, the output array after the call holds the real matrix
    `relu(softmax(XQ·XKᵀ/16)·PV·W₁ + b₁)·W₂ + b₂`. Every row of that matrix depends on the same row of `XQ` only, so
    what the body leaves at tile `t` (the same expression of rows `512·t … 512·t+511` of `XQ`) is tile `t` of the
    whole matrix, and the four tiles cover the array. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.LibCoe Cert.Spec

/-! ## The body's payload on real blocks -/

/-- The three matrix products of the body on real matrices, at the body's shapes. -/
theorem mmT8 {φ₁ φ₂ : FTy} (A : Mat 512 256) (B : Mat 2048 256) :
    matmul (F := Ideal) (φ₁ := φ₁) (φ₂ := φ₂) dot_S512x256_S2048x256_S512x2048_1_1_0_0_n_n none (ofM A) (ofM B) (constant S512x2048 .f32 0x00000000#32)
      = ofM (mm A (tr B)) := matmul_S512x256_S2048x256 A B
theorem mmA8 {φ₁ φ₂ : FTy} (A : Mat 512 2048) (B : Mat 2048 256) :
    matmul (F := Ideal) (φ₁ := φ₁) (φ₂ := φ₂) dot_S512x2048_S2048x256_S512x256_1_0_0_1_n_n none (ofM A) (ofM B) (constant S512x256 .f32 0x00000000#32)
      = ofM (mm A B) := matmul_S512x2048_S2048x256 A B
theorem mmW8 {φ₁ φ₂ : FTy} (A : Mat 512 256) (B : Mat 256 256) :
    matmul (F := Ideal) (φ₁ := φ₁) (φ₂ := φ₂) dot_S512x256_S256x256_S512x256_1_0_0_1_n_n none (ofM A) (ofM B) (constant S512x256 .f32 0x00000000#32)
      = ofM (mm A B) := matmul_S512x256_S256x256 A B

/-- The row softmax of the body, kernel arrangement, at the body's shapes and with the side conditions spelled as
    the body spells them. -/
theorem kSoftmax8 (A : Mat 512 2048) (h : S512x2048.Reduces [1] S512)
    (hφ : FKind.Formats .f32) (hmax : (0xFF800000#32 : BitVec (FTy.bits .f32)) = FKind.maximumf.neutral .f32 hφ)
    (hadd : (0x00000000#32 : BitVec (FTy.bits .f32)) = FKind.add.neutral .f32 hφ)
    (hsc : S512.ShapeCasts S512x1) (hb : S512x1.Broadcasts S512x2048) :
    mulf
      (exp (subf (ofM A : FVec Ideal S512x2048 .f32)
        (broadcastTo S512x2048 (shapeCast S512x1
          (multiReduction (F := Ideal) .maximumf [1] S512 (ofM A : FVec Ideal S512x2048 .f32) 0xFF800000#32 h hφ hmax) hsc) hb)))
      (broadcastTo S512x2048
        (divf (broadcast S512x1 (Scalar.ofBits (F := Ideal) .f32 0x3F800000#32))
          (shapeCast S512x1
            (multiReduction (F := Ideal) .add [1] S512
              (exp (subf (ofM A : FVec Ideal S512x2048 .f32)
                (broadcastTo S512x2048 (shapeCast S512x1
                  (multiReduction (F := Ideal) .maximumf [1] S512 (ofM A : FVec Ideal S512x2048 .f32) 0xFF800000#32 h hφ hmax) hsc) hb)))
              0x00000000#32 h hφ hadd) hsc)) hb)
      = ofM (a := 512) (b := 2048) (smaxK (b := 2047) A) :=
  kSoftmax (n := 512) A h hφ hmax hadd hsc hb

/-- The body's stored value on real blocks is the real expression of them. -/
theorem pay8 (X : Mat 512 D) (XK PV : Mat L D) (W1 W2 : Mat D D) (b1 b2 : Mat 1 D) :
    k8_pay1 (F := Ideal) (k8_pay2 (ofM X) (ofM XK) (ofM PV) (ofM W1) (ofM b1) (ofM W2)) (ofM b2)
      = ofM (ffn X XK PV W1 W2 b1 b2) := by
  unfold k8_pay1 k8_pay2
  dsimp only
  simp only [shapeCast_ofM, broadcastTo_row_ofM]
  rw [mmT8, mulf_broadcast_sixteenth_ofM]
  erw [kSoftmax8]
  rw [truncf_ofM, mmA8, truncf_ofM, mmW8, addf_ofM, maximumf_broadcast_zero_ofM, truncf_ofM, mmW8, addf_ofM]
  rfl

/-! ## The input blocks -/

theorem hz8 : (![0, 0] : Fin 2 → Nat) = fun _ => 0 := funext fun a => by fin_cases a <;> rfl

/-- The printed index maps, decided over the four points: the query window and the output window are at row tile
    `t`, every other window at its whole array. -/
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = t.val ∧ win8_7.index t (1 : Fin 2) = 0 :=
  (by decide +kernel : ∀ t : Fin grid8.N, _)

variable (V : (c : Dev nD) → (b : Ref sig .tc) → Buf (Elt Ideal) ((c : Thread nD τ).loc b)) (c : Dev nD)

/-- The query window's block at point `t` is rows `512·t … 512·t+511` of the query array. -/
theorem iblk8_0_eq (XQ : Mat L D) (h0 : V c main_v25_0 = ofM XQ) (t : Fin cfg8.N) :
    iblk8 V c 0 t = ofM (rows512 t.val (Nat.lt_of_lt_of_eq t.isLt N_8) XQ) := by
  obtain ⟨e0, e1, -⟩ := idx_facts8 t
  funext j
  show V c main_v25_0 (((cfg8.win 0).blk t).view.emb j) = ofM (rows512 t.val (Nat.lt_of_lt_of_eq t.isLt N_8) XQ) j
  refine (congrFun h0 _).trans ?_
  refine congrArg (fun x : ℝ => (x : EReal)) (entry_congr XQ ?_ ?_)
  · show win8_0.index t (0 : Fin 2) * 512 + 1 * (j 0).val = 512 * t.val + (j 0).val
    omega
  · show win8_0.index t (1 : Fin 2) * 256 + 1 * (j 1).val = (j 1).val
    omega

/-- Every other input window's block is its whole array, at every point. -/
theorem iblk8_1_eq (t : Fin cfg8.N) : iblk8 V c 1 t = V c main_v25_1 := by
  obtain ⟨-, -, e0, e1, -⟩ := idx_facts8 t
  funext j
  show V c main_v25_1 (((cfg8.win 1).blk t).view.emb j) = V c main_v25_1 j
  refine congrArg (V c main_v25_1) ?_
  funext a; apply Fin.ext
  match a with
  | ⟨0, _⟩ => show win8_1.index t (0 : Fin 2) * 2048 + 1 * (j 0).val = (j 0).val; omega
  | ⟨1, _⟩ => show win8_1.index t (1 : Fin 2) * 256 + 1 * (j 1).val = (j 1).val; omega
theorem iblk8_2_eq (t : Fin cfg8.N) : iblk8 V c 2 t = V c main_v25_2 := by
  obtain ⟨-, -, -, -, e0, e1, -⟩ := idx_facts8 t
  funext j
  show V c main_v25_2 (((cfg8.win 2).blk t).view.emb j) = V c main_v25_2 j
  refine congrArg (V c main_v25_2) ?_
  funext a; apply Fin.ext
  match a with
  | ⟨0, _⟩ => show win8_2.index t (0 : Fin 2) * 2048 + 1 * (j 0).val = (j 0).val; omega
  | ⟨1, _⟩ => show win8_2.index t (1 : Fin 2) * 256 + 1 * (j 1).val = (j 1).val; omega
theorem iblk8_3_eq (t : Fin cfg8.N) : iblk8 V c 3 t = V c main_v14 := by
  obtain ⟨-, -, -, -, -, -, e0, e1, -⟩ := idx_facts8 t
  funext j
  show V c main_v14 (((cfg8.win 3).blk t).view.emb j) = V c main_v14 j
  refine congrArg (V c main_v14) ?_
  funext a; apply Fin.ext
  match a with
  | ⟨0, _⟩ => show win8_3.index t (0 : Fin 2) * 256 + 1 * (j 0).val = (j 0).val; omega
  | ⟨1, _⟩ => show win8_3.index t (1 : Fin 2) * 256 + 1 * (j 1).val = (j 1).val; omega
theorem iblk8_4_eq (t : Fin cfg8.N) : iblk8 V c 4 t = V c main_v15 := by
  obtain ⟨-, -, -, -, -, -, -, -, e0, e1, -⟩ := idx_facts8 t
  funext j
  show V c main_v15 (((cfg8.win 4).blk t).view.emb j) = V c main_v15 j
  refine congrArg (V c main_v15) ?_
  funext a; apply Fin.ext
  match a with
  | ⟨0, _⟩ => show win8_4.index t (0 : Fin 2) * 256 + 1 * (j 0).val = (j 0).val; omega
  | ⟨1, _⟩ => show win8_4.index t (1 : Fin 2) * 256 + 1 * (j 1).val = (j 1).val; omega
theorem iblk8_5_eq (t : Fin cfg8.N) : iblk8 V c 5 t = V c main_arg14 := by
  obtain ⟨-, -, -, -, -, -, -, -, -, -, e0, e1, -⟩ := idx_facts8 t
  funext j
  show V c main_arg14 (((cfg8.win 5).blk t).view.emb j) = V c main_arg14 j
  refine congrArg (V c main_arg14) ?_
  funext a; apply Fin.ext
  match a with
  | ⟨0, _⟩ => show win8_5.index t (0 : Fin 2) * 1 + 1 * (j 0).val = (j 0).val; omega
  | ⟨1, _⟩ => show win8_5.index t (1 : Fin 2) * 256 + 1 * (j 1).val = (j 1).val; omega
theorem iblk8_6_eq (t : Fin cfg8.N) : iblk8 V c 6 t = V c main_arg15 := by
  obtain ⟨-, -, -, -, -, -, -, -, -, -, -, -, e0, e1, -⟩ := idx_facts8 t
  funext j
  show V c main_arg15 (((cfg8.win 6).blk t).view.emb j) = V c main_arg15 j
  refine congrArg (V c main_arg15) ?_
  funext a; apply Fin.ext
  match a with
  | ⟨0, _⟩ => show win8_6.index t (0 : Fin 2) * 1 + 1 * (j 0).val = (j 0).val; omega
  | ⟨1, _⟩ => show win8_6.index t (1 : Fin 2) * 256 + 1 * (j 1).val = (j 1).val; omega

/-! ## From the blocks to the array -/

/-- What point `t` writes back is tile `t` of the whole real matrix. -/
theorem flushed8_eq (XQ XK PV : Mat L D) (W1 W2 : Mat D D) (b1 b2 : Mat 1 D)
    (h0 : V c main_v25_0 = ofM XQ) (h1 : V c main_v25_1 = ofM XK) (h2 : V c main_v25_2 = ofM PV)
    (h3 : V c main_v14 = ofM W1) (h4 : V c main_v15 = ofM W2) (h5 : V c main_arg14 = ofM b1) (h6 : V c main_arg15 = ofM b2)
    (t : Fin cfg8.N) :
    (dat8 V c).flushed 7 t = ((cfg8.win 7).blk t).view.read (Elt Ideal) (ofM (ffn XQ XK PV W1 W2 b1 b2)) := by
  show (cfg8.win 7).cut (grid8.coords t) ((dat8 V c).after 7 t) = _
  rw [after8_7]
  unfold out8_7
  rw [View.canon_unit_zero hz8]
  simp only [View.ld_unit_zero (S := S512x256) hz8, View.ld_unit_zero (S := S2048x256) hz8,
    View.ld_unit_zero (S := S256x256) hz8, View.ld_unit_zero (S := S1x256) hz8]
  rw [iblk8_0_eq V c XQ h0, iblk8_1_eq, iblk8_2_eq, iblk8_3_eq, iblk8_4_eq, iblk8_5_eq, iblk8_6_eq, h1, h2, h3, h4, h5, h6, pay8]
  obtain ⟨-, -, -, -, -, -, -, -, -, -, -, -, -, -, e0, e1⟩ := idx_facts8 t
  funext j
  show ((ffn (rows512 t.val (Nat.lt_of_lt_of_eq t.isLt N_8) XQ) XK PV W1 W2 b1 b2 (j 0) (j 1) : ℝ) : EReal)
    = ((ffn XQ XK PV W1 W2 b1 b2 (((cfg8.win 7).blk t).view.emb j 0) (((cfg8.win 7).blk t).view.emb j 1) : ℝ) : EReal)
  refine congrArg (fun x : ℝ => (x : EReal)) ((ffn_rows512 t.val _ XQ XK PV W1 W2 b1 b2 (j 0) (j 1)).trans
    (entry_congr (ffn XQ XK PV W1 W2 b1 b2) ?_ ?_))
  · show 512 * t.val + (j 0).val = win8_7.index t (0 : Fin 2) * 512 + 1 * (j 0).val
    omega
  · show (j 1).val = win8_7.index t (1 : Fin 2) * 256 + 1 * (j 1).val
    omega

/-- An index of the output array is in point `t`'s block iff each coordinate is in the block's range on its axis. -/
theorem mem_blk8 (t : Fin cfg8.N) (i : S2048x256.Idx) :
    i ∈ ((cfg8.win 7).blk t).view.set ↔ ∀ a : Fin 2, win8_7.index t a * S512x256.size a ≤ (i a).val ∧ (i a).val < win8_7.index t a * S512x256.size a + S512x256.size a := by
  show i ∈ ((View.whole main_v26).slice (win8_7.rect t)).set ↔ _
  rw [View.set_slice_whole, Rect.mem_set_unit]
  exact Iff.rfl

/-- Every index of the output array is in the block of the point its row's tile names. -/
theorem cover8 (i : S2048x256.Idx) : ∃ t : Fin cfg8.N, (cfg8.win 7).flush t = true ∧ i ∈ ((cfg8.win 7).blk t).view.set := by
  have hi0 : (i 0).val < 2048 := (i 0).isLt
  have hi1 : (i 1).val < 256 := (i 1).isLt
  have hq : (i 0).val / 512 < 4 := by omega
  obtain ⟨-, -, -, -, -, -, -, -, -, -, -, -, -, -, e0, e1⟩ := idx_facts8 ⟨(i 0).val / 512, Nat.lt_of_lt_of_eq hq N_8.symm⟩
  refine ⟨⟨(i 0).val / 512, Nat.lt_of_lt_of_eq hq N_8.symm⟩, flush8_7 _, ?_⟩
  rw [mem_blk8]
  intro a
  match a with
  | ⟨0, _⟩ =>
    show win8_7.index ⟨(i 0).val / 512, Nat.lt_of_lt_of_eq hq N_8.symm⟩ (0 : Fin 2) * 512 ≤ (i 0).val
      ∧ (i 0).val < win8_7.index ⟨(i 0).val / 512, Nat.lt_of_lt_of_eq hq N_8.symm⟩ (0 : Fin 2) * 512 + 512
    rw [e0]
    show (i 0).val / 512 * 512 ≤ (i 0).val ∧ (i 0).val < (i 0).val / 512 * 512 + 512
    omega
  | ⟨1, _⟩ =>
    show win8_7.index ⟨(i 0).val / 512, Nat.lt_of_lt_of_eq hq N_8.symm⟩ (1 : Fin 2) * 256 ≤ (i 1).val
      ∧ (i 1).val < win8_7.index ⟨(i 0).val / 512, Nat.lt_of_lt_of_eq hq N_8.symm⟩ (1 : Fin 2) * 256 + 256
    omega

/-- The output array after the call, from real inputs. -/
theorem val8 (XQ XK PV : Mat L D) (W1 W2 : Mat D D) (b1 b2 : Mat 1 D)
    (h0 : V c main_v25_0 = ofM XQ) (h1 : V c main_v25_1 = ofM XK) (h2 : V c main_v25_2 = ofM PV)
    (h3 : V c main_v14 = ofM W1) (h4 : V c main_v15 = ofM W2) (h5 : V c main_arg14 = ofM b1) (h6 : V c main_arg15 = ofM b2) :
    (dat8 V c).arrAt 7 cfg8.N = ofM (fun i j => mm (relu (fun i j => mm (mm (smaxK (b := 2047) (sc (mm XQ (tr XK)))) PV) W1 i j + rowB b1 i j)) W2 i j + rowB b2 i j) :=
  (dat8 V c).arrAt_eq_of_cover 7 (ofM (ffn XQ XK PV W1 W2 b1 b2))
    (fun t _ => flushed8_eq V c XQ XK PV W1 W2 b1 b2 h0 h1 h2 h3 h4 h5 h6 t) cover8

end Cert.KernelIdeal.HandVal

end
-- ==== Proof.Val.Val9.lean ====
/- Region 9 of @main (the projection kernel, one grid point) at the ideal values: when the arrays it reads hold real
   matrices `X` (the activations), `Q`, `K`, `Vm` (the three weights) and the lower-triangular matrix of ones, its
   three output arrays hold after the region the real matrices `X·Q`, `X·K` and `Δ·(X·Vm)`. Each output window's one
   block is the whole array, written by one whole-buffer store of a payload that is a product of real matrices (the
   truncations and the shape casts are the identity on ideal values). -/
import proofs.«104406_j63058709840319_2_alg».proof.Proof.KI.Reg9
import proofs.«104406_j63058709840319_2_alg».proof.Proof.LibCoe.Basic
import proofs.«104406_j63058709840319_2_alg».proof.Proof.LibCoe.DotK
import Idealize.ShloMosaic.Lib.Pipeline.Value
import Idealize.ShloMosaic.Lib.ValueIdx

set_option maxRecDepth 16384

noncomputable section

namespace Cert.KernelIdeal.HandVal

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand
open Cert.LibCoe Cert.Spec

variable (V : (c : Dev nD) → (b : Ref sig .tc) → Buf (Elt Ideal) ((c : Thread nD τ).loc b))

/-! ## The payloads on real matrices -/

/-- A truncation is the identity on ideal values. -/
theorem truncf_id9 {s : Shape} {φ ψ : FTy} (x : FVec Ideal s φ) (h : ψ.bits < φ.bits) : truncf (F := Ideal) ψ x h = x := rfl

/-- The truncated activations: the shape cast and the truncation are the identity on ideal values. -/
theorem pay9_1_val (x0 : Vec Ideal S2048x256 .f32) (X : Mat 2048 256) (h0 : x0 = ofM X) : k9_pay1 x0 = ofM X := by
  subst h0
  unfold k9_pay1
  dsimp only
  rw [truncf_id9, shapeCast_self]

/-- The first stored payload: the activations times the first weight. -/
theorem pay9_2_val (x0 : Vec Ideal S2048x256 .f32) (x1 : Vec Ideal S256x256 .bf16) (X : Mat 2048 256) (W : Mat 256 256)
    (h0 : x0 = ofM X) (h1 : x1 = ofM W) : k9_pay2 x0 x1 = ofM (mm X W) := by
  have e1 := pay9_1_val x0 X h0
  subst h1
  unfold k9_pay2
  dsimp only
  rw [e1, shapeCast_self, truncf_id9]
  exact matmul_S2048x256_S256x256 (φ₁ := .bf16) (φ₂ := .bf16) X W

/-- The second stored payload: the activations times the second weight. -/
theorem pay9_3_val (x0 : Vec Ideal S2048x256 .f32) (x2 : Vec Ideal S256x256 .bf16) (X : Mat 2048 256) (W : Mat 256 256)
    (h0 : x0 = ofM X) (h2 : x2 = ofM W) : k9_pay3 x0 x2 = ofM (mm X W) := by
  have e1 := pay9_1_val x0 X h0
  subst h2
  unfold k9_pay3
  dsimp only
  rw [e1, shapeCast_self, truncf_id9]
  exact matmul_S2048x256_S256x256 (φ₁ := .bf16) (φ₂ := .bf16) X W

/-- The third stored payload: the triangle times (the activations times the third weight). -/
theorem pay9_4_val (x0 : Vec Ideal S2048x256 .f32) (x3 : Vec Ideal S256x256 .bf16) (x4 : Vec Ideal S2048x2048 .bf16)
    (X : Mat 2048 256) (W : Mat 256 256) (T : Mat 2048 2048)
    (h0 : x0 = ofM X) (h3 : x3 = ofM W) (h4 : x4 = ofM T) : k9_pay4 x0 x3 x4 = ofM (mm T (mm X W)) := by
  have e1 := pay9_1_val x0 X h0
  subst h3 h4
  unfold k9_pay4
  dsimp only
  rw [e1, shapeCast_self, shapeCast_self, truncf_id9, truncf_id9]
  refine Eq.trans ?_ (matmul_S2048x2048_S2048x256 (φ₁ := .bf16) (φ₂ := .bf16) T (mm X W))
  exact congrArg (fun z => matmul (F := Ideal) (φ₁ := .bf16) (φ₂ := .bf16) dot_S2048x2048_S2048x256_S2048x256_1_0_0_1_n_n none (ofM T) z
    (constant S2048x256 .f32 0x00000000#32)) (matmul_S2048x256_S256x256 (φ₁ := .bf16) (φ₂ := .bf16) X W)

/-! ## Each window's one block is its whole array -/

theorem hz9 : (![0, 0] : Fin 2 → Nat) = fun _ => 0 := funext fun a => by fin_cases a <;> rfl

/-- The printed index maps, decided over the grid's one point: every window's block index is zero on both axes. -/
theorem idx_facts9 : ∀ t : Fin cfg9.N,
    win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = 0 ∧ win9_7.index t (1 : Fin 2) = 0 :=
  (by decide +kernel : ∀ t : Fin grid9.N, _)

/-- Window 0's block is its whole array: the activations. -/
theorem blk9_0 (c : Dev nD) (t : Fin cfg9.N) (X : Mat 2048 256) (hX : V c main_v26 = ofM X) :
    (iblk9 V c 0 t : Vec Ideal S2048x256 .f32) = ofM X := by
  obtain ⟨e00, e01, -⟩ := idx_facts9 t
  funext j
  show V c main_v26 (((cfg9.win 0).blk t).view.emb j) = ofM X j
  rw [hX]
  refine congrArg (ofM X) ?_
  funext a; apply Fin.ext
  match a with
  | ⟨0, _⟩ => show win9_0.index t (0 : Fin 2) * 2048 + 1 * (j 0).val = (j 0).val; omega
  | ⟨1, _⟩ => show win9_0.index t (1 : Fin 2) * 256 + 1 * (j 1).val = (j 1).val; omega

/-- Window 1's block is its whole array: the first weight. -/
theorem blk9_1 (c : Dev nD) (t : Fin cfg9.N) (W : Mat 256 256) (hW : V c main_v11 = ofM W) :
    (iblk9 V c 1 t : Vec Ideal S256x256 .bf16) = ofM W := by
  obtain ⟨-, -, e10, e11, -⟩ := idx_facts9 t
  funext j
  show V c main_v11 (((cfg9.win 1).blk t).view.emb j) = ofM W j
  rw [hW]
  refine congrArg (ofM W) ?_
  funext a; apply Fin.ext
  match a with
  | ⟨0, _⟩ => show win9_1.index t (0 : Fin 2) * 256 + 1 * (j 0).val = (j 0).val; omega
  | ⟨1, _⟩ => show win9_1.index t (1 : Fin 2) * 256 + 1 * (j 1).val = (j 1).val; omega

/-- Window 2's block is its whole array: the second weight. -/
theorem blk9_2 (c : Dev nD) (t : Fin cfg9.N) (W : Mat 256 256) (hW : V c main_v12 = ofM W) :
    (iblk9 V c 2 t : Vec Ideal S256x256 .bf16) = ofM W := by
  obtain ⟨-, -, -, -, e20, e21, -⟩ := idx_facts9 t
  funext j
  show V c main_v12 (((cfg9.win 2).blk t).view.emb j) = ofM W j
  rw [hW]
  refine congrArg (ofM W) ?_
  funext a; apply Fin.ext
  match a with
  | ⟨0, _⟩ => show win9_2.index t (0 : Fin 2) * 256 + 1 * (j 0).val = (j 0).val; omega
  | ⟨1, _⟩ => show win9_2.index t (1 : Fin 2) * 256 + 1 * (j 1).val = (j 1).val; omega

/-- Window 3's block is its whole array: the third weight. -/
theorem blk9_3 (c : Dev nD) (t : Fin cfg9.N) (W : Mat 256 256) (hW : V c main_v13 = ofM W) :
    (iblk9 V c 3 t : Vec Ideal S256x256 .bf16) = ofM W := by
  obtain ⟨-, -, -, -, -, -, e30, e31, -⟩ := idx_facts9 t
  funext j
  show V c main_v13 (((cfg9.win 3).blk t).view.emb j) = ofM W j
  rw [hW]
  refine congrArg (ofM W) ?_
  funext a; apply Fin.ext
  match a with
  | ⟨0, _⟩ => show win9_3.index t (0 : Fin 2) * 256 + 1 * (j 0).val = (j 0).val; omega
  | ⟨1, _⟩ => show win9_3.index t (1 : Fin 2) * 256 + 1 * (j 1).val = (j 1).val; omega

/-- Window 4's block is its whole array: the triangle. -/
theorem blk9_4 (c : Dev nD) (t : Fin cfg9.N) (T : Mat 2048 2048) (hT : V c main_v18 = ofM T) :
    (iblk9 V c 4 t : Vec Ideal S2048x2048 .bf16) = ofM T := by
  obtain ⟨-, -, -, -, -, -, -, -, e40, e41, -⟩ := idx_facts9 t
  funext j
  show V c main_v18 (((cfg9.win 4).blk t).view.emb j) = ofM T j
  rw [hT]
  refine congrArg (ofM T) ?_
  funext a; apply Fin.ext
  match a with
  | ⟨0, _⟩ => show win9_4.index t (0 : Fin 2) * 2048 + 1 * (j 0).val = (j 0).val; omega
  | ⟨1, _⟩ => show win9_4.index t (1 : Fin 2) * 2048 + 1 * (j 1).val = (j 1).val; omega

/-! ## What the one point writes back -/

/-- A real matrix written back through an output window's block: the block is the whole array. -/
theorem read9_5 (t : Fin cfg9.N) (A : Mat 2048 256) :
    (cfg9.win 5).cut (grid9.coords t) (ofM A) = ((cfg9.win 5).blk t).view.read (Elt Ideal) (ofM A) := by
  obtain ⟨-, -, -, -, -, -, -, -, -, -, e0, e1, -⟩ := idx_facts9 t
  funext j
  show ofM A ((cfg9.win 5).xinj (grid9.coords t) j) = ofM A (((cfg9.win 5).blk t).view.emb j)
  refine congrArg (ofM A) ?_
  funext a; apply Fin.ext
  match a with
  | ⟨0, _⟩ => show (j 0).val = win9_5.index t (0 : Fin 2) * 2048 + 1 * (j 0).val; omega
  | ⟨1, _⟩ => show (j 1).val = win9_5.index t (1 : Fin 2) * 256 + 1 * (j 1).val; omega
theorem read9_6 (t : Fin cfg9.N) (A : Mat 2048 256) :
    (cfg9.win 6).cut (grid9.coords t) (ofM A) = ((cfg9.win 6).blk t).view.read (Elt Ideal) (ofM A) := by
  obtain ⟨-, -, -, -, -, -, -, -, -, -, -, -, e0, e1, -⟩ := idx_facts9 t
  funext j
  show ofM A ((cfg9.win 6).xinj (grid9.coords t) j) = ofM A (((cfg9.win 6).blk t).view.emb j)
  refine congrArg (ofM A) ?_
  funext a; apply Fin.ext
  match a with
  | ⟨0, _⟩ => show (j 0).val = win9_6.index t (0 : Fin 2) * 2048 + 1 * (j 0).val; omega
  | ⟨1, _⟩ => show (j 1).val = win9_6.index t (1 : Fin 2) * 256 + 1 * (j 1).val; omega
theorem read9_7 (t : Fin cfg9.N) (A : Mat 2048 256) :
    (cfg9.win 7).cut (grid9.coords t) (ofM A) = ((cfg9.win 7).blk t).view.read (Elt Ideal) (ofM A) := by
  obtain ⟨-, -, -, -, -, -, -, -, -, -, -, -, -, -, e0, e1⟩ := idx_facts9 t
  funext j
  show ofM A ((cfg9.win 7).xinj (grid9.coords t) j) = ofM A (((cfg9.win 7).blk t).view.emb j)
  refine congrArg (ofM A) ?_
  funext a; apply Fin.ext
  match a with
  | ⟨0, _⟩ => show (j 0).val = win9_7.index t (0 : Fin 2) * 2048 + 1 * (j 0).val; omega
  | ⟨1, _⟩ => show (j 1).val = win9_7.index t (1 : Fin 2) * 256 + 1 * (j 1).val; omega

/-- The body's result in window 5's buffer, written back, is the block of the product with the first weight. -/
theorem wb9_5 (c : Dev nD) (t : Fin cfg9.N) (X : Mat 2048 256) (W : Mat 256 256)
    (hX : V c main_v26 = ofM X) (hW : V c main_v11 = ofM W) :
    (cfg9.win 5).cut (grid9.coords t) (out9_5 (iblk9 V c 0 t) (iblk9 V c 1 t) (iblk9 V c 2 t) (iblk9 V c 3 t) (iblk9 V c 4 t))
      = ((cfg9.win 5).blk t).view.read (Elt Ideal) (ofM (mm X W)) := by
  unfold out9_5
  rw [View.canon_unit_zero hz9]
  simp only [View.ld_unit_zero (S := S2048x256) hz9, View.ld_unit_zero (S := S256x256) hz9]
  have hp : k9_pay2 (F := Ideal) (iblk9 V c 0 t) (iblk9 V c 1 t) = ofM (mm X W) :=
    pay9_2_val (iblk9 V c 0 t) (iblk9 V c 1 t) X W (blk9_0 V c t X hX) (blk9_1 V c t W hW)
  rw [hp]
  exact read9_5 t (mm X W)

/-- The body's result in window 6's buffer, written back, is the block of the product with the second weight. -/
theorem wb9_6 (c : Dev nD) (t : Fin cfg9.N) (X : Mat 2048 256) (W : Mat 256 256)
    (hX : V c main_v26 = ofM X) (hW : V c main_v12 = ofM W) :
    (cfg9.win 6).cut (grid9.coords t) (out9_6 (iblk9 V c 0 t) (iblk9 V c 1 t) (iblk9 V c 2 t) (iblk9 V c 3 t) (iblk9 V c 4 t))
      = ((cfg9.win 6).blk t).view.read (Elt Ideal) (ofM (mm X W)) := by
  unfold out9_6
  rw [View.canon_unit_zero hz9]
  simp only [View.ld_unit_zero (S := S2048x256) hz9, View.ld_unit_zero (S := S256x256) hz9]
  have hp : k9_pay3 (F := Ideal) (iblk9 V c 0 t) (iblk9 V c 2 t) = ofM (mm X W) :=
    pay9_3_val (iblk9 V c 0 t) (iblk9 V c 2 t) X W (blk9_0 V c t X hX) (blk9_2 V c t W hW)
  rw [hp]
  exact read9_6 t (mm X W)

/-- The body's result in window 7's buffer, written back, is the block of the triangle times the product with the
    third weight. -/
theorem wb9_7 (c : Dev nD) (t : Fin cfg9.N) (X : Mat 2048 256) (W : Mat 256 256) (T : Mat 2048 2048)
    (hX : V c main_v26 = ofM X) (hW : V c main_v13 = ofM W) (hT : V c main_v18 = ofM T) :
    (cfg9.win 7).cut (grid9.coords t) (out9_7 (iblk9 V c 0 t) (iblk9 V c 1 t) (iblk9 V c 2 t) (iblk9 V c 3 t) (iblk9 V c 4 t))
      = ((cfg9.win 7).blk t).view.read (Elt Ideal) (ofM (mm T (mm X W))) := by
  unfold out9_7
  rw [View.canon_unit_zero hz9]
  simp only [View.ld_unit_zero (S := S2048x256) hz9, View.ld_unit_zero (S := S256x256) hz9, View.ld_unit_zero (S := S2048x2048) hz9]
  have hp : k9_pay4 (F := Ideal) (iblk9 V c 0 t) (iblk9 V c 3 t) (iblk9 V c 4 t) = ofM (mm T (mm X W)) :=
    pay9_4_val (iblk9 V c 0 t) (iblk9 V c 3 t) (iblk9 V c 4 t) X W T (blk9_0 V c t X hX) (blk9_3 V c t W hW) (blk9_4 V c t T hT)
  rw [hp]
  exact read9_7 t (mm T (mm X W))

/-- What the point writes back through window 5 is the block of `X·Q`. -/
theorem flushed9_5 (c : Dev nD) (t : Fin cfg9.N) (X : Mat 2048 256) (W : Mat 256 256)
    (hX : V c main_v26 = ofM X) (hW : V c main_v11 = ofM W) :
    (dat9 V c).flushed 5 t = ((cfg9.win 5).blk t).view.read (Elt Ideal) (ofM (mm X W)) := by
  show (cfg9.win 5).cut (grid9.coords t) ((dat9 V c).after 5 t) = _
  rw [after9_5]
  exact wb9_5 V c t X W hX hW

/-- What the point writes back through window 6 is the block of `X·K`. -/
theorem flushed9_6 (c : Dev nD) (t : Fin cfg9.N) (X : Mat 2048 256) (W : Mat 256 256)
    (hX : V c main_v26 = ofM X) (hW : V c main_v12 = ofM W) :
    (dat9 V c).flushed 6 t = ((cfg9.win 6).blk t).view.read (Elt Ideal) (ofM (mm X W)) := by
  show (cfg9.win 6).cut (grid9.coords t) ((dat9 V c).after 6 t) = _
  rw [after9_6]
  exact wb9_6 V c t X W hX hW

/-- What the point writes back through window 7 is the block of `Δ·(X·Vm)`. -/
theorem flushed9_7 (c : Dev nD) (t : Fin cfg9.N) (X : Mat 2048 256) (W : Mat 256 256) (T : Mat 2048 2048)
    (hX : V c main_v26 = ofM X) (hW : V c main_v13 = ofM W) (hT : V c main_v18 = ofM T) :
    (dat9 V c).flushed 7 t = ((cfg9.win 7).blk t).view.read (Elt Ideal) (ofM (mm T (mm X W))) := by
  show (cfg9.win 7).cut (grid9.coords t) ((dat9 V c).after 7 t) = _
  rw [after9_7]
  exact wb9_7 V c t X W T hX hW hT

/-! ## The cover: the one point's block is the whole array -/

theorem mem_blk9_5 (t : Fin cfg9.N) (i : S2048x256.Idx) :
    i ∈ ((cfg9.win 5).blk t).view.set ↔ ∀ a : Fin 2, win9_5.index t a * S2048x256.size a ≤ (i a).val ∧ (i a).val < win9_5.index t a * S2048x256.size a + S2048x256.size a := by
  show i ∈ ((View.whole main_v27_0).slice (win9_5.rect t)).set ↔ _
  rw [View.set_slice_whole, Rect.mem_set_unit]
  exact Iff.rfl
theorem mem_blk9_6 (t : Fin cfg9.N) (i : S2048x256.Idx) :
    i ∈ ((cfg9.win 6).blk t).view.set ↔ ∀ a : Fin 2, win9_6.index t a * S2048x256.size a ≤ (i a).val ∧ (i a).val < win9_6.index t a * S2048x256.size a + S2048x256.size a := by
  show i ∈ ((View.whole main_v27_1).slice (win9_6.rect t)).set ↔ _
  rw [View.set_slice_whole, Rect.mem_set_unit]
  exact Iff.rfl
theorem mem_blk9_7 (t : Fin cfg9.N) (i : S2048x256.Idx) :
    i ∈ ((cfg9.win 7).blk t).view.set ↔ ∀ a : Fin 2, win9_7.index t a * S2048x256.size a ≤ (i a).val ∧ (i a).val < win9_7.index t a * S2048x256.size a + S2048x256.size a := by
  show i ∈ ((View.whole main_v27_2).slice (win9_7.rect t)).set ↔ _
  rw [View.set_slice_whole, Rect.mem_set_unit]
  exact Iff.rfl

/-- Every index of window 5's array is in the one point's block. -/
theorem covered9_5 (i : S2048x256.Idx) : ∃ t : Fin cfg9.N, (cfg9.win 5).flush t = true ∧ i ∈ ((cfg9.win 5).blk t).view.set := by
  obtain ⟨-, -, -, -, -, -, -, -, -, -, e0, e1, -⟩ := idx_facts9 t9_0
  refine ⟨t9_0, flush9_5 t9_0, ?_⟩
  rw [mem_blk9_5]
  intro a
  match a with
  | ⟨0, _⟩ => show win9_5.index t9_0 (0 : Fin 2) * 2048 ≤ (i 0).val ∧ (i 0).val < win9_5.index t9_0 (0 : Fin 2) * 2048 + 2048; have hi : (i 0).val < 2048 := (i 0).isLt; omega
  | ⟨1, _⟩ => show win9_5.index t9_0 (1 : Fin 2) * 256 ≤ (i 1).val ∧ (i 1).val < win9_5.index t9_0 (1 : Fin 2) * 256 + 256; have hi : (i 1).val < 256 := (i 1).isLt; omega
theorem covered9_6 (i : S2048x256.Idx) : ∃ t : Fin cfg9.N, (cfg9.win 6).flush t = true ∧ i ∈ ((cfg9.win 6).blk t).view.set := by
  obtain ⟨-, -, -, -, -, -, -, -, -, -, -, -, e0, e1, -⟩ := idx_facts9 t9_0
  refine ⟨t9_0, flush9_6 t9_0, ?_⟩
  rw [mem_blk9_6]
  intro a
  match a with
  | ⟨0, _⟩ => show win9_6.index t9_0 (0 : Fin 2) * 2048 ≤ (i 0).val ∧ (i 0).val < win9_6.index t9_0 (0 : Fin 2) * 2048 + 2048; have hi : (i 0).val < 2048 := (i 0).isLt; omega
  | ⟨1, _⟩ => show win9_6.index t9_0 (1 : Fin 2) * 256 ≤ (i 1).val ∧ (i 1).val < win9_6.index t9_0 (1 : Fin 2) * 256 + 256; have hi : (i 1).val < 256 := (i 1).isLt; omega
theorem covered9_7 (i : S2048x256.Idx) : ∃ t : Fin cfg9.N, (cfg9.win 7).flush t = true ∧ i ∈ ((cfg9.win 7).blk t).view.set := by
  obtain ⟨-, -, -, -, -, -, -, -, -, -, -, -, -, -, e0, e1⟩ := idx_facts9 t9_0
  refine ⟨t9_0, flush9_7 t9_0, ?_⟩
  rw [mem_blk9_7]
  intro a
  match a with
  | ⟨0, _⟩ => show win9_7.index t9_0 (0 : Fin 2) * 2048 ≤ (i 0).val ∧ (i 0).val < win9_7.index t9_0 (0 : Fin 2) * 2048 + 2048; have hi : (i 0).val < 2048 := (i 0).isLt; omega
  | ⟨1, _⟩ => show win9_7.index t9_0 (1 : Fin 2) * 256 ≤ (i 1).val ∧ (i 1).val < win9_7.index t9_0 (1 : Fin 2) * 256 + 256; have hi : (i 1).val < 256 := (i 1).isLt; omega

/-! ## The arrays after the region -/

/-- The three output arrays of region 9 after the region, as real matrices of its input arrays. -/
theorem val9 (c : Dev nD) (X : Mat L D) (Q K Vm : Mat D D)
    (hX : V c main_v26 = ofM X) (hQ : V c main_v11 = ofM Q) (hK : V c main_v12 = ofM K) (hV : V c main_v13 = ofM Vm)
    (hΔ : V c main_v18 = ofM (Cert.Spec.tril L)) :
    (dat9 V c).arrAt 5 cfg9.N = ofM (mm X Q) ∧ (dat9 V c).arrAt 6 cfg9.N = ofM (mm X K)
      ∧ (dat9 V c).arrAt 7 cfg9.N = ofM (mm (tril L) (mm X Vm)) :=
  ⟨(dat9 V c).arrAt_eq_of_cover 5 (ofM (mm X Q)) (fun t _ => flushed9_5 V c t X Q hX hQ) covered9_5,
   (dat9 V c).arrAt_eq_of_cover 6 (ofM (mm X K)) (fun t _ => flushed9_6 V c t X K hX hK) covered9_6,
   (dat9 V c).arrAt_eq_of_cover 7 (ofM (mm (tril L) (mm X Vm))) (fun t _ => flushed9_7 V c t X Vm (tril L) hX hV hΔ) covered9_7⟩

end Cert.KernelIdeal.HandVal

end
-- ==== Proof.Val.Val10.lean ====
import proofs.«104406_j63058709840319_2_alg».proof.Proof.KI.Reg10
import proofs.«104406_j63058709840319_2_alg».proof.Proof.LibCoe.Basic
import proofs.«104406_j63058709840319_2_alg».proof.Proof.LibCoe.Reduce
import proofs.«104406_j63058709840319_2_alg».proof.Proof.LibCoe.DotK
import proofs.«104406_j63058709840319_2_alg».proof.Proof.Val.Ffn
import Idealize.ShloMosaic.Lib.Pipeline.Value
import Idealize.ShloMosaic.Lib.ValueIdx

/-! The attention-and-feed-forward call over four row tiles of 512, read as real matrices: when the seven input
    arrays hold real matrices, the output array after the call holds the real matrix
    `relu(softmax(XQ·XKᵀ/16)·PV·W₁ + b₁)·W₂ + b₂`. Every row of that matrix depends on the same row of `XQ` only, so
    what the body leaves at tile `t` (the same expression of rows `512·t … 512·t+511` of `XQ`) is tile `t` of the
    whole matrix, and the four tiles cover the array. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.LibCoe Cert.Spec

/-! ## The body's payload on real blocks -/

/-- The three matrix products of the body on real matrices, at the body's shapes. -/
theorem mmT10 {φ₁ φ₂ : FTy} (A : Mat 512 256) (B : Mat 2048 256) :
    matmul (F := Ideal) (φ₁ := φ₁) (φ₂ := φ₂) dot_S512x256_S2048x256_S512x2048_1_1_0_0_n_n none (ofM A) (ofM B) (constant S512x2048 .f32 0x00000000#32)
      = ofM (mm A (tr B)) := matmul_S512x256_S2048x256 A B
theorem mmA10 {φ₁ φ₂ : FTy} (A : Mat 512 2048) (B : Mat 2048 256) :
    matmul (F := Ideal) (φ₁ := φ₁) (φ₂ := φ₂) dot_S512x2048_S2048x256_S512x256_1_0_0_1_n_n none (ofM A) (ofM B) (constant S512x256 .f32 0x00000000#32)
      = ofM (mm A B) := matmul_S512x2048_S2048x256 A B
theorem mmW10 {φ₁ φ₂ : FTy} (A : Mat 512 256) (B : Mat 256 256) :
    matmul (F := Ideal) (φ₁ := φ₁) (φ₂ := φ₂) dot_S512x256_S256x256_S512x256_1_0_0_1_n_n none (ofM A) (ofM B) (constant S512x256 .f32 0x00000000#32)
      = ofM (mm A B) := matmul_S512x256_S256x256 A B

/-- The row softmax of the body, kernel arrangement, at the body's shapes and with the side conditions spelled as
    the body spells them. -/
theorem kSoftmax10 (A : Mat 512 2048) (h : S512x2048.Reduces [1] S512)
    (hφ : FKind.Formats .f32) (hmax : (0xFF800000#32 : BitVec (FTy.bits .f32)) = FKind.maximumf.neutral .f32 hφ)
    (hadd : (0x00000000#32 : BitVec (FTy.bits .f32)) = FKind.add.neutral .f32 hφ)
    (hsc : S512.ShapeCasts S512x1) (hb : S512x1.Broadcasts S512x2048) :
    mulf
      (exp (subf (ofM A : FVec Ideal S512x2048 .f32)
        (broadcastTo S512x2048 (shapeCast S512x1
          (multiReduction (F := Ideal) .maximumf [1] S512 (ofM A : FVec Ideal S512x2048 .f32) 0xFF800000#32 h hφ hmax) hsc) hb)))
      (broadcastTo S512x2048
        (divf (broadcast S512x1 (Scalar.ofBits (F := Ideal) .f32 0x3F800000#32))
          (shapeCast S512x1
            (multiReduction (F := Ideal) .add [1] S512
              (exp (subf (ofM A : FVec Ideal S512x2048 .f32)
                (broadcastTo S512x2048 (shapeCast S512x1
                  (multiReduction (F := Ideal) .maximumf [1] S512 (ofM A : FVec Ideal S512x2048 .f32) 0xFF800000#32 h hφ hmax) hsc) hb)))
              0x00000000#32 h hφ hadd) hsc)) hb)
      = ofM (a := 512) (b := 2048) (smaxK (b := 2047) A) :=
  kSoftmax (n := 512) A h hφ hmax hadd hsc hb

/-- The body's stored value on real blocks is the real expression of them. -/
theorem pay10 (X : Mat 512 D) (XK PV : Mat L D) (W1 W2 : Mat D D) (b1 b2 : Mat 1 D) :
    k10_pay1 (F := Ideal) (k10_pay2 (ofM X) (ofM XK) (ofM PV) (ofM W1) (ofM b1) (ofM W2)) (ofM b2)
      = ofM (ffn X XK PV W1 W2 b1 b2) := by
  unfold k10_pay1 k10_pay2
  dsimp only
  simp only [shapeCast_ofM, broadcastTo_row_ofM]
  rw [mmT10, mulf_broadcast_sixteenth_ofM]
  erw [kSoftmax10]
  rw [truncf_ofM, mmA10, truncf_ofM, mmW10, addf_ofM, maximumf_broadcast_zero_ofM, truncf_ofM, mmW10, addf_ofM]
  rfl

/-! ## The input blocks -/

theorem hz10 : (![0, 0] : Fin 2 → Nat) = fun _ => 0 := funext fun a => by fin_cases a <;> rfl

/-- The printed index maps, decided over the four points: the query window and the output window are at row tile
    `t`, every other window at its whole array. -/
theorem idx_facts10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = t.val ∧ win10_7.index t (1 : Fin 2) = 0 :=
  (by decide +kernel : ∀ t : Fin grid10.N, _)

variable (V : (c : Dev nD) → (b : Ref sig .tc) → Buf (Elt Ideal) ((c : Thread nD τ).loc b)) (c : Dev nD)

/-- The query window's block at point `t` is rows `512·t … 512·t+511` of the query array. -/
theorem iblk10_0_eq (XQ : Mat L D) (h0 : V c main_v27_0 = ofM XQ) (t : Fin cfg10.N) :
    iblk10 V c 0 t = ofM (rows512 t.val (Nat.lt_of_lt_of_eq t.isLt N_10) XQ) := by
  obtain ⟨e0, e1, -⟩ := idx_facts10 t
  funext j
  show V c main_v27_0 (((cfg10.win 0).blk t).view.emb j) = ofM (rows512 t.val (Nat.lt_of_lt_of_eq t.isLt N_10) XQ) j
  refine (congrFun h0 _).trans ?_
  refine congrArg (fun x : ℝ => (x : EReal)) (entry_congr XQ ?_ ?_)
  · show win10_0.index t (0 : Fin 2) * 512 + 1 * (j 0).val = 512 * t.val + (j 0).val
    omega
  · show win10_0.index t (1 : Fin 2) * 256 + 1 * (j 1).val = (j 1).val
    omega

/-- Every other input window's block is its whole array, at every point. -/
theorem iblk10_1_eq (t : Fin cfg10.N) : iblk10 V c 1 t = V c main_v27_1 := by
  obtain ⟨-, -, e0, e1, -⟩ := idx_facts10 t
  funext j
  show V c main_v27_1 (((cfg10.win 1).blk t).view.emb j) = V c main_v27_1 j
  refine congrArg (V c main_v27_1) ?_
  funext a; apply Fin.ext
  match a with
  | ⟨0, _⟩ => show win10_1.index t (0 : Fin 2) * 2048 + 1 * (j 0).val = (j 0).val; omega
  | ⟨1, _⟩ => show win10_1.index t (1 : Fin 2) * 256 + 1 * (j 1).val = (j 1).val; omega
theorem iblk10_2_eq (t : Fin cfg10.N) : iblk10 V c 2 t = V c main_v27_2 := by
  obtain ⟨-, -, -, -, e0, e1, -⟩ := idx_facts10 t
  funext j
  show V c main_v27_2 (((cfg10.win 2).blk t).view.emb j) = V c main_v27_2 j
  refine congrArg (V c main_v27_2) ?_
  funext a; apply Fin.ext
  match a with
  | ⟨0, _⟩ => show win10_2.index t (0 : Fin 2) * 2048 + 1 * (j 0).val = (j 0).val; omega
  | ⟨1, _⟩ => show win10_2.index t (1 : Fin 2) * 256 + 1 * (j 1).val = (j 1).val; omega
theorem iblk10_3_eq (t : Fin cfg10.N) : iblk10 V c 3 t = V c main_v14 := by
  obtain ⟨-, -, -, -, -, -, e0, e1, -⟩ := idx_facts10 t
  funext j
  show V c main_v14 (((cfg10.win 3).blk t).view.emb j) = V c main_v14 j
  refine congrArg (V c main_v14) ?_
  funext a; apply Fin.ext
  match a with
  | ⟨0, _⟩ => show win10_3.index t (0 : Fin 2) * 256 + 1 * (j 0).val = (j 0).val; omega
  | ⟨1, _⟩ => show win10_3.index t (1 : Fin 2) * 256 + 1 * (j 1).val = (j 1).val; omega
theorem iblk10_4_eq (t : Fin cfg10.N) : iblk10 V c 4 t = V c main_v15 := by
  obtain ⟨-, -, -, -, -, -, -, -, e0, e1, -⟩ := idx_facts10 t
  funext j
  show V c main_v15 (((cfg10.win 4).blk t).view.emb j) = V c main_v15 j
  refine congrArg (V c main_v15) ?_
  funext a; apply Fin.ext
  match a with
  | ⟨0, _⟩ => show win10_4.index t (0 : Fin 2) * 256 + 1 * (j 0).val = (j 0).val; omega
  | ⟨1, _⟩ => show win10_4.index t (1 : Fin 2) * 256 + 1 * (j 1).val = (j 1).val; omega
theorem iblk10_5_eq (t : Fin cfg10.N) : iblk10 V c 5 t = V c main_arg14 := by
  obtain ⟨-, -, -, -, -, -, -, -, -, -, e0, e1, -⟩ := idx_facts10 t
  funext j
  show V c main_arg14 (((cfg10.win 5).blk t).view.emb j) = V c main_arg14 j
  refine congrArg (V c main_arg14) ?_
  funext a; apply Fin.ext
  match a with
  | ⟨0, _⟩ => show win10_5.index t (0 : Fin 2) * 1 + 1 * (j 0).val = (j 0).val; omega
  | ⟨1, _⟩ => show win10_5.index t (1 : Fin 2) * 256 + 1 * (j 1).val = (j 1).val; omega
theorem iblk10_6_eq (t : Fin cfg10.N) : iblk10 V c 6 t = V c main_arg15 := by
  obtain ⟨-, -, -, -, -, -, -, -, -, -, -, -, e0, e1, -⟩ := idx_facts10 t
  funext j
  show V c main_arg15 (((cfg10.win 6).blk t).view.emb j) = V c main_arg15 j
  refine congrArg (V c main_arg15) ?_
  funext a; apply Fin.ext
  match a with
  | ⟨0, _⟩ => show win10_6.index t (0 : Fin 2) * 1 + 1 * (j 0).val = (j 0).val; omega
  | ⟨1, _⟩ => show win10_6.index t (1 : Fin 2) * 256 + 1 * (j 1).val = (j 1).val; omega

/-! ## From the blocks to the array -/

/-- What point `t` writes back is tile `t` of the whole real matrix. -/
theorem flushed10_eq (XQ XK PV : Mat L D) (W1 W2 : Mat D D) (b1 b2 : Mat 1 D)
    (h0 : V c main_v27_0 = ofM XQ) (h1 : V c main_v27_1 = ofM XK) (h2 : V c main_v27_2 = ofM PV)
    (h3 : V c main_v14 = ofM W1) (h4 : V c main_v15 = ofM W2) (h5 : V c main_arg14 = ofM b1) (h6 : V c main_arg15 = ofM b2)
    (t : Fin cfg10.N) :
    (dat10 V c).flushed 7 t = ((cfg10.win 7).blk t).view.read (Elt Ideal) (ofM (ffn XQ XK PV W1 W2 b1 b2)) := by
  show (cfg10.win 7).cut (grid10.coords t) ((dat10 V c).after 7 t) = _
  rw [after10_7]
  unfold out10_7
  rw [View.canon_unit_zero hz10]
  simp only [View.ld_unit_zero (S := S512x256) hz10, View.ld_unit_zero (S := S2048x256) hz10,
    View.ld_unit_zero (S := S256x256) hz10, View.ld_unit_zero (S := S1x256) hz10]
  rw [iblk10_0_eq V c XQ h0, iblk10_1_eq, iblk10_2_eq, iblk10_3_eq, iblk10_4_eq, iblk10_5_eq, iblk10_6_eq, h1, h2, h3, h4, h5, h6, pay10]
  obtain ⟨-, -, -, -, -, -, -, -, -, -, -, -, -, -, e0, e1⟩ := idx_facts10 t
  funext j
  show ((ffn (rows512 t.val (Nat.lt_of_lt_of_eq t.isLt N_10) XQ) XK PV W1 W2 b1 b2 (j 0) (j 1) : ℝ) : EReal)
    = ((ffn XQ XK PV W1 W2 b1 b2 (((cfg10.win 7).blk t).view.emb j 0) (((cfg10.win 7).blk t).view.emb j 1) : ℝ) : EReal)
  refine congrArg (fun x : ℝ => (x : EReal)) ((ffn_rows512 t.val _ XQ XK PV W1 W2 b1 b2 (j 0) (j 1)).trans
    (entry_congr (ffn XQ XK PV W1 W2 b1 b2) ?_ ?_))
  · show 512 * t.val + (j 0).val = win10_7.index t (0 : Fin 2) * 512 + 1 * (j 0).val
    omega
  · show (j 1).val = win10_7.index t (1 : Fin 2) * 256 + 1 * (j 1).val
    omega

/-- An index of the output array is in point `t`'s block iff each coordinate is in the block's range on its axis. -/
theorem mem_blk10 (t : Fin cfg10.N) (i : S2048x256.Idx) :
    i ∈ ((cfg10.win 7).blk t).view.set ↔ ∀ a : Fin 2, win10_7.index t a * S512x256.size a ≤ (i a).val ∧ (i a).val < win10_7.index t a * S512x256.size a + S512x256.size a := by
  show i ∈ ((View.whole main_v28).slice (win10_7.rect t)).set ↔ _
  rw [View.set_slice_whole, Rect.mem_set_unit]
  exact Iff.rfl

/-- Every index of the output array is in the block of the point its row's tile names. -/
theorem cover10 (i : S2048x256.Idx) : ∃ t : Fin cfg10.N, (cfg10.win 7).flush t = true ∧ i ∈ ((cfg10.win 7).blk t).view.set := by
  have hi0 : (i 0).val < 2048 := (i 0).isLt
  have hi1 : (i 1).val < 256 := (i 1).isLt
  have hq : (i 0).val / 512 < 4 := by omega
  obtain ⟨-, -, -, -, -, -, -, -, -, -, -, -, -, -, e0, e1⟩ := idx_facts10 ⟨(i 0).val / 512, Nat.lt_of_lt_of_eq hq N_10.symm⟩
  refine ⟨⟨(i 0).val / 512, Nat.lt_of_lt_of_eq hq N_10.symm⟩, flush10_7 _, ?_⟩
  rw [mem_blk10]
  intro a
  match a with
  | ⟨0, _⟩ =>
    show win10_7.index ⟨(i 0).val / 512, Nat.lt_of_lt_of_eq hq N_10.symm⟩ (0 : Fin 2) * 512 ≤ (i 0).val
      ∧ (i 0).val < win10_7.index ⟨(i 0).val / 512, Nat.lt_of_lt_of_eq hq N_10.symm⟩ (0 : Fin 2) * 512 + 512
    rw [e0]
    show (i 0).val / 512 * 512 ≤ (i 0).val ∧ (i 0).val < (i 0).val / 512 * 512 + 512
    omega
  | ⟨1, _⟩ =>
    show win10_7.index ⟨(i 0).val / 512, Nat.lt_of_lt_of_eq hq N_10.symm⟩ (1 : Fin 2) * 256 ≤ (i 1).val
      ∧ (i 1).val < win10_7.index ⟨(i 0).val / 512, Nat.lt_of_lt_of_eq hq N_10.symm⟩ (1 : Fin 2) * 256 + 256
    omega

/-- The output array after the call, from real inputs. -/
theorem val10 (XQ XK PV : Mat L D) (W1 W2 : Mat D D) (b1 b2 : Mat 1 D)
    (h0 : V c main_v27_0 = ofM XQ) (h1 : V c main_v27_1 = ofM XK) (h2 : V c main_v27_2 = ofM PV)
    (h3 : V c main_v14 = ofM W1) (h4 : V c main_v15 = ofM W2) (h5 : V c main_arg14 = ofM b1) (h6 : V c main_arg15 = ofM b2) :
    (dat10 V c).arrAt 7 cfg10.N = ofM (fun i j => mm (relu (fun i j => mm (mm (smaxK (b := 2047) (sc (mm XQ (tr XK)))) PV) W1 i j + rowB b1 i j)) W2 i j + rowB b2 i j) :=
  (dat10 V c).arrAt_eq_of_cover 7 (ofM (ffn XQ XK PV W1 W2 b1 b2))
    (fun t _ => flushed10_eq V c XQ XK PV W1 W2 b1 b2 h0 h1 h2 h3 h4 h5 h6 t) cover10

end Cert.KernelIdeal.HandVal

end
-- ==== Proof.Val.Val11.lean ====
/- Region 11 of @main (the projection kernel, one grid point) at the ideal values: when the arrays it reads hold real
   matrices `X` (the activations), `Q`, `K`, `Vm` (the three weights) and the lower-triangular matrix of ones, its
   three output arrays hold after the region the real matrices `X·Q`, `X·K` and `Δ·(X·Vm)`. Each output window's one
   block is the whole array, written by one whole-buffer store of a payload that is a product of real matrices (the
   truncations and the shape casts are the identity on ideal values). -/
import proofs.«104406_j63058709840319_2_alg».proof.Proof.KI.Reg11
import proofs.«104406_j63058709840319_2_alg».proof.Proof.LibCoe.Basic
import proofs.«104406_j63058709840319_2_alg».proof.Proof.LibCoe.DotK
import Idealize.ShloMosaic.Lib.Pipeline.Value
import Idealize.ShloMosaic.Lib.ValueIdx

set_option maxRecDepth 16384

noncomputable section

namespace Cert.KernelIdeal.HandVal

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand
open Cert.LibCoe Cert.Spec

variable (V : (c : Dev nD) → (b : Ref sig .tc) → Buf (Elt Ideal) ((c : Thread nD τ).loc b))

/-! ## The payloads on real matrices -/

/-- A truncation is the identity on ideal values. -/
theorem truncf_id11 {s : Shape} {φ ψ : FTy} (x : FVec Ideal s φ) (h : ψ.bits < φ.bits) : truncf (F := Ideal) ψ x h = x := rfl

/-- The truncated activations: the shape cast and the truncation are the identity on ideal values. -/
theorem pay11_1_val (x0 : Vec Ideal S2048x256 .f32) (X : Mat 2048 256) (h0 : x0 = ofM X) : k11_pay1 x0 = ofM X := by
  subst h0
  unfold k11_pay1
  dsimp only
  rw [truncf_id11, shapeCast_self]

/-- The first stored payload: the activations times the first weight. -/
theorem pay11_2_val (x0 : Vec Ideal S2048x256 .f32) (x1 : Vec Ideal S256x256 .bf16) (X : Mat 2048 256) (W : Mat 256 256)
    (h0 : x0 = ofM X) (h1 : x1 = ofM W) : k11_pay2 x0 x1 = ofM (mm X W) := by
  have e1 := pay11_1_val x0 X h0
  subst h1
  unfold k11_pay2
  dsimp only
  rw [e1, shapeCast_self, truncf_id11]
  exact matmul_S2048x256_S256x256 (φ₁ := .bf16) (φ₂ := .bf16) X W

/-- The second stored payload: the activations times the second weight. -/
theorem pay11_3_val (x0 : Vec Ideal S2048x256 .f32) (x2 : Vec Ideal S256x256 .bf16) (X : Mat 2048 256) (W : Mat 256 256)
    (h0 : x0 = ofM X) (h2 : x2 = ofM W) : k11_pay3 x0 x2 = ofM (mm X W) := by
  have e1 := pay11_1_val x0 X h0
  subst h2
  unfold k11_pay3
  dsimp only
  rw [e1, shapeCast_self, truncf_id11]
  exact matmul_S2048x256_S256x256 (φ₁ := .bf16) (φ₂ := .bf16) X W

/-- The third stored payload: the triangle times (the activations times the third weight). -/
theorem pay11_4_val (x0 : Vec Ideal S2048x256 .f32) (x3 : Vec Ideal S256x256 .bf16) (x4 : Vec Ideal S2048x2048 .bf16)
    (X : Mat 2048 256) (W : Mat 256 256) (T : Mat 2048 2048)
    (h0 : x0 = ofM X) (h3 : x3 = ofM W) (h4 : x4 = ofM T) : k11_pay4 x0 x3 x4 = ofM (mm T (mm X W)) := by
  have e1 := pay11_1_val x0 X h0
  subst h3 h4
  unfold k11_pay4
  dsimp only
  rw [e1, shapeCast_self, shapeCast_self, truncf_id11, truncf_id11]
  refine Eq.trans ?_ (matmul_S2048x2048_S2048x256 (φ₁ := .bf16) (φ₂ := .bf16) T (mm X W))
  exact congrArg (fun z => matmul (F := Ideal) (φ₁ := .bf16) (φ₂ := .bf16) dot_S2048x2048_S2048x256_S2048x256_1_0_0_1_n_n none (ofM T) z
    (constant S2048x256 .f32 0x00000000#32)) (matmul_S2048x256_S256x256 (φ₁ := .bf16) (φ₂ := .bf16) X W)

/-! ## Each window's one block is its whole array -/

theorem hz11 : (![0, 0] : Fin 2 → Nat) = fun _ => 0 := funext fun a => by fin_cases a <;> rfl

/-- The printed index maps, decided over the grid's one point: every window's block index is zero on both axes. -/
theorem idx_facts11 : ∀ t : Fin cfg11.N,
    win11_0.index t (0 : Fin 2) = 0 ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = 0 ∧ win11_6.index t (1 : Fin 2) = 0
    ∧ win11_7.index t (0 : Fin 2) = 0 ∧ win11_7.index t (1 : Fin 2) = 0 :=
  (by decide +kernel : ∀ t : Fin grid11.N, _)

/-- Window 0's block is its whole array: the activations. -/
theorem blk11_0 (c : Dev nD) (t : Fin cfg11.N) (X : Mat 2048 256) (hX : V c main_v28 = ofM X) :
    (iblk11 V c 0 t : Vec Ideal S2048x256 .f32) = ofM X := by
  obtain ⟨e00, e01, -⟩ := idx_facts11 t
  funext j
  show V c main_v28 (((cfg11.win 0).blk t).view.emb j) = ofM X j
  rw [hX]
  refine congrArg (ofM X) ?_
  funext a; apply Fin.ext
  match a with
  | ⟨0, _⟩ => show win11_0.index t (0 : Fin 2) * 2048 + 1 * (j 0).val = (j 0).val; omega
  | ⟨1, _⟩ => show win11_0.index t (1 : Fin 2) * 256 + 1 * (j 1).val = (j 1).val; omega

/-- Window 1's block is its whole array: the first weight. -/
theorem blk11_1 (c : Dev nD) (t : Fin cfg11.N) (W : Mat 256 256) (hW : V c main_v11 = ofM W) :
    (iblk11 V c 1 t : Vec Ideal S256x256 .bf16) = ofM W := by
  obtain ⟨-, -, e10, e11, -⟩ := idx_facts11 t
  funext j
  show V c main_v11 (((cfg11.win 1).blk t).view.emb j) = ofM W j
  rw [hW]
  refine congrArg (ofM W) ?_
  funext a; apply Fin.ext
  match a with
  | ⟨0, _⟩ => show win11_1.index t (0 : Fin 2) * 256 + 1 * (j 0).val = (j 0).val; omega
  | ⟨1, _⟩ => show win11_1.index t (1 : Fin 2) * 256 + 1 * (j 1).val = (j 1).val; omega

/-- Window 2's block is its whole array: the second weight. -/
theorem blk11_2 (c : Dev nD) (t : Fin cfg11.N) (W : Mat 256 256) (hW : V c main_v12 = ofM W) :
    (iblk11 V c 2 t : Vec Ideal S256x256 .bf16) = ofM W := by
  obtain ⟨-, -, -, -, e20, e21, -⟩ := idx_facts11 t
  funext j
  show V c main_v12 (((cfg11.win 2).blk t).view.emb j) = ofM W j
  rw [hW]
  refine congrArg (ofM W) ?_
  funext a; apply Fin.ext
  match a with
  | ⟨0, _⟩ => show win11_2.index t (0 : Fin 2) * 256 + 1 * (j 0).val = (j 0).val; omega
  | ⟨1, _⟩ => show win11_2.index t (1 : Fin 2) * 256 + 1 * (j 1).val = (j 1).val; omega

/-- Window 3's block is its whole array: the third weight. -/
theorem blk11_3 (c : Dev nD) (t : Fin cfg11.N) (W : Mat 256 256) (hW : V c main_v13 = ofM W) :
    (iblk11 V c 3 t : Vec Ideal S256x256 .bf16) = ofM W := by
  obtain ⟨-, -, -, -, -, -, e30, e31, -⟩ := idx_facts11 t
  funext j
  show V c main_v13 (((cfg11.win 3).blk t).view.emb j) = ofM W j
  rw [hW]
  refine congrArg (ofM W) ?_
  funext a; apply Fin.ext
  match a with
  | ⟨0, _⟩ => show win11_3.index t (0 : Fin 2) * 256 + 1 * (j 0).val = (j 0).val; omega
  | ⟨1, _⟩ => show win11_3.index t (1 : Fin 2) * 256 + 1 * (j 1).val = (j 1).val; omega

/-- Window 4's block is its whole array: the triangle. -/
theorem blk11_4 (c : Dev nD) (t : Fin cfg11.N) (T : Mat 2048 2048) (hT : V c main_v18 = ofM T) :
    (iblk11 V c 4 t : Vec Ideal S2048x2048 .bf16) = ofM T := by
  obtain ⟨-, -, -, -, -, -, -, -, e40, e41, -⟩ := idx_facts11 t
  funext j
  show V c main_v18 (((cfg11.win 4).blk t).view.emb j) = ofM T j
  rw [hT]
  refine congrArg (ofM T) ?_
  funext a; apply Fin.ext
  match a with
  | ⟨0, _⟩ => show win11_4.index t (0 : Fin 2) * 2048 + 1 * (j 0).val = (j 0).val; omega
  | ⟨1, _⟩ => show win11_4.index t (1 : Fin 2) * 2048 + 1 * (j 1).val = (j 1).val; omega

/-! ## What the one point writes back -/

/-- A real matrix written back through an output window's block: the block is the whole array. -/
theorem read11_5 (t : Fin cfg11.N) (A : Mat 2048 256) :
    (cfg11.win 5).cut (grid11.coords t) (ofM A) = ((cfg11.win 5).blk t).view.read (Elt Ideal) (ofM A) := by
  obtain ⟨-, -, -, -, -, -, -, -, -, -, e0, e1, -⟩ := idx_facts11 t
  funext j
  show ofM A ((cfg11.win 5).xinj (grid11.coords t) j) = ofM A (((cfg11.win 5).blk t).view.emb j)
  refine congrArg (ofM A) ?_
  funext a; apply Fin.ext
  match a with
  | ⟨0, _⟩ => show (j 0).val = win11_5.index t (0 : Fin 2) * 2048 + 1 * (j 0).val; omega
  | ⟨1, _⟩ => show (j 1).val = win11_5.index t (1 : Fin 2) * 256 + 1 * (j 1).val; omega
theorem read11_6 (t : Fin cfg11.N) (A : Mat 2048 256) :
    (cfg11.win 6).cut (grid11.coords t) (ofM A) = ((cfg11.win 6).blk t).view.read (Elt Ideal) (ofM A) := by
  obtain ⟨-, -, -, -, -, -, -, -, -, -, -, -, e0, e1, -⟩ := idx_facts11 t
  funext j
  show ofM A ((cfg11.win 6).xinj (grid11.coords t) j) = ofM A (((cfg11.win 6).blk t).view.emb j)
  refine congrArg (ofM A) ?_
  funext a; apply Fin.ext
  match a with
  | ⟨0, _⟩ => show (j 0).val = win11_6.index t (0 : Fin 2) * 2048 + 1 * (j 0).val; omega
  | ⟨1, _⟩ => show (j 1).val = win11_6.index t (1 : Fin 2) * 256 + 1 * (j 1).val; omega
theorem read11_7 (t : Fin cfg11.N) (A : Mat 2048 256) :
    (cfg11.win 7).cut (grid11.coords t) (ofM A) = ((cfg11.win 7).blk t).view.read (Elt Ideal) (ofM A) := by
  obtain ⟨-, -, -, -, -, -, -, -, -, -, -, -, -, -, e0, e1⟩ := idx_facts11 t
  funext j
  show ofM A ((cfg11.win 7).xinj (grid11.coords t) j) = ofM A (((cfg11.win 7).blk t).view.emb j)
  refine congrArg (ofM A) ?_
  funext a; apply Fin.ext
  match a with
  | ⟨0, _⟩ => show (j 0).val = win11_7.index t (0 : Fin 2) * 2048 + 1 * (j 0).val; omega
  | ⟨1, _⟩ => show (j 1).val = win11_7.index t (1 : Fin 2) * 256 + 1 * (j 1).val; omega

/-- The body's result in window 5's buffer, written back, is the block of the product with the first weight. -/
theorem wb11_5 (c : Dev nD) (t : Fin cfg11.N) (X : Mat 2048 256) (W : Mat 256 256)
    (hX : V c main_v28 = ofM X) (hW : V c main_v11 = ofM W) :
    (cfg11.win 5).cut (grid11.coords t) (out11_5 (iblk11 V c 0 t) (iblk11 V c 1 t) (iblk11 V c 2 t) (iblk11 V c 3 t) (iblk11 V c 4 t))
      = ((cfg11.win 5).blk t).view.read (Elt Ideal) (ofM (mm X W)) := by
  unfold out11_5
  rw [View.canon_unit_zero hz11]
  simp only [View.ld_unit_zero (S := S2048x256) hz11, View.ld_unit_zero (S := S256x256) hz11]
  have hp : k11_pay2 (F := Ideal) (iblk11 V c 0 t) (iblk11 V c 1 t) = ofM (mm X W) :=
    pay11_2_val (iblk11 V c 0 t) (iblk11 V c 1 t) X W (blk11_0 V c t X hX) (blk11_1 V c t W hW)
  rw [hp]
  exact read11_5 t (mm X W)

/-- The body's result in window 6's buffer, written back, is the block of the product with the second weight. -/
theorem wb11_6 (c : Dev nD) (t : Fin cfg11.N) (X : Mat 2048 256) (W : Mat 256 256)
    (hX : V c main_v28 = ofM X) (hW : V c main_v12 = ofM W) :
    (cfg11.win 6).cut (grid11.coords t) (out11_6 (iblk11 V c 0 t) (iblk11 V c 1 t) (iblk11 V c 2 t) (iblk11 V c 3 t) (iblk11 V c 4 t))
      = ((cfg11.win 6).blk t).view.read (Elt Ideal) (ofM (mm X W)) := by
  unfold out11_6
  rw [View.canon_unit_zero hz11]
  simp only [View.ld_unit_zero (S := S2048x256) hz11, View.ld_unit_zero (S := S256x256) hz11]
  have hp : k11_pay3 (F := Ideal) (iblk11 V c 0 t) (iblk11 V c 2 t) = ofM (mm X W) :=
    pay11_3_val (iblk11 V c 0 t) (iblk11 V c 2 t) X W (blk11_0 V c t X hX) (blk11_2 V c t W hW)
  rw [hp]
  exact read11_6 t (mm X W)

/-- The body's result in window 7's buffer, written back, is the block of the triangle times the product with the
    third weight. -/
theorem wb11_7 (c : Dev nD) (t : Fin cfg11.N) (X : Mat 2048 256) (W : Mat 256 256) (T : Mat 2048 2048)
    (hX : V c main_v28 = ofM X) (hW : V c main_v13 = ofM W) (hT : V c main_v18 = ofM T) :
    (cfg11.win 7).cut (grid11.coords t) (out11_7 (iblk11 V c 0 t) (iblk11 V c 1 t) (iblk11 V c 2 t) (iblk11 V c 3 t) (iblk11 V c 4 t))
      = ((cfg11.win 7).blk t).view.read (Elt Ideal) (ofM (mm T (mm X W))) := by
  unfold out11_7
  rw [View.canon_unit_zero hz11]
  simp only [View.ld_unit_zero (S := S2048x256) hz11, View.ld_unit_zero (S := S256x256) hz11, View.ld_unit_zero (S := S2048x2048) hz11]
  have hp : k11_pay4 (F := Ideal) (iblk11 V c 0 t) (iblk11 V c 3 t) (iblk11 V c 4 t) = ofM (mm T (mm X W)) :=
    pay11_4_val (iblk11 V c 0 t) (iblk11 V c 3 t) (iblk11 V c 4 t) X W T (blk11_0 V c t X hX) (blk11_3 V c t W hW) (blk11_4 V c t T hT)
  rw [hp]
  exact read11_7 t (mm T (mm X W))

/-- What the point writes back through window 5 is the block of `X·Q`. -/
theorem flushed11_5 (c : Dev nD) (t : Fin cfg11.N) (X : Mat 2048 256) (W : Mat 256 256)
    (hX : V c main_v28 = ofM X) (hW : V c main_v11 = ofM W) :
    (dat11 V c).flushed 5 t = ((cfg11.win 5).blk t).view.read (Elt Ideal) (ofM (mm X W)) := by
  show (cfg11.win 5).cut (grid11.coords t) ((dat11 V c).after 5 t) = _
  rw [after11_5]
  exact wb11_5 V c t X W hX hW

/-- What the point writes back through window 6 is the block of `X·K`. -/
theorem flushed11_6 (c : Dev nD) (t : Fin cfg11.N) (X : Mat 2048 256) (W : Mat 256 256)
    (hX : V c main_v28 = ofM X) (hW : V c main_v12 = ofM W) :
    (dat11 V c).flushed 6 t = ((cfg11.win 6).blk t).view.read (Elt Ideal) (ofM (mm X W)) := by
  show (cfg11.win 6).cut (grid11.coords t) ((dat11 V c).after 6 t) = _
  rw [after11_6]
  exact wb11_6 V c t X W hX hW

/-- What the point writes back through window 7 is the block of `Δ·(X·Vm)`. -/
theorem flushed11_7 (c : Dev nD) (t : Fin cfg11.N) (X : Mat 2048 256) (W : Mat 256 256) (T : Mat 2048 2048)
    (hX : V c main_v28 = ofM X) (hW : V c main_v13 = ofM W) (hT : V c main_v18 = ofM T) :
    (dat11 V c).flushed 7 t = ((cfg11.win 7).blk t).view.read (Elt Ideal) (ofM (mm T (mm X W))) := by
  show (cfg11.win 7).cut (grid11.coords t) ((dat11 V c).after 7 t) = _
  rw [after11_7]
  exact wb11_7 V c t X W T hX hW hT

/-! ## The cover: the one point's block is the whole array -/

theorem mem_blk11_5 (t : Fin cfg11.N) (i : S2048x256.Idx) :
    i ∈ ((cfg11.win 5).blk t).view.set ↔ ∀ a : Fin 2, win11_5.index t a * S2048x256.size a ≤ (i a).val ∧ (i a).val < win11_5.index t a * S2048x256.size a + S2048x256.size a := by
  show i ∈ ((View.whole main_v29_0).slice (win11_5.rect t)).set ↔ _
  rw [View.set_slice_whole, Rect.mem_set_unit]
  exact Iff.rfl
theorem mem_blk11_6 (t : Fin cfg11.N) (i : S2048x256.Idx) :
    i ∈ ((cfg11.win 6).blk t).view.set ↔ ∀ a : Fin 2, win11_6.index t a * S2048x256.size a ≤ (i a).val ∧ (i a).val < win11_6.index t a * S2048x256.size a + S2048x256.size a := by
  show i ∈ ((View.whole main_v29_1).slice (win11_6.rect t)).set ↔ _
  rw [View.set_slice_whole, Rect.mem_set_unit]
  exact Iff.rfl
theorem mem_blk11_7 (t : Fin cfg11.N) (i : S2048x256.Idx) :
    i ∈ ((cfg11.win 7).blk t).view.set ↔ ∀ a : Fin 2, win11_7.index t a * S2048x256.size a ≤ (i a).val ∧ (i a).val < win11_7.index t a * S2048x256.size a + S2048x256.size a := by
  show i ∈ ((View.whole main_v29_2).slice (win11_7.rect t)).set ↔ _
  rw [View.set_slice_whole, Rect.mem_set_unit]
  exact Iff.rfl

/-- Every index of window 5's array is in the one point's block. -/
theorem covered11_5 (i : S2048x256.Idx) : ∃ t : Fin cfg11.N, (cfg11.win 5).flush t = true ∧ i ∈ ((cfg11.win 5).blk t).view.set := by
  obtain ⟨-, -, -, -, -, -, -, -, -, -, e0, e1, -⟩ := idx_facts11 t11_0
  refine ⟨t11_0, flush11_5 t11_0, ?_⟩
  rw [mem_blk11_5]
  intro a
  match a with
  | ⟨0, _⟩ => show win11_5.index t11_0 (0 : Fin 2) * 2048 ≤ (i 0).val ∧ (i 0).val < win11_5.index t11_0 (0 : Fin 2) * 2048 + 2048; have hi : (i 0).val < 2048 := (i 0).isLt; omega
  | ⟨1, _⟩ => show win11_5.index t11_0 (1 : Fin 2) * 256 ≤ (i 1).val ∧ (i 1).val < win11_5.index t11_0 (1 : Fin 2) * 256 + 256; have hi : (i 1).val < 256 := (i 1).isLt; omega
theorem covered11_6 (i : S2048x256.Idx) : ∃ t : Fin cfg11.N, (cfg11.win 6).flush t = true ∧ i ∈ ((cfg11.win 6).blk t).view.set := by
  obtain ⟨-, -, -, -, -, -, -, -, -, -, -, -, e0, e1, -⟩ := idx_facts11 t11_0
  refine ⟨t11_0, flush11_6 t11_0, ?_⟩
  rw [mem_blk11_6]
  intro a
  match a with
  | ⟨0, _⟩ => show win11_6.index t11_0 (0 : Fin 2) * 2048 ≤ (i 0).val ∧ (i 0).val < win11_6.index t11_0 (0 : Fin 2) * 2048 + 2048; have hi : (i 0).val < 2048 := (i 0).isLt; omega
  | ⟨1, _⟩ => show win11_6.index t11_0 (1 : Fin 2) * 256 ≤ (i 1).val ∧ (i 1).val < win11_6.index t11_0 (1 : Fin 2) * 256 + 256; have hi : (i 1).val < 256 := (i 1).isLt; omega
theorem covered11_7 (i : S2048x256.Idx) : ∃ t : Fin cfg11.N, (cfg11.win 7).flush t = true ∧ i ∈ ((cfg11.win 7).blk t).view.set := by
  obtain ⟨-, -, -, -, -, -, -, -, -, -, -, -, -, -, e0, e1⟩ := idx_facts11 t11_0
  refine ⟨t11_0, flush11_7 t11_0, ?_⟩
  rw [mem_blk11_7]
  intro a
  match a with
  | ⟨0, _⟩ => show win11_7.index t11_0 (0 : Fin 2) * 2048 ≤ (i 0).val ∧ (i 0).val < win11_7.index t11_0 (0 : Fin 2) * 2048 + 2048; have hi : (i 0).val < 2048 := (i 0).isLt; omega
  | ⟨1, _⟩ => show win11_7.index t11_0 (1 : Fin 2) * 256 ≤ (i 1).val ∧ (i 1).val < win11_7.index t11_0 (1 : Fin 2) * 256 + 256; have hi : (i 1).val < 256 := (i 1).isLt; omega

/-! ## The arrays after the region -/

/-- The three output arrays of region 11 after the region, as real matrices of its input arrays. -/
theorem val11 (c : Dev nD) (X : Mat L D) (Q K Vm : Mat D D)
    (hX : V c main_v28 = ofM X) (hQ : V c main_v11 = ofM Q) (hK : V c main_v12 = ofM K) (hV : V c main_v13 = ofM Vm)
    (hΔ : V c main_v18 = ofM (Cert.Spec.tril L)) :
    (dat11 V c).arrAt 5 cfg11.N = ofM (mm X Q) ∧ (dat11 V c).arrAt 6 cfg11.N = ofM (mm X K)
      ∧ (dat11 V c).arrAt 7 cfg11.N = ofM (mm (tril L) (mm X Vm)) :=
  ⟨(dat11 V c).arrAt_eq_of_cover 5 (ofM (mm X Q)) (fun t _ => flushed11_5 V c t X Q hX hQ) covered11_5,
   (dat11 V c).arrAt_eq_of_cover 6 (ofM (mm X K)) (fun t _ => flushed11_6 V c t X K hX hK) covered11_6,
   (dat11 V c).arrAt_eq_of_cover 7 (ofM (mm (tril L) (mm X Vm))) (fun t _ => flushed11_7 V c t X Vm (tril L) hX hV hΔ) covered11_7⟩

end Cert.KernelIdeal.HandVal

end
-- ==== Proof.Val.Val12.lean ====
import proofs.«104406_j63058709840319_2_alg».proof.Proof.KI.Reg12
import proofs.«104406_j63058709840319_2_alg».proof.Proof.LibCoe.Basic
import proofs.«104406_j63058709840319_2_alg».proof.Proof.LibCoe.Reduce
import proofs.«104406_j63058709840319_2_alg».proof.Proof.LibCoe.DotK
import proofs.«104406_j63058709840319_2_alg».proof.Proof.Val.Ffn
import Idealize.ShloMosaic.Lib.Pipeline.Value
import Idealize.ShloMosaic.Lib.ValueIdx

/-! The attention-and-feed-forward call over four row tiles of 512, read as real matrices: when the seven input
    arrays hold real matrices, the output array after the call holds the real matrix
    `relu(softmax(XQ·XKᵀ/16)·PV·W₁ + b₁)·W₂ + b₂`. Every row of that matrix depends on the same row of `XQ` only, so
    what the body leaves at tile `t` (the same expression of rows `512·t … 512·t+511` of `XQ`) is tile `t` of the
    whole matrix, and the four tiles cover the array. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.LibCoe Cert.Spec

/-! ## The body's payload on real blocks -/

/-- The three matrix products of the body on real matrices, at the body's shapes. -/
theorem mmT12 {φ₁ φ₂ : FTy} (A : Mat 512 256) (B : Mat 2048 256) :
    matmul (F := Ideal) (φ₁ := φ₁) (φ₂ := φ₂) dot_S512x256_S2048x256_S512x2048_1_1_0_0_n_n none (ofM A) (ofM B) (constant S512x2048 .f32 0x00000000#32)
      = ofM (mm A (tr B)) := matmul_S512x256_S2048x256 A B
theorem mmA12 {φ₁ φ₂ : FTy} (A : Mat 512 2048) (B : Mat 2048 256) :
    matmul (F := Ideal) (φ₁ := φ₁) (φ₂ := φ₂) dot_S512x2048_S2048x256_S512x256_1_0_0_1_n_n none (ofM A) (ofM B) (constant S512x256 .f32 0x00000000#32)
      = ofM (mm A B) := matmul_S512x2048_S2048x256 A B
theorem mmW12 {φ₁ φ₂ : FTy} (A : Mat 512 256) (B : Mat 256 256) :
    matmul (F := Ideal) (φ₁ := φ₁) (φ₂ := φ₂) dot_S512x256_S256x256_S512x256_1_0_0_1_n_n none (ofM A) (ofM B) (constant S512x256 .f32 0x00000000#32)
      = ofM (mm A B) := matmul_S512x256_S256x256 A B

/-- The row softmax of the body, kernel arrangement, at the body's shapes and with the side conditions spelled as
    the body spells them. -/
theorem kSoftmax12 (A : Mat 512 2048) (h : S512x2048.Reduces [1] S512)
    (hφ : FKind.Formats .f32) (hmax : (0xFF800000#32 : BitVec (FTy.bits .f32)) = FKind.maximumf.neutral .f32 hφ)
    (hadd : (0x00000000#32 : BitVec (FTy.bits .f32)) = FKind.add.neutral .f32 hφ)
    (hsc : S512.ShapeCasts S512x1) (hb : S512x1.Broadcasts S512x2048) :
    mulf
      (exp (subf (ofM A : FVec Ideal S512x2048 .f32)
        (broadcastTo S512x2048 (shapeCast S512x1
          (multiReduction (F := Ideal) .maximumf [1] S512 (ofM A : FVec Ideal S512x2048 .f32) 0xFF800000#32 h hφ hmax) hsc) hb)))
      (broadcastTo S512x2048
        (divf (broadcast S512x1 (Scalar.ofBits (F := Ideal) .f32 0x3F800000#32))
          (shapeCast S512x1
            (multiReduction (F := Ideal) .add [1] S512
              (exp (subf (ofM A : FVec Ideal S512x2048 .f32)
                (broadcastTo S512x2048 (shapeCast S512x1
                  (multiReduction (F := Ideal) .maximumf [1] S512 (ofM A : FVec Ideal S512x2048 .f32) 0xFF800000#32 h hφ hmax) hsc) hb)))
              0x00000000#32 h hφ hadd) hsc)) hb)
      = ofM (a := 512) (b := 2048) (smaxK (b := 2047) A) :=
  kSoftmax (n := 512) A h hφ hmax hadd hsc hb

/-- The body's stored value on real blocks is the real expression of them. -/
theorem pay12 (X : Mat 512 D) (XK PV : Mat L D) (W1 W2 : Mat D D) (b1 b2 : Mat 1 D) :
    k12_pay1 (F := Ideal) (k12_pay2 (ofM X) (ofM XK) (ofM PV) (ofM W1) (ofM b1) (ofM W2)) (ofM b2)
      = ofM (ffn X XK PV W1 W2 b1 b2) := by
  unfold k12_pay1 k12_pay2
  dsimp only
  simp only [shapeCast_ofM, broadcastTo_row_ofM]
  rw [mmT12, mulf_broadcast_sixteenth_ofM]
  erw [kSoftmax12]
  rw [truncf_ofM, mmA12, truncf_ofM, mmW12, addf_ofM, maximumf_broadcast_zero_ofM, truncf_ofM, mmW12, addf_ofM]
  rfl

/-! ## The input blocks -/

theorem hz12 : (![0, 0] : Fin 2 → Nat) = fun _ => 0 := funext fun a => by fin_cases a <;> rfl

/-- The printed index maps, decided over the four points: the query window and the output window are at row tile
    `t`, every other window at its whole array. -/
theorem idx_facts12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0
    ∧ win12_6.index t (0 : Fin 2) = 0 ∧ win12_6.index t (1 : Fin 2) = 0
    ∧ win12_7.index t (0 : Fin 2) = t.val ∧ win12_7.index t (1 : Fin 2) = 0 :=
  (by decide +kernel : ∀ t : Fin grid12.N, _)

variable (V : (c : Dev nD) → (b : Ref sig .tc) → Buf (Elt Ideal) ((c : Thread nD τ).loc b)) (c : Dev nD)

/-- The query window's block at point `t` is rows `512·t … 512·t+511` of the query array. -/
theorem iblk12_0_eq (XQ : Mat L D) (h0 : V c main_v29_0 = ofM XQ) (t : Fin cfg12.N) :
    iblk12 V c 0 t = ofM (rows512 t.val (Nat.lt_of_lt_of_eq t.isLt N_12) XQ) := by
  obtain ⟨e0, e1, -⟩ := idx_facts12 t
  funext j
  show V c main_v29_0 (((cfg12.win 0).blk t).view.emb j) = ofM (rows512 t.val (Nat.lt_of_lt_of_eq t.isLt N_12) XQ) j
  refine (congrFun h0 _).trans ?_
  refine congrArg (fun x : ℝ => (x : EReal)) (entry_congr XQ ?_ ?_)
  · show win12_0.index t (0 : Fin 2) * 512 + 1 * (j 0).val = 512 * t.val + (j 0).val
    omega
  · show win12_0.index t (1 : Fin 2) * 256 + 1 * (j 1).val = (j 1).val
    omega

/-- Every other input window's block is its whole array, at every point. -/
theorem iblk12_1_eq (t : Fin cfg12.N) : iblk12 V c 1 t = V c main_v29_1 := by
  obtain ⟨-, -, e0, e1, -⟩ := idx_facts12 t
  funext j
  show V c main_v29_1 (((cfg12.win 1).blk t).view.emb j) = V c main_v29_1 j
  refine congrArg (V c main_v29_1) ?_
  funext a; apply Fin.ext
  match a with
  | ⟨0, _⟩ => show win12_1.index t (0 : Fin 2) * 2048 + 1 * (j 0).val = (j 0).val; omega
  | ⟨1, _⟩ => show win12_1.index t (1 : Fin 2) * 256 + 1 * (j 1).val = (j 1).val; omega
theorem iblk12_2_eq (t : Fin cfg12.N) : iblk12 V c 2 t = V c main_v29_2 := by
  obtain ⟨-, -, -, -, e0, e1, -⟩ := idx_facts12 t
  funext j
  show V c main_v29_2 (((cfg12.win 2).blk t).view.emb j) = V c main_v29_2 j
  refine congrArg (V c main_v29_2) ?_
  funext a; apply Fin.ext
  match a with
  | ⟨0, _⟩ => show win12_2.index t (0 : Fin 2) * 2048 + 1 * (j 0).val = (j 0).val; omega
  | ⟨1, _⟩ => show win12_2.index t (1 : Fin 2) * 256 + 1 * (j 1).val = (j 1).val; omega
theorem iblk12_3_eq (t : Fin cfg12.N) : iblk12 V c 3 t = V c main_v14 := by
  obtain ⟨-, -, -, -, -, -, e0, e1, -⟩ := idx_facts12 t
  funext j
  show V c main_v14 (((cfg12.win 3).blk t).view.emb j) = V c main_v14 j
  refine congrArg (V c main_v14) ?_
  funext a; apply Fin.ext
  match a with
  | ⟨0, _⟩ => show win12_3.index t (0 : Fin 2) * 256 + 1 * (j 0).val = (j 0).val; omega
  | ⟨1, _⟩ => show win12_3.index t (1 : Fin 2) * 256 + 1 * (j 1).val = (j 1).val; omega
theorem iblk12_4_eq (t : Fin cfg12.N) : iblk12 V c 4 t = V c main_v15 := by
  obtain ⟨-, -, -, -, -, -, -, -, e0, e1, -⟩ := idx_facts12 t
  funext j
  show V c main_v15 (((cfg12.win 4).blk t).view.emb j) = V c main_v15 j
  refine congrArg (V c main_v15) ?_
  funext a; apply Fin.ext
  match a with
  | ⟨0, _⟩ => show win12_4.index t (0 : Fin 2) * 256 + 1 * (j 0).val = (j 0).val; omega
  | ⟨1, _⟩ => show win12_4.index t (1 : Fin 2) * 256 + 1 * (j 1).val = (j 1).val; omega
theorem iblk12_5_eq (t : Fin cfg12.N) : iblk12 V c 5 t = V c main_arg14 := by
  obtain ⟨-, -, -, -, -, -, -, -, -, -, e0, e1, -⟩ := idx_facts12 t
  funext j
  show V c main_arg14 (((cfg12.win 5).blk t).view.emb j) = V c main_arg14 j
  refine congrArg (V c main_arg14) ?_
  funext a; apply Fin.ext
  match a with
  | ⟨0, _⟩ => show win12_5.index t (0 : Fin 2) * 1 + 1 * (j 0).val = (j 0).val; omega
  | ⟨1, _⟩ => show win12_5.index t (1 : Fin 2) * 256 + 1 * (j 1).val = (j 1).val; omega
theorem iblk12_6_eq (t : Fin cfg12.N) : iblk12 V c 6 t = V c main_arg15 := by
  obtain ⟨-, -, -, -, -, -, -, -, -, -, -, -, e0, e1, -⟩ := idx_facts12 t
  funext j
  show V c main_arg15 (((cfg12.win 6).blk t).view.emb j) = V c main_arg15 j
  refine congrArg (V c main_arg15) ?_
  funext a; apply Fin.ext
  match a with
  | ⟨0, _⟩ => show win12_6.index t (0 : Fin 2) * 1 + 1 * (j 0).val = (j 0).val; omega
  | ⟨1, _⟩ => show win12_6.index t (1 : Fin 2) * 256 + 1 * (j 1).val = (j 1).val; omega

/-! ## From the blocks to the array -/

/-- What point `t` writes back is tile `t` of the whole real matrix. -/
theorem flushed12_eq (XQ XK PV : Mat L D) (W1 W2 : Mat D D) (b1 b2 : Mat 1 D)
    (h0 : V c main_v29_0 = ofM XQ) (h1 : V c main_v29_1 = ofM XK) (h2 : V c main_v29_2 = ofM PV)
    (h3 : V c main_v14 = ofM W1) (h4 : V c main_v15 = ofM W2) (h5 : V c main_arg14 = ofM b1) (h6 : V c main_arg15 = ofM b2)
    (t : Fin cfg12.N) :
    (dat12 V c).flushed 7 t = ((cfg12.win 7).blk t).view.read (Elt Ideal) (ofM (ffn XQ XK PV W1 W2 b1 b2)) := by
  show (cfg12.win 7).cut (grid12.coords t) ((dat12 V c).after 7 t) = _
  rw [after12_7]
  unfold out12_7
  rw [View.canon_unit_zero hz12]
  simp only [View.ld_unit_zero (S := S512x256) hz12, View.ld_unit_zero (S := S2048x256) hz12,
    View.ld_unit_zero (S := S256x256) hz12, View.ld_unit_zero (S := S1x256) hz12]
  rw [iblk12_0_eq V c XQ h0, iblk12_1_eq, iblk12_2_eq, iblk12_3_eq, iblk12_4_eq, iblk12_5_eq, iblk12_6_eq, h1, h2, h3, h4, h5, h6, pay12]
  obtain ⟨-, -, -, -, -, -, -, -, -, -, -, -, -, -, e0, e1⟩ := idx_facts12 t
  funext j
  show ((ffn (rows512 t.val (Nat.lt_of_lt_of_eq t.isLt N_12) XQ) XK PV W1 W2 b1 b2 (j 0) (j 1) : ℝ) : EReal)
    = ((ffn XQ XK PV W1 W2 b1 b2 (((cfg12.win 7).blk t).view.emb j 0) (((cfg12.win 7).blk t).view.emb j 1) : ℝ) : EReal)
  refine congrArg (fun x : ℝ => (x : EReal)) ((ffn_rows512 t.val _ XQ XK PV W1 W2 b1 b2 (j 0) (j 1)).trans
    (entry_congr (ffn XQ XK PV W1 W2 b1 b2) ?_ ?_))
  · show 512 * t.val + (j 0).val = win12_7.index t (0 : Fin 2) * 512 + 1 * (j 0).val
    omega
  · show (j 1).val = win12_7.index t (1 : Fin 2) * 256 + 1 * (j 1).val
    omega

/-- An index of the output array is in point `t`'s block iff each coordinate is in the block's range on its axis. -/
theorem mem_blk12 (t : Fin cfg12.N) (i : S2048x256.Idx) :
    i ∈ ((cfg12.win 7).blk t).view.set ↔ ∀ a : Fin 2, win12_7.index t a * S512x256.size a ≤ (i a).val ∧ (i a).val < win12_7.index t a * S512x256.size a + S512x256.size a := by
  show i ∈ ((View.whole main_v30).slice (win12_7.rect t)).set ↔ _
  rw [View.set_slice_whole, Rect.mem_set_unit]
  exact Iff.rfl

/-- Every index of the output array is in the block of the point its row's tile names. -/
theorem cover12 (i : S2048x256.Idx) : ∃ t : Fin cfg12.N, (cfg12.win 7).flush t = true ∧ i ∈ ((cfg12.win 7).blk t).view.set := by
  have hi0 : (i 0).val < 2048 := (i 0).isLt
  have hi1 : (i 1).val < 256 := (i 1).isLt
  have hq : (i 0).val / 512 < 4 := by omega
  obtain ⟨-, -, -, -, -, -, -, -, -, -, -, -, -, -, e0, e1⟩ := idx_facts12 ⟨(i 0).val / 512, Nat.lt_of_lt_of_eq hq N_12.symm⟩
  refine ⟨⟨(i 0).val / 512, Nat.lt_of_lt_of_eq hq N_12.symm⟩, flush12_7 _, ?_⟩
  rw [mem_blk12]
  intro a
  match a with
  | ⟨0, _⟩ =>
    show win12_7.index ⟨(i 0).val / 512, Nat.lt_of_lt_of_eq hq N_12.symm⟩ (0 : Fin 2) * 512 ≤ (i 0).val
      ∧ (i 0).val < win12_7.index ⟨(i 0).val / 512, Nat.lt_of_lt_of_eq hq N_12.symm⟩ (0 : Fin 2) * 512 + 512
    rw [e0]
    show (i 0).val / 512 * 512 ≤ (i 0).val ∧ (i 0).val < (i 0).val / 512 * 512 + 512
    omega
  | ⟨1, _⟩ =>
    show win12_7.index ⟨(i 0).val / 512, Nat.lt_of_lt_of_eq hq N_12.symm⟩ (1 : Fin 2) * 256 ≤ (i 1).val
      ∧ (i 1).val < win12_7.index ⟨(i 0).val / 512, Nat.lt_of_lt_of_eq hq N_12.symm⟩ (1 : Fin 2) * 256 + 256
    omega

/-- The output array after the call, from real inputs. -/
theorem val12 (XQ XK PV : Mat L D) (W1 W2 : Mat D D) (b1 b2 : Mat 1 D)
    (h0 : V c main_v29_0 = ofM XQ) (h1 : V c main_v29_1 = ofM XK) (h2 : V c main_v29_2 = ofM PV)
    (h3 : V c main_v14 = ofM W1) (h4 : V c main_v15 = ofM W2) (h5 : V c main_arg14 = ofM b1) (h6 : V c main_arg15 = ofM b2) :
    (dat12 V c).arrAt 7 cfg12.N = ofM (fun i j => mm (relu (fun i j => mm (mm (smaxK (b := 2047) (sc (mm XQ (tr XK)))) PV) W1 i j + rowB b1 i j)) W2 i j + rowB b2 i j) :=
  (dat12 V c).arrAt_eq_of_cover 7 (ofM (ffn XQ XK PV W1 W2 b1 b2))
    (fun t _ => flushed12_eq V c XQ XK PV W1 W2 b1 b2 h0 h1 h2 h3 h4 h5 h6 t) cover12

end Cert.KernelIdeal.HandVal

end
-- ==== Proof.Val.Val13.lean ====
/- Region 13 (the gate and the result column) at the ideal values. From real input arrays, the output array after
   the region holds, in column 0 of row i, the real number `Spec.outK … i 0`.

   Two halves. The payload: every operation of the body maps real arrays to a real array, so on real inputs the stored
   value is the real array of the gated mixture `X∘g + y∘(1-g)` times the padded candidate column, whose column 0 is
   the candidate row. The array: the region has one grid point and every window's block is its whole array, so what
   the point writes back is the payload of the input arrays and it covers the output array. -/
import proofs.«104406_j63058709840319_2_alg».proof.Proof.KI.Reg13
import proofs.«104406_j63058709840319_2_alg».proof.Proof.LibCoe.Basic
import proofs.«104406_j63058709840319_2_alg».proof.Proof.LibCoe.DotK
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open Cert.Spec Cert.LibCoe
open scoped BigOperators

/-! ## The three products of the region on real matrices -/

theorem mm13_row_col (A : Mat 1 256) (B : Mat 256 1) :
    matmul (F := Ideal) (φ₁ := .bf16) (φ₂ := .bf16) dot_S1x256_S256x1_S1x1_1_0_0_1_n_n none (ofM A) (ofM B) (constant S1x1 .f32 0x00000000#32)
      = ofM (mm A B) := matmul_S1x256_S256x1 A B

theorem mm13_mat_col (A : Mat 2048 256) (B : Mat 256 1) :
    matmul (F := Ideal) (φ₁ := .bf16) (φ₂ := .bf16) dot_S2048x256_S256x1_S2048x1_1_0_0_1_n_n none (ofM A) (ofM B) (constant S2048x1 .f32 0x00000000#32)
      = ofM (mm A B) := matmul_S2048x256_S256x1 A B

theorem mm13_mat_pad (A : Mat 2048 256) (B : Mat 256 128) :
    matmul (F := Ideal) (φ₁ := .bf16) (φ₂ := .bf16) dot_S2048x256_S256x128_S2048x128_1_0_0_1_n_n none (ofM A) (ofM B) (constant S2048x128 .f32 0x00000000#32)
      = ofM (mm A B) := matmul_S2048x256_S256x128 A B

/-- The gated mixture of the specification: row i of X weighted by the gate g i and the row y by 1 - g i, with the
    gate's logit split over the three row blocks of its weights. -/
def mix13 (X E : Mat L D) (y mrow : Mat 1 D) (Wg : Mat (3 * D) 1) (bg : Mat 1 1) : Mat L D :=
  let Wg1 : Mat D 1 := fun k _ => Wg ⟨k.val, by have := k.isLt; omega⟩ 0
  let Wg2 : Mat D 1 := fun k _ => Wg ⟨k.val + D, by have := k.isLt; omega⟩ 0
  let Wg3 : Mat D 1 := fun k _ => Wg ⟨k.val + 2 * D, by have := k.isLt; omega⟩ 0
  let off : ℝ := (mm mrow Wg1 0 0 + mm y Wg2 0 0) + bg 0 0
  let g : Mat L 1 := fun i _ => sigm (mm E Wg3 i 0 + off)
  fun i j => X i j * colB g i j + rowB y i j * colB (fun i k => 1 - g i k) i j

/-- The specification's result is the mixture times the candidate column. -/
theorem outK_eq_mix13 (X E : Mat L D) (y mrow : Mat 1 D) (Wg : Mat (3 * D) 1) (bg : Mat 1 1) :
    outK X E y mrow Wg bg = mm (mix13 X E y mrow Wg bg) (tr mrow) := rfl

/-- The three row blocks of the gate's weights, as the slices read them, are the specification's. -/
theorem wg13_block0 (Wg : Mat 768 1) :
    (Matrix.of fun (i : Fin 256) (j : Fin 1) => if hi : 0 + i.val < 768 then Wg ⟨0 + i.val, hi⟩ j else 0)
      = (Matrix.of fun (k : Fin 256) (_ : Fin 1) => Wg ⟨k.val, by have := k.isLt; omega⟩ 0 : Mat 256 1) := by
  funext i j
  have hi : 0 + i.val < 768 := by have := i.isLt; omega
  rw [Matrix.of_apply, Matrix.of_apply, dif_pos hi, Subsingleton.elim j 0]
  exact congrArg (fun r => Wg r 0) (Fin.ext (Nat.zero_add _))
theorem wg13_block1 (Wg : Mat 768 1) :
    (Matrix.of fun (i : Fin 256) (j : Fin 1) => if hi : 256 + i.val < 768 then Wg ⟨256 + i.val, hi⟩ j else 0)
      = (Matrix.of fun (k : Fin 256) (_ : Fin 1) => Wg ⟨k.val + 256, by have := k.isLt; omega⟩ 0 : Mat 256 1) := by
  funext i j
  have hi : 256 + i.val < 768 := by have := i.isLt; omega
  rw [Matrix.of_apply, Matrix.of_apply, dif_pos hi, Subsingleton.elim j 0]
  exact congrArg (fun r => Wg r 0) (Fin.ext (Nat.add_comm _ _))
theorem wg13_block2 (Wg : Mat 768 1) :
    (Matrix.of fun (i : Fin 256) (j : Fin 1) => if hi : 512 + i.val < 768 then Wg ⟨512 + i.val, hi⟩ j else 0)
      = (Matrix.of fun (k : Fin 256) (_ : Fin 1) => Wg ⟨k.val + 512, by have := k.isLt; omega⟩ 0 : Mat 256 1) := by
  funext i j
  have hi : 512 + i.val < 768 := by have := i.isLt; omega
  rw [Matrix.of_apply, Matrix.of_apply, dif_pos hi, Subsingleton.elim j 0]
  exact congrArg (fun r => Wg r 0) (Fin.ext (Nat.add_comm _ _))

/-- The payload on real arrays is the real array of the mixture times the padded candidate column: operation by
    operation, each maps real arrays to a real array. -/
theorem pay13_ofM (X E : Mat 2048 256) (y mrow : Mat 1 256) (Wg : Mat 768 1) (bg : Mat 1 1) (MT : Mat 256 128) :
    k13_pay1 (F := Ideal) (ofM X) (ofM y) (ofM E) (ofM mrow) (ofM Wg) (ofM bg) (ofM MT)
      = ofM (mm (mix13 X E y mrow Wg bg) MT) := by
  unfold k13_pay1
  dsimp only
  rw [shapeCast_ofM X, shapeCast_ofM y, shapeCast_ofM E, shapeCast_ofM mrow, shapeCast_ofM Wg, shapeCast_ofM MT]
  rw [extractStridedSlice_rows_ofM 0 Wg, extractStridedSlice_rows_ofM 256 Wg, extractStridedSlice_rows_ofM 512 Wg]
  rw [wg13_block0, wg13_block1, wg13_block2]
  rw [mm13_row_col, mm13_row_col, mm13_mat_col]
  rw [addf_ofM, addf_ofM]
  rw [broadcastTo_row_ofM, addf_ofM, logistic_ofM]
  rw [extf_ofM, shapeCast_ofM y, broadcastTo_row_ofM, broadcastTo_col_ofM, mulf_ofM]
  rw [broadcast_one_ofM, subf_ofM, broadcastTo_col_ofM, mulf_ofM, addf_ofM, truncf_ofM]
  rw [mm13_mat_pad]
  refine congrArg (fun Z : Mat 2048 256 => ofM (mm Z MT)) ?_
  funext i k
  rfl

/-- The payload on real arrays, at column 0 of row i: the specification's result there, the padded column's first
    column being the candidate row. -/
theorem pay13_apply (X E : Mat 2048 256) (y mrow : Mat 1 256) (Wg : Mat 768 1) (bg : Mat 1 1) (MT : Mat 256 128)
    (hMT : ∀ k, MT k 0 = mrow 0 k) (i : Fin 2048) :
    k13_pay1 (F := Ideal) (ofM X) (ofM y) (ofM E) (ofM mrow) (ofM Wg) (ofM bg) (ofM MT) (ix2 i (0 : Fin 128))
      = ((outK X E y mrow Wg bg i 0 : ℝ) : EReal) := by
  rw [pay13_ofM, ofM_ix2, outK_eq_mix13]
  refine congrArg Real.toEReal ?_
  show ∑ k, mix13 X E y mrow Wg bg i k * MT k 0 = ∑ k, mix13 X E y mrow Wg bg i k * mrow 0 k
  exact Finset.sum_congr rfl fun k _ => by rw [hMT]

/-! ## From the one point's block to the output array -/

section Blocks
variable {F : FTy → Type} [FloatOps F]
variable (V : (c : Dev nD) → (b : Ref sig .tc) → Buf (Elt F) ((c : Thread nD τ).loc b))

theorem hz13 : (![0, 0] : Fin 2 → Nat) = fun _ => 0 := funext fun a => by fin_cases a <;> rfl

/-- The one store takes the whole buffer and every load reads a whole buffer: the output's buffer ends holding the
    payload of the inputs' buffers. -/
theorem out13_7_eq (x0 : Vec F S2048x256 .f32) (x1 : Vec F S1x256 .bf16) (x2 : Vec F S2048x256 .bf16) (x3 : Vec F S1x256 .bf16) (x4 : Vec F S768x1 .bf16) (x5 : Vec F S1x1 .f32) (x6 : Vec F S256x128 .bf16) :
    out13_7 x0 x1 x2 x3 x4 x5 x6 = k13_pay1 x0 x1 x2 x3 x4 x5 x6 := by
  unfold out13_7
  rw [View.canon_unit_zero hz13]
  simp only [View.ld_unit_zero (S := S2048x256) hz13, View.ld_unit_zero (S := S1x256) hz13, View.ld_unit_zero (S := S768x1) hz13,
    View.ld_unit_zero (S := S1x1) hz13, View.ld_unit_zero (S := S256x128) hz13]

/-- At the one grid point every window's block index is zero on both axes: each block is its whole array. -/
theorem idx13 : ∀ t : Fin cfg13.N,
    win13_0.index t (0 : Fin 2) = 0 ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = 0 ∧ win13_6.index t (1 : Fin 2) = 0
    ∧ win13_7.index t (0 : Fin 2) = 0 ∧ win13_7.index t (1 : Fin 2) = 0 :=
  (by decide +kernel : ∀ t : Fin grid13.N, _)

/-- Input window 0's block is its array. -/
theorem iblk13_0_eq (c : Dev nD) (t : Fin cfg13.N) : (iblk13 V c 0 t : Vec F S2048x256 .f32) = V c main_v30 := by
  obtain ⟨e00, e01, -⟩ := idx13 t
  funext j
  show V c main_v30 (((cfg13.win 0).blk t).view.emb j) = V c main_v30 j
  refine congrArg (V c main_v30) ?_
  funext a; apply Fin.ext
  match a with
  | ⟨0, _⟩ => show win13_0.index t (0 : Fin 2) * 2048 + 1 * (j 0).val = (j 0).val; omega
  | ⟨1, _⟩ => show win13_0.index t (1 : Fin 2) * 256 + 1 * (j 1).val = (j 1).val; omega

/-- Input window 1's block is its array. -/
theorem iblk13_1_eq (c : Dev nD) (t : Fin cfg13.N) : (iblk13 V c 1 t : Vec F S1x256 .bf16) = V c main_v16 := by
  obtain ⟨-, -, e0, e1, -, -, -, -, -, -, -, -, -, -, -, -⟩ := idx13 t
  funext j
  show V c main_v16 (((cfg13.win 1).blk t).view.emb j) = V c main_v16 j
  refine congrArg (V c main_v16) ?_
  funext a; apply Fin.ext
  match a with
  | ⟨0, _⟩ => show win13_1.index t (0 : Fin 2) * 1 + 1 * (j 0).val = (j 0).val; omega
  | ⟨1, _⟩ => show win13_1.index t (1 : Fin 2) * 256 + 1 * (j 1).val = (j 1).val; omega

/-- Input window 2's block is its array. -/
theorem iblk13_2_eq (c : Dev nD) (t : Fin cfg13.N) : (iblk13 V c 2 t : Vec F S2048x256 .bf16) = V c main_v6 := by
  obtain ⟨-, -, -, -, e0, e1, -, -, -, -, -, -, -, -, -, -⟩ := idx13 t
  funext j
  show V c main_v6 (((cfg13.win 2).blk t).view.emb j) = V c main_v6 j
  refine congrArg (V c main_v6) ?_
  funext a; apply Fin.ext
  match a with
  | ⟨0, _⟩ => show win13_2.index t (0 : Fin 2) * 2048 + 1 * (j 0).val = (j 0).val; omega
  | ⟨1, _⟩ => show win13_2.index t (1 : Fin 2) * 256 + 1 * (j 1).val = (j 1).val; omega

/-- Input window 3's block is its array. -/
theorem iblk13_3_eq (c : Dev nD) (t : Fin cfg13.N) : (iblk13 V c 3 t : Vec F S1x256 .bf16) = V c main_v7 := by
  obtain ⟨-, -, -, -, -, -, e0, e1, -, -, -, -, -, -, -, -⟩ := idx13 t
  funext j
  show V c main_v7 (((cfg13.win 3).blk t).view.emb j) = V c main_v7 j
  refine congrArg (V c main_v7) ?_
  funext a; apply Fin.ext
  match a with
  | ⟨0, _⟩ => show win13_3.index t (0 : Fin 2) * 1 + 1 * (j 0).val = (j 0).val; omega
  | ⟨1, _⟩ => show win13_3.index t (1 : Fin 2) * 256 + 1 * (j 1).val = (j 1).val; omega

/-- Input window 4's block is its array. -/
theorem iblk13_4_eq (c : Dev nD) (t : Fin cfg13.N) : (iblk13 V c 4 t : Vec F S768x1 .bf16) = V c main_v31 := by
  obtain ⟨-, -, -, -, -, -, -, -, e0, e1, -, -, -, -, -, -⟩ := idx13 t
  funext j
  show V c main_v31 (((cfg13.win 4).blk t).view.emb j) = V c main_v31 j
  refine congrArg (V c main_v31) ?_
  funext a; apply Fin.ext
  match a with
  | ⟨0, _⟩ => show win13_4.index t (0 : Fin 2) * 768 + 1 * (j 0).val = (j 0).val; omega
  | ⟨1, _⟩ => show win13_4.index t (1 : Fin 2) * 1 + 1 * (j 1).val = (j 1).val; omega

/-- Input window 5's block is its array. -/
theorem iblk13_5_eq (c : Dev nD) (t : Fin cfg13.N) : (iblk13 V c 5 t : Vec F S1x1 .f32) = V c main_arg6 := by
  obtain ⟨-, -, -, -, -, -, -, -, -, -, e0, e1, -, -, -, -⟩ := idx13 t
  funext j
  show V c main_arg6 (((cfg13.win 5).blk t).view.emb j) = V c main_arg6 j
  refine congrArg (V c main_arg6) ?_
  funext a; apply Fin.ext
  match a with
  | ⟨0, _⟩ => show win13_5.index t (0 : Fin 2) * 1 + 1 * (j 0).val = (j 0).val; omega
  | ⟨1, _⟩ => show win13_5.index t (1 : Fin 2) * 1 + 1 * (j 1).val = (j 1).val; omega

/-- Input window 6's block is its array. -/
theorem iblk13_6_eq (c : Dev nD) (t : Fin cfg13.N) : (iblk13 V c 6 t : Vec F S256x128 .bf16) = V c main_v33 := by
  obtain ⟨-, -, -, -, -, -, -, -, -, -, -, -, e0, e1, -, -⟩ := idx13 t
  funext j
  show V c main_v33 (((cfg13.win 6).blk t).view.emb j) = V c main_v33 j
  refine congrArg (V c main_v33) ?_
  funext a; apply Fin.ext
  match a with
  | ⟨0, _⟩ => show win13_6.index t (0 : Fin 2) * 256 + 1 * (j 0).val = (j 0).val; omega
  | ⟨1, _⟩ => show win13_6.index t (1 : Fin 2) * 128 + 1 * (j 1).val = (j 1).val; omega

/-- What the region's one point leaves in the output array, as a function of the arrays it finds: the payload of the
    seven input arrays. -/
abbrev G13 (c : Dev nD) : S2048x128.Idx → Elt F .f32 :=
  k13_pay1 (V c main_v30) (V c main_v16) (V c main_v6) (V c main_v7) (V c main_v31) (V c main_arg6) (V c main_v33)

/-- What the body leaves in the output's buffer at the point is `G13`: every input block is its array. -/
theorem after13_7_eq (c : Dev nD) (t : Fin cfg13.N) : (dat13 V c).after 7 t = G13 V c := by
  rw [after13_7, iblk13_0_eq, iblk13_1_eq, iblk13_2_eq, iblk13_3_eq, iblk13_4_eq, iblk13_5_eq, iblk13_6_eq]
  exact out13_7_eq _ _ _ _ _ _ _

/-- What the point writes back is the whole of `G13`: the output's block is its array. -/
theorem flushed13_7 (c : Dev nD) (t : Fin cfg13.N) :
    (dat13 V c).flushed 7 t = ((cfg13.win 7).blk t).view.read (Elt F) (G13 V c) := by
  show (cfg13.win 7).cut (grid13.coords t) ((dat13 V c).after 7 t) = _
  rw [after13_7_eq]
  obtain ⟨-, -, -, -, -, -, -, -, -, -, -, -, -, -, e0, e1⟩ := idx13 t
  funext j
  show G13 V c j = G13 V c (((cfg13.win 7).blk t).view.emb j)
  refine congrArg (G13 V c) ?_
  funext a; apply Fin.ext
  match a with
  | ⟨0, _⟩ => show (j 0).val = win13_7.index t (0 : Fin 2) * 2048 + 1 * (j 0).val; omega
  | ⟨1, _⟩ => show (j 1).val = win13_7.index t (1 : Fin 2) * 128 + 1 * (j 1).val; omega

/-- An index of the output array is in the point's block iff each coordinate is in the block's range on its axis. -/
theorem mem_blk13_7 (t : Fin cfg13.N) (i : S2048x128.Idx) :
    i ∈ ((cfg13.win 7).blk t).view.set ↔ ∀ a : Fin 2, win13_7.index t a * S2048x128.size a ≤ (i a).val ∧ (i a).val < win13_7.index t a * S2048x128.size a + S2048x128.size a := by
  show i ∈ ((View.whole main_v34).slice (win13_7.rect t)).set ↔ _
  rw [View.set_slice_whole, Rect.mem_set_unit]
  exact Iff.rfl

/-- The one point's block covers the output array. -/
theorem covered13_7 (i : S2048x128.Idx) :
    ∃ t : Fin cfg13.N, (cfg13.win 7).flush t = true ∧ i ∈ ((cfg13.win 7).blk t).view.set := by
  have t : Fin cfg13.N := ⟨0, (by decide +kernel : 0 < grid13.N)⟩
  obtain ⟨-, -, -, -, -, -, -, -, -, -, -, -, -, -, e0, e1⟩ := idx13 t
  refine ⟨t, flush13_7 t, ?_⟩
  rw [mem_blk13_7]
  intro a
  have h0 : (i 0).val < 2048 := (i 0).isLt
  have h1 : (i 1).val < 128 := (i 1).isLt
  match a with
  | ⟨0, _⟩ => show win13_7.index t (0 : Fin 2) * 2048 ≤ (i 0).val ∧ (i 0).val < win13_7.index t (0 : Fin 2) * 2048 + 2048; omega
  | ⟨1, _⟩ => show win13_7.index t (1 : Fin 2) * 128 ≤ (i 1).val ∧ (i 1).val < win13_7.index t (1 : Fin 2) * 128 + 128; omega

/-- The output array after the region is `G13` of the arrays the region finds. -/
theorem final13 (c : Dev nD) : (dat13 V c).arrAt 7 cfg13.N = G13 V c :=
  (dat13 V c).arrAt_eq_of_cover 7 (G13 V c) (fun t _ => flushed13_7 V c t) covered13_7

end Blocks

/-- The region's output array after the region, column 0: the gated mixture of the rows of X and the row y, times the
    candidate row (the padded transpose's column 0), as the real-number specification writes it. -/
theorem val13 (V : (c : Dev nD) → (b : Ref sig .tc) → Buf (Elt Ideal) ((c : Thread nD τ).loc b)) (c : Dev nD)
    (X E : Mat L D) (y mrow : Mat 1 D) (Wg : Mat (3 * D) 1) (bg : Mat 1 1) (MT : Mat D 128)
    (hMT : ∀ k, MT k 0 = mrow 0 k)
    (h0 : V c main_v30 = ofM X) (h1 : V c main_v16 = ofM y) (h2 : V c main_v6 = ofM E) (h3 : V c main_v7 = ofM mrow)
    (h4 : V c main_v31 = ofM Wg) (h5 : V c main_arg6 = ofM bg) (h6 : V c main_v33 = ofM MT) :
    ∀ i : Fin 2048, (dat13 V c).arrAt 7 cfg13.N (ValueIdx.ix2 i (0 : Fin 128))
      = ((Cert.Spec.outK X E y mrow Wg bg i 0 : ℝ) : EReal) := by
  intro i
  rw [final13 V c]
  show k13_pay1 (F := Ideal) (V c main_v30) (V c main_v16) (V c main_v6) (V c main_v7) (V c main_v31) (V c main_arg6) (V c main_v33) (ix2 i (0 : Fin 128)) = _
  rw [h0, h1, h2, h3, h4, h5, h6]
  exact pay13_apply X E y mrow Wg bg MT hMT i

end Cert.KernelIdeal.HandVal

end
-- ==== Proof.Val.Kernel.lean ====
/-
  The value the kernel program leaves in its result buffer, over the reals. From the sixteen argument arrays, each an
  array of reals, the contents of the buffers are followed boundary by boundary through the program's items: the three
  large inputs cast and padded by zeros; `E = S·M` and `m = cand·M` (a product over a zero-padded inner dimension is
  the unpadded product); the eight small weights cast; the attention row `y`; the triangle of ones and `X₀ = E + P`;
  five rounds, each a projection call followed by an attention call, `X ↦ blockK X`; the gate's inputs; the gated
  mixture times the padded candidate column; and column 0 of that. Each step reads its inputs where the steps before
  left them: a buffer written by none of the items in between holds what it held.
-/
import proofs.«104406_j63058709840319_2_alg».proof.Proof.KI.Pdats
import proofs.«104406_j63058709840319_2_alg».proof.Proof.LibCoe.Basic
import proofs.«104406_j63058709840319_2_alg».proof.Proof.Bridge
import proofs.«104406_j63058709840319_2_alg».proof.Proof.Val.Host
import proofs.«104406_j63058709840319_2_alg».proof.Proof.Val.Val0
import proofs.«104406_j63058709840319_2_alg».proof.Proof.Val.Val1
import proofs.«104406_j63058709840319_2_alg».proof.Proof.Val.Val2
import proofs.«104406_j63058709840319_2_alg».proof.Proof.Val.Val3
import proofs.«104406_j63058709840319_2_alg».proof.Proof.Val.Val4
import proofs.«104406_j63058709840319_2_alg».proof.Proof.Val.Val5
import proofs.«104406_j63058709840319_2_alg».proof.Proof.Val.Val6
import proofs.«104406_j63058709840319_2_alg».proof.Proof.Val.Val7
import proofs.«104406_j63058709840319_2_alg».proof.Proof.Val.Val8
import proofs.«104406_j63058709840319_2_alg».proof.Proof.Val.Val9
import proofs.«104406_j63058709840319_2_alg».proof.Proof.Val.Val10
import proofs.«104406_j63058709840319_2_alg».proof.Proof.Val.Val11
import proofs.«104406_j63058709840319_2_alg».proof.Proof.Val.Val12
import proofs.«104406_j63058709840319_2_alg».proof.Proof.Val.Val13

-- decided memberships among the program's references recurse past the default depth
set_option maxRecDepth 16384

noncomputable section

namespace Cert.KernelIdeal.HandVal

open Cert.KernelIdeal Cert.KernelIdeal.Gen Cert.LibCoe
open Idealize.ShloMosaic Idealize.ShloMosaic.TcCoe Idealize.ShloMosaic.ValueIdx

/-! ## A buffer no item in between writes holds what it held -/

open Lean in
/-- `vkeep% m c r hi lo`: the buffer `r`, written by none of the items `lo+1 … hi`, holds at boundary `hi`
    what it held at boundary `lo`: the one-item facts `Gen.V<j>_of` chained, each side condition (that `r` is not among
    the item's written buffers) decided. -/
local macro "vkeep% " m:ident c:ident r:term:max hi:num lo:num : term => do
  let mut acc : Option (TSyntax `term) := none
  for j in [lo.getNat + 1 : hi.getNat + 1] do
    let lem := mkIdent (Name.mkSimple s!"V{j}_of")
    let step ← if j ≤ 6 then `($lem $m $c $r (by decide)) else `($lem $m (Hand.outs $m) $c $r (by decide))
    acc := some (← match acc with
      | none => pure step
      | some a => `(Eq.trans $step $a))
  match acc with
  | some a => pure a
  | none => `(rfl)

/-! ## The arguments -/

/-- The sixteen argument arrays on core `c` are arrays of reals: the matrices named as in the specification. -/
structure Args (m : (ℓ : Loc nD τ sig) → Buf (Elt Ideal) ℓ) (c : Dev nD)
    (S : Spec.Mat Spec.L Spec.I) (cand : Spec.Mat 1 Spec.I) (M : Spec.Mat Spec.I Spec.D) (P : Spec.Mat Spec.L Spec.D)
    (qS : Spec.Mat 1 Spec.D) (Wg : Spec.Mat (3 * Spec.D) 1) (bg : Spec.Mat 1 1)
    (Q K V Wk Wv W1 W2 : Spec.Mat Spec.D Spec.D) (b1 b2 : Spec.Mat 1 Spec.D) : Prop where
  h0 : (m ((c.tc : Thread nD τ).loc main_arg0) : S2048x20000.Idx → EReal) = ofM S
  h1 : (m ((c.tc : Thread nD τ).loc main_arg1) : S1x20000.Idx → EReal) = ofM cand
  h2 : (m ((c.tc : Thread nD τ).loc main_arg2) : S20000x256.Idx → EReal) = ofM M
  h3 : (m ((c.tc : Thread nD τ).loc main_arg3) : S2048x256.Idx → EReal) = ofM P
  h4 : (m ((c.tc : Thread nD τ).loc main_arg4) : S1x256.Idx → EReal) = ofM qS
  h5 : (m ((c.tc : Thread nD τ).loc main_arg5) : S768x1.Idx → EReal) = ofM Wg
  h6 : (m ((c.tc : Thread nD τ).loc main_arg6) : S1x1.Idx → EReal) = ofM bg
  h7 : (m ((c.tc : Thread nD τ).loc main_arg7) : S256x256.Idx → EReal) = ofM Q
  h8 : (m ((c.tc : Thread nD τ).loc main_arg8) : S256x256.Idx → EReal) = ofM K
  h9 : (m ((c.tc : Thread nD τ).loc main_arg9) : S256x256.Idx → EReal) = ofM V
  h10 : (m ((c.tc : Thread nD τ).loc main_arg10) : S256x256.Idx → EReal) = ofM Wk
  h11 : (m ((c.tc : Thread nD τ).loc main_arg11) : S256x256.Idx → EReal) = ofM Wv
  h12 : (m ((c.tc : Thread nD τ).loc main_arg12) : S256x256.Idx → EReal) = ofM W1
  h13 : (m ((c.tc : Thread nD τ).loc main_arg13) : S256x256.Idx → EReal) = ofM W2
  h14 : (m ((c.tc : Thread nD τ).loc main_arg14) : S1x256.Idx → EReal) = ofM b1
  h15 : (m ((c.tc : Thread nD τ).loc main_arg15) : S1x256.Idx → EReal) = ofM b2

variable {m : (ℓ : Loc nD τ sig) → Buf (Elt Ideal) ℓ} {c : Dev nD}
  {S : Spec.Mat Spec.L Spec.I} {cand : Spec.Mat 1 Spec.I} {M : Spec.Mat Spec.I Spec.D} {P : Spec.Mat Spec.L Spec.D}
  {qS : Spec.Mat 1 Spec.D} {Wg : Spec.Mat (3 * Spec.D) 1} {bg : Spec.Mat 1 1}
  {Q K V Wk Wv W1 W2 : Spec.Mat Spec.D Spec.D} {b1 b2 : Spec.Mat 1 Spec.D}

local notation "𝔸" => Args m c S cand M P qS Wg bg Q K V Wk Wv W1 W2 b1 b2

/-- The first round's input, `E + P` with `E = S·M`. -/
abbrev X0 (S : Spec.Mat Spec.L Spec.I) (M : Spec.Mat Spec.I Spec.D) (P : Spec.Mat Spec.L Spec.D) : Spec.Mat Spec.L Spec.D :=
  Matrix.of fun i j => Spec.mm S M i j + P i j

/-! ## Items 0 to 7: the padded inputs, `E = S·M` and `m = cand·M` -/

/-- After the casts and the zero pads: `S` and the candidate row with 480 zero columns more, `M` with 480 zero rows more. -/
theorem at6 (H : 𝔸) :
    (Gen.V6 m c main_v1 : S2048x20480.Idx → EReal) = ofM (Spec.padCols S)
      ∧ (Gen.V6 m c main_v3 : S1x20480.Idx → EReal) = ofM (Spec.padCols cand)
      ∧ (Gen.V6 m c main_v5 : S20480x256.Idx → EReal) = ofM (Spec.padRows M) :=
  host_pad (Gen.V0 m c) S cand M H.h0 H.h1 H.h2

/-- Call 0 leaves `E = S·M`: the product of the padded factors is the product of the factors. -/
theorem at7_v6 (H : 𝔸) : (Gen.V7 m (Hand.outs m) c main_v6 : S2048x256.Idx → EReal) = ofM (Spec.mm S M) := by
  obtain ⟨p1, -, p5⟩ := at6 H
  have v := val0 (Hand.Vin0 m) c (Spec.padCols S) (Spec.padRows M) p1 p5
  rw [Spec.mm_padCols_padRows] at v
  exact (Hand.Vout0_2 m c).trans v

/-- Call 1 leaves `m = cand·M`. -/
theorem at8_v7 (H : 𝔸) : (Gen.V8 m (Hand.outs m) c main_v7 : S1x256.Idx → EReal) = ofM (Spec.mm cand M) := by
  obtain ⟨-, p3, p5⟩ := at6 H
  have p3' : (Gen.V7 m (Hand.outs m) c main_v3 : S1x20480.Idx → EReal) = ofM (Spec.padCols cand) :=
    (vkeep% m c main_v3 7 6).trans p3
  have p5' : (Gen.V7 m (Hand.outs m) c main_v5 : S20480x256.Idx → EReal) = ofM (Spec.padRows M) :=
    (vkeep% m c main_v5 7 6).trans p5
  have v := val1 (Hand.Vin1 m) c (Spec.padCols cand) (Spec.padRows M) p3' p5'
  rw [Spec.mm_padCols_padRows] at v
  exact (Hand.Vout1_2 m c).trans v

/-! ## Items 8 and 9: the small weights cast, and the attention row -/

/-- After the casts of the eight small weights. -/
theorem at9 (H : 𝔸) :
    (Gen.V9 m (Hand.outs m) c main_v8 : S1x256.Idx → EReal) = ofM qS
      ∧ (Gen.V9 m (Hand.outs m) c main_v9 : S256x256.Idx → EReal) = ofM Wk
      ∧ (Gen.V9 m (Hand.outs m) c main_v10 : S256x256.Idx → EReal) = ofM Wv
      ∧ (Gen.V9 m (Hand.outs m) c main_v11 : S256x256.Idx → EReal) = ofM Q
      ∧ (Gen.V9 m (Hand.outs m) c main_v12 : S256x256.Idx → EReal) = ofM K
      ∧ (Gen.V9 m (Hand.outs m) c main_v13 : S256x256.Idx → EReal) = ofM V
      ∧ (Gen.V9 m (Hand.outs m) c main_v14 : S256x256.Idx → EReal) = ofM W1
      ∧ (Gen.V9 m (Hand.outs m) c main_v15 : S256x256.Idx → EReal) = ofM W2 :=
  host_casts (Gen.V8 m (Hand.outs m) c) qS Wk Wv Q K V W1 W2
    ((vkeep% m c main_arg4 8 0).trans H.h4)
    ((vkeep% m c main_arg10 8 0).trans H.h10)
    ((vkeep% m c main_arg11 8 0).trans H.h11)
    ((vkeep% m c main_arg7 8 0).trans H.h7)
    ((vkeep% m c main_arg8 8 0).trans H.h8)
    ((vkeep% m c main_arg9 8 0).trans H.h9)
    ((vkeep% m c main_arg12 8 0).trans H.h12)
    ((vkeep% m c main_arg13 8 0).trans H.h13)

/-- Call 2 leaves the attention row `y`. -/
theorem at10_v16 (H : 𝔸) :
    (Gen.V10 m (Hand.outs m) c main_v16 : S1x256.Idx → EReal) = ofM (Spec.yK (Spec.mm S M) Wk Wv qS) := by
  obtain ⟨c8, c9, c10, -⟩ := at9 H
  have e9 : (Gen.V9 m (Hand.outs m) c main_v6 : S2048x256.Idx → EReal) = ofM (Spec.mm S M) :=
    (vkeep% m c main_v6 9 7).trans (at7_v6 H)
  have v := val2 (Hand.Vin2 m) c (Spec.mm S M) Wk Wv qS e9 c9 c10 c8
  exact (Hand.Vout2_4 m c).trans v

/-! ## Items 10 to 12: the triangle of ones and the first round's input -/

theorem at13 (H : 𝔸) :
    (Gen.V13 m (Hand.outs m) c main_v18 : S2048x2048.Idx → EReal) = ofM (Spec.tril 2048)
      ∧ (Gen.V13 m (Hand.outs m) c main_v20 : S2048x256.Idx → EReal) = ofM (X0 S M P) :=
  host_tril_x0 (Gen.V10 m (Hand.outs m) c) (Spec.mm S M) P
    ((vkeep% m c main_v6 10 7).trans (at7_v6 H))
    ((vkeep% m c main_arg3 10 0).trans H.h3)

/-! ## What every round reads besides its input -/

/-- The buffers every round reads besides its input, at a valuation `W`: the three projections' weights, the triangle
    of ones, the two feed-forward weights and the two biases. -/
structure Consts (Q K V W1 W2 : Spec.Mat Spec.D Spec.D) (b1 b2 : Spec.Mat 1 Spec.D) (W : VI) : Prop where
  hQ : (W main_v11 : S256x256.Idx → EReal) = ofM Q
  hK : (W main_v12 : S256x256.Idx → EReal) = ofM K
  hV : (W main_v13 : S256x256.Idx → EReal) = ofM V
  hΔ : (W main_v18 : S2048x2048.Idx → EReal) = ofM (Spec.tril Spec.L)
  hW1 : (W main_v14 : S256x256.Idx → EReal) = ofM W1
  hW2 : (W main_v15 : S256x256.Idx → EReal) = ofM W2
  hb1 : (W main_arg14 : S1x256.Idx → EReal) = ofM b1
  hb2 : (W main_arg15 : S1x256.Idx → EReal) = ofM b2

/-- Those buffers. -/
abbrev constRefs : List (Ref sig .tc) :=
  [main_v11, main_v12, main_v13, main_v18, main_v14, main_v15, main_arg14, main_arg15]

/-- They hold at `W'` what they hold at `W` when the two valuations agree on them. -/
theorem Consts.of_eq {W W' : VI} (h : Consts Q K V W1 W2 b1 b2 W) (e : ∀ r ∈ constRefs, W' r = W r) :
    Consts Q K V W1 W2 b1 b2 W' where
  hQ := (e main_v11 (by decide)).trans h.hQ
  hK := (e main_v12 (by decide)).trans h.hK
  hV := (e main_v13 (by decide)).trans h.hV
  hΔ := (e main_v18 (by decide)).trans h.hΔ
  hW1 := (e main_v14 (by decide)).trans h.hW1
  hW2 := (e main_v15 (by decide)).trans h.hW2
  hb1 := (e main_arg14 (by decide)).trans h.hb1
  hb2 := (e main_arg15 (by decide)).trans h.hb2

/-- They hold their matrices when the first round is entered. -/
theorem consts13 (H : 𝔸) : Consts Q K V W1 W2 b1 b2 (Gen.V13 m (Hand.outs m) c) := by
  obtain ⟨-, -, -, c11, c12, c13, c14, c15⟩ := at9 H
  exact
    { hQ := (vkeep% m c main_v11 13 9).trans c11
      hK := (vkeep% m c main_v12 13 9).trans c12
      hV := (vkeep% m c main_v13 13 9).trans c13
      hΔ := (at13 H).1
      hW1 := (vkeep% m c main_v14 13 9).trans c14
      hW2 := (vkeep% m c main_v15 13 9).trans c15
      hb1 := (vkeep% m c main_arg14 13 0).trans H.h14
      hb2 := (vkeep% m c main_arg15 13 0).trans H.h15 }

/-! None of the ten calls of the rounds writes one of them. -/

theorem consts14 (h : Consts Q K V W1 W2 b1 b2 (Gen.V13 m (Hand.outs m) c)) : Consts Q K V W1 W2 b1 b2 (Gen.V14 m (Hand.outs m) c) :=
  h.of_eq fun r hr => V14_of m (Hand.outs m) c r
    ((by decide : ∀ r ∈ constRefs, r ∉ ([main_v21_0, main_v21_1, main_v21_2] : List (Ref sig .tc))) r hr)
theorem consts15 (h : Consts Q K V W1 W2 b1 b2 (Gen.V14 m (Hand.outs m) c)) : Consts Q K V W1 W2 b1 b2 (Gen.V15 m (Hand.outs m) c) :=
  h.of_eq fun r hr => V15_of m (Hand.outs m) c r
    ((by decide : ∀ r ∈ constRefs, r ∉ ([main_v22] : List (Ref sig .tc))) r hr)
theorem consts16 (h : Consts Q K V W1 W2 b1 b2 (Gen.V15 m (Hand.outs m) c)) : Consts Q K V W1 W2 b1 b2 (Gen.V16 m (Hand.outs m) c) :=
  h.of_eq fun r hr => V16_of m (Hand.outs m) c r
    ((by decide : ∀ r ∈ constRefs, r ∉ ([main_v23_0, main_v23_1, main_v23_2] : List (Ref sig .tc))) r hr)
theorem consts17 (h : Consts Q K V W1 W2 b1 b2 (Gen.V16 m (Hand.outs m) c)) : Consts Q K V W1 W2 b1 b2 (Gen.V17 m (Hand.outs m) c) :=
  h.of_eq fun r hr => V17_of m (Hand.outs m) c r
    ((by decide : ∀ r ∈ constRefs, r ∉ ([main_v24] : List (Ref sig .tc))) r hr)
theorem consts18 (h : Consts Q K V W1 W2 b1 b2 (Gen.V17 m (Hand.outs m) c)) : Consts Q K V W1 W2 b1 b2 (Gen.V18 m (Hand.outs m) c) :=
  h.of_eq fun r hr => V18_of m (Hand.outs m) c r
    ((by decide : ∀ r ∈ constRefs, r ∉ ([main_v25_0, main_v25_1, main_v25_2] : List (Ref sig .tc))) r hr)
theorem consts19 (h : Consts Q K V W1 W2 b1 b2 (Gen.V18 m (Hand.outs m) c)) : Consts Q K V W1 W2 b1 b2 (Gen.V19 m (Hand.outs m) c) :=
  h.of_eq fun r hr => V19_of m (Hand.outs m) c r
    ((by decide : ∀ r ∈ constRefs, r ∉ ([main_v26] : List (Ref sig .tc))) r hr)
theorem consts20 (h : Consts Q K V W1 W2 b1 b2 (Gen.V19 m (Hand.outs m) c)) : Consts Q K V W1 W2 b1 b2 (Gen.V20 m (Hand.outs m) c) :=
  h.of_eq fun r hr => V20_of m (Hand.outs m) c r
    ((by decide : ∀ r ∈ constRefs, r ∉ ([main_v27_0, main_v27_1, main_v27_2] : List (Ref sig .tc))) r hr)
theorem consts21 (h : Consts Q K V W1 W2 b1 b2 (Gen.V20 m (Hand.outs m) c)) : Consts Q K V W1 W2 b1 b2 (Gen.V21 m (Hand.outs m) c) :=
  h.of_eq fun r hr => V21_of m (Hand.outs m) c r
    ((by decide : ∀ r ∈ constRefs, r ∉ ([main_v28] : List (Ref sig .tc))) r hr)
theorem consts22 (h : Consts Q K V W1 W2 b1 b2 (Gen.V21 m (Hand.outs m) c)) : Consts Q K V W1 W2 b1 b2 (Gen.V22 m (Hand.outs m) c) :=
  h.of_eq fun r hr => V22_of m (Hand.outs m) c r
    ((by decide : ∀ r ∈ constRefs, r ∉ ([main_v29_0, main_v29_1, main_v29_2] : List (Ref sig .tc))) r hr)

/-! ## Items 13 to 22: the five rounds

A round is a projection call, leaving `X·Q`, `X·K` and `Δ·(X·V)`, then an attention call, leaving
`relu(softmax((X·Q)(X·K)ᵀ/16)·(Δ·(X·V))·W1 + b1)·W2 + b2`: together `blockK X`. -/

theorem round0 (X : Spec.Mat Spec.L Spec.D) (C : Consts Q K V W1 W2 b1 b2 (Gen.V13 m (Hand.outs m) c))
    (hX : (Gen.V13 m (Hand.outs m) c main_v20 : S2048x256.Idx → EReal) = ofM X) :
    (Gen.V15 m (Hand.outs m) c main_v22 : S2048x256.Idx → EReal) = ofM (Spec.blockK Q K V W1 W2 b1 b2 X) := by
  obtain ⟨p5, p6, p7⟩ := val3 (Hand.Vin3 m) c X Q K V hX C.hQ C.hK C.hV C.hΔ
  have C' := consts14 C
  have v := val4 (Hand.Vin4 m) c (Spec.mm X Q) (Spec.mm X K) (Spec.mm (Spec.tril Spec.L) (Spec.mm X V)) W1 W2 b1 b2
    ((Hand.Vout3_5 m c).trans p5) ((Hand.Vout3_6 m c).trans p6) ((Hand.Vout3_7 m c).trans p7)
    C'.hW1 C'.hW2 C'.hb1 C'.hb2
  exact (Hand.Vout4_7 m c).trans v

theorem round1 (X : Spec.Mat Spec.L Spec.D) (C : Consts Q K V W1 W2 b1 b2 (Gen.V15 m (Hand.outs m) c))
    (hX : (Gen.V15 m (Hand.outs m) c main_v22 : S2048x256.Idx → EReal) = ofM X) :
    (Gen.V17 m (Hand.outs m) c main_v24 : S2048x256.Idx → EReal) = ofM (Spec.blockK Q K V W1 W2 b1 b2 X) := by
  obtain ⟨p5, p6, p7⟩ := val5 (Hand.Vin5 m) c X Q K V hX C.hQ C.hK C.hV C.hΔ
  have C' := consts16 C
  have v := val6 (Hand.Vin6 m) c (Spec.mm X Q) (Spec.mm X K) (Spec.mm (Spec.tril Spec.L) (Spec.mm X V)) W1 W2 b1 b2
    ((Hand.Vout5_5 m c).trans p5) ((Hand.Vout5_6 m c).trans p6) ((Hand.Vout5_7 m c).trans p7)
    C'.hW1 C'.hW2 C'.hb1 C'.hb2
  exact (Hand.Vout6_7 m c).trans v

theorem round2 (X : Spec.Mat Spec.L Spec.D) (C : Consts Q K V W1 W2 b1 b2 (Gen.V17 m (Hand.outs m) c))
    (hX : (Gen.V17 m (Hand.outs m) c main_v24 : S2048x256.Idx → EReal) = ofM X) :
    (Gen.V19 m (Hand.outs m) c main_v26 : S2048x256.Idx → EReal) = ofM (Spec.blockK Q K V W1 W2 b1 b2 X) := by
  obtain ⟨p5, p6, p7⟩ := val7 (Hand.Vin7 m) c X Q K V hX C.hQ C.hK C.hV C.hΔ
  have C' := consts18 C
  have v := val8 (Hand.Vin8 m) c (Spec.mm X Q) (Spec.mm X K) (Spec.mm (Spec.tril Spec.L) (Spec.mm X V)) W1 W2 b1 b2
    ((Hand.Vout7_5 m c).trans p5) ((Hand.Vout7_6 m c).trans p6) ((Hand.Vout7_7 m c).trans p7)
    C'.hW1 C'.hW2 C'.hb1 C'.hb2
  exact (Hand.Vout8_7 m c).trans v

theorem round3 (X : Spec.Mat Spec.L Spec.D) (C : Consts Q K V W1 W2 b1 b2 (Gen.V19 m (Hand.outs m) c))
    (hX : (Gen.V19 m (Hand.outs m) c main_v26 : S2048x256.Idx → EReal) = ofM X) :
    (Gen.V21 m (Hand.outs m) c main_v28 : S2048x256.Idx → EReal) = ofM (Spec.blockK Q K V W1 W2 b1 b2 X) := by
  obtain ⟨p5, p6, p7⟩ := val9 (Hand.Vin9 m) c X Q K V hX C.hQ C.hK C.hV C.hΔ
  have C' := consts20 C
  have v := val10 (Hand.Vin10 m) c (Spec.mm X Q) (Spec.mm X K) (Spec.mm (Spec.tril Spec.L) (Spec.mm X V)) W1 W2 b1 b2
    ((Hand.Vout9_5 m c).trans p5) ((Hand.Vout9_6 m c).trans p6) ((Hand.Vout9_7 m c).trans p7)
    C'.hW1 C'.hW2 C'.hb1 C'.hb2
  exact (Hand.Vout10_7 m c).trans v

theorem round4 (X : Spec.Mat Spec.L Spec.D) (C : Consts Q K V W1 W2 b1 b2 (Gen.V21 m (Hand.outs m) c))
    (hX : (Gen.V21 m (Hand.outs m) c main_v28 : S2048x256.Idx → EReal) = ofM X) :
    (Gen.V23 m (Hand.outs m) c main_v30 : S2048x256.Idx → EReal) = ofM (Spec.blockK Q K V W1 W2 b1 b2 X) := by
  obtain ⟨p5, p6, p7⟩ := val11 (Hand.Vin11 m) c X Q K V hX C.hQ C.hK C.hV C.hΔ
  have C' := consts22 C
  have v := val12 (Hand.Vin12 m) c (Spec.mm X Q) (Spec.mm X K) (Spec.mm (Spec.tril Spec.L) (Spec.mm X V)) W1 W2 b1 b2
    ((Hand.Vout11_5 m c).trans p5) ((Hand.Vout11_6 m c).trans p6) ((Hand.Vout11_7 m c).trans p7)
    C'.hW1 C'.hW2 C'.hb1 C'.hb2
  exact (Hand.Vout12_7 m c).trans v

/-- After the five rounds: `blockK` five times from `X₀`. -/
theorem at23_v30 (H : 𝔸) :
    (Gen.V23 m (Hand.outs m) c main_v30 : S2048x256.Idx → EReal)
      = ofM ((Spec.blockK Q K V W1 W2 b1 b2)^[5] (X0 S M P)) := by
  have C13 := consts13 H
  have C15 := consts15 (consts14 C13)
  have C17 := consts17 (consts16 C15)
  have C19 := consts19 (consts18 C17)
  have C21 := consts21 (consts20 C19)
  have r0 := round0 (X0 S M P) C13 (at13 H).2
  have r1 := round1 _ C15 r0
  have r2 := round2 _ C17 r1
  have r3 := round3 _ C19 r2
  have r4 := round4 _ C21 r3
  have e : (Spec.blockK Q K V W1 W2 b1 b2)^[5] (X0 S M P)
      = Spec.blockK Q K V W1 W2 b1 b2 (Spec.blockK Q K V W1 W2 b1 b2 (Spec.blockK Q K V W1 W2 b1 b2
          (Spec.blockK Q K V W1 W2 b1 b2 (Spec.blockK Q K V W1 W2 b1 b2 (X0 S M P))))) := rfl
  rw [e]
  exact r4

/-! ## Items 23 to 26: the gate, the result, its column 0 -/

/-- The gate's weights cast, and the candidate row laid out as a column followed by 127 zero columns. -/
theorem at25 (H : 𝔸) :
    (Gen.V25 m (Hand.outs m) c main_v31 : S768x1.Idx → EReal) = ofM Wg
      ∧ (Gen.V25 m (Hand.outs m) c main_v33 : S256x128.Idx → EReal) = ofM (padT (Spec.mm cand M)) :=
  host_gate_in (Gen.V23 m (Hand.outs m) c) Wg (Spec.mm cand M)
    ((vkeep% m c main_arg5 23 0).trans H.h5)
    ((vkeep% m c main_v7 23 8).trans (at8_v7 H))

/-- Call 13 leaves in column 0 the gated mixture times the candidate row. -/
theorem at26_v34 (H : 𝔸) (i : Fin 2048) :
    (Gen.V26 m (Hand.outs m) c main_v34 : S2048x128.Idx → EReal) (ix2 i (0 : Fin 128))
      = ((Spec.outK ((Spec.blockK Q K V W1 W2 b1 b2)^[5] (X0 S M P)) (Spec.mm S M) (Spec.yK (Spec.mm S M) Wk Wv qS)
            (Spec.mm cand M) Wg bg i 0 : ℝ) : EReal) := by
  obtain ⟨g31, g33⟩ := at25 H
  have hx : (Gen.V25 m (Hand.outs m) c main_v30 : S2048x256.Idx → EReal)
      = ofM ((Spec.blockK Q K V W1 W2 b1 b2)^[5] (X0 S M P)) :=
    (vkeep% m c main_v30 25 23).trans (at23_v30 H)
  have hy : (Gen.V25 m (Hand.outs m) c main_v16 : S1x256.Idx → EReal) = ofM (Spec.yK (Spec.mm S M) Wk Wv qS) :=
    (vkeep% m c main_v16 25 10).trans (at10_v16 H)
  have hE : (Gen.V25 m (Hand.outs m) c main_v6 : S2048x256.Idx → EReal) = ofM (Spec.mm S M) :=
    (vkeep% m c main_v6 25 7).trans (at7_v6 H)
  have hm : (Gen.V25 m (Hand.outs m) c main_v7 : S1x256.Idx → EReal) = ofM (Spec.mm cand M) :=
    (vkeep% m c main_v7 25 8).trans (at8_v7 H)
  have hb : (Gen.V25 m (Hand.outs m) c main_arg6 : S1x1.Idx → EReal) = ofM bg :=
    (vkeep% m c main_arg6 25 0).trans H.h6
  have v := val13 (Hand.Vin13 m) c ((Spec.blockK Q K V W1 W2 b1 b2)^[5] (X0 S M P)) (Spec.mm S M)
    (Spec.yK (Spec.mm S M) Wk Wv qS) (Spec.mm cand M) Wg bg (padT (Spec.mm cand M)) (padT_zero (Spec.mm cand M))
    hx hy hE hm g31 hb g33 i
  exact (congrFun (Hand.Vout13_7 m c) _).trans v

end Cert.KernelIdeal.HandVal

namespace Cert.KernelIdeal.HandVal

open Cert.KernelIdeal Cert.KernelIdeal.Gen Cert.LibCoe
open Idealize.ShloMosaic Idealize.ShloMosaic.TcCoe Idealize.ShloMosaic.ValueIdx

/-- THE KERNEL PROGRAM'S VALUE: from argument arrays of reals, the result buffer holds the specification's kernel
    arrangement `resK` of them. Column 0 of what call 13 leaves is the last item's slice. -/
theorem kernel_value (m : (ℓ : Loc nD τ sig) → Buf (Elt Ideal) ℓ) (c : Dev nD) (S : Spec.Mat Spec.L Spec.I) (cand : Spec.Mat 1 Spec.I)
    (M : Spec.Mat Spec.I Spec.D) (P : Spec.Mat Spec.L Spec.D) (qS : Spec.Mat 1 Spec.D) (Wg : Spec.Mat (3 * Spec.D) 1) (bg : Spec.Mat 1 1)
    (Q K V Wk Wv W1 W2 : Spec.Mat Spec.D Spec.D) (b1 b2 : Spec.Mat 1 Spec.D)
    (h0 : m ((c.tc : Thread nD τ).loc main_arg0) = ofM S)
    (h1 : m ((c.tc : Thread nD τ).loc main_arg1) = ofM cand)
    (h2 : m ((c.tc : Thread nD τ).loc main_arg2) = ofM M)
    (h3 : m ((c.tc : Thread nD τ).loc main_arg3) = ofM P)
    (h4 : m ((c.tc : Thread nD τ).loc main_arg4) = ofM qS)
    (h5 : m ((c.tc : Thread nD τ).loc main_arg5) = ofM Wg)
    (h6 : m ((c.tc : Thread nD τ).loc main_arg6) = ofM bg)
    (h7 : m ((c.tc : Thread nD τ).loc main_arg7) = ofM Q)
    (h8 : m ((c.tc : Thread nD τ).loc main_arg8) = ofM K)
    (h9 : m ((c.tc : Thread nD τ).loc main_arg9) = ofM V)
    (h10 : m ((c.tc : Thread nD τ).loc main_arg10) = ofM Wk)
    (h11 : m ((c.tc : Thread nD τ).loc main_arg11) = ofM Wv)
    (h12 : m ((c.tc : Thread nD τ).loc main_arg12) = ofM W1)
    (h13 : m ((c.tc : Thread nD τ).loc main_arg13) = ofM W2)
    (h14 : m ((c.tc : Thread nD τ).loc main_arg14) = ofM b1)
    (h15 : m ((c.tc : Thread nD τ).loc main_arg15) = ofM b2) :
    Gen.V27 m (Hand.outs m) c main_v35 = ofM (Cert.Spec.resK S cand M P qS Wg bg Q K V Wk Wv W1 W2 b1 b2) := by
  have H : Args m c S cand M P qS Wg bg Q K V Wk Wv W1 W2 b1 b2 :=
    ⟨h0, h1, h2, h3, h4, h5, h6, h7, h8, h9, h10, h11, h12, h13, h14, h15⟩
  show (Gen.V27 m (Hand.outs m) c main_v35 : S2048x1.Idx → EReal) = _
  refine eq_ofM fun p q => ?_
  obtain rfl : q = 0 := Subsingleton.elim _ _
  exact (host_slice (Gen.V26 m (Hand.outs m) c) p).trans (at26_v34 H p)

end Cert.KernelIdeal.HandVal

end
-- ==== Proof.Pre.lean ====
/-
  From the precondition to real arrays. The precondition says, of each of the sixteen float inputs, that every entry
  `x` has `|x| < +∞` (an elementwise compare, reduced by `and` over both axes, the sixteen results and-ed).
  At the extended reals `|x| = max x (-x)`, so `|x| < ⊤` excludes both infinities: every entry is a real number,
  and the input is the array of a real matrix.
-/
import Idealize.ShloMosaic.Lib.ReduceAll
import Idealize.ShloMosaic.Lib.ValueIdx
import proofs.«104406_j63058709840319_2_alg».proof.Pre_finite_inputs
import proofs.«104406_j63058709840319_2_alg».proof.Proof.Spec
import proofs.«104406_j63058709840319_2_alg».proof.Proof.LibCoe.Basic

noncomputable section

namespace Cert.Pre

open Idealize.ShloMosaic Idealize.ShloMosaic.ValueIdx Cert.Pre_finite_inputs

/-- The scalar shape has one index. -/
instance : Subsingleton S_.Idx := ⟨fun a b => funext fun d => d.elim0⟩

/-- The pattern `0x7F800000` denotes `+∞`. -/
theorem inf_eq_top : Ideal.ofBits .f32 0x7F800000#32 = (⊤ : EReal) := by
  simp [Ideal.ofBits, Ideal.ieee]

/-- One entry: `|x| < +∞` says `x` is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (Ideal.ofBits .f32 0x7F800000#32) = 1#1 := h
  rw [inf_eq_top] at h'
  induction x using EReal.rec with
  | bot => simp [Ideal.cmp] at h'
  | coe r => exact ⟨r, rfl⟩
  | top => simp [Ideal.cmp] at h'

/-- One input: the `and` over all entries of `|x| < +∞` being 1 says the array is that of a real matrix. -/
theorem mat_of_all {a b : ℕ} {axes : List (Fin (⟨2, ![a, b]⟩ : Shape).rank)}
    (x : FVec Ideal (⟨2, ![a, b]⟩ : Shape) .f32)
    (hb : S_.BroadcastsInDim (⟨2, ![a, b]⟩ : Shape) (![] : Fin 0 → Fin (⟨2, ![a, b]⟩ : Shape).rank))
    (hr : (⟨2, ![a, b]⟩ : Shape).ReducesTo axes S_) (hS : 0 < S_.numel) (init : IVec S_ 1)
    (e : Host.reduce IntOp.andi
          (cmpf .olt (Host.absf x) (broadcastInDim (⟨2, ![a, b]⟩ : Shape) ![] hb (constant (F := Ideal) S_ .f32 0x7F800000#32)))
          init hr hS ix0 = 1#1) :
    ∃ A : Cert.Spec.Mat a b, x = Cert.LibCoe.ofM A := by
  have hx : ∀ i, ∃ r : ℝ, x i = (r : EReal) := fun i =>
    real_of_abs_lt_inf (x i) (Host.reduce_andi_all _ init hr hS ix0 e i)
  refine ⟨fun p q => (x (ix2 p q)).toReal, funext fun i => ?_⟩
  obtain ⟨r, hr'⟩ := hx i
  have key : ∀ j : (⟨2, ![a, b]⟩ : Shape).Idx, j = i → x i = (((x j).toReal : ℝ) : EReal) := by
    rintro j rfl
    rw [hr', EReal.toReal_coe]
  exact key (ix2 (i 0) (i 1)) (eq_ix2 i).symm

variable [Cert.Pre_finite_inputs.Facts]

/-- Every input of a state that satisfies the precondition is the array of a real matrix. -/
theorem reals_of_pre
    (x0 : FVec Ideal S2048x20000 .f32) (x1 : FVec Ideal S1x20000 .f32) (x2 : FVec Ideal S20000x256 .f32)
    (x3 : FVec Ideal S2048x256 .f32) (x4 : FVec Ideal S1x256 .f32) (x5 : FVec Ideal S768x1 .f32)
    (x6 : FVec Ideal S1x1 .f32) (x7 : FVec Ideal S256x256 .f32) (x8 : FVec Ideal S256x256 .f32)
    (x9 : FVec Ideal S256x256 .f32) (x10 : FVec Ideal S256x256 .f32) (x11 : FVec Ideal S256x256 .f32)
    (x12 : FVec Ideal S256x256 .f32) (x13 : FVec Ideal S256x256 .f32) (x14 : FVec Ideal S1x256 .f32)
    (x15 : FVec Ideal S1x256 .f32)
    (h : Cert.Pre_finite_inputs.fn (F := Ideal) x0 x1 x2 x3 x4 x5 x6 x7 x8 x9 x10 x11 x12 x13 x14 x15 = fun _ => 1#1) :
    (∃ A : Cert.Spec.Mat 2048 20000, x0 = Cert.LibCoe.ofM A) ∧ (∃ A : Cert.Spec.Mat 1 20000, x1 = Cert.LibCoe.ofM A) ∧
    (∃ A : Cert.Spec.Mat 20000 256, x2 = Cert.LibCoe.ofM A) ∧ (∃ A : Cert.Spec.Mat 2048 256, x3 = Cert.LibCoe.ofM A) ∧
    (∃ A : Cert.Spec.Mat 1 256, x4 = Cert.LibCoe.ofM A) ∧ (∃ A : Cert.Spec.Mat 768 1, x5 = Cert.LibCoe.ofM A) ∧
    (∃ A : Cert.Spec.Mat 1 1, x6 = Cert.LibCoe.ofM A) ∧ (∃ A : Cert.Spec.Mat 256 256, x7 = Cert.LibCoe.ofM A) ∧
    (∃ A : Cert.Spec.Mat 256 256, x8 = Cert.LibCoe.ofM A) ∧ (∃ A : Cert.Spec.Mat 256 256, x9 = Cert.LibCoe.ofM A) ∧
    (∃ A : Cert.Spec.Mat 256 256, x10 = Cert.LibCoe.ofM A) ∧ (∃ A : Cert.Spec.Mat 256 256, x11 = Cert.LibCoe.ofM A) ∧
    (∃ A : Cert.Spec.Mat 256 256, x12 = Cert.LibCoe.ofM A) ∧ (∃ A : Cert.Spec.Mat 256 256, x13 = Cert.LibCoe.ofM A) ∧
    (∃ A : Cert.Spec.Mat 1 256, x14 = Cert.LibCoe.ofM A) ∧ (∃ A : Cert.Spec.Mat 1 256, x15 = Cert.LibCoe.ofM A) := by
  have h0 := congrFun h ix0
  dsimp only [fn, fn_part1, fn_part2, fn_part3, fn_part4, andi] at h0
  simp only [IntOp.andi_eq_one] at h0
  obtain ⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩ := h0
  exact ⟨mat_of_all x0 _ _ _ _ e0, mat_of_all x1 _ _ _ _ e1, mat_of_all x2 _ _ _ _ e2, mat_of_all x3 _ _ _ _ e3,
    mat_of_all x4 _ _ _ _ e4, mat_of_all x5 _ _ _ _ e5, mat_of_all x6 _ _ _ _ e6, mat_of_all x7 _ _ _ _ e7,
    mat_of_all x8 _ _ _ _ e8, mat_of_all x9 _ _ _ _ e9, mat_of_all x10 _ _ _ _ e10, mat_of_all x11 _ _ _ _ e11,
    mat_of_all x12 _ _ _ _ e12, mat_of_all x13 _ _ _ _ e13, mat_of_all x14 _ _ _ _ e14, mat_of_all x15 _ _ _ _ e15⟩

end Cert.Pre

end
-- ==== Proof.lean ====
/-
  The five claims about a retrieval-and-gating program and its reference.

  From finite inputs both programs compute, over the reals: `E = S·M`; the attention row
  `y = softmax(qS·(E·Wk)ᵀ)·(E·Wv)`; from `X = E + P` five rounds of
  `X ↦ relu(softmax((X·Q)·(X·K)ᵀ/16)·Δ·(X·V)·W1 + b1)·W2 + b2` with `Δ` the lower-triangular matrix of ones; the row
  `m = cand·M`; the gate `g = σ([m | y | E]·Wg + bg)`; and the result `(X∘g + y∘(1-g))·mᵀ` (Proof/Spec.lean).
  The kernel program arranges the same sums differently — a zero-padded, blocked accumulation of `S·M`, a product
  with the reciprocal of the softmax denominator, `Δ·(X·V)` before the product with the attention weights, the gate's
  product in three blocks, the result as column 0 of a padded product — and every rearrangement is an identity of real
  arithmetic (Proof/Bridge.lean).

  The three frame claims: each program runs from any memory and leaves its sixteen argument arrays as launched (the
  kernel program's fourteen kernel calls each run through their grid and write only their own outputs; the reference
  is a sequence of host operations none of which writes an argument). Nothing was rewritten between the kernel program
  and its reading at the extended reals. At the extended reals, the precondition says that every entry of every argument
  is finite, so each argument is the array of a real matrix (Proof/Pre.lean); operation by operation real arrays go to
  real arrays, the kernel program's result buffer ends at the array of `resK` of those matrices (Proof/Val/Kernel.lean)
  and the reference's at the array of `resR` (Proof/Ref/Value.lean); `resK = resR`.
-/
import proofs.«104406_j63058709840319_2_alg».proof.Defs
import proofs.«104406_j63058709840319_2_alg».proof.Proof.Gen.Kernel
import proofs.«104406_j63058709840319_2_alg».proof.Proof.Gen.KernelIdeal
import proofs.«104406_j63058709840319_2_alg».proof.Proof.Gen.ReferenceIdeal
import proofs.«104406_j63058709840319_2_alg».proof.Proof.Gen.Pre_finite_inputs
import proofs.«104406_j63058709840319_2_alg».proof.Proof.KB.Run
import proofs.«104406_j63058709840319_2_alg».proof.Proof.KI.Run
import proofs.«104406_j63058709840319_2_alg».proof.Proof.Ref.RunPRun
import proofs.«104406_j63058709840319_2_alg».proof.Proof.Ref.Value
import proofs.«104406_j63058709840319_2_alg».proof.Proof.Val.Kernel
import proofs.«104406_j63058709840319_2_alg».proof.Proof.Pre
import proofs.«104406_j63058709840319_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed, from any memory: it runs and leaves its sixteen arguments as launched (the whole
    run's post without the result's conjunct). -/
theorem frame_k : Cert.frame_Kernel := fun m ρ _ =>
  Cert.Kernel.Hand.frame_of_run m ρ

/-- The same at the extended reals. -/
theorem frame_ki : Cert.frame_KernelIdeal := fun m ρ _ =>
  Cert.KernelIdeal.Hand.frame_of_run m ρ

/-- The reference, a sequence of host operations, runs from any memory and leaves its arguments as launched. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote no operation: nothing to preserve. -/
theorem preserves : Cert.preserves_Kernel_KernelIdeal := trivial

/-- At the extended reals, from memories that agree on the arguments, of which the kernel's are finite: every
    argument is the array of a real matrix, so the kernel's result buffer holds the array of the kernel arrangement
    `resK` of those matrices and the reference's that of the reference arrangement `resR`; the two arrangements are
    one real matrix. -/
theorem algebraic : Cert.algebraic_KernelIdeal_ReferenceIdeal := by
  intro m ρ m' ρ' hpre hagree
  refine ⟨fun c => Cert.KernelIdeal.Gen.V27 m (Cert.KernelIdeal.Hand.outs m) c Cert.KernelIdeal.main_v35,
    Cert.KernelIdeal.Hand.run_main m ρ, ?_⟩
  refine (θ_run Cert.ReferenceIdeal.defs _ _).mono (fun _ h c => ⟨(h c).1.trans ?_, (h c).2⟩)
    (Cert.ReferenceIdeal.RunP.run (F := Ideal) m' ρ')
  obtain ⟨⟨S, hS⟩, ⟨cand, hcand⟩, ⟨M, hM⟩, ⟨P, hP⟩, ⟨qS, hqS⟩, ⟨Wg, hWg⟩, ⟨bg, hbg⟩, ⟨Q, hQ⟩, ⟨K, hK⟩, ⟨V, hV⟩, ⟨Wk, hWk⟩, ⟨Wv, hWv⟩, ⟨W1, hW1⟩, ⟨W2, hW2⟩, ⟨b1, hb1⟩, ⟨b2, hb2⟩⟩ :=
    Cert.Pre.reals_of_pre _ _ _ _ _ _ _ _ _ _ _ _ _ _ _ _ (hpre c)
  obtain ⟨a0, a1, a2, a3, a4, a5, a6, a7, a8, a9, a10, a11, a12, a13, a14, a15⟩ := hagree c
  exact (Cert.ReferenceIdeal.RefValue.result_eq m' c S cand M P qS Wg bg Q K V Wk Wv W1 W2 b1 b2
      (a0.trans hS) (a1.trans hcand) (a2.trans hM) (a3.trans hP) (a4.trans hqS) (a5.trans hWg) (a6.trans hbg) (a7.trans hQ) (a8.trans hK) (a9.trans hV) (a10.trans hWk) (a11.trans hWv) (a12.trans hW1) (a13.trans hW2) (a14.trans hb1) (a15.trans hb2)).trans
    ((congrArg Cert.LibCoe.ofM (Cert.Spec.resK_eq_resR S cand M P qS Wg bg Q K V Wk Wv W1 W2 b1 b2)).symm.trans
      (Cert.KernelIdeal.HandVal.kernel_value m c S cand M P qS Wg bg Q K V Wk Wv W1 W2 b1 b2
        hS hcand hM hP hqS hWg hbg hQ hK hV hWk hWv hW1 hW2 hb1 hb2).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
